-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4x4096x50 : Shape := ⟨3, ![4, 4096, 50]⟩
abbrev S100000x128 : Shape := ⟨2, ![100000, 128]⟩
abbrev S384x256 : Shape := ⟨2, ![384, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S4x4096x50 : S_.BroadcastsInDim S4x4096x50 (![] : Fin 0 → Fin S4x4096x50.rank)
  reducesTo_S4x4096x50_S_d0_1_2 : S4x4096x50.ReducesTo [0, 1, 2] S_

variable [Facts]

def fn_part2 {F : FTy → Type} [FloatOps F] (main_arg0 : IVec S4x4096x50 32) (main_v33 : IVec S_ 1) : IVec S_ 1 :=
  let main_c_12 : IVec S_ 32 := constantI S_ 32 0#32
  let main_v34 : IVec S4x4096x50 32 := broadcastInDim S4x4096x50 ![] bcast_S_S4x4096x50 main_c_12
  let main_v35 : IVec S4x4096x50 1 := cmpi .sge main_arg0 main_v34
  let main_c_13 : IVec S_ 32 := constantI S_ 32 99999#32
  let main_v36 : IVec S4x4096x50 32 := broadcastInDim S4x4096x50 ![] bcast_S_S4x4096x50 main_c_13
  let main_v37 : IVec S4x4096x50 1 := cmpi .sle main_arg0 main_v36
  let main_v38 : IVec S4x4096x50 1 := andi main_v35 main_v37
  let main_c_14 : IVec S_ 1 := constantI S_ 1 1#1
  let main_v39 : IVec S_ 1 := (fun x v => Host.reduce IntOp.andi x v reducesTo_S4x4096x50_S_d0_1_2 h_S_) main_v38 main_c_14
  let main_v40 : IVec S_ 1 := andi main_v33 main_v39
  main_v40

def fn_part1 {F : FTy → Type} [FloatOps F] (main_arg0 : IVec S4x4096x50 32) (main_arg5 : FVec F S256 .f32) (main_arg6 : FVec F S256x10 .f32) (main_arg7 : FVec F S10 .f32) (main_v13 : IVec S_ 1) (main_v16 : IVec S384x256 1) : IVec S_ 1 :=
  let main_c_5 : IVec S_ 1 := constantI S_ 1 1#1
  let main_v17 : IVec S_ 1 := (fun x v => Host.reduce IntOp.andi x v reducesTo_S384x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x10 .f32 := Host.absf main_arg6
  let main_cst_8 : FVec F S_ .f32 := constant S_ .f32 0x7F800000#32
  let main_v25 : FVec F S256x10 .f32 := broadcastInDim S256x10 ![] bcast_S_S256x10 main_cst_8
  let main_v26 : IVec S256x10 1 := cmpf .olt main_v24 main_v25
  let main_c_9 : IVec S_ 1 := constantI S_ 1 1#1
  let main_v27 : IVec S_ 1 := (fun x v => Host.reduce IntOp.andi x v reducesTo_S256x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg0 main_v33

def fn {F : FTy → Type} [FloatOps F] (main_arg0 : IVec S4x4096x50 32) (main_arg1 : FVec F S100000x128 .f32) (main_arg2 : FVec F S100000x128 .f32) (main_arg3 : FVec F S100000x128 .f32) (main_arg4 : FVec F S384x256 .f32) (main_arg5 : FVec F S256 .f32) (main_arg6 : FVec F S256x10 .f32) (main_arg7 : FVec F S10 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg2
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg3
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S384x256 .f32 := Host.absf main_arg4
  let main_cst_4 : FVec F S_ .f32 := constant S_ .f32 0x7F800000#32
  let main_v15 : FVec F S384x256 .f32 := broadcastInDim S384x256 ![] bcast_S_S384x256 main_cst_4
  let main_v16 : IVec S384x256 1 := cmpf .olt main_v14 main_v15
  fn_part1 (F := F) main_arg0 main_arg5 main_arg6 main_arg7 main_v13 main_v16
-- ==== Kernel.lean ====
abbrev S4x4096x50 : Shape := ⟨3, ![4, 4096, 50]⟩
abbrev S100000x128 : Shape := ⟨2, ![100000, 128]⟩
abbrev S384x256 : Shape := ⟨2, ![384, 256]⟩
abbrev S256 : Shape := ⟨1, ![256]⟩
abbrev S256x10 : Shape := ⟨2, ![256, 10]⟩
abbrev S10 : Shape := ⟨1, ![10]⟩
abbrev S819200 : Shape := ⟨1, ![819200]⟩
abbrev S3x4096x128 : Shape := ⟨3, ![3, 4096, 128]⟩
abbrev S6400 : Shape := ⟨1, ![6400]⟩
abbrev S200x128 : Shape := ⟨2, ![200, 128]⟩
abbrev S16x128 : Shape := ⟨2, ![16, 128]⟩
abbrev S_ : Shape := ⟨0, ![]⟩
abbrev S200 : Shape := ⟨1, ![200]⟩
abbrev S16 : Shape := ⟨1, ![16]⟩
abbrev S1x16 : Shape := ⟨2, ![1, 16]⟩
abbrev S1x16x128 : Shape := ⟨3, ![1, 16, 128]⟩
abbrev S3x128x256 : Shape := ⟨3, ![3, 128, 256]⟩
abbrev S1x256 : Shape := ⟨2, ![1, 256]⟩
abbrev S256x128 : Shape := ⟨2, ![256, 128]⟩
abbrev S128 : Shape := ⟨1, ![128]⟩
abbrev S1x128 : Shape := ⟨2, ![1, 128]⟩
abbrev S4096x128 : Shape := ⟨2, ![4096, 128]⟩
abbrev S3x512x128 : Shape := ⟨3, ![3, 512, 128]⟩
abbrev S512x128 : Shape := ⟨2, ![512, 128]⟩
abbrev S1x512x128 : Shape := ⟨3, ![1, 512, 128]⟩
abbrev S1x128x256 : Shape := ⟨3, ![1, 128, 256]⟩
abbrev S128x256 : Shape := ⟨2, ![128, 256]⟩
abbrev S512x256 : Shape := ⟨2, ![512, 256]⟩
abbrev S4096x10 : Shape := ⟨2, ![4096, 10]⟩

abbrev nBuf : Table → Nat
  | .hbm => 21
  | .local .tc .vmem => 8
  | .local .scVector .vmem => 7
  | _ => 0

abbrev bufTy : (tb : Table) → Fin (nBuf tb) → BufTy
  | .hbm, ⟨0, _⟩ => ⟨S4x4096x50, .i32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S384x256, .f32⟩
  | .hbm, ⟨5, _⟩ => ⟨S256, .f32⟩
  | .hbm, ⟨6, _⟩ => ⟨S256x10, .f32⟩
  | .hbm, ⟨7, _⟩ => ⟨S10, .f32⟩
  | .hbm, ⟨8, _⟩ => ⟨S819200, .i32⟩
  | .hbm, ⟨9, _⟩ => ⟨S3x4096x128, .f32⟩
  | .hbm, ⟨10, _⟩ => ⟨S3x128x256, .f32⟩
  | .hbm, ⟨11, _⟩ => ⟨S1x256, .f32⟩
  | .hbm, ⟨12, _⟩ => ⟨S_, .i32⟩
  | .hbm, ⟨13, _⟩ => ⟨S_, .f32⟩
  | .hbm, ⟨14, _⟩ => ⟨S256x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S4096x128, .f32⟩
  | .hbm, ⟨20, _⟩ => ⟨S4096x10, .f32⟩
  | .local .tc .vmem, ⟨0, _⟩ => ⟨S3x512x128, .f32⟩
  | .local .tc .vmem, ⟨1, _⟩ => ⟨S3x512x128, .f32⟩
  | .local .tc .vmem, ⟨2, _⟩ => ⟨S3x128x256, .f32⟩
  | .local .tc .vmem, ⟨3, _⟩ => ⟨S1x256, .f32⟩
  | .local .tc .vmem, ⟨4, _⟩ => ⟨S256x128, .f32⟩
  | .local .tc .vmem, ⟨5, _⟩ => ⟨S1x128, .f32⟩
  | .local .tc .vmem, ⟨6, _⟩ => ⟨S512x128, .f32⟩
  | .local .tc .vmem, ⟨7, _⟩ => ⟨S512x128, .f32⟩
  | .local .scVector .vmem, ⟨0, _⟩ => ⟨S6400, .i32⟩
  | .local .scVector .vmem, ⟨1, _⟩ => ⟨S6400, .i32⟩
  | .local .scVector .vmem, ⟨2, _⟩ => ⟨S200x128, .f32⟩
  | .local .scVector .vmem, ⟨3, _⟩ => ⟨S200x128, .f32⟩
  | .local .scVector .vmem, ⟨4, _⟩ => ⟨S200x128, .f32⟩
  | .local .scVector .vmem, ⟨5, _⟩ => ⟨S200x128, .f32⟩
  | .local .scVector .vmem, ⟨6, _⟩ => ⟨S16x128, .f32⟩
  | _, _ => ⟨S4x4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 8, rfl⟩
abbrev main_v1_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c50_i32 : BitVec 32 := 50#32
  let v3 : BitVec 32 := Scalar.muli v2 c50_i32
  let v4 : BitVec 32 := Scalar.addi c0_i32 v3
  ![v4.toNat]
def k0_off1_at (r : Fin 3) : BitVec 32 :=
  if r.val < 1 then
    0#32
  else
    if r.val < 2 then
      409600#32
    else
      614400#32
def k0_mult1 : BitVec 32 :=
  let c0_i32_0 : BitVec 32 := 0#32
  c0_i32_0
def k0_mult2 : BitVec 32 :=
  let c200_i32 : BitVec 32 := 200#32
  c200_i32
def k0_mult3 : BitVec 32 :=
  let c400_i32 : BitVec 32 := 400#32
  c400_i32
def k0_mult4 : BitVec 32 :=
  let c600_i32 : BitVec 32 := 600#32
  c600_i32
@[reducible] def k0_t1_loop : Scf.Loop 32 :=
  let c0_i32_11 : BitVec 32 := 0#32
  let c8_i32 : BitVec 32 := 8#32
  let v19 : BitVec 32 := Scalar.addi c0_i32_11 c8_i32
  let c1_i32 : BitVec 32 := 1#32
  ⟨c0_i32_11, v19, c1_i32⟩
@[reducible] def k0_t2_loop : Scf.Loop 32 :=
  let c0_i32_34 : BitVec 32 := 0#32
  let c25_i32 : BitVec 32 := 25#32
  let v34 : BitVec 32 := Scalar.addi c0_i32_34 c25_i32
  let c1_i32_35 : BitVec 32 := 1#32
  ⟨c0_i32_34, v34, c1_i32_35⟩
def k0_off2 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v988 : Index := Scalar.indexCast v987
  let c0_609 : Index := 0#32
  ![v988.toNat, 0]
def k0_off3 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off4 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v997 : Index := Scalar.indexCast v987
  let c16_612 : Index := 16#32
  ![v997.toNat, 16]
def k0_off5 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off6 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v1006 : Index := Scalar.indexCast v987
  let c32_615 : Index := 32#32
  ![v1006.toNat, 32]
def k0_off7 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off8 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v1015 : Index := Scalar.indexCast v987
  let c48_618 : Index := 48#32
  ![v1015.toNat, 48]
def k0_off9 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off10 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v1024 : Index := Scalar.indexCast v987
  let c64_621 : Index := 64#32
  ![v1024.toNat, 64]
def k0_off11 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off12 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v1033 : Index := Scalar.indexCast v987
  let c80_624 : Index := 80#32
  ![v1033.toNat, 80]
def k0_off13 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off14 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v1042 : Index := Scalar.indexCast v987
  let c96_627 : Index := 96#32
  ![v1042.toNat, 96]
def k0_off15 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off16 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let v1051 : Index := Scalar.indexCast v987
  let c112_630 : Index := 112#32
  ![v1051.toNat, 112]
def k0_off17 (k0_t2 : Fin k0_t2_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t2
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t3_loop : Scf.Loop 32 :=
  let c0_i32_61 : BitVec 32 := 0#32
  let c25_i32_62 : BitVec 32 := 25#32
  let v92 : BitVec 32 := Scalar.addi c0_i32_61 c25_i32_62
  let c1_i32_63 : BitVec 32 := 1#32
  ⟨c0_i32_61, v92, c1_i32_63⟩
def k0_off18 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v988 : Index := Scalar.indexCast v987
  let c0_609 : Index := 0#32
  ![v988.toNat, 0]
def k0_off19 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off20 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v997 : Index := Scalar.indexCast v987
  let c16_612 : Index := 16#32
  ![v997.toNat, 16]
def k0_off21 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off22 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v1006 : Index := Scalar.indexCast v987
  let c32_615 : Index := 32#32
  ![v1006.toNat, 32]
def k0_off23 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off24 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v1015 : Index := Scalar.indexCast v987
  let c48_618 : Index := 48#32
  ![v1015.toNat, 48]
def k0_off25 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off26 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v1024 : Index := Scalar.indexCast v987
  let c64_621 : Index := 64#32
  ![v1024.toNat, 64]
def k0_off27 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off28 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v1033 : Index := Scalar.indexCast v987
  let c80_624 : Index := 80#32
  ![v1033.toNat, 80]
def k0_off29 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off30 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v1042 : Index := Scalar.indexCast v987
  let c96_627 : Index := 96#32
  ![v1042.toNat, 96]
def k0_off31 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off32 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let v1051 : Index := Scalar.indexCast v987
  let c112_630 : Index := 112#32
  ![v1051.toNat, 112]
def k0_off33 (k0_t3 : Fin k0_t3_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t3
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t4_loop : Scf.Loop 32 :=
  let c0_i32_97 : BitVec 32 := 0#32
  let c25_i32_98 : BitVec 32 := 25#32
  let v150 : BitVec 32 := Scalar.addi c0_i32_97 c25_i32_98
  let c1_i32_99 : BitVec 32 := 1#32
  ⟨c0_i32_97, v150, c1_i32_99⟩
def k0_off34 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v988 : Index := Scalar.indexCast v987
  let c0_608 : Index := 0#32
  ![v988.toNat, 0]
def k0_off35 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off36 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v997 : Index := Scalar.indexCast v987
  let c16_611 : Index := 16#32
  ![v997.toNat, 16]
def k0_off37 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off38 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v1006 : Index := Scalar.indexCast v987
  let c32_614 : Index := 32#32
  ![v1006.toNat, 32]
def k0_off39 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off40 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v1015 : Index := Scalar.indexCast v987
  let c48_617 : Index := 48#32
  ![v1015.toNat, 48]
def k0_off41 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off42 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v1024 : Index := Scalar.indexCast v987
  let c64_620 : Index := 64#32
  ![v1024.toNat, 64]
def k0_off43 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off44 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v1033 : Index := Scalar.indexCast v987
  let c80_623 : Index := 80#32
  ![v1033.toNat, 80]
def k0_off45 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off46 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v1042 : Index := Scalar.indexCast v987
  let c96_626 : Index := 96#32
  ![v1042.toNat, 96]
def k0_off47 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off48 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let v1051 : Index := Scalar.indexCast v987
  let c112_629 : Index := 112#32
  ![v1051.toNat, 112]
def k0_off49 (k0_t4 : Fin k0_t4_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t4
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t5_loop : Scf.Loop 32 :=
  let c0_i32_133 : BitVec 32 := 0#32
  let c25_i32_134 : BitVec 32 := 25#32
  let v208 : BitVec 32 := Scalar.addi c0_i32_133 c25_i32_134
  let c1_i32_135 : BitVec 32 := 1#32
  ⟨c0_i32_133, v208, c1_i32_135⟩
def k0_off50 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v988 : Index := Scalar.indexCast v987
  let c0_608 : Index := 0#32
  ![v988.toNat, 0]
def k0_off51 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off52 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v997 : Index := Scalar.indexCast v987
  let c16_611 : Index := 16#32
  ![v997.toNat, 16]
def k0_off53 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off54 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v1006 : Index := Scalar.indexCast v987
  let c32_614 : Index := 32#32
  ![v1006.toNat, 32]
def k0_off55 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off56 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v1015 : Index := Scalar.indexCast v987
  let c48_617 : Index := 48#32
  ![v1015.toNat, 48]
def k0_off57 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off58 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v1024 : Index := Scalar.indexCast v987
  let c64_620 : Index := 64#32
  ![v1024.toNat, 64]
def k0_off59 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off60 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v1033 : Index := Scalar.indexCast v987
  let c80_623 : Index := 80#32
  ![v1033.toNat, 80]
def k0_off61 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off62 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v1042 : Index := Scalar.indexCast v987
  let c96_626 : Index := 96#32
  ![v1042.toNat, 96]
def k0_off63 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off64 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let v1051 : Index := Scalar.indexCast v987
  let c112_629 : Index := 112#32
  ![v1051.toNat, 112]
def k0_off65 (k0_t5 : Fin k0_t5_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t5
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond1 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32 : BitVec 32 := 7#32
  let v258 : BitVec 1 := Scalar.cmpi .slt arg18 c7_i32
  let v259 : BitVec 32 := Scalar.extui v258
  let c0_i32_160 : BitVec 32 := 0#32
  let v260 : BitVec 1 := Scalar.cmpi .ne v259 c0_i32_160
  v260

def k0_mult5 (k0_t1 : Fin k0_t1_loop.trips) : BitVec 32 :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c0_i32_608 : BitVec 32 := 0#32
  let v987 : BitVec 32 := Scalar.addi v986 c0_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off66 (k0_t1 : Fin k0_t1_loop.trips) : Fin 1 → Nat :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c0_i32_608 : BitVec 32 := 0#32
  let v987 : BitVec 32 := Scalar.addi v986 c0_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond2 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32_161 : BitVec 32 := 7#32
  let v261 : BitVec 1 := Scalar.cmpi .eq arg18 c7_i32_161
  let v262 : BitVec 32 := Scalar.extui v261
  let c0_i32_162 : BitVec 32 := 0#32
  let v263 : BitVec 1 := Scalar.cmpi .ne v262 c0_i32_162
  v263

def k0_mult6 : BitVec 32 :=
  let c0_i32_607 : BitVec 32 := 0#32
  c0_i32_607
@[reducible] def k0_t6_loop : Scf.Loop 32 :=
  let c0_i32_174 : BitVec 32 := 0#32
  let c25_i32_175 : BitVec 32 := 25#32
  let v274 : BitVec 32 := Scalar.addi c0_i32_174 c25_i32_175
  let c1_i32_176 : BitVec 32 := 1#32
  ⟨c0_i32_174, v274, c1_i32_176⟩
def k0_off67 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v988 : Index := Scalar.indexCast v987
  let c0_609 : Index := 0#32
  ![v988.toNat, 0]
def k0_off68 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off69 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v997 : Index := Scalar.indexCast v987
  let c16_612 : Index := 16#32
  ![v997.toNat, 16]
def k0_off70 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off71 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v1006 : Index := Scalar.indexCast v987
  let c32_615 : Index := 32#32
  ![v1006.toNat, 32]
def k0_off72 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off73 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v1015 : Index := Scalar.indexCast v987
  let c48_618 : Index := 48#32
  ![v1015.toNat, 48]
def k0_off74 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off75 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v1024 : Index := Scalar.indexCast v987
  let c64_621 : Index := 64#32
  ![v1024.toNat, 64]
def k0_off76 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off77 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v1033 : Index := Scalar.indexCast v987
  let c80_624 : Index := 80#32
  ![v1033.toNat, 80]
def k0_off78 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off79 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v1042 : Index := Scalar.indexCast v987
  let c96_627 : Index := 96#32
  ![v1042.toNat, 96]
def k0_off80 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off81 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let v1051 : Index := Scalar.indexCast v987
  let c112_630 : Index := 112#32
  ![v1051.toNat, 112]
def k0_off82 (k0_t6 : Fin k0_t6_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t6
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t7_loop : Scf.Loop 32 :=
  let c0_i32_209 : BitVec 32 := 0#32
  let c25_i32_210 : BitVec 32 := 25#32
  let v332 : BitVec 32 := Scalar.addi c0_i32_209 c25_i32_210
  let c1_i32_211 : BitVec 32 := 1#32
  ⟨c0_i32_209, v332, c1_i32_211⟩
def k0_off83 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v988 : Index := Scalar.indexCast v987
  let c0_609 : Index := 0#32
  ![v988.toNat, 0]
def k0_off84 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off85 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v997 : Index := Scalar.indexCast v987
  let c16_612 : Index := 16#32
  ![v997.toNat, 16]
def k0_off86 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off87 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v1006 : Index := Scalar.indexCast v987
  let c32_615 : Index := 32#32
  ![v1006.toNat, 32]
def k0_off88 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off89 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v1015 : Index := Scalar.indexCast v987
  let c48_618 : Index := 48#32
  ![v1015.toNat, 48]
def k0_off90 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off91 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v1024 : Index := Scalar.indexCast v987
  let c64_621 : Index := 64#32
  ![v1024.toNat, 64]
def k0_off92 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off93 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v1033 : Index := Scalar.indexCast v987
  let c80_624 : Index := 80#32
  ![v1033.toNat, 80]
def k0_off94 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off95 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v1042 : Index := Scalar.indexCast v987
  let c96_627 : Index := 96#32
  ![v1042.toNat, 96]
def k0_off96 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off97 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let v1051 : Index := Scalar.indexCast v987
  let c112_630 : Index := 112#32
  ![v1051.toNat, 112]
def k0_off98 (k0_t7 : Fin k0_t7_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t7
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t8_loop : Scf.Loop 32 :=
  let c0_i32_244 : BitVec 32 := 0#32
  let c25_i32_245 : BitVec 32 := 25#32
  let v390 : BitVec 32 := Scalar.addi c0_i32_244 c25_i32_245
  let c1_i32_246 : BitVec 32 := 1#32
  ⟨c0_i32_244, v390, c1_i32_246⟩
def k0_off99 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v988 : Index := Scalar.indexCast v987
  let c0_608 : Index := 0#32
  ![v988.toNat, 0]
def k0_off100 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off101 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v997 : Index := Scalar.indexCast v987
  let c16_611 : Index := 16#32
  ![v997.toNat, 16]
def k0_off102 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off103 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v1006 : Index := Scalar.indexCast v987
  let c32_614 : Index := 32#32
  ![v1006.toNat, 32]
def k0_off104 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off105 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v1015 : Index := Scalar.indexCast v987
  let c48_617 : Index := 48#32
  ![v1015.toNat, 48]
def k0_off106 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off107 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v1024 : Index := Scalar.indexCast v987
  let c64_620 : Index := 64#32
  ![v1024.toNat, 64]
def k0_off108 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off109 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v1033 : Index := Scalar.indexCast v987
  let c80_623 : Index := 80#32
  ![v1033.toNat, 80]
def k0_off110 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off111 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v1042 : Index := Scalar.indexCast v987
  let c96_626 : Index := 96#32
  ![v1042.toNat, 96]
def k0_off112 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off113 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let v1051 : Index := Scalar.indexCast v987
  let c112_629 : Index := 112#32
  ![v1051.toNat, 112]
def k0_off114 (k0_t8 : Fin k0_t8_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t8
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t9_loop : Scf.Loop 32 :=
  let c0_i32_279 : BitVec 32 := 0#32
  let c25_i32_280 : BitVec 32 := 25#32
  let v448 : BitVec 32 := Scalar.addi c0_i32_279 c25_i32_280
  let c1_i32_281 : BitVec 32 := 1#32
  ⟨c0_i32_279, v448, c1_i32_281⟩
def k0_off115 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v988 : Index := Scalar.indexCast v987
  let c0_608 : Index := 0#32
  ![v988.toNat, 0]
def k0_off116 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off117 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v997 : Index := Scalar.indexCast v987
  let c16_611 : Index := 16#32
  ![v997.toNat, 16]
def k0_off118 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off119 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v1006 : Index := Scalar.indexCast v987
  let c32_614 : Index := 32#32
  ![v1006.toNat, 32]
def k0_off120 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off121 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v1015 : Index := Scalar.indexCast v987
  let c48_617 : Index := 48#32
  ![v1015.toNat, 48]
def k0_off122 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off123 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v1024 : Index := Scalar.indexCast v987
  let c64_620 : Index := 64#32
  ![v1024.toNat, 64]
def k0_off124 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off125 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v1033 : Index := Scalar.indexCast v987
  let c80_623 : Index := 80#32
  ![v1033.toNat, 80]
def k0_off126 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off127 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v1042 : Index := Scalar.indexCast v987
  let c96_626 : Index := 96#32
  ![v1042.toNat, 96]
def k0_off128 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off129 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let v1051 : Index := Scalar.indexCast v987
  let c112_629 : Index := 112#32
  ![v1051.toNat, 112]
def k0_off130 (k0_t9 : Fin k0_t9_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t9
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond3 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32_307 : BitVec 32 := 7#32
  let v498 : BitVec 1 := Scalar.cmpi .slt arg18 c7_i32_307
  let v499 : BitVec 32 := Scalar.extui v498
  let c0_i32_308 : BitVec 32 := 0#32
  let v500 : BitVec 1 := Scalar.cmpi .ne v499 c0_i32_308
  v500

def k0_mult7 (k0_t1 : Fin k0_t1_loop.trips) : BitVec 32 :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c1_i32_608 : BitVec 32 := 1#32
  let v987 : BitVec 32 := Scalar.addi v986 c1_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off131 (k0_t1 : Fin k0_t1_loop.trips) : Fin 1 → Nat :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c1_i32_608 : BitVec 32 := 1#32
  let v987 : BitVec 32 := Scalar.addi v986 c1_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond4 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32_309 : BitVec 32 := 7#32
  let v501 : BitVec 1 := Scalar.cmpi .eq arg18 c7_i32_309
  let v502 : BitVec 32 := Scalar.extui v501
  let c0_i32_310 : BitVec 32 := 0#32
  let v503 : BitVec 1 := Scalar.cmpi .ne v502 c0_i32_310
  v503

def k0_mult8 : BitVec 32 :=
  let c200_i32_607 : BitVec 32 := 200#32
  c200_i32_607
@[reducible] def k0_t10_loop : Scf.Loop 32 :=
  let c0_i32_322 : BitVec 32 := 0#32
  let c25_i32_323 : BitVec 32 := 25#32
  let v514 : BitVec 32 := Scalar.addi c0_i32_322 c25_i32_323
  let c1_i32_324 : BitVec 32 := 1#32
  ⟨c0_i32_322, v514, c1_i32_324⟩
def k0_off132 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v988 : Index := Scalar.indexCast v987
  let c0_609 : Index := 0#32
  ![v988.toNat, 0]
def k0_off133 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off134 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v997 : Index := Scalar.indexCast v987
  let c16_612 : Index := 16#32
  ![v997.toNat, 16]
def k0_off135 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off136 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v1006 : Index := Scalar.indexCast v987
  let c32_615 : Index := 32#32
  ![v1006.toNat, 32]
def k0_off137 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off138 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v1015 : Index := Scalar.indexCast v987
  let c48_618 : Index := 48#32
  ![v1015.toNat, 48]
def k0_off139 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off140 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v1024 : Index := Scalar.indexCast v987
  let c64_621 : Index := 64#32
  ![v1024.toNat, 64]
def k0_off141 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off142 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v1033 : Index := Scalar.indexCast v987
  let c80_624 : Index := 80#32
  ![v1033.toNat, 80]
def k0_off143 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off144 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v1042 : Index := Scalar.indexCast v987
  let c96_627 : Index := 96#32
  ![v1042.toNat, 96]
def k0_off145 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off146 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let v1051 : Index := Scalar.indexCast v987
  let c112_630 : Index := 112#32
  ![v1051.toNat, 112]
def k0_off147 (k0_t10 : Fin k0_t10_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t10
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t11_loop : Scf.Loop 32 :=
  let c0_i32_358 : BitVec 32 := 0#32
  let c25_i32_359 : BitVec 32 := 25#32
  let v572 : BitVec 32 := Scalar.addi c0_i32_358 c25_i32_359
  let c1_i32_360 : BitVec 32 := 1#32
  ⟨c0_i32_358, v572, c1_i32_360⟩
def k0_off148 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v988 : Index := Scalar.indexCast v987
  let c0_609 : Index := 0#32
  ![v988.toNat, 0]
def k0_off149 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off150 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v997 : Index := Scalar.indexCast v987
  let c16_612 : Index := 16#32
  ![v997.toNat, 16]
def k0_off151 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off152 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v1006 : Index := Scalar.indexCast v987
  let c32_615 : Index := 32#32
  ![v1006.toNat, 32]
def k0_off153 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off154 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v1015 : Index := Scalar.indexCast v987
  let c48_618 : Index := 48#32
  ![v1015.toNat, 48]
def k0_off155 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off156 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v1024 : Index := Scalar.indexCast v987
  let c64_621 : Index := 64#32
  ![v1024.toNat, 64]
def k0_off157 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off158 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v1033 : Index := Scalar.indexCast v987
  let c80_624 : Index := 80#32
  ![v1033.toNat, 80]
def k0_off159 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off160 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v1042 : Index := Scalar.indexCast v987
  let c96_627 : Index := 96#32
  ![v1042.toNat, 96]
def k0_off161 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off162 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let v1051 : Index := Scalar.indexCast v987
  let c112_630 : Index := 112#32
  ![v1051.toNat, 112]
def k0_off163 (k0_t11 : Fin k0_t11_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t11
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t12_loop : Scf.Loop 32 :=
  let c0_i32_393 : BitVec 32 := 0#32
  let c25_i32_394 : BitVec 32 := 25#32
  let v630 : BitVec 32 := Scalar.addi c0_i32_393 c25_i32_394
  let c1_i32_395 : BitVec 32 := 1#32
  ⟨c0_i32_393, v630, c1_i32_395⟩
def k0_off164 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v988 : Index := Scalar.indexCast v987
  let c0_608 : Index := 0#32
  ![v988.toNat, 0]
def k0_off165 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off166 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v997 : Index := Scalar.indexCast v987
  let c16_611 : Index := 16#32
  ![v997.toNat, 16]
def k0_off167 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off168 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v1006 : Index := Scalar.indexCast v987
  let c32_614 : Index := 32#32
  ![v1006.toNat, 32]
def k0_off169 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off170 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v1015 : Index := Scalar.indexCast v987
  let c48_617 : Index := 48#32
  ![v1015.toNat, 48]
def k0_off171 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off172 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v1024 : Index := Scalar.indexCast v987
  let c64_620 : Index := 64#32
  ![v1024.toNat, 64]
def k0_off173 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off174 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v1033 : Index := Scalar.indexCast v987
  let c80_623 : Index := 80#32
  ![v1033.toNat, 80]
def k0_off175 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off176 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v1042 : Index := Scalar.indexCast v987
  let c96_626 : Index := 96#32
  ![v1042.toNat, 96]
def k0_off177 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off178 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let v1051 : Index := Scalar.indexCast v987
  let c112_629 : Index := 112#32
  ![v1051.toNat, 112]
def k0_off179 (k0_t12 : Fin k0_t12_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t12
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t13_loop : Scf.Loop 32 :=
  let c0_i32_428 : BitVec 32 := 0#32
  let c25_i32_429 : BitVec 32 := 25#32
  let v688 : BitVec 32 := Scalar.addi c0_i32_428 c25_i32_429
  let c1_i32_430 : BitVec 32 := 1#32
  ⟨c0_i32_428, v688, c1_i32_430⟩
def k0_off180 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v988 : Index := Scalar.indexCast v987
  let c0_608 : Index := 0#32
  ![v988.toNat, 0]
def k0_off181 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off182 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v997 : Index := Scalar.indexCast v987
  let c16_611 : Index := 16#32
  ![v997.toNat, 16]
def k0_off183 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off184 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v1006 : Index := Scalar.indexCast v987
  let c32_614 : Index := 32#32
  ![v1006.toNat, 32]
def k0_off185 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off186 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v1015 : Index := Scalar.indexCast v987
  let c48_617 : Index := 48#32
  ![v1015.toNat, 48]
def k0_off187 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off188 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v1024 : Index := Scalar.indexCast v987
  let c64_620 : Index := 64#32
  ![v1024.toNat, 64]
def k0_off189 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off190 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v1033 : Index := Scalar.indexCast v987
  let c80_623 : Index := 80#32
  ![v1033.toNat, 80]
def k0_off191 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off192 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v1042 : Index := Scalar.indexCast v987
  let c96_626 : Index := 96#32
  ![v1042.toNat, 96]
def k0_off193 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off194 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let v1051 : Index := Scalar.indexCast v987
  let c112_629 : Index := 112#32
  ![v1051.toNat, 112]
def k0_off195 (k0_t13 : Fin k0_t13_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t13
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond5 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32_455 : BitVec 32 := 7#32
  let v738 : BitVec 1 := Scalar.cmpi .slt arg18 c7_i32_455
  let v739 : BitVec 32 := Scalar.extui v738
  let c0_i32_456 : BitVec 32 := 0#32
  let v740 : BitVec 1 := Scalar.cmpi .ne v739 c0_i32_456
  v740

def k0_mult9 (k0_t1 : Fin k0_t1_loop.trips) : BitVec 32 :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c2_i32_608 : BitVec 32 := 2#32
  let v987 : BitVec 32 := Scalar.addi v986 c2_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off196 (k0_t1 : Fin k0_t1_loop.trips) : Fin 1 → Nat :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c2_i32_608 : BitVec 32 := 2#32
  let v987 : BitVec 32 := Scalar.addi v986 c2_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond6 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32_457 : BitVec 32 := 7#32
  let v741 : BitVec 1 := Scalar.cmpi .eq arg18 c7_i32_457
  let v742 : BitVec 32 := Scalar.extui v741
  let c0_i32_458 : BitVec 32 := 0#32
  let v743 : BitVec 1 := Scalar.cmpi .ne v742 c0_i32_458
  v743

def k0_mult10 : BitVec 32 :=
  let c400_i32_607 : BitVec 32 := 400#32
  c400_i32_607
@[reducible] def k0_t14_loop : Scf.Loop 32 :=
  let c0_i32_470 : BitVec 32 := 0#32
  let c25_i32_471 : BitVec 32 := 25#32
  let v754 : BitVec 32 := Scalar.addi c0_i32_470 c25_i32_471
  let c1_i32_472 : BitVec 32 := 1#32
  ⟨c0_i32_470, v754, c1_i32_472⟩
def k0_off197 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v988 : Index := Scalar.indexCast v987
  let c0_609 : Index := 0#32
  ![v988.toNat, 0]
def k0_off198 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off199 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v997 : Index := Scalar.indexCast v987
  let c16_612 : Index := 16#32
  ![v997.toNat, 16]
def k0_off200 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off201 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v1006 : Index := Scalar.indexCast v987
  let c32_615 : Index := 32#32
  ![v1006.toNat, 32]
def k0_off202 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off203 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v1015 : Index := Scalar.indexCast v987
  let c48_618 : Index := 48#32
  ![v1015.toNat, 48]
def k0_off204 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off205 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v1024 : Index := Scalar.indexCast v987
  let c64_621 : Index := 64#32
  ![v1024.toNat, 64]
def k0_off206 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off207 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v1033 : Index := Scalar.indexCast v987
  let c80_624 : Index := 80#32
  ![v1033.toNat, 80]
def k0_off208 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off209 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v1042 : Index := Scalar.indexCast v987
  let c96_627 : Index := 96#32
  ![v1042.toNat, 96]
def k0_off210 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off211 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let v1051 : Index := Scalar.indexCast v987
  let c112_630 : Index := 112#32
  ![v1051.toNat, 112]
def k0_off212 (k0_t14 : Fin k0_t14_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t14
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t15_loop : Scf.Loop 32 :=
  let c0_i32_505 : BitVec 32 := 0#32
  let c25_i32_506 : BitVec 32 := 25#32
  let v812 : BitVec 32 := Scalar.addi c0_i32_505 c25_i32_506
  let c1_i32_507 : BitVec 32 := 1#32
  ⟨c0_i32_505, v812, c1_i32_507⟩
def k0_off213 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v988 : Index := Scalar.indexCast v987
  let c0_609 : Index := 0#32
  ![v988.toNat, 0]
def k0_off214 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off215 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v997 : Index := Scalar.indexCast v987
  let c16_612 : Index := 16#32
  ![v997.toNat, 16]
def k0_off216 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off217 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v1006 : Index := Scalar.indexCast v987
  let c32_615 : Index := 32#32
  ![v1006.toNat, 32]
def k0_off218 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off219 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v1015 : Index := Scalar.indexCast v987
  let c48_618 : Index := 48#32
  ![v1015.toNat, 48]
def k0_off220 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off221 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v1024 : Index := Scalar.indexCast v987
  let c64_621 : Index := 64#32
  ![v1024.toNat, 64]
def k0_off222 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off223 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v1033 : Index := Scalar.indexCast v987
  let c80_624 : Index := 80#32
  ![v1033.toNat, 80]
def k0_off224 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off225 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v1042 : Index := Scalar.indexCast v987
  let c96_627 : Index := 96#32
  ![v1042.toNat, 96]
def k0_off226 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off227 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let v1051 : Index := Scalar.indexCast v987
  let c112_630 : Index := 112#32
  ![v1051.toNat, 112]
def k0_off228 (k0_t15 : Fin k0_t15_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t15
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t16_loop : Scf.Loop 32 :=
  let c0_i32_540 : BitVec 32 := 0#32
  let c25_i32_541 : BitVec 32 := 25#32
  let v870 : BitVec 32 := Scalar.addi c0_i32_540 c25_i32_541
  let c1_i32_542 : BitVec 32 := 1#32
  ⟨c0_i32_540, v870, c1_i32_542⟩
def k0_off229 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v988 : Index := Scalar.indexCast v987
  let c0_608 : Index := 0#32
  ![v988.toNat, 0]
def k0_off230 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off231 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v997 : Index := Scalar.indexCast v987
  let c16_611 : Index := 16#32
  ![v997.toNat, 16]
def k0_off232 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off233 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v1006 : Index := Scalar.indexCast v987
  let c32_614 : Index := 32#32
  ![v1006.toNat, 32]
def k0_off234 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off235 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v1015 : Index := Scalar.indexCast v987
  let c48_617 : Index := 48#32
  ![v1015.toNat, 48]
def k0_off236 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off237 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v1024 : Index := Scalar.indexCast v987
  let c64_620 : Index := 64#32
  ![v1024.toNat, 64]
def k0_off238 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off239 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v1033 : Index := Scalar.indexCast v987
  let c80_623 : Index := 80#32
  ![v1033.toNat, 80]
def k0_off240 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off241 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v1042 : Index := Scalar.indexCast v987
  let c96_626 : Index := 96#32
  ![v1042.toNat, 96]
def k0_off242 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off243 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let v1051 : Index := Scalar.indexCast v987
  let c112_629 : Index := 112#32
  ![v1051.toNat, 112]
def k0_off244 (k0_t16 : Fin k0_t16_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t16
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t17_loop : Scf.Loop 32 :=
  let c0_i32_575 : BitVec 32 := 0#32
  let c25_i32_576 : BitVec 32 := 25#32
  let v928 : BitVec 32 := Scalar.addi c0_i32_575 c25_i32_576
  let c1_i32_577 : BitVec 32 := 1#32
  ⟨c0_i32_575, v928, c1_i32_577⟩
def k0_off245 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v988 : Index := Scalar.indexCast v987
  let c0_608 : Index := 0#32
  ![v988.toNat, 0]
def k0_off246 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off247 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v997 : Index := Scalar.indexCast v987
  let c16_611 : Index := 16#32
  ![v997.toNat, 16]
def k0_off248 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off249 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v1006 : Index := Scalar.indexCast v987
  let c32_614 : Index := 32#32
  ![v1006.toNat, 32]
def k0_off250 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off251 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v1015 : Index := Scalar.indexCast v987
  let c48_617 : Index := 48#32
  ![v1015.toNat, 48]
def k0_off252 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off253 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v1024 : Index := Scalar.indexCast v987
  let c64_620 : Index := 64#32
  ![v1024.toNat, 64]
def k0_off254 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off255 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v1033 : Index := Scalar.indexCast v987
  let c80_623 : Index := 80#32
  ![v1033.toNat, 80]
def k0_off256 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off257 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v1042 : Index := Scalar.indexCast v987
  let c96_626 : Index := 96#32
  ![v1042.toNat, 96]
def k0_off258 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off259 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let v1051 : Index := Scalar.indexCast v987
  let c112_629 : Index := 112#32
  ![v1051.toNat, 112]
def k0_off260 (k0_t17 : Fin k0_t17_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t17
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond7 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32_602 : BitVec 32 := 7#32
  let v978 : BitVec 1 := Scalar.cmpi .slt arg18 c7_i32_602
  let v979 : BitVec 32 := Scalar.extui v978
  let c0_i32_603 : BitVec 32 := 0#32
  let v980 : BitVec 1 := Scalar.cmpi .ne v979 c0_i32_603
  v980

def k0_mult11 (k0_t1 : Fin k0_t1_loop.trips) : BitVec 32 :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c3_i32_608 : BitVec 32 := 3#32
  let v987 : BitVec 32 := Scalar.addi v986 c3_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off261 (k0_t1 : Fin k0_t1_loop.trips) : Fin 1 → Nat :=
  let c0_i32_11 : BitVec 32 := 0#32
  let c1_i32 : BitVec 32 := 1#32
  let arg18 : BitVec 32 := Scf.iv c0_i32_11 c1_i32 k0_t1
  let c4_i32_607 : BitVec 32 := 4#32
  let v986 : BitVec 32 := Scalar.muli arg18 c4_i32_607
  let c3_i32_608 : BitVec 32 := 3#32
  let v987 : BitVec 32 := Scalar.addi v986 c3_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond8 (k0_t1 : Fin k0_t1_loop.trips) : BitVec 1 :=
  let c0_i32_11 : BitVec 32 := 0#32
  let c1_i32 : BitVec 32 := 1#32
  let arg18 : BitVec 32 := Scf.iv c0_i32_11 c1_i32 k0_t1
  let c7_i32_604 : BitVec 32 := 7#32
  let v981 : BitVec 1 := Scalar.cmpi .eq arg18 c7_i32_604
  let v982 : BitVec 32 := Scalar.extui v981
  let c0_i32_605 : BitVec 32 := 0#32
  let v983 : BitVec 1 := Scalar.cmpi .ne v982 c0_i32_605
  v983

def k0_mult12 : BitVec 32 :=
  let c600_i32_607 : BitVec 32 := 600#32
  c600_i32_607
def k0_off262 (i : grid0.Coords) (k0_t1 : Fin k0_t1_loop.trips) : Fin 3 → Nat :=
  let c0_i32_606 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_11 : BitVec 32 := 0#32
  let c1_i32 : BitVec 32 := 1#32
  let arg18 : BitVec 32 := Scf.iv c0_i32_11 c1_i32 k0_t1
  let c16_i32 : BitVec 32 := 16#32
  let v984 : BitVec 32 := Scalar.muli arg18 c16_i32
  let v985 : BitVec 32 := Scalar.addi v2 v984
  let c0_i32_607_r2 : BitVec 32 := 0#32
  ![0, v985.toNat, 0]
@[reducible] def k0_t18_loop : Scf.Loop 32 :=
  let c0_i32_15 : BitVec 32 := 0#32
  let c8_i32_16 : BitVec 32 := 8#32
  let v22 : BitVec 32 := Scalar.addi c0_i32_15 c8_i32_16
  let c1_i32_17 : BitVec 32 := 1#32
  ⟨c0_i32_15, v22, c1_i32_17⟩
@[reducible] def k0_t19_loop : Scf.Loop 32 :=
  let c0_i32_34 : BitVec 32 := 0#32
  let c25_i32 : BitVec 32 := 25#32
  let v34 : BitVec 32 := Scalar.addi c0_i32_34 c25_i32
  let c1_i32_35 : BitVec 32 := 1#32
  ⟨c0_i32_34, v34, c1_i32_35⟩
def k0_off263 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v988 : Index := Scalar.indexCast v987
  let c0_609 : Index := 0#32
  ![v988.toNat, 0]
def k0_off264 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off265 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v997 : Index := Scalar.indexCast v987
  let c16_612 : Index := 16#32
  ![v997.toNat, 16]
def k0_off266 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off267 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v1006 : Index := Scalar.indexCast v987
  let c32_615 : Index := 32#32
  ![v1006.toNat, 32]
def k0_off268 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off269 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v1015 : Index := Scalar.indexCast v987
  let c48_618 : Index := 48#32
  ![v1015.toNat, 48]
def k0_off270 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off271 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v1024 : Index := Scalar.indexCast v987
  let c64_621 : Index := 64#32
  ![v1024.toNat, 64]
def k0_off272 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off273 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v1033 : Index := Scalar.indexCast v987
  let c80_624 : Index := 80#32
  ![v1033.toNat, 80]
def k0_off274 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off275 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v1042 : Index := Scalar.indexCast v987
  let c96_627 : Index := 96#32
  ![v1042.toNat, 96]
def k0_off276 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off277 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let v1051 : Index := Scalar.indexCast v987
  let c112_630 : Index := 112#32
  ![v1051.toNat, 112]
def k0_off278 (k0_t19 : Fin k0_t19_loop.trips) : Fin 2 → Nat :=
  let c0_i32_608 : BitVec 32 := 0#32
  let c2_i32_607 : BitVec 32 := 2#32
  let c0_i32_34 : BitVec 32 := 0#32
  let c1_i32_35 : BitVec 32 := 1#32
  let arg19 : BitVec 32 := Scf.iv c0_i32_34 c1_i32_35 k0_t19
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t20_loop : Scf.Loop 32 :=
  let c0_i32_61 : BitVec 32 := 0#32
  let c25_i32_62 : BitVec 32 := 25#32
  let v92 : BitVec 32 := Scalar.addi c0_i32_61 c25_i32_62
  let c1_i32_63 : BitVec 32 := 1#32
  ⟨c0_i32_61, v92, c1_i32_63⟩
def k0_off279 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v988 : Index := Scalar.indexCast v987
  let c0_609 : Index := 0#32
  ![v988.toNat, 0]
def k0_off280 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off281 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v997 : Index := Scalar.indexCast v987
  let c16_612 : Index := 16#32
  ![v997.toNat, 16]
def k0_off282 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off283 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v1006 : Index := Scalar.indexCast v987
  let c32_615 : Index := 32#32
  ![v1006.toNat, 32]
def k0_off284 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off285 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v1015 : Index := Scalar.indexCast v987
  let c48_618 : Index := 48#32
  ![v1015.toNat, 48]
def k0_off286 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off287 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v1024 : Index := Scalar.indexCast v987
  let c64_621 : Index := 64#32
  ![v1024.toNat, 64]
def k0_off288 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off289 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v1033 : Index := Scalar.indexCast v987
  let c80_624 : Index := 80#32
  ![v1033.toNat, 80]
def k0_off290 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off291 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v1042 : Index := Scalar.indexCast v987
  let c96_627 : Index := 96#32
  ![v1042.toNat, 96]
def k0_off292 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off293 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let v1051 : Index := Scalar.indexCast v987
  let c112_630 : Index := 112#32
  ![v1051.toNat, 112]
def k0_off294 (k0_t20 : Fin k0_t20_loop.trips) : Fin 2 → Nat :=
  let c50_i32_608 : BitVec 32 := 50#32
  let c2_i32_607 : BitVec 32 := 2#32
  let c0_i32_61 : BitVec 32 := 0#32
  let c1_i32_63 : BitVec 32 := 1#32
  let arg19 : BitVec 32 := Scf.iv c0_i32_61 c1_i32_63 k0_t20
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t21_loop : Scf.Loop 32 :=
  let c0_i32_97 : BitVec 32 := 0#32
  let c25_i32_98 : BitVec 32 := 25#32
  let v150 : BitVec 32 := Scalar.addi c0_i32_97 c25_i32_98
  let c1_i32_99 : BitVec 32 := 1#32
  ⟨c0_i32_97, v150, c1_i32_99⟩
def k0_off295 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v988 : Index := Scalar.indexCast v987
  let c0_608 : Index := 0#32
  ![v988.toNat, 0]
def k0_off296 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off297 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v997 : Index := Scalar.indexCast v987
  let c16_611 : Index := 16#32
  ![v997.toNat, 16]
def k0_off298 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off299 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v1006 : Index := Scalar.indexCast v987
  let c32_614 : Index := 32#32
  ![v1006.toNat, 32]
def k0_off300 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off301 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v1015 : Index := Scalar.indexCast v987
  let c48_617 : Index := 48#32
  ![v1015.toNat, 48]
def k0_off302 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off303 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v1024 : Index := Scalar.indexCast v987
  let c64_620 : Index := 64#32
  ![v1024.toNat, 64]
def k0_off304 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off305 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v1033 : Index := Scalar.indexCast v987
  let c80_623 : Index := 80#32
  ![v1033.toNat, 80]
def k0_off306 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off307 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v1042 : Index := Scalar.indexCast v987
  let c96_626 : Index := 96#32
  ![v1042.toNat, 96]
def k0_off308 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off309 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let v1051 : Index := Scalar.indexCast v987
  let c112_629 : Index := 112#32
  ![v1051.toNat, 112]
def k0_off310 (k0_t21 : Fin k0_t21_loop.trips) : Fin 2 → Nat :=
  let c100_i32 : BitVec 32 := 100#32
  let c2_i32_607 : BitVec 32 := 2#32
  let c0_i32_97 : BitVec 32 := 0#32
  let c1_i32_99 : BitVec 32 := 1#32
  let arg19 : BitVec 32 := Scf.iv c0_i32_97 c1_i32_99 k0_t21
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t22_loop : Scf.Loop 32 :=
  let c0_i32_133 : BitVec 32 := 0#32
  let c25_i32_134 : BitVec 32 := 25#32
  let v208 : BitVec 32 := Scalar.addi c0_i32_133 c25_i32_134
  let c1_i32_135 : BitVec 32 := 1#32
  ⟨c0_i32_133, v208, c1_i32_135⟩
def k0_off311 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v988 : Index := Scalar.indexCast v987
  let c0_608 : Index := 0#32
  ![v988.toNat, 0]
def k0_off312 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off313 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v997 : Index := Scalar.indexCast v987
  let c16_611 : Index := 16#32
  ![v997.toNat, 16]
def k0_off314 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off315 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v1006 : Index := Scalar.indexCast v987
  let c32_614 : Index := 32#32
  ![v1006.toNat, 32]
def k0_off316 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off317 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v1015 : Index := Scalar.indexCast v987
  let c48_617 : Index := 48#32
  ![v1015.toNat, 48]
def k0_off318 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off319 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v1024 : Index := Scalar.indexCast v987
  let c64_620 : Index := 64#32
  ![v1024.toNat, 64]
def k0_off320 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off321 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v1033 : Index := Scalar.indexCast v987
  let c80_623 : Index := 80#32
  ![v1033.toNat, 80]
def k0_off322 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off323 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v1042 : Index := Scalar.indexCast v987
  let c96_626 : Index := 96#32
  ![v1042.toNat, 96]
def k0_off324 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off325 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let v1051 : Index := Scalar.indexCast v987
  let c112_629 : Index := 112#32
  ![v1051.toNat, 112]
def k0_off326 (k0_t22 : Fin k0_t22_loop.trips) : Fin 2 → Nat :=
  let c150_i32 : BitVec 32 := 150#32
  let c2_i32_607 : BitVec 32 := 2#32
  let c0_i32_133 : BitVec 32 := 0#32
  let c1_i32_135 : BitVec 32 := 1#32
  let arg19 : BitVec 32 := Scf.iv c0_i32_133 c1_i32_135 k0_t22
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond9 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32 : BitVec 32 := 7#32
  let v258 : BitVec 1 := Scalar.cmpi .slt arg18 c7_i32
  let v259 : BitVec 32 := Scalar.extui v258
  let c0_i32_160 : BitVec 32 := 0#32
  let v260 : BitVec 1 := Scalar.cmpi .ne v259 c0_i32_160
  v260

def k0_mult13 (k0_t18 : Fin k0_t18_loop.trips) : BitVec 32 :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c0_i32_608 : BitVec 32 := 0#32
  let v987 : BitVec 32 := Scalar.addi v986 c0_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off327 (k0_t18 : Fin k0_t18_loop.trips) : Fin 1 → Nat :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c0_i32_608 : BitVec 32 := 0#32
  let v987 : BitVec 32 := Scalar.addi v986 c0_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond10 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32_161 : BitVec 32 := 7#32
  let v261 : BitVec 1 := Scalar.cmpi .eq arg18 c7_i32_161
  let v262 : BitVec 32 := Scalar.extui v261
  let c0_i32_162 : BitVec 32 := 0#32
  let v263 : BitVec 1 := Scalar.cmpi .ne v262 c0_i32_162
  v263

def k0_mult14 : BitVec 32 :=
  let c0_i32_607 : BitVec 32 := 0#32
  c0_i32_607
@[reducible] def k0_t23_loop : Scf.Loop 32 :=
  let c0_i32_174 : BitVec 32 := 0#32
  let c25_i32_175 : BitVec 32 := 25#32
  let v274 : BitVec 32 := Scalar.addi c0_i32_174 c25_i32_175
  let c1_i32_176 : BitVec 32 := 1#32
  ⟨c0_i32_174, v274, c1_i32_176⟩
def k0_off328 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v988 : Index := Scalar.indexCast v987
  let c0_609 : Index := 0#32
  ![v988.toNat, 0]
def k0_off329 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off330 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v997 : Index := Scalar.indexCast v987
  let c16_612 : Index := 16#32
  ![v997.toNat, 16]
def k0_off331 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off332 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v1006 : Index := Scalar.indexCast v987
  let c32_615 : Index := 32#32
  ![v1006.toNat, 32]
def k0_off333 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off334 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v1015 : Index := Scalar.indexCast v987
  let c48_618 : Index := 48#32
  ![v1015.toNat, 48]
def k0_off335 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off336 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v1024 : Index := Scalar.indexCast v987
  let c64_621 : Index := 64#32
  ![v1024.toNat, 64]
def k0_off337 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off338 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v1033 : Index := Scalar.indexCast v987
  let c80_624 : Index := 80#32
  ![v1033.toNat, 80]
def k0_off339 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off340 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v1042 : Index := Scalar.indexCast v987
  let c96_627 : Index := 96#32
  ![v1042.toNat, 96]
def k0_off341 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off342 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let v1051 : Index := Scalar.indexCast v987
  let c112_630 : Index := 112#32
  ![v1051.toNat, 112]
def k0_off343 (k0_t23 : Fin k0_t23_loop.trips) : Fin 2 → Nat :=
  let c0_i32_608 : BitVec 32 := 0#32
  let c2_i32_607 : BitVec 32 := 2#32
  let c0_i32_174 : BitVec 32 := 0#32
  let c1_i32_176 : BitVec 32 := 1#32
  let arg19 : BitVec 32 := Scf.iv c0_i32_174 c1_i32_176 k0_t23
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t24_loop : Scf.Loop 32 :=
  let c0_i32_209 : BitVec 32 := 0#32
  let c25_i32_210 : BitVec 32 := 25#32
  let v332 : BitVec 32 := Scalar.addi c0_i32_209 c25_i32_210
  let c1_i32_211 : BitVec 32 := 1#32
  ⟨c0_i32_209, v332, c1_i32_211⟩
def k0_off344 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v988 : Index := Scalar.indexCast v987
  let c0_609 : Index := 0#32
  ![v988.toNat, 0]
def k0_off345 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off346 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v997 : Index := Scalar.indexCast v987
  let c16_612 : Index := 16#32
  ![v997.toNat, 16]
def k0_off347 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off348 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v1006 : Index := Scalar.indexCast v987
  let c32_615 : Index := 32#32
  ![v1006.toNat, 32]
def k0_off349 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off350 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v1015 : Index := Scalar.indexCast v987
  let c48_618 : Index := 48#32
  ![v1015.toNat, 48]
def k0_off351 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off352 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v1024 : Index := Scalar.indexCast v987
  let c64_621 : Index := 64#32
  ![v1024.toNat, 64]
def k0_off353 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off354 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v1033 : Index := Scalar.indexCast v987
  let c80_624 : Index := 80#32
  ![v1033.toNat, 80]
def k0_off355 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off356 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v1042 : Index := Scalar.indexCast v987
  let c96_627 : Index := 96#32
  ![v1042.toNat, 96]
def k0_off357 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off358 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let v1051 : Index := Scalar.indexCast v987
  let c112_630 : Index := 112#32
  ![v1051.toNat, 112]
def k0_off359 (k0_t24 : Fin k0_t24_loop.trips) : Fin 2 → Nat :=
  let c50_i32_608 : BitVec 32 := 50#32
  let c2_i32_607 : BitVec 32 := 2#32
  let c0_i32_209 : BitVec 32 := 0#32
  let c1_i32_211 : BitVec 32 := 1#32
  let arg19 : BitVec 32 := Scf.iv c0_i32_209 c1_i32_211 k0_t24
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t25_loop : Scf.Loop 32 :=
  let c0_i32_244 : BitVec 32 := 0#32
  let c25_i32_245 : BitVec 32 := 25#32
  let v390 : BitVec 32 := Scalar.addi c0_i32_244 c25_i32_245
  let c1_i32_246 : BitVec 32 := 1#32
  ⟨c0_i32_244, v390, c1_i32_246⟩
def k0_off360 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v988 : Index := Scalar.indexCast v987
  let c0_608 : Index := 0#32
  ![v988.toNat, 0]
def k0_off361 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off362 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v997 : Index := Scalar.indexCast v987
  let c16_611 : Index := 16#32
  ![v997.toNat, 16]
def k0_off363 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off364 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v1006 : Index := Scalar.indexCast v987
  let c32_614 : Index := 32#32
  ![v1006.toNat, 32]
def k0_off365 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off366 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v1015 : Index := Scalar.indexCast v987
  let c48_617 : Index := 48#32
  ![v1015.toNat, 48]
def k0_off367 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off368 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v1024 : Index := Scalar.indexCast v987
  let c64_620 : Index := 64#32
  ![v1024.toNat, 64]
def k0_off369 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off370 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v1033 : Index := Scalar.indexCast v987
  let c80_623 : Index := 80#32
  ![v1033.toNat, 80]
def k0_off371 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off372 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v1042 : Index := Scalar.indexCast v987
  let c96_626 : Index := 96#32
  ![v1042.toNat, 96]
def k0_off373 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off374 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let v1051 : Index := Scalar.indexCast v987
  let c112_629 : Index := 112#32
  ![v1051.toNat, 112]
def k0_off375 (k0_t25 : Fin k0_t25_loop.trips) : Fin 2 → Nat :=
  let c100_i32 : BitVec 32 := 100#32
  let c2_i32_607 : BitVec 32 := 2#32
  let c0_i32_244 : BitVec 32 := 0#32
  let c1_i32_246 : BitVec 32 := 1#32
  let arg19 : BitVec 32 := Scf.iv c0_i32_244 c1_i32_246 k0_t25
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t26_loop : Scf.Loop 32 :=
  let c0_i32_279 : BitVec 32 := 0#32
  let c25_i32_280 : BitVec 32 := 25#32
  let v448 : BitVec 32 := Scalar.addi c0_i32_279 c25_i32_280
  let c1_i32_281 : BitVec 32 := 1#32
  ⟨c0_i32_279, v448, c1_i32_281⟩
def k0_off376 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v988 : Index := Scalar.indexCast v987
  let c0_608 : Index := 0#32
  ![v988.toNat, 0]
def k0_off377 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off378 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v997 : Index := Scalar.indexCast v987
  let c16_611 : Index := 16#32
  ![v997.toNat, 16]
def k0_off379 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off380 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v1006 : Index := Scalar.indexCast v987
  let c32_614 : Index := 32#32
  ![v1006.toNat, 32]
def k0_off381 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off382 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v1015 : Index := Scalar.indexCast v987
  let c48_617 : Index := 48#32
  ![v1015.toNat, 48]
def k0_off383 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off384 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v1024 : Index := Scalar.indexCast v987
  let c64_620 : Index := 64#32
  ![v1024.toNat, 64]
def k0_off385 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off386 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v1033 : Index := Scalar.indexCast v987
  let c80_623 : Index := 80#32
  ![v1033.toNat, 80]
def k0_off387 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off388 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v1042 : Index := Scalar.indexCast v987
  let c96_626 : Index := 96#32
  ![v1042.toNat, 96]
def k0_off389 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off390 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let v1051 : Index := Scalar.indexCast v987
  let c112_629 : Index := 112#32
  ![v1051.toNat, 112]
def k0_off391 (k0_t26 : Fin k0_t26_loop.trips) : Fin 2 → Nat :=
  let c150_i32 : BitVec 32 := 150#32
  let c2_i32_607 : BitVec 32 := 2#32
  let c0_i32_279 : BitVec 32 := 0#32
  let c1_i32_281 : BitVec 32 := 1#32
  let arg19 : BitVec 32 := Scf.iv c0_i32_279 c1_i32_281 k0_t26
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond11 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32_307 : BitVec 32 := 7#32
  let v498 : BitVec 1 := Scalar.cmpi .slt arg18 c7_i32_307
  let v499 : BitVec 32 := Scalar.extui v498
  let c0_i32_308 : BitVec 32 := 0#32
  let v500 : BitVec 1 := Scalar.cmpi .ne v499 c0_i32_308
  v500

def k0_mult15 (k0_t18 : Fin k0_t18_loop.trips) : BitVec 32 :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c1_i32_608 : BitVec 32 := 1#32
  let v987 : BitVec 32 := Scalar.addi v986 c1_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off392 (k0_t18 : Fin k0_t18_loop.trips) : Fin 1 → Nat :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c1_i32_608 : BitVec 32 := 1#32
  let v987 : BitVec 32 := Scalar.addi v986 c1_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond12 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32_309 : BitVec 32 := 7#32
  let v501 : BitVec 1 := Scalar.cmpi .eq arg18 c7_i32_309
  let v502 : BitVec 32 := Scalar.extui v501
  let c0_i32_310 : BitVec 32 := 0#32
  let v503 : BitVec 1 := Scalar.cmpi .ne v502 c0_i32_310
  v503

def k0_mult16 : BitVec 32 :=
  let c200_i32_607 : BitVec 32 := 200#32
  c200_i32_607
@[reducible] def k0_t27_loop : Scf.Loop 32 :=
  let c0_i32_322 : BitVec 32 := 0#32
  let c25_i32_323 : BitVec 32 := 25#32
  let v514 : BitVec 32 := Scalar.addi c0_i32_322 c25_i32_323
  let c1_i32_324 : BitVec 32 := 1#32
  ⟨c0_i32_322, v514, c1_i32_324⟩
def k0_off393 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v988 : Index := Scalar.indexCast v987
  let c0_609 : Index := 0#32
  ![v988.toNat, 0]
def k0_off394 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off395 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v997 : Index := Scalar.indexCast v987
  let c16_612 : Index := 16#32
  ![v997.toNat, 16]
def k0_off396 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off397 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v1006 : Index := Scalar.indexCast v987
  let c32_615 : Index := 32#32
  ![v1006.toNat, 32]
def k0_off398 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off399 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v1015 : Index := Scalar.indexCast v987
  let c48_618 : Index := 48#32
  ![v1015.toNat, 48]
def k0_off400 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off401 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v1024 : Index := Scalar.indexCast v987
  let c64_621 : Index := 64#32
  ![v1024.toNat, 64]
def k0_off402 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off403 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v1033 : Index := Scalar.indexCast v987
  let c80_624 : Index := 80#32
  ![v1033.toNat, 80]
def k0_off404 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off405 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v1042 : Index := Scalar.indexCast v987
  let c96_627 : Index := 96#32
  ![v1042.toNat, 96]
def k0_off406 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off407 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let v1051 : Index := Scalar.indexCast v987
  let c112_630 : Index := 112#32
  ![v1051.toNat, 112]
def k0_off408 (k0_t27 : Fin k0_t27_loop.trips) : Fin 2 → Nat :=
  let c0_i32_608 : BitVec 32 := 0#32
  let c2_i32_607 : BitVec 32 := 2#32
  let c0_i32_322 : BitVec 32 := 0#32
  let c1_i32_324 : BitVec 32 := 1#32
  let arg19 : BitVec 32 := Scf.iv c0_i32_322 c1_i32_324 k0_t27
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t28_loop : Scf.Loop 32 :=
  let c0_i32_358 : BitVec 32 := 0#32
  let c25_i32_359 : BitVec 32 := 25#32
  let v572 : BitVec 32 := Scalar.addi c0_i32_358 c25_i32_359
  let c1_i32_360 : BitVec 32 := 1#32
  ⟨c0_i32_358, v572, c1_i32_360⟩
def k0_off409 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v988 : Index := Scalar.indexCast v987
  let c0_609 : Index := 0#32
  ![v988.toNat, 0]
def k0_off410 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off411 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v997 : Index := Scalar.indexCast v987
  let c16_612 : Index := 16#32
  ![v997.toNat, 16]
def k0_off412 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off413 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v1006 : Index := Scalar.indexCast v987
  let c32_615 : Index := 32#32
  ![v1006.toNat, 32]
def k0_off414 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off415 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v1015 : Index := Scalar.indexCast v987
  let c48_618 : Index := 48#32
  ![v1015.toNat, 48]
def k0_off416 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off417 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v1024 : Index := Scalar.indexCast v987
  let c64_621 : Index := 64#32
  ![v1024.toNat, 64]
def k0_off418 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off419 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v1033 : Index := Scalar.indexCast v987
  let c80_624 : Index := 80#32
  ![v1033.toNat, 80]
def k0_off420 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off421 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v1042 : Index := Scalar.indexCast v987
  let c96_627 : Index := 96#32
  ![v1042.toNat, 96]
def k0_off422 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off423 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let v1051 : Index := Scalar.indexCast v987
  let c112_630 : Index := 112#32
  ![v1051.toNat, 112]
def k0_off424 (k0_t28 : Fin k0_t28_loop.trips) : Fin 2 → Nat :=
  let c50_i32_608 : BitVec 32 := 50#32
  let c2_i32_607 : BitVec 32 := 2#32
  let c0_i32_358 : BitVec 32 := 0#32
  let c1_i32_360 : BitVec 32 := 1#32
  let arg19 : BitVec 32 := Scf.iv c0_i32_358 c1_i32_360 k0_t28
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t29_loop : Scf.Loop 32 :=
  let c0_i32_393 : BitVec 32 := 0#32
  let c25_i32_394 : BitVec 32 := 25#32
  let v630 : BitVec 32 := Scalar.addi c0_i32_393 c25_i32_394
  let c1_i32_395 : BitVec 32 := 1#32
  ⟨c0_i32_393, v630, c1_i32_395⟩
def k0_off425 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v988 : Index := Scalar.indexCast v987
  let c0_608 : Index := 0#32
  ![v988.toNat, 0]
def k0_off426 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off427 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v997 : Index := Scalar.indexCast v987
  let c16_611 : Index := 16#32
  ![v997.toNat, 16]
def k0_off428 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off429 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v1006 : Index := Scalar.indexCast v987
  let c32_614 : Index := 32#32
  ![v1006.toNat, 32]
def k0_off430 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off431 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v1015 : Index := Scalar.indexCast v987
  let c48_617 : Index := 48#32
  ![v1015.toNat, 48]
def k0_off432 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off433 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v1024 : Index := Scalar.indexCast v987
  let c64_620 : Index := 64#32
  ![v1024.toNat, 64]
def k0_off434 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off435 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v1033 : Index := Scalar.indexCast v987
  let c80_623 : Index := 80#32
  ![v1033.toNat, 80]
def k0_off436 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off437 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v1042 : Index := Scalar.indexCast v987
  let c96_626 : Index := 96#32
  ![v1042.toNat, 96]
def k0_off438 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off439 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let v1051 : Index := Scalar.indexCast v987
  let c112_629 : Index := 112#32
  ![v1051.toNat, 112]
def k0_off440 (k0_t29 : Fin k0_t29_loop.trips) : Fin 2 → Nat :=
  let c100_i32 : BitVec 32 := 100#32
  let c2_i32_607 : BitVec 32 := 2#32
  let c0_i32_393 : BitVec 32 := 0#32
  let c1_i32_395 : BitVec 32 := 1#32
  let arg19 : BitVec 32 := Scf.iv c0_i32_393 c1_i32_395 k0_t29
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t30_loop : Scf.Loop 32 :=
  let c0_i32_428 : BitVec 32 := 0#32
  let c25_i32_429 : BitVec 32 := 25#32
  let v688 : BitVec 32 := Scalar.addi c0_i32_428 c25_i32_429
  let c1_i32_430 : BitVec 32 := 1#32
  ⟨c0_i32_428, v688, c1_i32_430⟩
def k0_off441 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v988 : Index := Scalar.indexCast v987
  let c0_608 : Index := 0#32
  ![v988.toNat, 0]
def k0_off442 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off443 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v997 : Index := Scalar.indexCast v987
  let c16_611 : Index := 16#32
  ![v997.toNat, 16]
def k0_off444 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off445 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v1006 : Index := Scalar.indexCast v987
  let c32_614 : Index := 32#32
  ![v1006.toNat, 32]
def k0_off446 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off447 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v1015 : Index := Scalar.indexCast v987
  let c48_617 : Index := 48#32
  ![v1015.toNat, 48]
def k0_off448 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off449 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v1024 : Index := Scalar.indexCast v987
  let c64_620 : Index := 64#32
  ![v1024.toNat, 64]
def k0_off450 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off451 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v1033 : Index := Scalar.indexCast v987
  let c80_623 : Index := 80#32
  ![v1033.toNat, 80]
def k0_off452 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off453 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v1042 : Index := Scalar.indexCast v987
  let c96_626 : Index := 96#32
  ![v1042.toNat, 96]
def k0_off454 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off455 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let v1051 : Index := Scalar.indexCast v987
  let c112_629 : Index := 112#32
  ![v1051.toNat, 112]
def k0_off456 (k0_t30 : Fin k0_t30_loop.trips) : Fin 2 → Nat :=
  let c150_i32 : BitVec 32 := 150#32
  let c2_i32_607 : BitVec 32 := 2#32
  let c0_i32_428 : BitVec 32 := 0#32
  let c1_i32_430 : BitVec 32 := 1#32
  let arg19 : BitVec 32 := Scf.iv c0_i32_428 c1_i32_430 k0_t30
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond13 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32_455 : BitVec 32 := 7#32
  let v738 : BitVec 1 := Scalar.cmpi .slt arg18 c7_i32_455
  let v739 : BitVec 32 := Scalar.extui v738
  let c0_i32_456 : BitVec 32 := 0#32
  let v740 : BitVec 1 := Scalar.cmpi .ne v739 c0_i32_456
  v740

def k0_mult17 (k0_t18 : Fin k0_t18_loop.trips) : BitVec 32 :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c2_i32_608 : BitVec 32 := 2#32
  let v987 : BitVec 32 := Scalar.addi v986 c2_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off457 (k0_t18 : Fin k0_t18_loop.trips) : Fin 1 → Nat :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c2_i32_608 : BitVec 32 := 2#32
  let v987 : BitVec 32 := Scalar.addi v986 c2_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond14 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32_457 : BitVec 32 := 7#32
  let v741 : BitVec 1 := Scalar.cmpi .eq arg18 c7_i32_457
  let v742 : BitVec 32 := Scalar.extui v741
  let c0_i32_458 : BitVec 32 := 0#32
  let v743 : BitVec 1 := Scalar.cmpi .ne v742 c0_i32_458
  v743

def k0_mult18 : BitVec 32 :=
  let c400_i32_607 : BitVec 32 := 400#32
  c400_i32_607
@[reducible] def k0_t31_loop : Scf.Loop 32 :=
  let c0_i32_470 : BitVec 32 := 0#32
  let c25_i32_471 : BitVec 32 := 25#32
  let v754 : BitVec 32 := Scalar.addi c0_i32_470 c25_i32_471
  let c1_i32_472 : BitVec 32 := 1#32
  ⟨c0_i32_470, v754, c1_i32_472⟩
def k0_off458 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v988 : Index := Scalar.indexCast v987
  let c0_609 : Index := 0#32
  ![v988.toNat, 0]
def k0_off459 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_610 : BitVec 32 := 1#32
  let v992 : BitVec 32 := Scalar.addi v987 c1_i32_610
  let v993 : Index := Scalar.indexCast v992
  let c0_611 : Index := 0#32
  ![v993.toNat, 0]
def k0_off460 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v997 : Index := Scalar.indexCast v987
  let c16_612 : Index := 16#32
  ![v997.toNat, 16]
def k0_off461 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off462 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v1006 : Index := Scalar.indexCast v987
  let c32_615 : Index := 32#32
  ![v1006.toNat, 32]
def k0_off463 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off464 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v1015 : Index := Scalar.indexCast v987
  let c48_618 : Index := 48#32
  ![v1015.toNat, 48]
def k0_off465 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off466 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v1024 : Index := Scalar.indexCast v987
  let c64_621 : Index := 64#32
  ![v1024.toNat, 64]
def k0_off467 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off468 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v1033 : Index := Scalar.indexCast v987
  let c80_624 : Index := 80#32
  ![v1033.toNat, 80]
def k0_off469 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off470 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v1042 : Index := Scalar.indexCast v987
  let c96_627 : Index := 96#32
  ![v1042.toNat, 96]
def k0_off471 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off472 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let v1051 : Index := Scalar.indexCast v987
  let c112_630 : Index := 112#32
  ![v1051.toNat, 112]
def k0_off473 (k0_t31 : Fin k0_t31_loop.trips) : Fin 2 → Nat :=
  let c0_i32_608 : BitVec 32 := 0#32
  let c2_i32_607 : BitVec 32 := 2#32
  let c0_i32_470 : BitVec 32 := 0#32
  let c1_i32_472 : BitVec 32 := 1#32
  let arg19 : BitVec 32 := Scf.iv c0_i32_470 c1_i32_472 k0_t31
  let v986 : BitVec 32 := Scalar.muli c2_i32_607 arg19
  let v987 : BitVec 32 := Scalar.addi c0_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t32_loop : Scf.Loop 32 :=
  let c0_i32_505 : BitVec 32 := 0#32
  let c25_i32_506 : BitVec 32 := 25#32
  let v812 : BitVec 32 := Scalar.addi c0_i32_505 c25_i32_506
  let c1_i32_507 : BitVec 32 := 1#32
  ⟨c0_i32_505, v812, c1_i32_507⟩
def k0_off474 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v988 : Index := Scalar.indexCast v987
  let c0_609 : Index := 0#32
  ![v988.toNat, 0]
def k0_off475 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_610 : BitVec 32 := 1#32
  let v992 : BitVec 32 := Scalar.addi v987 c1_i32_610
  let v993 : Index := Scalar.indexCast v992
  let c0_611 : Index := 0#32
  ![v993.toNat, 0]
def k0_off476 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v997 : Index := Scalar.indexCast v987
  let c16_612 : Index := 16#32
  ![v997.toNat, 16]
def k0_off477 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_613 : BitVec 32 := 1#32
  let v1001 : BitVec 32 := Scalar.addi v987 c1_i32_613
  let v1002 : Index := Scalar.indexCast v1001
  let c16_614 : Index := 16#32
  ![v1002.toNat, 16]
def k0_off478 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v1006 : Index := Scalar.indexCast v987
  let c32_615 : Index := 32#32
  ![v1006.toNat, 32]
def k0_off479 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_616 : BitVec 32 := 1#32
  let v1010 : BitVec 32 := Scalar.addi v987 c1_i32_616
  let v1011 : Index := Scalar.indexCast v1010
  let c32_617 : Index := 32#32
  ![v1011.toNat, 32]
def k0_off480 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v1015 : Index := Scalar.indexCast v987
  let c48_618 : Index := 48#32
  ![v1015.toNat, 48]
def k0_off481 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_619 : BitVec 32 := 1#32
  let v1019 : BitVec 32 := Scalar.addi v987 c1_i32_619
  let v1020 : Index := Scalar.indexCast v1019
  let c48_620 : Index := 48#32
  ![v1020.toNat, 48]
def k0_off482 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v1024 : Index := Scalar.indexCast v987
  let c64_621 : Index := 64#32
  ![v1024.toNat, 64]
def k0_off483 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_622 : BitVec 32 := 1#32
  let v1028 : BitVec 32 := Scalar.addi v987 c1_i32_622
  let v1029 : Index := Scalar.indexCast v1028
  let c64_623 : Index := 64#32
  ![v1029.toNat, 64]
def k0_off484 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v1033 : Index := Scalar.indexCast v987
  let c80_624 : Index := 80#32
  ![v1033.toNat, 80]
def k0_off485 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_625 : BitVec 32 := 1#32
  let v1037 : BitVec 32 := Scalar.addi v987 c1_i32_625
  let v1038 : Index := Scalar.indexCast v1037
  let c80_626 : Index := 80#32
  ![v1038.toNat, 80]
def k0_off486 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v1042 : Index := Scalar.indexCast v987
  let c96_627 : Index := 96#32
  ![v1042.toNat, 96]
def k0_off487 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_628 : BitVec 32 := 1#32
  let v1046 : BitVec 32 := Scalar.addi v987 c1_i32_628
  let v1047 : Index := Scalar.indexCast v1046
  let c96_629 : Index := 96#32
  ![v1047.toNat, 96]
def k0_off488 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let v1051 : Index := Scalar.indexCast v987
  let c112_630 : Index := 112#32
  ![v1051.toNat, 112]
def k0_off489 (k0_t32 : Fin k0_t32_loop.trips) : Fin 2 → Nat :=
  let c50_i32_608 : BitVec 32 := 50#32
  let c2_i32_607 : BitVec 32 := 2#32
  let c0_i32_505 : BitVec 32 := 0#32
  let c1_i32_507 : BitVec 32 := 1#32
  let arg19 : BitVec 32 := Scf.iv c0_i32_505 c1_i32_507 k0_t32
  let v986 : BitVec 32 := Scalar.muli c2_i32_607 arg19
  let v987 : BitVec 32 := Scalar.addi c50_i32_608 v986
  let c1_i32_631 : BitVec 32 := 1#32
  let v1055 : BitVec 32 := Scalar.addi v987 c1_i32_631
  let v1056 : Index := Scalar.indexCast v1055
  let c112_632 : Index := 112#32
  ![v1056.toNat, 112]
@[reducible] def k0_t33_loop : Scf.Loop 32 :=
  let c0_i32_540 : BitVec 32 := 0#32
  let c25_i32_541 : BitVec 32 := 25#32
  let v870 : BitVec 32 := Scalar.addi c0_i32_540 c25_i32_541
  let c1_i32_542 : BitVec 32 := 1#32
  ⟨c0_i32_540, v870, c1_i32_542⟩
def k0_off490 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v988 : Index := Scalar.indexCast v987
  let c0_608 : Index := 0#32
  ![v988.toNat, 0]
def k0_off491 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_609 : BitVec 32 := 1#32
  let v992 : BitVec 32 := Scalar.addi v987 c1_i32_609
  let v993 : Index := Scalar.indexCast v992
  let c0_610 : Index := 0#32
  ![v993.toNat, 0]
def k0_off492 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v997 : Index := Scalar.indexCast v987
  let c16_611 : Index := 16#32
  ![v997.toNat, 16]
def k0_off493 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_612 : BitVec 32 := 1#32
  let v1001 : BitVec 32 := Scalar.addi v987 c1_i32_612
  let v1002 : Index := Scalar.indexCast v1001
  let c16_613 : Index := 16#32
  ![v1002.toNat, 16]
def k0_off494 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v1006 : Index := Scalar.indexCast v987
  let c32_614 : Index := 32#32
  ![v1006.toNat, 32]
def k0_off495 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_615 : BitVec 32 := 1#32
  let v1010 : BitVec 32 := Scalar.addi v987 c1_i32_615
  let v1011 : Index := Scalar.indexCast v1010
  let c32_616 : Index := 32#32
  ![v1011.toNat, 32]
def k0_off496 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v1015 : Index := Scalar.indexCast v987
  let c48_617 : Index := 48#32
  ![v1015.toNat, 48]
def k0_off497 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_618 : BitVec 32 := 1#32
  let v1019 : BitVec 32 := Scalar.addi v987 c1_i32_618
  let v1020 : Index := Scalar.indexCast v1019
  let c48_619 : Index := 48#32
  ![v1020.toNat, 48]
def k0_off498 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v1024 : Index := Scalar.indexCast v987
  let c64_620 : Index := 64#32
  ![v1024.toNat, 64]
def k0_off499 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_621 : BitVec 32 := 1#32
  let v1028 : BitVec 32 := Scalar.addi v987 c1_i32_621
  let v1029 : Index := Scalar.indexCast v1028
  let c64_622 : Index := 64#32
  ![v1029.toNat, 64]
def k0_off500 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v1033 : Index := Scalar.indexCast v987
  let c80_623 : Index := 80#32
  ![v1033.toNat, 80]
def k0_off501 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_624 : BitVec 32 := 1#32
  let v1037 : BitVec 32 := Scalar.addi v987 c1_i32_624
  let v1038 : Index := Scalar.indexCast v1037
  let c80_625 : Index := 80#32
  ![v1038.toNat, 80]
def k0_off502 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v1042 : Index := Scalar.indexCast v987
  let c96_626 : Index := 96#32
  ![v1042.toNat, 96]
def k0_off503 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_627 : BitVec 32 := 1#32
  let v1046 : BitVec 32 := Scalar.addi v987 c1_i32_627
  let v1047 : Index := Scalar.indexCast v1046
  let c96_628 : Index := 96#32
  ![v1047.toNat, 96]
def k0_off504 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let v1051 : Index := Scalar.indexCast v987
  let c112_629 : Index := 112#32
  ![v1051.toNat, 112]
def k0_off505 (k0_t33 : Fin k0_t33_loop.trips) : Fin 2 → Nat :=
  let c100_i32 : BitVec 32 := 100#32
  let c2_i32_607 : BitVec 32 := 2#32
  let c0_i32_540 : BitVec 32 := 0#32
  let c1_i32_542 : BitVec 32 := 1#32
  let arg19 : BitVec 32 := Scf.iv c0_i32_540 c1_i32_542 k0_t33
  let v986 : BitVec 32 := Scalar.muli c2_i32_607 arg19
  let v987 : BitVec 32 := Scalar.addi c100_i32 v986
  let c1_i32_630 : BitVec 32 := 1#32
  let v1055 : BitVec 32 := Scalar.addi v987 c1_i32_630
  let v1056 : Index := Scalar.indexCast v1055
  let c112_631 : Index := 112#32
  ![v1056.toNat, 112]
@[reducible] def k0_t34_loop : Scf.Loop 32 :=
  let c0_i32_575 : BitVec 32 := 0#32
  let c25_i32_576 : BitVec 32 := 25#32
  let v928 : BitVec 32 := Scalar.addi c0_i32_575 c25_i32_576
  let c1_i32_577 : BitVec 32 := 1#32
  ⟨c0_i32_575, v928, c1_i32_577⟩
def k0_off506 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v988 : Index := Scalar.indexCast v987
  let c0_608 : Index := 0#32
  ![v988.toNat, 0]
def k0_off507 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_609 : BitVec 32 := 1#32
  let v992 : BitVec 32 := Scalar.addi v987 c1_i32_609
  let v993 : Index := Scalar.indexCast v992
  let c0_610 : Index := 0#32
  ![v993.toNat, 0]
def k0_off508 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v997 : Index := Scalar.indexCast v987
  let c16_611 : Index := 16#32
  ![v997.toNat, 16]
def k0_off509 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_612 : BitVec 32 := 1#32
  let v1001 : BitVec 32 := Scalar.addi v987 c1_i32_612
  let v1002 : Index := Scalar.indexCast v1001
  let c16_613 : Index := 16#32
  ![v1002.toNat, 16]
def k0_off510 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v1006 : Index := Scalar.indexCast v987
  let c32_614 : Index := 32#32
  ![v1006.toNat, 32]
def k0_off511 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_615 : BitVec 32 := 1#32
  let v1010 : BitVec 32 := Scalar.addi v987 c1_i32_615
  let v1011 : Index := Scalar.indexCast v1010
  let c32_616 : Index := 32#32
  ![v1011.toNat, 32]
def k0_off512 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v1015 : Index := Scalar.indexCast v987
  let c48_617 : Index := 48#32
  ![v1015.toNat, 48]
def k0_off513 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_618 : BitVec 32 := 1#32
  let v1019 : BitVec 32 := Scalar.addi v987 c1_i32_618
  let v1020 : Index := Scalar.indexCast v1019
  let c48_619 : Index := 48#32
  ![v1020.toNat, 48]
def k0_off514 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v1024 : Index := Scalar.indexCast v987
  let c64_620 : Index := 64#32
  ![v1024.toNat, 64]
def k0_off515 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_621 : BitVec 32 := 1#32
  let v1028 : BitVec 32 := Scalar.addi v987 c1_i32_621
  let v1029 : Index := Scalar.indexCast v1028
  let c64_622 : Index := 64#32
  ![v1029.toNat, 64]
def k0_off516 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v1033 : Index := Scalar.indexCast v987
  let c80_623 : Index := 80#32
  ![v1033.toNat, 80]
def k0_off517 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_624 : BitVec 32 := 1#32
  let v1037 : BitVec 32 := Scalar.addi v987 c1_i32_624
  let v1038 : Index := Scalar.indexCast v1037
  let c80_625 : Index := 80#32
  ![v1038.toNat, 80]
def k0_off518 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v1042 : Index := Scalar.indexCast v987
  let c96_626 : Index := 96#32
  ![v1042.toNat, 96]
def k0_off519 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_627 : BitVec 32 := 1#32
  let v1046 : BitVec 32 := Scalar.addi v987 c1_i32_627
  let v1047 : Index := Scalar.indexCast v1046
  let c96_628 : Index := 96#32
  ![v1047.toNat, 96]
def k0_off520 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let v1051 : Index := Scalar.indexCast v987
  let c112_629 : Index := 112#32
  ![v1051.toNat, 112]
def k0_off521 (k0_t34 : Fin k0_t34_loop.trips) : Fin 2 → Nat :=
  let c150_i32 : BitVec 32 := 150#32
  let c2_i32_607 : BitVec 32 := 2#32
  let c0_i32_575 : BitVec 32 := 0#32
  let c1_i32_577 : BitVec 32 := 1#32
  let arg19 : BitVec 32 := Scf.iv c0_i32_575 c1_i32_577 k0_t34
  let v986 : BitVec 32 := Scalar.muli c2_i32_607 arg19
  let v987 : BitVec 32 := Scalar.addi c150_i32 v986
  let c1_i32_630 : BitVec 32 := 1#32
  let v1055 : BitVec 32 := Scalar.addi v987 c1_i32_630
  let v1056 : Index := Scalar.indexCast v1055
  let c112_631 : Index := 112#32
  ![v1056.toNat, 112]
def k0_cond15 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32_602 : BitVec 32 := 7#32
  let v978 : BitVec 1 := Scalar.cmpi .slt arg18 c7_i32_602
  let v979 : BitVec 32 := Scalar.extui v978
  let c0_i32_603 : BitVec 32 := 0#32
  let v980 : BitVec 1 := Scalar.cmpi .ne v979 c0_i32_603
  v980

def k0_mult19 (k0_t18 : Fin k0_t18_loop.trips) : BitVec 32 :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c3_i32_608 : BitVec 32 := 3#32
  let v987 : BitVec 32 := Scalar.addi v986 c3_i32_608
  let c4_i32_609 : BitVec 32 := 4#32
  let v988 : BitVec 32 := Scalar.addi v987 c4_i32_609
  let c200_i32_610 : BitVec 32 := 200#32
  let v989 : BitVec 32 := Scalar.muli v988 c200_i32_610
  v989
def k0_off522 (k0_t18 : Fin k0_t18_loop.trips) : Fin 1 → Nat :=
  let c0_i32_15 : BitVec 32 := 0#32
  let c1_i32_17 : BitVec 32 := 1#32
  let arg18 : BitVec 32 := Scf.iv c0_i32_15 c1_i32_17 k0_t18
  let c4_i32_607 : BitVec 32 := 4#32
  let v986 : BitVec 32 := Scalar.muli arg18 c4_i32_607
  let c3_i32_608 : BitVec 32 := 3#32
  let v987 : BitVec 32 := Scalar.addi v986 c3_i32_608
  let c4_i32_609 : BitVec 32 := 4#32
  let v988 : BitVec 32 := Scalar.addi v987 c4_i32_609
  let c200_i32_610 : BitVec 32 := 200#32
  let v989 : BitVec 32 := Scalar.muli v988 c200_i32_610
  let v990 : BitVec 32 := v989
  ![v990.toNat]
def k0_cond16 (k0_t18 : Fin k0_t18_loop.trips) : BitVec 1 :=
  let c0_i32_15 : BitVec 32 := 0#32
  let c1_i32_17 : BitVec 32 := 1#32
  let arg18 : BitVec 32 := Scf.iv c0_i32_15 c1_i32_17 k0_t18
  let c7_i32_604 : BitVec 32 := 7#32
  let v981 : BitVec 1 := Scalar.cmpi .eq arg18 c7_i32_604
  let v982 : BitVec 32 := Scalar.extui v981
  let c0_i32_605 : BitVec 32 := 0#32
  let v983 : BitVec 1 := Scalar.cmpi .ne v982 c0_i32_605
  v983

def k0_mult20 : BitVec 32 :=
  let c600_i32_607 : BitVec 32 := 600#32
  c600_i32_607
def k0_off523 (i : grid0.Coords) (k0_t18 : Fin k0_t18_loop.trips) : Fin 3 → Nat :=
  let c1_i32_606 : BitVec 32 := 1#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_15 : BitVec 32 := 0#32
  let c1_i32_17 : BitVec 32 := 1#32
  let arg18 : BitVec 32 := Scf.iv c0_i32_15 c1_i32_17 k0_t18
  let c16_i32 : BitVec 32 := 16#32
  let v984 : BitVec 32 := Scalar.muli arg18 c16_i32
  let v985 : BitVec 32 := Scalar.addi v2 v984
  let c0_i32_607_r4 : BitVec 32 := 0#32
  ![1, v985.toNat, 0]
@[reducible] def k0_t35_loop : Scf.Loop 32 :=
  let c0_i32_20 : BitVec 32 := 0#32
  let c8_i32_21 : BitVec 32 := 8#32
  let v23 : BitVec 32 := Scalar.addi c0_i32_20 c8_i32_21
  let c1_i32_22 : BitVec 32 := 1#32
  ⟨c0_i32_20, v23, c1_i32_22⟩
@[reducible] def k0_t36_loop : Scf.Loop 32 :=
  let c0_i32_34 : BitVec 32 := 0#32
  let c25_i32 : BitVec 32 := 25#32
  let v34 : BitVec 32 := Scalar.addi c0_i32_34 c25_i32
  let c1_i32_35 : BitVec 32 := 1#32
  ⟨c0_i32_34, v34, c1_i32_35⟩
def k0_off524 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v976 : Index := Scalar.indexCast v975
  let c0_601 : Index := 0#32
  ![v976.toNat, 0]
def k0_off525 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_602 : BitVec 32 := 1#32
  let v980 : BitVec 32 := Scalar.addi v975 c1_i32_602
  let v981 : Index := Scalar.indexCast v980
  let c0_603 : Index := 0#32
  ![v981.toNat, 0]
def k0_off526 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v985 : Index := Scalar.indexCast v975
  let c16_604 : Index := 16#32
  ![v985.toNat, 16]
def k0_off527 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_605 : BitVec 32 := 1#32
  let v989 : BitVec 32 := Scalar.addi v975 c1_i32_605
  let v990 : Index := Scalar.indexCast v989
  let c16_606 : Index := 16#32
  ![v990.toNat, 16]
def k0_off528 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v994 : Index := Scalar.indexCast v975
  let c32_607 : Index := 32#32
  ![v994.toNat, 32]
def k0_off529 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_608 : BitVec 32 := 1#32
  let v998 : BitVec 32 := Scalar.addi v975 c1_i32_608
  let v999 : Index := Scalar.indexCast v998
  let c32_609 : Index := 32#32
  ![v999.toNat, 32]
def k0_off530 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v1003 : Index := Scalar.indexCast v975
  let c48_610 : Index := 48#32
  ![v1003.toNat, 48]
def k0_off531 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off532 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v1012 : Index := Scalar.indexCast v975
  let c64_613 : Index := 64#32
  ![v1012.toNat, 64]
def k0_off533 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off534 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v1021 : Index := Scalar.indexCast v975
  let c80_616 : Index := 80#32
  ![v1021.toNat, 80]
def k0_off535 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off536 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v1030 : Index := Scalar.indexCast v975
  let c96_619 : Index := 96#32
  ![v1030.toNat, 96]
def k0_off537 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off538 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let v1039 : Index := Scalar.indexCast v975
  let c112_622 : Index := 112#32
  ![v1039.toNat, 112]
def k0_off539 (k0_t36 : Fin k0_t36_loop.trips) : Fin 2 → Nat :=
  let c0_i32_600 : BitVec 32 := 0#32
  let c2_i32_599 : BitVec 32 := 2#32
  let c0_i32_34 : BitVec 32 := 0#32
  let c1_i32_35 : BitVec 32 := 1#32
  let arg19 : BitVec 32 := Scf.iv c0_i32_34 c1_i32_35 k0_t36
  let v974 : BitVec 32 := Scalar.muli c2_i32_599 arg19
  let v975 : BitVec 32 := Scalar.addi c0_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t37_loop : Scf.Loop 32 :=
  let c0_i32_61 : BitVec 32 := 0#32
  let c25_i32_62 : BitVec 32 := 25#32
  let v92 : BitVec 32 := Scalar.addi c0_i32_61 c25_i32_62
  let c1_i32_63 : BitVec 32 := 1#32
  ⟨c0_i32_61, v92, c1_i32_63⟩
def k0_off540 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v976 : Index := Scalar.indexCast v975
  let c0_601 : Index := 0#32
  ![v976.toNat, 0]
def k0_off541 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_602 : BitVec 32 := 1#32
  let v980 : BitVec 32 := Scalar.addi v975 c1_i32_602
  let v981 : Index := Scalar.indexCast v980
  let c0_603 : Index := 0#32
  ![v981.toNat, 0]
def k0_off542 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v985 : Index := Scalar.indexCast v975
  let c16_604 : Index := 16#32
  ![v985.toNat, 16]
def k0_off543 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_605 : BitVec 32 := 1#32
  let v989 : BitVec 32 := Scalar.addi v975 c1_i32_605
  let v990 : Index := Scalar.indexCast v989
  let c16_606 : Index := 16#32
  ![v990.toNat, 16]
def k0_off544 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v994 : Index := Scalar.indexCast v975
  let c32_607 : Index := 32#32
  ![v994.toNat, 32]
def k0_off545 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_608 : BitVec 32 := 1#32
  let v998 : BitVec 32 := Scalar.addi v975 c1_i32_608
  let v999 : Index := Scalar.indexCast v998
  let c32_609 : Index := 32#32
  ![v999.toNat, 32]
def k0_off546 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v1003 : Index := Scalar.indexCast v975
  let c48_610 : Index := 48#32
  ![v1003.toNat, 48]
def k0_off547 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off548 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v1012 : Index := Scalar.indexCast v975
  let c64_613 : Index := 64#32
  ![v1012.toNat, 64]
def k0_off549 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off550 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v1021 : Index := Scalar.indexCast v975
  let c80_616 : Index := 80#32
  ![v1021.toNat, 80]
def k0_off551 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off552 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v1030 : Index := Scalar.indexCast v975
  let c96_619 : Index := 96#32
  ![v1030.toNat, 96]
def k0_off553 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off554 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let v1039 : Index := Scalar.indexCast v975
  let c112_622 : Index := 112#32
  ![v1039.toNat, 112]
def k0_off555 (k0_t37 : Fin k0_t37_loop.trips) : Fin 2 → Nat :=
  let c50_i32_600 : BitVec 32 := 50#32
  let c2_i32_599 : BitVec 32 := 2#32
  let c0_i32_61 : BitVec 32 := 0#32
  let c1_i32_63 : BitVec 32 := 1#32
  let arg19 : BitVec 32 := Scf.iv c0_i32_61 c1_i32_63 k0_t37
  let v974 : BitVec 32 := Scalar.muli c2_i32_599 arg19
  let v975 : BitVec 32 := Scalar.addi c50_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t38_loop : Scf.Loop 32 :=
  let c0_i32_97 : BitVec 32 := 0#32
  let c25_i32_98 : BitVec 32 := 25#32
  let v150 : BitVec 32 := Scalar.addi c0_i32_97 c25_i32_98
  let c1_i32_99 : BitVec 32 := 1#32
  ⟨c0_i32_97, v150, c1_i32_99⟩
def k0_off556 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v976 : Index := Scalar.indexCast v975
  let c0_600 : Index := 0#32
  ![v976.toNat, 0]
def k0_off557 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_601 : BitVec 32 := 1#32
  let v980 : BitVec 32 := Scalar.addi v975 c1_i32_601
  let v981 : Index := Scalar.indexCast v980
  let c0_602 : Index := 0#32
  ![v981.toNat, 0]
def k0_off558 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v985 : Index := Scalar.indexCast v975
  let c16_603 : Index := 16#32
  ![v985.toNat, 16]
def k0_off559 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_604 : BitVec 32 := 1#32
  let v989 : BitVec 32 := Scalar.addi v975 c1_i32_604
  let v990 : Index := Scalar.indexCast v989
  let c16_605 : Index := 16#32
  ![v990.toNat, 16]
def k0_off560 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v994 : Index := Scalar.indexCast v975
  let c32_606 : Index := 32#32
  ![v994.toNat, 32]
def k0_off561 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_607 : BitVec 32 := 1#32
  let v998 : BitVec 32 := Scalar.addi v975 c1_i32_607
  let v999 : Index := Scalar.indexCast v998
  let c32_608 : Index := 32#32
  ![v999.toNat, 32]
def k0_off562 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v1003 : Index := Scalar.indexCast v975
  let c48_609 : Index := 48#32
  ![v1003.toNat, 48]
def k0_off563 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_610 : BitVec 32 := 1#32
  let v1007 : BitVec 32 := Scalar.addi v975 c1_i32_610
  let v1008 : Index := Scalar.indexCast v1007
  let c48_611 : Index := 48#32
  ![v1008.toNat, 48]
def k0_off564 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v1012 : Index := Scalar.indexCast v975
  let c64_612 : Index := 64#32
  ![v1012.toNat, 64]
def k0_off565 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_613 : BitVec 32 := 1#32
  let v1016 : BitVec 32 := Scalar.addi v975 c1_i32_613
  let v1017 : Index := Scalar.indexCast v1016
  let c64_614 : Index := 64#32
  ![v1017.toNat, 64]
def k0_off566 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v1021 : Index := Scalar.indexCast v975
  let c80_615 : Index := 80#32
  ![v1021.toNat, 80]
def k0_off567 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_616 : BitVec 32 := 1#32
  let v1025 : BitVec 32 := Scalar.addi v975 c1_i32_616
  let v1026 : Index := Scalar.indexCast v1025
  let c80_617 : Index := 80#32
  ![v1026.toNat, 80]
def k0_off568 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v1030 : Index := Scalar.indexCast v975
  let c96_618 : Index := 96#32
  ![v1030.toNat, 96]
def k0_off569 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_619 : BitVec 32 := 1#32
  let v1034 : BitVec 32 := Scalar.addi v975 c1_i32_619
  let v1035 : Index := Scalar.indexCast v1034
  let c96_620 : Index := 96#32
  ![v1035.toNat, 96]
def k0_off570 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let v1039 : Index := Scalar.indexCast v975
  let c112_621 : Index := 112#32
  ![v1039.toNat, 112]
def k0_off571 (k0_t38 : Fin k0_t38_loop.trips) : Fin 2 → Nat :=
  let c100_i32 : BitVec 32 := 100#32
  let c2_i32_599 : BitVec 32 := 2#32
  let c0_i32_97 : BitVec 32 := 0#32
  let c1_i32_99 : BitVec 32 := 1#32
  let arg19 : BitVec 32 := Scf.iv c0_i32_97 c1_i32_99 k0_t38
  let v974 : BitVec 32 := Scalar.muli c2_i32_599 arg19
  let v975 : BitVec 32 := Scalar.addi c100_i32 v974
  let c1_i32_622 : BitVec 32 := 1#32
  let v1043 : BitVec 32 := Scalar.addi v975 c1_i32_622
  let v1044 : Index := Scalar.indexCast v1043
  let c112_623 : Index := 112#32
  ![v1044.toNat, 112]
@[reducible] def k0_t39_loop : Scf.Loop 32 :=
  let c0_i32_133 : BitVec 32 := 0#32
  let c25_i32_134 : BitVec 32 := 25#32
  let v208 : BitVec 32 := Scalar.addi c0_i32_133 c25_i32_134
  let c1_i32_135 : BitVec 32 := 1#32
  ⟨c0_i32_133, v208, c1_i32_135⟩
def k0_off572 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v976 : Index := Scalar.indexCast v975
  let c0_600 : Index := 0#32
  ![v976.toNat, 0]
def k0_off573 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_601 : BitVec 32 := 1#32
  let v980 : BitVec 32 := Scalar.addi v975 c1_i32_601
  let v981 : Index := Scalar.indexCast v980
  let c0_602 : Index := 0#32
  ![v981.toNat, 0]
def k0_off574 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v985 : Index := Scalar.indexCast v975
  let c16_603 : Index := 16#32
  ![v985.toNat, 16]
def k0_off575 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_604 : BitVec 32 := 1#32
  let v989 : BitVec 32 := Scalar.addi v975 c1_i32_604
  let v990 : Index := Scalar.indexCast v989
  let c16_605 : Index := 16#32
  ![v990.toNat, 16]
def k0_off576 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v994 : Index := Scalar.indexCast v975
  let c32_606 : Index := 32#32
  ![v994.toNat, 32]
def k0_off577 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_607 : BitVec 32 := 1#32
  let v998 : BitVec 32 := Scalar.addi v975 c1_i32_607
  let v999 : Index := Scalar.indexCast v998
  let c32_608 : Index := 32#32
  ![v999.toNat, 32]
def k0_off578 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v1003 : Index := Scalar.indexCast v975
  let c48_609 : Index := 48#32
  ![v1003.toNat, 48]
def k0_off579 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_610 : BitVec 32 := 1#32
  let v1007 : BitVec 32 := Scalar.addi v975 c1_i32_610
  let v1008 : Index := Scalar.indexCast v1007
  let c48_611 : Index := 48#32
  ![v1008.toNat, 48]
def k0_off580 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v1012 : Index := Scalar.indexCast v975
  let c64_612 : Index := 64#32
  ![v1012.toNat, 64]
def k0_off581 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_613 : BitVec 32 := 1#32
  let v1016 : BitVec 32 := Scalar.addi v975 c1_i32_613
  let v1017 : Index := Scalar.indexCast v1016
  let c64_614 : Index := 64#32
  ![v1017.toNat, 64]
def k0_off582 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v1021 : Index := Scalar.indexCast v975
  let c80_615 : Index := 80#32
  ![v1021.toNat, 80]
def k0_off583 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_616 : BitVec 32 := 1#32
  let v1025 : BitVec 32 := Scalar.addi v975 c1_i32_616
  let v1026 : Index := Scalar.indexCast v1025
  let c80_617 : Index := 80#32
  ![v1026.toNat, 80]
def k0_off584 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v1030 : Index := Scalar.indexCast v975
  let c96_618 : Index := 96#32
  ![v1030.toNat, 96]
def k0_off585 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_619 : BitVec 32 := 1#32
  let v1034 : BitVec 32 := Scalar.addi v975 c1_i32_619
  let v1035 : Index := Scalar.indexCast v1034
  let c96_620 : Index := 96#32
  ![v1035.toNat, 96]
def k0_off586 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let v1039 : Index := Scalar.indexCast v975
  let c112_621 : Index := 112#32
  ![v1039.toNat, 112]
def k0_off587 (k0_t39 : Fin k0_t39_loop.trips) : Fin 2 → Nat :=
  let c150_i32 : BitVec 32 := 150#32
  let c2_i32_599 : BitVec 32 := 2#32
  let c0_i32_133 : BitVec 32 := 0#32
  let c1_i32_135 : BitVec 32 := 1#32
  let arg19 : BitVec 32 := Scf.iv c0_i32_133 c1_i32_135 k0_t39
  let v974 : BitVec 32 := Scalar.muli c2_i32_599 arg19
  let v975 : BitVec 32 := Scalar.addi c150_i32 v974
  let c1_i32_622 : BitVec 32 := 1#32
  let v1043 : BitVec 32 := Scalar.addi v975 c1_i32_622
  let v1044 : Index := Scalar.indexCast v1043
  let c112_623 : Index := 112#32
  ![v1044.toNat, 112]
def k0_cond17 (k0_t35 : Fin k0_t35_loop.trips) : BitVec 1 :=
  let c0_i32_20 : BitVec 32 := 0#32
  let c1_i32_22 : BitVec 32 := 1#32
  let arg18 : BitVec 32 := Scf.iv c0_i32_20 c1_i32_22 k0_t35
  let c7_i32 : BitVec 32 := 7#32
  let v258 : BitVec 1 := Scalar.cmpi .slt arg18 c7_i32
  let v259 : BitVec 32 := Scalar.extui v258
  let c0_i32_160 : BitVec 32 := 0#32
  let v260 : BitVec 1 := Scalar.cmpi .ne v259 c0_i32_160
  v260

def k0_mult21 (k0_t35 : Fin k0_t35_loop.trips) : BitVec 32 :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c0_i32_600 : BitVec 32 := 0#32
  let v975 : BitVec 32 := Scalar.addi v974 c0_i32_600
  let c4_i32_601 : BitVec 32 := 4#32
  let v976 : BitVec 32 := Scalar.addi v975 c4_i32_601
  let c200_i32_602 : BitVec 32 := 200#32
  let v977 : BitVec 32 := Scalar.muli v976 c200_i32_602
  v977
def k0_off588 (k0_t35 : Fin k0_t35_loop.trips) : Fin 1 → Nat :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c0_i32_600 : BitVec 32 := 0#32
  let v975 : BitVec 32 := Scalar.addi v974 c0_i32_600
  let c4_i32_601 : BitVec 32 := 4#32
  let v976 : BitVec 32 := Scalar.addi v975 c4_i32_601
  let c200_i32_602 : BitVec 32 := 200#32
  let v977 : BitVec 32 := Scalar.muli v976 c200_i32_602
  let v978 : BitVec 32 := v977
  ![v978.toNat]
@[reducible] def k0_t40_loop : Scf.Loop 32 :=
  let c0_i32_172 : BitVec 32 := 0#32
  let c25_i32_173 : BitVec 32 := 25#32
  let v271 : BitVec 32 := Scalar.addi c0_i32_172 c25_i32_173
  let c1_i32_174 : BitVec 32 := 1#32
  ⟨c0_i32_172, v271, c1_i32_174⟩
def k0_off589 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v976 : Index := Scalar.indexCast v975
  let c0_601 : Index := 0#32
  ![v976.toNat, 0]
def k0_off590 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_602 : BitVec 32 := 1#32
  let v980 : BitVec 32 := Scalar.addi v975 c1_i32_602
  let v981 : Index := Scalar.indexCast v980
  let c0_603 : Index := 0#32
  ![v981.toNat, 0]
def k0_off591 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v985 : Index := Scalar.indexCast v975
  let c16_604 : Index := 16#32
  ![v985.toNat, 16]
def k0_off592 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_605 : BitVec 32 := 1#32
  let v989 : BitVec 32 := Scalar.addi v975 c1_i32_605
  let v990 : Index := Scalar.indexCast v989
  let c16_606 : Index := 16#32
  ![v990.toNat, 16]
def k0_off593 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v994 : Index := Scalar.indexCast v975
  let c32_607 : Index := 32#32
  ![v994.toNat, 32]
def k0_off594 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_608 : BitVec 32 := 1#32
  let v998 : BitVec 32 := Scalar.addi v975 c1_i32_608
  let v999 : Index := Scalar.indexCast v998
  let c32_609 : Index := 32#32
  ![v999.toNat, 32]
def k0_off595 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v1003 : Index := Scalar.indexCast v975
  let c48_610 : Index := 48#32
  ![v1003.toNat, 48]
def k0_off596 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off597 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v1012 : Index := Scalar.indexCast v975
  let c64_613 : Index := 64#32
  ![v1012.toNat, 64]
def k0_off598 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off599 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v1021 : Index := Scalar.indexCast v975
  let c80_616 : Index := 80#32
  ![v1021.toNat, 80]
def k0_off600 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off601 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v1030 : Index := Scalar.indexCast v975
  let c96_619 : Index := 96#32
  ![v1030.toNat, 96]
def k0_off602 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off603 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let v1039 : Index := Scalar.indexCast v975
  let c112_622 : Index := 112#32
  ![v1039.toNat, 112]
def k0_off604 (k0_t40 : Fin k0_t40_loop.trips) : Fin 2 → Nat :=
  let c0_i32_600 : BitVec 32 := 0#32
  let c2_i32_599 : BitVec 32 := 2#32
  let c0_i32_172 : BitVec 32 := 0#32
  let c1_i32_174 : BitVec 32 := 1#32
  let arg19 : BitVec 32 := Scf.iv c0_i32_172 c1_i32_174 k0_t40
  let v974 : BitVec 32 := Scalar.muli c2_i32_599 arg19
  let v975 : BitVec 32 := Scalar.addi c0_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t41_loop : Scf.Loop 32 :=
  let c0_i32_207 : BitVec 32 := 0#32
  let c25_i32_208 : BitVec 32 := 25#32
  let v329 : BitVec 32 := Scalar.addi c0_i32_207 c25_i32_208
  let c1_i32_209 : BitVec 32 := 1#32
  ⟨c0_i32_207, v329, c1_i32_209⟩
def k0_off605 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v976 : Index := Scalar.indexCast v975
  let c0_601 : Index := 0#32
  ![v976.toNat, 0]
def k0_off606 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_602 : BitVec 32 := 1#32
  let v980 : BitVec 32 := Scalar.addi v975 c1_i32_602
  let v981 : Index := Scalar.indexCast v980
  let c0_603 : Index := 0#32
  ![v981.toNat, 0]
def k0_off607 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v985 : Index := Scalar.indexCast v975
  let c16_604 : Index := 16#32
  ![v985.toNat, 16]
def k0_off608 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_605 : BitVec 32 := 1#32
  let v989 : BitVec 32 := Scalar.addi v975 c1_i32_605
  let v990 : Index := Scalar.indexCast v989
  let c16_606 : Index := 16#32
  ![v990.toNat, 16]
def k0_off609 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v994 : Index := Scalar.indexCast v975
  let c32_607 : Index := 32#32
  ![v994.toNat, 32]
def k0_off610 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_608 : BitVec 32 := 1#32
  let v998 : BitVec 32 := Scalar.addi v975 c1_i32_608
  let v999 : Index := Scalar.indexCast v998
  let c32_609 : Index := 32#32
  ![v999.toNat, 32]
def k0_off611 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v1003 : Index := Scalar.indexCast v975
  let c48_610 : Index := 48#32
  ![v1003.toNat, 48]
def k0_off612 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off613 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v1012 : Index := Scalar.indexCast v975
  let c64_613 : Index := 64#32
  ![v1012.toNat, 64]
def k0_off614 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off615 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v1021 : Index := Scalar.indexCast v975
  let c80_616 : Index := 80#32
  ![v1021.toNat, 80]
def k0_off616 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off617 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v1030 : Index := Scalar.indexCast v975
  let c96_619 : Index := 96#32
  ![v1030.toNat, 96]
def k0_off618 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off619 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let v1039 : Index := Scalar.indexCast v975
  let c112_622 : Index := 112#32
  ![v1039.toNat, 112]
def k0_off620 (k0_t41 : Fin k0_t41_loop.trips) : Fin 2 → Nat :=
  let c50_i32_600 : BitVec 32 := 50#32
  let c2_i32_599 : BitVec 32 := 2#32
  let c0_i32_207 : BitVec 32 := 0#32
  let c1_i32_209 : BitVec 32 := 1#32
  let arg19 : BitVec 32 := Scf.iv c0_i32_207 c1_i32_209 k0_t41
  let v974 : BitVec 32 := Scalar.muli c2_i32_599 arg19
  let v975 : BitVec 32 := Scalar.addi c50_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t42_loop : Scf.Loop 32 :=
  let c0_i32_242 : BitVec 32 := 0#32
  let c25_i32_243 : BitVec 32 := 25#32
  let v387 : BitVec 32 := Scalar.addi c0_i32_242 c25_i32_243
  let c1_i32_244 : BitVec 32 := 1#32
  ⟨c0_i32_242, v387, c1_i32_244⟩
def k0_off621 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v976 : Index := Scalar.indexCast v975
  let c0_600 : Index := 0#32
  ![v976.toNat, 0]
def k0_off622 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_601 : BitVec 32 := 1#32
  let v980 : BitVec 32 := Scalar.addi v975 c1_i32_601
  let v981 : Index := Scalar.indexCast v980
  let c0_602 : Index := 0#32
  ![v981.toNat, 0]
def k0_off623 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v985 : Index := Scalar.indexCast v975
  let c16_603 : Index := 16#32
  ![v985.toNat, 16]
def k0_off624 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_604 : BitVec 32 := 1#32
  let v989 : BitVec 32 := Scalar.addi v975 c1_i32_604
  let v990 : Index := Scalar.indexCast v989
  let c16_605 : Index := 16#32
  ![v990.toNat, 16]
def k0_off625 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v994 : Index := Scalar.indexCast v975
  let c32_606 : Index := 32#32
  ![v994.toNat, 32]
def k0_off626 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_607 : BitVec 32 := 1#32
  let v998 : BitVec 32 := Scalar.addi v975 c1_i32_607
  let v999 : Index := Scalar.indexCast v998
  let c32_608 : Index := 32#32
  ![v999.toNat, 32]
def k0_off627 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v1003 : Index := Scalar.indexCast v975
  let c48_609 : Index := 48#32
  ![v1003.toNat, 48]
def k0_off628 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_610 : BitVec 32 := 1#32
  let v1007 : BitVec 32 := Scalar.addi v975 c1_i32_610
  let v1008 : Index := Scalar.indexCast v1007
  let c48_611 : Index := 48#32
  ![v1008.toNat, 48]
def k0_off629 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v1012 : Index := Scalar.indexCast v975
  let c64_612 : Index := 64#32
  ![v1012.toNat, 64]
def k0_off630 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_613 : BitVec 32 := 1#32
  let v1016 : BitVec 32 := Scalar.addi v975 c1_i32_613
  let v1017 : Index := Scalar.indexCast v1016
  let c64_614 : Index := 64#32
  ![v1017.toNat, 64]
def k0_off631 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v1021 : Index := Scalar.indexCast v975
  let c80_615 : Index := 80#32
  ![v1021.toNat, 80]
def k0_off632 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_616 : BitVec 32 := 1#32
  let v1025 : BitVec 32 := Scalar.addi v975 c1_i32_616
  let v1026 : Index := Scalar.indexCast v1025
  let c80_617 : Index := 80#32
  ![v1026.toNat, 80]
def k0_off633 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v1030 : Index := Scalar.indexCast v975
  let c96_618 : Index := 96#32
  ![v1030.toNat, 96]
def k0_off634 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_619 : BitVec 32 := 1#32
  let v1034 : BitVec 32 := Scalar.addi v975 c1_i32_619
  let v1035 : Index := Scalar.indexCast v1034
  let c96_620 : Index := 96#32
  ![v1035.toNat, 96]
def k0_off635 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let v1039 : Index := Scalar.indexCast v975
  let c112_621 : Index := 112#32
  ![v1039.toNat, 112]
def k0_off636 (k0_t42 : Fin k0_t42_loop.trips) : Fin 2 → Nat :=
  let c100_i32 : BitVec 32 := 100#32
  let c2_i32_599 : BitVec 32 := 2#32
  let c0_i32_242 : BitVec 32 := 0#32
  let c1_i32_244 : BitVec 32 := 1#32
  let arg19 : BitVec 32 := Scf.iv c0_i32_242 c1_i32_244 k0_t42
  let v974 : BitVec 32 := Scalar.muli c2_i32_599 arg19
  let v975 : BitVec 32 := Scalar.addi c100_i32 v974
  let c1_i32_622 : BitVec 32 := 1#32
  let v1043 : BitVec 32 := Scalar.addi v975 c1_i32_622
  let v1044 : Index := Scalar.indexCast v1043
  let c112_623 : Index := 112#32
  ![v1044.toNat, 112]
@[reducible] def k0_t43_loop : Scf.Loop 32 :=
  let c0_i32_277 : BitVec 32 := 0#32
  let c25_i32_278 : BitVec 32 := 25#32
  let v445 : BitVec 32 := Scalar.addi c0_i32_277 c25_i32_278
  let c1_i32_279 : BitVec 32 := 1#32
  ⟨c0_i32_277, v445, c1_i32_279⟩
def k0_off637 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v976 : Index := Scalar.indexCast v975
  let c0_600 : Index := 0#32
  ![v976.toNat, 0]
def k0_off638 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_601 : BitVec 32 := 1#32
  let v980 : BitVec 32 := Scalar.addi v975 c1_i32_601
  let v981 : Index := Scalar.indexCast v980
  let c0_602 : Index := 0#32
  ![v981.toNat, 0]
def k0_off639 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v985 : Index := Scalar.indexCast v975
  let c16_603 : Index := 16#32
  ![v985.toNat, 16]
def k0_off640 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_604 : BitVec 32 := 1#32
  let v989 : BitVec 32 := Scalar.addi v975 c1_i32_604
  let v990 : Index := Scalar.indexCast v989
  let c16_605 : Index := 16#32
  ![v990.toNat, 16]
def k0_off641 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v994 : Index := Scalar.indexCast v975
  let c32_606 : Index := 32#32
  ![v994.toNat, 32]
def k0_off642 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_607 : BitVec 32 := 1#32
  let v998 : BitVec 32 := Scalar.addi v975 c1_i32_607
  let v999 : Index := Scalar.indexCast v998
  let c32_608 : Index := 32#32
  ![v999.toNat, 32]
def k0_off643 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v1003 : Index := Scalar.indexCast v975
  let c48_609 : Index := 48#32
  ![v1003.toNat, 48]
def k0_off644 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_610 : BitVec 32 := 1#32
  let v1007 : BitVec 32 := Scalar.addi v975 c1_i32_610
  let v1008 : Index := Scalar.indexCast v1007
  let c48_611 : Index := 48#32
  ![v1008.toNat, 48]
def k0_off645 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v1012 : Index := Scalar.indexCast v975
  let c64_612 : Index := 64#32
  ![v1012.toNat, 64]
def k0_off646 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_613 : BitVec 32 := 1#32
  let v1016 : BitVec 32 := Scalar.addi v975 c1_i32_613
  let v1017 : Index := Scalar.indexCast v1016
  let c64_614 : Index := 64#32
  ![v1017.toNat, 64]
def k0_off647 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v1021 : Index := Scalar.indexCast v975
  let c80_615 : Index := 80#32
  ![v1021.toNat, 80]
def k0_off648 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_616 : BitVec 32 := 1#32
  let v1025 : BitVec 32 := Scalar.addi v975 c1_i32_616
  let v1026 : Index := Scalar.indexCast v1025
  let c80_617 : Index := 80#32
  ![v1026.toNat, 80]
def k0_off649 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v1030 : Index := Scalar.indexCast v975
  let c96_618 : Index := 96#32
  ![v1030.toNat, 96]
def k0_off650 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_619 : BitVec 32 := 1#32
  let v1034 : BitVec 32 := Scalar.addi v975 c1_i32_619
  let v1035 : Index := Scalar.indexCast v1034
  let c96_620 : Index := 96#32
  ![v1035.toNat, 96]
def k0_off651 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let v1039 : Index := Scalar.indexCast v975
  let c112_621 : Index := 112#32
  ![v1039.toNat, 112]
def k0_off652 (k0_t43 : Fin k0_t43_loop.trips) : Fin 2 → Nat :=
  let c150_i32 : BitVec 32 := 150#32
  let c2_i32_599 : BitVec 32 := 2#32
  let c0_i32_277 : BitVec 32 := 0#32
  let c1_i32_279 : BitVec 32 := 1#32
  let arg19 : BitVec 32 := Scf.iv c0_i32_277 c1_i32_279 k0_t43
  let v974 : BitVec 32 := Scalar.muli c2_i32_599 arg19
  let v975 : BitVec 32 := Scalar.addi c150_i32 v974
  let c1_i32_622 : BitVec 32 := 1#32
  let v1043 : BitVec 32 := Scalar.addi v975 c1_i32_622
  let v1044 : Index := Scalar.indexCast v1043
  let c112_623 : Index := 112#32
  ![v1044.toNat, 112]
def k0_cond18 (k0_t35 : Fin k0_t35_loop.trips) : BitVec 1 :=
  let c0_i32_20 : BitVec 32 := 0#32
  let c1_i32_22 : BitVec 32 := 1#32
  let arg18 : BitVec 32 := Scf.iv c0_i32_20 c1_i32_22 k0_t35
  let c7_i32_305 : BitVec 32 := 7#32
  let v495 : BitVec 1 := Scalar.cmpi .slt arg18 c7_i32_305
  let v496 : BitVec 32 := Scalar.extui v495
  let c0_i32_306 : BitVec 32 := 0#32
  let v497 : BitVec 1 := Scalar.cmpi .ne v496 c0_i32_306
  v497

def k0_mult22 (k0_t35 : Fin k0_t35_loop.trips) : BitVec 32 :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c1_i32_600 : BitVec 32 := 1#32
  let v975 : BitVec 32 := Scalar.addi v974 c1_i32_600
  let c4_i32_601 : BitVec 32 := 4#32
  let v976 : BitVec 32 := Scalar.addi v975 c4_i32_601
  let c200_i32_602 : BitVec 32 := 200#32
  let v977 : BitVec 32 := Scalar.muli v976 c200_i32_602
  v977
def k0_off653 (k0_t35 : Fin k0_t35_loop.trips) : Fin 1 → Nat :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c1_i32_600 : BitVec 32 := 1#32
  let v975 : BitVec 32 := Scalar.addi v974 c1_i32_600
  let c4_i32_601 : BitVec 32 := 4#32
  let v976 : BitVec 32 := Scalar.addi v975 c4_i32_601
  let c200_i32_602 : BitVec 32 := 200#32
  let v977 : BitVec 32 := Scalar.muli v976 c200_i32_602
  let v978 : BitVec 32 := v977
  ![v978.toNat]
@[reducible] def k0_t44_loop : Scf.Loop 32 :=
  let c0_i32_318 : BitVec 32 := 0#32
  let c25_i32_319 : BitVec 32 := 25#32
  let v508 : BitVec 32 := Scalar.addi c0_i32_318 c25_i32_319
  let c1_i32_320 : BitVec 32 := 1#32
  ⟨c0_i32_318, v508, c1_i32_320⟩
def k0_off654 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v976 : Index := Scalar.indexCast v975
  let c0_601 : Index := 0#32
  ![v976.toNat, 0]
def k0_off655 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_602 : BitVec 32 := 1#32
  let v980 : BitVec 32 := Scalar.addi v975 c1_i32_602
  let v981 : Index := Scalar.indexCast v980
  let c0_603 : Index := 0#32
  ![v981.toNat, 0]
def k0_off656 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v985 : Index := Scalar.indexCast v975
  let c16_604 : Index := 16#32
  ![v985.toNat, 16]
def k0_off657 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_605 : BitVec 32 := 1#32
  let v989 : BitVec 32 := Scalar.addi v975 c1_i32_605
  let v990 : Index := Scalar.indexCast v989
  let c16_606 : Index := 16#32
  ![v990.toNat, 16]
def k0_off658 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v994 : Index := Scalar.indexCast v975
  let c32_607 : Index := 32#32
  ![v994.toNat, 32]
def k0_off659 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_608 : BitVec 32 := 1#32
  let v998 : BitVec 32 := Scalar.addi v975 c1_i32_608
  let v999 : Index := Scalar.indexCast v998
  let c32_609 : Index := 32#32
  ![v999.toNat, 32]
def k0_off660 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v1003 : Index := Scalar.indexCast v975
  let c48_610 : Index := 48#32
  ![v1003.toNat, 48]
def k0_off661 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off662 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v1012 : Index := Scalar.indexCast v975
  let c64_613 : Index := 64#32
  ![v1012.toNat, 64]
def k0_off663 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off664 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v1021 : Index := Scalar.indexCast v975
  let c80_616 : Index := 80#32
  ![v1021.toNat, 80]
def k0_off665 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off666 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v1030 : Index := Scalar.indexCast v975
  let c96_619 : Index := 96#32
  ![v1030.toNat, 96]
def k0_off667 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off668 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let v1039 : Index := Scalar.indexCast v975
  let c112_622 : Index := 112#32
  ![v1039.toNat, 112]
def k0_off669 (k0_t44 : Fin k0_t44_loop.trips) : Fin 2 → Nat :=
  let c0_i32_600 : BitVec 32 := 0#32
  let c2_i32_599 : BitVec 32 := 2#32
  let c0_i32_318 : BitVec 32 := 0#32
  let c1_i32_320 : BitVec 32 := 1#32
  let arg19 : BitVec 32 := Scf.iv c0_i32_318 c1_i32_320 k0_t44
  let v974 : BitVec 32 := Scalar.muli c2_i32_599 arg19
  let v975 : BitVec 32 := Scalar.addi c0_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t45_loop : Scf.Loop 32 :=
  let c0_i32_354 : BitVec 32 := 0#32
  let c25_i32_355 : BitVec 32 := 25#32
  let v566 : BitVec 32 := Scalar.addi c0_i32_354 c25_i32_355
  let c1_i32_356 : BitVec 32 := 1#32
  ⟨c0_i32_354, v566, c1_i32_356⟩
def k0_off670 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v976 : Index := Scalar.indexCast v975
  let c0_601 : Index := 0#32
  ![v976.toNat, 0]
def k0_off671 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_602 : BitVec 32 := 1#32
  let v980 : BitVec 32 := Scalar.addi v975 c1_i32_602
  let v981 : Index := Scalar.indexCast v980
  let c0_603 : Index := 0#32
  ![v981.toNat, 0]
def k0_off672 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v985 : Index := Scalar.indexCast v975
  let c16_604 : Index := 16#32
  ![v985.toNat, 16]
def k0_off673 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_605 : BitVec 32 := 1#32
  let v989 : BitVec 32 := Scalar.addi v975 c1_i32_605
  let v990 : Index := Scalar.indexCast v989
  let c16_606 : Index := 16#32
  ![v990.toNat, 16]
def k0_off674 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v994 : Index := Scalar.indexCast v975
  let c32_607 : Index := 32#32
  ![v994.toNat, 32]
def k0_off675 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_608 : BitVec 32 := 1#32
  let v998 : BitVec 32 := Scalar.addi v975 c1_i32_608
  let v999 : Index := Scalar.indexCast v998
  let c32_609 : Index := 32#32
  ![v999.toNat, 32]
def k0_off676 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v1003 : Index := Scalar.indexCast v975
  let c48_610 : Index := 48#32
  ![v1003.toNat, 48]
def k0_off677 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off678 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v1012 : Index := Scalar.indexCast v975
  let c64_613 : Index := 64#32
  ![v1012.toNat, 64]
def k0_off679 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off680 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v1021 : Index := Scalar.indexCast v975
  let c80_616 : Index := 80#32
  ![v1021.toNat, 80]
def k0_off681 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off682 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v1030 : Index := Scalar.indexCast v975
  let c96_619 : Index := 96#32
  ![v1030.toNat, 96]
def k0_off683 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off684 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let v1039 : Index := Scalar.indexCast v975
  let c112_622 : Index := 112#32
  ![v1039.toNat, 112]
def k0_off685 (k0_t45 : Fin k0_t45_loop.trips) : Fin 2 → Nat :=
  let c50_i32_600 : BitVec 32 := 50#32
  let c2_i32_599 : BitVec 32 := 2#32
  let c0_i32_354 : BitVec 32 := 0#32
  let c1_i32_356 : BitVec 32 := 1#32
  let arg19 : BitVec 32 := Scf.iv c0_i32_354 c1_i32_356 k0_t45
  let v974 : BitVec 32 := Scalar.muli c2_i32_599 arg19
  let v975 : BitVec 32 := Scalar.addi c50_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t46_loop : Scf.Loop 32 :=
  let c0_i32_389 : BitVec 32 := 0#32
  let c25_i32_390 : BitVec 32 := 25#32
  let v624 : BitVec 32 := Scalar.addi c0_i32_389 c25_i32_390
  let c1_i32_391 : BitVec 32 := 1#32
  ⟨c0_i32_389, v624, c1_i32_391⟩
def k0_off686 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v976 : Index := Scalar.indexCast v975
  let c0_600 : Index := 0#32
  ![v976.toNat, 0]
def k0_off687 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_601 : BitVec 32 := 1#32
  let v980 : BitVec 32 := Scalar.addi v975 c1_i32_601
  let v981 : Index := Scalar.indexCast v980
  let c0_602 : Index := 0#32
  ![v981.toNat, 0]
def k0_off688 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v985 : Index := Scalar.indexCast v975
  let c16_603 : Index := 16#32
  ![v985.toNat, 16]
def k0_off689 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_604 : BitVec 32 := 1#32
  let v989 : BitVec 32 := Scalar.addi v975 c1_i32_604
  let v990 : Index := Scalar.indexCast v989
  let c16_605 : Index := 16#32
  ![v990.toNat, 16]
def k0_off690 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v994 : Index := Scalar.indexCast v975
  let c32_606 : Index := 32#32
  ![v994.toNat, 32]
def k0_off691 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_607 : BitVec 32 := 1#32
  let v998 : BitVec 32 := Scalar.addi v975 c1_i32_607
  let v999 : Index := Scalar.indexCast v998
  let c32_608 : Index := 32#32
  ![v999.toNat, 32]
def k0_off692 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v1003 : Index := Scalar.indexCast v975
  let c48_609 : Index := 48#32
  ![v1003.toNat, 48]
def k0_off693 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_610 : BitVec 32 := 1#32
  let v1007 : BitVec 32 := Scalar.addi v975 c1_i32_610
  let v1008 : Index := Scalar.indexCast v1007
  let c48_611 : Index := 48#32
  ![v1008.toNat, 48]
def k0_off694 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v1012 : Index := Scalar.indexCast v975
  let c64_612 : Index := 64#32
  ![v1012.toNat, 64]
def k0_off695 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_613 : BitVec 32 := 1#32
  let v1016 : BitVec 32 := Scalar.addi v975 c1_i32_613
  let v1017 : Index := Scalar.indexCast v1016
  let c64_614 : Index := 64#32
  ![v1017.toNat, 64]
def k0_off696 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v1021 : Index := Scalar.indexCast v975
  let c80_615 : Index := 80#32
  ![v1021.toNat, 80]
def k0_off697 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_616 : BitVec 32 := 1#32
  let v1025 : BitVec 32 := Scalar.addi v975 c1_i32_616
  let v1026 : Index := Scalar.indexCast v1025
  let c80_617 : Index := 80#32
  ![v1026.toNat, 80]
def k0_off698 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v1030 : Index := Scalar.indexCast v975
  let c96_618 : Index := 96#32
  ![v1030.toNat, 96]
def k0_off699 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_619 : BitVec 32 := 1#32
  let v1034 : BitVec 32 := Scalar.addi v975 c1_i32_619
  let v1035 : Index := Scalar.indexCast v1034
  let c96_620 : Index := 96#32
  ![v1035.toNat, 96]
def k0_off700 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let v1039 : Index := Scalar.indexCast v975
  let c112_621 : Index := 112#32
  ![v1039.toNat, 112]
def k0_off701 (k0_t46 : Fin k0_t46_loop.trips) : Fin 2 → Nat :=
  let c100_i32 : BitVec 32 := 100#32
  let c2_i32_599 : BitVec 32 := 2#32
  let c0_i32_389 : BitVec 32 := 0#32
  let c1_i32_391 : BitVec 32 := 1#32
  let arg19 : BitVec 32 := Scf.iv c0_i32_389 c1_i32_391 k0_t46
  let v974 : BitVec 32 := Scalar.muli c2_i32_599 arg19
  let v975 : BitVec 32 := Scalar.addi c100_i32 v974
  let c1_i32_622 : BitVec 32 := 1#32
  let v1043 : BitVec 32 := Scalar.addi v975 c1_i32_622
  let v1044 : Index := Scalar.indexCast v1043
  let c112_623 : Index := 112#32
  ![v1044.toNat, 112]
@[reducible] def k0_t47_loop : Scf.Loop 32 :=
  let c0_i32_424 : BitVec 32 := 0#32
  let c25_i32_425 : BitVec 32 := 25#32
  let v682 : BitVec 32 := Scalar.addi c0_i32_424 c25_i32_425
  let c1_i32_426 : BitVec 32 := 1#32
  ⟨c0_i32_424, v682, c1_i32_426⟩
def k0_off702 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v976 : Index := Scalar.indexCast v975
  let c0_600 : Index := 0#32
  ![v976.toNat, 0]
def k0_off703 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_601 : BitVec 32 := 1#32
  let v980 : BitVec 32 := Scalar.addi v975 c1_i32_601
  let v981 : Index := Scalar.indexCast v980
  let c0_602 : Index := 0#32
  ![v981.toNat, 0]
def k0_off704 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v985 : Index := Scalar.indexCast v975
  let c16_603 : Index := 16#32
  ![v985.toNat, 16]
def k0_off705 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_604 : BitVec 32 := 1#32
  let v989 : BitVec 32 := Scalar.addi v975 c1_i32_604
  let v990 : Index := Scalar.indexCast v989
  let c16_605 : Index := 16#32
  ![v990.toNat, 16]
def k0_off706 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v994 : Index := Scalar.indexCast v975
  let c32_606 : Index := 32#32
  ![v994.toNat, 32]
def k0_off707 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_607 : BitVec 32 := 1#32
  let v998 : BitVec 32 := Scalar.addi v975 c1_i32_607
  let v999 : Index := Scalar.indexCast v998
  let c32_608 : Index := 32#32
  ![v999.toNat, 32]
def k0_off708 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v1003 : Index := Scalar.indexCast v975
  let c48_609 : Index := 48#32
  ![v1003.toNat, 48]
def k0_off709 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_610 : BitVec 32 := 1#32
  let v1007 : BitVec 32 := Scalar.addi v975 c1_i32_610
  let v1008 : Index := Scalar.indexCast v1007
  let c48_611 : Index := 48#32
  ![v1008.toNat, 48]
def k0_off710 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v1012 : Index := Scalar.indexCast v975
  let c64_612 : Index := 64#32
  ![v1012.toNat, 64]
def k0_off711 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_613 : BitVec 32 := 1#32
  let v1016 : BitVec 32 := Scalar.addi v975 c1_i32_613
  let v1017 : Index := Scalar.indexCast v1016
  let c64_614 : Index := 64#32
  ![v1017.toNat, 64]
def k0_off712 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v1021 : Index := Scalar.indexCast v975
  let c80_615 : Index := 80#32
  ![v1021.toNat, 80]
def k0_off713 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_616 : BitVec 32 := 1#32
  let v1025 : BitVec 32 := Scalar.addi v975 c1_i32_616
  let v1026 : Index := Scalar.indexCast v1025
  let c80_617 : Index := 80#32
  ![v1026.toNat, 80]
def k0_off714 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v1030 : Index := Scalar.indexCast v975
  let c96_618 : Index := 96#32
  ![v1030.toNat, 96]
def k0_off715 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_619 : BitVec 32 := 1#32
  let v1034 : BitVec 32 := Scalar.addi v975 c1_i32_619
  let v1035 : Index := Scalar.indexCast v1034
  let c96_620 : Index := 96#32
  ![v1035.toNat, 96]
def k0_off716 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let v1039 : Index := Scalar.indexCast v975
  let c112_621 : Index := 112#32
  ![v1039.toNat, 112]
def k0_off717 (k0_t47 : Fin k0_t47_loop.trips) : Fin 2 → Nat :=
  let c150_i32 : BitVec 32 := 150#32
  let c2_i32_599 : BitVec 32 := 2#32
  let c0_i32_424 : BitVec 32 := 0#32
  let c1_i32_426 : BitVec 32 := 1#32
  let arg19 : BitVec 32 := Scf.iv c0_i32_424 c1_i32_426 k0_t47
  let v974 : BitVec 32 := Scalar.muli c2_i32_599 arg19
  let v975 : BitVec 32 := Scalar.addi c150_i32 v974
  let c1_i32_622 : BitVec 32 := 1#32
  let v1043 : BitVec 32 := Scalar.addi v975 c1_i32_622
  let v1044 : Index := Scalar.indexCast v1043
  let c112_623 : Index := 112#32
  ![v1044.toNat, 112]
def k0_cond19 (k0_t35 : Fin k0_t35_loop.trips) : BitVec 1 :=
  let c0_i32_20 : BitVec 32 := 0#32
  let c1_i32_22 : BitVec 32 := 1#32
  let arg18 : BitVec 32 := Scf.iv c0_i32_20 c1_i32_22 k0_t35
  let c7_i32_451 : BitVec 32 := 7#32
  let v732 : BitVec 1 := Scalar.cmpi .slt arg18 c7_i32_451
  let v733 : BitVec 32 := Scalar.extui v732
  let c0_i32_452 : BitVec 32 := 0#32
  let v734 : BitVec 1 := Scalar.cmpi .ne v733 c0_i32_452
  v734

def k0_mult23 (k0_t35 : Fin k0_t35_loop.trips) : BitVec 32 :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c2_i32_600 : BitVec 32 := 2#32
  let v975 : BitVec 32 := Scalar.addi v974 c2_i32_600
  let c4_i32_601 : BitVec 32 := 4#32
  let v976 : BitVec 32 := Scalar.addi v975 c4_i32_601
  let c200_i32_602 : BitVec 32 := 200#32
  let v977 : BitVec 32 := Scalar.muli v976 c200_i32_602
  v977
def k0_off718 (k0_t35 : Fin k0_t35_loop.trips) : Fin 1 → Nat :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c2_i32_600 : BitVec 32 := 2#32
  let v975 : BitVec 32 := Scalar.addi v974 c2_i32_600
  let c4_i32_601 : BitVec 32 := 4#32
  let v976 : BitVec 32 := Scalar.addi v975 c4_i32_601
  let c200_i32_602 : BitVec 32 := 200#32
  let v977 : BitVec 32 := Scalar.muli v976 c200_i32_602
  let v978 : BitVec 32 := v977
  ![v978.toNat]
@[reducible] def k0_t48_loop : Scf.Loop 32 :=
  let c0_i32_464 : BitVec 32 := 0#32
  let c25_i32_465 : BitVec 32 := 25#32
  let v745 : BitVec 32 := Scalar.addi c0_i32_464 c25_i32_465
  let c1_i32_466 : BitVec 32 := 1#32
  ⟨c0_i32_464, v745, c1_i32_466⟩
def k0_off719 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v976 : Index := Scalar.indexCast v975
  let c0_601 : Index := 0#32
  ![v976.toNat, 0]
def k0_off720 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_602 : BitVec 32 := 1#32
  let v980 : BitVec 32 := Scalar.addi v975 c1_i32_602
  let v981 : Index := Scalar.indexCast v980
  let c0_603 : Index := 0#32
  ![v981.toNat, 0]
def k0_off721 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v985 : Index := Scalar.indexCast v975
  let c16_604 : Index := 16#32
  ![v985.toNat, 16]
def k0_off722 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_605 : BitVec 32 := 1#32
  let v989 : BitVec 32 := Scalar.addi v975 c1_i32_605
  let v990 : Index := Scalar.indexCast v989
  let c16_606 : Index := 16#32
  ![v990.toNat, 16]
def k0_off723 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v994 : Index := Scalar.indexCast v975
  let c32_607 : Index := 32#32
  ![v994.toNat, 32]
def k0_off724 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_608 : BitVec 32 := 1#32
  let v998 : BitVec 32 := Scalar.addi v975 c1_i32_608
  let v999 : Index := Scalar.indexCast v998
  let c32_609 : Index := 32#32
  ![v999.toNat, 32]
def k0_off725 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v1003 : Index := Scalar.indexCast v975
  let c48_610 : Index := 48#32
  ![v1003.toNat, 48]
def k0_off726 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off727 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v1012 : Index := Scalar.indexCast v975
  let c64_613 : Index := 64#32
  ![v1012.toNat, 64]
def k0_off728 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off729 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v1021 : Index := Scalar.indexCast v975
  let c80_616 : Index := 80#32
  ![v1021.toNat, 80]
def k0_off730 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off731 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v1030 : Index := Scalar.indexCast v975
  let c96_619 : Index := 96#32
  ![v1030.toNat, 96]
def k0_off732 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off733 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let v1039 : Index := Scalar.indexCast v975
  let c112_622 : Index := 112#32
  ![v1039.toNat, 112]
def k0_off734 (k0_t48 : Fin k0_t48_loop.trips) : Fin 2 → Nat :=
  let c0_i32_600 : BitVec 32 := 0#32
  let c2_i32_599 : BitVec 32 := 2#32
  let c0_i32_464 : BitVec 32 := 0#32
  let c1_i32_466 : BitVec 32 := 1#32
  let arg19 : BitVec 32 := Scf.iv c0_i32_464 c1_i32_466 k0_t48
  let v974 : BitVec 32 := Scalar.muli c2_i32_599 arg19
  let v975 : BitVec 32 := Scalar.addi c0_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t49_loop : Scf.Loop 32 :=
  let c0_i32_499 : BitVec 32 := 0#32
  let c25_i32_500 : BitVec 32 := 25#32
  let v803 : BitVec 32 := Scalar.addi c0_i32_499 c25_i32_500
  let c1_i32_501 : BitVec 32 := 1#32
  ⟨c0_i32_499, v803, c1_i32_501⟩
def k0_off735 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v976 : Index := Scalar.indexCast v975
  let c0_601 : Index := 0#32
  ![v976.toNat, 0]
def k0_off736 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_602 : BitVec 32 := 1#32
  let v980 : BitVec 32 := Scalar.addi v975 c1_i32_602
  let v981 : Index := Scalar.indexCast v980
  let c0_603 : Index := 0#32
  ![v981.toNat, 0]
def k0_off737 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v985 : Index := Scalar.indexCast v975
  let c16_604 : Index := 16#32
  ![v985.toNat, 16]
def k0_off738 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_605 : BitVec 32 := 1#32
  let v989 : BitVec 32 := Scalar.addi v975 c1_i32_605
  let v990 : Index := Scalar.indexCast v989
  let c16_606 : Index := 16#32
  ![v990.toNat, 16]
def k0_off739 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v994 : Index := Scalar.indexCast v975
  let c32_607 : Index := 32#32
  ![v994.toNat, 32]
def k0_off740 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_608 : BitVec 32 := 1#32
  let v998 : BitVec 32 := Scalar.addi v975 c1_i32_608
  let v999 : Index := Scalar.indexCast v998
  let c32_609 : Index := 32#32
  ![v999.toNat, 32]
def k0_off741 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v1003 : Index := Scalar.indexCast v975
  let c48_610 : Index := 48#32
  ![v1003.toNat, 48]
def k0_off742 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_611 : BitVec 32 := 1#32
  let v1007 : BitVec 32 := Scalar.addi v975 c1_i32_611
  let v1008 : Index := Scalar.indexCast v1007
  let c48_612 : Index := 48#32
  ![v1008.toNat, 48]
def k0_off743 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v1012 : Index := Scalar.indexCast v975
  let c64_613 : Index := 64#32
  ![v1012.toNat, 64]
def k0_off744 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_614 : BitVec 32 := 1#32
  let v1016 : BitVec 32 := Scalar.addi v975 c1_i32_614
  let v1017 : Index := Scalar.indexCast v1016
  let c64_615 : Index := 64#32
  ![v1017.toNat, 64]
def k0_off745 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v1021 : Index := Scalar.indexCast v975
  let c80_616 : Index := 80#32
  ![v1021.toNat, 80]
def k0_off746 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_617 : BitVec 32 := 1#32
  let v1025 : BitVec 32 := Scalar.addi v975 c1_i32_617
  let v1026 : Index := Scalar.indexCast v1025
  let c80_618 : Index := 80#32
  ![v1026.toNat, 80]
def k0_off747 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v1030 : Index := Scalar.indexCast v975
  let c96_619 : Index := 96#32
  ![v1030.toNat, 96]
def k0_off748 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_620 : BitVec 32 := 1#32
  let v1034 : BitVec 32 := Scalar.addi v975 c1_i32_620
  let v1035 : Index := Scalar.indexCast v1034
  let c96_621 : Index := 96#32
  ![v1035.toNat, 96]
def k0_off749 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let v1039 : Index := Scalar.indexCast v975
  let c112_622 : Index := 112#32
  ![v1039.toNat, 112]
def k0_off750 (k0_t49 : Fin k0_t49_loop.trips) : Fin 2 → Nat :=
  let c50_i32_600 : BitVec 32 := 50#32
  let c2_i32_599 : BitVec 32 := 2#32
  let c0_i32_499 : BitVec 32 := 0#32
  let c1_i32_501 : BitVec 32 := 1#32
  let arg19 : BitVec 32 := Scf.iv c0_i32_499 c1_i32_501 k0_t49
  let v974 : BitVec 32 := Scalar.muli c2_i32_599 arg19
  let v975 : BitVec 32 := Scalar.addi c50_i32_600 v974
  let c1_i32_623 : BitVec 32 := 1#32
  let v1043 : BitVec 32 := Scalar.addi v975 c1_i32_623
  let v1044 : Index := Scalar.indexCast v1043
  let c112_624 : Index := 112#32
  ![v1044.toNat, 112]
@[reducible] def k0_t50_loop : Scf.Loop 32 :=
  let c0_i32_534 : BitVec 32 := 0#32
  let c25_i32_535 : BitVec 32 := 25#32
  let v861 : BitVec 32 := Scalar.addi c0_i32_534 c25_i32_535
  let c1_i32_536 : BitVec 32 := 1#32
  ⟨c0_i32_534, v861, c1_i32_536⟩
def k0_off751 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v976 : Index := Scalar.indexCast v975
  let c0_600 : Index := 0#32
  ![v976.toNat, 0]
def k0_off752 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_601 : BitVec 32 := 1#32
  let v980 : BitVec 32 := Scalar.addi v975 c1_i32_601
  let v981 : Index := Scalar.indexCast v980
  let c0_602 : Index := 0#32
  ![v981.toNat, 0]
def k0_off753 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v985 : Index := Scalar.indexCast v975
  let c16_603 : Index := 16#32
  ![v985.toNat, 16]
def k0_off754 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_604 : BitVec 32 := 1#32
  let v989 : BitVec 32 := Scalar.addi v975 c1_i32_604
  let v990 : Index := Scalar.indexCast v989
  let c16_605 : Index := 16#32
  ![v990.toNat, 16]
def k0_off755 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v994 : Index := Scalar.indexCast v975
  let c32_606 : Index := 32#32
  ![v994.toNat, 32]
def k0_off756 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_607 : BitVec 32 := 1#32
  let v998 : BitVec 32 := Scalar.addi v975 c1_i32_607
  let v999 : Index := Scalar.indexCast v998
  let c32_608 : Index := 32#32
  ![v999.toNat, 32]
def k0_off757 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v1003 : Index := Scalar.indexCast v975
  let c48_609 : Index := 48#32
  ![v1003.toNat, 48]
def k0_off758 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_610 : BitVec 32 := 1#32
  let v1007 : BitVec 32 := Scalar.addi v975 c1_i32_610
  let v1008 : Index := Scalar.indexCast v1007
  let c48_611 : Index := 48#32
  ![v1008.toNat, 48]
def k0_off759 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v1012 : Index := Scalar.indexCast v975
  let c64_612 : Index := 64#32
  ![v1012.toNat, 64]
def k0_off760 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_613 : BitVec 32 := 1#32
  let v1016 : BitVec 32 := Scalar.addi v975 c1_i32_613
  let v1017 : Index := Scalar.indexCast v1016
  let c64_614 : Index := 64#32
  ![v1017.toNat, 64]
def k0_off761 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v1021 : Index := Scalar.indexCast v975
  let c80_615 : Index := 80#32
  ![v1021.toNat, 80]
def k0_off762 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_616 : BitVec 32 := 1#32
  let v1025 : BitVec 32 := Scalar.addi v975 c1_i32_616
  let v1026 : Index := Scalar.indexCast v1025
  let c80_617 : Index := 80#32
  ![v1026.toNat, 80]
def k0_off763 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v1030 : Index := Scalar.indexCast v975
  let c96_618 : Index := 96#32
  ![v1030.toNat, 96]
def k0_off764 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_619 : BitVec 32 := 1#32
  let v1034 : BitVec 32 := Scalar.addi v975 c1_i32_619
  let v1035 : Index := Scalar.indexCast v1034
  let c96_620 : Index := 96#32
  ![v1035.toNat, 96]
def k0_off765 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let v1039 : Index := Scalar.indexCast v975
  let c112_621 : Index := 112#32
  ![v1039.toNat, 112]
def k0_off766 (k0_t50 : Fin k0_t50_loop.trips) : Fin 2 → Nat :=
  let c100_i32 : BitVec 32 := 100#32
  let c2_i32_599 : BitVec 32 := 2#32
  let c0_i32_534 : BitVec 32 := 0#32
  let c1_i32_536 : BitVec 32 := 1#32
  let arg19 : BitVec 32 := Scf.iv c0_i32_534 c1_i32_536 k0_t50
  let v974 : BitVec 32 := Scalar.muli c2_i32_599 arg19
  let v975 : BitVec 32 := Scalar.addi c100_i32 v974
  let c1_i32_622 : BitVec 32 := 1#32
  let v1043 : BitVec 32 := Scalar.addi v975 c1_i32_622
  let v1044 : Index := Scalar.indexCast v1043
  let c112_623 : Index := 112#32
  ![v1044.toNat, 112]
@[reducible] def k0_t51_loop : Scf.Loop 32 :=
  let c0_i32_569 : BitVec 32 := 0#32
  let c25_i32_570 : BitVec 32 := 25#32
  let v919 : BitVec 32 := Scalar.addi c0_i32_569 c25_i32_570
  let c1_i32_571 : BitVec 32 := 1#32
  ⟨c0_i32_569, v919, c1_i32_571⟩
def k0_off767 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v976 : Index := Scalar.indexCast v975
  let c0_600 : Index := 0#32
  ![v976.toNat, 0]
def k0_off768 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_601 : BitVec 32 := 1#32
  let v980 : BitVec 32 := Scalar.addi v975 c1_i32_601
  let v981 : Index := Scalar.indexCast v980
  let c0_602 : Index := 0#32
  ![v981.toNat, 0]
def k0_off769 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v985 : Index := Scalar.indexCast v975
  let c16_603 : Index := 16#32
  ![v985.toNat, 16]
def k0_off770 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_604 : BitVec 32 := 1#32
  let v989 : BitVec 32 := Scalar.addi v975 c1_i32_604
  let v990 : Index := Scalar.indexCast v989
  let c16_605 : Index := 16#32
  ![v990.toNat, 16]
def k0_off771 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v994 : Index := Scalar.indexCast v975
  let c32_606 : Index := 32#32
  ![v994.toNat, 32]
def k0_off772 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_607 : BitVec 32 := 1#32
  let v998 : BitVec 32 := Scalar.addi v975 c1_i32_607
  let v999 : Index := Scalar.indexCast v998
  let c32_608 : Index := 32#32
  ![v999.toNat, 32]
def k0_off773 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v1003 : Index := Scalar.indexCast v975
  let c48_609 : Index := 48#32
  ![v1003.toNat, 48]
def k0_off774 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_610 : BitVec 32 := 1#32
  let v1007 : BitVec 32 := Scalar.addi v975 c1_i32_610
  let v1008 : Index := Scalar.indexCast v1007
  let c48_611 : Index := 48#32
  ![v1008.toNat, 48]
def k0_off775 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v1012 : Index := Scalar.indexCast v975
  let c64_612 : Index := 64#32
  ![v1012.toNat, 64]
def k0_off776 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_613 : BitVec 32 := 1#32
  let v1016 : BitVec 32 := Scalar.addi v975 c1_i32_613
  let v1017 : Index := Scalar.indexCast v1016
  let c64_614 : Index := 64#32
  ![v1017.toNat, 64]
def k0_off777 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v1021 : Index := Scalar.indexCast v975
  let c80_615 : Index := 80#32
  ![v1021.toNat, 80]
def k0_off778 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_616 : BitVec 32 := 1#32
  let v1025 : BitVec 32 := Scalar.addi v975 c1_i32_616
  let v1026 : Index := Scalar.indexCast v1025
  let c80_617 : Index := 80#32
  ![v1026.toNat, 80]
def k0_off779 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v1030 : Index := Scalar.indexCast v975
  let c96_618 : Index := 96#32
  ![v1030.toNat, 96]
def k0_off780 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_619 : BitVec 32 := 1#32
  let v1034 : BitVec 32 := Scalar.addi v975 c1_i32_619
  let v1035 : Index := Scalar.indexCast v1034
  let c96_620 : Index := 96#32
  ![v1035.toNat, 96]
def k0_off781 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let v1039 : Index := Scalar.indexCast v975
  let c112_621 : Index := 112#32
  ![v1039.toNat, 112]
def k0_off782 (k0_t51 : Fin k0_t51_loop.trips) : Fin 2 → Nat :=
  let c150_i32 : BitVec 32 := 150#32
  let c2_i32_599 : BitVec 32 := 2#32
  let c0_i32_569 : BitVec 32 := 0#32
  let c1_i32_571 : BitVec 32 := 1#32
  let arg19 : BitVec 32 := Scf.iv c0_i32_569 c1_i32_571 k0_t51
  let v974 : BitVec 32 := Scalar.muli c2_i32_599 arg19
  let v975 : BitVec 32 := Scalar.addi c150_i32 v974
  let c1_i32_622 : BitVec 32 := 1#32
  let v1043 : BitVec 32 := Scalar.addi v975 c1_i32_622
  let v1044 : Index := Scalar.indexCast v1043
  let c112_623 : Index := 112#32
  ![v1044.toNat, 112]
def k0_cond20 (k0_t35 : Fin k0_t35_loop.trips) : BitVec 1 :=
  let c0_i32_20 : BitVec 32 := 0#32
  let c1_i32_22 : BitVec 32 := 1#32
  let arg18 : BitVec 32 := Scf.iv c0_i32_20 c1_i32_22 k0_t35
  let c7_i32_596 : BitVec 32 := 7#32
  let v969 : BitVec 1 := Scalar.cmpi .slt arg18 c7_i32_596
  let v970 : BitVec 32 := Scalar.extui v969
  let c0_i32_597 : BitVec 32 := 0#32
  let v971 : BitVec 1 := Scalar.cmpi .ne v970 c0_i32_597
  v971

def k0_mult24 (k0_t35 : Fin k0_t35_loop.trips) : BitVec 32 :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c3_i32_600 : BitVec 32 := 3#32
  let v975 : BitVec 32 := Scalar.addi v974 c3_i32_600
  let c4_i32_601 : BitVec 32 := 4#32
  let v976 : BitVec 32 := Scalar.addi v975 c4_i32_601
  let c200_i32_602 : BitVec 32 := 200#32
  let v977 : BitVec 32 := Scalar.muli v976 c200_i32_602
  v977
def k0_off783 (k0_t35 : Fin k0_t35_loop.trips) : Fin 1 → Nat :=
  let c0_i32_20 : BitVec 32 := 0#32
  let c1_i32_22 : BitVec 32 := 1#32
  let arg18 : BitVec 32 := Scf.iv c0_i32_20 c1_i32_22 k0_t35
  let c4_i32_599 : BitVec 32 := 4#32
  let v974 : BitVec 32 := Scalar.muli arg18 c4_i32_599
  let c3_i32_600 : BitVec 32 := 3#32
  let v975 : BitVec 32 := Scalar.addi v974 c3_i32_600
  let c4_i32_601 : BitVec 32 := 4#32
  let v976 : BitVec 32 := Scalar.addi v975 c4_i32_601
  let c200_i32_602 : BitVec 32 := 200#32
  let v977 : BitVec 32 := Scalar.muli v976 c200_i32_602
  let v978 : BitVec 32 := v977
  ![v978.toNat]
def k0_off784 (i : grid0.Coords) (k0_t35 : Fin k0_t35_loop.trips) : Fin 3 → Nat :=
  let c2_i32_598 : BitVec 32 := 2#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20 : BitVec 32 := 0#32
  let c1_i32_22 : BitVec 32 := 1#32
  let arg18 : BitVec 32 := Scf.iv c0_i32_20 c1_i32_22 k0_t35
  let c16_i32 : BitVec 32 := 16#32
  let v972 : BitVec 32 := Scalar.muli arg18 c16_i32
  let v973 : BitVec 32 := Scalar.addi v2 v972
  let c0_i32_599_r5 : BitVec 32 := 0#32
  ![2, v973.toNat, 0]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hcore0 : grid0.bound 0 ≤ τ.nSC
  hsub0 : grid0.bound 1 ≤ τ.nSub
  k0_off1_inb : ∀ i : grid0.Coords, ∀ (r : Fin 3), ∀ a, (k0_off1 i (k0_off1_at r)) a + S6400.size a ≤ S819200.size a
  k0_mult1_dvd : 8 ∣ k0_mult1.toNat
  k0_mult2_dvd : 8 ∣ k0_mult2.toNat
  k0_mult3_dvd : 8 ∣ k0_mult3.toNat
  k0_mult4_dvd : 8 ∣ k0_mult4.toNat
  k0_t1_ok : k0_t1_loop.OK
  k0_t2_ok : k0_t2_loop.OK
  k0_off2_inb : ∀ k0_t2 : Fin k0_t2_loop.trips, ∀ a, (k0_off2 k0_t2) a + S1x16.size a ≤ S200x128.size a
  k0_off3_inb : ∀ k0_t2 : Fin k0_t2_loop.trips, ∀ a, (k0_off3 k0_t2) a + S1x16.size a ≤ S200x128.size a
  k0_off4_inb : ∀ k0_t2 : Fin k0_t2_loop.trips, ∀ a, (k0_off4 k0_t2) a + S1x16.size a ≤ S200x128.size a
  k0_off5_inb : ∀ k0_t2 : Fin k0_t2_loop.trips, ∀ a, (k0_off5 k0_t2) a + S1x16.size a ≤ S200x128.size a
  k0_off6_inb : ∀ k0_t2 : Fin k0_t2_loop.trips, ∀ a, (k0_off6 k0_t2) a + S1x16.size a ≤ S200x128.size a
  k0_off7_inb : ∀ k0_t2 : Fin k0_t2_loop.trips, ∀ a, (k0_off7 k0_t2) a + S1x16.size a ≤ S200x128.size a
  k0_off8_inb : ∀ k0_t2 : Fin k0_t2_loop.trips, ∀ a, (k0_off8 k0_t2) a + S1x16.size a ≤ S200x128.size a
  k0_off9_inb : ∀ k0_t2 : Fin k0_t2_loop.trips, ∀ a, (k0_off9 k0_t2) a + S1x16.size a ≤ S200x128.size a
  k0_off10_inb : ∀ k0_t2 : Fin k0_t2_loop.trips, ∀ a, (k0_off10 k0_t2) a + S1x16.size a ≤ S200x128.size a
  k0_off11_inb : ∀ k0_t2 : Fin k0_t2_loop.trips, ∀ a, (k0_off11 k0_t2) a + S1x16.size a ≤ S200x128.size a
  k0_off12_inb : ∀ k0_t2 : Fin k0_t2_loop.trips, ∀ a, (k0_off12 k0_t2) a + S1x16.size a ≤ S200x128.size a
  k0_off13_inb : ∀ k0_t2 : Fin k0_t2_loop.trips, ∀ a, (k0_off13 k0_t2) a + S1x16.size a ≤ S200x128.size a
  k0_off14_inb : ∀ k0_t2 : Fin k0_t2_loop.trips, ∀ a, (k0_off14 k0_t2) a + S1x16.size a ≤ S200x128.size a
  k0_off15_inb : ∀ k0_t2 : Fin k0_t2_loop.trips, ∀ a, (k0_off15 k0_t2) a + S1x16.size a ≤ S200x128.size a
  k0_off16_inb : ∀ k0_t2 : Fin k0_t2_loop.trips, ∀ a, (k0_off16 k0_t2) a + S1x16.size a ≤ S200x128.size a
  k0_off17_inb : ∀ k0_t2 : Fin k0_t2_loop.trips, ∀ a, (k0_off17 k0_t2) a + S1x16.size a ≤ S200x128.size a
  k0_t3_ok : k0_t3_loop.OK
  k0_off18_inb : ∀ k0_t3 : Fin k0_t3_loop.trips, ∀ a, (k0_off18 k0_t3) a + S1x16.size a ≤ S200x128.size a
  k0_off19_inb : ∀ k0_t3 : Fin k0_t3_loop.trips, ∀ a, (k0_off19 k0_t3) a + S1x16.size a ≤ S200x128.size a
  k0_off20_inb : ∀ k0_t3 : Fin k0_t3_loop.trips, ∀ a, (k0_off20 k0_t3) a + S1x16.size a ≤ S200x128.size a
  k0_off21_inb : ∀ k0_t3 : Fin k0_t3_loop.trips, ∀ a, (k0_off21 k0_t3) a + S1x16.size a ≤ S200x128.size a
  k0_off22_inb : ∀ k0_t3 : Fin k0_t3_loop.trips, ∀ a, (k0_off22 k0_t3) a + S1x16.size a ≤ S200x128.size a
  k0_off23_inb : ∀ k0_t3 : Fin k0_t3_loop.trips, ∀ a, (k0_off23 k0_t3) a + S1x16.size a ≤ S200x128.size a
  k0_off24_inb : ∀ k0_t3 : Fin k0_t3_loop.trips, ∀ a, (k0_off24 k0_t3) a + S1x16.size a ≤ S200x128.size a
  k0_off25_inb : ∀ k0_t3 : Fin k0_t3_loop.trips, ∀ a, (k0_off25 k0_t3) a + S1x16.size a ≤ S200x128.size a
  k0_off26_inb : ∀ k0_t3 : Fin k0_t3_loop.trips, ∀ a, (k0_off26 k0_t3) a + S1x16.size a ≤ S200x128.size a
  k0_off27_inb : ∀ k0_t3 : Fin k0_t3_loop.trips, ∀ a, (k0_off27 k0_t3) a + S1x16.size a ≤ S200x128.size a
  k0_off28_inb : ∀ k0_t3 : Fin k0_t3_loop.trips, ∀ a, (k0_off28 k0_t3) a + S1x16.size a ≤ S200x128.size a
  k0_off29_inb : ∀ k0_t3 : Fin k0_t3_loop.trips, ∀ a, (k0_off29 k0_t3) a + S1x16.size a ≤ S200x128.size a
  k0_off30_inb : ∀ k0_t3 : Fin k0_t3_loop.trips, ∀ a, (k0_off30 k0_t3) a + S1x16.size a ≤ S200x128.size a
  k0_off31_inb : ∀ k0_t3 : Fin k0_t3_loop.trips, ∀ a, (k0_off31 k0_t3) a + S1x16.size a ≤ S200x128.size a
  k0_off32_inb : ∀ k0_t3 : Fin k0_t3_loop.trips, ∀ a, (k0_off32 k0_t3) a + S1x16.size a ≤ S200x128.size a
  k0_off33_inb : ∀ k0_t3 : Fin k0_t3_loop.trips, ∀ a, (k0_off33 k0_t3) a + S1x16.size a ≤ S200x128.size a
  k0_t4_ok : k0_t4_loop.OK
  k0_off34_inb : ∀ k0_t4 : Fin k0_t4_loop.trips, ∀ a, (k0_off34 k0_t4) a + S1x16.size a ≤ S200x128.size a
  k0_off35_inb : ∀ k0_t4 : Fin k0_t4_loop.trips, ∀ a, (k0_off35 k0_t4) a + S1x16.size a ≤ S200x128.size a
  k0_off36_inb : ∀ k0_t4 : Fin k0_t4_loop.trips, ∀ a, (k0_off36 k0_t4) a + S1x16.size a ≤ S200x128.size a
  k0_off37_inb : ∀ k0_t4 : Fin k0_t4_loop.trips, ∀ a, (k0_off37 k0_t4) a + S1x16.size a ≤ S200x128.size a
  k0_off38_inb : ∀ k0_t4 : Fin k0_t4_loop.trips, ∀ a, (k0_off38 k0_t4) a + S1x16.size a ≤ S200x128.size a
  k0_off39_inb : ∀ k0_t4 : Fin k0_t4_loop.trips, ∀ a, (k0_off39 k0_t4) a + S1x16.size a ≤ S200x128.size a
  k0_off40_inb : ∀ k0_t4 : Fin k0_t4_loop.trips, ∀ a, (k0_off40 k0_t4) a + S1x16.size a ≤ S200x128.size a
  k0_off41_inb : ∀ k0_t4 : Fin k0_t4_loop.trips, ∀ a, (k0_off41 k0_t4) a + S1x16.size a ≤ S200x128.size a
  k0_off42_inb : ∀ k0_t4 : Fin k0_t4_loop.trips, ∀ a, (k0_off42 k0_t4) a + S1x16.size a ≤ S200x128.size a
  k0_off43_inb : ∀ k0_t4 : Fin k0_t4_loop.trips, ∀ a, (k0_off43 k0_t4) a + S1x16.size a ≤ S200x128.size a
  k0_off44_inb : ∀ k0_t4 : Fin k0_t4_loop.trips, ∀ a, (k0_off44 k0_t4) a + S1x16.size a ≤ S200x128.size a
  k0_off45_inb : ∀ k0_t4 : Fin k0_t4_loop.trips, ∀ a, (k0_off45 k0_t4) a + S1x16.size a ≤ S200x128.size a
  k0_off46_inb : ∀ k0_t4 : Fin k0_t4_loop.trips, ∀ a, (k0_off46 k0_t4) a + S1x16.size a ≤ S200x128.size a
  k0_off47_inb : ∀ k0_t4 : Fin k0_t4_loop.trips, ∀ a, (k0_off47 k0_t4) a + S1x16.size a ≤ S200x128.size a
  k0_off48_inb : ∀ k0_t4 : Fin k0_t4_loop.trips, ∀ a, (k0_off48 k0_t4) a + S1x16.size a ≤ S200x128.size a
  k0_off49_inb : ∀ k0_t4 : Fin k0_t4_loop.trips, ∀ a, (k0_off49 k0_t4) a + S1x16.size a ≤ S200x128.size a
  k0_t5_ok : k0_t5_loop.OK
  k0_off50_inb : ∀ k0_t5 : Fin k0_t5_loop.trips, ∀ a, (k0_off50 k0_t5) a + S1x16.size a ≤ S200x128.size a
  k0_off51_inb : ∀ k0_t5 : Fin k0_t5_loop.trips, ∀ a, (k0_off51 k0_t5) a + S1x16.size a ≤ S200x128.size a
  k0_off52_inb : ∀ k0_t5 : Fin k0_t5_loop.trips, ∀ a, (k0_off52 k0_t5) a + S1x16.size a ≤ S200x128.size a
  k0_off53_inb : ∀ k0_t5 : Fin k0_t5_loop.trips, ∀ a, (k0_off53 k0_t5) a + S1x16.size a ≤ S200x128.size a
  k0_off54_inb : ∀ k0_t5 : Fin k0_t5_loop.trips, ∀ a, (k0_off54 k0_t5) a + S1x16.size a ≤ S200x128.size a
  k0_off55_inb : ∀ k0_t5 : Fin k0_t5_loop.trips, ∀ a, (k0_off55 k0_t5) a + S1x16.size a ≤ S200x128.size a
  k0_off56_inb : ∀ k0_t5 : Fin k0_t5_loop.trips, ∀ a, (k0_off56 k0_t5) a + S1x16.size a ≤ S200x128.size a
  k0_off57_inb : ∀ k0_t5 : Fin k0_t5_loop.trips, ∀ a, (k0_off57 k0_t5) a + S1x16.size a ≤ S200x128.size a
  k0_off58_inb : ∀ k0_t5 : Fin k0_t5_loop.trips, ∀ a, (k0_off58 k0_t5) a + S1x16.size a ≤ S200x128.size a
  k0_off59_inb : ∀ k0_t5 : Fin k0_t5_loop.trips, ∀ a, (k0_off59 k0_t5) a + S1x16.size a ≤ S200x128.size a
  k0_off60_inb : ∀ k0_t5 : Fin k0_t5_loop.trips, ∀ a, (k0_off60 k0_t5) a + S1x16.size a ≤ S200x128.size a
  k0_off61_inb : ∀ k0_t5 : Fin k0_t5_loop.trips, ∀ a, (k0_off61 k0_t5) a + S1x16.size a ≤ S200x128.size a
  k0_off62_inb : ∀ k0_t5 : Fin k0_t5_loop.trips, ∀ a, (k0_off62 k0_t5) a + S1x16.size a ≤ S200x128.size a
  k0_off63_inb : ∀ k0_t5 : Fin k0_t5_loop.trips, ∀ a, (k0_off63 k0_t5) a + S1x16.size a ≤ S200x128.size a
  k0_off64_inb : ∀ k0_t5 : Fin k0_t5_loop.trips, ∀ a, (k0_off64 k0_t5) a + S1x16.size a ≤ S200x128.size a
  k0_off65_inb : ∀ k0_t5 : Fin k0_t5_loop.trips, ∀ a, (k0_off65 k0_t5) a + S1x16.size a ≤ S200x128.size a
  k0_mult5_dvd : ∀ k0_t1 : Fin k0_t1_loop.trips, ∀ (k0_h1 : k0_cond1 k0_t1 = 1#1), 8 ∣ (k0_mult5 k0_t1).toNat
  k0_off66_inb : ∀ k0_t1 : Fin k0_t1_loop.trips, ∀ (k0_h1 : k0_cond1 k0_t1 = 1#1), ∀ a, (k0_off66 k0_t1) a + S200.size a ≤ S6400.size a
  k0_mult6_dvd : ∀ k0_t1 : Fin k0_t1_loop.trips, ∀ (k0_h2 : k0_cond2 k0_t1 = 1#1), 8 ∣ k0_mult6.toNat
  k0_t6_ok : k0_t6_loop.OK
  k0_off67_inb : ∀ k0_t6 : Fin k0_t6_loop.trips, ∀ a, (k0_off67 k0_t6) a + S1x16.size a ≤ S200x128.size a
  k0_off68_inb : ∀ k0_t6 : Fin k0_t6_loop.trips, ∀ a, (k0_off68 k0_t6) a + S1x16.size a ≤ S200x128.size a
  k0_off69_inb : ∀ k0_t6 : Fin k0_t6_loop.trips, ∀ a, (k0_off69 k0_t6) a + S1x16.size a ≤ S200x128.size a
  k0_off70_inb : ∀ k0_t6 : Fin k0_t6_loop.trips, ∀ a, (k0_off70 k0_t6) a + S1x16.size a ≤ S200x128.size a
  k0_off71_inb : ∀ k0_t6 : Fin k0_t6_loop.trips, ∀ a, (k0_off71 k0_t6) a + S1x16.size a ≤ S200x128.size a
  k0_off72_inb : ∀ k0_t6 : Fin k0_t6_loop.trips, ∀ a, (k0_off72 k0_t6) a + S1x16.size a ≤ S200x128.size a
  k0_off73_inb : ∀ k0_t6 : Fin k0_t6_loop.trips, ∀ a, (k0_off73 k0_t6) a + S1x16.size a ≤ S200x128.size a
  k0_off74_inb : ∀ k0_t6 : Fin k0_t6_loop.trips, ∀ a, (k0_off74 k0_t6) a + S1x16.size a ≤ S200x128.size a
  k0_off75_inb : ∀ k0_t6 : Fin k0_t6_loop.trips, ∀ a, (k0_off75 k0_t6) a + S1x16.size a ≤ S200x128.size a
  k0_off76_inb : ∀ k0_t6 : Fin k0_t6_loop.trips, ∀ a, (k0_off76 k0_t6) a + S1x16.size a ≤ S200x128.size a
  k0_off77_inb : ∀ k0_t6 : Fin k0_t6_loop.trips, ∀ a, (k0_off77 k0_t6) a + S1x16.size a ≤ S200x128.size a
  k0_off78_inb : ∀ k0_t6 : Fin k0_t6_loop.trips, ∀ a, (k0_off78 k0_t6) a + S1x16.size a ≤ S200x128.size a
  k0_off79_inb : ∀ k0_t6 : Fin k0_t6_loop.trips, ∀ a, (k0_off79 k0_t6) a + S1x16.size a ≤ S200x128.size a
  k0_off80_inb : ∀ k0_t6 : Fin k0_t6_loop.trips, ∀ a, (k0_off80 k0_t6) a + S1x16.size a ≤ S200x128.size a
  k0_off81_inb : ∀ k0_t6 : Fin k0_t6_loop.trips, ∀ a, (k0_off81 k0_t6) a + S1x16.size a ≤ S200x128.size a
  k0_off82_inb : ∀ k0_t6 : Fin k0_t6_loop.trips, ∀ a, (k0_off82 k0_t6) a + S1x16.size a ≤ S200x128.size a
  k0_t7_ok : k0_t7_loop.OK
  k0_off83_inb : ∀ k0_t7 : Fin k0_t7_loop.trips, ∀ a, (k0_off83 k0_t7) a + S1x16.size a ≤ S200x128.size a
  k0_off84_inb : ∀ k0_t7 : Fin k0_t7_loop.trips, ∀ a, (k0_off84 k0_t7) a + S1x16.size a ≤ S200x128.size a
  k0_off85_inb : ∀ k0_t7 : Fin k0_t7_loop.trips, ∀ a, (k0_off85 k0_t7) a + S1x16.size a ≤ S200x128.size a
  k0_off86_inb : ∀ k0_t7 : Fin k0_t7_loop.trips, ∀ a, (k0_off86 k0_t7) a + S1x16.size a ≤ S200x128.size a
  k0_off87_inb : ∀ k0_t7 : Fin k0_t7_loop.trips, ∀ a, (k0_off87 k0_t7) a + S1x16.size a ≤ S200x128.size a
  k0_off88_inb : ∀ k0_t7 : Fin k0_t7_loop.trips, ∀ a, (k0_off88 k0_t7) a + S1x16.size a ≤ S200x128.size a
  k0_off89_inb : ∀ k0_t7 : Fin k0_t7_loop.trips, ∀ a, (k0_off89 k0_t7) a + S1x16.size a ≤ S200x128.size a
  k0_off90_inb : ∀ k0_t7 : Fin k0_t7_loop.trips, ∀ a, (k0_off90 k0_t7) a + S1x16.size a ≤ S200x128.size a
  k0_off91_inb : ∀ k0_t7 : Fin k0_t7_loop.trips, ∀ a, (k0_off91 k0_t7) a + S1x16.size a ≤ S200x128.size a
  k0_off92_inb : ∀ k0_t7 : Fin k0_t7_loop.trips, ∀ a, (k0_off92 k0_t7) a + S1x16.size a ≤ S200x128.size a
  k0_off93_inb : ∀ k0_t7 : Fin k0_t7_loop.trips, ∀ a, (k0_off93 k0_t7) a + S1x16.size a ≤ S200x128.size a
  k0_off94_inb : ∀ k0_t7 : Fin k0_t7_loop.trips, ∀ a, (k0_off94 k0_t7) a + S1x16.size a ≤ S200x128.size a
  k0_off95_inb : ∀ k0_t7 : Fin k0_t7_loop.trips, ∀ a, (k0_off95 k0_t7) a + S1x16.size a ≤ S200x128.size a
  k0_off96_inb : ∀ k0_t7 : Fin k0_t7_loop.trips, ∀ a, (k0_off96 k0_t7) a + S1x16.size a ≤ S200x128.size a
  k0_off97_inb : ∀ k0_t7 : Fin k0_t7_loop.trips, ∀ a, (k0_off97 k0_t7) a + S1x16.size a ≤ S200x128.size a
  k0_off98_inb : ∀ k0_t7 : Fin k0_t7_loop.trips, ∀ a, (k0_off98 k0_t7) a + S1x16.size a ≤ S200x128.size a
  k0_t8_ok : k0_t8_loop.OK
  k0_off99_inb : ∀ k0_t8 : Fin k0_t8_loop.trips, ∀ a, (k0_off99 k0_t8) a + S1x16.size a ≤ S200x128.size a
  k0_off100_inb : ∀ k0_t8 : Fin k0_t8_loop.trips, ∀ a, (k0_off100 k0_t8) a + S1x16.size a ≤ S200x128.size a
  k0_off101_inb : ∀ k0_t8 : Fin k0_t8_loop.trips, ∀ a, (k0_off101 k0_t8) a + S1x16.size a ≤ S200x128.size a
  k0_off102_inb : ∀ k0_t8 : Fin k0_t8_loop.trips, ∀ a, (k0_off102 k0_t8) a + S1x16.size a ≤ S200x128.size a
  k0_off103_inb : ∀ k0_t8 : Fin k0_t8_loop.trips, ∀ a, (k0_off103 k0_t8) a + S1x16.size a ≤ S200x128.size a
  k0_off104_inb : ∀ k0_t8 : Fin k0_t8_loop.trips, ∀ a, (k0_off104 k0_t8) a + S1x16.size a ≤ S200x128.size a
  k0_off105_inb : ∀ k0_t8 : Fin k0_t8_loop.trips, ∀ a, (k0_off105 k0_t8) a + S1x16.size a ≤ S200x128.size a
  k0_off106_inb : ∀ k0_t8 : Fin k0_t8_loop.trips, ∀ a, (k0_off106 k0_t8) a + S1x16.size a ≤ S200x128.size a
  k0_off107_inb : ∀ k0_t8 : Fin k0_t8_loop.trips, ∀ a, (k0_off107 k0_t8) a + S1x16.size a ≤ S200x128.size a
  k0_off108_inb : ∀ k0_t8 : Fin k0_t8_loop.trips, ∀ a, (k0_off108 k0_t8) a + S1x16.size a ≤ S200x128.size a
  k0_off109_inb : ∀ k0_t8 : Fin k0_t8_loop.trips, ∀ a, (k0_off109 k0_t8) a + S1x16.size a ≤ S200x128.size a
  k0_off110_inb : ∀ k0_t8 : Fin k0_t8_loop.trips, ∀ a, (k0_off110 k0_t8) a + S1x16.size a ≤ S200x128.size a
  k0_off111_inb : ∀ k0_t8 : Fin k0_t8_loop.trips, ∀ a, (k0_off111 k0_t8) a + S1x16.size a ≤ S200x128.size a
  k0_off112_inb : ∀ k0_t8 : Fin k0_t8_loop.trips, ∀ a, (k0_off112 k0_t8) a + S1x16.size a ≤ S200x128.size a
  k0_off113_inb : ∀ k0_t8 : Fin k0_t8_loop.trips, ∀ a, (k0_off113 k0_t8) a + S1x16.size a ≤ S200x128.size a
  k0_off114_inb : ∀ k0_t8 : Fin k0_t8_loop.trips, ∀ a, (k0_off114 k0_t8) a + S1x16.size a ≤ S200x128.size a
  k0_t9_ok : k0_t9_loop.OK
  k0_off115_inb : ∀ k0_t9 : Fin k0_t9_loop.trips, ∀ a, (k0_off115 k0_t9) a + S1x16.size a ≤ S200x128.size a
  k0_off116_inb : ∀ k0_t9 : Fin k0_t9_loop.trips, ∀ a, (k0_off116 k0_t9) a + S1x16.size a ≤ S200x128.size a
  k0_off117_inb : ∀ k0_t9 : Fin k0_t9_loop.trips, ∀ a, (k0_off117 k0_t9) a + S1x16.size a ≤ S200x128.size a
  k0_off118_inb : ∀ k0_t9 : Fin k0_t9_loop.trips, ∀ a, (k0_off118 k0_t9) a + S1x16.size a ≤ S200x128.size a
  k0_off119_inb : ∀ k0_t9 : Fin k0_t9_loop.trips, ∀ a, (k0_off119 k0_t9) a + S1x16.size a ≤ S200x128.size a
  k0_off120_inb : ∀ k0_t9 : Fin k0_t9_loop.trips, ∀ a, (k0_off120 k0_t9) a + S1x16.size a ≤ S200x128.size a
  k0_off121_inb : ∀ k0_t9 : Fin k0_t9_loop.trips, ∀ a, (k0_off121 k0_t9) a + S1x16.size a ≤ S200x128.size a
  k0_off122_inb : ∀ k0_t9 : Fin k0_t9_loop.trips, ∀ a, (k0_off122 k0_t9) a + S1x16.size a ≤ S200x128.size a
  k0_off123_inb : ∀ k0_t9 : Fin k0_t9_loop.trips, ∀ a, (k0_off123 k0_t9) a + S1x16.size a ≤ S200x128.size a
  k0_off124_inb : ∀ k0_t9 : Fin k0_t9_loop.trips, ∀ a, (k0_off124 k0_t9) a + S1x16.size a ≤ S200x128.size a
  k0_off125_inb : ∀ k0_t9 : Fin k0_t9_loop.trips, ∀ a, (k0_off125 k0_t9) a + S1x16.size a ≤ S200x128.size a
  k0_off126_inb : ∀ k0_t9 : Fin k0_t9_loop.trips, ∀ a, (k0_off126 k0_t9) a + S1x16.size a ≤ S200x128.size a
  k0_off127_inb : ∀ k0_t9 : Fin k0_t9_loop.trips, ∀ a, (k0_off127 k0_t9) a + S1x16.size a ≤ S200x128.size a
  k0_off128_inb : ∀ k0_t9 : Fin k0_t9_loop.trips, ∀ a, (k0_off128 k0_t9) a + S1x16.size a ≤ S200x128.size a
  k0_off129_inb : ∀ k0_t9 : Fin k0_t9_loop.trips, ∀ a, (k0_off129 k0_t9) a + S1x16.size a ≤ S200x128.size a
  k0_off130_inb : ∀ k0_t9 : Fin k0_t9_loop.trips, ∀ a, (k0_off130 k0_t9) a + S1x16.size a ≤ S200x128.size a
  k0_mult7_dvd : ∀ k0_t1 : Fin k0_t1_loop.trips, ∀ (k0_h3 : k0_cond3 k0_t1 = 1#1), 8 ∣ (k0_mult7 k0_t1).toNat
  k0_off131_inb : ∀ k0_t1 : Fin k0_t1_loop.trips, ∀ (k0_h3 : k0_cond3 k0_t1 = 1#1), ∀ a, (k0_off131 k0_t1) a + S200.size a ≤ S6400.size a
  k0_mult8_dvd : ∀ k0_t1 : Fin k0_t1_loop.trips, ∀ (k0_h4 : k0_cond4 k0_t1 = 1#1), 8 ∣ k0_mult8.toNat
  k0_t10_ok : k0_t10_loop.OK
  k0_off132_inb : ∀ k0_t10 : Fin k0_t10_loop.trips, ∀ a, (k0_off132 k0_t10) a + S1x16.size a ≤ S200x128.size a
  k0_off133_inb : ∀ k0_t10 : Fin k0_t10_loop.trips, ∀ a, (k0_off133 k0_t10) a + S1x16.size a ≤ S200x128.size a
  k0_off134_inb : ∀ k0_t10 : Fin k0_t10_loop.trips, ∀ a, (k0_off134 k0_t10) a + S1x16.size a ≤ S200x128.size a
  k0_off135_inb : ∀ k0_t10 : Fin k0_t10_loop.trips, ∀ a, (k0_off135 k0_t10) a + S1x16.size a ≤ S200x128.size a
  k0_off136_inb : ∀ k0_t10 : Fin k0_t10_loop.trips, ∀ a, (k0_off136 k0_t10) a + S1x16.size a ≤ S200x128.size a
  k0_off137_inb : ∀ k0_t10 : Fin k0_t10_loop.trips, ∀ a, (k0_off137 k0_t10) a + S1x16.size a ≤ S200x128.size a
  k0_off138_inb : ∀ k0_t10 : Fin k0_t10_loop.trips, ∀ a, (k0_off138 k0_t10) a + S1x16.size a ≤ S200x128.size a
  k0_off139_inb : ∀ k0_t10 : Fin k0_t10_loop.trips, ∀ a, (k0_off139 k0_t10) a + S1x16.size a ≤ S200x128.size a
  k0_off140_inb : ∀ k0_t10 : Fin k0_t10_loop.trips, ∀ a, (k0_off140 k0_t10) a + S1x16.size a ≤ S200x128.size a
  k0_off141_inb : ∀ k0_t10 : Fin k0_t10_loop.trips, ∀ a, (k0_off141 k0_t10) a + S1x16.size a ≤ S200x128.size a
  k0_off142_inb : ∀ k0_t10 : Fin k0_t10_loop.trips, ∀ a, (k0_off142 k0_t10) a + S1x16.size a ≤ S200x128.size a
  k0_off143_inb : ∀ k0_t10 : Fin k0_t10_loop.trips, ∀ a, (k0_off143 k0_t10) a + S1x16.size a ≤ S200x128.size a
  k0_off144_inb : ∀ k0_t10 : Fin k0_t10_loop.trips, ∀ a, (k0_off144 k0_t10) a + S1x16.size a ≤ S200x128.size a
  k0_off145_inb : ∀ k0_t10 : Fin k0_t10_loop.trips, ∀ a, (k0_off145 k0_t10) a + S1x16.size a ≤ S200x128.size a
  k0_off146_inb : ∀ k0_t10 : Fin k0_t10_loop.trips, ∀ a, (k0_off146 k0_t10) a + S1x16.size a ≤ S200x128.size a
  k0_off147_inb : ∀ k0_t10 : Fin k0_t10_loop.trips, ∀ a, (k0_off147 k0_t10) a + S1x16.size a ≤ S200x128.size a
  k0_t11_ok : k0_t11_loop.OK
  k0_off148_inb : ∀ k0_t11 : Fin k0_t11_loop.trips, ∀ a, (k0_off148 k0_t11) a + S1x16.size a ≤ S200x128.size a
  k0_off149_inb : ∀ k0_t11 : Fin k0_t11_loop.trips, ∀ a, (k0_off149 k0_t11) a + S1x16.size a ≤ S200x128.size a
  k0_off150_inb : ∀ k0_t11 : Fin k0_t11_loop.trips, ∀ a, (k0_off150 k0_t11) a + S1x16.size a ≤ S200x128.size a
  k0_off151_inb : ∀ k0_t11 : Fin k0_t11_loop.trips, ∀ a, (k0_off151 k0_t11) a + S1x16.size a ≤ S200x128.size a
  k0_off152_inb : ∀ k0_t11 : Fin k0_t11_loop.trips, ∀ a, (k0_off152 k0_t11) a + S1x16.size a ≤ S200x128.size a
  k0_off153_inb : ∀ k0_t11 : Fin k0_t11_loop.trips, ∀ a, (k0_off153 k0_t11) a + S1x16.size a ≤ S200x128.size a
  k0_off154_inb : ∀ k0_t11 : Fin k0_t11_loop.trips, ∀ a, (k0_off154 k0_t11) a + S1x16.size a ≤ S200x128.size a
  k0_off155_inb : ∀ k0_t11 : Fin k0_t11_loop.trips, ∀ a, (k0_off155 k0_t11) a + S1x16.size a ≤ S200x128.size a
  k0_off156_inb : ∀ k0_t11 : Fin k0_t11_loop.trips, ∀ a, (k0_off156 k0_t11) a + S1x16.size a ≤ S200x128.size a
  k0_off157_inb : ∀ k0_t11 : Fin k0_t11_loop.trips, ∀ a, (k0_off157 k0_t11) a + S1x16.size a ≤ S200x128.size a
  k0_off158_inb : ∀ k0_t11 : Fin k0_t11_loop.trips, ∀ a, (k0_off158 k0_t11) a + S1x16.size a ≤ S200x128.size a
  k0_off159_inb : ∀ k0_t11 : Fin k0_t11_loop.trips, ∀ a, (k0_off159 k0_t11) a + S1x16.size a ≤ S200x128.size a
  k0_off160_inb : ∀ k0_t11 : Fin k0_t11_loop.trips, ∀ a, (k0_off160 k0_t11) a + S1x16.size a ≤ S200x128.size a
  k0_off161_inb : ∀ k0_t11 : Fin k0_t11_loop.trips, ∀ a, (k0_off161 k0_t11) a + S1x16.size a ≤ S200x128.size a
  k0_off162_inb : ∀ k0_t11 : Fin k0_t11_loop.trips, ∀ a, (k0_off162 k0_t11) a + S1x16.size a ≤ S200x128.size a
  k0_off163_inb : ∀ k0_t11 : Fin k0_t11_loop.trips, ∀ a, (k0_off163 k0_t11) a + S1x16.size a ≤ S200x128.size a
  k0_t12_ok : k0_t12_loop.OK
  k0_off164_inb : ∀ k0_t12 : Fin k0_t12_loop.trips, ∀ a, (k0_off164 k0_t12) a + S1x16.size a ≤ S200x128.size a
  k0_off165_inb : ∀ k0_t12 : Fin k0_t12_loop.trips, ∀ a, (k0_off165 k0_t12) a + S1x16.size a ≤ S200x128.size a
  k0_off166_inb : ∀ k0_t12 : Fin k0_t12_loop.trips, ∀ a, (k0_off166 k0_t12) a + S1x16.size a ≤ S200x128.size a
  k0_off167_inb : ∀ k0_t12 : Fin k0_t12_loop.trips, ∀ a, (k0_off167 k0_t12) a + S1x16.size a ≤ S200x128.size a
  k0_off168_inb : ∀ k0_t12 : Fin k0_t12_loop.trips, ∀ a, (k0_off168 k0_t12) a + S1x16.size a ≤ S200x128.size a
  k0_off169_inb : ∀ k0_t12 : Fin k0_t12_loop.trips, ∀ a, (k0_off169 k0_t12) a + S1x16.size a ≤ S200x128.size a
  k0_off170_inb : ∀ k0_t12 : Fin k0_t12_loop.trips, ∀ a, (k0_off170 k0_t12) a + S1x16.size a ≤ S200x128.size a
  k0_off171_inb : ∀ k0_t12 : Fin k0_t12_loop.trips, ∀ a, (k0_off171 k0_t12) a + S1x16.size a ≤ S200x128.size a
  k0_off172_inb : ∀ k0_t12 : Fin k0_t12_loop.trips, ∀ a, (k0_off172 k0_t12) a + S1x16.size a ≤ S200x128.size a
  k0_off173_inb : ∀ k0_t12 : Fin k0_t12_loop.trips, ∀ a, (k0_off173 k0_t12) a + S1x16.size a ≤ S200x128.size a
  k0_off174_inb : ∀ k0_t12 : Fin k0_t12_loop.trips, ∀ a, (k0_off174 k0_t12) a + S1x16.size a ≤ S200x128.size a
  k0_off175_inb : ∀ k0_t12 : Fin k0_t12_loop.trips, ∀ a, (k0_off175 k0_t12) a + S1x16.size a ≤ S200x128.size a
  k0_off176_inb : ∀ k0_t12 : Fin k0_t12_loop.trips, ∀ a, (k0_off176 k0_t12) a + S1x16.size a ≤ S200x128.size a
  k0_off177_inb : ∀ k0_t12 : Fin k0_t12_loop.trips, ∀ a, (k0_off177 k0_t12) a + S1x16.size a ≤ S200x128.size a
  k0_off178_inb : ∀ k0_t12 : Fin k0_t12_loop.trips, ∀ a, (k0_off178 k0_t12) a + S1x16.size a ≤ S200x128.size a
  k0_off179_inb : ∀ k0_t12 : Fin k0_t12_loop.trips, ∀ a, (k0_off179 k0_t12) a + S1x16.size a ≤ S200x128.size a
  k0_t13_ok : k0_t13_loop.OK
  k0_off180_inb : ∀ k0_t13 : Fin k0_t13_loop.trips, ∀ a, (k0_off180 k0_t13) a + S1x16.size a ≤ S200x128.size a
  k0_off181_inb : ∀ k0_t13 : Fin k0_t13_loop.trips, ∀ a, (k0_off181 k0_t13) a + S1x16.size a ≤ S200x128.size a
  k0_off182_inb : ∀ k0_t13 : Fin k0_t13_loop.trips, ∀ a, (k0_off182 k0_t13) a + S1x16.size a ≤ S200x128.size a
  k0_off183_inb : ∀ k0_t13 : Fin k0_t13_loop.trips, ∀ a, (k0_off183 k0_t13) a + S1x16.size a ≤ S200x128.size a
  k0_off184_inb : ∀ k0_t13 : Fin k0_t13_loop.trips, ∀ a, (k0_off184 k0_t13) a + S1x16.size a ≤ S200x128.size a
  k0_off185_inb : ∀ k0_t13 : Fin k0_t13_loop.trips, ∀ a, (k0_off185 k0_t13) a + S1x16.size a ≤ S200x128.size a
  k0_off186_inb : ∀ k0_t13 : Fin k0_t13_loop.trips, ∀ a, (k0_off186 k0_t13) a + S1x16.size a ≤ S200x128.size a
  k0_off187_inb : ∀ k0_t13 : Fin k0_t13_loop.trips, ∀ a, (k0_off187 k0_t13) a + S1x16.size a ≤ S200x128.size a
  k0_off188_inb : ∀ k0_t13 : Fin k0_t13_loop.trips, ∀ a, (k0_off188 k0_t13) a + S1x16.size a ≤ S200x128.size a
  k0_off189_inb : ∀ k0_t13 : Fin k0_t13_loop.trips, ∀ a, (k0_off189 k0_t13) a + S1x16.size a ≤ S200x128.size a
  k0_off190_inb : ∀ k0_t13 : Fin k0_t13_loop.trips, ∀ a, (k0_off190 k0_t13) a + S1x16.size a ≤ S200x128.size a
  k0_off191_inb : ∀ k0_t13 : Fin k0_t13_loop.trips, ∀ a, (k0_off191 k0_t13) a + S1x16.size a ≤ S200x128.size a
  k0_off192_inb : ∀ k0_t13 : Fin k0_t13_loop.trips, ∀ a, (k0_off192 k0_t13) a + S1x16.size a ≤ S200x128.size a
  k0_off193_inb : ∀ k0_t13 : Fin k0_t13_loop.trips, ∀ a, (k0_off193 k0_t13) a + S1x16.size a ≤ S200x128.size a
  k0_off194_inb : ∀ k0_t13 : Fin k0_t13_loop.trips, ∀ a, (k0_off194 k0_t13) a + S1x16.size a ≤ S200x128.size a
  k0_off195_inb : ∀ k0_t13 : Fin k0_t13_loop.trips, ∀ a, (k0_off195 k0_t13) a + S1x16.size a ≤ S200x128.size a
  k0_mult9_dvd : ∀ k0_t1 : Fin k0_t1_loop.trips, ∀ (k0_h5 : k0_cond5 k0_t1 = 1#1), 8 ∣ (k0_mult9 k0_t1).toNat
  k0_off196_inb : ∀ k0_t1 : Fin k0_t1_loop.trips, ∀ (k0_h5 : k0_cond5 k0_t1 = 1#1), ∀ a, (k0_off196 k0_t1) a + S200.size a ≤ S6400.size a
  k0_mult10_dvd : ∀ k0_t1 : Fin k0_t1_loop.trips, ∀ (k0_h6 : k0_cond6 k0_t1 = 1#1), 8 ∣ k0_mult10.toNat
  k0_t14_ok : k0_t14_loop.OK
  k0_off197_inb : ∀ k0_t14 : Fin k0_t14_loop.trips, ∀ a, (k0_off197 k0_t14) a + S1x16.size a ≤ S200x128.size a
  k0_off198_inb : ∀ k0_t14 : Fin k0_t14_loop.trips, ∀ a, (k0_off198 k0_t14) a + S1x16.size a ≤ S200x128.size a
  k0_off199_inb : ∀ k0_t14 : Fin k0_t14_loop.trips, ∀ a, (k0_off199 k0_t14) a + S1x16.size a ≤ S200x128.size a
  k0_off200_inb : ∀ k0_t14 : Fin k0_t14_loop.trips, ∀ a, (k0_off200 k0_t14) a + S1x16.size a ≤ S200x128.size a
  k0_off201_inb : ∀ k0_t14 : Fin k0_t14_loop.trips, ∀ a, (k0_off201 k0_t14) a + S1x16.size a ≤ S200x128.size a
  k0_off202_inb : ∀ k0_t14 : Fin k0_t14_loop.trips, ∀ a, (k0_off202 k0_t14) a + S1x16.size a ≤ S200x128.size a
  k0_off203_inb : ∀ k0_t14 : Fin k0_t14_loop.trips, ∀ a, (k0_off203 k0_t14) a + S1x16.size a ≤ S200x128.size a
  k0_off204_inb : ∀ k0_t14 : Fin k0_t14_loop.trips, ∀ a, (k0_off204 k0_t14) a + S1x16.size a ≤ S200x128.size a
  k0_off205_inb : ∀ k0_t14 : Fin k0_t14_loop.trips, ∀ a, (k0_off205 k0_t14) a + S1x16.size a ≤ S200x128.size a
  k0_off206_inb : ∀ k0_t14 : Fin k0_t14_loop.trips, ∀ a, (k0_off206 k0_t14) a + S1x16.size a ≤ S200x128.size a
  k0_off207_inb : ∀ k0_t14 : Fin k0_t14_loop.trips, ∀ a, (k0_off207 k0_t14) a + S1x16.size a ≤ S200x128.size a
  k0_off208_inb : ∀ k0_t14 : Fin k0_t14_loop.trips, ∀ a, (k0_off208 k0_t14) a + S1x16.size a ≤ S200x128.size a
  k0_off209_inb : ∀ k0_t14 : Fin k0_t14_loop.trips, ∀ a, (k0_off209 k0_t14) a + S1x16.size a ≤ S200x128.size a
  k0_off210_inb : ∀ k0_t14 : Fin k0_t14_loop.trips, ∀ a, (k0_off210 k0_t14) a + S1x16.size a ≤ S200x128.size a
  k0_off211_inb : ∀ k0_t14 : Fin k0_t14_loop.trips, ∀ a, (k0_off211 k0_t14) a + S1x16.size a ≤ S200x128.size a
  k0_off212_inb : ∀ k0_t14 : Fin k0_t14_loop.trips, ∀ a, (k0_off212 k0_t14) a + S1x16.size a ≤ S200x128.size a
  k0_t15_ok : k0_t15_loop.OK
  k0_off213_inb : ∀ k0_t15 : Fin k0_t15_loop.trips, ∀ a, (k0_off213 k0_t15) a + S1x16.size a ≤ S200x128.size a
  k0_off214_inb : ∀ k0_t15 : Fin k0_t15_loop.trips, ∀ a, (k0_off214 k0_t15) a + S1x16.size a ≤ S200x128.size a
  k0_off215_inb : ∀ k0_t15 : Fin k0_t15_loop.trips, ∀ a, (k0_off215 k0_t15) a + S1x16.size a ≤ S200x128.size a
  k0_off216_inb : ∀ k0_t15 : Fin k0_t15_loop.trips, ∀ a, (k0_off216 k0_t15) a + S1x16.size a ≤ S200x128.size a
  k0_off217_inb : ∀ k0_t15 : Fin k0_t15_loop.trips, ∀ a, (k0_off217 k0_t15) a + S1x16.size a ≤ S200x128.size a
  k0_off218_inb : ∀ k0_t15 : Fin k0_t15_loop.trips, ∀ a, (k0_off218 k0_t15) a + S1x16.size a ≤ S200x128.size a
  k0_off219_inb : ∀ k0_t15 : Fin k0_t15_loop.trips, ∀ a, (k0_off219 k0_t15) a + S1x16.size a ≤ S200x128.size a
  k0_off220_inb : ∀ k0_t15 : Fin k0_t15_loop.trips, ∀ a, (k0_off220 k0_t15) a + S1x16.size a ≤ S200x128.size a
  k0_off221_inb : ∀ k0_t15 : Fin k0_t15_loop.trips, ∀ a, (k0_off221 k0_t15) a + S1x16.size a ≤ S200x128.size a
  k0_off222_inb : ∀ k0_t15 : Fin k0_t15_loop.trips, ∀ a, (k0_off222 k0_t15) a + S1x16.size a ≤ S200x128.size a
  k0_off223_inb : ∀ k0_t15 : Fin k0_t15_loop.trips, ∀ a, (k0_off223 k0_t15) a + S1x16.size a ≤ S200x128.size a
  k0_off224_inb : ∀ k0_t15 : Fin k0_t15_loop.trips, ∀ a, (k0_off224 k0_t15) a + S1x16.size a ≤ S200x128.size a
  k0_off225_inb : ∀ k0_t15 : Fin k0_t15_loop.trips, ∀ a, (k0_off225 k0_t15) a + S1x16.size a ≤ S200x128.size a
  k0_off226_inb : ∀ k0_t15 : Fin k0_t15_loop.trips, ∀ a, (k0_off226 k0_t15) a + S1x16.size a ≤ S200x128.size a
  k0_off227_inb : ∀ k0_t15 : Fin k0_t15_loop.trips, ∀ a, (k0_off227 k0_t15) a + S1x16.size a ≤ S200x128.size a
  k0_off228_inb : ∀ k0_t15 : Fin k0_t15_loop.trips, ∀ a, (k0_off228 k0_t15) a + S1x16.size a ≤ S200x128.size a
  k0_t16_ok : k0_t16_loop.OK
  k0_off229_inb : ∀ k0_t16 : Fin k0_t16_loop.trips, ∀ a, (k0_off229 k0_t16) a + S1x16.size a ≤ S200x128.size a
  k0_off230_inb : ∀ k0_t16 : Fin k0_t16_loop.trips, ∀ a, (k0_off230 k0_t16) a + S1x16.size a ≤ S200x128.size a
  k0_off231_inb : ∀ k0_t16 : Fin k0_t16_loop.trips, ∀ a, (k0_off231 k0_t16) a + S1x16.size a ≤ S200x128.size a
  k0_off232_inb : ∀ k0_t16 : Fin k0_t16_loop.trips, ∀ a, (k0_off232 k0_t16) a + S1x16.size a ≤ S200x128.size a
  k0_off233_inb : ∀ k0_t16 : Fin k0_t16_loop.trips, ∀ a, (k0_off233 k0_t16) a + S1x16.size a ≤ S200x128.size a
  k0_off234_inb : ∀ k0_t16 : Fin k0_t16_loop.trips, ∀ a, (k0_off234 k0_t16) a + S1x16.size a ≤ S200x128.size a
  k0_off235_inb : ∀ k0_t16 : Fin k0_t16_loop.trips, ∀ a, (k0_off235 k0_t16) a + S1x16.size a ≤ S200x128.size a
  k0_off236_inb : ∀ k0_t16 : Fin k0_t16_loop.trips, ∀ a, (k0_off236 k0_t16) a + S1x16.size a ≤ S200x128.size a
  k0_off237_inb : ∀ k0_t16 : Fin k0_t16_loop.trips, ∀ a, (k0_off237 k0_t16) a + S1x16.size a ≤ S200x128.size a
  k0_off238_inb : ∀ k0_t16 : Fin k0_t16_loop.trips, ∀ a, (k0_off238 k0_t16) a + S1x16.size a ≤ S200x128.size a
  k0_off239_inb : ∀ k0_t16 : Fin k0_t16_loop.trips, ∀ a, (k0_off239 k0_t16) a + S1x16.size a ≤ S200x128.size a
  k0_off240_inb : ∀ k0_t16 : Fin k0_t16_loop.trips, ∀ a, (k0_off240 k0_t16) a + S1x16.size a ≤ S200x128.size a
  k0_off241_inb : ∀ k0_t16 : Fin k0_t16_loop.trips, ∀ a, (k0_off241 k0_t16) a + S1x16.size a ≤ S200x128.size a
  k0_off242_inb : ∀ k0_t16 : Fin k0_t16_loop.trips, ∀ a, (k0_off242 k0_t16) a + S1x16.size a ≤ S200x128.size a
  k0_off243_inb : ∀ k0_t16 : Fin k0_t16_loop.trips, ∀ a, (k0_off243 k0_t16) a + S1x16.size a ≤ S200x128.size a
  k0_off244_inb : ∀ k0_t16 : Fin k0_t16_loop.trips, ∀ a, (k0_off244 k0_t16) a + S1x16.size a ≤ S200x128.size a
  k0_t17_ok : k0_t17_loop.OK
  k0_off245_inb : ∀ k0_t17 : Fin k0_t17_loop.trips, ∀ a, (k0_off245 k0_t17) a + S1x16.size a ≤ S200x128.size a
  k0_off246_inb : ∀ k0_t17 : Fin k0_t17_loop.trips, ∀ a, (k0_off246 k0_t17) a + S1x16.size a ≤ S200x128.size a
  k0_off247_inb : ∀ k0_t17 : Fin k0_t17_loop.trips, ∀ a, (k0_off247 k0_t17) a + S1x16.size a ≤ S200x128.size a
  k0_off248_inb : ∀ k0_t17 : Fin k0_t17_loop.trips, ∀ a, (k0_off248 k0_t17) a + S1x16.size a ≤ S200x128.size a
  k0_off249_inb : ∀ k0_t17 : Fin k0_t17_loop.trips, ∀ a, (k0_off249 k0_t17) a + S1x16.size a ≤ S200x128.size a
  k0_off250_inb : ∀ k0_t17 : Fin k0_t17_loop.trips, ∀ a, (k0_off250 k0_t17) a + S1x16.size a ≤ S200x128.size a
  k0_off251_inb : ∀ k0_t17 : Fin k0_t17_loop.trips, ∀ a, (k0_off251 k0_t17) a + S1x16.size a ≤ S200x128.size a
  k0_off252_inb : ∀ k0_t17 : Fin k0_t17_loop.trips, ∀ a, (k0_off252 k0_t17) a + S1x16.size a ≤ S200x128.size a
  k0_off253_inb : ∀ k0_t17 : Fin k0_t17_loop.trips, ∀ a, (k0_off253 k0_t17) a + S1x16.size a ≤ S200x128.size a
  k0_off254_inb : ∀ k0_t17 : Fin k0_t17_loop.trips, ∀ a, (k0_off254 k0_t17) a + S1x16.size a ≤ S200x128.size a
  k0_off255_inb : ∀ k0_t17 : Fin k0_t17_loop.trips, ∀ a, (k0_off255 k0_t17) a + S1x16.size a ≤ S200x128.size a
  k0_off256_inb : ∀ k0_t17 : Fin k0_t17_loop.trips, ∀ a, (k0_off256 k0_t17) a + S1x16.size a ≤ S200x128.size a
  k0_off257_inb : ∀ k0_t17 : Fin k0_t17_loop.trips, ∀ a, (k0_off257 k0_t17) a + S1x16.size a ≤ S200x128.size a
  k0_off258_inb : ∀ k0_t17 : Fin k0_t17_loop.trips, ∀ a, (k0_off258 k0_t17) a + S1x16.size a ≤ S200x128.size a
  k0_off259_inb : ∀ k0_t17 : Fin k0_t17_loop.trips, ∀ a, (k0_off259 k0_t17) a + S1x16.size a ≤ S200x128.size a
  k0_off260_inb : ∀ k0_t17 : Fin k0_t17_loop.trips, ∀ a, (k0_off260 k0_t17) a + S1x16.size a ≤ S200x128.size a
  k0_mult11_dvd : ∀ k0_t1 : Fin k0_t1_loop.trips, ∀ (k0_h7 : k0_cond7 k0_t1 = 1#1), 8 ∣ (k0_mult11 k0_t1).toNat
  k0_off261_inb : ∀ k0_t1 : Fin k0_t1_loop.trips, ∀ (k0_h7 : k0_cond7 k0_t1 = 1#1), ∀ a, (k0_off261 k0_t1) a + S200.size a ≤ S6400.size a
  k0_mult12_dvd : ∀ k0_t1 : Fin k0_t1_loop.trips, ∀ (k0_h8 : k0_cond8 k0_t1 = 1#1), 8 ∣ k0_mult12.toNat
  k0_off262_inb : ∀ (i : grid0.Coords) (k0_t1 : Fin k0_t1_loop.trips), ∀ a, (k0_off262 i k0_t1) a + S1x16x128.size a ≤ S3x4096x128.size a
  k0_t18_ok : k0_t18_loop.OK
  k0_t19_ok : k0_t19_loop.OK
  k0_off263_inb : ∀ k0_t19 : Fin k0_t19_loop.trips, ∀ a, (k0_off263 k0_t19) a + S1x16.size a ≤ S200x128.size a
  k0_off264_inb : ∀ k0_t19 : Fin k0_t19_loop.trips, ∀ a, (k0_off264 k0_t19) a + S1x16.size a ≤ S200x128.size a
  k0_off265_inb : ∀ k0_t19 : Fin k0_t19_loop.trips, ∀ a, (k0_off265 k0_t19) a + S1x16.size a ≤ S200x128.size a
  k0_off266_inb : ∀ k0_t19 : Fin k0_t19_loop.trips, ∀ a, (k0_off266 k0_t19) a + S1x16.size a ≤ S200x128.size a
  k0_off267_inb : ∀ k0_t19 : Fin k0_t19_loop.trips, ∀ a, (k0_off267 k0_t19) a + S1x16.size a ≤ S200x128.size a
  k0_off268_inb : ∀ k0_t19 : Fin k0_t19_loop.trips, ∀ a, (k0_off268 k0_t19) a + S1x16.size a ≤ S200x128.size a
  k0_off269_inb : ∀ k0_t19 : Fin k0_t19_loop.trips, ∀ a, (k0_off269 k0_t19) a + S1x16.size a ≤ S200x128.size a
  k0_off270_inb : ∀ k0_t19 : Fin k0_t19_loop.trips, ∀ a, (k0_off270 k0_t19) a + S1x16.size a ≤ S200x128.size a
  k0_off271_inb : ∀ k0_t19 : Fin k0_t19_loop.trips, ∀ a, (k0_off271 k0_t19) a + S1x16.size a ≤ S200x128.size a
  k0_off272_inb : ∀ k0_t19 : Fin k0_t19_loop.trips, ∀ a, (k0_off272 k0_t19) a + S1x16.size a ≤ S200x128.size a
  k0_off273_inb : ∀ k0_t19 : Fin k0_t19_loop.trips, ∀ a, (k0_off273 k0_t19) a + S1x16.size a ≤ S200x128.size a
  k0_off274_inb : ∀ k0_t19 : Fin k0_t19_loop.trips, ∀ a, (k0_off274 k0_t19) a + S1x16.size a ≤ S200x128.size a
  k0_off275_inb : ∀ k0_t19 : Fin k0_t19_loop.trips, ∀ a, (k0_off275 k0_t19) a + S1x16.size a ≤ S200x128.size a
  k0_off276_inb : ∀ k0_t19 : Fin k0_t19_loop.trips, ∀ a, (k0_off276 k0_t19) a + S1x16.size a ≤ S200x128.size a
  k0_off277_inb : ∀ k0_t19 : Fin k0_t19_loop.trips, ∀ a, (k0_off277 k0_t19) a + S1x16.size a ≤ S200x128.size a
  k0_off278_inb : ∀ k0_t19 : Fin k0_t19_loop.trips, ∀ a, (k0_off278 k0_t19) a + S1x16.size a ≤ S200x128.size a
  k0_t20_ok : k0_t20_loop.OK
  k0_off279_inb : ∀ k0_t20 : Fin k0_t20_loop.trips, ∀ a, (k0_off279 k0_t20) a + S1x16.size a ≤ S200x128.size a
  k0_off280_inb : ∀ k0_t20 : Fin k0_t20_loop.trips, ∀ a, (k0_off280 k0_t20) a + S1x16.size a ≤ S200x128.size a
  k0_off281_inb : ∀ k0_t20 : Fin k0_t20_loop.trips, ∀ a, (k0_off281 k0_t20) a + S1x16.size a ≤ S200x128.size a
  k0_off282_inb : ∀ k0_t20 : Fin k0_t20_loop.trips, ∀ a, (k0_off282 k0_t20) a + S1x16.size a ≤ S200x128.size a
  k0_off283_inb : ∀ k0_t20 : Fin k0_t20_loop.trips, ∀ a, (k0_off283 k0_t20) a + S1x16.size a ≤ S200x128.size a
  k0_off284_inb : ∀ k0_t20 : Fin k0_t20_loop.trips, ∀ a, (k0_off284 k0_t20) a + S1x16.size a ≤ S200x128.size a
  k0_off285_inb : ∀ k0_t20 : Fin k0_t20_loop.trips, ∀ a, (k0_off285 k0_t20) a + S1x16.size a ≤ S200x128.size a
  k0_off286_inb : ∀ k0_t20 : Fin k0_t20_loop.trips, ∀ a, (k0_off286 k0_t20) a + S1x16.size a ≤ S200x128.size a
  k0_off287_inb : ∀ k0_t20 : Fin k0_t20_loop.trips, ∀ a, (k0_off287 k0_t20) a + S1x16.size a ≤ S200x128.size a
  k0_off288_inb : ∀ k0_t20 : Fin k0_t20_loop.trips, ∀ a, (k0_off288 k0_t20) a + S1x16.size a ≤ S200x128.size a
  k0_off289_inb : ∀ k0_t20 : Fin k0_t20_loop.trips, ∀ a, (k0_off289 k0_t20) a + S1x16.size a ≤ S200x128.size a
  k0_off290_inb : ∀ k0_t20 : Fin k0_t20_loop.trips, ∀ a, (k0_off290 k0_t20) a + S1x16.size a ≤ S200x128.size a
  k0_off291_inb : ∀ k0_t20 : Fin k0_t20_loop.trips, ∀ a, (k0_off291 k0_t20) a + S1x16.size a ≤ S200x128.size a
  k0_off292_inb : ∀ k0_t20 : Fin k0_t20_loop.trips, ∀ a, (k0_off292 k0_t20) a + S1x16.size a ≤ S200x128.size a
  k0_off293_inb : ∀ k0_t20 : Fin k0_t20_loop.trips, ∀ a, (k0_off293 k0_t20) a + S1x16.size a ≤ S200x128.size a
  k0_off294_inb : ∀ k0_t20 : Fin k0_t20_loop.trips, ∀ a, (k0_off294 k0_t20) a + S1x16.size a ≤ S200x128.size a
  k0_t21_ok : k0_t21_loop.OK
  k0_off295_inb : ∀ k0_t21 : Fin k0_t21_loop.trips, ∀ a, (k0_off295 k0_t21) a + S1x16.size a ≤ S200x128.size a
  k0_off296_inb : ∀ k0_t21 : Fin k0_t21_loop.trips, ∀ a, (k0_off296 k0_t21) a + S1x16.size a ≤ S200x128.size a
  k0_off297_inb : ∀ k0_t21 : Fin k0_t21_loop.trips, ∀ a, (k0_off297 k0_t21) a + S1x16.size a ≤ S200x128.size a
  k0_off298_inb : ∀ k0_t21 : Fin k0_t21_loop.trips, ∀ a, (k0_off298 k0_t21) a + S1x16.size a ≤ S200x128.size a
  k0_off299_inb : ∀ k0_t21 : Fin k0_t21_loop.trips, ∀ a, (k0_off299 k0_t21) a + S1x16.size a ≤ S200x128.size a
  k0_off300_inb : ∀ k0_t21 : Fin k0_t21_loop.trips, ∀ a, (k0_off300 k0_t21) a + S1x16.size a ≤ S200x128.size a
  k0_off301_inb : ∀ k0_t21 : Fin k0_t21_loop.trips, ∀ a, (k0_off301 k0_t21) a + S1x16.size a ≤ S200x128.size a
  k0_off302_inb : ∀ k0_t21 : Fin k0_t21_loop.trips, ∀ a, (k0_off302 k0_t21) a + S1x16.size a ≤ S200x128.size a
  k0_off303_inb : ∀ k0_t21 : Fin k0_t21_loop.trips, ∀ a, (k0_off303 k0_t21) a + S1x16.size a ≤ S200x128.size a
  k0_off304_inb : ∀ k0_t21 : Fin k0_t21_loop.trips, ∀ a, (k0_off304 k0_t21) a + S1x16.size a ≤ S200x128.size a
  k0_off305_inb : ∀ k0_t21 : Fin k0_t21_loop.trips, ∀ a, (k0_off305 k0_t21) a + S1x16.size a ≤ S200x128.size a
  k0_off306_inb : ∀ k0_t21 : Fin k0_t21_loop.trips, ∀ a, (k0_off306 k0_t21) a + S1x16.size a ≤ S200x128.size a
  k0_off307_inb : ∀ k0_t21 : Fin k0_t21_loop.trips, ∀ a, (k0_off307 k0_t21) a + S1x16.size a ≤ S200x128.size a
  k0_off308_inb : ∀ k0_t21 : Fin k0_t21_loop.trips, ∀ a, (k0_off308 k0_t21) a + S1x16.size a ≤ S200x128.size a
  k0_off309_inb : ∀ k0_t21 : Fin k0_t21_loop.trips, ∀ a, (k0_off309 k0_t21) a + S1x16.size a ≤ S200x128.size a
  k0_off310_inb : ∀ k0_t21 : Fin k0_t21_loop.trips, ∀ a, (k0_off310 k0_t21) a + S1x16.size a ≤ S200x128.size a
  k0_t22_ok : k0_t22_loop.OK
  k0_off311_inb : ∀ k0_t22 : Fin k0_t22_loop.trips, ∀ a, (k0_off311 k0_t22) a + S1x16.size a ≤ S200x128.size a
  k0_off312_inb : ∀ k0_t22 : Fin k0_t22_loop.trips, ∀ a, (k0_off312 k0_t22) a + S1x16.size a ≤ S200x128.size a
  k0_off313_inb : ∀ k0_t22 : Fin k0_t22_loop.trips, ∀ a, (k0_off313 k0_t22) a + S1x16.size a ≤ S200x128.size a
  k0_off314_inb : ∀ k0_t22 : Fin k0_t22_loop.trips, ∀ a, (k0_off314 k0_t22) a + S1x16.size a ≤ S200x128.size a
  k0_off315_inb : ∀ k0_t22 : Fin k0_t22_loop.trips, ∀ a, (k0_off315 k0_t22) a + S1x16.size a ≤ S200x128.size a
  k0_off316_inb : ∀ k0_t22 : Fin k0_t22_loop.trips, ∀ a, (k0_off316 k0_t22) a + S1x16.size a ≤ S200x128.size a
  k0_off317_inb : ∀ k0_t22 : Fin k0_t22_loop.trips, ∀ a, (k0_off317 k0_t22) a + S1x16.size a ≤ S200x128.size a
  k0_off318_inb : ∀ k0_t22 : Fin k0_t22_loop.trips, ∀ a, (k0_off318 k0_t22) a + S1x16.size a ≤ S200x128.size a
  k0_off319_inb : ∀ k0_t22 : Fin k0_t22_loop.trips, ∀ a, (k0_off319 k0_t22) a + S1x16.size a ≤ S200x128.size a
  k0_off320_inb : ∀ k0_t22 : Fin k0_t22_loop.trips, ∀ a, (k0_off320 k0_t22) a + S1x16.size a ≤ S200x128.size a
  k0_off321_inb : ∀ k0_t22 : Fin k0_t22_loop.trips, ∀ a, (k0_off321 k0_t22) a + S1x16.size a ≤ S200x128.size a
  k0_off322_inb : ∀ k0_t22 : Fin k0_t22_loop.trips, ∀ a, (k0_off322 k0_t22) a + S1x16.size a ≤ S200x128.size a
  k0_off323_inb : ∀ k0_t22 : Fin k0_t22_loop.trips, ∀ a, (k0_off323 k0_t22) a + S1x16.size a ≤ S200x128.size a
  k0_off324_inb : ∀ k0_t22 : Fin k0_t22_loop.trips, ∀ a, (k0_off324 k0_t22) a + S1x16.size a ≤ S200x128.size a
  k0_off325_inb : ∀ k0_t22 : Fin k0_t22_loop.trips, ∀ a, (k0_off325 k0_t22) a + S1x16.size a ≤ S200x128.size a
  k0_off326_inb : ∀ k0_t22 : Fin k0_t22_loop.trips, ∀ a, (k0_off326 k0_t22) a + S1x16.size a ≤ S200x128.size a
  k0_mult13_dvd : ∀ k0_t18 : Fin k0_t18_loop.trips, ∀ (k0_h9 : k0_cond9 k0_t18 = 1#1), 8 ∣ (k0_mult13 k0_t18).toNat
  k0_off327_inb : ∀ k0_t18 : Fin k0_t18_loop.trips, ∀ (k0_h9 : k0_cond9 k0_t18 = 1#1), ∀ a, (k0_off327 k0_t18) a + S200.size a ≤ S6400.size a
  k0_mult14_dvd : ∀ k0_t18 : Fin k0_t18_loop.trips, ∀ (k0_h10 : k0_cond10 k0_t18 = 1#1), 8 ∣ k0_mult14.toNat
  k0_t23_ok : k0_t23_loop.OK
  k0_off328_inb : ∀ k0_t23 : Fin k0_t23_loop.trips, ∀ a, (k0_off328 k0_t23) a + S1x16.size a ≤ S200x128.size a
  k0_off329_inb : ∀ k0_t23 : Fin k0_t23_loop.trips, ∀ a, (k0_off329 k0_t23) a + S1x16.size a ≤ S200x128.size a
  k0_off330_inb : ∀ k0_t23 : Fin k0_t23_loop.trips, ∀ a, (k0_off330 k0_t23) a + S1x16.size a ≤ S200x128.size a
  k0_off331_inb : ∀ k0_t23 : Fin k0_t23_loop.trips, ∀ a, (k0_off331 k0_t23) a + S1x16.size a ≤ S200x128.size a
  k0_off332_inb : ∀ k0_t23 : Fin k0_t23_loop.trips, ∀ a, (k0_off332 k0_t23) a + S1x16.size a ≤ S200x128.size a
  k0_off333_inb : ∀ k0_t23 : Fin k0_t23_loop.trips, ∀ a, (k0_off333 k0_t23) a + S1x16.size a ≤ S200x128.size a
  k0_off334_inb : ∀ k0_t23 : Fin k0_t23_loop.trips, ∀ a, (k0_off334 k0_t23) a + S1x16.size a ≤ S200x128.size a
  k0_off335_inb : ∀ k0_t23 : Fin k0_t23_loop.trips, ∀ a, (k0_off335 k0_t23) a + S1x16.size a ≤ S200x128.size a
  k0_off336_inb : ∀ k0_t23 : Fin k0_t23_loop.trips, ∀ a, (k0_off336 k0_t23) a + S1x16.size a ≤ S200x128.size a
  k0_off337_inb : ∀ k0_t23 : Fin k0_t23_loop.trips, ∀ a, (k0_off337 k0_t23) a + S1x16.size a ≤ S200x128.size a
  k0_off338_inb : ∀ k0_t23 : Fin k0_t23_loop.trips, ∀ a, (k0_off338 k0_t23) a + S1x16.size a ≤ S200x128.size a
  k0_off339_inb : ∀ k0_t23 : Fin k0_t23_loop.trips, ∀ a, (k0_off339 k0_t23) a + S1x16.size a ≤ S200x128.size a
  k0_off340_inb : ∀ k0_t23 : Fin k0_t23_loop.trips, ∀ a, (k0_off340 k0_t23) a + S1x16.size a ≤ S200x128.size a
  k0_off341_inb : ∀ k0_t23 : Fin k0_t23_loop.trips, ∀ a, (k0_off341 k0_t23) a + S1x16.size a ≤ S200x128.size a
  k0_off342_inb : ∀ k0_t23 : Fin k0_t23_loop.trips, ∀ a, (k0_off342 k0_t23) a + S1x16.size a ≤ S200x128.size a
  k0_off343_inb : ∀ k0_t23 : Fin k0_t23_loop.trips, ∀ a, (k0_off343 k0_t23) a + S1x16.size a ≤ S200x128.size a
  k0_t24_ok : k0_t24_loop.OK
  k0_off344_inb : ∀ k0_t24 : Fin k0_t24_loop.trips, ∀ a, (k0_off344 k0_t24) a + S1x16.size a ≤ S200x128.size a
  k0_off345_inb : ∀ k0_t24 : Fin k0_t24_loop.trips, ∀ a, (k0_off345 k0_t24) a + S1x16.size a ≤ S200x128.size a
  k0_off346_inb : ∀ k0_t24 : Fin k0_t24_loop.trips, ∀ a, (k0_off346 k0_t24) a + S1x16.size a ≤ S200x128.size a
  k0_off347_inb : ∀ k0_t24 : Fin k0_t24_loop.trips, ∀ a, (k0_off347 k0_t24) a + S1x16.size a ≤ S200x128.size a
  k0_off348_inb : ∀ k0_t24 : Fin k0_t24_loop.trips, ∀ a, (k0_off348 k0_t24) a + S1x16.size a ≤ S200x128.size a
  k0_off349_inb : ∀ k0_t24 : Fin k0_t24_loop.trips, ∀ a, (k0_off349 k0_t24) a + S1x16.size a ≤ S200x128.size a
  k0_off350_inb : ∀ k0_t24 : Fin k0_t24_loop.trips, ∀ a, (k0_off350 k0_t24) a + S1x16.size a ≤ S200x128.size a
  k0_off351_inb : ∀ k0_t24 : Fin k0_t24_loop.trips, ∀ a, (k0_off351 k0_t24) a + S1x16.size a ≤ S200x128.size a
  k0_off352_inb : ∀ k0_t24 : Fin k0_t24_loop.trips, ∀ a, (k0_off352 k0_t24) a + S1x16.size a ≤ S200x128.size a
  k0_off353_inb : ∀ k0_t24 : Fin k0_t24_loop.trips, ∀ a, (k0_off353 k0_t24) a + S1x16.size a ≤ S200x128.size a
  k0_off354_inb : ∀ k0_t24 : Fin k0_t24_loop.trips, ∀ a, (k0_off354 k0_t24) a + S1x16.size a ≤ S200x128.size a
  k0_off355_inb : ∀ k0_t24 : Fin k0_t24_loop.trips, ∀ a, (k0_off355 k0_t24) a + S1x16.size a ≤ S200x128.size a
  k0_off356_inb : ∀ k0_t24 : Fin k0_t24_loop.trips, ∀ a, (k0_off356 k0_t24) a + S1x16.size a ≤ S200x128.size a
  k0_off357_inb : ∀ k0_t24 : Fin k0_t24_loop.trips, ∀ a, (k0_off357 k0_t24) a + S1x16.size a ≤ S200x128.size a
  k0_off358_inb : ∀ k0_t24 : Fin k0_t24_loop.trips, ∀ a, (k0_off358 k0_t24) a + S1x16.size a ≤ S200x128.size a
  k0_off359_inb : ∀ k0_t24 : Fin k0_t24_loop.trips, ∀ a, (k0_off359 k0_t24) a + S1x16.size a ≤ S200x128.size a
  k0_t25_ok : k0_t25_loop.OK
  k0_off360_inb : ∀ k0_t25 : Fin k0_t25_loop.trips, ∀ a, (k0_off360 k0_t25) a + S1x16.size a ≤ S200x128.size a
  k0_off361_inb : ∀ k0_t25 : Fin k0_t25_loop.trips, ∀ a, (k0_off361 k0_t25) a + S1x16.size a ≤ S200x128.size a
  k0_off362_inb : ∀ k0_t25 : Fin k0_t25_loop.trips, ∀ a, (k0_off362 k0_t25) a + S1x16.size a ≤ S200x128.size a
  k0_off363_inb : ∀ k0_t25 : Fin k0_t25_loop.trips, ∀ a, (k0_off363 k0_t25) a + S1x16.size a ≤ S200x128.size a
  k0_off364_inb : ∀ k0_t25 : Fin k0_t25_loop.trips, ∀ a, (k0_off364 k0_t25) a + S1x16.size a ≤ S200x128.size a
  k0_off365_inb : ∀ k0_t25 : Fin k0_t25_loop.trips, ∀ a, (k0_off365 k0_t25) a + S1x16.size a ≤ S200x128.size a
  k0_off366_inb : ∀ k0_t25 : Fin k0_t25_loop.trips, ∀ a, (k0_off366 k0_t25) a + S1x16.size a ≤ S200x128.size a
  k0_off367_inb : ∀ k0_t25 : Fin k0_t25_loop.trips, ∀ a, (k0_off367 k0_t25) a + S1x16.size a ≤ S200x128.size a
  k0_off368_inb : ∀ k0_t25 : Fin k0_t25_loop.trips, ∀ a, (k0_off368 k0_t25) a + S1x16.size a ≤ S200x128.size a
  k0_off369_inb : ∀ k0_t25 : Fin k0_t25_loop.trips, ∀ a, (k0_off369 k0_t25) a + S1x16.size a ≤ S200x128.size a
  k0_off370_inb : ∀ k0_t25 : Fin k0_t25_loop.trips, ∀ a, (k0_off370 k0_t25) a + S1x16.size a ≤ S200x128.size a
  k0_off371_inb : ∀ k0_t25 : Fin k0_t25_loop.trips, ∀ a, (k0_off371 k0_t25) a + S1x16.size a ≤ S200x128.size a
  k0_off372_inb : ∀ k0_t25 : Fin k0_t25_loop.trips, ∀ a, (k0_off372 k0_t25) a + S1x16.size a ≤ S200x128.size a
  k0_off373_inb : ∀ k0_t25 : Fin k0_t25_loop.trips, ∀ a, (k0_off373 k0_t25) a + S1x16.size a ≤ S200x128.size a
  k0_off374_inb : ∀ k0_t25 : Fin k0_t25_loop.trips, ∀ a, (k0_off374 k0_t25) a + S1x16.size a ≤ S200x128.size a
  k0_off375_inb : ∀ k0_t25 : Fin k0_t25_loop.trips, ∀ a, (k0_off375 k0_t25) a + S1x16.size a ≤ S200x128.size a
  k0_t26_ok : k0_t26_loop.OK
  k0_off376_inb : ∀ k0_t26 : Fin k0_t26_loop.trips, ∀ a, (k0_off376 k0_t26) a + S1x16.size a ≤ S200x128.size a
  k0_off377_inb : ∀ k0_t26 : Fin k0_t26_loop.trips, ∀ a, (k0_off377 k0_t26) a + S1x16.size a ≤ S200x128.size a
  k0_off378_inb : ∀ k0_t26 : Fin k0_t26_loop.trips, ∀ a, (k0_off378 k0_t26) a + S1x16.size a ≤ S200x128.size a
  k0_off379_inb : ∀ k0_t26 : Fin k0_t26_loop.trips, ∀ a, (k0_off379 k0_t26) a + S1x16.size a ≤ S200x128.size a
  k0_off380_inb : ∀ k0_t26 : Fin k0_t26_loop.trips, ∀ a, (k0_off380 k0_t26) a + S1x16.size a ≤ S200x128.size a
  k0_off381_inb : ∀ k0_t26 : Fin k0_t26_loop.trips, ∀ a, (k0_off381 k0_t26) a + S1x16.size a ≤ S200x128.size a
  k0_off382_inb : ∀ k0_t26 : Fin k0_t26_loop.trips, ∀ a, (k0_off382 k0_t26) a + S1x16.size a ≤ S200x128.size a
  k0_off383_inb : ∀ k0_t26 : Fin k0_t26_loop.trips, ∀ a, (k0_off383 k0_t26) a + S1x16.size a ≤ S200x128.size a
  k0_off384_inb : ∀ k0_t26 : Fin k0_t26_loop.trips, ∀ a, (k0_off384 k0_t26) a + S1x16.size a ≤ S200x128.size a
  k0_off385_inb : ∀ k0_t26 : Fin k0_t26_loop.trips, ∀ a, (k0_off385 k0_t26) a + S1x16.size a ≤ S200x128.size a
  k0_off386_inb : ∀ k0_t26 : Fin k0_t26_loop.trips, ∀ a, (k0_off386 k0_t26) a + S1x16.size a ≤ S200x128.size a
  k0_off387_inb : ∀ k0_t26 : Fin k0_t26_loop.trips, ∀ a, (k0_off387 k0_t26) a + S1x16.size a ≤ S200x128.size a
  k0_off388_inb : ∀ k0_t26 : Fin k0_t26_loop.trips, ∀ a, (k0_off388 k0_t26) a + S1x16.size a ≤ S200x128.size a
  k0_off389_inb : ∀ k0_t26 : Fin k0_t26_loop.trips, ∀ a, (k0_off389 k0_t26) a + S1x16.size a ≤ S200x128.size a
  k0_off390_inb : ∀ k0_t26 : Fin k0_t26_loop.trips, ∀ a, (k0_off390 k0_t26) a + S1x16.size a ≤ S200x128.size a
  k0_off391_inb : ∀ k0_t26 : Fin k0_t26_loop.trips, ∀ a, (k0_off391 k0_t26) a + S1x16.size a ≤ S200x128.size a
  k0_mult15_dvd : ∀ k0_t18 : Fin k0_t18_loop.trips, ∀ (k0_h11 : k0_cond11 k0_t18 = 1#1), 8 ∣ (k0_mult15 k0_t18).toNat
  k0_off392_inb : ∀ k0_t18 : Fin k0_t18_loop.trips, ∀ (k0_h11 : k0_cond11 k0_t18 = 1#1), ∀ a, (k0_off392 k0_t18) a + S200.size a ≤ S6400.size a
  k0_mult16_dvd : ∀ k0_t18 : Fin k0_t18_loop.trips, ∀ (k0_h12 : k0_cond12 k0_t18 = 1#1), 8 ∣ k0_mult16.toNat
  k0_t27_ok : k0_t27_loop.OK
  k0_off393_inb : ∀ k0_t27 : Fin k0_t27_loop.trips, ∀ a, (k0_off393 k0_t27) a + S1x16.size a ≤ S200x128.size a
  k0_off394_inb : ∀ k0_t27 : Fin k0_t27_loop.trips, ∀ a, (k0_off394 k0_t27) a + S1x16.size a ≤ S200x128.size a
  k0_off395_inb : ∀ k0_t27 : Fin k0_t27_loop.trips, ∀ a, (k0_off395 k0_t27) a + S1x16.size a ≤ S200x128.size a
  k0_off396_inb : ∀ k0_t27 : Fin k0_t27_loop.trips, ∀ a, (k0_off396 k0_t27) a + S1x16.size a ≤ S200x128.size a
  k0_off397_inb : ∀ k0_t27 : Fin k0_t27_loop.trips, ∀ a, (k0_off397 k0_t27) a + S1x16.size a ≤ S200x128.size a
  k0_off398_inb : ∀ k0_t27 : Fin k0_t27_loop.trips, ∀ a, (k0_off398 k0_t27) a + S1x16.size a ≤ S200x128.size a
  k0_off399_inb : ∀ k0_t27 : Fin k0_t27_loop.trips, ∀ a, (k0_off399 k0_t27) a + S1x16.size a ≤ S200x128.size a
  k0_off400_inb : ∀ k0_t27 : Fin k0_t27_loop.trips, ∀ a, (k0_off400 k0_t27) a + S1x16.size a ≤ S200x128.size a
  k0_off401_inb : ∀ k0_t27 : Fin k0_t27_loop.trips, ∀ a, (k0_off401 k0_t27) a + S1x16.size a ≤ S200x128.size a
  k0_off402_inb : ∀ k0_t27 : Fin k0_t27_loop.trips, ∀ a, (k0_off402 k0_t27) a + S1x16.size a ≤ S200x128.size a
  k0_off403_inb : ∀ k0_t27 : Fin k0_t27_loop.trips, ∀ a, (k0_off403 k0_t27) a + S1x16.size a ≤ S200x128.size a
  k0_off404_inb : ∀ k0_t27 : Fin k0_t27_loop.trips, ∀ a, (k0_off404 k0_t27) a + S1x16.size a ≤ S200x128.size a
  k0_off405_inb : ∀ k0_t27 : Fin k0_t27_loop.trips, ∀ a, (k0_off405 k0_t27) a + S1x16.size a ≤ S200x128.size a
  k0_off406_inb : ∀ k0_t27 : Fin k0_t27_loop.trips, ∀ a, (k0_off406 k0_t27) a + S1x16.size a ≤ S200x128.size a
  k0_off407_inb : ∀ k0_t27 : Fin k0_t27_loop.trips, ∀ a, (k0_off407 k0_t27) a + S1x16.size a ≤ S200x128.size a
  k0_off408_inb : ∀ k0_t27 : Fin k0_t27_loop.trips, ∀ a, (k0_off408 k0_t27) a + S1x16.size a ≤ S200x128.size a
  k0_t28_ok : k0_t28_loop.OK
  k0_off409_inb : ∀ k0_t28 : Fin k0_t28_loop.trips, ∀ a, (k0_off409 k0_t28) a + S1x16.size a ≤ S200x128.size a
  k0_off410_inb : ∀ k0_t28 : Fin k0_t28_loop.trips, ∀ a, (k0_off410 k0_t28) a + S1x16.size a ≤ S200x128.size a
  k0_off411_inb : ∀ k0_t28 : Fin k0_t28_loop.trips, ∀ a, (k0_off411 k0_t28) a + S1x16.size a ≤ S200x128.size a
  k0_off412_inb : ∀ k0_t28 : Fin k0_t28_loop.trips, ∀ a, (k0_off412 k0_t28) a + S1x16.size a ≤ S200x128.size a
  k0_off413_inb : ∀ k0_t28 : Fin k0_t28_loop.trips, ∀ a, (k0_off413 k0_t28) a + S1x16.size a ≤ S200x128.size a
  k0_off414_inb : ∀ k0_t28 : Fin k0_t28_loop.trips, ∀ a, (k0_off414 k0_t28) a + S1x16.size a ≤ S200x128.size a
  k0_off415_inb : ∀ k0_t28 : Fin k0_t28_loop.trips, ∀ a, (k0_off415 k0_t28) a + S1x16.size a ≤ S200x128.size a
  k0_off416_inb : ∀ k0_t28 : Fin k0_t28_loop.trips, ∀ a, (k0_off416 k0_t28) a + S1x16.size a ≤ S200x128.size a
  k0_off417_inb : ∀ k0_t28 : Fin k0_t28_loop.trips, ∀ a, (k0_off417 k0_t28) a + S1x16.size a ≤ S200x128.size a
  k0_off418_inb : ∀ k0_t28 : Fin k0_t28_loop.trips, ∀ a, (k0_off418 k0_t28) a + S1x16.size a ≤ S200x128.size a
  k0_off419_inb : ∀ k0_t28 : Fin k0_t28_loop.trips, ∀ a, (k0_off419 k0_t28) a + S1x16.size a ≤ S200x128.size a
  k0_off420_inb : ∀ k0_t28 : Fin k0_t28_loop.trips, ∀ a, (k0_off420 k0_t28) a + S1x16.size a ≤ S200x128.size a
  k0_off421_inb : ∀ k0_t28 : Fin k0_t28_loop.trips, ∀ a, (k0_off421 k0_t28) a + S1x16.size a ≤ S200x128.size a
  k0_off422_inb : ∀ k0_t28 : Fin k0_t28_loop.trips, ∀ a, (k0_off422 k0_t28) a + S1x16.size a ≤ S200x128.size a
  k0_off423_inb : ∀ k0_t28 : Fin k0_t28_loop.trips, ∀ a, (k0_off423 k0_t28) a + S1x16.size a ≤ S200x128.size a
  k0_off424_inb : ∀ k0_t28 : Fin k0_t28_loop.trips, ∀ a, (k0_off424 k0_t28) a + S1x16.size a ≤ S200x128.size a
  k0_t29_ok : k0_t29_loop.OK
  k0_off425_inb : ∀ k0_t29 : Fin k0_t29_loop.trips, ∀ a, (k0_off425 k0_t29) a + S1x16.size a ≤ S200x128.size a
  k0_off426_inb : ∀ k0_t29 : Fin k0_t29_loop.trips, ∀ a, (k0_off426 k0_t29) a + S1x16.size a ≤ S200x128.size a
  k0_off427_inb : ∀ k0_t29 : Fin k0_t29_loop.trips, ∀ a, (k0_off427 k0_t29) a + S1x16.size a ≤ S200x128.size a
  k0_off428_inb : ∀ k0_t29 : Fin k0_t29_loop.trips, ∀ a, (k0_off428 k0_t29) a + S1x16.size a ≤ S200x128.size a
  k0_off429_inb : ∀ k0_t29 : Fin k0_t29_loop.trips, ∀ a, (k0_off429 k0_t29) a + S1x16.size a ≤ S200x128.size a
  k0_off430_inb : ∀ k0_t29 : Fin k0_t29_loop.trips, ∀ a, (k0_off430 k0_t29) a + S1x16.size a ≤ S200x128.size a
  k0_off431_inb : ∀ k0_t29 : Fin k0_t29_loop.trips, ∀ a, (k0_off431 k0_t29) a + S1x16.size a ≤ S200x128.size a
  k0_off432_inb : ∀ k0_t29 : Fin k0_t29_loop.trips, ∀ a, (k0_off432 k0_t29) a + S1x16.size a ≤ S200x128.size a
  k0_off433_inb : ∀ k0_t29 : Fin k0_t29_loop.trips, ∀ a, (k0_off433 k0_t29) a + S1x16.size a ≤ S200x128.size a
  k0_off434_inb : ∀ k0_t29 : Fin k0_t29_loop.trips, ∀ a, (k0_off434 k0_t29) a + S1x16.size a ≤ S200x128.size a
  k0_off435_inb : ∀ k0_t29 : Fin k0_t29_loop.trips, ∀ a, (k0_off435 k0_t29) a + S1x16.size a ≤ S200x128.size a
  k0_off436_inb : ∀ k0_t29 : Fin k0_t29_loop.trips, ∀ a, (k0_off436 k0_t29) a + S1x16.size a ≤ S200x128.size a
  k0_off437_inb : ∀ k0_t29 : Fin k0_t29_loop.trips, ∀ a, (k0_off437 k0_t29) a + S1x16.size a ≤ S200x128.size a
  k0_off438_inb : ∀ k0_t29 : Fin k0_t29_loop.trips, ∀ a, (k0_off438 k0_t29) a + S1x16.size a ≤ S200x128.size a
  k0_off439_inb : ∀ k0_t29 : Fin k0_t29_loop.trips, ∀ a, (k0_off439 k0_t29) a + S1x16.size a ≤ S200x128.size a
  k0_off440_inb : ∀ k0_t29 : Fin k0_t29_loop.trips, ∀ a, (k0_off440 k0_t29) a + S1x16.size a ≤ S200x128.size a
  k0_t30_ok : k0_t30_loop.OK
  k0_off441_inb : ∀ k0_t30 : Fin k0_t30_loop.trips, ∀ a, (k0_off441 k0_t30) a + S1x16.size a ≤ S200x128.size a
  k0_off442_inb : ∀ k0_t30 : Fin k0_t30_loop.trips, ∀ a, (k0_off442 k0_t30) a + S1x16.size a ≤ S200x128.size a
  k0_off443_inb : ∀ k0_t30 : Fin k0_t30_loop.trips, ∀ a, (k0_off443 k0_t30) a + S1x16.size a ≤ S200x128.size a
  k0_off444_inb : ∀ k0_t30 : Fin k0_t30_loop.trips, ∀ a, (k0_off444 k0_t30) a + S1x16.size a ≤ S200x128.size a
  k0_off445_inb : ∀ k0_t30 : Fin k0_t30_loop.trips, ∀ a, (k0_off445 k0_t30) a + S1x16.size a ≤ S200x128.size a
  k0_off446_inb : ∀ k0_t30 : Fin k0_t30_loop.trips, ∀ a, (k0_off446 k0_t30) a + S1x16.size a ≤ S200x128.size a
  k0_off447_inb : ∀ k0_t30 : Fin k0_t30_loop.trips, ∀ a, (k0_off447 k0_t30) a + S1x16.size a ≤ S200x128.size a
  k0_off448_inb : ∀ k0_t30 : Fin k0_t30_loop.trips, ∀ a, (k0_off448 k0_t30) a + S1x16.size a ≤ S200x128.size a
  k0_off449_inb : ∀ k0_t30 : Fin k0_t30_loop.trips, ∀ a, (k0_off449 k0_t30) a + S1x16.size a ≤ S200x128.size a
  k0_off450_inb : ∀ k0_t30 : Fin k0_t30_loop.trips, ∀ a, (k0_off450 k0_t30) a + S1x16.size a ≤ S200x128.size a
  k0_off451_inb : ∀ k0_t30 : Fin k0_t30_loop.trips, ∀ a, (k0_off451 k0_t30) a + S1x16.size a ≤ S200x128.size a
  k0_off452_inb : ∀ k0_t30 : Fin k0_t30_loop.trips, ∀ a, (k0_off452 k0_t30) a + S1x16.size a ≤ S200x128.size a
  k0_off453_inb : ∀ k0_t30 : Fin k0_t30_loop.trips, ∀ a, (k0_off453 k0_t30) a + S1x16.size a ≤ S200x128.size a
  k0_off454_inb : ∀ k0_t30 : Fin k0_t30_loop.trips, ∀ a, (k0_off454 k0_t30) a + S1x16.size a ≤ S200x128.size a
  k0_off455_inb : ∀ k0_t30 : Fin k0_t30_loop.trips, ∀ a, (k0_off455 k0_t30) a + S1x16.size a ≤ S200x128.size a
  k0_off456_inb : ∀ k0_t30 : Fin k0_t30_loop.trips, ∀ a, (k0_off456 k0_t30) a + S1x16.size a ≤ S200x128.size a
  k0_mult17_dvd : ∀ k0_t18 : Fin k0_t18_loop.trips, ∀ (k0_h13 : k0_cond13 k0_t18 = 1#1), 8 ∣ (k0_mult17 k0_t18).toNat
  k0_off457_inb : ∀ k0_t18 : Fin k0_t18_loop.trips, ∀ (k0_h13 : k0_cond13 k0_t18 = 1#1), ∀ a, (k0_off457 k0_t18) a + S200.size a ≤ S6400.size a
  k0_mult18_dvd : ∀ k0_t18 : Fin k0_t18_loop.trips, ∀ (k0_h14 : k0_cond14 k0_t18 = 1#1), 8 ∣ k0_mult18.toNat
  k0_t31_ok : k0_t31_loop.OK
  k0_off458_inb : ∀ k0_t31 : Fin k0_t31_loop.trips, ∀ a, (k0_off458 k0_t31) a + S1x16.size a ≤ S200x128.size a
  k0_off459_inb : ∀ k0_t31 : Fin k0_t31_loop.trips, ∀ a, (k0_off459 k0_t31) a + S1x16.size a ≤ S200x128.size a
  k0_off460_inb : ∀ k0_t31 : Fin k0_t31_loop.trips, ∀ a, (k0_off460 k0_t31) a + S1x16.size a ≤ S200x128.size a
  k0_off461_inb : ∀ k0_t31 : Fin k0_t31_loop.trips, ∀ a, (k0_off461 k0_t31) a + S1x16.size a ≤ S200x128.size a
  k0_off462_inb : ∀ k0_t31 : Fin k0_t31_loop.trips, ∀ a, (k0_off462 k0_t31) a + S1x16.size a ≤ S200x128.size a
  k0_off463_inb : ∀ k0_t31 : Fin k0_t31_loop.trips, ∀ a, (k0_off463 k0_t31) a + S1x16.size a ≤ S200x128.size a
  k0_off464_inb : ∀ k0_t31 : Fin k0_t31_loop.trips, ∀ a, (k0_off464 k0_t31) a + S1x16.size a ≤ S200x128.size a
  k0_off465_inb : ∀ k0_t31 : Fin k0_t31_loop.trips, ∀ a, (k0_off465 k0_t31) a + S1x16.size a ≤ S200x128.size a
  k0_off466_inb : ∀ k0_t31 : Fin k0_t31_loop.trips, ∀ a, (k0_off466 k0_t31) a + S1x16.size a ≤ S200x128.size a
  k0_off467_inb : ∀ k0_t31 : Fin k0_t31_loop.trips, ∀ a, (k0_off467 k0_t31) a + S1x16.size a ≤ S200x128.size a
  k0_off468_inb : ∀ k0_t31 : Fin k0_t31_loop.trips, ∀ a, (k0_off468 k0_t31) a + S1x16.size a ≤ S200x128.size a
  k0_off469_inb : ∀ k0_t31 : Fin k0_t31_loop.trips, ∀ a, (k0_off469 k0_t31) a + S1x16.size a ≤ S200x128.size a
  k0_off470_inb : ∀ k0_t31 : Fin k0_t31_loop.trips, ∀ a, (k0_off470 k0_t31) a + S1x16.size a ≤ S200x128.size a
  k0_off471_inb : ∀ k0_t31 : Fin k0_t31_loop.trips, ∀ a, (k0_off471 k0_t31) a + S1x16.size a ≤ S200x128.size a
  k0_off472_inb : ∀ k0_t31 : Fin k0_t31_loop.trips, ∀ a, (k0_off472 k0_t31) a + S1x16.size a ≤ S200x128.size a
  k0_off473_inb : ∀ k0_t31 : Fin k0_t31_loop.trips, ∀ a, (k0_off473 k0_t31) a + S1x16.size a ≤ S200x128.size a
  k0_t32_ok : k0_t32_loop.OK
  k0_off474_inb : ∀ k0_t32 : Fin k0_t32_loop.trips, ∀ a, (k0_off474 k0_t32) a + S1x16.size a ≤ S200x128.size a
  k0_off475_inb : ∀ k0_t32 : Fin k0_t32_loop.trips, ∀ a, (k0_off475 k0_t32) a + S1x16.size a ≤ S200x128.size a
  k0_off476_inb : ∀ k0_t32 : Fin k0_t32_loop.trips, ∀ a, (k0_off476 k0_t32) a + S1x16.size a ≤ S200x128.size a
  k0_off477_inb : ∀ k0_t32 : Fin k0_t32_loop.trips, ∀ a, (k0_off477 k0_t32) a + S1x16.size a ≤ S200x128.size a
  k0_off478_inb : ∀ k0_t32 : Fin k0_t32_loop.trips, ∀ a, (k0_off478 k0_t32) a + S1x16.size a ≤ S200x128.size a
  k0_off479_inb : ∀ k0_t32 : Fin k0_t32_loop.trips, ∀ a, (k0_off479 k0_t32) a + S1x16.size a ≤ S200x128.size a
  k0_off480_inb : ∀ k0_t32 : Fin k0_t32_loop.trips, ∀ a, (k0_off480 k0_t32) a + S1x16.size a ≤ S200x128.size a
  k0_off481_inb : ∀ k0_t32 : Fin k0_t32_loop.trips, ∀ a, (k0_off481 k0_t32) a + S1x16.size a ≤ S200x128.size a
  k0_off482_inb : ∀ k0_t32 : Fin k0_t32_loop.trips, ∀ a, (k0_off482 k0_t32) a + S1x16.size a ≤ S200x128.size a
  k0_off483_inb : ∀ k0_t32 : Fin k0_t32_loop.trips, ∀ a, (k0_off483 k0_t32) a + S1x16.size a ≤ S200x128.size a
  k0_off484_inb : ∀ k0_t32 : Fin k0_t32_loop.trips, ∀ a, (k0_off484 k0_t32) a + S1x16.size a ≤ S200x128.size a
  k0_off485_inb : ∀ k0_t32 : Fin k0_t32_loop.trips, ∀ a, (k0_off485 k0_t32) a + S1x16.size a ≤ S200x128.size a
  k0_off486_inb : ∀ k0_t32 : Fin k0_t32_loop.trips, ∀ a, (k0_off486 k0_t32) a + S1x16.size a ≤ S200x128.size a
  k0_off487_inb : ∀ k0_t32 : Fin k0_t32_loop.trips, ∀ a, (k0_off487 k0_t32) a + S1x16.size a ≤ S200x128.size a
  k0_off488_inb : ∀ k0_t32 : Fin k0_t32_loop.trips, ∀ a, (k0_off488 k0_t32) a + S1x16.size a ≤ S200x128.size a
  k0_off489_inb : ∀ k0_t32 : Fin k0_t32_loop.trips, ∀ a, (k0_off489 k0_t32) a + S1x16.size a ≤ S200x128.size a
  k0_t33_ok : k0_t33_loop.OK
  k0_off490_inb : ∀ k0_t33 : Fin k0_t33_loop.trips, ∀ a, (k0_off490 k0_t33) a + S1x16.size a ≤ S200x128.size a
  k0_off491_inb : ∀ k0_t33 : Fin k0_t33_loop.trips, ∀ a, (k0_off491 k0_t33) a + S1x16.size a ≤ S200x128.size a
  k0_off492_inb : ∀ k0_t33 : Fin k0_t33_loop.trips, ∀ a, (k0_off492 k0_t33) a + S1x16.size a ≤ S200x128.size a
  k0_off493_inb : ∀ k0_t33 : Fin k0_t33_loop.trips, ∀ a, (k0_off493 k0_t33) a + S1x16.size a ≤ S200x128.size a
  k0_off494_inb : ∀ k0_t33 : Fin k0_t33_loop.trips, ∀ a, (k0_off494 k0_t33) a + S1x16.size a ≤ S200x128.size a
  k0_off495_inb : ∀ k0_t33 : Fin k0_t33_loop.trips, ∀ a, (k0_off495 k0_t33) a + S1x16.size a ≤ S200x128.size a
  k0_off496_inb : ∀ k0_t33 : Fin k0_t33_loop.trips, ∀ a, (k0_off496 k0_t33) a + S1x16.size a ≤ S200x128.size a
  k0_off497_inb : ∀ k0_t33 : Fin k0_t33_loop.trips, ∀ a, (k0_off497 k0_t33) a + S1x16.size a ≤ S200x128.size a
  k0_off498_inb : ∀ k0_t33 : Fin k0_t33_loop.trips, ∀ a, (k0_off498 k0_t33) a + S1x16.size a ≤ S200x128.size a
  k0_off499_inb : ∀ k0_t33 : Fin k0_t33_loop.trips, ∀ a, (k0_off499 k0_t33) a + S1x16.size a ≤ S200x128.size a
  k0_off500_inb : ∀ k0_t33 : Fin k0_t33_loop.trips, ∀ a, (k0_off500 k0_t33) a + S1x16.size a ≤ S200x128.size a
  k0_off501_inb : ∀ k0_t33 : Fin k0_t33_loop.trips, ∀ a, (k0_off501 k0_t33) a + S1x16.size a ≤ S200x128.size a
  k0_off502_inb : ∀ k0_t33 : Fin k0_t33_loop.trips, ∀ a, (k0_off502 k0_t33) a + S1x16.size a ≤ S200x128.size a
  k0_off503_inb : ∀ k0_t33 : Fin k0_t33_loop.trips, ∀ a, (k0_off503 k0_t33) a + S1x16.size a ≤ S200x128.size a
  k0_off504_inb : ∀ k0_t33 : Fin k0_t33_loop.trips, ∀ a, (k0_off504 k0_t33) a + S1x16.size a ≤ S200x128.size a
  k0_off505_inb : ∀ k0_t33 : Fin k0_t33_loop.trips, ∀ a, (k0_off505 k0_t33) a + S1x16.size a ≤ S200x128.size a
  k0_t34_ok : k0_t34_loop.OK
  k0_off506_inb : ∀ k0_t34 : Fin k0_t34_loop.trips, ∀ a, (k0_off506 k0_t34) a + S1x16.size a ≤ S200x128.size a
  k0_off507_inb : ∀ k0_t34 : Fin k0_t34_loop.trips, ∀ a, (k0_off507 k0_t34) a + S1x16.size a ≤ S200x128.size a
  k0_off508_inb : ∀ k0_t34 : Fin k0_t34_loop.trips, ∀ a, (k0_off508 k0_t34) a + S1x16.size a ≤ S200x128.size a
  k0_off509_inb : ∀ k0_t34 : Fin k0_t34_loop.trips, ∀ a, (k0_off509 k0_t34) a + S1x16.size a ≤ S200x128.size a
  k0_off510_inb : ∀ k0_t34 : Fin k0_t34_loop.trips, ∀ a, (k0_off510 k0_t34) a + S1x16.size a ≤ S200x128.size a
  k0_off511_inb : ∀ k0_t34 : Fin k0_t34_loop.trips, ∀ a, (k0_off511 k0_t34) a + S1x16.size a ≤ S200x128.size a
  k0_off512_inb : ∀ k0_t34 : Fin k0_t34_loop.trips, ∀ a, (k0_off512 k0_t34) a + S1x16.size a ≤ S200x128.size a
  k0_off513_inb : ∀ k0_t34 : Fin k0_t34_loop.trips, ∀ a, (k0_off513 k0_t34) a + S1x16.size a ≤ S200x128.size a
  k0_off514_inb : ∀ k0_t34 : Fin k0_t34_loop.trips, ∀ a, (k0_off514 k0_t34) a + S1x16.size a ≤ S200x128.size a
  k0_off515_inb : ∀ k0_t34 : Fin k0_t34_loop.trips, ∀ a, (k0_off515 k0_t34) a + S1x16.size a ≤ S200x128.size a
  k0_off516_inb : ∀ k0_t34 : Fin k0_t34_loop.trips, ∀ a, (k0_off516 k0_t34) a + S1x16.size a ≤ S200x128.size a
  k0_off517_inb : ∀ k0_t34 : Fin k0_t34_loop.trips, ∀ a, (k0_off517 k0_t34) a + S1x16.size a ≤ S200x128.size a
  k0_off518_inb : ∀ k0_t34 : Fin k0_t34_loop.trips, ∀ a, (k0_off518 k0_t34) a + S1x16.size a ≤ S200x128.size a
  k0_off519_inb : ∀ k0_t34 : Fin k0_t34_loop.trips, ∀ a, (k0_off519 k0_t34) a + S1x16.size a ≤ S200x128.size a
  k0_off520_inb : ∀ k0_t34 : Fin k0_t34_loop.trips, ∀ a, (k0_off520 k0_t34) a + S1x16.size a ≤ S200x128.size a
  k0_off521_inb : ∀ k0_t34 : Fin k0_t34_loop.trips, ∀ a, (k0_off521 k0_t34) a + S1x16.size a ≤ S200x128.size a
  k0_mult19_dvd : ∀ k0_t18 : Fin k0_t18_loop.trips, ∀ (k0_h15 : k0_cond15 k0_t18 = 1#1), 8 ∣ (k0_mult19 k0_t18).toNat
  k0_off522_inb : ∀ k0_t18 : Fin k0_t18_loop.trips, ∀ (k0_h15 : k0_cond15 k0_t18 = 1#1), ∀ a, (k0_off522 k0_t18) a + S200.size a ≤ S6400.size a
  k0_mult20_dvd : ∀ k0_t18 : Fin k0_t18_loop.trips, ∀ (k0_h16 : k0_cond16 k0_t18 = 1#1), 8 ∣ k0_mult20.toNat
  k0_off523_inb : ∀ (i : grid0.Coords) (k0_t18 : Fin k0_t18_loop.trips), ∀ a, (k0_off523 i k0_t18) a + S1x16x128.size a ≤ S3x4096x128.size a
  k0_t35_ok : k0_t35_loop.OK
  k0_t36_ok : k0_t36_loop.OK
  k0_off524_inb : ∀ k0_t36 : Fin k0_t36_loop.trips, ∀ a, (k0_off524 k0_t36) a + S1x16.size a ≤ S200x128.size a
  k0_off525_inb : ∀ k0_t36 : Fin k0_t36_loop.trips, ∀ a, (k0_off525 k0_t36) a + S1x16.size a ≤ S200x128.size a
  k0_off526_inb : ∀ k0_t36 : Fin k0_t36_loop.trips, ∀ a, (k0_off526 k0_t36) a + S1x16.size a ≤ S200x128.size a
  k0_off527_inb : ∀ k0_t36 : Fin k0_t36_loop.trips, ∀ a, (k0_off527 k0_t36) a + S1x16.size a ≤ S200x128.size a
  k0_off528_inb : ∀ k0_t36 : Fin k0_t36_loop.trips, ∀ a, (k0_off528 k0_t36) a + S1x16.size a ≤ S200x128.size a
  k0_off529_inb : ∀ k0_t36 : Fin k0_t36_loop.trips, ∀ a, (k0_off529 k0_t36) a + S1x16.size a ≤ S200x128.size a
  k0_off530_inb : ∀ k0_t36 : Fin k0_t36_loop.trips, ∀ a, (k0_off530 k0_t36) a + S1x16.size a ≤ S200x128.size a
  k0_off531_inb : ∀ k0_t36 : Fin k0_t36_loop.trips, ∀ a, (k0_off531 k0_t36) a + S1x16.size a ≤ S200x128.size a
  k0_off532_inb : ∀ k0_t36 : Fin k0_t36_loop.trips, ∀ a, (k0_off532 k0_t36) a + S1x16.size a ≤ S200x128.size a
  k0_off533_inb : ∀ k0_t36 : Fin k0_t36_loop.trips, ∀ a, (k0_off533 k0_t36) a + S1x16.size a ≤ S200x128.size a
  k0_off534_inb : ∀ k0_t36 : Fin k0_t36_loop.trips, ∀ a, (k0_off534 k0_t36) a + S1x16.size a ≤ S200x128.size a
  k0_off535_inb : ∀ k0_t36 : Fin k0_t36_loop.trips, ∀ a, (k0_off535 k0_t36) a + S1x16.size a ≤ S200x128.size a
  k0_off536_inb : ∀ k0_t36 : Fin k0_t36_loop.trips, ∀ a, (k0_off536 k0_t36) a + S1x16.size a ≤ S200x128.size a
  k0_off537_inb : ∀ k0_t36 : Fin k0_t36_loop.trips, ∀ a, (k0_off537 k0_t36) a + S1x16.size a ≤ S200x128.size a
  k0_off538_inb : ∀ k0_t36 : Fin k0_t36_loop.trips, ∀ a, (k0_off538 k0_t36) a + S1x16.size a ≤ S200x128.size a
  k0_off539_inb : ∀ k0_t36 : Fin k0_t36_loop.trips, ∀ a, (k0_off539 k0_t36) a + S1x16.size a ≤ S200x128.size a
  k0_t37_ok : k0_t37_loop.OK
  k0_off540_inb : ∀ k0_t37 : Fin k0_t37_loop.trips, ∀ a, (k0_off540 k0_t37) a + S1x16.size a ≤ S200x128.size a
  k0_off541_inb : ∀ k0_t37 : Fin k0_t37_loop.trips, ∀ a, (k0_off541 k0_t37) a + S1x16.size a ≤ S200x128.size a
  k0_off542_inb : ∀ k0_t37 : Fin k0_t37_loop.trips, ∀ a, (k0_off542 k0_t37) a + S1x16.size a ≤ S200x128.size a
  k0_off543_inb : ∀ k0_t37 : Fin k0_t37_loop.trips, ∀ a, (k0_off543 k0_t37) a + S1x16.size a ≤ S200x128.size a
  k0_off544_inb : ∀ k0_t37 : Fin k0_t37_loop.trips, ∀ a, (k0_off544 k0_t37) a + S1x16.size a ≤ S200x128.size a
  k0_off545_inb : ∀ k0_t37 : Fin k0_t37_loop.trips, ∀ a, (k0_off545 k0_t37) a + S1x16.size a ≤ S200x128.size a
  k0_off546_inb : ∀ k0_t37 : Fin k0_t37_loop.trips, ∀ a, (k0_off546 k0_t37) a + S1x16.size a ≤ S200x128.size a
  k0_off547_inb : ∀ k0_t37 : Fin k0_t37_loop.trips, ∀ a, (k0_off547 k0_t37) a + S1x16.size a ≤ S200x128.size a
  k0_off548_inb : ∀ k0_t37 : Fin k0_t37_loop.trips, ∀ a, (k0_off548 k0_t37) a + S1x16.size a ≤ S200x128.size a
  k0_off549_inb : ∀ k0_t37 : Fin k0_t37_loop.trips, ∀ a, (k0_off549 k0_t37) a + S1x16.size a ≤ S200x128.size a
  k0_off550_inb : ∀ k0_t37 : Fin k0_t37_loop.trips, ∀ a, (k0_off550 k0_t37) a + S1x16.size a ≤ S200x128.size a
  k0_off551_inb : ∀ k0_t37 : Fin k0_t37_loop.trips, ∀ a, (k0_off551 k0_t37) a + S1x16.size a ≤ S200x128.size a
  k0_off552_inb : ∀ k0_t37 : Fin k0_t37_loop.trips, ∀ a, (k0_off552 k0_t37) a + S1x16.size a ≤ S200x128.size a
  k0_off553_inb : ∀ k0_t37 : Fin k0_t37_loop.trips, ∀ a, (k0_off553 k0_t37) a + S1x16.size a ≤ S200x128.size a
  k0_off554_inb : ∀ k0_t37 : Fin k0_t37_loop.trips, ∀ a, (k0_off554 k0_t37) a + S1x16.size a ≤ S200x128.size a
  k0_off555_inb : ∀ k0_t37 : Fin k0_t37_loop.trips, ∀ a, (k0_off555 k0_t37) a + S1x16.size a ≤ S200x128.size a
  k0_t38_ok : k0_t38_loop.OK
  k0_off556_inb : ∀ k0_t38 : Fin k0_t38_loop.trips, ∀ a, (k0_off556 k0_t38) a + S1x16.size a ≤ S200x128.size a
  k0_off557_inb : ∀ k0_t38 : Fin k0_t38_loop.trips, ∀ a, (k0_off557 k0_t38) a + S1x16.size a ≤ S200x128.size a
  k0_off558_inb : ∀ k0_t38 : Fin k0_t38_loop.trips, ∀ a, (k0_off558 k0_t38) a + S1x16.size a ≤ S200x128.size a
  k0_off559_inb : ∀ k0_t38 : Fin k0_t38_loop.trips, ∀ a, (k0_off559 k0_t38) a + S1x16.size a ≤ S200x128.size a
  k0_off560_inb : ∀ k0_t38 : Fin k0_t38_loop.trips, ∀ a, (k0_off560 k0_t38) a + S1x16.size a ≤ S200x128.size a
  k0_off561_inb : ∀ k0_t38 : Fin k0_t38_loop.trips, ∀ a, (k0_off561 k0_t38) a + S1x16.size a ≤ S200x128.size a
  k0_off562_inb : ∀ k0_t38 : Fin k0_t38_loop.trips, ∀ a, (k0_off562 k0_t38) a + S1x16.size a ≤ S200x128.size a
  k0_off563_inb : ∀ k0_t38 : Fin k0_t38_loop.trips, ∀ a, (k0_off563 k0_t38) a + S1x16.size a ≤ S200x128.size a
  k0_off564_inb : ∀ k0_t38 : Fin k0_t38_loop.trips, ∀ a, (k0_off564 k0_t38) a + S1x16.size a ≤ S200x128.size a
  k0_off565_inb : ∀ k0_t38 : Fin k0_t38_loop.trips, ∀ a, (k0_off565 k0_t38) a + S1x16.size a ≤ S200x128.size a
  k0_off566_inb : ∀ k0_t38 : Fin k0_t38_loop.trips, ∀ a, (k0_off566 k0_t38) a + S1x16.size a ≤ S200x128.size a
  k0_off567_inb : ∀ k0_t38 : Fin k0_t38_loop.trips, ∀ a, (k0_off567 k0_t38) a + S1x16.size a ≤ S200x128.size a
  k0_off568_inb : ∀ k0_t38 : Fin k0_t38_loop.trips, ∀ a, (k0_off568 k0_t38) a + S1x16.size a ≤ S200x128.size a
  k0_off569_inb : ∀ k0_t38 : Fin k0_t38_loop.trips, ∀ a, (k0_off569 k0_t38) a + S1x16.size a ≤ S200x128.size a
  k0_off570_inb : ∀ k0_t38 : Fin k0_t38_loop.trips, ∀ a, (k0_off570 k0_t38) a + S1x16.size a ≤ S200x128.size a
  k0_off571_inb : ∀ k0_t38 : Fin k0_t38_loop.trips, ∀ a, (k0_off571 k0_t38) a + S1x16.size a ≤ S200x128.size a
  k0_t39_ok : k0_t39_loop.OK
  k0_off572_inb : ∀ k0_t39 : Fin k0_t39_loop.trips, ∀ a, (k0_off572 k0_t39) a + S1x16.size a ≤ S200x128.size a
  k0_off573_inb : ∀ k0_t39 : Fin k0_t39_loop.trips, ∀ a, (k0_off573 k0_t39) a + S1x16.size a ≤ S200x128.size a
  k0_off574_inb : ∀ k0_t39 : Fin k0_t39_loop.trips, ∀ a, (k0_off574 k0_t39) a + S1x16.size a ≤ S200x128.size a
  k0_off575_inb : ∀ k0_t39 : Fin k0_t39_loop.trips, ∀ a, (k0_off575 k0_t39) a + S1x16.size a ≤ S200x128.size a
  k0_off576_inb : ∀ k0_t39 : Fin k0_t39_loop.trips, ∀ a, (k0_off576 k0_t39) a + S1x16.size a ≤ S200x128.size a
  k0_off577_inb : ∀ k0_t39 : Fin k0_t39_loop.trips, ∀ a, (k0_off577 k0_t39) a + S1x16.size a ≤ S200x128.size a
  k0_off578_inb : ∀ k0_t39 : Fin k0_t39_loop.trips, ∀ a, (k0_off578 k0_t39) a + S1x16.size a ≤ S200x128.size a
  k0_off579_inb : ∀ k0_t39 : Fin k0_t39_loop.trips, ∀ a, (k0_off579 k0_t39) a + S1x16.size a ≤ S200x128.size a
  k0_off580_inb : ∀ k0_t39 : Fin k0_t39_loop.trips, ∀ a, (k0_off580 k0_t39) a + S1x16.size a ≤ S200x128.size a
  k0_off581_inb : ∀ k0_t39 : Fin k0_t39_loop.trips, ∀ a, (k0_off581 k0_t39) a + S1x16.size a ≤ S200x128.size a
  k0_off582_inb : ∀ k0_t39 : Fin k0_t39_loop.trips, ∀ a, (k0_off582 k0_t39) a + S1x16.size a ≤ S200x128.size a
  k0_off583_inb : ∀ k0_t39 : Fin k0_t39_loop.trips, ∀ a, (k0_off583 k0_t39) a + S1x16.size a ≤ S200x128.size a
  k0_off584_inb : ∀ k0_t39 : Fin k0_t39_loop.trips, ∀ a, (k0_off584 k0_t39) a + S1x16.size a ≤ S200x128.size a
  k0_off585_inb : ∀ k0_t39 : Fin k0_t39_loop.trips, ∀ a, (k0_off585 k0_t39) a + S1x16.size a ≤ S200x128.size a
  k0_off586_inb : ∀ k0_t39 : Fin k0_t39_loop.trips, ∀ a, (k0_off586 k0_t39) a + S1x16.size a ≤ S200x128.size a
  k0_off587_inb : ∀ k0_t39 : Fin k0_t39_loop.trips, ∀ a, (k0_off587 k0_t39) a + S1x16.size a ≤ S200x128.size a
  k0_mult21_dvd : ∀ k0_t35 : Fin k0_t35_loop.trips, ∀ (k0_h17 : k0_cond17 k0_t35 = 1#1), 8 ∣ (k0_mult21 k0_t35).toNat
  k0_off588_inb : ∀ k0_t35 : Fin k0_t35_loop.trips, ∀ (k0_h17 : k0_cond17 k0_t35 = 1#1), ∀ a, (k0_off588 k0_t35) a + S200.size a ≤ S6400.size a
  k0_t40_ok : k0_t40_loop.OK
  k0_off589_inb : ∀ k0_t40 : Fin k0_t40_loop.trips, ∀ a, (k0_off589 k0_t40) a + S1x16.size a ≤ S200x128.size a
  k0_off590_inb : ∀ k0_t40 : Fin k0_t40_loop.trips, ∀ a, (k0_off590 k0_t40) a + S1x16.size a ≤ S200x128.size a
  k0_off591_inb : ∀ k0_t40 : Fin k0_t40_loop.trips, ∀ a, (k0_off591 k0_t40) a + S1x16.size a ≤ S200x128.size a
  k0_off592_inb : ∀ k0_t40 : Fin k0_t40_loop.trips, ∀ a, (k0_off592 k0_t40) a + S1x16.size a ≤ S200x128.size a
  k0_off593_inb : ∀ k0_t40 : Fin k0_t40_loop.trips, ∀ a, (k0_off593 k0_t40) a + S1x16.size a ≤ S200x128.size a
  k0_off594_inb : ∀ k0_t40 : Fin k0_t40_loop.trips, ∀ a, (k0_off594 k0_t40) a + S1x16.size a ≤ S200x128.size a
  k0_off595_inb : ∀ k0_t40 : Fin k0_t40_loop.trips, ∀ a, (k0_off595 k0_t40) a + S1x16.size a ≤ S200x128.size a
  k0_off596_inb : ∀ k0_t40 : Fin k0_t40_loop.trips, ∀ a, (k0_off596 k0_t40) a + S1x16.size a ≤ S200x128.size a
  k0_off597_inb : ∀ k0_t40 : Fin k0_t40_loop.trips, ∀ a, (k0_off597 k0_t40) a + S1x16.size a ≤ S200x128.size a
  k0_off598_inb : ∀ k0_t40 : Fin k0_t40_loop.trips, ∀ a, (k0_off598 k0_t40) a + S1x16.size a ≤ S200x128.size a
  k0_off599_inb : ∀ k0_t40 : Fin k0_t40_loop.trips, ∀ a, (k0_off599 k0_t40) a + S1x16.size a ≤ S200x128.size a
  k0_off600_inb : ∀ k0_t40 : Fin k0_t40_loop.trips, ∀ a, (k0_off600 k0_t40) a + S1x16.size a ≤ S200x128.size a
  k0_off601_inb : ∀ k0_t40 : Fin k0_t40_loop.trips, ∀ a, (k0_off601 k0_t40) a + S1x16.size a ≤ S200x128.size a
  k0_off602_inb : ∀ k0_t40 : Fin k0_t40_loop.trips, ∀ a, (k0_off602 k0_t40) a + S1x16.size a ≤ S200x128.size a
  k0_off603_inb : ∀ k0_t40 : Fin k0_t40_loop.trips, ∀ a, (k0_off603 k0_t40) a + S1x16.size a ≤ S200x128.size a
  k0_off604_inb : ∀ k0_t40 : Fin k0_t40_loop.trips, ∀ a, (k0_off604 k0_t40) a + S1x16.size a ≤ S200x128.size a
  k0_t41_ok : k0_t41_loop.OK
  k0_off605_inb : ∀ k0_t41 : Fin k0_t41_loop.trips, ∀ a, (k0_off605 k0_t41) a + S1x16.size a ≤ S200x128.size a
  k0_off606_inb : ∀ k0_t41 : Fin k0_t41_loop.trips, ∀ a, (k0_off606 k0_t41) a + S1x16.size a ≤ S200x128.size a
  k0_off607_inb : ∀ k0_t41 : Fin k0_t41_loop.trips, ∀ a, (k0_off607 k0_t41) a + S1x16.size a ≤ S200x128.size a
  k0_off608_inb : ∀ k0_t41 : Fin k0_t41_loop.trips, ∀ a, (k0_off608 k0_t41) a + S1x16.size a ≤ S200x128.size a
  k0_off609_inb : ∀ k0_t41 : Fin k0_t41_loop.trips, ∀ a, (k0_off609 k0_t41) a + S1x16.size a ≤ S200x128.size a
  k0_off610_inb : ∀ k0_t41 : Fin k0_t41_loop.trips, ∀ a, (k0_off610 k0_t41) a + S1x16.size a ≤ S200x128.size a
  k0_off611_inb : ∀ k0_t41 : Fin k0_t41_loop.trips, ∀ a, (k0_off611 k0_t41) a + S1x16.size a ≤ S200x128.size a
  k0_off612_inb : ∀ k0_t41 : Fin k0_t41_loop.trips, ∀ a, (k0_off612 k0_t41) a + S1x16.size a ≤ S200x128.size a
  k0_off613_inb : ∀ k0_t41 : Fin k0_t41_loop.trips, ∀ a, (k0_off613 k0_t41) a + S1x16.size a ≤ S200x128.size a
  k0_off614_inb : ∀ k0_t41 : Fin k0_t41_loop.trips, ∀ a, (k0_off614 k0_t41) a + S1x16.size a ≤ S200x128.size a
  k0_off615_inb : ∀ k0_t41 : Fin k0_t41_loop.trips, ∀ a, (k0_off615 k0_t41) a + S1x16.size a ≤ S200x128.size a
  k0_off616_inb : ∀ k0_t41 : Fin k0_t41_loop.trips, ∀ a, (k0_off616 k0_t41) a + S1x16.size a ≤ S200x128.size a
  k0_off617_inb : ∀ k0_t41 : Fin k0_t41_loop.trips, ∀ a, (k0_off617 k0_t41) a + S1x16.size a ≤ S200x128.size a
  k0_off618_inb : ∀ k0_t41 : Fin k0_t41_loop.trips, ∀ a, (k0_off618 k0_t41) a + S1x16.size a ≤ S200x128.size a
  k0_off619_inb : ∀ k0_t41 : Fin k0_t41_loop.trips, ∀ a, (k0_off619 k0_t41) a + S1x16.size a ≤ S200x128.size a
  k0_off620_inb : ∀ k0_t41 : Fin k0_t41_loop.trips, ∀ a, (k0_off620 k0_t41) a + S1x16.size a ≤ S200x128.size a
  k0_t42_ok : k0_t42_loop.OK
  k0_off621_inb : ∀ k0_t42 : Fin k0_t42_loop.trips, ∀ a, (k0_off621 k0_t42) a + S1x16.size a ≤ S200x128.size a
  k0_off622_inb : ∀ k0_t42 : Fin k0_t42_loop.trips, ∀ a, (k0_off622 k0_t42) a + S1x16.size a ≤ S200x128.size a
  k0_off623_inb : ∀ k0_t42 : Fin k0_t42_loop.trips, ∀ a, (k0_off623 k0_t42) a + S1x16.size a ≤ S200x128.size a
  k0_off624_inb : ∀ k0_t42 : Fin k0_t42_loop.trips, ∀ a, (k0_off624 k0_t42) a + S1x16.size a ≤ S200x128.size a
  k0_off625_inb : ∀ k0_t42 : Fin k0_t42_loop.trips, ∀ a, (k0_off625 k0_t42) a + S1x16.size a ≤ S200x128.size a
  k0_off626_inb : ∀ k0_t42 : Fin k0_t42_loop.trips, ∀ a, (k0_off626 k0_t42) a + S1x16.size a ≤ S200x128.size a
  k0_off627_inb : ∀ k0_t42 : Fin k0_t42_loop.trips, ∀ a, (k0_off627 k0_t42) a + S1x16.size a ≤ S200x128.size a
  k0_off628_inb : ∀ k0_t42 : Fin k0_t42_loop.trips, ∀ a, (k0_off628 k0_t42) a + S1x16.size a ≤ S200x128.size a
  k0_off629_inb : ∀ k0_t42 : Fin k0_t42_loop.trips, ∀ a, (k0_off629 k0_t42) a + S1x16.size a ≤ S200x128.size a
  k0_off630_inb : ∀ k0_t42 : Fin k0_t42_loop.trips, ∀ a, (k0_off630 k0_t42) a + S1x16.size a ≤ S200x128.size a
  k0_off631_inb : ∀ k0_t42 : Fin k0_t42_loop.trips, ∀ a, (k0_off631 k0_t42) a + S1x16.size a ≤ S200x128.size a
  k0_off632_inb : ∀ k0_t42 : Fin k0_t42_loop.trips, ∀ a, (k0_off632 k0_t42) a + S1x16.size a ≤ S200x128.size a
  k0_off633_inb : ∀ k0_t42 : Fin k0_t42_loop.trips, ∀ a, (k0_off633 k0_t42) a + S1x16.size a ≤ S200x128.size a
  k0_off634_inb : ∀ k0_t42 : Fin k0_t42_loop.trips, ∀ a, (k0_off634 k0_t42) a + S1x16.size a ≤ S200x128.size a
  k0_off635_inb : ∀ k0_t42 : Fin k0_t42_loop.trips, ∀ a, (k0_off635 k0_t42) a + S1x16.size a ≤ S200x128.size a
  k0_off636_inb : ∀ k0_t42 : Fin k0_t42_loop.trips, ∀ a, (k0_off636 k0_t42) a + S1x16.size a ≤ S200x128.size a
  k0_t43_ok : k0_t43_loop.OK
  k0_off637_inb : ∀ k0_t43 : Fin k0_t43_loop.trips, ∀ a, (k0_off637 k0_t43) a + S1x16.size a ≤ S200x128.size a
  k0_off638_inb : ∀ k0_t43 : Fin k0_t43_loop.trips, ∀ a, (k0_off638 k0_t43) a + S1x16.size a ≤ S200x128.size a
  k0_off639_inb : ∀ k0_t43 : Fin k0_t43_loop.trips, ∀ a, (k0_off639 k0_t43) a + S1x16.size a ≤ S200x128.size a
  k0_off640_inb : ∀ k0_t43 : Fin k0_t43_loop.trips, ∀ a, (k0_off640 k0_t43) a + S1x16.size a ≤ S200x128.size a
  k0_off641_inb : ∀ k0_t43 : Fin k0_t43_loop.trips, ∀ a, (k0_off641 k0_t43) a + S1x16.size a ≤ S200x128.size a
  k0_off642_inb : ∀ k0_t43 : Fin k0_t43_loop.trips, ∀ a, (k0_off642 k0_t43) a + S1x16.size a ≤ S200x128.size a
  k0_off643_inb : ∀ k0_t43 : Fin k0_t43_loop.trips, ∀ a, (k0_off643 k0_t43) a + S1x16.size a ≤ S200x128.size a
  k0_off644_inb : ∀ k0_t43 : Fin k0_t43_loop.trips, ∀ a, (k0_off644 k0_t43) a + S1x16.size a ≤ S200x128.size a
  k0_off645_inb : ∀ k0_t43 : Fin k0_t43_loop.trips, ∀ a, (k0_off645 k0_t43) a + S1x16.size a ≤ S200x128.size a
  k0_off646_inb : ∀ k0_t43 : Fin k0_t43_loop.trips, ∀ a, (k0_off646 k0_t43) a + S1x16.size a ≤ S200x128.size a
  k0_off647_inb : ∀ k0_t43 : Fin k0_t43_loop.trips, ∀ a, (k0_off647 k0_t43) a + S1x16.size a ≤ S200x128.size a
  k0_off648_inb : ∀ k0_t43 : Fin k0_t43_loop.trips, ∀ a, (k0_off648 k0_t43) a + S1x16.size a ≤ S200x128.size a
  k0_off649_inb : ∀ k0_t43 : Fin k0_t43_loop.trips, ∀ a, (k0_off649 k0_t43) a + S1x16.size a ≤ S200x128.size a
  k0_off650_inb : ∀ k0_t43 : Fin k0_t43_loop.trips, ∀ a, (k0_off650 k0_t43) a + S1x16.size a ≤ S200x128.size a
  k0_off651_inb : ∀ k0_t43 : Fin k0_t43_loop.trips, ∀ a, (k0_off651 k0_t43) a + S1x16.size a ≤ S200x128.size a
  k0_off652_inb : ∀ k0_t43 : Fin k0_t43_loop.trips, ∀ a, (k0_off652 k0_t43) a + S1x16.size a ≤ S200x128.size a
  k0_mult22_dvd : ∀ k0_t35 : Fin k0_t35_loop.trips, ∀ (k0_h18 : k0_cond18 k0_t35 = 1#1), 8 ∣ (k0_mult22 k0_t35).toNat
  k0_off653_inb : ∀ k0_t35 : Fin k0_t35_loop.trips, ∀ (k0_h18 : k0_cond18 k0_t35 = 1#1), ∀ a, (k0_off653 k0_t35) a + S200.size a ≤ S6400.size a
  k0_t44_ok : k0_t44_loop.OK
  k0_off654_inb : ∀ k0_t44 : Fin k0_t44_loop.trips, ∀ a, (k0_off654 k0_t44) a + S1x16.size a ≤ S200x128.size a
  k0_off655_inb : ∀ k0_t44 : Fin k0_t44_loop.trips, ∀ a, (k0_off655 k0_t44) a + S1x16.size a ≤ S200x128.size a
  k0_off656_inb : ∀ k0_t44 : Fin k0_t44_loop.trips, ∀ a, (k0_off656 k0_t44) a + S1x16.size a ≤ S200x128.size a
  k0_off657_inb : ∀ k0_t44 : Fin k0_t44_loop.trips, ∀ a, (k0_off657 k0_t44) a + S1x16.size a ≤ S200x128.size a
  k0_off658_inb : ∀ k0_t44 : Fin k0_t44_loop.trips, ∀ a, (k0_off658 k0_t44) a + S1x16.size a ≤ S200x128.size a
  k0_off659_inb : ∀ k0_t44 : Fin k0_t44_loop.trips, ∀ a, (k0_off659 k0_t44) a + S1x16.size a ≤ S200x128.size a
  k0_off660_inb : ∀ k0_t44 : Fin k0_t44_loop.trips, ∀ a, (k0_off660 k0_t44) a + S1x16.size a ≤ S200x128.size a
  k0_off661_inb : ∀ k0_t44 : Fin k0_t44_loop.trips, ∀ a, (k0_off661 k0_t44) a + S1x16.size a ≤ S200x128.size a
  k0_off662_inb : ∀ k0_t44 : Fin k0_t44_loop.trips, ∀ a, (k0_off662 k0_t44) a + S1x16.size a ≤ S200x128.size a
  k0_off663_inb : ∀ k0_t44 : Fin k0_t44_loop.trips, ∀ a, (k0_off663 k0_t44) a + S1x16.size a ≤ S200x128.size a
  k0_off664_inb : ∀ k0_t44 : Fin k0_t44_loop.trips, ∀ a, (k0_off664 k0_t44) a + S1x16.size a ≤ S200x128.size a
  k0_off665_inb : ∀ k0_t44 : Fin k0_t44_loop.trips, ∀ a, (k0_off665 k0_t44) a + S1x16.size a ≤ S200x128.size a
  k0_off666_inb : ∀ k0_t44 : Fin k0_t44_loop.trips, ∀ a, (k0_off666 k0_t44) a + S1x16.size a ≤ S200x128.size a
  k0_off667_inb : ∀ k0_t44 : Fin k0_t44_loop.trips, ∀ a, (k0_off667 k0_t44) a + S1x16.size a ≤ S200x128.size a
  k0_off668_inb : ∀ k0_t44 : Fin k0_t44_loop.trips, ∀ a, (k0_off668 k0_t44) a + S1x16.size a ≤ S200x128.size a
  k0_off669_inb : ∀ k0_t44 : Fin k0_t44_loop.trips, ∀ a, (k0_off669 k0_t44) a + S1x16.size a ≤ S200x128.size a
  k0_t45_ok : k0_t45_loop.OK
  k0_off670_inb : ∀ k0_t45 : Fin k0_t45_loop.trips, ∀ a, (k0_off670 k0_t45) a + S1x16.size a ≤ S200x128.size a
  k0_off671_inb : ∀ k0_t45 : Fin k0_t45_loop.trips, ∀ a, (k0_off671 k0_t45) a + S1x16.size a ≤ S200x128.size a
  k0_off672_inb : ∀ k0_t45 : Fin k0_t45_loop.trips, ∀ a, (k0_off672 k0_t45) a + S1x16.size a ≤ S200x128.size a
  k0_off673_inb : ∀ k0_t45 : Fin k0_t45_loop.trips, ∀ a, (k0_off673 k0_t45) a + S1x16.size a ≤ S200x128.size a
  k0_off674_inb : ∀ k0_t45 : Fin k0_t45_loop.trips, ∀ a, (k0_off674 k0_t45) a + S1x16.size a ≤ S200x128.size a
  k0_off675_inb : ∀ k0_t45 : Fin k0_t45_loop.trips, ∀ a, (k0_off675 k0_t45) a + S1x16.size a ≤ S200x128.size a
  k0_off676_inb : ∀ k0_t45 : Fin k0_t45_loop.trips, ∀ a, (k0_off676 k0_t45) a + S1x16.size a ≤ S200x128.size a
  k0_off677_inb : ∀ k0_t45 : Fin k0_t45_loop.trips, ∀ a, (k0_off677 k0_t45) a + S1x16.size a ≤ S200x128.size a
  k0_off678_inb : ∀ k0_t45 : Fin k0_t45_loop.trips, ∀ a, (k0_off678 k0_t45) a + S1x16.size a ≤ S200x128.size a
  k0_off679_inb : ∀ k0_t45 : Fin k0_t45_loop.trips, ∀ a, (k0_off679 k0_t45) a + S1x16.size a ≤ S200x128.size a
  k0_off680_inb : ∀ k0_t45 : Fin k0_t45_loop.trips, ∀ a, (k0_off680 k0_t45) a + S1x16.size a ≤ S200x128.size a
  k0_off681_inb : ∀ k0_t45 : Fin k0_t45_loop.trips, ∀ a, (k0_off681 k0_t45) a + S1x16.size a ≤ S200x128.size a
  k0_off682_inb : ∀ k0_t45 : Fin k0_t45_loop.trips, ∀ a, (k0_off682 k0_t45) a + S1x16.size a ≤ S200x128.size a
  k0_off683_inb : ∀ k0_t45 : Fin k0_t45_loop.trips, ∀ a, (k0_off683 k0_t45) a + S1x16.size a ≤ S200x128.size a
  k0_off684_inb : ∀ k0_t45 : Fin k0_t45_loop.trips, ∀ a, (k0_off684 k0_t45) a + S1x16.size a ≤ S200x128.size a
  k0_off685_inb : ∀ k0_t45 : Fin k0_t45_loop.trips, ∀ a, (k0_off685 k0_t45) a + S1x16.size a ≤ S200x128.size a
  k0_t46_ok : k0_t46_loop.OK
  k0_off686_inb : ∀ k0_t46 : Fin k0_t46_loop.trips, ∀ a, (k0_off686 k0_t46) a + S1x16.size a ≤ S200x128.size a
  k0_off687_inb : ∀ k0_t46 : Fin k0_t46_loop.trips, ∀ a, (k0_off687 k0_t46) a + S1x16.size a ≤ S200x128.size a
  k0_off688_inb : ∀ k0_t46 : Fin k0_t46_loop.trips, ∀ a, (k0_off688 k0_t46) a + S1x16.size a ≤ S200x128.size a
  k0_off689_inb : ∀ k0_t46 : Fin k0_t46_loop.trips, ∀ a, (k0_off689 k0_t46) a + S1x16.size a ≤ S200x128.size a
  k0_off690_inb : ∀ k0_t46 : Fin k0_t46_loop.trips, ∀ a, (k0_off690 k0_t46) a + S1x16.size a ≤ S200x128.size a
  k0_off691_inb : ∀ k0_t46 : Fin k0_t46_loop.trips, ∀ a, (k0_off691 k0_t46) a + S1x16.size a ≤ S200x128.size a
  k0_off692_inb : ∀ k0_t46 : Fin k0_t46_loop.trips, ∀ a, (k0_off692 k0_t46) a + S1x16.size a ≤ S200x128.size a
  k0_off693_inb : ∀ k0_t46 : Fin k0_t46_loop.trips, ∀ a, (k0_off693 k0_t46) a + S1x16.size a ≤ S200x128.size a
  k0_off694_inb : ∀ k0_t46 : Fin k0_t46_loop.trips, ∀ a, (k0_off694 k0_t46) a + S1x16.size a ≤ S200x128.size a
  k0_off695_inb : ∀ k0_t46 : Fin k0_t46_loop.trips, ∀ a, (k0_off695 k0_t46) a + S1x16.size a ≤ S200x128.size a
  k0_off696_inb : ∀ k0_t46 : Fin k0_t46_loop.trips, ∀ a, (k0_off696 k0_t46) a + S1x16.size a ≤ S200x128.size a
  k0_off697_inb : ∀ k0_t46 : Fin k0_t46_loop.trips, ∀ a, (k0_off697 k0_t46) a + S1x16.size a ≤ S200x128.size a
  k0_off698_inb : ∀ k0_t46 : Fin k0_t46_loop.trips, ∀ a, (k0_off698 k0_t46) a + S1x16.size a ≤ S200x128.size a
  k0_off699_inb : ∀ k0_t46 : Fin k0_t46_loop.trips, ∀ a, (k0_off699 k0_t46) a + S1x16.size a ≤ S200x128.size a
  k0_off700_inb : ∀ k0_t46 : Fin k0_t46_loop.trips, ∀ a, (k0_off700 k0_t46) a + S1x16.size a ≤ S200x128.size a
  k0_off701_inb : ∀ k0_t46 : Fin k0_t46_loop.trips, ∀ a, (k0_off701 k0_t46) a + S1x16.size a ≤ S200x128.size a
  k0_t47_ok : k0_t47_loop.OK
  k0_off702_inb : ∀ k0_t47 : Fin k0_t47_loop.trips, ∀ a, (k0_off702 k0_t47) a + S1x16.size a ≤ S200x128.size a
  k0_off703_inb : ∀ k0_t47 : Fin k0_t47_loop.trips, ∀ a, (k0_off703 k0_t47) a + S1x16.size a ≤ S200x128.size a
  k0_off704_inb : ∀ k0_t47 : Fin k0_t47_loop.trips, ∀ a, (k0_off704 k0_t47) a + S1x16.size a ≤ S200x128.size a
  k0_off705_inb : ∀ k0_t47 : Fin k0_t47_loop.trips, ∀ a, (k0_off705 k0_t47) a + S1x16.size a ≤ S200x128.size a
  k0_off706_inb : ∀ k0_t47 : Fin k0_t47_loop.trips, ∀ a, (k0_off706 k0_t47) a + S1x16.size a ≤ S200x128.size a
  k0_off707_inb : ∀ k0_t47 : Fin k0_t47_loop.trips, ∀ a, (k0_off707 k0_t47) a + S1x16.size a ≤ S200x128.size a
  k0_off708_inb : ∀ k0_t47 : Fin k0_t47_loop.trips, ∀ a, (k0_off708 k0_t47) a + S1x16.size a ≤ S200x128.size a
  k0_off709_inb : ∀ k0_t47 : Fin k0_t47_loop.trips, ∀ a, (k0_off709 k0_t47) a + S1x16.size a ≤ S200x128.size a
  k0_off710_inb : ∀ k0_t47 : Fin k0_t47_loop.trips, ∀ a, (k0_off710 k0_t47) a + S1x16.size a ≤ S200x128.size a
  k0_off711_inb : ∀ k0_t47 : Fin k0_t47_loop.trips, ∀ a, (k0_off711 k0_t47) a + S1x16.size a ≤ S200x128.size a
  k0_off712_inb : ∀ k0_t47 : Fin k0_t47_loop.trips, ∀ a, (k0_off712 k0_t47) a + S1x16.size a ≤ S200x128.size a
  k0_off713_inb : ∀ k0_t47 : Fin k0_t47_loop.trips, ∀ a, (k0_off713 k0_t47) a + S1x16.size a ≤ S200x128.size a
  k0_off714_inb : ∀ k0_t47 : Fin k0_t47_loop.trips, ∀ a, (k0_off714 k0_t47) a + S1x16.size a ≤ S200x128.size a
  k0_off715_inb : ∀ k0_t47 : Fin k0_t47_loop.trips, ∀ a, (k0_off715 k0_t47) a + S1x16.size a ≤ S200x128.size a
  k0_off716_inb : ∀ k0_t47 : Fin k0_t47_loop.trips, ∀ a, (k0_off716 k0_t47) a + S1x16.size a ≤ S200x128.size a
  k0_off717_inb : ∀ k0_t47 : Fin k0_t47_loop.trips, ∀ a, (k0_off717 k0_t47) a + S1x16.size a ≤ S200x128.size a
  k0_mult23_dvd : ∀ k0_t35 : Fin k0_t35_loop.trips, ∀ (k0_h19 : k0_cond19 k0_t35 = 1#1), 8 ∣ (k0_mult23 k0_t35).toNat
  k0_off718_inb : ∀ k0_t35 : Fin k0_t35_loop.trips, ∀ (k0_h19 : k0_cond19 k0_t35 = 1#1), ∀ a, (k0_off718 k0_t35) a + S200.size a ≤ S6400.size a
  k0_t48_ok : k0_t48_loop.OK
  k0_off719_inb : ∀ k0_t48 : Fin k0_t48_loop.trips, ∀ a, (k0_off719 k0_t48) a + S1x16.size a ≤ S200x128.size a
  k0_off720_inb : ∀ k0_t48 : Fin k0_t48_loop.trips, ∀ a, (k0_off720 k0_t48) a + S1x16.size a ≤ S200x128.size a
  k0_off721_inb : ∀ k0_t48 : Fin k0_t48_loop.trips, ∀ a, (k0_off721 k0_t48) a + S1x16.size a ≤ S200x128.size a
  k0_off722_inb : ∀ k0_t48 : Fin k0_t48_loop.trips, ∀ a, (k0_off722 k0_t48) a + S1x16.size a ≤ S200x128.size a
  k0_off723_inb : ∀ k0_t48 : Fin k0_t48_loop.trips, ∀ a, (k0_off723 k0_t48) a + S1x16.size a ≤ S200x128.size a
  k0_off724_inb : ∀ k0_t48 : Fin k0_t48_loop.trips, ∀ a, (k0_off724 k0_t48) a + S1x16.size a ≤ S200x128.size a
  k0_off725_inb : ∀ k0_t48 : Fin k0_t48_loop.trips, ∀ a, (k0_off725 k0_t48) a + S1x16.size a ≤ S200x128.size a
  k0_off726_inb : ∀ k0_t48 : Fin k0_t48_loop.trips, ∀ a, (k0_off726 k0_t48) a + S1x16.size a ≤ S200x128.size a
  k0_off727_inb : ∀ k0_t48 : Fin k0_t48_loop.trips, ∀ a, (k0_off727 k0_t48) a + S1x16.size a ≤ S200x128.size a
  k0_off728_inb : ∀ k0_t48 : Fin k0_t48_loop.trips, ∀ a, (k0_off728 k0_t48) a + S1x16.size a ≤ S200x128.size a
  k0_off729_inb : ∀ k0_t48 : Fin k0_t48_loop.trips, ∀ a, (k0_off729 k0_t48) a + S1x16.size a ≤ S200x128.size a
  k0_off730_inb : ∀ k0_t48 : Fin k0_t48_loop.trips, ∀ a, (k0_off730 k0_t48) a + S1x16.size a ≤ S200x128.size a
  k0_off731_inb : ∀ k0_t48 : Fin k0_t48_loop.trips, ∀ a, (k0_off731 k0_t48) a + S1x16.size a ≤ S200x128.size a
  k0_off732_inb : ∀ k0_t48 : Fin k0_t48_loop.trips, ∀ a, (k0_off732 k0_t48) a + S1x16.size a ≤ S200x128.size a
  k0_off733_inb : ∀ k0_t48 : Fin k0_t48_loop.trips, ∀ a, (k0_off733 k0_t48) a + S1x16.size a ≤ S200x128.size a
  k0_off734_inb : ∀ k0_t48 : Fin k0_t48_loop.trips, ∀ a, (k0_off734 k0_t48) a + S1x16.size a ≤ S200x128.size a
  k0_t49_ok : k0_t49_loop.OK
  k0_off735_inb : ∀ k0_t49 : Fin k0_t49_loop.trips, ∀ a, (k0_off735 k0_t49) a + S1x16.size a ≤ S200x128.size a
  k0_off736_inb : ∀ k0_t49 : Fin k0_t49_loop.trips, ∀ a, (k0_off736 k0_t49) a + S1x16.size a ≤ S200x128.size a
  k0_off737_inb : ∀ k0_t49 : Fin k0_t49_loop.trips, ∀ a, (k0_off737 k0_t49) a + S1x16.size a ≤ S200x128.size a
  k0_off738_inb : ∀ k0_t49 : Fin k0_t49_loop.trips, ∀ a, (k0_off738 k0_t49) a + S1x16.size a ≤ S200x128.size a
  k0_off739_inb : ∀ k0_t49 : Fin k0_t49_loop.trips, ∀ a, (k0_off739 k0_t49) a + S1x16.size a ≤ S200x128.size a
  k0_off740_inb : ∀ k0_t49 : Fin k0_t49_loop.trips, ∀ a, (k0_off740 k0_t49) a + S1x16.size a ≤ S200x128.size a
  k0_off741_inb : ∀ k0_t49 : Fin k0_t49_loop.trips, ∀ a, (k0_off741 k0_t49) a + S1x16.size a ≤ S200x128.size a
  k0_off742_inb : ∀ k0_t49 : Fin k0_t49_loop.trips, ∀ a, (k0_off742 k0_t49) a + S1x16.size a ≤ S200x128.size a
  k0_off743_inb : ∀ k0_t49 : Fin k0_t49_loop.trips, ∀ a, (k0_off743 k0_t49) a + S1x16.size a ≤ S200x128.size a
  k0_off744_inb : ∀ k0_t49 : Fin k0_t49_loop.trips, ∀ a, (k0_off744 k0_t49) a + S1x16.size a ≤ S200x128.size a
  k0_off745_inb : ∀ k0_t49 : Fin k0_t49_loop.trips, ∀ a, (k0_off745 k0_t49) a + S1x16.size a ≤ S200x128.size a
  k0_off746_inb : ∀ k0_t49 : Fin k0_t49_loop.trips, ∀ a, (k0_off746 k0_t49) a + S1x16.size a ≤ S200x128.size a
  k0_off747_inb : ∀ k0_t49 : Fin k0_t49_loop.trips, ∀ a, (k0_off747 k0_t49) a + S1x16.size a ≤ S200x128.size a
  k0_off748_inb : ∀ k0_t49 : Fin k0_t49_loop.trips, ∀ a, (k0_off748 k0_t49) a + S1x16.size a ≤ S200x128.size a
  k0_off749_inb : ∀ k0_t49 : Fin k0_t49_loop.trips, ∀ a, (k0_off749 k0_t49) a + S1x16.size a ≤ S200x128.size a
  k0_off750_inb : ∀ k0_t49 : Fin k0_t49_loop.trips, ∀ a, (k0_off750 k0_t49) a + S1x16.size a ≤ S200x128.size a
  k0_t50_ok : k0_t50_loop.OK
  k0_off751_inb : ∀ k0_t50 : Fin k0_t50_loop.trips, ∀ a, (k0_off751 k0_t50) a + S1x16.size a ≤ S200x128.size a
  k0_off752_inb : ∀ k0_t50 : Fin k0_t50_loop.trips, ∀ a, (k0_off752 k0_t50) a + S1x16.size a ≤ S200x128.size a
  k0_off753_inb : ∀ k0_t50 : Fin k0_t50_loop.trips, ∀ a, (k0_off753 k0_t50) a + S1x16.size a ≤ S200x128.size a
  k0_off754_inb : ∀ k0_t50 : Fin k0_t50_loop.trips, ∀ a, (k0_off754 k0_t50) a + S1x16.size a ≤ S200x128.size a
  k0_off755_inb : ∀ k0_t50 : Fin k0_t50_loop.trips, ∀ a, (k0_off755 k0_t50) a + S1x16.size a ≤ S200x128.size a
  k0_off756_inb : ∀ k0_t50 : Fin k0_t50_loop.trips, ∀ a, (k0_off756 k0_t50) a + S1x16.size a ≤ S200x128.size a
  k0_off757_inb : ∀ k0_t50 : Fin k0_t50_loop.trips, ∀ a, (k0_off757 k0_t50) a + S1x16.size a ≤ S200x128.size a
  k0_off758_inb : ∀ k0_t50 : Fin k0_t50_loop.trips, ∀ a, (k0_off758 k0_t50) a + S1x16.size a ≤ S200x128.size a
  k0_off759_inb : ∀ k0_t50 : Fin k0_t50_loop.trips, ∀ a, (k0_off759 k0_t50) a + S1x16.size a ≤ S200x128.size a
  k0_off760_inb : ∀ k0_t50 : Fin k0_t50_loop.trips, ∀ a, (k0_off760 k0_t50) a + S1x16.size a ≤ S200x128.size a
  k0_off761_inb : ∀ k0_t50 : Fin k0_t50_loop.trips, ∀ a, (k0_off761 k0_t50) a + S1x16.size a ≤ S200x128.size a
  k0_off762_inb : ∀ k0_t50 : Fin k0_t50_loop.trips, ∀ a, (k0_off762 k0_t50) a + S1x16.size a ≤ S200x128.size a
  k0_off763_inb : ∀ k0_t50 : Fin k0_t50_loop.trips, ∀ a, (k0_off763 k0_t50) a + S1x16.size a ≤ S200x128.size a
  k0_off764_inb : ∀ k0_t50 : Fin k0_t50_loop.trips, ∀ a, (k0_off764 k0_t50) a + S1x16.size a ≤ S200x128.size a
  k0_off765_inb : ∀ k0_t50 : Fin k0_t50_loop.trips, ∀ a, (k0_off765 k0_t50) a + S1x16.size a ≤ S200x128.size a
  k0_off766_inb : ∀ k0_t50 : Fin k0_t50_loop.trips, ∀ a, (k0_off766 k0_t50) a + S1x16.size a ≤ S200x128.size a
  k0_t51_ok : k0_t51_loop.OK
  k0_off767_inb : ∀ k0_t51 : Fin k0_t51_loop.trips, ∀ a, (k0_off767 k0_t51) a + S1x16.size a ≤ S200x128.size a
  k0_off768_inb : ∀ k0_t51 : Fin k0_t51_loop.trips, ∀ a, (k0_off768 k0_t51) a + S1x16.size a ≤ S200x128.size a
  k0_off769_inb : ∀ k0_t51 : Fin k0_t51_loop.trips, ∀ a, (k0_off769 k0_t51) a + S1x16.size a ≤ S200x128.size a
  k0_off770_inb : ∀ k0_t51 : Fin k0_t51_loop.trips, ∀ a, (k0_off770 k0_t51) a + S1x16.size a ≤ S200x128.size a
  k0_off771_inb : ∀ k0_t51 : Fin k0_t51_loop.trips, ∀ a, (k0_off771 k0_t51) a + S1x16.size a ≤ S200x128.size a
  k0_off772_inb : ∀ k0_t51 : Fin k0_t51_loop.trips, ∀ a, (k0_off772 k0_t51) a + S1x16.size a ≤ S200x128.size a
  k0_off773_inb : ∀ k0_t51 : Fin k0_t51_loop.trips, ∀ a, (k0_off773 k0_t51) a + S1x16.size a ≤ S200x128.size a
  k0_off774_inb : ∀ k0_t51 : Fin k0_t51_loop.trips, ∀ a, (k0_off774 k0_t51) a + S1x16.size a ≤ S200x128.size a
  k0_off775_inb : ∀ k0_t51 : Fin k0_t51_loop.trips, ∀ a, (k0_off775 k0_t51) a + S1x16.size a ≤ S200x128.size a
  k0_off776_inb : ∀ k0_t51 : Fin k0_t51_loop.trips, ∀ a, (k0_off776 k0_t51) a + S1x16.size a ≤ S200x128.size a
  k0_off777_inb : ∀ k0_t51 : Fin k0_t51_loop.trips, ∀ a, (k0_off777 k0_t51) a + S1x16.size a ≤ S200x128.size a
  k0_off778_inb : ∀ k0_t51 : Fin k0_t51_loop.trips, ∀ a, (k0_off778 k0_t51) a + S1x16.size a ≤ S200x128.size a
  k0_off779_inb : ∀ k0_t51 : Fin k0_t51_loop.trips, ∀ a, (k0_off779 k0_t51) a + S1x16.size a ≤ S200x128.size a
  k0_off780_inb : ∀ k0_t51 : Fin k0_t51_loop.trips, ∀ a, (k0_off780 k0_t51) a + S1x16.size a ≤ S200x128.size a
  k0_off781_inb : ∀ k0_t51 : Fin k0_t51_loop.trips, ∀ a, (k0_off781 k0_t51) a + S1x16.size a ≤ S200x128.size a
  k0_off782_inb : ∀ k0_t51 : Fin k0_t51_loop.trips, ∀ a, (k0_off782 k0_t51) a + S1x16.size a ≤ S200x128.size a
  k0_mult24_dvd : ∀ k0_t35 : Fin k0_t35_loop.trips, ∀ (k0_h20 : k0_cond20 k0_t35 = 1#1), 8 ∣ (k0_mult24 k0_t35).toNat
  k0_off783_inb : ∀ k0_t35 : Fin k0_t35_loop.trips, ∀ (k0_h20 : k0_cond20 k0_t35 = 1#1), ∀ a, (k0_off783 k0_t35) a + S200.size a ≤ S6400.size a
  k0_off784_inb : ∀ (i : grid0.Coords) (k0_t35 : Fin k0_t35_loop.trips), ∀ a, (k0_off784 i k0_t35) a + S1x16x128.size a ≤ S3x4096x128.size a

class K1.Facts₀ : Prop where
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x512x128.size a ≤ S3x4096x128.size a
  hwx1_0 : ∀ i : grid1.Coords, EltTy.bits .f32 = 32 ∨ (Rect.block (s := S3x4096x128) S3x512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x128x256.size a ≤ S3x128x256.size a
  hwx1_1 : ∀ i : grid1.Coords, EltTy.bits .f32 = 32 ∨ (Rect.block (s := S3x128x256) S3x128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S4096x128.size a
  hwx1_5 : ∀ i : grid1.Coords, EltTy.bits .f32 = 32 ∨ (Rect.block (s := S4096x128) S512x128.size (cc1_transform_5 i) (hinb1_5 i)).WholeWords (EltTy.packing .f32)

class Shapes1.Facts₀ : Prop where
  shapeCasts_S4x4096x50_S819200 : S4x4096x50.ShapeCasts S819200
  inb_S6400_S200_0 : ∀ a, (![0] : Fin 1 → Nat) a + S200.size a ≤ S6400.size a
  inb_S100000x128_S100000x128_0_0 : ∀ a, (![0, 0] : Fin 2 → Nat) a + S100000x128.size a ≤ S100000x128.size a
  gathers_S100000x128_S200x128 : S100000x128.Gathers 0 S200x128
  inb_S6400_S200_200 : ∀ a, (![200] : Fin 1 → Nat) a + S200.size a ≤ S6400.size a
  inb_S6400_S200_400 : ∀ a, (![400] : Fin 1 → Nat) a + S200.size a ≤ S6400.size a
  inb_S6400_S200_600 : ∀ a, (![600] : Fin 1 → Nat) a + S200.size a ≤ S6400.size a
  h_S1x16 : 0 < S1x16.numel
  shapeCasts_S1x16_S16 : S1x16.ShapeCasts S16
  inb_S16x128_S1x16_0_0 : ∀ a, (![0, 0] : Fin 2 → Nat) a + S1x16.size a ≤ S16x128.size a
  shapeCasts_S16_S1x16 : S16.ShapeCasts S1x16
  inb_S16x128_S1x16_0_16 : ∀ a, (![0, 16] : Fin 2 → Nat) a + S1x16.size a ≤ S16x128.size a
  inb_S16x128_S1x16_0_32 : ∀ a, (![0, 32] : Fin 2 → Nat) a + S1x16.size a ≤ S16x128.size a
  inb_S16x128_S1x16_0_48 : ∀ a, (![0, 48] : Fin 2 → Nat) a + S1x16.size a ≤ S16x128.size a
  inb_S16x128_S1x16_0_64 : ∀ a, (![0, 64] : Fin 2 → Nat) a + S1x16.size a ≤ S16x128.size a
  inb_S16x128_S1x16_0_80 : ∀ a, (![0, 80] : Fin 2 → Nat) a + S1x16.size a ≤ S16x128.size a
  inb_S16x128_S1x16_0_96 : ∀ a, (![0, 96] : Fin 2 → Nat) a + S1x16.size a ≤ S16x128.size a
  inb_S16x128_S1x16_0_112 : ∀ a, (![0, 112] : Fin 2 → Nat) a + S1x16.size a ≤ S16x128.size a
  inb_S16x128_S1x16_1_0 : ∀ a, (![1, 0] : Fin 2 → Nat) a + S1x16.size a ≤ S16x128.size a
  inb_S16x128_S1x16_1_16 : ∀ a, (![1, 16] : Fin 2 → Nat) a + S1x16.size a ≤ S16x128.size a
  inb_S16x128_S1x16_1_32 : ∀ a, (![1, 32] : Fin 2 → Nat) a + S1x16.size a ≤ S16x128.size a
  inb_S16x128_S1x16_1_48 : ∀ a, (![1, 48] : Fin 2 → Nat) a + S1x16.size a ≤ S16x128.size a
  inb_S16x128_S1x16_1_64 : ∀ a, (![1, 64] : Fin 2 → Nat) a + S1x16.size a ≤ S16x128.size a
  inb_S16x128_S1x16_1_80 : ∀ a, (![1, 80] : Fin 2 → Nat) a + S1x16.size a ≤ S16x128.size a
  inb_S16x128_S1x16_1_96 : ∀ a, (![1, 96] : Fin 2 → Nat) a + S1x16.size a ≤ S16x128.size a
  inb_S16x128_S1x16_1_112 : ∀ a, (![1, 112] : Fin 2 → Nat) a + S1x16.size a ≤ S16x128.size a
  inb_S16x128_S1x16_2_0 : ∀ a, (![2, 0] : Fin 2 → Nat) a + S1x16.size a ≤ S16x128.size a
  inb_S16x128_S1x16_2_16 : ∀ a, (![2, 16] : Fin 2 → Nat) a + S1x16.size a ≤ S16x128.size a
  inb_S16x128_S1x16_2_32 : ∀ a, (![2, 32] : Fin 2 → Nat) a + S1x16.size a ≤ S16x128.size a
  inb_S16x128_S1x16_2_48 : ∀ a, (![2, 48] : Fin 2 → Nat) a + S1x16.size a ≤ S16x128.size a
  inb_S16x128_S1x16_2_64 : ∀ a, (![2, 64] : Fin 2 → Nat) a + S1x16.size a ≤ S16x128.size a
  inb_S16x128_S1x16_2_80 : ∀ a, (![2, 80] : Fin 2 → Nat) a + S1x16.size a ≤ S16x128.size a
  inb_S16x128_S1x16_2_96 : ∀ a, (![2, 96] : Fin 2 → Nat) a + S1x16.size a ≤ S16x128.size a
  inb_S16x128_S1x16_2_112 : ∀ a, (![2, 112] : Fin 2 → Nat) a + S1x16.size a ≤ S16x128.size a
  inb_S16x128_S1x16_3_0 : ∀ a, (![3, 0] : Fin 2 → Nat) a + S1x16.size a ≤ S16x128.size a
  inb_S16x128_S1x16_3_16 : ∀ a, (![3, 16] : Fin 2 → Nat) a + S1x16.size a ≤ S16x128.size a
  inb_S16x128_S1x16_3_32 : ∀ a, (![3, 32] : Fin 2 → Nat) a + S1x16.size a ≤ S16x128.size a
  inb_S16x128_S1x16_3_48 : ∀ a, (![3, 48] : Fin 2 → Nat) a + S1x16.size a ≤ S16x128.size a
  inb_S16x128_S1x16_3_64 : ∀ a, (![3, 64] : Fin 2 → Nat) a + S1x16.size a ≤ S16x128.size a
  inb_S16x128_S1x16_3_80 : ∀ a, (![3, 80] : Fin 2 → Nat) a + S1x16.size a ≤ S16x128.size a
  inb_S16x128_S1x16_3_96 : ∀ a, (![3, 96] : Fin 2 → Nat) a + S1x16.size a ≤ S16x128.size a
  inb_S16x128_S1x16_3_112 : ∀ a, (![3, 112] : Fin 2 → Nat) a + S1x16.size a ≤ S16x128.size a
  inb_S16x128_S1x16_4_0 : ∀ a, (![4, 0] : Fin 2 → Nat) a + S1x16.size a ≤ S16x128.size a
  inb_S16x128_S1x16_4_16 : ∀ a, (![4, 16] : Fin 2 → Nat) a + S1x16.size a ≤ S16x128.size a
  inb_S16x128_S1x16_4_32 : ∀ a, (![4, 32] : Fin 2 → Nat) a + S1x16.size a ≤ S16x128.size a
  inb_S16x128_S1x16_4_48 : ∀ a, (![4, 48] : Fin 2 → Nat) a + S1x16.size a ≤ S16x128.size a
  inb_S16x128_S1x16_4_64 : ∀ a, (![4, 64] : Fin 2 → Nat) a + S1x16.size a ≤ S16x128.size a
  inb_S16x128_S1x16_4_80 : ∀ a, (![4, 80] : Fin 2 → Nat) a + S1x16.size a ≤ S16x128.size a
  inb_S16x128_S1x16_4_96 : ∀ a, (![4, 96] : Fin 2 → Nat) a + S1x16.size a ≤ S16x128.size a
  inb_S16x128_S1x16_4_112 : ∀ a, (![4, 112] : Fin 2 → Nat) a + S1x16.size a ≤ S16x128.size a
  inb_S16x128_S1x16_5_0 : ∀ a, (![5, 0] : Fin 2 → Nat) a + S1x16.size a ≤ S16x128.size a
  inb_S16x128_S1x16_5_16 : ∀ a, (![5, 16] : Fin 2 → Nat) a + S1x16.size a ≤ S16x128.size a
  inb_S16x128_S1x16_5_32 : ∀ a, (![5, 32] : Fin 2 → Nat) a + S1x16.size a ≤ S16x128.size a
  inb_S16x128_S1x16_5_48 : ∀ a, (![5, 48] : Fin 2 → Nat) a + S1x16.size a ≤ S16x128.size a
  inb_S16x128_S1x16_5_64 : ∀ a, (![5, 64] : Fin 2 → Nat) a + S1x16.size a ≤ S16x128.size a
  inb_S16x128_S1x16_5_80 : ∀ a, (![5, 80] : Fin 2 → Nat) a + S1x16.size a ≤ S16x128.size a
  inb_S16x128_S1x16_5_96 : ∀ a, (![5, 96] : Fin 2 → Nat) a + S1x16.size a ≤ S16x128.size a
  inb_S16x128_S1x16_5_112 : ∀ a, (![5, 112] : Fin 2 → Nat) a + S1x16.size a ≤ S16x128.size a
  inb_S16x128_S1x16_6_0 : ∀ a, (![6, 0] : Fin 2 → Nat) a + S1x16.size a ≤ S16x128.size a
  inb_S16x128_S1x16_6_16 : ∀ a, (![6, 16] : Fin 2 → Nat) a + S1x16.size a ≤ S16x128.size a
  inb_S16x128_S1x16_6_32 : ∀ a, (![6, 32] : Fin 2 → Nat) a + S1x16.size a ≤ S16x128.size a
  inb_S16x128_S1x16_6_48 : ∀ a, (![6, 48] : Fin 2 → Nat) a + S1x16.size a ≤ S16x128.size a
  inb_S16x128_S1x16_6_64 : ∀ a, (![6, 64] : Fin 2 → Nat) a + S1x16.size a ≤ S16x128.size a
  inb_S16x128_S1x16_6_80 : ∀ a, (![6, 80] : Fin 2 → Nat) a + S1x16.size a ≤ S16x128.size a
  inb_S16x128_S1x16_6_96 : ∀ a, (![6, 96] : Fin 2 → Nat) a + S1x16.size a ≤ S16x128.size a
  inb_S16x128_S1x16_6_112 : ∀ a, (![6, 112] : Fin 2 → Nat) a + S1x16.size a ≤ S16x128.size a
  inb_S16x128_S1x16_7_0 : ∀ a, (![7, 0] : Fin 2 → Nat) a + S1x16.size a ≤ S16x128.size a
  inb_S16x128_S1x16_7_16 : ∀ a, (![7, 16] : Fin 2 → Nat) a + S1x16.size a ≤ S16x128.size a
  inb_S16x128_S1x16_7_32 : ∀ a, (![7, 32] : Fin 2 → Nat) a + S1x16.size a ≤ S16x128.size a
  inb_S16x128_S1x16_7_48 : ∀ a, (![7, 48] : Fin 2 → Nat) a + S1x16.size a ≤ S16x128.size a
  inb_S16x128_S1x16_7_64 : ∀ a, (![7, 64] : Fin 2 → Nat) a + S1x16.size a ≤ S16x128.size a
  inb_S16x128_S1x16_7_80 : ∀ a, (![7, 80] : Fin 2 → Nat) a + S1x16.size a ≤ S16x128.size a
  inb_S16x128_S1x16_7_96 : ∀ a, (![7, 96] : Fin 2 → Nat) a + S1x16.size a ≤ S16x128.size a
  inb_S16x128_S1x16_7_112 : ∀ a, (![7, 112] : Fin 2 → Nat) a + S1x16.size a ≤ S16x128.size a
  inb_S16x128_S1x16_8_0 : ∀ a, (![8, 0] : Fin 2 → Nat) a + S1x16.size a ≤ S16x128.size a
  inb_S16x128_S1x16_8_16 : ∀ a, (![8, 16] : Fin 2 → Nat) a + S1x16.size a ≤ S16x128.size a
  inb_S16x128_S1x16_8_32 : ∀ a, (![8, 32] : Fin 2 → Nat) a + S1x16.size a ≤ S16x128.size a
  inb_S16x128_S1x16_8_48 : ∀ a, (![8, 48] : Fin 2 → Nat) a + S1x16.size a ≤ S16x128.size a
  inb_S16x128_S1x16_8_64 : ∀ a, (![8, 64] : Fin 2 → Nat) a + S1x16.size a ≤ S16x128.size a
  inb_S16x128_S1x16_8_80 : ∀ a, (![8, 80] : Fin 2 → Nat) a + S1x16.size a ≤ S16x128.size a
  inb_S16x128_S1x16_8_96 : ∀ a, (![8, 96] : Fin 2 → Nat) a + S1x16.size a ≤ S16x128.size a
  inb_S16x128_S1x16_8_112 : ∀ a, (![8, 112] : Fin 2 → Nat) a + S1x16.size a ≤ S16x128.size a
  inb_S16x128_S1x16_9_0 : ∀ a, (![9, 0] : Fin 2 → Nat) a + S1x16.size a ≤ S16x128.size a
  inb_S16x128_S1x16_9_16 : ∀ a, (![9, 16] : Fin 2 → Nat) a + S1x16.size a ≤ S16x128.size a
  inb_S16x128_S1x16_9_32 : ∀ a, (![9, 32] : Fin 2 → Nat) a + S1x16.size a ≤ S16x128.size a
  inb_S16x128_S1x16_9_48 : ∀ a, (![9, 48] : Fin 2 → Nat) a + S1x16.size a ≤ S16x128.size a
  inb_S16x128_S1x16_9_64 : ∀ a, (![9, 64] : Fin 2 → Nat) a + S1x16.size a ≤ S16x128.size a
  inb_S16x128_S1x16_9_80 : ∀ a, (![9, 80] : Fin 2 → Nat) a + S1x16.size a ≤ S16x128.size a
  inb_S16x128_S1x16_9_96 : ∀ a, (![9, 96] : Fin 2 → Nat) a + S1x16.size a ≤ S16x128.size a
  inb_S16x128_S1x16_9_112 : ∀ a, (![9, 112] : Fin 2 → Nat) a + S1x16.size a ≤ S16x128.size a
  inb_S16x128_S1x16_10_0 : ∀ a, (![10, 0] : Fin 2 → Nat) a + S1x16.size a ≤ S16x128.size a
  inb_S16x128_S1x16_10_16 : ∀ a, (![10, 16] : Fin 2 → Nat) a + S1x16.size a ≤ S16x128.size a
  inb_S16x128_S1x16_10_32 : ∀ a, (![10, 32] : Fin 2 → Nat) a + S1x16.size a ≤ S16x128.size a
  inb_S16x128_S1x16_10_48 : ∀ a, (![10, 48] : Fin 2 → Nat) a + S1x16.size a ≤ S16x128.size a
  inb_S16x128_S1x16_10_64 : ∀ a, (![10, 64] : Fin 2 → Nat) a + S1x16.size a ≤ S16x128.size a
  inb_S16x128_S1x16_10_80 : ∀ a, (![10, 80] : Fin 2 → Nat) a + S1x16.size a ≤ S16x128.size a
  inb_S16x128_S1x16_10_96 : ∀ a, (![10, 96] : Fin 2 → Nat) a + S1x16.size a ≤ S16x128.size a
  inb_S16x128_S1x16_10_112 : ∀ a, (![10, 112] : Fin 2 → Nat) a + S1x16.size a ≤ S16x128.size a
  inb_S16x128_S1x16_11_0 : ∀ a, (![11, 0] : Fin 2 → Nat) a + S1x16.size a ≤ S16x128.size a
  inb_S16x128_S1x16_11_16 : ∀ a, (![11, 16] : Fin 2 → Nat) a + S1x16.size a ≤ S16x128.size a
  inb_S16x128_S1x16_11_32 : ∀ a, (![11, 32] : Fin 2 → Nat) a + S1x16.size a ≤ S16x128.size a
  inb_S16x128_S1x16_11_48 : ∀ a, (![11, 48] : Fin 2 → Nat) a + S1x16.size a ≤ S16x128.size a
  inb_S16x128_S1x16_11_64 : ∀ a, (![11, 64] : Fin 2 → Nat) a + S1x16.size a ≤ S16x128.size a
  inb_S16x128_S1x16_11_80 : ∀ a, (![11, 80] : Fin 2 → Nat) a + S1x16.size a ≤ S16x128.size a
  inb_S16x128_S1x16_11_96 : ∀ a, (![11, 96] : Fin 2 → Nat) a + S1x16.size a ≤ S16x128.size a
  inb_S16x128_S1x16_11_112 : ∀ a, (![11, 112] : Fin 2 → Nat) a + S1x16.size a ≤ S16x128.size a
  inb_S16x128_S1x16_12_0 : ∀ a, (![12, 0] : Fin 2 → Nat) a + S1x16.size a ≤ S16x128.size a
  inb_S16x128_S1x16_12_16 : ∀ a, (![12, 16] : Fin 2 → Nat) a + S1x16.size a ≤ S16x128.size a
  inb_S16x128_S1x16_12_32 : ∀ a, (![12, 32] : Fin 2 → Nat) a + S1x16.size a ≤ S16x128.size a
  inb_S16x128_S1x16_12_48 : ∀ a, (![12, 48] : Fin 2 → Nat) a + S1x16.size a ≤ S16x128.size a
  inb_S16x128_S1x16_12_64 : ∀ a, (![12, 64] : Fin 2 → Nat) a + S1x16.size a ≤ S16x128.size a
  inb_S16x128_S1x16_12_80 : ∀ a, (![12, 80] : Fin 2 → Nat) a + S1x16.size a ≤ S16x128.size a
  inb_S16x128_S1x16_12_96 : ∀ a, (![12, 96] : Fin 2 → Nat) a + S1x16.size a ≤ S16x128.size a
  inb_S16x128_S1x16_12_112 : ∀ a, (![12, 112] : Fin 2 → Nat) a + S1x16.size a ≤ S16x128.size a
  inb_S16x128_S1x16_13_0 : ∀ a, (![13, 0] : Fin 2 → Nat) a + S1x16.size a ≤ S16x128.size a
  inb_S16x128_S1x16_13_16 : ∀ a, (![13, 16] : Fin 2 → Nat) a + S1x16.size a ≤ S16x128.size a
  inb_S16x128_S1x16_13_32 : ∀ a, (![13, 32] : Fin 2 → Nat) a + S1x16.size a ≤ S16x128.size a
  inb_S16x128_S1x16_13_48 : ∀ a, (![13, 48] : Fin 2 → Nat) a + S1x16.size a ≤ S16x128.size a
  inb_S16x128_S1x16_13_64 : ∀ a, (![13, 64] : Fin 2 → Nat) a + S1x16.size a ≤ S16x128.size a
  inb_S16x128_S1x16_13_80 : ∀ a, (![13, 80] : Fin 2 → Nat) a + S1x16.size a ≤ S16x128.size a
  inb_S16x128_S1x16_13_96 : ∀ a, (![13, 96] : Fin 2 → Nat) a + S1x16.size a ≤ S16x128.size a
  inb_S16x128_S1x16_13_112 : ∀ a, (![13, 112] : Fin 2 → Nat) a + S1x16.size a ≤ S16x128.size a
  inb_S16x128_S1x16_14_0 : ∀ a, (![14, 0] : Fin 2 → Nat) a + S1x16.size a ≤ S16x128.size a
  inb_S16x128_S1x16_14_16 : ∀ a, (![14, 16] : Fin 2 → Nat) a + S1x16.size a ≤ S16x128.size a
  inb_S16x128_S1x16_14_32 : ∀ a, (![14, 32] : Fin 2 → Nat) a + S1x16.size a ≤ S16x128.size a
  inb_S16x128_S1x16_14_48 : ∀ a, (![14, 48] : Fin 2 → Nat) a + S1x16.size a ≤ S16x128.size a
  inb_S16x128_S1x16_14_64 : ∀ a, (![14, 64] : Fin 2 → Nat) a + S1x16.size a ≤ S16x128.size a
  inb_S16x128_S1x16_14_80 : ∀ a, (![14, 80] : Fin 2 → Nat) a + S1x16.size a ≤ S16x128.size a
  inb_S16x128_S1x16_14_96 : ∀ a, (![14, 96] : Fin 2 → Nat) a + S1x16.size a ≤ S16x128.size a
  inb_S16x128_S1x16_14_112 : ∀ a, (![14, 112] : Fin 2 → Nat) a + S1x16.size a ≤ S16x128.size a
  inb_S16x128_S1x16_15_0 : ∀ a, (![15, 0] : Fin 2 → Nat) a + S1x16.size a ≤ S16x128.size a
  inb_S16x128_S1x16_15_16 : ∀ a, (![15, 16] : Fin 2 → Nat) a + S1x16.size a ≤ S16x128.size a
  inb_S16x128_S1x16_15_32 : ∀ a, (![15, 32] : Fin 2 → Nat) a + S1x16.size a ≤ S16x128.size a
  inb_S16x128_S1x16_15_48 : ∀ a, (![15, 48] : Fin 2 → Nat) a + S1x16.size a ≤ S16x128.size a
  inb_S16x128_S1x16_15_64 : ∀ a, (![15, 64] : Fin 2 → Nat) a + S1x16.size a ≤ S16x128.size a
  inb_S16x128_S1x16_15_80 : ∀ a, (![15, 80] : Fin 2 → Nat) a + S1x16.size a ≤ S16x128.size a
  inb_S16x128_S1x16_15_96 : ∀ a, (![15, 96] : Fin 2 → Nat) a + S1x16.size a ≤ S16x128.size a
  inb_S16x128_S1x16_15_112 : ∀ a, (![15, 112] : Fin 2 → Nat) a + S1x16.size a ≤ S16x128.size a
  squeezes_S1x16x128_S16x128 : S1x16x128.Squeezes S16x128
  shapeCasts_S384x256_S3x128x256 : S384x256.ShapeCasts S3x128x256
  shapeCasts_S256_S1x256 : S256.ShapeCasts S1x256
  pads_S256x10_S256x128_000_01180 : S256x10.Pads (![0, 0] : Fin 2 → Nat) ![0, 118] ![0, 0] S256x128
  h_S_ : 0 < S_.numel
  pads_S10_S128_01180 : S10.Pads (![0] : Fin 1 → Nat) ![118] ![0] S128
  shapeCasts_S128_S1x128 : S128.ShapeCasts S1x128
  inb_S3x512x128_S3x512x128_0_0_0 : ∀ a, (![0, 0, 0] : Fin 3 → Nat) a + S3x512x128.size a ≤ S3x512x128.size a
  h_S3x512x128 : 0 < S3x512x128.numel
  shapeCasts_S3x512x128_S3x512x128 : S3x512x128.ShapeCasts S3x512x128
  inb_S3x128x256_S3x128x256_0_0_0 : ∀ a, (![0, 0, 0] : Fin 3 → Nat) a + S3x128x256.size a ≤ S3x128x256.size a
  h_S3x128x256 : 0 < S3x128x256.numel
  shapeCasts_S3x128x256_S3x128x256 : S3x128x256.ShapeCasts S3x128x256
  slices_S3x512x128_o0_0_0_S1x512x128 : S3x512x128.Slices ![0, 0, 0] S1x512x128
  shapeCasts_S1x512x128_S512x128 : S1x512x128.ShapeCasts S512x128
  slices_S3x128x256_o0_0_0_S1x128x256 : S3x128x256.Slices ![0, 0, 0] S1x128x256
  shapeCasts_S1x128x256_S128x256 : S1x128x256.ShapeCasts S128x256
  slices_S3x512x128_o1_0_0_S1x512x128 : S3x512x128.Slices ![1, 0, 0] S1x512x128
  slices_S3x128x256_o1_0_0_S1x128x256 : S3x128x256.Slices ![1, 0, 0] S1x128x256
  slices_S3x512x128_o2_0_0_S1x512x128 : S3x512x128.Slices ![2, 0, 0] S1x512x128
  slices_S3x128x256_o2_0_0_S1x128x256 : S3x128x256.Slices ![2, 0, 0] S1x128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S4096x128_S4096x10_0_0 : S4096x128.Slices ![0, 0] S4096x10
  dot_S512x128_S128x256_S512x256_1_0_0_1_n_n_wf : DotDims.WF S512x128 S128x256 S512x256 [1] [0] [0] [1] [] []
  dot_S512x256_S256x128_S512x128_1_0_0_1_n_n_wf : DotDims.WF S512x256 S256x128 S512x128 [1] [0] [0] [1] [] []
  hcc0_scratch7 : 0 + S_.numel ≤ 18
  hcc0_scratch8 : 1 + S_.numel ≤ 18
  hcc0_scratch9 : 2 + S_.numel ≤ 18
  hcc0_scratch10 : 3 + S_.numel ≤ 18
  hcc0_scoped0 : 4 + S_.numel ≤ 18
  hcc0_scoped1 : 5 + S_.numel ≤ 18
  hcc0_scoped2 : 6 + S_.numel ≤ 18
  hcc0_scoped3 : 7 + S_.numel ≤ 18
  hcc0_scoped4 : 8 + S_.numel ≤ 18
  hcc0_scoped5 : 9 + S_.numel ≤ 18
  hscKind : ∀ q, scKind q ≠ .tc
  hscCore : ∀ q, scNCore q ≤ τ.nSC
  hscSub : ∀ q, scNSub q ≤ τ.nSub

class Facts₀ : Prop where
  k0 : K0.Facts₀
  k1 : K1.Facts₀
  shapes1 : Shapes1.Facts₀
attribute [instance] Facts₀.k0 Facts₀.k1 Facts₀.shapes1

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4
abbrev cc0_scoped5 : DmaSems sig S_ := SemArray.consecutive 9 S_ hcc0_scoped5
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win1_0 : Pipeline.Window sig grid1 :=
  Pipeline.Window.ofSpec (Memref.whole main_v1) S3x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S3x128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x50 : Shape := ⟨3, ![4, 4096, 50]⟩
abbrev S100000x128 : Shape := ⟨2, ![100000, 128]⟩
abbrev S384x256 : Shape := ⟨2, ![384, 256]⟩
abbrev S256 : Shape := ⟨1, ![256]⟩
abbrev S256x10 : Shape := ⟨2, ![256, 10]⟩
abbrev S10 : Shape := ⟨1, ![10]⟩
abbrev S1x4096x50 : Shape := ⟨3, ![1, 4096, 50]⟩
abbrev S4096x50 : Shape := ⟨2, ![4096, 50]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x50x384 : Shape := ⟨3, ![4096, 50, 384]⟩
abbrev S4096x384 : Shape := ⟨2, ![4096, 384]⟩
abbrev S4096x256 : Shape := ⟨2, ![4096, 256]⟩
abbrev S1x256 : Shape := ⟨2, ![1, 256]⟩
abbrev S4096x10 : Shape := ⟨2, ![4096, 10]⟩
abbrev S1x10 : Shape := ⟨2, ![1, 10]⟩

abbrev nBuf : Space → Nat
  | .hbm => 100
  | .vmem => 0
  | .smem => 0
  | _ => 0

abbrev bufTy : (tb : Table) → Fin (tcTables nBuf tb) → BufTy
  | .hbm, ⟨0, _⟩ => ⟨S4x4096x50, .i32⟩
  | .hbm, ⟨1, _⟩ => ⟨S100000x128, .f32⟩
  | .hbm, ⟨2, _⟩ => ⟨S100000x128, .f32⟩
  | .hbm, ⟨3, _⟩ => ⟨S100000x128, .f32⟩
  | .hbm, ⟨4, _⟩ => ⟨S384x256, .f32⟩
  | .hbm, ⟨5, _⟩ => ⟨S256, .f32⟩
  | .hbm, ⟨6, _⟩ => ⟨S256x10, .f32⟩
  | .hbm, ⟨7, _⟩ => ⟨S10, .f32⟩
  | .hbm, ⟨8, _⟩ => ⟨S1x4096x50, .i32⟩
  | .hbm, ⟨9, _⟩ => ⟨S4096x50, .i32⟩
  | .hbm, ⟨10, _⟩ => ⟨S_, .i32⟩
  | .hbm, ⟨11, _⟩ => ⟨S4096x50, .i32⟩
  | .hbm, ⟨12, _⟩ => ⟨S4096x50, .i1⟩
  | .hbm, ⟨13, _⟩ => ⟨S_, .i32⟩
  | .hbm, ⟨14, _⟩ => ⟨S4096x50, .i32⟩
  | .hbm, ⟨15, _⟩ => ⟨S4096x50, .i32⟩
  | .hbm, ⟨16, _⟩ => ⟨S4096x50, .i32⟩
  | .hbm, ⟨17, _⟩ => ⟨S4096x50x1, .i32⟩
  | .hbm, ⟨18, _⟩ => ⟨S1, .i32⟩
  | .hbm, ⟨19, _⟩ => ⟨S_, .i32⟩
  | .hbm, ⟨20, _⟩ => ⟨S4096x50x1, .i32⟩
  | .hbm, ⟨21, _⟩ => ⟨S4096x50x1, .i1⟩
  | .hbm, ⟨22, _⟩ => ⟨S1x1x1, .i32⟩
  | .hbm, ⟨23, _⟩ => ⟨S4096x50x1, .i32⟩
  | .hbm, ⟨24, _⟩ => ⟨S4096x50x1, .i1⟩
  | .hbm, ⟨25, _⟩ => ⟨S4096x50x1, .i1⟩
  | .hbm, ⟨26, _⟩ => ⟨S_, .i1⟩
  | .hbm, ⟨27, _⟩ => ⟨S4096x50, .i1⟩
  | .hbm, ⟨28, _⟩ => ⟨S4096x50x128, .f32⟩
  | .hbm, ⟨29, _⟩ => ⟨S4096x50x128, .i1⟩
  | .hbm, ⟨30, _⟩ => ⟨S_, .f32⟩
  | .hbm, ⟨31, _⟩ => ⟨S4096x50x128, .f32⟩
  | .hbm, ⟨32, _⟩ => ⟨S4096x50x128, .f32⟩
  | .hbm, ⟨33, _⟩ => ⟨S1x4096x50, .i32⟩
  | .hbm, ⟨34, _⟩ => ⟨S4096x50, .i32⟩
  | .hbm, ⟨35, _⟩ => ⟨S_, .i32⟩
  | .hbm, ⟨36, _⟩ => ⟨S4096x50, .i32⟩
  | .hbm, ⟨37, _⟩ => ⟨S4096x50, .i1⟩
  | .hbm, ⟨38, _⟩ => ⟨S_, .i32⟩
  | .hbm, ⟨39, _⟩ => ⟨S4096x50, .i32⟩
  | .hbm, ⟨40, _⟩ => ⟨S4096x50, .i32⟩
  | .hbm, ⟨41, _⟩ => ⟨S4096x50, .i32⟩
  | .hbm, ⟨42, _⟩ => ⟨S4096x50x1, .i32⟩
  | .hbm, ⟨43, _⟩ => ⟨S1, .i32⟩
  | .hbm, ⟨44, _⟩ => ⟨S_, .i32⟩
  | .hbm, ⟨45, _⟩ => ⟨S4096x50x1, .i32⟩
  | .hbm, ⟨46, _⟩ => ⟨S4096x50x1, .i1⟩
  | .hbm, ⟨47, _⟩ => ⟨S1x1x1, .i32⟩
  | .hbm, ⟨48, _⟩ => ⟨S4096x50x1, .i32⟩
  | .hbm, ⟨49, _⟩ => ⟨S4096x50x1, .i1⟩
  | .hbm, ⟨50, _⟩ => ⟨S4096x50x1, .i1⟩
  | .hbm, ⟨51, _⟩ => ⟨S_, .i1⟩
  | .hbm, ⟨52, _⟩ => ⟨S4096x50, .i1⟩
  | .hbm, ⟨53, _⟩ => ⟨S4096x50x128, .f32⟩
  | .hbm, ⟨54, _⟩ => ⟨S4096x50x128, .i1⟩
  | .hbm, ⟨55, _⟩ => ⟨S_, .f32⟩
  | .hbm, ⟨56, _⟩ => ⟨S4096x50x128, .f32⟩
  | .hbm, ⟨57, _⟩ => ⟨S4096x50x128, .f32⟩
  | .hbm, ⟨58, _⟩ => ⟨S1x4096x50, .i32⟩
  | .hbm, ⟨59, _⟩ => ⟨S4096x50, .i32⟩
  | .hbm, ⟨60, _⟩ => ⟨S_, .i32⟩
  | .hbm, ⟨61, _⟩ => ⟨S4096x50, .i32⟩
  | .hbm, ⟨62, _⟩ => ⟨S4096x50, .i1⟩
  | .hbm, ⟨63, _⟩ => ⟨S_, .i32⟩
  | .hbm, ⟨64, _⟩ => ⟨S4096x50, .i32⟩
  | .hbm, ⟨65, _⟩ => ⟨S4096x50, .i32⟩
  | .hbm, ⟨66, _⟩ => ⟨S4096x50, .i32⟩
  | .hbm, ⟨67, _⟩ => ⟨S4096x50x1, .i32⟩
  | .hbm, ⟨68, _⟩ => ⟨S1, .i32⟩
  | .hbm, ⟨69, _⟩ => ⟨S_, .i32⟩
  | .hbm, ⟨70, _⟩ => ⟨S4096x50x1, .i32⟩
  | .hbm, ⟨71, _⟩ => ⟨S4096x50x1, .i1⟩
  | .hbm, ⟨72, _⟩ => ⟨S1x1x1, .i32⟩
  | .hbm, ⟨73, _⟩ => ⟨S4096x50x1, .i32⟩
  | .hbm, ⟨74, _⟩ => ⟨S4096x50x1, .i1⟩
  | .hbm, ⟨75, _⟩ => ⟨S4096x50x1, .i1⟩
  | .hbm, ⟨76, _⟩ => ⟨S_, .i1⟩
  | .hbm, ⟨77, _⟩ => ⟨S4096x50, .i1⟩
  | .hbm, ⟨78, _⟩ => ⟨S4096x50x128, .f32⟩
  | .hbm, ⟨79, _⟩ => ⟨S4096x50x128, .i1⟩
  | .hbm, ⟨80, _⟩ => ⟨S_, .f32⟩
  | .hbm, ⟨81, _⟩ => ⟨S4096x50x128, .f32⟩
  | .hbm, ⟨82, _⟩ => ⟨S4096x50x128, .f32⟩
  | .hbm, ⟨83, _⟩ => ⟨S4096x50x384, .f32⟩
  | .hbm, ⟨84, _⟩ => ⟨S_, .f32⟩
  | .hbm, ⟨85, _⟩ => ⟨S4096x384, .f32⟩
  | .hbm, ⟨86, _⟩ => ⟨S_, .f32⟩
  | .hbm, ⟨87, _⟩ => ⟨S4096x384, .f32⟩
  | .hbm, ⟨88, _⟩ => ⟨S4096x384, .f32⟩
  | .hbm, ⟨89, _⟩ => ⟨S4096x256, .f32⟩
  | .hbm, ⟨90, _⟩ => ⟨S1x256, .f32⟩
  | .hbm, ⟨91, _⟩ => ⟨S4096x256, .f32⟩
  | .hbm, ⟨92, _⟩ => ⟨S4096x256, .f32⟩
  | .hbm, ⟨93, _⟩ => ⟨S_, .f32⟩
  | .hbm, ⟨94, _⟩ => ⟨S4096x256, .f32⟩
  | .hbm, ⟨95, _⟩ => ⟨S4096x256, .f32⟩
  | .hbm, ⟨96, _⟩ => ⟨S4096x10, .f32⟩
  | .hbm, ⟨97, _⟩ => ⟨S1x10, .f32⟩
  | .hbm, ⟨98, _⟩ => ⟨S4096x10, .f32⟩
  | .hbm, ⟨99, _⟩ => ⟨S4096x10, .f32⟩
  | _, _ => ⟨S4x4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v8 : Ref sig .tc := ⟨.hbm, 82, rfl⟩
abbrev main_v9 : Ref sig .tc := ⟨.hbm, 83, rfl⟩
abbrev main_cst : Ref sig .tc := ⟨.hbm, 84, rfl⟩
abbrev main_v10 : Ref sig .tc := ⟨.hbm, 85, rfl⟩
abbrev main_cst_0 : Ref sig .tc := ⟨.hbm, 86, rfl⟩
abbrev main_v11 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_v16 : Ref sig .tc := ⟨.hbm, 92, rfl⟩
abbrev main_cst_1 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩

abbrev nD : Nat := 1
abbrev τ : Topo := Topo.v7x

variable {F : FTy → Type} [FloatOps F]

class Facts₀ : Prop where
  slices_S4x4096x50_S1x4096x50_0_0_0 : S4x4096x50.Slices ![0, 0, 0] S1x4096x50
  shapeCasts_S1x4096x50_S4096x50 : S1x4096x50.ShapeCasts S4096x50
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  slices_S4x4096x50_S1x4096x50_2_0_0 : S4x4096x50.Slices ![2, 0, 0] S1x4096x50
  slices_S4x4096x50_S1x4096x50_3_0_0 : S4x4096x50.Slices ![3, 0, 0] S1x4096x50
  concatenates_S4096x50x128_S4096x50x128_S4096x50x128_S4096x50x384_d2 : Shape.Concatenates [S4096x50x128, S4096x50x128, S4096x50x128] S4096x50x384 2
  reducesTo_S4096x50x384_S4096x384_d1 : S4096x50x384.ReducesTo [1] S4096x384
  bcast_S_S4096x384 : S_.BroadcastsInDim S4096x384 (![] : Fin 0 → Fin S4096x384.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  bcast_S10_S1x10_1 : S10.BroadcastsInDim S1x10 (![1] : Fin 1 → Fin S1x10.rank)
  bcast_S1x10_S4096x10_0_1 : S1x10.BroadcastsInDim S4096x10 (![0, 1] : Fin 2 → Fin S4096x10.rank)
  gather_S100000x128_S4096x50x1_S4096x50x128_2_0_n_n_0_2_1128_wf : GatherDims.WF S100000x128 S4096x50x1 S4096x50x128 [2] [0] [] [0] [] 2 ![1, 128]
  dot_S4096x384_S384x256_S4096x256_1_0_0_1_n_n_wf : DotDims.WF S4096x384 S384x256 S4096x256 [1] [0] [0] [1] [] []
  dot_S4096x256_S256x10_S4096x10_1_0_0_1_n_n_wf : DotDims.WF S4096x256 S256x10 S4096x10 [1] [0] [0] [1] [] []

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S4096x384_S384x256_S4096x256_1_0_0_1_n_n : DotDims S4096x384 S384x256 S4096x256 where
  lhsContracting := [1]
  rhsContracting := [0]
  lhsNonContracting := [0]
  rhsNonContracting := [1]
  lhsBatch := []
  rhsBatch := []
  wf := dot_S4096x384_S384x256_S4096x256_1_0_0_1_n_n_wf
def dot_S4096x256_S256x10_S4096x10_1_0_0_1_n_n : DotDims S4096x256 S256x10 S4096x10 where
  lhsContracting := [1]
  rhsContracting := [0]
  lhsNonContracting := [0]
  rhsNonContracting := [1]
  lhsBatch := []
  rhsBatch := []
  wf := dot_S4096x256_S256x10_S4096x10_1_0_0_1_n_n_wf

class Facts : Prop extends Facts₀ where

variable [Facts]
-- ==== Proof.ScSetup.lean ====
/-
  The kernel program's SparseCore call, as the launch theorem sees it: the configuration, the ghost algebra (the
  handshakes' rounds beside the transfers' counters: the kernel makes only local copies and gathers and waits for
  them, so it needs no schedule of its own), the arrays, what each vector subcore is handed, and the value it leaves.

  Vector subcore `s` of SparseCore `c` is worker `w = 2 s + c`. It owns rows `128 w … 128 w + 127` of each of the three
  planes of the pooled array, reads the three stretches `off r + 6400 w … + 6399` (`off = 0, 409600, 614400`) of the flat
  index array, and reads all three tables, each at a read share of its own. Row `ρ` of plane `t` ends at
  `(∑ over l < 50 of table_t[idx[off t + 50 ρ + l], e]) · inv_50`, the sum taken two rows a step from the zero word.
-/
import proofs.«207262_g39728447488703_cont_8to1_b_1934_40_alg».proof.KernelIdeal
import proofs.«207262_g39728447488703_cont_8to1_b_1934_40_alg».proof.Proof.Gen.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Transfers
import Idealize.ShloMosaic.Lib.Tactic
import Idealize.ShloMosaic.Lib.ValueIdx

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds (the TensorCore call's staging cells): the middle component. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays -/

variable (m : (ℓ : Loc nD τ sig) → Buf (Elt F) ℓ) (ρ : Dev nD → PrngReg)

/-- The flat index array (the reshape of `x`), the three tables, the pooled array: the TensorCore's names. -/
abbrev iLoc (d : Dev nD) : Loc nD τ sig := (SparseCore.T d).loc main_v0
abbrev aLoc (d : Dev nD) : Loc nD τ sig := (SparseCore.T d).loc main_arg1
abbrev bLoc (d : Dev nD) : Loc nD τ sig := (SparseCore.T d).loc main_arg2
abbrev cLoc (d : Dev nD) : Loc nD τ sig := (SparseCore.T d).loc main_arg3
abbrev oLoc (d : Dev nD) : Loc nD τ sig := (SparseCore.T d).loc main_v1

/-- The same arrays as a vector subcore's memrefs address them. -/
abbrev iV : Memref sig .scVector .hbm S819200 .i32 := Memref.whole main_v0_scv
abbrev aV : Memref sig .scVector .hbm S100000x128 .f32 := Memref.whole main_arg1_scv
abbrev bV : Memref sig .scVector .hbm S100000x128 .f32 := Memref.whole main_arg2_scv
abbrev cV : Memref sig .scVector .hbm S100000x128 .f32 := Memref.whole main_arg3_scv
abbrev oV : Memref sig .scVector .hbm S3x4096x128 .f32 := Memref.whole main_v1_scv

/-! ## A vector subcore's views -/

abbrev cOf (L : grid0.Coords) : Fin τ.nSC := (L 0).castLE hcore0
abbrev sOf (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- Stretch `r` of the index array that worker `L` stages: 6400 words from the program's own offset. -/
abbrev iSl (L : grid0.Coords) (r : Fin 3) : Memref sig .scVector .hbm S6400 .i32 :=
  (iV).slice (Rect.unit (s := S819200) (k0_off1 L (k0_off1_at r)) S6400.size (k0_off1_inb L r)) (fun _ => rfl)

/-- The 128 rows of plane `t` of the pooled array that worker `L` owns, as a set of indices. -/
def oRows (L : grid0.Coords) (t : Fin 3) : Finset S3x4096x128.Idx :=
  Finset.univ.filter fun j => (j 0).val = t.val ∧ 256 * (L 1).val + 128 * (L 0).val ≤ (j 1).val ∧ (j 1).val < 256 * (L 1).val + 128 * (L 0).val + 128

/-! ## The value -/

/-- The running sum of a segment's rows, two rows a step, from the zero word. -/
def accN (row : ℕ → F .f32) : ℕ → F .f32
  | 0 => Scalar.ofBits .f32 0x00000000#32
  | k + 1 => FloatOps.addf (FloatOps.addf (accN row k) (row (2 * k))) (row (2 * k + 1))

/-- A segment's mean as the kernel takes it: the sum of its fifty rows, times the named reciprocal of fifty. -/
def meanOf (row : ℕ → F .f32) : F .f32 := FloatOps.mulf (accN row 25) (Named.named κ "inv_50" 0x3CA3D70A#32)

/-! ## Read shares: one per SparseCore, then one per vector subcore, of an array every worker reads whole -/

abbrev coreSh (c : Fin 2) : PosShare TreeShare := Transfers.shareTok fullShare 2 c
abbrev tileSh (c : Fin 2) (i : Fin 16) : PosShare TreeShare := Transfers.shareTok (coreSh c) 16 i

/-! ## The pooled array's rows by worker -/

theorem odiv : 32 ∣ S3x4096x128.size 1 := ⟨128, rfl⟩
/-- Worker `w`'s rows of all three planes: part `w` of 32 along the row axis. -/
abbrev oPart (w : Fin 32) : Rect S3x4096x128 := Rect.part (s := S3x4096x128) (a₀ := 1) odiv w
abbrev oSet (w : Fin 32) : Finset S3x4096x128.Idx := ((oV).view.slice (oPart w)).set
/-- The worker number of vector subcore `i` of SparseCore `c`. -/
def wOf (c : Fin 2) (i : Fin 16) : Fin 32 := ⟨2 * i.val + c.val, by omega⟩
/-- What SparseCore `c`'s sixteen workers own together. -/
def oCore (c : Fin 2) : Finset S3x4096x128.Idx := Finset.univ.biUnion fun i : Fin 16 => oSet (wOf c i)

/-! ## The pooled value as ONE whole-array function of the launch contents -/

/-- Where plane `t`'s indices start in the flat index array. -/
def offOf (t : ℕ) : ℕ := if t = 0 then 0 else if t = 1 then 409600 else 614400

/-- The word of the flat index array at a position (any word past the end). -/
def idxAt (ix : S819200.Idx → BitVec 32) (p : ℕ) : BitVec 32 := if h : p < 819200 then ix (ValueIdx.ix1 (⟨p, h⟩ : Fin 819200)) else 0#32

/-- Entry `(row, e)` of a table (any value past the end). -/
def tblAt (tb : S100000x128.Idx → F .f32) (row : ℕ) (e : Fin 128) : F .f32 :=
  if h : row < 100000 then tb (ValueIdx.ix2 (⟨row, h⟩ : Fin 100000) e) else Scalar.ofBits .f32 0x00000000#32

/-- The pooled array the SparseCore call leaves: plane `t`, row `r`, column `e` is the mean of the fifty rows of table `t`
    that the index array names for `(t, r)`. -/
def pooledOf (ix : S819200.Idx → BitVec 32) (ta tb tc : S100000x128.Idx → F .f32) : S3x4096x128.Idx → F .f32 := fun j =>
  meanOf (fun l => tblAt (if (j 0).val = 0 then ta else if (j 0).val = 1 then tb else tc)
    (idxAt ix (offOf (j 0).val + 50 * (j 1).val + l)).toNat ⟨(j 2).val, (j 2).isLt⟩)

/-- It, over the launch memory of device `d`. -/
abbrev pooledArr (d : Dev nD) : Buf (Elt F) (oLoc d) := pooledOf (F := F) (m (iLoc d)) (m (aLoc d)) (m (bLoc d)) (m (cLoc d))

/-! ## What the handshakes carry -/

abbrev iSh (d : Dev nD) (q : PosShare TreeShare) : sProp 𝕄 := iLoc d ↦{q} m (iLoc d)
abbrev aSh (d : Dev nD) (q : PosShare TreeShare) : sProp 𝕄 := aLoc d ↦{q} m (aLoc d)
abbrev bSh (d : Dev nD) (q : PosShare TreeShare) : sProp 𝕄 := bLoc d ↦{q} m (bLoc d)
abbrev cSh (d : Dev nD) (q : PosShare TreeShare) : sProp 𝕄 := cLoc d ↦{q} m (cLoc d)
abbrev reads (d : Dev nD) (q : PosShare TreeShare) : sProp 𝕄 := iprop(iSh m d q ∗ aSh m d q ∗ bSh m d q ∗ cSh m d q)
abbrev oOn (d : Dev nD) (I : Finset S3x4096x128.Idx) (f : Buf (Elt F) (oLoc d)) : sProp 𝕄 := oLoc d ↦[I]{fullShare} f

/-- The call hands SparseCore `c` a read share of the index array and of the three tables and its workers' rows of the
    pooled array; each worker a read share of the four and its own rows; back come the same, the rows at the pooled
    value. The kernel consumes nothing of the launch's. -/
def P : (K (F := F)).Pay (nD := nD) (Val := Elt F) (Name := ℕ) (U := UU) where
  st := fun q d c => match q with | 0 => iprop(reads m d (coreSh (Fin.cast nCore_zero c)) ∗ ∃ f, oOn d (oCore (Fin.cast nCore_zero c)) f)
  dn := fun q d c => match q with | 0 => iprop(reads m d (coreSh (Fin.cast nCore_zero c)) ∗ oOn d (oCore (Fin.cast nCore_zero c)) (pooledArr m d))
  go := fun q d c i => match q with
    | 0 => iprop(reads m d (tileSh (Fin.cast nCore_zero c) (Fin.cast nSub_zero i)) ∗ ∃ f, oOn d (oSet (wOf (Fin.cast nCore_zero c) (Fin.cast nSub_zero i))) f)
  td := fun q d c i => match q with
    | 0 => iprop(reads m d (tileSh (Fin.cast nCore_zero c) (Fin.cast nSub_zero i)) ∗ oOn d (oSet (wOf (Fin.cast nCore_zero c) (Fin.cast nSub_zero i))) (pooledArr m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-- What the proof asks of the launch memory: every word of the flat index array names a row of the tables. -/
def PreOK : Prop := ∀ (d : Dev nD) (j : S819200.Idx), (m (iLoc d) j).toNat < 100000

end Cert.KernelIdeal.Sc

end
-- ==== Proof.ScTileDefs.lean ====
/-
  A vector subcore at the pooling call: the thread it is, the memrefs the body table hands it (the four arrays it
  reads, the pooled array, its seven scratch buffers), its ten DMA semaphores split off its own scoped cells and its
  seven scratch buffers split off its own buffers, and the body table's row for it.
-/
import proofs.«207262_g39728447488703_cont_8to1_b_1934_40_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## A list of members split off a `bigSep` -/

section SplitList

variable {M : Type} [URA M] {I : Type} [DecidableEq I]

/-- `Φ` at each member of a list in turn, then a remainder. -/
def sepOver (Φ : I → sProp M) : List I → sProp M → sProp M
  | [], R => R
  | i :: l, R => iprop(Φ i ∗ sepOver Φ l R)

/-- A `bigSep` over a set is `Φ` at each of a duplicate-free list of its members, then the `bigSep` over the others. -/
theorem bigSep_split_list (Φ : I → sProp M) : ∀ (l : List I) (s : Finset I), l.Nodup → (∀ i ∈ l, i ∈ s) →
    bigSep s Φ = sepOver Φ l (bigSep (s \ l.toFinset) Φ)
  | [], s, _, _ => by simp [sepOver]
  | i :: l, s, hnd, hmem => by
    have hi : i ∈ s := hmem i (List.mem_cons_self ..)
    have hnd' := List.nodup_cons.mp hnd
    rw [SparseCore.bigSep_erase' hi, bigSep_split_list Φ l (s.erase i) hnd'.2
      (fun j hj => Finset.mem_erase.mpr ⟨fun e => hnd'.1 (e ▸ hj), hmem j (List.mem_cons_of_mem _ hj)⟩)]
    simp only [sepOver, List.toFinset_cons, Finset.sdiff_insert, Finset.erase_sdiff_comm]

end SplitList

/-! ## The thread and what the body table passes it -/

abbrev cL (L : grid0.Coords) : Fin 2 := Fin.cast (by rfl : grid0.bound 0 = 2) (L 0)
abbrev sL (L : grid0.Coords) : Fin 16 := Fin.cast (by rfl : grid0.bound 1 = 16) (L 1)
abbrev thrOf (d : Dev nD) (L : grid0.Coords) : Thread nD τ := V d (cOf L) (sOf L)
/-- the seven scratch buffers as the body table passes them -/
abbrev s0 : Memref sig .scVector .vmem S6400 .i32 := Memref.whole cc0_scratch0     -- index buffer 0
abbrev s1 : Memref sig .scVector .vmem S6400 .i32 := Memref.whole cc0_scratch1     -- index buffer 1
abbrev s2 : Memref sig .scVector .vmem S200x128 .f32 := Memref.whole cc0_scratch2  -- row buffers 0..3
abbrev s3 : Memref sig .scVector .vmem S200x128 .f32 := Memref.whole cc0_scratch3
abbrev s4 : Memref sig .scVector .vmem S200x128 .f32 := Memref.whole cc0_scratch4
abbrev s5 : Memref sig .scVector .vmem S200x128 .f32 := Memref.whole cc0_scratch5
abbrev s6 : Memref sig .scVector .vmem S16x128 .f32 := Memref.whole cc0_scratch6   -- the pooled rows of one chunk

section Tile

variable (d : Dev nD) (L : grid0.Coords)

/-! ## The arrays, as the vector subcore's memrefs name them, are the TensorCore's -/

theorem pts_iV (q : PosShare TreeShare) (f : Buf (Elt F) (iLoc d)) :
    ((iV).view.loc (thrOf d L) ↦{q} f : sProp 𝕄) = iLoc d ↦{q} f := rfl
theorem pts_aV (q : PosShare TreeShare) (f : Buf (Elt F) (aLoc d)) :
    ((aV).view.loc (thrOf d L) ↦{q} f : sProp 𝕄) = aLoc d ↦{q} f := rfl
theorem pts_bV (q : PosShare TreeShare) (f : Buf (Elt F) (bLoc d)) :
    ((bV).view.loc (thrOf d L) ↦{q} f : sProp 𝕄) = bLoc d ↦{q} f := rfl
theorem pts_cV (q : PosShare TreeShare) (f : Buf (Elt F) (cLoc d)) :
    ((cV).view.loc (thrOf d L) ↦{q} f : sProp 𝕄) = cLoc d ↦{q} f := rfl
theorem pts_oV (I : Finset S3x4096x128.Idx) (f : Buf (Elt F) (oLoc d)) :
    (oLoc d ↦[I]{fullShare} f : sProp 𝕄) = (oV).view.loc (thrOf d L) ↦[I]{fullShare} f := rfl

theorem pts_s0 (f : Buf (Elt F) ((thrOf d L).loc cc0_scratch0)) :
    ((s0).view.loc (thrOf d L) ↦{fullShare} f : sProp 𝕄) = (thrOf d L).loc cc0_scratch0 ↦{fullShare} f := rfl
theorem pts_s1 (f : Buf (Elt F) ((thrOf d L).loc cc0_scratch1)) :
    ((s1).view.loc (thrOf d L) ↦{fullShare} f : sProp 𝕄) = (thrOf d L).loc cc0_scratch1 ↦{fullShare} f := rfl
theorem pts_s2 (f : Buf (Elt F) ((thrOf d L).loc cc0_scratch2)) :
    ((s2).view.loc (thrOf d L) ↦{fullShare} f : sProp 𝕄) = (thrOf d L).loc cc0_scratch2 ↦{fullShare} f := rfl
theorem pts_s3 (f : Buf (Elt F) ((thrOf d L).loc cc0_scratch3)) :
    ((s3).view.loc (thrOf d L) ↦{fullShare} f : sProp 𝕄) = (thrOf d L).loc cc0_scratch3 ↦{fullShare} f := rfl
theorem pts_s4 (f : Buf (Elt F) ((thrOf d L).loc cc0_scratch4)) :
    ((s4).view.loc (thrOf d L) ↦{fullShare} f : sProp 𝕄) = (thrOf d L).loc cc0_scratch4 ↦{fullShare} f := rfl
theorem pts_s5 (f : Buf (Elt F) ((thrOf d L).loc cc0_scratch5)) :
    ((s5).view.loc (thrOf d L) ↦{fullShare} f : sProp 𝕄) = (thrOf d L).loc cc0_scratch5 ↦{fullShare} f := rfl
theorem pts_s6 (f : Buf (Elt F) ((thrOf d L).loc cc0_scratch6)) :
    ((s6).view.loc (thrOf d L) ↦{fullShare} f : sProp 𝕄) = (thrOf d L).loc cc0_scratch6 ↦{fullShare} f := rfl

/-! ## Its ten DMA semaphores among its own scoped cells -/

/-- The ten DMA semaphores the kernel names: four scratch operands, six scoped allocations. -/
abbrev dmaSems : List (SemLoc sig) :=
  [.dma cc0_scratch7.sem, .dma cc0_scratch8.sem, .dma cc0_scratch9.sem, .dma cc0_scratch10.sem, .dma cc0_scoped0.sem,
    .dma cc0_scoped1.sem, .dma cc0_scoped2.sem, .dma cc0_scoped3.sem, .dma cc0_scoped4.sem, .dma cc0_scoped5.sem]

theorem dmaSems_nodup : (dmaSems).Nodup := by decide
theorem dmaSems_scoped : ∀ sm ∈ dmaSems, sm.isScoped .scVector = true := by decide

/-- The subcore's other scoped cells. -/
abbrev restSems : Finset (SemLoc sig) := (Finset.univ.filter fun sm : SemLoc sig => sm.isScoped .scVector) \ (dmaSems).toFinset

theorem ownSems0_V :
    (ownSems0 (thrOf d L) : sProp 𝕄)
      = iprop(semVal (thrOf d L, .dma cc0_scratch7.sem) 0 ∗ semVal (thrOf d L, .dma cc0_scratch8.sem) 0 ∗ semVal (thrOf d L, .dma cc0_scratch9.sem) 0
          ∗ semVal (thrOf d L, .dma cc0_scratch10.sem) 0 ∗ semVal (thrOf d L, .dma cc0_scoped0.sem) 0 ∗ semVal (thrOf d L, .dma cc0_scoped1.sem) 0
          ∗ semVal (thrOf d L, .dma cc0_scoped2.sem) 0 ∗ semVal (thrOf d L, .dma cc0_scoped3.sem) 0 ∗ semVal (thrOf d L, .dma cc0_scoped4.sem) 0
          ∗ semVal (thrOf d L, .dma cc0_scoped5.sem) 0 ∗ bigSep restSems fun sm => semVal (thrOf d L, sm) 0) := by
  rw [SparseCore.Cfg.ownSems0_eq]
  exact bigSep_split_list (fun sm : SemLoc sig => (semVal (thrOf d L, sm) 0 : sProp 𝕄)) dmaSems _ dmaSems_nodup
    fun sm h => Finset.mem_filter.mpr ⟨Finset.mem_univ _, dmaSems_scoped sm h⟩

/-! ## Its seven scratch buffers among its own buffers -/

abbrev scratchRefs : List (Ref sig .scVector) := [cc0_scratch0, cc0_scratch1, cc0_scratch2, cc0_scratch3, cc0_scratch4, cc0_scratch5, cc0_scratch6]
theorem scratchRefs_nodup : (scratchRefs).Nodup := by decide

/-- The seven, as buffers of the device. -/
abbrev scratchDev : List (DevRef τ sig) := (scratchRefs).map (Proc.scVector (cOf L) (sOf L)).devRef
/-- The subcore's other buffers. -/
abbrev restRefs : Finset (DevRef τ sig) := ownRefs (τ := τ) (.scVector (cOf L) (sOf L)) \ (scratchDev L).toFinset

theorem ownBufs_V :
    (ownBufs (thrOf d L) : sProp 𝕄)
      = iprop((∃ f, (thrOf d L).loc cc0_scratch0 ↦{fullShare} f) ∗ (∃ f, (thrOf d L).loc cc0_scratch1 ↦{fullShare} f)
          ∗ (∃ f, (thrOf d L).loc cc0_scratch2 ↦{fullShare} f) ∗ (∃ f, (thrOf d L).loc cc0_scratch3 ↦{fullShare} f)
          ∗ (∃ f, (thrOf d L).loc cc0_scratch4 ↦{fullShare} f) ∗ (∃ f, (thrOf d L).loc cc0_scratch5 ↦{fullShare} f)
          ∗ (∃ f, (thrOf d L).loc cc0_scratch6 ↦{fullShare} f)
          ∗ bigSep (restRefs L) fun b => iprop(∃ f, ((d, b) : Loc nD τ sig) ↦{fullShare} f)) := by
  unfold SparseCore.Cfg.ownBufs
  exact bigSep_split_list (fun b : DevRef τ sig => (iprop(∃ f, ((d, b) : Loc nD τ sig) ↦{fullShare} f) : sProp 𝕄)) (scratchDev L) _
    (scratchRefs_nodup.map (Proc.devRef_injective _))
    fun b h => by
      obtain ⟨r, hr, rfl⟩ := List.mem_map.mp h
      simp only [scratchRefs, List.mem_cons, List.not_mem_nil, or_false] at hr
      rcases hr with rfl | rfl | rfl | rfl | rfl | rfl | rfl <;>
        exact SparseCore.Cfg.mem_ownRefs_of_owner (p := Proc.scVector (cOf L) (sOf L)) rfl

end Tile

/-! ## The body table's row for a vector subcore -/

theorem defs₀_vector (c : Fin τ.nSC) (s : Fin τ.nSub) :
    defs₀ (F := F) (.scVector c s) 0 ()
      = SparseCore.onTile hcore0 hsub0 (fun c s => cc0_pool_kernel (coordsV c s)
          aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _)
          s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5) ⟨⟩ c s := rfl

/-- A task that leaves only waits of its own kernel's leaves waits the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.KernelIdeal.Sc

end
-- ==== Proof.ScTileObl.lean ====
/-
  The launch theorem's obligation for a vector subcore's task, from the task body's own triple: the body table's row
  is the kernel function at the subcore's coordinates on the whole arrays and its scratch; the task's operands and
  results are the body's, the subcore's number read off its coordinates.
-/
import proofs.«207262_g39728447488703_cont_8to1_b_1934_40_alg».proof.Proof.ScTileDefs

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-- The coordinates of subcore `i` of SparseCore `c` of the call's grid name SparseCore `c`, -/
theorem cL_coordsV (c : Fin ((K (F := F)).nCore 0)) (i : Fin ((K (F := F)).nSub 0)) (hc : ((K (F := F)).core 0 c).val < grid0.bound 0)
    (hi : ((K (F := F)).sub 0 i).val < grid0.bound 1) : cL (coordsV ⟨_, hc⟩ ⟨_, hi⟩) = Fin.cast nCore_zero c := Fin.ext rfl
/-- and subcore `i`. -/
theorem sL_coordsV (c : Fin ((K (F := F)).nCore 0)) (i : Fin ((K (F := F)).nSub 0)) (hc : ((K (F := F)).core 0 c).val < grid0.bound 0)
    (hi : ((K (F := F)).sub 0 i).val < grid0.bound 1) : sL (coordsV ⟨_, hc⟩ ⟨_, hi⟩) = Fin.cast nSub_zero i := Fin.ext rfl

theorem tileObl (hF : (K (F := F)).Facts) (hpre : PreOK m)
    (hbody : ∀ (d : Dev nD) (L : grid0.Coords) (O : CellTallies nD τ sig (HIx 1)) (W : Waits sig (HIx 1)) (_ : ∀ g, O g none = 0),
      iprop(levAts (K (F := F)).L (K (F := F)).lev ∗ emp
          ∗ (reads m d (tileSh (cL L) (sL L)) ∗ ∃ f, oOn d (oSet (wOf (cL L) (sL L))) f)
          ∗ scopedBufs (thrOf d L) ∗ scopedSems0 (thrOf d L) ∗ owes (thrOf d L) O W)
        ⊢ wp frame (wpE (defs₀ (F := F)) 𝒱₀ (thrOf d L) none) Set.univ
            (cc0_pool_kernel L aV (Memref.isWhole_whole _) bV (Memref.isWhole_whole _) cV (Memref.isWhole_whole _) iV (Memref.isWhole_whole _) oV (Memref.isWhole_whole _)
              s0 (Memref.isWhole_whole _) s1 (Memref.isWhole_whole _) s2 (Memref.isWhole_whole _) s3 (Memref.isWhole_whole _) s4 (Memref.isWhole_whole _) s5 (Memref.isWhole_whole _) s6 (Memref.isWhole_whole _)
              cc0_scratch7 cc0_scratch8 cc0_scratch9 cc0_scratch10 cc0_scoped0 cc0_scoped1 cc0_scoped2 cc0_scoped3 cc0_scoped4 cc0_scoped5)
            fun _ => iprop((reads m d (tileSh (cL L) (sL L)) ∗ oOn d (oSet (wOf (cL L) (sL L))) (pooledArr m d))
              ∗ scopedBufs (thrOf d L) ∗ scopedSems0 (thrOf d L)
              ∗ ∃ W', ⌜∀ p ∈ W', p ∈ W ∨ p.2 = none⌝ ∗ owes (thrOf d L) O W')) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := hbody d (coordsV ⟨_, hc.1⟩ ⟨_, hc.2⟩) O W hO
  rw [cL_coordsV c i hc.1 hc.2, sL_coordsV c i hc.1 hc.2] at h
  exact h.trans (wp_mono frame _ _ fun _ => obl_post)

end Cert.KernelIdeal.Sc

end
-- ==== Proof.ScTileVal.lean ====
/-
  What a vector subcore's buffers hold, as pure facts about arrays (no program, no resource).

  Worker (c, s) has number w = 2 s + c. Stretch r (r = 0, 1, 2) of the flat index array that it stages starts at flat
  position off r + 6400 w (off = 0, 409600, 614400): the printed offset, a chain of 32-bit products and sums, never
  wraps. So after the whole-buffer copy the index buffer holds, at position p, the flat array's word at
  off r + 6400 w + p; every such word names a row of the tables when every word of the flat array does.

  A gather of the 200 words at positions o, …, o + 199 of the index buffer into a [200, 128] row buffer leaves, at
  (ρ, e), entry e of the table's row named by the word at position o + ρ.

  With o = 200 (4 k + b), segment s' of the row buffer and l < 50, position o + 50 s' + l of stretch r is flat position
  off r + 50 (128 w + 16 k + 4 b + s') + l: the mean of the segment's fifty rows is the pooled array's entry at plane
  r, row 128 w + 16 k + 4 b + s'.
-/
import proofs.«207262_g39728447488703_cont_8to1_b_1934_40_alg».proof.Proof.ScSetup
import Idealize.ShloMosaic.Lib.Writes
import Idealize.ShloMosaic.Lib.SparseCore.Stream
import Idealize.ShloMosaic.Lib.ValueIdx

noncomputable section

namespace Cert.KernelIdeal.Sc

open Cert.KernelIdeal Cert.KernelIdeal.Gen
open Idealize.ShloMosaic Idealize.ShloMosaic.ValueIdx

variable {F : FTy → Type} [FloatOps F] [Named F]
variable (m : (ℓ : Loc nD τ sig) → Buf (Elt F) ℓ)

/-! ## Reading through a slice of a view that was just written whole -/

/-- A slice of a view reads the view at the slice's own indices placed in it. -/
theorem read_slice_eq {κ : Kind} {sp : Space} {s : Shape} {e : EltTy} (v : View sig κ sp s e) (f : v.ty.Contents (Elt F))
    (R : Rect s) (x : R.shape.Idx) : (v.slice R).read (Elt F) f x = v.read (Elt F) f (R.emb x) := rfl

/-- After an unmasked write of a whole view, a slice of it reads the payload. -/
theorem read_slice_write_univ {κ : Kind} {sp : Space} {s : Shape} {e : EltTy} (v : View sig κ sp s e)
    (fs : v.ty.Contents (Elt F)) (pay : s.Idx → Elt F e) (R : Rect s) (x : R.shape.Idx) :
    (v.slice R).read (Elt F) (v.write (Elt F) fs pay Finset.univ) x = pay (R.emb x) :=
  (read_slice_eq v _ R x).trans (View.read_write_of_mem fs pay (Finset.mem_univ _))

/-- After a list of writes whose last covers the whole shape, the view reads that write's payload. -/
theorem read_writes_whole {κ : Kind} {sp : Space} {s : Shape} {e : EltTy} (v : View sig κ sp s e)
    (f : v.ty.Contents (Elt F)) (w : s.Idx → Elt F e) (Ls : List (View.Piece (Elt F) s e)) (x : s.Idx) :
    v.read (Elt F) (v.writes (Elt F) f (⟨Rect.whole s, w⟩ :: Ls)) x = w x := by
  have h := View.read_writes_cons_emb v f (Rect.whole s) w Ls x
  rwa [Rect.emb_whole_apply] at h

/-! ## Where a worker's stretches start -/

/-- The three starts, case by case. -/
theorem offOf_cases (r : Fin 3) :
    (r.val = 0 ∧ offOf r.val = 0 ∧ k0_off1_at r = 0#32) ∨ (r.val = 1 ∧ offOf r.val = 409600 ∧ k0_off1_at r = 409600#32)
      ∨ (r.val = 2 ∧ offOf r.val = 614400 ∧ k0_off1_at r = 614400#32) :=
  match r with
  | ⟨0, _⟩ => Or.inl ⟨rfl, rfl, rfl⟩
  | ⟨1, _⟩ => Or.inr (Or.inl ⟨rfl, rfl, rfl⟩)
  | ⟨2, _⟩ => Or.inr (Or.inr ⟨rfl, rfl, rfl⟩)

theorem L0_lt (L : grid0.Coords) : (L 0).val < 2 := (L 0).isLt
theorem L1_lt (L : grid0.Coords) : (L 1).val < 16 := (L 1).isLt

/-- The printed offset of stretch r, in closed form: no product or sum of the chain wraps. -/
theorem k0_off1_closed (L : grid0.Coords) (r : Fin 3) :
    (k0_off1 L (k0_off1_at r)) 0 = offOf r.val + 6400 * (2 * (L 1).val + (L 0).val) := by
  have h0 := L0_lt L
  have h1 := L1_lt L
  show (Scalar.addi (k0_off1_at r) (Scalar.muli (Scalar.muli (Scalar.addi (Scalar.muli (BitVec.ofNat 32 (L 1).val) 2#32)
    (BitVec.ofNat 32 (L 0).val)) 128#32) 50#32)).toNat = _
  simp only [Scalar.addi, Scalar.muli, IntOp.addi, IntOp.muli]
  rcases offOf_cases r with ⟨-, e1, e2⟩ | ⟨-, e1, e2⟩ | ⟨-, e1, e2⟩ <;>
    (rw [e1, e2]; simp only [BitVec.toNat_add, BitVec.toNat_mul, BitVec.toNat_ofNat]; omega)

/-! ## The index buffers -/

/-- The word at position p of stretch r of worker L (any word past the flat array's end). -/
def idxBufAt (d : Dev nD) (L : grid0.Coords) (r : Fin 3) (p : ℕ) : BitVec 32 :=
  idxAt (m (iLoc d)) (offOf r.val + 6400 * (2 * (L 1).val + (L 0).val) + p)

/-- An index buffer holding stretch r of worker L. -/
def idxBuf (d : Dev nD) (L : grid0.Coords) (r : Fin 3) : S6400.Idx → BitVec 32 := fun j => idxBufAt m d L r (j 0).val

theorem idxBuf_apply (d : Dev nD) (L : grid0.Coords) (r : Fin 3) (j : S6400.Idx) :
    idxBuf m d L r j = idxBufAt m d L r (j 0).val := rfl

theorem idxBuf_ix1 (d : Dev nD) (L : grid0.Coords) (r : Fin 3) (p : Fin 6400) :
    idxBuf m d L r (ix1 p) = idxBufAt m d L r p.val := rfl

/-- Positions of a stretch are inside the flat array. -/
theorem stretch_lt (L : grid0.Coords) (r : Fin 3) (p : ℕ) (hp : p < 6400) :
    offOf r.val + 6400 * (2 * (L 1).val + (L 0).val) + p < 819200 := by
  have h0 := L0_lt L
  have h1 := L1_lt L
  rcases offOf_cases r with ⟨-, e1, -⟩ | ⟨-, e1, -⟩ | ⟨-, e1, -⟩ <;> omega

/-- Inside a stretch the word is the flat array's own. -/
theorem idxBufAt_eq (d : Dev nD) (L : grid0.Coords) (r : Fin 3) (p : ℕ) (hp : p < 6400) :
    idxBufAt m d L r p = m (iLoc d) (ix1 (⟨offOf r.val + 6400 * (2 * (L 1).val + (L 0).val) + p, stretch_lt L r p hp⟩ : Fin 819200)) := by
  unfold idxBufAt idxAt
  rw [dif_pos (stretch_lt L r p hp)]

/-- The staged stretch, read where it lies in the flat array, is the index buffer's closed term. -/
theorem stretch_read (d : Dev nD) (L : grid0.Coords) (r : Fin 3) (j : S6400.Idx) :
    (iSl L r).view.read (Elt F) (m (iLoc d)) j = idxBuf m d L r j := by
  rw [idxBuf_apply, idxBufAt_eq m d L r _ (j 0).isLt]
  refine ((View.read_apply _ _).trans (cast_eq _ _)).trans (congrArg (m (iLoc d)) ?_)
  funext a
  apply Fin.ext
  match a with
  | ⟨0, _⟩ =>
    show (k0_off1 L (k0_off1_at r)) 0 + 1 * (j 0).val = offOf r.val + 6400 * (2 * (L 1).val + (L 0).val) + (j 0).val
    rw [k0_off1_closed]; omega

/-- What an index buffer reads after the stretch was copied onto all of it. -/
theorem staged_read (d : Dev nD) (L : grid0.Coords) (r : Fin 3) (sK : Memref sig .scVector .vmem S6400 .i32)
    (fs : sK.view.ty.Contents (Elt F)) :
    sK.view.read (Elt F) (View.write (Elt F) sK.view fs ((iSl L r).view.read (Elt F) (m (iLoc d))) Finset.univ) = idxBuf m d L r :=
  (View.read_write_univ fs _).trans (funext (stretch_read m d L r))

/-- The first index buffer after the copy IS the closed term. -/
theorem staged_eq0 (d : Dev nD) (L : grid0.Coords) (r : Fin 3)
    (fs : (Memref.whole cc0_scratch0 : Memref sig .scVector .vmem S6400 .i32).view.ty.Contents (Elt F)) :
    View.write (Elt F) (Memref.whole cc0_scratch0 : Memref sig .scVector .vmem S6400 .i32).view fs
      ((iSl L r).view.read (Elt F) (m (iLoc d))) Finset.univ = idxBuf m d L r :=
  (View.write_whole_univ cc0_scratch0 fs _).trans (funext (stretch_read m d L r))

/-- The second index buffer after the copy IS the closed term. -/
theorem staged_eq1 (d : Dev nD) (L : grid0.Coords) (r : Fin 3)
    (fs : (Memref.whole cc0_scratch1 : Memref sig .scVector .vmem S6400 .i32).view.ty.Contents (Elt F)) :
    View.write (Elt F) (Memref.whole cc0_scratch1 : Memref sig .scVector .vmem S6400 .i32).view fs
      ((iSl L r).view.read (Elt F) (m (iLoc d))) Finset.univ = idxBuf m d L r :=
  (View.write_whole_univ cc0_scratch1 fs _).trans (funext (stretch_read m d L r))

/-- Every word of a stretch names a row of the tables. -/
theorem idxBuf_lt (hpre : PreOK m) (d : Dev nD) (L : grid0.Coords) (r : Fin 3) (j : S6400.Idx) :
    (idxBuf m d L r j).toNat < 100000 := by
  rw [idxBuf_apply, idxBufAt_eq m d L r _ (j 0).isLt]
  exact hpre d _

/-- THE RANGE FACT A GATHER ASKS FOR: a 200-slice of an index buffer just written with stretch r reads row numbers. -/
theorem idx_inb (hpre : PreOK m) (d : Dev nD) (L : grid0.Coords) (r : Fin 3) (sK : Memref sig .scVector .vmem S6400 .i32)
    (fs : sK.view.ty.Contents (Elt F)) (pay : S6400.Idx → Elt F .i32) (hpay : pay = (iSl L r).view.read (Elt F) (m (iLoc d)))
    (off : ℕ) (inb : ∀ a, (![off] : Fin 1 → ℕ) a + S200.size a ≤ S6400.size a) :
    ∀ x, ((sK.slice (Rect.unit (s := S6400) ![off] S200.size inb) (fun _ => rfl)).view.read (Elt F)
      (View.write (Elt F) sK.view fs pay Finset.univ) x).toNat < 100000 := by
  subst hpay; intro x
  exact (congrArg BitVec.toNat ((read_slice_write_univ sK.view fs _ _ x).trans (stretch_read m d L r _))).trans_lt
    (idxBuf_lt m hpre d L r _)

/-- The same of an index buffer held at the closed term (or at anything that reads as it). -/
theorem idx_inb' (hpre : PreOK m) (d : Dev nD) (L : grid0.Coords) (r : Fin 3) (sK : Memref sig .scVector .vmem S6400 .i32)
    (fo : sK.view.ty.Contents (Elt F)) (hfo : sK.view.read (Elt F) fo = idxBuf m d L r)
    (off : ℕ) (inb : ∀ a, (![off] : Fin 1 → ℕ) a + S200.size a ≤ S6400.size a) :
    ∀ x, ((sK.slice (Rect.unit (s := S6400) ![off] S200.size inb) (fun _ => rfl)).view.read (Elt F) fo x).toNat < 100000 := by
  intro x
  exact (congrArg BitVec.toNat ((read_slice_eq sK.view fo _ x).trans (congrFun hfo _))).trans_lt
    (idxBuf_lt m hpre d L r _)

/-! ## The gathered rows -/

/-- Which table plane r reads. -/
def tblSel (ta tb tc : S100000x128.Idx → F .f32) (r : Fin 3) : S100000x128.Idx → F .f32 :=
  if r.val = 0 then ta else if r.val = 1 then tb else tc

theorem tblSel_zero (ta tb tc : S100000x128.Idx → F .f32) : tblSel ta tb tc 0 = ta := rfl
theorem tblSel_one (ta tb tc : S100000x128.Idx → F .f32) : tblSel ta tb tc 1 = tb := rfl
theorem tblSel_two (ta tb tc : S100000x128.Idx → F .f32) : tblSel ta tb tc 2 = tc := rfl

/-- The source index of a row gather from a [100000, 128] table into [200, 128]: the named row, the same column. -/
theorem gather_idx (hg : S100000x128.Gathers 0 S200x128)
    (rws : Fin (S200x128.size hg.axis') → Fin (S100000x128.size hg.axis)) (ρ : Fin 200) (e : Fin 128) :
    hg.idx rws (ix2 ρ e) = ix2 (rws ρ) e := by
  funext b
  apply Fin.ext
  match b with
  | ⟨0, h0⟩ => exact congrArg Fin.val (Shape.Gathers.idx_axis hg rws (ix2 ρ e))
  | ⟨1, h1⟩ => exact Shape.Gathers.idx_of_ne hg rws (ix2 ρ e) ⟨1, h1⟩ (Nat.succ_ne_zero 0)

/-- Entry ρ of a 200-word list, in row-major order, is its word at index ρ. -/
theorem rowMajor_symm_S200 (hn : S200.numel = 200) (ρ : Fin 200) : S200.rowMajor.symm (ρ.cast hn.symm) = ix1 ρ := by
  rw [Equiv.symm_apply_eq]
  apply Fin.ext
  rw [Shape.rowMajor_val_one]
  rfl

/-- THE GATHER'S PAYLOAD at (ρ, e): entry e of the table's row that word ρ of the list names. -/
theorem gathered_at (hg : S100000x128.Gathers 0 S200x128) (g : S100000x128.Idx → Elt F .f32) (idx : S200.Idx → Elt F .i32)
    (hn : S200.numel = S200x128.size hg.axis') (hin : ∀ x, (idx x).toNat < S100000x128.size hg.axis)
    (ρ : Fin 200) (e : Fin 128) :
    SparseCore.gatherPayload hg g (SparseCore.rows idx hn hin) (ix2 ρ e) = tblAt g (idx (ix1 ρ)).toNat e := by
  unfold SparseCore.gatherPayload
  rw [gather_idx]
  unfold tblAt
  have h : (idx (ix1 ρ)).toNat < 100000 := hin (ix1 ρ)
  rw [dif_pos h]
  exact congrArg (fun j => g (ix2 (⟨(idx j).toNat, hin j⟩ : Fin 100000) e)) (rowMajor_symm_S200 hn ρ)

/-- A table's whole-rectangle slice reads as the table. -/
theorem tblSl_read (tV : Memref sig .scVector .hbm S100000x128 .f32) (ft : tV.view.ty.Contents (Elt F))
    (inb : ∀ a, (![0, 0] : Fin 2 → ℕ) a + S100000x128.size a ≤ S100000x128.size a) :
    (tV.slice (Rect.unit (s := S100000x128) ![0, 0] S100000x128.size inb) (fun _ => rfl)).view.read (Elt F) ft
      = tV.view.read (Elt F) ft := by
  funext x
  refine (read_slice_eq tV.view ft (Rect.unit (s := S100000x128) ![0, 0] S100000x128.size inb) x).trans
    (congrArg (tV.view.read (Elt F) ft) ?_)
  funext a
  apply Fin.ext
  match a with
  | ⟨0, _⟩ => show 0 + 1 * (x 0).val = (x 0).val; omega
  | ⟨1, _⟩ => show 0 + 1 * (x 1).val = (x 1).val; omega

/-- Position o + ρ of an index buffer, through its 200-slice at o. -/
theorem slice200_read (sK : Memref sig .scVector .vmem S6400 .i32) (fo : sK.view.ty.Contents (Elt F)) (off : ℕ)
    (inb : ∀ a, (![off] : Fin 1 → ℕ) a + S200.size a ≤ S6400.size a) (ρ : Fin 200) (h : off + ρ.val < 6400) :
    (sK.slice (Rect.unit (s := S6400) ![off] S200.size inb) (fun _ => rfl)).view.read (Elt F) fo (ix1 ρ)
      = sK.view.read (Elt F) fo (ix1 (⟨off + ρ.val, h⟩ : Fin 6400)) := by
  refine (read_slice_eq sK.view fo (Rect.unit (s := S6400) ![off] S200.size inb) (ix1 ρ)).trans
    (congrArg (sK.view.read (Elt F) fo) ?_)
  funext a
  apply Fin.ext
  match a with
  | ⟨0, _⟩ => show off + 1 * ρ.val = off + ρ.val; omega

/-- THE ROW BUFFER'S PAYLOAD: gathering, by the 200-slice at o of an index buffer that reads as stretch r, from a table
    that reads as `tb`, leaves at (ρ, e) entry e of `tb`'s row named by the stretch's word at position o + ρ. -/
theorem gathered_row (d : Dev nD) (L : grid0.Coords) (r : Fin 3) (hg : S100000x128.Gathers 0 S200x128)
    (tV : Memref sig .scVector .hbm S100000x128 .f32) (ft : tV.view.ty.Contents (Elt F)) (tb : S100000x128.Idx → F .f32)
    (hft : tV.view.read (Elt F) ft = tb)
    (inbT : ∀ a, (![0, 0] : Fin 2 → ℕ) a + S100000x128.size a ≤ S100000x128.size a)
    (sK : Memref sig .scVector .vmem S6400 .i32) (fo : sK.view.ty.Contents (Elt F)) (hfo : sK.view.read (Elt F) fo = idxBuf m d L r)
    (off : ℕ) (inb : ∀ a, (![off] : Fin 1 → ℕ) a + S200.size a ≤ S6400.size a)
    (hn : S200.numel = S200x128.size hg.axis')
    (hin : ∀ x, ((sK.slice (Rect.unit (s := S6400) ![off] S200.size inb) (fun _ => rfl)).view.read (Elt F) fo x).toNat
      < S100000x128.size hg.axis)
    (ρ : Fin 200) (e : Fin 128) :
    SparseCore.gatherPayload hg
        ((tV.slice (Rect.unit (s := S100000x128) ![0, 0] S100000x128.size inbT) (fun _ => rfl)).view.read (Elt F) ft)
        (SparseCore.rows ((sK.slice (Rect.unit (s := S6400) ![off] S200.size inb) (fun _ => rfl)).view.read (Elt F) fo) hn hin)
        (ix2 ρ e)
      = tblAt tb (idxBufAt m d L r (off + ρ.val)).toNat e := by
  have hoff : off + ρ.val < 6400 := by
    have := inb 0
    have h1 : (![off] : Fin 1 → ℕ) 0 = off := rfl
    have h2 : S200.size 0 = 200 := rfl
    have h3 : S6400.size 0 = 6400 := rfl
    have := ρ.isLt
    omega
  rw [gathered_at, tblSl_read, hft, slice200_read sK fo off inb ρ hoff, hfo, idxBuf_ix1]

/-! ## A segment's mean is an entry of the pooled array -/

/-- The pooled array at (t, row, e), spelt out. -/
theorem pooledOf_apply (ix : S819200.Idx → BitVec 32) (ta tb tc : S100000x128.Idx → F .f32) (t : Fin 3) (row : Fin 4096)
    (e : Fin 128) :
    pooledOf (F := F) ix ta tb tc (ix3 t row e)
      = meanOf (fun l => tblAt (tblSel ta tb tc t) (idxAt ix (offOf t.val + 50 * row.val + l)).toNat e) := rfl

/-- The row of the pooled array that segment s' of slot b of chunk k of worker L fills. -/
theorem segRow_lt (L : grid0.Coords) (k : Fin 8) (b s' : Fin 4) :
    128 * (2 * (L 1).val + (L 0).val) + 16 * k.val + 4 * b.val + s'.val < 4096 := by
  have h0 := L0_lt L
  have h1 := L1_lt L
  have := k.isLt; have := b.isLt; have := s'.isLt
  omega

def segRow (L : grid0.Coords) (k : Fin 8) (b s' : Fin 4) : Fin 4096 :=
  ⟨128 * (2 * (L 1).val + (L 0).val) + 16 * k.val + 4 * b.val + s'.val, segRow_lt L k b s'⟩

theorem segRow_val (L : grid0.Coords) (k : Fin 8) (b s' : Fin 4) :
    (segRow L k b s').val = 128 * (2 * (L 1).val + (L 0).val) + 16 * k.val + 4 * b.val + s'.val := rfl

/-- The position arithmetic: word l of segment s' of gather 4 k + b of stretch r is word l of pooled row segRow. -/
theorem seg_pos (L : grid0.Coords) (r : Fin 3) (k : Fin 8) (b s' : Fin 4) (l : ℕ) :
    offOf r.val + 6400 * (2 * (L 1).val + (L 0).val) + (200 * (4 * k.val + b.val) + 50 * s'.val + l)
      = offOf r.val + 50 * (segRow L k b s').val + l := by
  rw [segRow_val]; omega

/-- THE SEGMENT'S MEAN: the mean of the fifty gathered rows of segment s' of gather 4 k + b of stretch r is the pooled
    array's entry at plane r, row segRow, for every column. -/
theorem seg_mean (d : Dev nD) (L : grid0.Coords) (ta tb tc : S100000x128.Idx → F .f32) (r : Fin 3) (k : Fin 8) (b s' : Fin 4)
    (e : Fin 128) :
    meanOf (fun l => tblAt (tblSel ta tb tc r) (idxBufAt m d L r (200 * (4 * k.val + b.val) + 50 * s'.val + l)).toNat e)
      = pooledOf (F := F) (m (iLoc d)) ta tb tc (ix3 r (segRow L k b s') e) := by
  rw [pooledOf_apply]
  refine congrArg meanOf (funext fun l => ?_)
  unfold idxBufAt
  rw [seg_pos]

end Cert.KernelIdeal.Sc

end
-- ==== Proof.ScCanon.lean ====
/-
  The names the proof holds a vector subcore's memref slices under, and the equations that rewrite each spelling the
  kernel program uses into them.

  An index buffer's 6400 words are 32 blocks of 200 (one block names the 200 table rows of four segments of fifty);
  block `g` starts at word `200 g`. A gather reads a block of an index buffer and the whole of a table. The copy-out of
  chunk `k` (of eight) of plane `t` writes the sixteen rows `base + 16 k … + 15` of that plane of the pooled array,
  `base = 256 s + 128 c` the first row of the subcore's own 128. The program names a block by a literal offset
  (`0, 200, 400, 600`) or by the chain `(4 k + b + 4) · 200` of the trip `k` and the slot `b`; the chunk by the chain
  `base + 16 k`. Blocks and chunks are indexed by the residue of a natural number, so that a statement over every
  trip count names them totally.
-/
import proofs.«207262_g39728447488703_cont_8to1_b_1934_40_alg».proof.Proof.ScTileDefs
import proofs.«207262_g39728447488703_cont_8to1_b_1934_40_alg».proof.Proof.Gen.KernelIdeal
import Idealize.ShloMosaic.Lib.Affine
import Idealize.ShloMosaic.Lib.Ring
import Idealize.ShloMosaic.Lib.Tactic

noncomputable section

namespace Cert.KernelIdeal.Sc

open Cert.KernelIdeal Cert.KernelIdeal.Gen

open Idealize.ShloMosaic
open Idealize.ShloMosaic.SparseCore (S V T)
open Idealize.SL Idealize.SL.RA Idealize.SL.BI
open scoped Idealize.SL.BI
open Idealize.SL.Sem
open Idealize.ShloMosaic.Tactic

variable {F : FTy → Type} [FloatOps F] [Named F]

/-! ## Blocks of an index buffer -/

/-- Where block `g` starts. -/
abbrev blkOff (g : Fin 32) : Fin 1 → Nat := ![200 * g.val]
theorem blkOff_inb (g : Fin 32) : ∀ a, blkOff g a + S200.size a ≤ S6400.size a := by
  have := g.isLt; intro a; fin_cases a
  show 200 * g.val + 200 ≤ 6400; omega

/-- Block `g` of an index buffer, as the program slices it. -/
def blk (sK : Memref sig .scVector .vmem S6400 .i32) (g : Fin 32) : Memref sig .scVector .vmem S200 .i32 :=
  sK.slice (Rect.unit (s := S6400) (blkOff g) S200.size (blkOff_inb g)) (fun _ => rfl)

/-- A table whole, as every gather slices it. -/
def tblW (tV : Memref sig .scVector .hbm S100000x128 .f32) : Memref sig .scVector .hbm S100000x128 .f32 :=
  tV.slice (Rect.unit (s := S100000x128) ![0, 0] S100000x128.size inb_S100000x128_S100000x128_0_0) (fun _ => rfl)

/-! ## Chunks of the pooled array -/

/-- Where chunk `k` of plane `t` of worker `L`'s rows starts. -/
abbrev outOff (L : grid0.Coords) (t : Fin 3) (k : Fin 8) : Fin 3 → Nat := ![t.val, 256 * (L 1).val + 128 * (L 0).val + 16 * k.val, 0]
theorem outOff_inb (L : grid0.Coords) (t : Fin 3) (k : Fin 8) : ∀ a, outOff L t k a + S1x16x128.size a ≤ S3x4096x128.size a := by
  have ht := t.isLt; have hk := k.isLt
  have h0 : (L 0).val < 2 := (L 0).isLt
  have h1 : (L 1).val < 16 := (L 1).isLt
  intro a; fin_cases a
  · show t.val + 1 ≤ 3; omega
  · show 256 * (L 1).val + 128 * (L 0).val + 16 * k.val + 16 ≤ 4096; omega
  · show 0 + 128 ≤ 128; omega

/-- Chunk `k` of plane `t` of worker `L`'s rows of the pooled array, as the program slices and squeezes it. -/
def outCh (L : grid0.Coords) (t : Fin 3) (k : Fin 8) : Memref sig .scVector .hbm S16x128 .f32 :=
  ((oV).slice (Rect.unit (s := S3x4096x128) (outOff L t k) S1x16x128.size (outOff_inb L t k)) (fun _ => rfl)).squeeze S16x128 squeezes_S1x16x128_S16x128

/-! ## The buffers, cells, tables by number -/

def idxBufOf (p : Fin 2) : Memref sig .scVector .vmem S6400 .i32 := match p with | 0 => s0 | 1 => s1
def rowBuf (b : Fin 4) : Memref sig .scVector .vmem S200x128 .f32 := match b with | 0 => s2 | 1 => s3 | 2 => s4 | 3 => s5
def cellOf (b : Fin 4) : DmaSems sig S_ := match b with | 0 => cc0_scratch7 | 1 => cc0_scratch8 | 2 => cc0_scratch9 | 3 => cc0_scratch10
def tblV (t : Fin 3) : Memref sig .scVector .hbm S100000x128 .f32 := match t with | 0 => aV | 1 => bV | 2 => cV
def tLocOf (d : Dev nD) (t : Fin 3) : Loc nD τ sig := match t with | 0 => aLoc d | 1 => bLoc d | 2 => cLoc d

/-! ## Trip counts, residues -/

theorem trips1 (k : Fin k0_t1_loop.trips) : k.val < 8 := Nat.lt_of_lt_of_le k.isLt k0_t1_abs.2.1
theorem trips18 (k : Fin k0_t18_loop.trips) : k.val < 8 := Nat.lt_of_lt_of_le k.isLt k0_t18_abs.2.1
theorem trips35 (k : Fin k0_t35_loop.trips) : k.val < 8 := Nat.lt_of_lt_of_le k.isLt k0_t35_abs.2.1

theorem bk32_val {n : ℕ} (h : n < 32) : (Ring.bk 32 n).val = n := Ring.bk_val h
theorem bk8_val {n : ℕ} (h : n < 8) : (Ring.bk 8 n).val = n := Ring.bk_val h

/-! ## A slice at an offset in closed form is the block, the chunk -/

/-- An offset `200 n` at which 200 words fit is block `n`'s: the fit bounds `n`. -/
theorem off_blk {off : Fin 1 → Nat} {c : ℕ} (n : ℕ) (e : off = ![c]) (hh : ∀ a, off a + S200.size a ≤ S6400.size a) (hc : c = 200 * n) :
    off = blkOff (Ring.bk 32 n) := by
  subst e
  have h0 : c + 200 ≤ 6400 := hh 0
  have hn : n < 32 := by omega
  show (![c] : Fin 1 → ℕ) = ![200 * (Ring.bk 32 n).val]
  rw [Ring.bk_val hn, hc]

theorem blk_congr (sK : Memref sig .scVector .vmem S6400 .i32) {off : Fin 1 → Nat} {g : Fin 32} (e : off = blkOff g) (hh hs) :
    sK.slice (Rect.unit (s := S6400) off S200.size hh) hs = blk sK g := Memref.slice_unit_congr _ e _ _ _ (fun _ => rfl)

theorem off_out {off : Fin 3 → Nat} (L : grid0.Coords) (t : Fin 3) {n : ℕ} (hn : n < 8)
    (e : off = ![t.val, 256 * (L 1).val + 128 * (L 0).val + 16 * n, 0]) : off = outOff L t (Ring.bk 8 n) := by
  subst e
  show (![_, _, _] : Fin 3 → ℕ) = ![t.val, 256 * (L 1).val + 128 * (L 0).val + 16 * (Ring.bk 8 n).val, 0]
  rw [Ring.bk_val hn]

theorem outCh_congr {off : Fin 3 → Nat} {L : grid0.Coords} {t : Fin 3} {k : Fin 8} (e : off = outOff L t k) (hh hs) :
    ((oV).slice (Rect.unit (s := S3x4096x128) off S1x16x128.size hh) hs).squeeze S16x128 squeezes_S1x16x128_S16x128 = outCh L t k :=
  congrArg (fun M : Memref sig .scVector .hbm S1x16x128 .f32 => M.squeeze S16x128 squeezes_S1x16x128_S16x128) (Memref.slice_unit_congr _ e _ _ _ _)

/-! ## The equations the run rewrites the program by -/

section Canon
variable (sK : Memref sig .scVector .vmem S6400 .i32) (tV : Memref sig .scVector .hbm S100000x128 .f32)

/-- The literal blocks: the first four streams of a buffer. -/
@[sl_canon] theorem blkL0 (hh hs) : sK.slice (Rect.unit (s := S6400) ![0] S200.size hh) hs = blk sK (Ring.bk 32 0) := blk_congr sK (by decide) _ _
@[sl_canon] theorem blkL1 (hh hs) : sK.slice (Rect.unit (s := S6400) ![200] S200.size hh) hs = blk sK (Ring.bk 32 1) := blk_congr sK (by decide) _ _
@[sl_canon] theorem blkL2 (hh hs) : sK.slice (Rect.unit (s := S6400) ![400] S200.size hh) hs = blk sK (Ring.bk 32 2) := blk_congr sK (by decide) _ _
@[sl_canon] theorem blkL3 (hh hs) : sK.slice (Rect.unit (s := S6400) ![600] S200.size hh) hs = blk sK (Ring.bk 32 3) := blk_congr sK (by decide) _ _

/-- The first table's loop, trip `k`: slot `b` refills with block `4 k + b + 4`. -/
@[sl_canon] theorem blkA0 (k : Fin k0_t1_loop.trips) (hh hs) :
    sK.slice (Rect.unit (s := S6400) (k0_off66 k) S200.size hh) hs = blk sK (Ring.bk 32 (4 * k.val + 0 + 4)) := blk_congr sK (off_blk _ (k0_off66_eq k) hh (by omega)) _ _
@[sl_canon] theorem blkA1 (k : Fin k0_t1_loop.trips) (hh hs) :
    sK.slice (Rect.unit (s := S6400) (k0_off131 k) S200.size hh) hs = blk sK (Ring.bk 32 (4 * k.val + 1 + 4)) := blk_congr sK (off_blk _ (k0_off131_eq k) hh (by omega)) _ _
@[sl_canon] theorem blkA2 (k : Fin k0_t1_loop.trips) (hh hs) :
    sK.slice (Rect.unit (s := S6400) (k0_off196 k) S200.size hh) hs = blk sK (Ring.bk 32 (4 * k.val + 2 + 4)) := blk_congr sK (off_blk _ (k0_off196_eq k) hh (by omega)) _ _
@[sl_canon] theorem blkA3 (k : Fin k0_t1_loop.trips) (hh hs) :
    sK.slice (Rect.unit (s := S6400) (k0_off261 k) S200.size hh) hs = blk sK (Ring.bk 32 (4 * k.val + 3 + 4)) := blk_congr sK (off_blk _ (k0_off261_eq k) hh (by omega)) _ _

/-- The second table's loop. -/
@[sl_canon] theorem blkB0 (k : Fin k0_t18_loop.trips) (hh hs) :
    sK.slice (Rect.unit (s := S6400) (k0_off327 k) S200.size hh) hs = blk sK (Ring.bk 32 (4 * k.val + 0 + 4)) := blk_congr sK (off_blk _ (k0_off327_eq k) hh (by omega)) _ _
@[sl_canon] theorem blkB1 (k : Fin k0_t18_loop.trips) (hh hs) :
    sK.slice (Rect.unit (s := S6400) (k0_off392 k) S200.size hh) hs = blk sK (Ring.bk 32 (4 * k.val + 1 + 4)) := blk_congr sK (off_blk _ (k0_off392_eq k) hh (by omega)) _ _
@[sl_canon] theorem blkB2 (k : Fin k0_t18_loop.trips) (hh hs) :
    sK.slice (Rect.unit (s := S6400) (k0_off457 k) S200.size hh) hs = blk sK (Ring.bk 32 (4 * k.val + 2 + 4)) := blk_congr sK (off_blk _ (k0_off457_eq k) hh (by omega)) _ _
@[sl_canon] theorem blkB3 (k : Fin k0_t18_loop.trips) (hh hs) :
    sK.slice (Rect.unit (s := S6400) (k0_off522 k) S200.size hh) hs = blk sK (Ring.bk 32 (4 * k.val + 3 + 4)) := blk_congr sK (off_blk _ (k0_off522_eq k) hh (by omega)) _ _

/-- The third table's loop. -/
@[sl_canon] theorem blkC0 (k : Fin k0_t35_loop.trips) (hh hs) :
    sK.slice (Rect.unit (s := S6400) (k0_off588 k) S200.size hh) hs = blk sK (Ring.bk 32 (4 * k.val + 0 + 4)) := blk_congr sK (off_blk _ (k0_off588_eq k) hh (by omega)) _ _
@[sl_canon] theorem blkC1 (k : Fin k0_t35_loop.trips) (hh hs) :
    sK.slice (Rect.unit (s := S6400) (k0_off653 k) S200.size hh) hs = blk sK (Ring.bk 32 (4 * k.val + 1 + 4)) := blk_congr sK (off_blk _ (k0_off653_eq k) hh (by omega)) _ _
@[sl_canon] theorem blkC2 (k : Fin k0_t35_loop.trips) (hh hs) :
    sK.slice (Rect.unit (s := S6400) (k0_off718 k) S200.size hh) hs = blk sK (Ring.bk 32 (4 * k.val + 2 + 4)) := blk_congr sK (off_blk _ (k0_off718_eq k) hh (by omega)) _ _
@[sl_canon] theorem blkC3 (k : Fin k0_t35_loop.trips) (hh hs) :
    sK.slice (Rect.unit (s := S6400) (k0_off783 k) S200.size hh) hs = blk sK (Ring.bk 32 (4 * k.val + 3 + 4)) := blk_congr sK (off_blk _ (k0_off783_eq k) hh (by omega)) _ _

/-- A gather's table. -/
@[sl_canon] theorem tblE (hh hs) : tV.slice (Rect.unit (s := S100000x128) ![0, 0] S100000x128.size hh) hs = tblW tV := Memref.slice_unit_congr _ rfl _ _ _ (fun _ => rfl)

/-- The copy-out of chunk `k`, one plane a loop. -/
@[sl_canon] theorem outA (L : grid0.Coords) (k : Fin k0_t1_loop.trips) (hh hs) :
    ((oV).slice (Rect.unit (s := S3x4096x128) (k0_off262 L k) S1x16x128.size hh) hs).squeeze S16x128 squeezes_S1x16x128_S16x128 = outCh L 0 (Ring.bk 8 k.val) :=
  outCh_congr (off_out L 0 (trips1 k) (k0_off262_eq L k)) _ _
@[sl_canon] theorem outB (L : grid0.Coords) (k : Fin k0_t18_loop.trips) (hh hs) :
    ((oV).slice (Rect.unit (s := S3x4096x128) (k0_off523 L k) S1x16x128.size hh) hs).squeeze S16x128 squeezes_S1x16x128_S16x128 = outCh L 1 (Ring.bk 8 k.val) :=
  outCh_congr (off_out L 1 (trips18 k) (k0_off523_eq L k)) _ _
@[sl_canon] theorem outC (L : grid0.Coords) (k : Fin k0_t35_loop.trips) (hh hs) :
    ((oV).slice (Rect.unit (s := S3x4096x128) (k0_off784 L k) S1x16x128.size hh) hs).squeeze S16x128 squeezes_S1x16x128_S16x128 = outCh L 2 (Ring.bk 8 k.val) :=
  outCh_congr (off_out L 2 (trips35 k) (k0_off784_eq L k)) _ _

end Canon

/-! ## The staged stretches of the index array -/

theorem off1_at0 : k0_off1_at 0 = 0#32 := rfl
theorem off1_at1 : k0_off1_at 1 = 409600#32 := rfl
theorem off1_at2 : k0_off1_at 2 = 614400#32 := rfl
theorem iSl0 (L : grid0.Coords) (hh hs) : (iV).slice (Rect.unit (s := S819200) (k0_off1 L 0#32) S6400.size hh) hs = iSl L 0 := Memref.slice_unit_congr _ rfl _ _ _ _
theorem iSl1 (L : grid0.Coords) (hh hs) : (iV).slice (Rect.unit (s := S819200) (k0_off1 L 409600#32) S6400.size hh) hs = iSl L 1 := Memref.slice_unit_congr _ rfl _ _ _ _
theorem iSl2 (L : grid0.Coords) (hh hs) : (iV).slice (Rect.unit (s := S819200) (k0_off1 L 614400#32) S6400.size hh) hs = iSl L 2 := Memref.slice_unit_congr _ rfl _ _ _ _

end Cert.KernelIdeal.Sc

end
-- ==== Proof.ScRing.lean ====
/-
  The ring of four row buffers a vector subcore keeps in flight over one index buffer and one table, and the invariant
  of a chunk loop over it.

  The index buffer is 32 blocks of 200 words; stream `g` gathers the 200 rows of the table that block `g` names into
  a row buffer. Chunk `k`, slot `b` lands stream `4 k + b` and re-fires stream `4 k + b + 4` into the same row buffer:
  before virtual point `p = 4 k + b` the blocks `p … p + 3` are out with the four slots and every other block is home.
  A flight carries the row buffer (delivered written whole with the named rows), the block, and the slot's read token
  of the table. The pooled array's plane is held chunk by chunk (sixteen rows each): the chunks before the trip hold
  the pooled value, the others anything.
-/
import proofs.«207262_g39728447488703_cont_8to1_b_1934_40_alg».proof.Proof.ScCanon
import Idealize.ShloMosaic.Lib.Ring
import Idealize.ShloMosaic.Lib.SparseCore.Stream
import Idealize.ShloMosaic.Lib.Transfers
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The pieces of the ring: a block of the index buffer at home, a row buffer held, its cell, its read token of the
table, a row buffer in flight with a block's rows -/

section Pieces

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare)

/-- Every word of the index buffer names a row of the table. -/
def IdxOK : Prop := ∀ (g : Fin 32) (x : S200.Idx), ((blk sK g).view.read (Elt F) X x).toNat < 100000

/-- A DMA semaphore at zero. -/
abbrev cellP (sm : DmaSems sig S_) : sProp 𝕄 := semVal (thrOf d L, SemLoc.dma sm.sem) 0
/-- A row buffer held whole. -/
abbrev slotP (sR : Memref sig .scVector .vmem S200x128 .f32) (f : Buf (Elt F) (sR.view.loc (thrOf d L))) : sProp 𝕄 :=
  sR.view.loc (thrOf d L) ↦{fullShare} f
/-- Block `g` of the index buffer at home: held on its 200 words at the buffer's contents. -/
abbrev homeP (g : Fin 32) : sProp 𝕄 := (blk sK g).view.loc (thrOf d L) ↦[(blk sK g).view.set]{fullShare} X
/-- Ring slot `b`'s read token of the table, whole. -/
abbrev tokP (b : Fin 4) : sProp 𝕄 := tV.view.loc (thrOf d L) ↦{Transfers.shareTok q 4 b} T

variable (hX : IdxOK d L sK X)

/-- The 200 rows of the table that block `g`'s words name. -/
abbrev gathered (g : Fin 32) : S200x128.Idx → Elt F .f32 :=
  SparseCore.gatherPayload gathers_S100000x128_S200x128 ((tblW tV).view.read (Elt F) T)
    (SparseCore.rows ((blk sK g).view.read (Elt F) X) rfl (hX g))
/-- What the gather of block `g` leaves in a row buffer over prior contents `f`. -/
abbrev landed (sR : Memref sig .scVector .vmem S200x128 .f32) (g : Fin 32) (f : Buf (Elt F) (sR.view.loc (thrOf d L))) :
    Buf (Elt F) (sR.view.loc (thrOf d L)) :=
  sR.view.writes (Elt F) f [⟨Rect.whole S200x128, gathered d L tV T sK X hX g⟩]
/-- Ring slot `b` IN FLIGHT with block `g`'s rows, issued over `f`: the wait hands back the row buffer landed (held
    whole), the block and the slot's token; beside the flight sits what the issue left of the token outside the transfer's
    window (nothing: the window is the whole table), which the wait joins back. -/
abbrev flightP (sR : Memref sig .scVector .vmem S200x128 .f32) (sm : DmaSems sig S_) (b : Fin 4) (g : Fin 32)
    (f : Buf (Elt F) (sR.view.loc (thrOf d L))) : sProp 𝕄 :=
  iprop(Transfers.Flight countersEmb (thrOf d L) (SemLoc.dma sm.sem) default 819200
      iprop(((sR.view.loc (thrOf d L) ↦{fullShare} landed d L tV T sK X hX sR g f) ∗ homeP d L sK X g)
        ∗ (tV.view.loc (thrOf d L) ↦[(tblW tV).view.set]{Transfers.shareTok q 4 b} T))
    ∗ (tV.view.loc (thrOf d L) ↦[Finset.univ \ (tblW tV).view.set]{Transfers.shareTok q 4 b} T))
/-- The flight a re-fire leaves, as the run states it: into the row buffer as the previous block's flight delivered it
    (restated over junk), the new block's rows consed on. -/
theorem flightP_after (sR : Memref sig .scVector .vmem S200x128 .f32) (sm : DmaSems sig S_) (b : Fin 4) (g g' : Fin 32) :
    flightP d L tV T sK X q hX sR sm b g' (sR.view.writes (Elt F) sR.view.junk [⟨Rect.whole S200x128, gathered d L tV T sK X hX g⟩])
      = iprop(Transfers.Flight countersEmb (thrOf d L) (SemLoc.dma sm.sem) default 819200
          iprop(((sR.view.loc (thrOf d L) ↦{fullShare} sR.view.writes (Elt F) sR.view.junk
                    [⟨Rect.whole S200x128, gathered d L tV T sK X hX g'⟩, ⟨Rect.whole S200x128, gathered d L tV T sK X hX g⟩])
                ∗ homeP d L sK X g')
            ∗ (tV.view.loc (thrOf d L) ↦[(tblW tV).view.set]{Transfers.shareTok q 4 b} T))
        ∗ (tV.view.loc (thrOf d L) ↦[Finset.univ \ (tblW tV).view.set]{Transfers.shareTok q 4 b} T)) := by
  simp only [flightP, landed, View.writes]
/-- Ring slot `b` idle: its cell at zero, its row buffer at anything, its token. -/
abbrev idleP (sR : Memref sig .scVector .vmem S200x128 .f32) (sm : DmaSems sig S_) (b : Fin 4) : sProp 𝕄 :=
  iprop(cellP d L sm ∗ (∃ f, slotP d L sR f) ∗ tokP d L tV T q b)
/-- Ring slot `b` whose next stream to land is `n`: in flight with it if there is such a stream, else idle. -/
def slotAt (sR : Memref sig .scVector .vmem S200x128 .f32) (sm : DmaSems sig S_) (b : Fin 4) (n : ℕ) : sProp 𝕄 :=
  if n < 32 then iprop(∃ f, flightP d L tV T sK X q hX sR sm b (Ring.bk 32 n) f) else idleP d L tV T q sR sm b
theorem slotAt_lt (sR : Memref sig .scVector .vmem S200x128 .f32) (sm : DmaSems sig S_) (b : Fin 4) {n : ℕ} (h : n < 32) :
    slotAt d L tV T sK X q hX sR sm b n = iprop(∃ f, flightP d L tV T sK X q hX sR sm b (Ring.bk 32 n) f) := if_pos h
theorem slotAt_ge (sR : Memref sig .scVector .vmem S200x128 .f32) (sm : DmaSems sig S_) (b : Fin 4) {n : ℕ} (h : ¬ n < 32) :
    slotAt d L tV T sK X q hX sR sm b n = idleP d L tV T q sR sm b := if_neg h
/-- The ring before virtual point `p`: blocks `p … p + 3` out with the four slots, the others home. -/
def ringAt (p : ℕ) : sProp 𝕄 :=
  iprop(bigSep (Ring.homeSet (NB := 32) 4 p) (homeP d L sK X)
    ∗ slotAt d L tV T sK X q hX s2 cc0_scratch7 0 (p + 0) ∗ slotAt d L tV T sK X q hX s3 cc0_scratch8 1 (p + 1)
    ∗ slotAt d L tV T sK X q hX s4 cc0_scratch9 2 (p + 2) ∗ slotAt d L tV T sK X q hX s5 cc0_scratch10 3 (p + 3))

end Pieces

/-! ## The home blocks regrouped by chunk -/

section Regroup

/-- The blocks no slot holds before or after chunk `k`. -/
def chunkRest (k : ℕ) : Finset (Fin 32) := Finset.univ.filter fun g => g.val < 4 * k ∨ 4 * k + 8 ≤ g.val

theorem bigSep_insert4 {S R : Finset (Fin 32)} (Φ : Fin 32 → sProp 𝕄) (a0 a1 a2 a3 : Fin 32)
    (e : S = insert a0 (insert a1 (insert a2 (insert a3 R))))
    (h0 : a0 ∉ insert a1 (insert a2 (insert a3 R))) (h1 : a1 ∉ insert a2 (insert a3 R)) (h2 : a2 ∉ insert a3 R) (h3 : a3 ∉ R) :
    bigSep S Φ = iprop(Φ a0 ∗ Φ a1 ∗ Φ a2 ∗ Φ a3 ∗ bigSep R Φ) := by
  rw [e, bigSep_insert h0, bigSep_insert h1, bigSep_insert h2, bigSep_insert h3]; rfl

/-- Before chunk `k < 7`: the four blocks the chunk re-fires, beside the rest. -/
theorem chunk_homes_here (Φ : Fin 32 → sProp 𝕄) (k : ℕ) (hk : k < 7) :
    bigSep (Ring.homeSet (NB := 32) 4 (4 * k)) Φ
      = iprop(Φ (Ring.bk 32 (4 * k + 0 + 4)) ∗ Φ (Ring.bk 32 (4 * k + 1 + 4)) ∗ Φ (Ring.bk 32 (4 * k + 2 + 4)) ∗ Φ (Ring.bk 32 (4 * k + 3 + 4))
          ∗ bigSep (chunkRest k) Φ) := by
  apply bigSep_insert4
  · ext g
    simp only [Finset.mem_insert, Ring.mem_homeSet, chunkRest, Finset.mem_filter, Finset.mem_univ, true_and, Fin.ext_iff,
      Ring.bk_val (show 4 * k + 0 + 4 < 32 by omega), Ring.bk_val (show 4 * k + 1 + 4 < 32 by omega),
      Ring.bk_val (show 4 * k + 2 + 4 < 32 by omega), Ring.bk_val (show 4 * k + 3 + 4 < 32 by omega)]
    omega
  all_goals
    simp only [Finset.mem_insert, chunkRest, Finset.mem_filter, Finset.mem_univ, true_and, Fin.ext_iff,
      Ring.bk_val (show 4 * k + 0 + 4 < 32 by omega), Ring.bk_val (show 4 * k + 1 + 4 < 32 by omega),
      Ring.bk_val (show 4 * k + 2 + 4 < 32 by omega), Ring.bk_val (show 4 * k + 3 + 4 < 32 by omega)]
    omega

/-- Before chunk `k + 1` (`k < 7`): the four blocks chunk `k` landed, beside the same rest. -/
theorem chunk_homes_next (Φ : Fin 32 → sProp 𝕄) (k : ℕ) (hk : k < 7) :
    bigSep (Ring.homeSet (NB := 32) 4 (4 * (k + 1))) Φ
      = iprop(Φ (Ring.bk 32 (4 * k + 0)) ∗ Φ (Ring.bk 32 (4 * k + 1)) ∗ Φ (Ring.bk 32 (4 * k + 2)) ∗ Φ (Ring.bk 32 (4 * k + 3))
          ∗ bigSep (chunkRest k) Φ) := by
  apply bigSep_insert4
  · ext g
    simp only [Finset.mem_insert, Ring.mem_homeSet, chunkRest, Finset.mem_filter, Finset.mem_univ, true_and, Fin.ext_iff,
      Ring.bk_val (show 4 * k + 0 < 32 by omega), Ring.bk_val (show 4 * k + 1 < 32 by omega),
      Ring.bk_val (show 4 * k + 2 < 32 by omega), Ring.bk_val (show 4 * k + 3 < 32 by omega)]
    omega
  all_goals
    simp only [Finset.mem_insert, chunkRest, Finset.mem_filter, Finset.mem_univ, true_and, Fin.ext_iff,
      Ring.bk_val (show 4 * k + 0 < 32 by omega), Ring.bk_val (show 4 * k + 1 < 32 by omega),
      Ring.bk_val (show 4 * k + 2 < 32 by omega), Ring.bk_val (show 4 * k + 3 < 32 by omega)]
    omega

/-- After the last chunk every block is home: the four it landed beside those home before it. -/
theorem chunk_homes_last (Φ : Fin 32 → sProp 𝕄) :
    bigSep (Ring.homeSet (NB := 32) 4 (4 * (7 + 1))) Φ
      = iprop(Φ (Ring.bk 32 (4 * 7 + 0)) ∗ Φ (Ring.bk 32 (4 * 7 + 1)) ∗ Φ (Ring.bk 32 (4 * 7 + 2)) ∗ Φ (Ring.bk 32 (4 * 7 + 3))
          ∗ bigSep (Ring.homeSet (NB := 32) 4 (4 * 7)) Φ) := by
  apply bigSep_insert4
  · ext g
    simp only [Finset.mem_insert, Ring.mem_homeSet, Fin.ext_iff,
      Ring.bk_val (show 4 * 7 + 0 < 32 by omega), Ring.bk_val (show 4 * 7 + 1 < 32 by omega),
      Ring.bk_val (show 4 * 7 + 2 < 32 by omega), Ring.bk_val (show 4 * 7 + 3 < 32 by omega)]
    omega
  all_goals
    simp only [Finset.mem_insert, Ring.mem_homeSet, Fin.ext_iff,
      Ring.bk_val (show 4 * 7 + 0 < 32 by omega), Ring.bk_val (show 4 * 7 + 1 < 32 by omega),
      Ring.bk_val (show 4 * 7 + 2 < 32 by omega), Ring.bk_val (show 4 * 7 + 3 < 32 by omega)]
    omega

/-- The same, the last chunk a variable. -/
theorem chunk_homes_last' (Φ : Fin 32 → sProp 𝕄) (k : ℕ) (hk : k = 7) :
    bigSep (Ring.homeSet (NB := 32) 4 (4 * (k + 1))) Φ
      = iprop(Φ (Ring.bk 32 (4 * k + 0)) ∗ Φ (Ring.bk 32 (4 * k + 1)) ∗ Φ (Ring.bk 32 (4 * k + 2)) ∗ Φ (Ring.bk 32 (4 * k + 3))
          ∗ bigSep (Ring.homeSet (NB := 32) 4 (4 * k)) Φ) := by
  subst hk; exact chunk_homes_last Φ

theorem bk32_next (k b : ℕ) : Ring.bk 32 (4 * (k + 1) + b) = Ring.bk 32 (4 * k + b + 4) := by
  congr 1; omega

end Regroup

/-! ## The pooled array's chunks, the scratch of one chunk's means, what the subcore owes -/

section Plane

variable (m : (ℓ : Loc nD τ sig) → Buf (Elt F) ℓ) (d : Dev nD) (L : grid0.Coords)

/-- Chunk `c` (sixteen rows) of plane `t` of the worker's rows of the pooled array, held at `f`. -/
abbrev chunkP (t : Fin 3) (c : Fin 8) (f : Buf (Elt F) (oLoc d)) : sProp 𝕄 :=
  (outCh L t c).view.loc (thrOf d L) ↦[(outCh L t c).view.set]{fullShare} f
/-- Before trip `k` of plane `t`'s loop: the chunks before `k` hold the pooled value, the others anything. -/
def chunkAt (t : Fin 3) (k : ℕ) (c : Fin 8) : sProp 𝕄 :=
  if c.val < k then chunkP d L t c (pooledArr m d) else iprop(∃ f, chunkP d L t c f)
def planeAt (t : Fin 3) (k : ℕ) : sProp 𝕄 := bigSep Finset.univ (chunkAt m d L t k)

/-- Before trip `k`: chunk `k` at anything, beside the others. -/
theorem plane_here (t : Fin 3) (k : ℕ) (hk : k < 8) :
    planeAt m d L t k = iprop((∃ f, chunkP d L t (Ring.bk 8 k) f) ∗ bigSep (Finset.univ.erase (Ring.bk 8 k)) (chunkAt m d L t k)) := by
  unfold planeAt
  rw [SparseCore.bigSep_erase' (Finset.mem_univ (Ring.bk 8 k))]
  congr 1
  unfold chunkAt; rw [if_neg (by rw [Ring.bk_val hk]; omega)]
/-- Before trip `k + 1`: chunk `k` at the pooled value, beside the same others. -/
theorem plane_next (t : Fin 3) (k : ℕ) (hk : k < 8) :
    planeAt m d L t (k + 1) = iprop(chunkP d L t (Ring.bk 8 k) (pooledArr m d) ∗ bigSep (Finset.univ.erase (Ring.bk 8 k)) (chunkAt m d L t k)) := by
  unfold planeAt
  rw [SparseCore.bigSep_erase' (Finset.mem_univ (Ring.bk 8 k))]
  congr 1
  · unfold chunkAt; rw [if_pos (by rw [Ring.bk_val hk]; omega)]
  · apply bigSep_congr
    intro c hc
    have hne : c.val ≠ k := fun e => (Finset.mem_erase.mp hc).1 (Fin.ext (by rw [Ring.bk_val hk]; exact e))
    unfold chunkAt
    by_cases h : c.val < k
    · rw [if_pos h, if_pos (by omega)]
    · rw [if_neg h, if_neg (by omega)]

/-- The scratch of a chunk's sixteen means, at anything. -/
abbrev meansP : sProp 𝕄 := iprop(∃ f, (s6).view.loc (thrOf d L) ↦{fullShare} f)
/-- The subcore's recorded waits: the launch's, and waits of its own local transfers. -/
abbrev owesP (O : CellTallies nD τ sig (HIx 1)) (W : Waits sig (HIx 1)) : sProp 𝕄 :=
  iprop(∃ W', ⌜∀ p ∈ W', p ∈ W ∨ p.2 = none⌝ ∗ owes (thrOf d L) O W')

end Plane

/-! ## The invariant of a chunk loop whose re-fires stay within one table and one index buffer (the third loop; the
first two loops' invariant is this one at trips below 8 beside the other index buffer held whole, and at trip 8 the
next table's ring at point 0 beside this buffer's blocks all home) -/

section Inv

variable (m : (ℓ : Loc nD τ sig) → Buf (Elt F) ℓ) (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)
  (smO : DmaSems sig S_) (t : Fin 3) (O : CellTallies nD τ sig (HIx 1)) (W : Waits sig (HIx 1))

/-- Before trip `k` of plane `t`'s chunk loop: the ring at point `4 k`, the means' scratch, the copy-out's cell, the
    plane's chunks, the subcore's waits. -/
def resAt (k : ℕ) : sProp 𝕄 :=
  iprop(ringAt d L tV T sK X q hX (4 * k) ∗ meansP d L ∗ cellP d L smO ∗ planeAt m d L t k
    ∗ Transfers.MayWaits (thrOf d L) (default : HIx 1) O ∗ owesP d L O W)

end Inv

end Cert.KernelIdeal.Sc

end
-- ==== Proof.ScCanonSets.lean ====
/-
  The element sets behind the names of a vector subcore's memref slices: an index buffer's 6400 words are its 32
  blocks of 200, pairwise disjoint; the 128 rows a worker owns of each of the three planes of the pooled array are
  its 24 chunks of sixteen rows (three planes, eight chunks a plane), pairwise disjoint; and when each slot's
  conditional re-fires run: at every trip but the last the next block of the same buffer, at the last trip the first
  blocks of the other buffer.
-/
import proofs.«207262_g39728447488703_cont_8to1_b_1934_40_alg».proof.Proof.ScCanon

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Tactic

variable {F : FTy → Type} [FloatOps F] [Named F]

local notation "𝕄" => MT nD τ sig (HIx 1) (Elt F) ℕ UU ℕ

/-! ## Element sets: an index buffer's 32 blocks, the pooled array's chunks -/

/-- Block `g`'s words. -/
abbrev B32 (g : Fin 32) : Finset S6400.Idx := (Rect.unit (s := S6400) (blkOff g) S200.size (blkOff_inb g)).set

theorem blk_set0 (g : Fin 32) : (blk s0 g).view.set = B32 g := View.set_slice_whole _ _
theorem blk_set1 (g : Fin 32) : (blk s1 g).view.set = B32 g := View.set_slice_whole _ _

theorem mem_B32 (g : Fin 32) (y : S6400.Idx) : y ∈ B32 g ↔ 200 * g.val ≤ (y 0).val ∧ (y 0).val < 200 * g.val + 200 := by
  rw [Rect.mem_set_unit]
  constructor
  · intro H; exact H 0
  · intro H a; fin_cases a; exact H

/-- The blocks are pairwise disjoint and cover the buffer. -/
theorem B32_disjoint (g g' : Fin 32) (h : g ≠ g') : Disjoint (B32 g) (B32 g') :=
  Ring.lead_disjoint (s := S6400) (NB := 32) (⟨0, by decide⟩ : Fin S6400.rank) 200 (fun g => blkOff g) S200.size blkOff_inb (fun _ => rfl) rfl g g' h

theorem B32_cover : Finset.univ.biUnion B32 = Finset.univ :=
  Ring.lead_cover (s := S6400) (NB := 32) (⟨0, by decide⟩ : Fin S6400.rank) 200 (fun g => blkOff g) S200.size blkOff_inb (fun _ => rfl)
    (fun b a ha => by fin_cases a; exact absurd rfl ha) rfl (fun a ha => by fin_cases a; exact absurd rfl ha) rfl

/-- Chunk `k` of plane `t` of worker `L`'s rows. -/
abbrev O16 (L : grid0.Coords) (t : Fin 3) (k : Fin 8) : Finset S3x4096x128.Idx :=
  (Rect.unit (s := S3x4096x128) (outOff L t k) S1x16x128.size (outOff_inb L t k)).set

theorem outCh_set (L : grid0.Coords) (t : Fin 3) (k : Fin 8) : (outCh L t k).view.set = O16 L t k :=
  (View.set_reshape _ _).trans (View.set_slice_whole _ _)

theorem mem_O16 (L : grid0.Coords) (t : Fin 3) (k : Fin 8) (y : S3x4096x128.Idx) :
    y ∈ O16 L t k ↔ (y 0).val = t.val ∧ 256 * (L 1).val + 128 * (L 0).val + 16 * k.val ≤ (y 1).val
      ∧ (y 1).val < 256 * (L 1).val + 128 * (L 0).val + 16 * k.val + 16 := by
  rw [Rect.mem_set_unit]
  have h2 : (y 2).val < 128 := (y 2).isLt
  constructor
  · intro H
    have a0 : t.val ≤ (y 0).val ∧ (y 0).val < t.val + 1 := H 0
    have a1 : 256 * (L 1).val + 128 * (L 0).val + 16 * k.val ≤ (y 1).val ∧ (y 1).val < 256 * (L 1).val + 128 * (L 0).val + 16 * k.val + 16 := H 1
    omega
  · intro H a; fin_cases a
    · show t.val ≤ (y 0).val ∧ (y 0).val < t.val + 1; omega
    · show 256 * (L 1).val + 128 * (L 0).val + 16 * k.val ≤ (y 1).val ∧ (y 1).val < 256 * (L 1).val + 128 * (L 0).val + 16 * k.val + 16; omega
    · show 0 ≤ (y 2).val ∧ (y 2).val < 0 + 128; omega

/-- Worker `w`'s rows of the pooled array are rows `128 w … 128 w + 127` of every plane. -/
theorem mem_oSet (w : Fin 32) (y : S3x4096x128.Idx) : y ∈ oSet w ↔ 128 * w.val ≤ (y 1).val ∧ (y 1).val < 128 * w.val + 128 := by
  have e : oSet w = (oPart w).set := View.set_slice_whole _ _
  rw [e, Rect.mem_set_unit]
  have h0 : (y 0).val < 3 := (y 0).isLt
  have h2 : (y 2).val < 128 := (y 2).isLt
  constructor
  · intro H
    have a1 : w.val * 128 ≤ (y 1).val ∧ (y 1).val < w.val * 128 + 128 := H 1
    omega
  · intro H a; fin_cases a
    · show 0 * 3 ≤ (y 0).val ∧ (y 0).val < 0 * 3 + 3; omega
    · show w.val * 128 ≤ (y 1).val ∧ (y 1).val < w.val * 128 + 128; omega
    · show 0 * 128 ≤ (y 2).val ∧ (y 2).val < 0 * 128 + 128; omega

/-- A worker's chunks lie in its rows, -/
theorem O16_subset (L : grid0.Coords) (t : Fin 3) (k : Fin 8) : O16 L t k ⊆ oSet (wOf (cL L) (sL L)) := by
  intro y hy
  rw [mem_O16] at hy; rw [mem_oSet]
  have hk := k.isLt
  show 128 * (2 * (L 1).val + (L 0).val) ≤ (y 1).val ∧ (y 1).val < 128 * (2 * (L 1).val + (L 0).val) + 128
  omega

/-- are pairwise disjoint, -/
theorem O16_disjoint (L : grid0.Coords) (t t' : Fin 3) (k k' : Fin 8) (h : t ≠ t' ∨ k ≠ k') : Disjoint (O16 L t k) (O16 L t' k') := by
  rw [Finset.disjoint_left]
  intro y hy hy'
  rw [mem_O16] at hy hy'
  rcases h with h | h
  · exact h (Fin.ext (by omega))
  · exact h (Fin.ext (by omega))

/-- and cover them. -/
theorem O16_cover (L : grid0.Coords) :
    (Finset.univ : Finset (Fin 3 × Fin 8)).biUnion (fun p => O16 L p.1 p.2) = oSet (wOf (cL L) (sL L)) := by
  ext y
  simp only [Finset.mem_biUnion, Finset.mem_univ, true_and]
  constructor
  · rintro ⟨p, hp⟩; exact O16_subset L p.1 p.2 hp
  · intro hy
    rw [mem_oSet] at hy
    have hy' : 128 * (2 * (L 1).val + (L 0).val) ≤ (y 1).val ∧ (y 1).val < 128 * (2 * (L 1).val + (L 0).val) + 128 := hy
    have h0 : (y 0).val < 3 := (y 0).isLt
    refine ⟨(⟨(y 0).val, h0⟩, ⟨((y 1).val - (256 * (L 1).val + 128 * (L 0).val)) / 16, by omega⟩), ?_⟩
    rw [mem_O16]
    show (y 0).val = (y 0).val ∧ 256 * (L 1).val + 128 * (L 0).val + 16 * (((y 1).val - (256 * (L 1).val + 128 * (L 0).val)) / 16) ≤ (y 1).val
      ∧ (y 1).val < 256 * (L 1).val + 128 * (L 0).val + 16 * (((y 1).val - (256 * (L 1).val + 128 * (L 0).val)) / 16) + 16
    omega

/-! ## An index buffer held block by block -/

theorem blk_disjoint0 (g g' : Fin 32) (h : g ≠ g') : Disjoint (blk s0 g).view.set (blk s0 g').view.set := by
  rw [blk_set0, blk_set0]; exact B32_disjoint g g' h
theorem blk_disjoint1 (g g' : Fin 32) (h : g ≠ g') : Disjoint (blk s1 g).view.set (blk s1 g').view.set := by
  rw [blk_set1, blk_set1]; exact B32_disjoint g g' h

/-- Different residues below 32 name different blocks. -/
theorem bk32_ne {a b : ℕ} (ha : a < 32) (hb : b < 32) (h : a ≠ b) : Ring.bk 32 a ≠ Ring.bk 32 b := fun e =>
  h (by have e' := congrArg Fin.val e; rwa [Ring.bk_val ha, Ring.bk_val hb] at e')

/-- An index buffer held whole is held block by block. -/
theorem idx_blocks0 (d : Dev nD) (L : grid0.Coords) (q : PosShare TreeShare) (f : Buf (Elt F) ((thrOf d L).loc cc0_scratch0)) :
    ((s0).view.loc (thrOf d L) ↦{q} f : sProp 𝕄)
      = bigSep Finset.univ fun g : Fin 32 => ((s0).view.loc (thrOf d L) ↦[(blk s0 g).view.set]{q} f : sProp 𝕄) := by
  simp only [blk_set0]
  exact Ring.pointsTo_blocks (ℓ := (thrOf d L).loc cc0_scratch0) B32 B32_disjoint B32_cover f
theorem idx_blocks1 (d : Dev nD) (L : grid0.Coords) (q : PosShare TreeShare) (f : Buf (Elt F) ((thrOf d L).loc cc0_scratch1)) :
    ((s1).view.loc (thrOf d L) ↦{q} f : sProp 𝕄)
      = bigSep Finset.univ fun g : Fin 32 => ((s1).view.loc (thrOf d L) ↦[(blk s1 g).view.set]{q} f : sProp 𝕄) := by
  simp only [blk_set1]
  exact Ring.pointsTo_blocks (ℓ := (thrOf d L).loc cc0_scratch1) B32 B32_disjoint B32_cover f

/-! ## The re-fires' conditions -/

theorem cond1_iff : ∀ k : Fin k0_t1_loop.trips, k0_cond1 k = 1#1 ↔ k.val < 7 := by decide +kernel
theorem cond2_iff : ∀ k : Fin k0_t1_loop.trips, k0_cond2 k = 1#1 ↔ k.val = 7 := by decide +kernel
theorem cond3_iff : ∀ k : Fin k0_t1_loop.trips, k0_cond3 k = 1#1 ↔ k.val < 7 := by decide +kernel
theorem cond4_iff : ∀ k : Fin k0_t1_loop.trips, k0_cond4 k = 1#1 ↔ k.val = 7 := by decide +kernel
theorem cond5_iff : ∀ k : Fin k0_t1_loop.trips, k0_cond5 k = 1#1 ↔ k.val < 7 := by decide +kernel
theorem cond6_iff : ∀ k : Fin k0_t1_loop.trips, k0_cond6 k = 1#1 ↔ k.val = 7 := by decide +kernel
theorem cond7_iff : ∀ k : Fin k0_t1_loop.trips, k0_cond7 k = 1#1 ↔ k.val < 7 := by decide +kernel
theorem cond8_iff : ∀ k : Fin k0_t1_loop.trips, k0_cond8 k = 1#1 ↔ k.val = 7 := by decide +kernel
theorem cond9_iff : ∀ k : Fin k0_t18_loop.trips, k0_cond9 k = 1#1 ↔ k.val < 7 := by decide +kernel
theorem cond10_iff : ∀ k : Fin k0_t18_loop.trips, k0_cond10 k = 1#1 ↔ k.val = 7 := by decide +kernel
theorem cond11_iff : ∀ k : Fin k0_t18_loop.trips, k0_cond11 k = 1#1 ↔ k.val < 7 := by decide +kernel
theorem cond12_iff : ∀ k : Fin k0_t18_loop.trips, k0_cond12 k = 1#1 ↔ k.val = 7 := by decide +kernel
theorem cond13_iff : ∀ k : Fin k0_t18_loop.trips, k0_cond13 k = 1#1 ↔ k.val < 7 := by decide +kernel
theorem cond14_iff : ∀ k : Fin k0_t18_loop.trips, k0_cond14 k = 1#1 ↔ k.val = 7 := by decide +kernel
theorem cond15_iff : ∀ k : Fin k0_t18_loop.trips, k0_cond15 k = 1#1 ↔ k.val < 7 := by decide +kernel
theorem cond16_iff : ∀ k : Fin k0_t18_loop.trips, k0_cond16 k = 1#1 ↔ k.val = 7 := by decide +kernel
theorem cond17_iff : ∀ k : Fin k0_t35_loop.trips, k0_cond17 k = 1#1 ↔ k.val < 7 := by decide +kernel
theorem cond18_iff : ∀ k : Fin k0_t35_loop.trips, k0_cond18 k = 1#1 ↔ k.val < 7 := by decide +kernel
theorem cond19_iff : ∀ k : Fin k0_t35_loop.trips, k0_cond19 k = 1#1 ↔ k.val < 7 := by decide +kernel
theorem cond20_iff : ∀ k : Fin k0_t35_loop.trips, k0_cond20 k = 1#1 ↔ k.val < 7 := by decide +kernel

end Cert.KernelIdeal.Sc

end
-- ==== Proof.ScRingSets.lean ====
/-
  A ring of depth four over 32 blocks, advanced FOUR points a trip: which blocks are home before point p, taken apart
  into the four about to go out (p + 4 … p + 7), or the four just back (p … p + 3), and the blocks neither (below p or
  from p + 8 on). Stated over any spelling of the eight blocks (a block is named by its number).
-/
import Idealize.ShloMosaic.Lib.Ring

noncomputable section

namespace Cert.KernelIdeal.Sc

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M]

/-- The blocks that stay home through the four steps from point p: below p, or from p + 8 on. -/
def restSet (p : ℕ) : Finset (Fin 32) := Finset.univ.filter fun b => b.val < p ∨ p + 8 ≤ b.val

theorem mem_restSet (p : ℕ) (b : Fin 32) : b ∈ restSet p ↔ b.val < p ∨ p + 8 ≤ b.val := by
  simp only [restSet, Finset.mem_filter, Finset.mem_univ, true_and]

/-- Before point p, with four more to go out: the homes are the next four beside the rest. -/
theorem homeSet_here (p : ℕ) (g0 g1 g2 g3 : Fin 32) (h0 : g0.val = p + 4) (h1 : g1.val = p + 5) (h2 : g2.val = p + 6) (h3 : g3.val = p + 7) :
    Ring.homeSet (NB := 32) 4 p = insert g0 (insert g1 (insert g2 (insert g3 (restSet p)))) := by
  ext b
  simp only [Ring.mem_homeSet, Finset.mem_insert, mem_restSet, Fin.ext_iff, h0, h1, h2, h3]
  omega

/-- Before point p + 4: the four just back beside the rest. -/
theorem homeSet_next (p : ℕ) (g0 g1 g2 g3 : Fin 32) (h0 : g0.val = p) (h1 : g1.val = p + 1) (h2 : g2.val = p + 2) (h3 : g3.val = p + 3) :
    Ring.homeSet (NB := 32) 4 (p + 4) = insert g0 (insert g1 (insert g2 (insert g3 (restSet p)))) := by
  ext b
  simp only [Ring.mem_homeSet, Finset.mem_insert, mem_restSet, Fin.ext_iff, h0, h1, h2, h3]
  omega

/-- Before the last four points nothing more goes out: the homes are the rest. -/
theorem homeSet_here_last (p : ℕ) (hp : 32 ≤ p + 4) : Ring.homeSet (NB := 32) 4 p = restSet p := by
  ext b
  have := b.isLt
  simp only [Ring.mem_homeSet, mem_restSet]
  omega

theorem bigSep_four_rest (Φ : Fin 32 → sProp M) (S : Finset (Fin 32)) (g0 g1 g2 g3 : Fin 32)
    (n0 : g0 ∉ insert g1 (insert g2 (insert g3 S))) (n1 : g1 ∉ insert g2 (insert g3 S)) (n2 : g2 ∉ insert g3 S) (n3 : g3 ∉ S) :
    bigSep (insert g0 (insert g1 (insert g2 (insert g3 S)))) Φ = iprop(Φ g0 ∗ Φ g1 ∗ Φ g2 ∗ Φ g3 ∗ bigSep S Φ) := by
  rw [bigSep_insert n0, bigSep_insert n1, bigSep_insert n2, bigSep_insert n3]; rfl

/-- The homes before point p as separate resources: the four about to go out, then the rest. -/
theorem homes_here (Φ : Fin 32 → sProp M) (p : ℕ) (g0 g1 g2 g3 : Fin 32)
    (h0 : g0.val = p + 4) (h1 : g1.val = p + 5) (h2 : g2.val = p + 6) (h3 : g3.val = p + 7) :
    bigSep (Ring.homeSet (NB := 32) 4 p) Φ = iprop(Φ g0 ∗ Φ g1 ∗ Φ g2 ∗ Φ g3 ∗ bigSep (restSet p) Φ) := by
  rw [homeSet_here p g0 g1 g2 g3 h0 h1 h2 h3]
  refine bigSep_four_rest Φ _ g0 g1 g2 g3 ?_ ?_ ?_ ?_ <;>
    simp only [Finset.mem_insert, mem_restSet, Fin.ext_iff, h0, h1, h2, h3] <;> omega

/-- The homes before point p + 4: the four just back, then the rest. -/
theorem homes_next (Φ : Fin 32 → sProp M) (p : ℕ) (g0 g1 g2 g3 : Fin 32)
    (h0 : g0.val = p) (h1 : g1.val = p + 1) (h2 : g2.val = p + 2) (h3 : g3.val = p + 3) :
    bigSep (Ring.homeSet (NB := 32) 4 (p + 4)) Φ = iprop(Φ g0 ∗ Φ g1 ∗ Φ g2 ∗ Φ g3 ∗ bigSep (restSet p) Φ) := by
  rw [homeSet_next p g0 g1 g2 g3 h0 h1 h2 h3]
  refine bigSep_four_rest Φ _ g0 g1 g2 g3 ?_ ?_ ?_ ?_ <;>
    simp only [Finset.mem_insert, mem_restSet, Fin.ext_iff, h0, h1, h2, h3] <;> omega

/-- Every block, as the first four beside the homes before point 0. -/
theorem homes_all (Φ : Fin 32 → sProp M) (g0 g1 g2 g3 : Fin 32)
    (h0 : g0.val = 0) (h1 : g1.val = 1) (h2 : g2.val = 2) (h3 : g3.val = 3) :
    bigSep (Finset.univ : Finset (Fin 32)) Φ = iprop(Φ g0 ∗ Φ g1 ∗ Φ g2 ∗ Φ g3 ∗ bigSep (Ring.homeSet (NB := 32) 4 0) Φ) := by
  have e : (Finset.univ : Finset (Fin 32)) = insert g0 (insert g1 (insert g2 (insert g3 (Ring.homeSet (NB := 32) 4 0)))) := by
    ext b
    simp only [Finset.mem_univ, Finset.mem_insert, Ring.mem_homeSet, Fin.ext_iff, h0, h1, h2, h3, true_iff]
    omega
  rw [e]
  refine bigSep_four_rest Φ _ g0 g1 g2 g3 ?_ ?_ ?_ ?_ <;>
    simp only [Finset.mem_insert, Ring.mem_homeSet, Fin.ext_iff, h0, h1, h2, h3] <;> omega

end Cert.KernelIdeal.Sc

end
-- ==== Proof.ScPlanes.lean ====
/-
  The rows of the pooled array a worker owns, as its three planes' chunks: held on the worker's rectangle at one
  contents, the array is held chunk by chunk (three planes, eight chunks of sixteen rows a plane) at those contents,
  and back; a plane before its first trip holds every chunk at anything, after its eighth every chunk at the pooled
  value; trip `k` turns chunk `k` from anything to the pooled value and leaves the other chunks as they were.
-/
import proofs.«207262_g39728447488703_cont_8to1_b_1934_40_alg».proof.Proof.ScRing
import proofs.«207262_g39728447488703_cont_8to1_b_1934_40_alg».proof.Proof.ScCanonSets

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (d : Dev nD) (L : grid0.Coords)

/-! ## The worker's rectangle is its 24 chunks -/

/-- A chunk held is the pooled array held on the chunk's rows. -/
theorem chunkP_eq (t : Fin 3) (c : Fin 8) (f : Buf (Elt F) (oLoc d)) :
    (chunkP d L t c f : sProp 𝕄) = ((oV).view.loc (thrOf d L) ↦[O16 L t c]{fullShare} f : sProp 𝕄) :=
  congrArg (fun I : Finset S3x4096x128.Idx => ((oV).view.loc (thrOf d L) ↦[I]{fullShare} f : sProp 𝕄)) (outCh_set L t c)

/-- The worker's rows held at one contents are its chunks held at those contents, plane by plane. -/
theorem rows_chunks (f : Buf (Elt F) (oLoc d)) :
    ((oV).view.loc (thrOf d L) ↦[oSet (wOf (cL L) (sL L))]{fullShare} f : sProp 𝕄)
      = iprop((bigSep Finset.univ fun c : Fin 8 => chunkP d L 0 c f) ∗ (bigSep Finset.univ fun c : Fin 8 => chunkP d L 1 c f)
          ∗ (bigSep Finset.univ fun c : Fin 8 => chunkP d L 2 c f)) := by
  have h1 := pointsTo_biUnion (Ix := HIx 1) (Name := ℕ) (U := UU) (Lvl := ℕ) (ℓ := (oV).view.loc (thrOf d L)) (q := fullShare) (f := f)
    (Finset.univ : Finset (Fin 3 × Fin 8)) (fun p => O16 L p.1 p.2)
    (fun p _ p' _ h => O16_disjoint L p.1 p'.1 p.2 p'.2 (by
      by_contra hc; rw [not_or, not_not, not_not] at hc; exact h (Prod.ext hc.1 hc.2)))
  rw [← O16_cover L]
  refine h1.trans ?_
  rw [BI.bigSep_univ_prod, Ring.bigSep_fin3]
  simp only [chunkP_eq]

/-! ## A plane before its first trip, after its last, across a trip -/

theorem planeAt_zero (t : Fin 3) : planeAt m d L t 0 = bigSep Finset.univ fun c : Fin 8 => (iprop(∃ f, chunkP d L t c f) : sProp 𝕄) := by
  unfold planeAt
  exact BI.bigSep_congr fun c _ => by unfold chunkAt; rw [if_neg (Nat.not_lt_zero _)]

theorem planeAt_full (t : Fin 3) : planeAt m d L t 8 = bigSep Finset.univ fun c : Fin 8 => (chunkP d L t c (pooledArr m d) : sProp 𝕄) := by
  unfold planeAt
  exact BI.bigSep_congr fun c _ => by unfold chunkAt; rw [if_pos c.isLt]

/-- The chunks other than `k`, as trip `k` finds and leaves them. -/
abbrev planeRest (t : Fin 3) (k : Fin 8) : sProp 𝕄 := bigSep (Finset.univ.erase k) (chunkAt m d L t k.val)

/-- Before trip `k`: chunk `k` at anything, beside the others; -/
theorem planeAt_here (t : Fin 3) (k : Fin 8) :
    planeAt m d L t k.val = iprop((∃ f, chunkP d L t k f) ∗ planeRest m d L t k) := by
  unfold planeAt
  rw [BI.bigSep_univ_split k]
  congr 1
  unfold chunkAt; rw [if_neg (Nat.lt_irrefl _)]

/-- after it: chunk `k` at the pooled value, beside the same others. -/
theorem planeAt_next (t : Fin 3) (k : Fin 8) :
    planeAt m d L t (k.val + 1) = iprop(chunkP d L t k (pooledArr m d) ∗ planeRest m d L t k) := by
  unfold planeAt
  rw [BI.bigSep_univ_split k]
  congr 1
  · unfold chunkAt; rw [if_pos (Nat.lt_succ_self _)]
  · refine BI.bigSep_congr fun c hc => ?_
    have hne : c.val ≠ k.val := fun e => (Finset.mem_erase.mp hc).1 (Fin.ext e)
    unfold chunkAt
    by_cases h : c.val < k.val
    · rw [if_pos h, if_pos (by omega)]
    · rw [if_neg h, if_neg (by omega)]

/-! ## In: the worker's rows at anything are the three planes before their first trips; out: the three planes after
their last trips are the worker's rows at the pooled value -/

/-- Chunks held at one contents are chunks held at anything. -/
theorem chunks_any (t : Fin 3) (f : Buf (Elt F) (oLoc d)) :
    (bigSep Finset.univ fun c : Fin 8 => (chunkP d L t c f : sProp 𝕄)) ⊢ bigSep Finset.univ fun c : Fin 8 => (iprop(∃ f, chunkP d L t c f) : sProp 𝕄) :=
  BI.bigSep_mono fun c _ => BIClass.exists_intro (Φ := fun f : Buf (Elt F) (oLoc d) => (chunkP d L t c f : sProp 𝕄)) f

theorem planes_split :
    (iprop(∃ f, (oV).view.loc (thrOf d L) ↦[oSet (wOf (cL L) (sL L))]{fullShare} f) : sProp 𝕄)
      ⊢ iprop(planeAt m d L 0 0 ∗ planeAt m d L 1 0 ∗ planeAt m d L 2 0) := by
  rw [planeAt_zero, planeAt_zero, planeAt_zero]
  iintro ⟨%f, H⟩
  ihave H' := (Entails.of_eq (rows_chunks d L f)) $$ H
  icases H' with ⟨H0, H1, H2⟩
  isplitl [H0]
  · iapply (chunks_any d L 0 f); iexact H0
  isplitl [H1]
  · iapply (chunks_any d L 1 f); iexact H1
  · iapply (chunks_any d L 2 f); iexact H2

theorem planes_join :
    (iprop(planeAt m d L 0 8 ∗ planeAt m d L 1 8 ∗ planeAt m d L 2 8) : sProp 𝕄)
      ⊢ ((oV).view.loc (thrOf d L) ↦[oSet (wOf (cL L) (sL L))]{fullShare} pooledArr m d : sProp 𝕄) := by
  rw [planeAt_full, planeAt_full, planeAt_full, rows_chunks d L (pooledArr m d)]

/-! ## Where the named slices live, and a whole table's elements -/

/-- A block of an index buffer lives in the buffer; a whole-table slice in the table; a chunk in the pooled array. -/
theorem blk_loc (sK : Memref sig .scVector .vmem S6400 .i32) (g : Fin 32) : (blk sK g).view.loc (thrOf d L) = sK.view.loc (thrOf d L) := rfl
theorem tblW_loc (tV : Memref sig .scVector .hbm S100000x128 .f32) : (tblW tV).view.loc (thrOf d L) = tV.view.loc (thrOf d L) := rfl
theorem outCh_loc (t : Fin 3) (c : Fin 8) : (outCh L t c).view.loc (thrOf d L) = (oV).view.loc (thrOf d L) := rfl

/-- The whole-table slice of a table holds every element. -/
theorem unit00_set (inb) : (Rect.unit (s := S100000x128) ![0, 0] S100000x128.size inb).set = Finset.univ := by
  refine Finset.eq_univ_iff_forall.mpr fun y => Rect.mem_set_unit.mpr fun a => ?_
  have h0 : (y 0).val < 100000 := (y 0).isLt
  have h1 : (y 1).val < 128 := (y 1).isLt
  fin_cases a
  · show 0 ≤ (y 0).val ∧ (y 0).val < 0 + 100000; omega
  · show 0 ≤ (y 1).val ∧ (y 1).val < 0 + 128; omega
theorem tblW_set_a : (tblW aV).view.set = Finset.univ := (View.set_slice_whole _ _).trans (unit00_set _)
theorem tblW_set_b : (tblW bV).view.set = Finset.univ := (View.set_slice_whole _ _).trans (unit00_set _)
theorem tblW_set_c : (tblW cV).view.set = Finset.univ := (View.set_slice_whole _ _).trans (unit00_set _)

end Cert.KernelIdeal.Sc

end
-- ==== Proof.ScPhase0Defs.lean ====
/-
  The first chunk loop of a vector subcore: what it holds before each trip.

  The loop pools plane 0: trip k lands the four streams 4 k … 4 k + 3 of the first table over the first index buffer,
  averages their segments into the sixteen rows of chunk k, and re-fires streams 4 k + 4 … 4 k + 7; its last trip
  instead fires the first four streams of the SECOND table over the second index buffer, so that the next loop starts
  with its ring already in flight.
-/
import proofs.«207262_g39728447488703_cont_8to1_b_1934_40_alg».proof.Proof.ScRing

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

/-- The four ring slots' read tokens of a table, none lent. -/
abbrev toks (tV : Memref sig .scVector .hbm S100000x128 .f32) (T : Buf (Elt F) (tV.view.loc (thrOf d L))) : sProp 𝕄 :=
  iprop(tokP d L tV T q 0 ∗ tokP d L tV T q 1 ∗ tokP d L tV T q 2 ∗ tokP d L tV T q 3)

/-- Before trip `k` of the first chunk loop. Below trip 8: the first table's ring over the first index buffer at chunk
    `k`, beside the second index buffer's blocks all home and the second table's tokens. At trip 8: the second table's
    ring over the second index buffer before its first point, beside the first buffer's blocks all home, the first
    table's tokens, and plane 0 complete. -/
def inv0 (k : ℕ) : sProp 𝕄 :=
  if k < 8 then
    iprop(resAt m d L aV (m (aLoc d)) s0 X0 q hX0 cc0_scoped2 0 O W k
      ∗ bigSep Finset.univ (homeP d L s1 X1) ∗ toks d L q bV (m (bLoc d)))
  else
    iprop(ringAt d L bV (m (bLoc d)) s1 X1 q hX1 0
      ∗ bigSep Finset.univ (homeP d L s0 X0) ∗ toks d L q aV (m (aLoc d))
      ∗ meansP d L ∗ cellP d L cc0_scoped2 ∗ planeAt m d L 0 8
      ∗ Transfers.MayWaits (thrOf d L) (default : HIx 1) O ∗ owesP d L O W)

theorem inv0_lt (k : ℕ) (h : k < 8) :
    inv0 m d L q X0 hX0 X1 hX1 O W k
      = iprop(resAt m d L aV (m (aLoc d)) s0 X0 q hX0 cc0_scoped2 0 O W k
          ∗ bigSep Finset.univ (homeP d L s1 X1) ∗ toks d L q bV (m (bLoc d))) := if_pos h

theorem inv0_ge (k : ℕ) (h : ¬ k < 8) :
    inv0 m d L q X0 hX0 X1 hX1 O W k
      = iprop(ringAt d L bV (m (bLoc d)) s1 X1 q hX1 0
          ∗ bigSep Finset.univ (homeP d L s0 X0) ∗ toks d L q aV (m (aLoc d))
          ∗ meansP d L ∗ cellP d L cc0_scoped2 ∗ planeAt m d L 0 8
          ∗ Transfers.MayWaits (thrOf d L) (default : HIx 1) O ∗ owesP d L O W) := if_neg h

end Phase0

end Cert.KernelIdeal.Sc

end
-- ==== Proof.ScTileMid.lean ====
/-
  Between the chunk loops of a vector subcore's task: how the state one loop leaves is the state the next one starts
  from.

  The first loop runs table a's ring over index buffer 0 and, in its last trip, fires table b's first four streams over
  index buffer 1; the second runs table b's ring over buffer 1 and fires table c's first four over buffer 0, restaged
  before it; the third runs table c's ring over buffer 0 and fires nothing further. An index buffer held whole is its 32
  blocks at home; after a ring's last point every block is home and the four slots are idle.
-/
import proofs.«207262_g39728447488703_cont_8to1_b_1934_40_alg».proof.Proof.ScRing
import proofs.«207262_g39728447488703_cont_8to1_b_1934_40_alg».proof.Proof.ScCanonSets
import proofs.«207262_g39728447488703_cont_8to1_b_1934_40_alg».proof.Proof.ScPhase0Defs

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The end of a ring -/

/-- Before point 32 no block is out. -/
theorem homeSet_end : Ring.homeSet (NB := 32) 4 32 = Finset.univ :=
  Finset.eq_univ_iff_forall.mpr fun b => by rw [Ring.mem_homeSet]; have := b.isLt; omega

section Ring

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)

/-- After the last chunk: every block of the index buffer home, the four slots idle. -/
theorem ringAt_end :
    (ringAt d L tV T sK X q hX 32 : sProp 𝕄)
      ⊢ iprop(bigSep Finset.univ (homeP d L sK X) ∗ idleP d L tV T q s2 cc0_scratch7 0 ∗ idleP d L tV T q s3 cc0_scratch8 1
          ∗ idleP d L tV T q s4 cc0_scratch9 2 ∗ idleP d L tV T q s5 cc0_scratch10 3) := by
  unfold ringAt slotAt
  rw [homeSet_end, if_neg (by decide), if_neg (by decide), if_neg (by decide), if_neg (by decide)]

/-- The start of a ring: the first four blocks out with the four slots, the others home. -/
theorem ringAt_enter :
    iprop(bigSep (Ring.homeSet (NB := 32) 4 0) (homeP d L sK X)
        ∗ (∃ f, flightP d L tV T sK X q hX s2 cc0_scratch7 0 (Ring.bk 32 0) f) ∗ (∃ f, flightP d L tV T sK X q hX s3 cc0_scratch8 1 (Ring.bk 32 1) f)
        ∗ (∃ f, flightP d L tV T sK X q hX s4 cc0_scratch9 2 (Ring.bk 32 2) f) ∗ (∃ f, flightP d L tV T sK X q hX s5 cc0_scratch10 3 (Ring.bk 32 3) f))
      ⊢ (ringAt d L tV T sK X q hX 0 : sProp 𝕄) := by
  unfold ringAt slotAt
  rw [if_pos (by decide), if_pos (by decide), if_pos (by decide), if_pos (by decide)]

end Ring

/-! ## The hand-overs -/

section Phases

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (O : CellTallies nD τ sig (HIx 1)) (W : Waits sig (HIx 1))

/-- Index buffer 0 whole is its 32 blocks at home. -/
theorem s0_home : ((s0).view.loc (thrOf d L) ↦{fullShare} X0 : sProp 𝕄) = bigSep Finset.univ (homeP d L s0 X0) :=
  idx_blocks0 d L fullShare X0
/-- Index buffer 1 whole is its 32 blocks at home. -/
theorem s1_home : ((s1).view.loc (thrOf d L) ↦{fullShare} X1 : sProp 𝕄) = bigSep Finset.univ (homeP d L s1 X1) :=
  idx_blocks1 d L fullShare X1

variable (hX0 : IdxOK d L s0 X0) (hX1 : IdxOK d L s1 X1)

/-- Into the first loop: table a's ring at its start over buffer 0; buffer 1, just staged, by blocks; table b's four
    tokens idle. -/
theorem enter1 :
    iprop(ringAt d L aV (m (aLoc d)) s0 X0 q hX0 0 ∗ ((s1).view.loc (thrOf d L) ↦{fullShare} X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped2 ∗ planeAt m d L 0 0
        ∗ Transfers.MayWaits (thrOf d L) (default : HIx 1) O ∗ owesP d L O W)
      ⊢ (iprop(resAt m d L aV (m (aLoc d)) s0 X0 q hX0 cc0_scoped2 0 O W 0 ∗ bigSep Finset.univ (homeP d L s1 X1)
          ∗ tokP d L bV (m (bLoc d)) q 0 ∗ tokP d L bV (m (bLoc d)) q 1 ∗ tokP d L bV (m (bLoc d)) q 2 ∗ tokP d L bV (m (bLoc d)) q 3) : sProp 𝕄) := by
  unfold resAt
  rw [← s1_home d L X1]
  iintro ⟨Hring, H1, Hb0, Hb1, Hb2, Hb3, Hm, Hc, Hp, Hmw, HO⟩
  isplitl [Hring Hm Hc Hp Hmw HO]
  · isplitl [Hring]; · iexact Hring
    isplitl [Hm]; · iexact Hm
    isplitl [Hc]; · iexact Hc
    isplitl [Hp]; · iexact Hp
    isplitl [Hmw]; · iexact Hmw
    iexact HO
  isplitl [H1]; · iexact H1
  isplitl [Hb0]; · iexact Hb0
  isplitl [Hb1]; · iexact Hb1
  isplitl [Hb2]; · iexact Hb2
  iexact Hb3

/-- Out of the first loop, for the restaging of buffer 0: it is whole again. -/
theorem leave1 :
    iprop(ringAt d L bV (m (bLoc d)) s1 X1 q hX1 0 ∗ bigSep Finset.univ (homeP d L s0 X0)
        ∗ tokP d L aV (m (aLoc d)) q 0 ∗ tokP d L aV (m (aLoc d)) q 1 ∗ tokP d L aV (m (aLoc d)) q 2 ∗ tokP d L aV (m (aLoc d)) q 3
        ∗ meansP d L ∗ cellP d L cc0_scoped2 ∗ planeAt m d L 0 8
        ∗ Transfers.MayWaits (thrOf d L) (default : HIx 1) O ∗ owesP d L O W)
      ⊢ (iprop(((s0).view.loc (thrOf d L) ↦{fullShare} X0) ∗ ringAt d L bV (m (bLoc d)) s1 X1 q hX1 0
          ∗ tokP d L aV (m (aLoc d)) q 0 ∗ tokP d L aV (m (aLoc d)) q 1 ∗ tokP d L aV (m (aLoc d)) q 2 ∗ tokP d L aV (m (aLoc d)) q 3
          ∗ meansP d L ∗ cellP d L cc0_scoped2 ∗ planeAt m d L 0 8
          ∗ Transfers.MayWaits (thrOf d L) (default : HIx 1) O ∗ owesP d L O W) : sProp 𝕄) := by
  rw [s0_home d L X0]
  iintro ⟨Hring, H0, Hrest⟩
  isplitl [H0]; · iexact H0
  isplitl [Hring]; · iexact Hring
  iexact Hrest

/-- Into the second loop: table b's ring where the first loop's last trip left it; buffer 0, restaged, by blocks;
    table c's four tokens idle. -/
theorem enter2 :
    iprop(ringAt d L bV (m (bLoc d)) s1 X1 q hX1 0 ∗ ((s0).view.loc (thrOf d L) ↦{fullShare} X0)
        ∗ tokP d L cV (m (cLoc d)) q 0 ∗ tokP d L cV (m (cLoc d)) q 1 ∗ tokP d L cV (m (cLoc d)) q 2 ∗ tokP d L cV (m (cLoc d)) q 3
        ∗ meansP d L ∗ cellP d L cc0_scoped4 ∗ planeAt m d L 1 0
        ∗ Transfers.MayWaits (thrOf d L) (default : HIx 1) O ∗ owesP d L O W)
      ⊢ (iprop(ringAt d L bV (m (bLoc d)) s1 X1 q hX1 (4 * 0) ∗ bigSep Finset.univ (homeP d L s0 X0)
          ∗ tokP d L cV (m (cLoc d)) q 0 ∗ tokP d L cV (m (cLoc d)) q 1 ∗ tokP d L cV (m (cLoc d)) q 2 ∗ tokP d L cV (m (cLoc d)) q 3
          ∗ meansP d L ∗ cellP d L cc0_scoped4 ∗ planeAt m d L 1 0
          ∗ Transfers.MayWaits (thrOf d L) (default : HIx 1) O ∗ owesP d L O W) : sProp 𝕄) := by
  rw [← s0_home d L X0]

/-- Out of the second loop into the third: table c's ring at its start over buffer 0 with the third plane and its
    copy-out cell; buffer 1 whole again, table b's tokens, the second plane done. -/
theorem leave2 :
    iprop((ringAt d L cV (m (cLoc d)) s0 X0 q hX0 (4 * 0) ∗ bigSep Finset.univ (homeP d L s1 X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped4 ∗ planeAt m d L 1 8
        ∗ Transfers.MayWaits (thrOf d L) (default : HIx 1) O ∗ owesP d L O W)
        ∗ cellP d L cc0_scoped5 ∗ planeAt m d L 2 0 ∗ Transfers.MayWaits (thrOf d L) (default : HIx 1) O)
      ⊢ (iprop(resAt m d L cV (m (cLoc d)) s0 X0 q hX0 cc0_scoped5 2 O W 0
          ∗ ((s1).view.loc (thrOf d L) ↦{fullShare} X1)
          ∗ tokP d L bV (m (bLoc d)) q 0 ∗ tokP d L bV (m (bLoc d)) q 1 ∗ tokP d L bV (m (bLoc d)) q 2 ∗ tokP d L bV (m (bLoc d)) q 3
          ∗ cellP d L cc0_scoped4 ∗ planeAt m d L 1 8) : sProp 𝕄) := by
  unfold resAt
  rw [s1_home d L X1]
  iintro ⟨⟨Hring, H1, Hb0, Hb1, Hb2, Hb3, Hm, Hc4, Hp1, -, HO⟩, Hc5, Hp2, Hmw⟩
  isplitl [Hring Hm Hc5 Hp2 Hmw HO]
  · isplitl [Hring]; · iexact Hring
    isplitl [Hm]; · iexact Hm
    isplitl [Hc5]; · iexact Hc5
    isplitl [Hp2]; · iexact Hp2
    isplitl [Hmw]; · iexact Hmw
    iexact HO
  isplitl [H1]; · iexact H1
  isplitl [Hb0]; · iexact Hb0
  isplitl [Hb1]; · iexact Hb1
  isplitl [Hb2]; · iexact Hb2
  isplitl [Hb3]; · iexact Hb3
  isplitl [Hc4]; · iexact Hc4
  iexact Hp1

/-- Out of the third loop: buffer 0 whole, the four slots idle (cell at zero, row buffer at anything, table c's
    token), the third plane done. -/
theorem leave3 :
    (resAt m d L cV (m (cLoc d)) s0 X0 q hX0 cc0_scoped5 2 O W 8 : sProp 𝕄)
      ⊢ iprop(((s0).view.loc (thrOf d L) ↦{fullShare} X0)
          ∗ idleP d L cV (m (cLoc d)) q s2 cc0_scratch7 0 ∗ idleP d L cV (m (cLoc d)) q s3 cc0_scratch8 1
          ∗ idleP d L cV (m (cLoc d)) q s4 cc0_scratch9 2 ∗ idleP d L cV (m (cLoc d)) q s5 cc0_scratch10 3
          ∗ meansP d L ∗ cellP d L cc0_scoped5 ∗ planeAt m d L 2 8
          ∗ Transfers.MayWaits (thrOf d L) (default : HIx 1) O ∗ owesP d L O W) := by
  unfold resAt
  rw [s0_home d L X0]
  iintro ⟨Hring, Hrest⟩
  ihave H := (ringAt_end d L cV (m (cLoc d)) s0 X0 q hX0) $$ Hring
  icases H with ⟨Hh, Hi0, Hi1, Hi2, Hi3⟩
  isplitl [Hh]; · iexact Hh
  isplitl [Hi0]; · iexact Hi0
  isplitl [Hi1]; · iexact Hi1
  isplitl [Hi2]; · iexact Hi2
  isplitl [Hi3]; · iexact Hi3
  iexact Hrest

/-! ### The same, over the first loop's invariant as stated -/

/-- Into the first loop: its invariant before trip 0. -/
theorem enter1' :
    iprop(ringAt d L aV (m (aLoc d)) s0 X0 q hX0 0 ∗ ((s1).view.loc (thrOf d L) ↦{fullShare} X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped2 ∗ planeAt m d L 0 0
        ∗ Transfers.MayWaits (thrOf d L) (default : HIx 1) O ∗ owesP d L O W)
      ⊢ (inv0 m d L q X0 hX0 X1 hX1 O W 0 : sProp 𝕄) := by
  rw [inv0_lt m d L q X0 hX0 X1 hX1 O W 0 (by decide)]
  exact enter1 m d L q X0 X1 O W hX0

/-- Out of the first loop: its invariant after the last trip gives buffer 0 whole for the restaging, the second table's
    ring at its start, the first table's tokens, the first plane done. -/
theorem leave1' :
    (inv0 m d L q X0 hX0 X1 hX1 O W 8 : sProp 𝕄)
      ⊢ iprop(((s0).view.loc (thrOf d L) ↦{fullShare} X0) ∗ ringAt d L bV (m (bLoc d)) s1 X1 q hX1 0
          ∗ tokP d L aV (m (aLoc d)) q 0 ∗ tokP d L aV (m (aLoc d)) q 1 ∗ tokP d L aV (m (aLoc d)) q 2 ∗ tokP d L aV (m (aLoc d)) q 3
          ∗ meansP d L ∗ cellP d L cc0_scoped2 ∗ planeAt m d L 0 8
          ∗ Transfers.MayWaits (thrOf d L) (default : HIx 1) O ∗ owesP d L O W) := by
  rw [inv0_ge m d L q X0 hX0 X1 hX1 O W 8 (by decide), s0_home d L X0]
  iintro ⟨Hring, H0, ⟨Ht0, Ht1, Ht2, Ht3⟩, Hrest⟩
  isplitl [H0]; · iexact H0
  isplitl [Hring]; · iexact Hring
  isplitl [Ht0]; · iexact Ht0
  isplitl [Ht1]; · iexact Ht1
  isplitl [Ht2]; · iexact Ht2
  isplitl [Ht3]; · iexact Ht3
  iexact Hrest

end Phases

end Cert.KernelIdeal.Sc

end
-- ==== Proof.ScPhase1Defs.lean ====
/-
  The second table's chunk loop (eight trips, one chunk of sixteen pooled rows a trip), what it holds before each trip.

  Below trip 8 the second table's ring runs over index buffer 1: before trip k its four slots are in flight with blocks
  4 k … 4 k + 3, the other blocks home; index buffer 0 (holding the third stretch) has its 32 blocks home and the third
  table's four slot tokens are idle. The last trip, instead of re-firing from buffer 1, fires the third table's first four
  blocks from buffer 0: at trip 8 the third table's ring stands at its start over buffer 0, buffer 1's blocks are all home
  and the second table's tokens idle. Plane 1's chunks before k hold the pooled value.
-/
import proofs.«207262_g39728447488703_cont_8to1_b_1934_40_alg».proof.Proof.ScRing
import proofs.«207262_g39728447488703_cont_8to1_b_1934_40_alg».proof.Proof.ScCanon
import proofs.«207262_g39728447488703_cont_8to1_b_1934_40_alg».proof.Proof.ScCanonSets
import proofs.«207262_g39728447488703_cont_8to1_b_1934_40_alg».proof.Proof.ScRingSets
import Idealize.ShloMosaic.Lib.Ring
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Phase1

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1)
  (O : CellTallies nD τ sig (HIx 1)) (W : Waits sig (HIx 1))

/-- Before trip k of the second table's chunk loop. Below trip 8: the second table's ring over index buffer 1 at point
    4 k, index buffer 0's 32 blocks all home, the third table's four slot tokens idle, the means' scratch, the copy-out's
    cell, plane 1's chunks, the subcore's waits. At trip 8 (the loop's exit): the third table's ring over index buffer 0
    at point 0 (the last trip fired it), index buffer 1's blocks all home, the second table's tokens idle. -/
def inv1 (k : ℕ) : sProp 𝕄 :=
  if k < 8 then
    iprop(ringAt d L bV (m (bLoc d)) s1 X1 q hX1 (4 * k)
      ∗ bigSep Finset.univ (homeP d L s0 X0)
      ∗ tokP d L cV (m (cLoc d)) q 0 ∗ tokP d L cV (m (cLoc d)) q 1 ∗ tokP d L cV (m (cLoc d)) q 2 ∗ tokP d L cV (m (cLoc d)) q 3
      ∗ meansP d L ∗ cellP d L cc0_scoped4 ∗ planeAt m d L 1 k
      ∗ Transfers.MayWaits (thrOf d L) (default : HIx 1) O ∗ owesP d L O W)
  else
    iprop(ringAt d L cV (m (cLoc d)) s0 X0 q hX0 (4 * 0)
      ∗ bigSep Finset.univ (homeP d L s1 X1)
      ∗ tokP d L bV (m (bLoc d)) q 0 ∗ tokP d L bV (m (bLoc d)) q 1 ∗ tokP d L bV (m (bLoc d)) q 2 ∗ tokP d L bV (m (bLoc d)) q 3
      ∗ meansP d L ∗ cellP d L cc0_scoped4 ∗ planeAt m d L 1 8
      ∗ Transfers.MayWaits (thrOf d L) (default : HIx 1) O ∗ owesP d L O W)

theorem inv1_zero : inv1 m d L q X0 X1 hX0 hX1 O W 0
    = iprop(ringAt d L bV (m (bLoc d)) s1 X1 q hX1 (4 * 0) ∗ bigSep Finset.univ (homeP d L s0 X0)
        ∗ tokP d L cV (m (cLoc d)) q 0 ∗ tokP d L cV (m (cLoc d)) q 1 ∗ tokP d L cV (m (cLoc d)) q 2 ∗ tokP d L cV (m (cLoc d)) q 3
        ∗ meansP d L ∗ cellP d L cc0_scoped4 ∗ planeAt m d L 1 0
        ∗ Transfers.MayWaits (thrOf d L) (default : HIx 1) O ∗ owesP d L O W) := by
  unfold inv1; exact if_pos (by decide)

theorem inv1_eight : inv1 m d L q X0 X1 hX0 hX1 O W 8
    = iprop(ringAt d L cV (m (cLoc d)) s0 X0 q hX0 (4 * 0) ∗ bigSep Finset.univ (homeP d L s1 X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped4 ∗ planeAt m d L 1 8
        ∗ Transfers.MayWaits (thrOf d L) (default : HIx 1) O ∗ owesP d L O W) := by
  unfold inv1; exact if_neg (by decide)

end Phase1

section Glue

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)

/-- The ring at its start: blocks 0 … 3 out with the four slots, the others home. -/
theorem ringAt_point0 : ringAt d L tV T sK X q hX (4 * 0)
    = iprop(bigSep (Ring.homeSet (NB := 32) 4 0) (homeP d L sK X)
        ∗ (∃ f, flightP d L tV T sK X q hX s2 cc0_scratch7 0 (Ring.bk 32 0) f) ∗ (∃ f, flightP d L tV T sK X q hX s3 cc0_scratch8 1 (Ring.bk 32 1) f)
        ∗ (∃ f, flightP d L tV T sK X q hX s4 cc0_scratch9 2 (Ring.bk 32 2) f) ∗ (∃ f, flightP d L tV T sK X q hX s5 cc0_scratch10 3 (Ring.bk 32 3) f)) := by
  unfold ringAt
  rw [slotAt_lt _ _ _ _ _ _ _ _ _ _ _ (show 4 * 0 + 0 < 32 by decide), slotAt_lt _ _ _ _ _ _ _ _ _ _ _ (show 4 * 0 + 1 < 32 by decide),
    slotAt_lt _ _ _ _ _ _ _ _ _ _ _ (show 4 * 0 + 2 < 32 by decide), slotAt_lt _ _ _ _ _ _ _ _ _ _ _ (show 4 * 0 + 3 < 32 by decide)]

/-- Every block home: blocks 0 … 3 beside those home at the ring's start. -/
theorem homes_univ_start : bigSep Finset.univ (homeP d L sK X)
    = (iprop(homeP d L sK X (Ring.bk 32 0) ∗ homeP d L sK X (Ring.bk 32 1) ∗ homeP d L sK X (Ring.bk 32 2) ∗ homeP d L sK X (Ring.bk 32 3)
        ∗ bigSep (Ring.homeSet (NB := 32) 4 0) (homeP d L sK X)) : sProp 𝕄) :=
  homes_all (homeP d L sK X) (Ring.bk 32 0) (Ring.bk 32 1) (Ring.bk 32 2) (Ring.bk 32 3)
    (Ring.bk_val (by decide)) (Ring.bk_val (by decide)) (Ring.bk_val (by decide)) (Ring.bk_val (by decide))

/-- Every block home after the last trip: the four it landed beside those home before it. -/
theorem homes_univ_last (k : ℕ) (hk : k = 7) : bigSep Finset.univ (homeP d L sK X)
    = (iprop(homeP d L sK X (Ring.bk 32 (4 * k + 0)) ∗ homeP d L sK X (Ring.bk 32 (4 * k + 1)) ∗ homeP d L sK X (Ring.bk 32 (4 * k + 2))
        ∗ homeP d L sK X (Ring.bk 32 (4 * k + 3)) ∗ bigSep (Ring.homeSet (NB := 32) 4 (4 * k)) (homeP d L sK X)) : sProp 𝕄) := by
  rw [← chunk_homes_last' (homeP d L sK X) k hk, Ring.homeSet_last 4 (4 * (k + 1)) (by omega)]

/-- The flight a fire leaves over a row buffer last landed with ANY rows: the new block's rows consed on. -/
theorem flightP_afterG (sR : Memref sig .scVector .vmem S200x128 .f32) (sm : DmaSems sig S_) (b : Fin 4) (g' : Fin 32)
    (G : S200x128.Idx → Elt F .f32) :
    flightP d L tV T sK X q hX sR sm b g' (sR.view.writes (Elt F) sR.view.junk [⟨Rect.whole S200x128, G⟩])
      = iprop(Transfers.Flight countersEmb (thrOf d L) (SemLoc.dma sm.sem) default 819200
          iprop(((sR.view.loc (thrOf d L) ↦{fullShare} sR.view.writes (Elt F) sR.view.junk
                    [⟨Rect.whole S200x128, gathered d L tV T sK X hX g'⟩, ⟨Rect.whole S200x128, G⟩])
                ∗ homeP d L sK X g')
            ∗ (tV.view.loc (thrOf d L) ↦[(tblW tV).view.set]{Transfers.shareTok q 4 b} T))
        ∗ (tV.view.loc (thrOf d L) ↦[Finset.univ \ (tblW tV).view.set]{Transfers.shareTok q 4 b} T)) := by
  simp only [flightP, landed, View.writes]

end Glue

end Cert.KernelIdeal.Sc

end
-- ==== Proof.ScTileBody.lean ====
/-
  A vector subcore's task, whole: what the call hands it is taken apart (the tables' read shares into one token a ring
  slot, the scratch buffers and the ten DMA semaphores out of the subcore's own); the first stretch of the index array is
  staged and held block by block, the four first gathers issued, the second stretch staged; each of the three chunk
  loops is passed by its invariant, the index buffer restaged between the first and the second; at the end the
  tokens are rejoined, the pooled rows rejoined chunk by chunk at the pooled value, and the subcore's own handed back.
-/
import proofs.«207262_g39728447488703_cont_8to1_b_1934_40_alg».proof.Proof.ScTileDefs
import proofs.«207262_g39728447488703_cont_8to1_b_1934_40_alg».proof.Proof.ScTileVal
import proofs.«207262_g39728447488703_cont_8to1_b_1934_40_alg».proof.Proof.ScRing
import proofs.«207262_g39728447488703_cont_8to1_b_1934_40_alg».proof.Proof.ScCanonSets
import proofs.«207262_g39728447488703_cont_8to1_b_1934_40_alg».proof.Proof.ScRingSets
import proofs.«207262_g39728447488703_cont_8to1_b_1934_40_alg».proof.Proof.ScPlanes
import proofs.«207262_g39728447488703_cont_8to1_b_1934_40_alg».proof.Proof.ScTileMid
import proofs.«207262_g39728447488703_cont_8to1_b_1934_40_alg».proof.Proof.ScPhase0Defs
import proofs.«207262_g39728447488703_cont_8to1_b_1934_40_alg».proof.Proof.ScPhase1Defs
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## A table's read share as its four slot tokens and the remainder -/
/-- Four members, one by one. -/
theorem bigSep_fin4 {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

/-- A read share of a table as its four slot tokens and the remainder. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTok q 4 0} f) ∗ (ℓ ↦{Transfers.shareTok q 4 1} f)
      ∗ (ℓ ↦{Transfers.shareTok q 4 2} f) ∗ (ℓ ↦{Transfers.shareTok q 4 3} f)) := by
  have h : (ℓ ↦{q} f : sProp 𝕄) ⊣⊢ iprop((ℓ ↦{Transfers.shareDrop q 4} f) ∗ bigSep Finset.univ (fun i : Fin 4 => ℓ ↦{Transfers.shareTok q 4 i} f)) :=
    Transfers.pointsTo_toks q 4
  rw [bigSep_fin4] at h
  exact h

/-! ## The three chunk loops run eight trips each -/

theorem trips1_eq : Scf.trips k0_t1_loop.lb k0_t1_loop.ub k0_t1_loop.st = 8 := by decide
theorem trips18_eq : Scf.trips k0_t18_loop.lb k0_t18_loop.ub k0_t18_loop.st = 8 := by decide
theorem trips35_eq : Scf.trips k0_t35_loop.lb k0_t35_loop.ub k0_t35_loop.st = 8 := by decide

/-! ## The prologue's gathers, as the ring's slots in flight -/

section Fold

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)

/-- A gather issued over a row buffer held whole, beside what the issue left of the slot's token: the slot in flight. -/
theorem flight_fold (sR : Memref sig .scVector .vmem S200x128 .f32) (sm : DmaSems sig S_) (b : Fin 4)
    (g : Fin 32) (f : Buf (Elt F) (sR.view.loc (thrOf d L))) (pay : S200x128.Idx → Elt F .f32)
    (hpay : pay = gathered d L tV T sK X hX g) :
    (iprop(Transfers.Flight countersEmb (thrOf d L) (SemLoc.dma sm.sem) (default : HIx 1) 819200
        iprop(((sR.view.loc (thrOf d L) ↦{fullShare} sR.view.writes (Elt F) f [⟨Rect.whole S200x128, pay⟩]) ∗ homeP d L sK X g)
          ∗ (tV.view.loc (thrOf d L) ↦[(tblW tV).view.set]{Transfers.shareTok q 4 b} T))
      ∗ (tV.view.loc (thrOf d L) ↦[Finset.univ \ (tblW tV).view.set]{Transfers.shareTok q 4 b} T)) : sProp 𝕄)
      ⊢ flightP d L tV T sK X q hX sR sm b g f := by
  subst hpay
  iintro H; iexact H

/-- The four first gathers in flight beside the blocks they did not take: the ring at its start. -/
theorem ring_fold (f2 : Buf (Elt F) ((s2).view.loc (thrOf d L))) (f3 : Buf (Elt F) ((s3).view.loc (thrOf d L)))
    (f4 : Buf (Elt F) ((s4).view.loc (thrOf d L))) (f5 : Buf (Elt F) ((s5).view.loc (thrOf d L)))
    (p0 p1 p2 p3 : S200x128.Idx → Elt F .f32)
    (h0 : p0 = gathered d L tV T sK X hX (Ring.bk 32 0)) (h1 : p1 = gathered d L tV T sK X hX (Ring.bk 32 1))
    (h2 : p2 = gathered d L tV T sK X hX (Ring.bk 32 2)) (h3 : p3 = gathered d L tV T sK X hX (Ring.bk 32 3)) :
    (iprop(bigSep (Ring.homeSet (NB := 32) 4 0) (homeP d L sK X)
      ∗ (Transfers.Flight countersEmb (thrOf d L) (SemLoc.dma cc0_scratch7.sem) (default : HIx 1) 819200
          iprop((((s2).view.loc (thrOf d L) ↦{fullShare} (s2).view.writes (Elt F) f2 [⟨Rect.whole S200x128, p0⟩]) ∗ homeP d L sK X (Ring.bk 32 0))
            ∗ (tV.view.loc (thrOf d L) ↦[(tblW tV).view.set]{Transfers.shareTok q 4 0} T))
        ∗ (tV.view.loc (thrOf d L) ↦[Finset.univ \ (tblW tV).view.set]{Transfers.shareTok q 4 0} T))
      ∗ (Transfers.Flight countersEmb (thrOf d L) (SemLoc.dma cc0_scratch8.sem) (default : HIx 1) 819200
          iprop((((s3).view.loc (thrOf d L) ↦{fullShare} (s3).view.writes (Elt F) f3 [⟨Rect.whole S200x128, p1⟩]) ∗ homeP d L sK X (Ring.bk 32 1))
            ∗ (tV.view.loc (thrOf d L) ↦[(tblW tV).view.set]{Transfers.shareTok q 4 1} T))
        ∗ (tV.view.loc (thrOf d L) ↦[Finset.univ \ (tblW tV).view.set]{Transfers.shareTok q 4 1} T))
      ∗ (Transfers.Flight countersEmb (thrOf d L) (SemLoc.dma cc0_scratch9.sem) (default : HIx 1) 819200
          iprop((((s4).view.loc (thrOf d L) ↦{fullShare} (s4).view.writes (Elt F) f4 [⟨Rect.whole S200x128, p2⟩]) ∗ homeP d L sK X (Ring.bk 32 2))
            ∗ (tV.view.loc (thrOf d L) ↦[(tblW tV).view.set]{Transfers.shareTok q 4 2} T))
        ∗ (tV.view.loc (thrOf d L) ↦[Finset.univ \ (tblW tV).view.set]{Transfers.shareTok q 4 2} T))
      ∗ (Transfers.Flight countersEmb (thrOf d L) (SemLoc.dma cc0_scratch10.sem) (default : HIx 1) 819200
          iprop((((s5).view.loc (thrOf d L) ↦{fullShare} (s5).view.writes (Elt F) f5 [⟨Rect.whole S200x128, p3⟩]) ∗ homeP d L sK X (Ring.bk 32 3))
            ∗ (tV.view.loc (thrOf d L) ↦[(tblW tV).view.set]{Transfers.shareTok q 4 3} T))
        ∗ (tV.view.loc (thrOf d L) ↦[Finset.univ \ (tblW tV).view.set]{Transfers.shareTok q 4 3} T))) : sProp 𝕄)
      ⊢ ringAt d L tV T sK X q hX 0 := by
  unfold ringAt
  rw [slotAt_lt d L tV T sK X q hX s2 cc0_scratch7 0 (show 0 + 0 < 32 by decide), slotAt_lt d L tV T sK X q hX s3 cc0_scratch8 1 (show 0 + 1 < 32 by decide),
    slotAt_lt d L tV T sK X q hX s4 cc0_scratch9 2 (show 0 + 2 < 32 by decide), slotAt_lt d L tV T sK X q hX s5 cc0_scratch10 3 (show 0 + 3 < 32 by decide)]
  iintro ⟨Hh, HA, HB, HC, HD⟩
  isplitl [Hh]; · iexact Hh
  isplitl [HA]; · iexists f2; iapply (flight_fold d L tV T sK X q hX s2 cc0_scratch7 0 (Ring.bk 32 (0 + 0)) f2 p0 h0); iexact HA
  isplitl [HB]; · iexists f3; iapply (flight_fold d L tV T sK X q hX s3 cc0_scratch8 1 (Ring.bk 32 (0 + 1)) f3 p1 h1); iexact HB
  isplitl [HC]; · iexists f4; iapply (flight_fold d L tV T sK X q hX s4 cc0_scratch9 2 (Ring.bk 32 (0 + 2)) f4 p2 h2); iexact HC
  iexists f5; iapply (flight_fold d L tV T sK X q hX s5 cc0_scratch10 3 (Ring.bk 32 (0 + 3)) f5 p3 h3); iexact HD

end Fold

/-! ## The closing: the tokens rejoined, the planes rejoined -/

section Close

variable (d : Dev nD) (L : grid0.Coords)

/-- A table's remainder and four slot tokens, held under the vector subcore's name, are its read share. -/
theorem toks4_join (tV : Memref sig .scVector .hbm S100000x128 .f32) (T : Buf (Elt F) (tV.view.loc (thrOf d L))) (q : PosShare TreeShare) :
    (iprop((tV.view.loc (thrOf d L) ↦{Transfers.shareDrop q 4} T) ∗ (tV.view.loc (thrOf d L) ↦{Transfers.shareTok q 4 0} T)
      ∗ (tV.view.loc (thrOf d L) ↦{Transfers.shareTok q 4 1} T) ∗ (tV.view.loc (thrOf d L) ↦{Transfers.shareTok q 4 2} T)
      ∗ (tV.view.loc (thrOf d L) ↦{Transfers.shareTok q 4 3} T)) : sProp 𝕄) ⊢ tV.view.loc (thrOf d L) ↦{q} T :=
  (toks4 (F := F) T q).2

theorem tile_close (O : CellTallies nD τ sig (HIx 1)) (W : Waits sig (HIx 1)) (R1 R2 : sProp 𝕄) :
    (iprop(((iV).view.loc (thrOf d L) ↦{tileSh (cL L) (sL L)} m (iLoc d))
        ∗ (((aV).view.loc (thrOf d L) ↦{Transfers.shareDrop (tileSh (cL L) (sL L)) 4} m (aLoc d)) ∗ ((aV).view.loc (thrOf d L) ↦{Transfers.shareTok (tileSh (cL L) (sL L)) 4 0} m (aLoc d))
          ∗ ((aV).view.loc (thrOf d L) ↦{Transfers.shareTok (tileSh (cL L) (sL L)) 4 1} m (aLoc d)) ∗ ((aV).view.loc (thrOf d L) ↦{Transfers.shareTok (tileSh (cL L) (sL L)) 4 2} m (aLoc d))
          ∗ ((aV).view.loc (thrOf d L) ↦{Transfers.shareTok (tileSh (cL L) (sL L)) 4 3} m (aLoc d)))
        ∗ (((bV).view.loc (thrOf d L) ↦{Transfers.shareDrop (tileSh (cL L) (sL L)) 4} m (bLoc d)) ∗ ((bV).view.loc (thrOf d L) ↦{Transfers.shareTok (tileSh (cL L) (sL L)) 4 0} m (bLoc d))
          ∗ ((bV).view.loc (thrOf d L) ↦{Transfers.shareTok (tileSh (cL L) (sL L)) 4 1} m (bLoc d)) ∗ ((bV).view.loc (thrOf d L) ↦{Transfers.shareTok (tileSh (cL L) (sL L)) 4 2} m (bLoc d))
          ∗ ((bV).view.loc (thrOf d L) ↦{Transfers.shareTok (tileSh (cL L) (sL L)) 4 3} m (bLoc d)))
        ∗ (((cV).view.loc (thrOf d L) ↦{Transfers.shareDrop (tileSh (cL L) (sL L)) 4} m (cLoc d)) ∗ ((cV).view.loc (thrOf d L) ↦{Transfers.shareTok (tileSh (cL L) (sL L)) 4 0} m (cLoc d))
          ∗ ((cV).view.loc (thrOf d L) ↦{Transfers.shareTok (tileSh (cL L) (sL L)) 4 1} m (cLoc d)) ∗ ((cV).view.loc (thrOf d L) ↦{Transfers.shareTok (tileSh (cL L) (sL L)) 4 2} m (cLoc d))
          ∗ ((cV).view.loc (thrOf d L) ↦{Transfers.shareTok (tileSh (cL L) (sL L)) 4 3} m (cLoc d)))
        ∗ (planeAt m d L 0 8 ∗ planeAt m d L 1 8 ∗ planeAt m d L 2 8)
        ∗ R1 ∗ R2 ∗ owesP d L O W) : sProp 𝕄)
      ⊢ iprop((reads m d (tileSh (cL L) (sL L)) ∗ oOn d (oSet (wOf (cL L) (sL L))) (pooledArr m d)) ∗ R1 ∗ R2
          ∗ ∃ W', ⌜∀ p ∈ W', p ∈ W ∨ p.2 = none⌝ ∗ owes (thrOf d L) O W') := by
  iintro ⟨Hi, Ha, Hb, Hc, Hp, H1, H2, HO⟩
  isplitl [Hi Ha Hb Hc Hp]
  · isplitl [Hi Ha Hb Hc]
    · isplitl [Hi]; · iexact Hi
      isplitl [Ha]; · iapply (toks4_join (F := F) d L aV (m (aLoc d)) _); iexact Ha
      isplitl [Hb]; · iapply (toks4_join (F := F) d L bV (m (bLoc d)) _); iexact Hb
      iapply (toks4_join (F := F) d L cV (m (cLoc d)) _); iexact Hc
    · iapply (planes_join m d L); iexact Hp
  isplitl [H1]; · iexact H1
  isplitl [H2]; · iexact H2
  iexact HO

end Close

/-! ## The task, from the three chunk loops' steps -/

set_option maxHeartbeats 4000000 in
/-- The vector subcore's task, given one trip of each of the three chunk loops from its invariant to the next. -/
theorem tile_body_of (hF : (K (F := F)).Facts) (hpre : PreOK m) (d : Dev nD) (L : grid0.Coords) (O : CellTallies nD τ sig (HIx 1)) (W : Waits sig (HIx 1)) (hO : ∀ g, O g none = 0)
    (hstep0 : ∀ (X0 : Buf (Elt F) ((s0).view.loc (thrOf d L))) (hX0 : IdxOK d L s0 X0) (X1 : Buf (Elt F) ((s1).view.loc (thrOf d L))) (hX1 : IdxOK d L s1 X1)
      (_ : (s0).view.read (Elt F) X0 = idxBuf m d L 0) (v2 : BitVec 32) (k : Fin (Scf.trips k0_t1_loop.lb k0_t1_loop.ub k0_t1_loop.st)) (acc : PUnit),
      inv0 m d L (tileSh (cL L) (sL L)) X0 hX0 X1 hX1 O W k.val
        ⊢ wp frame (wpE (defs₀ (F := F)) 𝒱₀ (thrOf d L) none) Set.univ (k0_t1_body (F := F) L aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _) s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5 v2 0#32 1#32 k acc)
            fun _ => inv0 m d L (tileSh (cL L) (sL L)) X0 hX0 X1 hX1 O W (k.val + 1))
    (hstep1 : ∀ (X0 : Buf (Elt F) ((s0).view.loc (thrOf d L))) (X1 : Buf (Elt F) ((s1).view.loc (thrOf d L))) (hX0 : IdxOK d L s0 X0) (hX1 : IdxOK d L s1 X1)
      (_ : (s1).view.read (Elt F) X1 = idxBuf m d L 1) (v2 : BitVec 32) (k : Fin (Scf.trips k0_t18_loop.lb k0_t18_loop.ub k0_t18_loop.st)) (acc : PUnit),
      inv1 m d L (tileSh (cL L) (sL L)) X0 X1 hX0 hX1 O W k.val
        ⊢ wp frame (wpE (defs₀ (F := F)) 𝒱₀ (thrOf d L) none) Set.univ (k0_t18_body (F := F) L aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _) s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5 v2 k acc)
            fun _ => inv1 m d L (tileSh (cL L) (sL L)) X0 X1 hX0 hX1 O W (k.val + 1))
    (hstep2 : ∀ (X : Buf (Elt F) ((s0).view.loc (thrOf d L))) (hX : IdxOK d L s0 X) (_ : (s0).view.read (Elt F) X = idxBuf m d L 2)
      (k : Fin (Scf.trips k0_t35_loop.lb k0_t35_loop.ub k0_t35_loop.st)) (acc : PUnit),
      resAt m d L cV (m (cLoc d)) s0 X (tileSh (cL L) (sL L)) hX cc0_scoped5 2 O W k.val
        ⊢ wp frame (wpE (defs₀ (F := F)) 𝒱₀ (thrOf d L) none) Set.univ (k0_t35_body (F := F) L aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _) s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5 k acc)
            fun _ => resAt m d L cV (m (cLoc d)) s0 X (tileSh (cL L) (sL L)) hX cc0_scoped5 2 O W (k.val + 1)) :
    iprop(levAts (K (F := F)).L (K (F := F)).lev ∗ emp
        ∗ (reads m d (tileSh (cL L) (sL L)) ∗ ∃ f, oOn d (oSet (wOf (cL L) (sL L))) f)
        ∗ scopedBufs (thrOf d L) ∗ scopedSems0 (thrOf d L) ∗ owes (thrOf d L) O W)
      ⊢ wp frame (wpE (defs₀ (F := F)) 𝒱₀ (thrOf d L) none) Set.univ
          (cc0_pool_kernel L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5)
          fun _ => iprop((reads m d (tileSh (cL L) (sL L)) ∗ oOn d (oSet (wOf (cL L) (sL L))) (pooledArr m d))
            ∗ scopedBufs (thrOf d L) ∗ scopedSems0 (thrOf d L)
            ∗ ∃ W', ⌜∀ p ∈ W', p ∈ W ∨ p.2 = none⌝ ∗ owes (thrOf d L) O W') := by
  rw [(K (F := F)).scopedBufs_V hF d (cOf L) (sOf L), SparseCore.Cfg.scopedSems0_V (Val := Elt F) d (cOf L) (sOf L), ownSems0_V, ownBufs_V]
  iintro ⟨#Hlv, -, ⟨⟨Hi, Ha, Hb, Hc⟩, ⟨%fo, Ho⟩⟩, ⟨⟨%f0, H0⟩, ⟨%f1, H1⟩, ⟨%f2, H2⟩, ⟨%f3, H3⟩, ⟨%f4, H4⟩, ⟨%f5, H5⟩, ⟨%f6, H6⟩, Hbufs⟩,
    ⟨Hg0, Hg1, Hg2, Hg3, Hr0, Hr1, Hr2, Hr3, Hr4, Hr5, Hsems⟩, HO⟩
  ihave Hmw := (show levAts (K (F := F)).L (K (F := F)).lev ⊢ Transfers.MayWaits (thrOf d L) (default : HIx 1) O from
    (K (F := F)).mayWaits_none (thr := thrOf d L) hO) $$ Hlv
  ihave Ha' := (toks4 (F := F) (m (aLoc d)) (tileSh (cL L) (sL L))).1 $$ Ha
  ihave Hb' := (toks4 (F := F) (m (bLoc d)) (tileSh (cL L) (sL L))).1 $$ Hb
  ihave Hc' := (toks4 (F := F) (m (cLoc d)) (tileSh (cL L) (sL L))).1 $$ Hc
  icases Ha' with ⟨HaR, Ha0, Ha1, Ha2, Ha3⟩
  icases Hb' with ⟨HbR, Hb0, Hb1, Hb2, Hb3⟩
  icases Hc' with ⟨HcR, Hc0, Hc1, Hc2, Hc3⟩
  ihave Hi := (Entails.of_eq (pts_iV (F := F) d L _ _).symm) $$ Hi
  ihave HaR := (Entails.of_eq (pts_aV (F := F) d L _ _).symm) $$ HaR
  ihave Ha0 := (Entails.of_eq (pts_aV (F := F) d L _ _).symm) $$ Ha0
  ihave Ha1 := (Entails.of_eq (pts_aV (F := F) d L _ _).symm) $$ Ha1
  ihave Ha2 := (Entails.of_eq (pts_aV (F := F) d L _ _).symm) $$ Ha2
  ihave Ha3 := (Entails.of_eq (pts_aV (F := F) d L _ _).symm) $$ Ha3
  ihave HbR := (Entails.of_eq (pts_bV (F := F) d L _ _).symm) $$ HbR
  ihave Hb0 := (Entails.of_eq (pts_bV (F := F) d L _ _).symm) $$ Hb0
  ihave Hb1 := (Entails.of_eq (pts_bV (F := F) d L _ _).symm) $$ Hb1
  ihave Hb2 := (Entails.of_eq (pts_bV (F := F) d L _ _).symm) $$ Hb2
  ihave Hb3 := (Entails.of_eq (pts_bV (F := F) d L _ _).symm) $$ Hb3
  ihave HcR := (Entails.of_eq (pts_cV (F := F) d L _ _).symm) $$ HcR
  ihave Hc0 := (Entails.of_eq (pts_cV (F := F) d L _ _).symm) $$ Hc0
  ihave Hc1 := (Entails.of_eq (pts_cV (F := F) d L _ _).symm) $$ Hc1
  ihave Hc2 := (Entails.of_eq (pts_cV (F := F) d L _ _).symm) $$ Hc2
  ihave Hc3 := (Entails.of_eq (pts_cV (F := F) d L _ _).symm) $$ Hc3
  ihave Ho := (Entails.of_eq (pts_oV (F := F) d L _ _)) $$ Ho
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave H4 := (Entails.of_eq (pts_s4 (F := F) d L _).symm) $$ H4
  ihave H5 := (Entails.of_eq (pts_s5 (F := F) d L _).symm) $$ H5
  ihave H6 := (Entails.of_eq (pts_s6 (F := F) d L _).symm) $$ H6
  rw [cc0_pool_kernel_eq_skeleton]; unfold cc0_pool_kernel_skel
  sl_exec

  -- the index buffer just staged: every word names a row; held block by block
  have hX0 : IdxOK (F := F) d L s0 (View.write (Elt F) s0.view f0 (tile_body_of.sl.dma0 m d L) Finset.univ) :=
    fun g x => idx_inb m hpre d L 0 s0 f0 (tile_body_of.sl.dma0 m d L) rfl (200 * g.val) (blkOff_inb g) x
  ihave Hh := (Entails.of_eq ((s0_home (F := F) d L _).trans (homes_all _ (Ring.bk 32 0) (Ring.bk 32 1) (Ring.bk 32 2) (Ring.bk 32 3) rfl rfl rfl rfl))) $$ H0
  icases Hh with ⟨Hh0, Hh1, Hh2, Hh3, Hhome⟩
  have hin0 := hX0 (Ring.bk 32 0)
  have hin1 := hX0 (Ring.bk 32 1)
  have hin2 := hX0 (Ring.bk 32 2)
  have hin3 := hX0 (Ring.bk 32 3)
  -- the four first gathers, the second stretch staged
  sl_exec
  have hX1 : IdxOK (F := F) d L s1 (View.write (Elt F) s1.view f1 (tile_body_of.sl.dma0_1 m d L) Finset.univ) :=
    fun g x => idx_inb m hpre d L 1 s1 f1 (tile_body_of.sl.dma0_1 m d L) rfl (200 * g.val) (blkOff_inb g) x
  -- the ring at its start
  ihave Hring := (ring_fold (F := F) d L aV (m (aLoc d)) s0 _ (tileSh (cL L) (sL L)) hX0 f2 f3 f4 f5 _ _ _ _ rfl rfl rfl rfl) $$ [Hhome Hg0 Ha0 Hg1 Ha1 Hg2 Ha2 Hg3 Ha3]
  · isplitl [Hhome]; · iexact Hhome
    isplitl [Hg0 Ha0]; · isplitl [Hg0]; · iexact Hg0
                         iexact Ha0
    isplitl [Hg1 Ha1]; · isplitl [Hg1]; · iexact Hg1
                         iexact Ha1
    isplitl [Hg2 Ha2]; · isplitl [Hg2]; · iexact Hg2
                         iexact Ha2
    isplitl [Hg3]; · iexact Hg3
    iexact Ha3
  -- the pooled rows chunk by chunk, the means' scratch, the recorded waits
  ihave Hp := (planes_split m d L) $$ [Ho]
  · iexists fo; iexact Ho
  icases Hp with ⟨Hp0, Hp1, Hp2⟩
  ihave Hm : meansP (F := F) d L $$ [H6]
  · iexists f6; iexact H6
  ihave HO : owesP (F := F) d L O W $$ [HO]
  · iexists _; isplitr
    on_goal 2 => iexact HO
    ipureintro; intro p hp
    rcases Finset.mem_insert.mp hp with rfl | hp
    · exact .inr rfl
    rcases Finset.mem_insert.mp hp with rfl | hp
    · exact .inr rfl
    · exact .inl hp

  -- into the first loop
  have hR0 : (s0).view.read (Elt F) (View.write (Elt F) s0.view f0 (tile_body_of.sl.dma0 m d L) Finset.univ) = idxBuf m d L 0 :=
    staged_read m d L 0 s0 f0
  have hR1 : (s1).view.read (Elt F) (View.write (Elt F) s1.view f1 (tile_body_of.sl.dma0_1 m d L) Finset.univ) = idxBuf m d L 1 :=
    staged_read m d L 1 s1 f1
  ihave Hin := (enter1 m d L (tileSh (cL L) (sL L)) _ _ O W hX0) $$ [Hring H1 Hb0 Hb1 Hb2 Hb3 Hm Hr2 Hp0 HO]
  · isplitl [Hring]; · iexact Hring
    isplitl [H1]; · iexact H1
    isplitl [Hb0]; · iexact Hb0
    isplitl [Hb1]; · iexact Hb1
    isplitl [Hb2]; · iexact Hb2
    isplitl [Hb3]; · iexact Hb3
    isplitl [Hm]; · iexact Hm
    isplitl [Hr2]; · iexact Hr2
    isplitl [Hp0]; · iexact Hp0
    isplitr; · iexact Hmw
    iexact HO
  sl_for (fun (k : ℕ) (_ : PUnit) => inv0 m d L (tileSh (cL L) (sL L)) _ hX0 _ hX1 O W k) $$ [Hin]
  case region => intro k acc; exact hstep0 _ hX0 _ hX1 hR0 _ k acc
  · rw [inv0_lt m d L (tileSh (cL L) (sL L)) _ hX0 _ hX1 O W 0 (by decide)]; iexact Hin
  rw [trips1_eq, inv0_ge m d L (tileSh (cL L) (sL L)) _ hX0 _ hX1 O W 8 (by decide)]
  iintro %acc ⟨Hring, Hh0s, ⟨Ha0, Ha1, Ha2, Ha3⟩, Hm, Hr2, Hp0, -, ⟨%W1, %hW1, HO⟩⟩
  -- out of the first loop: the first index buffer whole again, for the third stretch
  ihave H0 := (Entails.of_eq (s0_home (F := F) d L _).symm) $$ Hh0s
  sl_exec
  -- the third stretch staged over the first buffer
  have hX2 : IdxOK (F := F) d L s0 (View.write (Elt F) s0.view (View.write (Elt F) s0.view f0 (tile_body_of.sl.dma0 m d L) Finset.univ) (tile_body_of.sl.dma0_2 m d L) Finset.univ) :=
    fun g x => idx_inb m hpre d L 2 s0 _ (tile_body_of.sl.dma0_2 m d L) rfl (200 * g.val) (blkOff_inb g) x
  have hR2 : (s0).view.read (Elt F) (View.write (Elt F) s0.view (View.write (Elt F) s0.view f0 (tile_body_of.sl.dma0 m d L) Finset.univ) (tile_body_of.sl.dma0_2 m d L) Finset.univ) = idxBuf m d L 2 :=
    staged_read m d L 2 s0 _
  ihave HO : owesP (F := F) d L O W $$ [HO]
  · iexists _; isplitr
    on_goal 2 => iexact HO
    ipureintro; intro p hp
    rcases Finset.mem_insert.mp hp with rfl | hp
    · exact .inr rfl
    · exact hW1 p hp
  -- into the second loop
  ihave Hin := (enter2 m d L (tileSh (cL L) (sL L)) _ _ O W hX1) $$ [Hring H0 Hc0 Hc1 Hc2 Hc3 Hm Hr4 Hp1 HO]
  · isplitl [Hring]; · iexact Hring
    isplitl [H0]; · iexact H0
    isplitl [Hc0]; · iexact Hc0
    isplitl [Hc1]; · iexact Hc1
    isplitl [Hc2]; · iexact Hc2
    isplitl [Hc3]; · iexact Hc3
    isplitl [Hm]; · iexact Hm
    isplitl [Hr4]; · iexact Hr4
    isplitl [Hp1]; · iexact Hp1
    isplitr; · iexact Hmw
    iexact HO
  sl_for (fun (k : ℕ) (_ : PUnit) => inv1 m d L (tileSh (cL L) (sL L)) _ _ hX2 hX1 O W k) $$ [Hin]
  case region => intro k acc; exact hstep1 _ _ hX2 hX1 hR1 _ k acc
  · rw [inv1_zero]; iexact Hin
  rw [trips18_eq, inv1_eight]
  iintro %acc2 HI
  -- out of the second loop, into the third
  ihave H := (leave2 m d L (tileSh (cL L) (sL L)) _ _ O W hX2) $$ [HI Hr5 Hp2]
  · isplitl [HI]; · iexact HI
    isplitl [Hr5]; · iexact Hr5
    isplitl [Hp2]; · iexact Hp2
    iexact Hmw
  icases H with ⟨Hin, H1, Hb0, Hb1, Hb2, Hb3, Hr4, Hp1⟩
  sl_for (fun (k : ℕ) (_ : PUnit) => resAt m d L cV (m (cLoc d)) s0 _ (tileSh (cL L) (sL L)) hX2 cc0_scoped5 2 O W k) $$ [Hin]
  case region => intro k acc; exact hstep2 _ hX2 hR2 k acc
  · iexact Hin
  rw [trips35_eq]
  iintro %acc3 HI
  -- out of the third loop
  ihave H := (leave3 m d L (tileSh (cL L) (sL L)) _ O W hX2) $$ [HI]
  · iexact HI
  icases H with ⟨H0, ⟨Hg0, ⟨%g2, H2⟩, Hc0⟩, ⟨Hg1, ⟨%g3, H3⟩, Hc1⟩, ⟨Hg2, ⟨%g4, H4⟩, Hc2⟩, ⟨Hg3, ⟨%g5, H5⟩, Hc3⟩, Hm, Hr5, Hp2, -, HO⟩
  sl_exec
  rw [wp_ret]; imodintro
  -- the closing: the tokens and the planes rejoined, the subcore's own handed back
  iapply (tile_close m d L O W _ _)
  isplitl [Hi]; · iexact Hi
  isplitl [HaR Ha0 Ha1 Ha2 Ha3]
  · isplitl [HaR]; · iexact HaR
    isplitl [Ha0]; · iexact Ha0
    isplitl [Ha1]; · iexact Ha1
    isplitl [Ha2]; · iexact Ha2
    iexact Ha3
  isplitl [HbR Hb0 Hb1 Hb2 Hb3]
  · isplitl [HbR]; · iexact HbR
    isplitl [Hb0]; · iexact Hb0
    isplitl [Hb1]; · iexact Hb1
    isplitl [Hb2]; · iexact Hb2
    iexact Hb3
  isplitl [HcR Hc0 Hc1 Hc2 Hc3]
  · isplitl [HcR]; · iexact HcR
    isplitl [Hc0]; · iexact Hc0
    isplitl [Hc1]; · iexact Hc1
    isplitl [Hc2]; · iexact Hc2
    iexact Hc3
  isplitl [Hp0 Hp1 Hp2]
  · isplitl [Hp0]; · iexact Hp0
    isplitl [Hp1]; · iexact Hp1
    iexact Hp2
  isplitl [H0 H1 H2 H3 H4 H5 Hm Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [Hm]; · iexact Hm
    iexact Hbufs
  isplitl [Hg0 Hg1 Hg2 Hg3 Hr0 Hr1 Hr2 Hr3 Hr4 Hr5 Hsems]
  · isplitl [Hg0]; · iexact Hg0
    isplitl [Hg1]; · iexact Hg1
    isplitl [Hg2]; · iexact Hg2
    isplitl [Hg3]; · iexact Hg3
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hsems
  iexact HO

end Cert.KernelIdeal.Sc
end
-- ==== Proof.ScRedLib.lean ====
/-
  What a reduce loop of the kernel carries. A row buffer holds 200 rows of 128 lanes: four segments of fifty rows. A
  reduce loop sums one segment two rows a step, in eight column blocks of sixteen lanes, each from the zero word:
  after `l` steps block `j` of segment `s` holds, at each lane, the running sum `accN` of rows `50 s … 50 s + 2 l - 1`
  of column `16 j + lane`. One step adds rows `50 s + 2 l` and `50 s + 2 l + 1` in turn; a 1 × 16 load at offsets
  `(r, c)`, cast to sixteen lanes, reads row `r`, columns `c … c + 15`.
-/
import proofs.«207262_g39728447488703_cont_8to1_b_1934_40_alg».proof.Proof.ScTileDefs
import Idealize.ShloMosaic.Lib.ValueLayout

noncomputable section

namespace Cert.KernelIdeal.Sc

open Cert.KernelIdeal Cert.KernelIdeal.Gen

open Idealize.ShloMosaic
open Idealize.ShloMosaic.SparseCore (S V T)
open Idealize.SL Idealize.SL.Sem

variable {F : FTy → Type} [FloatOps F] [Named F]

/-! ## A row buffer read by rows and lanes -/

/-- Entry `(r, c + lane)` of a row buffer's contents (the zero word past the end). -/
def rowAt (fb : S200x128.Idx → F .f32) (r c : ℕ) (lane : S16.Idx) : F .f32 :=
  if h : r < 200 ∧ c + (lane 0).val < 128 then fb (ValueIdx.ix2 (⟨r, h.1⟩ : Fin 200) (⟨c + (lane 0).val, h.2⟩ : Fin 128))
  else Scalar.ofBits .f32 0x00000000#32

/-- Column block `j` (lanes `16 j … 16 j + 15`) of the running sum of segment `s` (rows `50 s … 50 s + 49`) after `l` steps
    of two rows each, from the zero word. -/
def accBlk (fb : S200x128.Idx → F .f32) (s j l : ℕ) : FVec F S16 .f32 :=
  fun lane => accN (fun i => rowAt fb (50 * s + i) (16 * j) lane) l

/-- The eight column blocks of segment `s`'s running sum after `l` steps: what a reduce loop carries. -/
def accsAt (fb : S200x128.Idx → F .f32) (s l : ℕ) :
    FVec F S16 .f32 × FVec F S16 .f32 × FVec F S16 .f32 × FVec F S16 .f32 × FVec F S16 .f32 × FVec F S16 .f32 × FVec F S16 .f32 × FVec F S16 .f32 :=
  (accBlk fb s 0 l, accBlk fb s 1 l, accBlk fb s 2 l, accBlk fb s 3 l, accBlk fb s 4 l, accBlk fb s 5 l, accBlk fb s 6 l, accBlk fb s 7 l)

/-- One step of a column block: the two rows `50 s + 2 l` and `50 s + 2 l + 1` added to it in turn. -/
theorem accBlk_succ (fb : S200x128.Idx → F .f32) (s j l : ℕ) (a : FVec F S16 .f32) (x y : Vec F S1x16 .f32) (ha : a = accBlk fb s j l)
    (hx : ∀ lane, shapeCast S16 x shapeCasts_S1x16_S16 lane = rowAt fb (50 * s + 2 * l) (16 * j) lane)
    (hy : ∀ lane, shapeCast S16 y shapeCasts_S1x16_S16 lane = rowAt fb (50 * s + (2 * l + 1)) (16 * j) lane) :
    addf (addf a (shapeCast S16 x shapeCasts_S1x16_S16)) (shapeCast S16 y shapeCasts_S1x16_S16) = accBlk fb s j (l + 1) := by
  subst ha
  funext lane
  show FloatOps.addf (FloatOps.addf (accBlk fb s j l lane) (shapeCast S16 x shapeCasts_S1x16_S16 lane)) (shapeCast S16 y shapeCasts_S1x16_S16 lane) = _
  rw [hx lane, hy lane]
  rfl

/-- The eight blocks step together. -/
theorem accsAt_succ (fb : S200x128.Idx → F .f32) (s l : ℕ) (t0 t1 t2 t3 t4 t5 t6 t7 : FVec F S16 .f32)
    (h0 : t0 = accBlk fb s 0 (l + 1)) (h1 : t1 = accBlk fb s 1 (l + 1)) (h2 : t2 = accBlk fb s 2 (l + 1)) (h3 : t3 = accBlk fb s 3 (l + 1))
    (h4 : t4 = accBlk fb s 4 (l + 1)) (h5 : t5 = accBlk fb s 5 (l + 1)) (h6 : t6 = accBlk fb s 6 (l + 1)) (h7 : t7 = accBlk fb s 7 (l + 1)) :
    (t0, t1, t2, t3, t4, t5, t6, t7) = accsAt fb s (l + 1) := by
  subst h0 h1 h2 h3 h4 h5 h6 h7; rfl

set_option hygiene false in
/-- A 1 × 16 load from a row buffer held whole, cast to sixteen lanes, reads the row and the columns its offsets name:
    the cast drops the unit axis, the whole view reads the contents as they are, and a unit-stride rectangle places
    `(0, i)` at `(off 0, off 1 + i)`. -/
local macro "load_lane_proof" : tactic =>
  `(tactic| (
    intro d L fb off inb lane
    have h0 : off 0 + 1 ≤ 200 := inb 0
    have h1 : off 1 + 16 ≤ 128 := inb 1
    obtain ⟨i, rfl⟩ : ∃ i : Fin 16, lane = ValueIdx.ix1 i := ⟨lane 0, ValueIdx.eq_ix1 lane⟩
    refine (ValueIdx.shapeCast_1a_a_apply _ shapeCasts_S1x16_S16 i).trans ?_
    have hi : i.val < 16 := i.isLt
    unfold rowAt
    rw [dif_pos ⟨by omega, by show off 1 + i.val < 128; omega⟩, View.readAt_apply]
    show fb _ = fb _
    congr 1
    funext a
    match a with
    | ⟨0, _⟩ => exact Fin.ext (by show off 0 + 1 * 0 = off 0; omega)
    | ⟨1, _⟩ => exact Fin.ext (by show off 1 + 1 * i.val = off 1 + i.val; omega)))

theorem load_lane_s2 : ∀ (d : Dev nD) (L : grid0.Coords) (fb : Buf (Elt F) ((thrOf d L).loc cc0_scratch2)) (off : Fin 2 → ℕ)
    (inb : ∀ a, off a + S1x16.size a ≤ S200x128.size a) (lane : S16.Idx),
    shapeCast S16 (View.readAt (Elt F) s2.view (Rect.unit (s := S200x128) off S1x16.size inb).toLoadRect fb) shapeCasts_S1x16_S16 lane
      = rowAt fb (off 0) (off 1) lane := by load_lane_proof
theorem load_lane_s3 : ∀ (d : Dev nD) (L : grid0.Coords) (fb : Buf (Elt F) ((thrOf d L).loc cc0_scratch3)) (off : Fin 2 → ℕ)
    (inb : ∀ a, off a + S1x16.size a ≤ S200x128.size a) (lane : S16.Idx),
    shapeCast S16 (View.readAt (Elt F) s3.view (Rect.unit (s := S200x128) off S1x16.size inb).toLoadRect fb) shapeCasts_S1x16_S16 lane
      = rowAt fb (off 0) (off 1) lane := by load_lane_proof
theorem load_lane_s4 : ∀ (d : Dev nD) (L : grid0.Coords) (fb : Buf (Elt F) ((thrOf d L).loc cc0_scratch4)) (off : Fin 2 → ℕ)
    (inb : ∀ a, off a + S1x16.size a ≤ S200x128.size a) (lane : S16.Idx),
    shapeCast S16 (View.readAt (Elt F) s4.view (Rect.unit (s := S200x128) off S1x16.size inb).toLoadRect fb) shapeCasts_S1x16_S16 lane
      = rowAt fb (off 0) (off 1) lane := by load_lane_proof
theorem load_lane_s5 : ∀ (d : Dev nD) (L : grid0.Coords) (fb : Buf (Elt F) ((thrOf d L).loc cc0_scratch5)) (off : Fin 2 → ℕ)
    (inb : ∀ a, off a + S1x16.size a ≤ S200x128.size a) (lane : S16.Idx),
    shapeCast S16 (View.readAt (Elt F) s5.view (Rect.unit (s := S200x128) off S1x16.size inb).toLoadRect fb) shapeCasts_S1x16_S16 lane
      = rowAt fb (off 0) (off 1) lane := by load_lane_proof

/-- In range, it is the entry. -/
theorem rowAt_eq (fb : S200x128.Idx → F .f32) (r c : ℕ) (lane : S16.Idx) (h : r < 200) (h' : c + (lane 0).val < 128) :
    rowAt fb r c lane = fb (ValueIdx.ix2 (⟨r, h⟩ : Fin 200) (⟨c + (lane 0).val, h'⟩ : Fin 128)) := dif_pos ⟨h, h'⟩

/-- The row and column read through offsets spelt by the program are those of the offsets' closed form. -/
theorem rowAt_closed (fb : S200x128.Idx → F .f32) (off : Fin 2 → ℕ) [co : ClosedOff off] (r c : ℕ) (lane : S16.Idx)
    (hr : co.form 0 = r) (hc : co.form 1 = c) : rowAt fb (off 0) (off 1) lane = rowAt fb r c lane := by
  rw [show off 0 = r from (congrFun co.eq 0).trans hr, show off 1 = c from (congrFun co.eq 1).trans hc]

/-- Reads a coordinate of a closed form and leaves linear arithmetic. -/
macro "closed_off" : tactic =>
  `(tactic| (simp only [ClosedOff.form, Matrix.cons_val_zero, Matrix.cons_val_one, Matrix.head_cons] <;> omega))

end Cert.KernelIdeal.Sc

end
-- ==== Proof.ScRed02.lean ====
/-
  The reduce loop of ring slot 0, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t2_trips : k0_t2_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t2 (d : Dev nD) (L : grid0.Coords)
    (a14 a15 a16 a17 r0 r1 r2 r3 r4 r5 : DmaSems sig S_)
    (c0_i32_11 : BitVec 32) (c1_i32 : BitVec 32) (k0_t1 : Fin k0_t1_loop.trips)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t2_loop.lb k0_t2_loop.ub k0_t2_loop.st k0_t2_ok init
      (k0_t2_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        c0_i32_11 c1_i32 k0_t1) where
  inv l acc := iprop(((s2).view.loc (thrOf d L) ↦{fullShare} fb) ∗ ⌜acc = accsAt fb 0 l⌝)
  step l acc := by
    iintro ⟨HB, %hacc⟩
    subst hacc
    unfold Gen.k0_t2_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed03.lean ====
/-
  The reduce loop of ring slot 0, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t3_trips : k0_t3_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t3 (d : Dev nD) (L : grid0.Coords)
    (a14 a15 a16 a17 r0 r1 r2 r3 r4 r5 : DmaSems sig S_)
    (v84 : FVec F S16 .f32) (v85 : FVec F S16 .f32) (v86 : FVec F S16 .f32) (v87 : FVec F S16 .f32) (v88 : FVec F S16 .f32) (cst_58 : F .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t3_loop.lb k0_t3_loop.ub k0_t3_loop.st k0_t3_ok init
      (k0_t3_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v84 v85 v86 v87 v88 cst_58) where
  inv l acc := iprop(((s2).view.loc (thrOf d L) ↦{fullShare} fb) ∗ ⌜acc = accsAt fb 1 l⌝)
  step l acc := by
    iintro ⟨HB, %hacc⟩
    subst hacc
    unfold Gen.k0_t3_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed04.lean ====
/-
  The reduce loop of ring slot 0, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t4_trips : k0_t4_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t4 (d : Dev nD) (L : grid0.Coords)
    (a14 a15 a16 a17 r0 r1 r2 r3 r4 r5 : DmaSems sig S_)
    (v93_5 : FVec F S16 .f32) (v93_6 : FVec F S16 .f32) (v93_7 : FVec F S16 .f32) (v123 : FVec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t4_loop.lb k0_t4_loop.ub k0_t4_loop.st k0_t4_ok init
      (k0_t4_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v93_5 v93_6 v93_7 v123) where
  inv l acc := iprop(((s2).view.loc (thrOf d L) ↦{fullShare} fb) ∗ ⌜acc = accsAt fb 2 l⌝)
  step l acc := by
    iintro ⟨HB, %hacc⟩
    subst hacc
    unfold Gen.k0_t4_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed05.lean ====
/-
  The reduce loop of ring slot 0, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t5_trips : k0_t5_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t5 (d : Dev nD) (L : grid0.Coords)
    (a14 a15 a16 a17 r0 r1 r2 r3 r4 r5 : DmaSems sig S_)
    (v151_7 : FVec F S16 .f32) (v189 : FVec F S16 .f32) (v191 : Vec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t5_loop.lb k0_t5_loop.ub k0_t5_loop.st k0_t5_ok init
      (k0_t5_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v151_7 v189 v191) where
  inv l acc := iprop(((s2).view.loc (thrOf d L) ↦{fullShare} fb) ∗ ⌜acc = accsAt fb 3 l⌝)
  step l acc := by
    iintro ⟨HB, %hacc⟩
    subst hacc
    unfold Gen.k0_t5_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed06.lean ====
/-
  The reduce loop of ring slot 1, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t6_trips : k0_t6_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t6 (d : Dev nD) (L : grid0.Coords)
    (a14 a15 a16 a17 r0 r1 r2 r3 r4 r5 : DmaSems sig S_)
    (k0_t1 : Fin k0_t1_loop.trips) (arg18 : BitVec 32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t6_loop.lb k0_t6_loop.ub k0_t6_loop.st k0_t6_ok init
      (k0_t6_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t1 arg18) where
  inv l acc := iprop(((s3).view.loc (thrOf d L) ↦{fullShare} fb) ∗ ⌜acc = accsAt fb 0 l⌝)
  step l acc := by
    iintro ⟨HB, %hacc⟩
    subst hacc
    unfold Gen.k0_t6_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed07.lean ====
/-
  The reduce loop of ring slot 1, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t7_trips : k0_t7_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t7 (d : Dev nD) (L : grid0.Coords)
    (a14 a15 a16 a17 r0 r1 r2 r3 r4 r5 : DmaSems sig S_)
    (v324 : FVec F S16 .f32) (v325 : FVec F S16 .f32) (cst_203 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t7_loop.lb k0_t7_loop.ub k0_t7_loop.st k0_t7_ok init
      (k0_t7_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v324 v325 cst_203) where
  inv l acc := iprop(((s3).view.loc (thrOf d L) ↦{fullShare} fb) ∗ ⌜acc = accsAt fb 1 l⌝)
  step l acc := by
    iintro ⟨HB, %hacc⟩
    subst hacc
    unfold Gen.k0_t7_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed08.lean ====
/-
  The reduce loop of ring slot 1, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t8_trips : k0_t8_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t8 (d : Dev nD) (L : grid0.Coords)
    (a14 a15 a16 a17 r0 r1 r2 r3 r4 r5 : DmaSems sig S_)
    (v333_5 : FVec F S16 .f32) (v333_6 : FVec F S16 .f32) (v333_7 : FVec F S16 .f32) (v359 : FVec F S16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t8_loop.lb k0_t8_loop.ub k0_t8_loop.st k0_t8_ok init
      (k0_t8_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v333_5 v333_6 v333_7 v359) where
  inv l acc := iprop(((s3).view.loc (thrOf d L) ↦{fullShare} fb) ∗ ⌜acc = accsAt fb 2 l⌝)
  step l acc := by
    iintro ⟨HB, %hacc⟩
    subst hacc
    unfold Gen.k0_t8_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed09.lean ====
/-
  The reduce loop of ring slot 1, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t9_trips : k0_t9_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t9 (d : Dev nD) (L : grid0.Coords)
    (a14 a15 a16 a17 r0 r1 r2 r3 r4 r5 : DmaSems sig S_)
    (v391_6 : FVec F S16 .f32) (v391_7 : FVec F S16 .f32) (cst_265 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t9_loop.lb k0_t9_loop.ub k0_t9_loop.st k0_t9_ok init
      (k0_t9_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v391_6 v391_7 cst_265) where
  inv l acc := iprop(((s3).view.loc (thrOf d L) ↦{fullShare} fb) ∗ ⌜acc = accsAt fb 3 l⌝)
  step l acc := by
    iintro ⟨HB, %hacc⟩
    subst hacc
    unfold Gen.k0_t9_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed10.lean ====
/-
  The reduce loop of ring slot 2, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t10_trips : k0_t10_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t10 (d : Dev nD) (L : grid0.Coords)
    (a14 a15 a16 a17 r0 r1 r2 r3 r4 r5 : DmaSems sig S_)
    (k0_t1 : Fin k0_t1_loop.trips) (arg18 : BitVec 32) (v497 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t10_loop.lb k0_t10_loop.ub k0_t10_loop.st k0_t10_ok init
      (k0_t10_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t1 arg18 v497) where
  inv l acc := iprop(((s4).view.loc (thrOf d L) ↦{fullShare} fb) ∗ ⌜acc = accsAt fb 0 l⌝)
  step l acc := by
    iintro ⟨HB, %hacc⟩
    subst hacc
    unfold Gen.k0_t10_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed11.lean ====
/-
  The reduce loop of ring slot 2, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t11_trips : k0_t11_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t11 (d : Dev nD) (L : grid0.Coords)
    (a14 a15 a16 a17 r0 r1 r2 r3 r4 r5 : DmaSems sig S_)
    (v563 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t11_loop.lb k0_t11_loop.ub k0_t11_loop.st k0_t11_ok init
      (k0_t11_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v563) where
  inv l acc := iprop(((s4).view.loc (thrOf d L) ↦{fullShare} fb) ∗ ⌜acc = accsAt fb 1 l⌝)
  step l acc := by
    iintro ⟨HB, %hacc⟩
    subst hacc
    unfold Gen.k0_t11_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed12.lean ====
/-
  The reduce loop of ring slot 2, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t12_trips : k0_t12_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t12 (d : Dev nD) (L : grid0.Coords)
    (a14 a15 a16 a17 r0 r1 r2 r3 r4 r5 : DmaSems sig S_)
    (v622 : FVec F S16 .f32) (v623 : FVec F S16 .f32) (v624 : FVec F S16 .f32) (v625 : FVec F S16 .f32) (v626 : FVec F S16 .f32) (v627 : FVec F S16 .f32) (v628 : FVec F S16 .f32) (v629 : FVec F S16 .f32) (c0_i32_393 : BitVec 32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t12_loop.lb k0_t12_loop.ub k0_t12_loop.st k0_t12_ok init
      (k0_t12_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v622 v623 v624 v625 v626 v627 v628 v629 c0_i32_393) where
  inv l acc := iprop(((s4).view.loc (thrOf d L) ↦{fullShare} fb) ∗ ⌜acc = accsAt fb 2 l⌝)
  step l acc := by
    iintro ⟨HB, %hacc⟩
    subst hacc
    unfold Gen.k0_t12_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed13.lean ====
/-
  The reduce loop of ring slot 2, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t13_trips : k0_t13_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t13 (d : Dev nD) (L : grid0.Coords)
    (a14 a15 a16 a17 r0 r1 r2 r3 r4 r5 : DmaSems sig S_)
    (v631_6 : FVec F S16 .f32) (v631_7 : FVec F S16 .f32) (v663 : FVec F S16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t13_loop.lb k0_t13_loop.ub k0_t13_loop.st k0_t13_ok init
      (k0_t13_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v631_6 v631_7 v663) where
  inv l acc := iprop(((s4).view.loc (thrOf d L) ↦{fullShare} fb) ∗ ⌜acc = accsAt fb 3 l⌝)
  step l acc := by
    iintro ⟨HB, %hacc⟩
    subst hacc
    unfold Gen.k0_t13_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed14.lean ====
/-
  The reduce loop of ring slot 3, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t14_trips : k0_t14_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t14 (d : Dev nD) (L : grid0.Coords)
    (a14 a15 a16 a17 r0 r1 r2 r3 r4 r5 : DmaSems sig S_)
    (k0_t1 : Fin k0_t1_loop.trips) (arg18 : BitVec 32) (v733 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t14_loop.lb k0_t14_loop.ub k0_t14_loop.st k0_t14_ok init
      (k0_t14_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t1 arg18 v733) where
  inv l acc := iprop(((s5).view.loc (thrOf d L) ↦{fullShare} fb) ∗ ⌜acc = accsAt fb 0 l⌝)
  step l acc := by
    iintro ⟨HB, %hacc⟩
    subst hacc
    unfold Gen.k0_t14_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed15.lean ====
/-
  The reduce loop of ring slot 3, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t15_trips : k0_t15_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t15 (d : Dev nD) (L : grid0.Coords)
    (a14 a15 a16 a17 r0 r1 r2 r3 r4 r5 : DmaSems sig S_)
    (v799 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t15_loop.lb k0_t15_loop.ub k0_t15_loop.st k0_t15_ok init
      (k0_t15_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v799) where
  inv l acc := iprop(((s5).view.loc (thrOf d L) ↦{fullShare} fb) ∗ ⌜acc = accsAt fb 1 l⌝)
  step l acc := by
    iintro ⟨HB, %hacc⟩
    subst hacc
    unfold Gen.k0_t15_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed16.lean ====
/-
  The reduce loop of ring slot 3, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t16_trips : k0_t16_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t16 (d : Dev nD) (L : grid0.Coords)
    (a14 a15 a16 a17 r0 r1 r2 r3 r4 r5 : DmaSems sig S_)
    (v862 : FVec F S16 .f32) (v863 : FVec F S16 .f32) (v864 : FVec F S16 .f32) (v865 : FVec F S16 .f32) (v866 : FVec F S16 .f32) (cst_537 : F .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t16_loop.lb k0_t16_loop.ub k0_t16_loop.st k0_t16_ok init
      (k0_t16_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v862 v863 v864 v865 v866 cst_537) where
  inv l acc := iprop(((s5).view.loc (thrOf d L) ↦{fullShare} fb) ∗ ⌜acc = accsAt fb 2 l⌝)
  step l acc := by
    iintro ⟨HB, %hacc⟩
    subst hacc
    unfold Gen.k0_t16_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed17.lean ====
/-
  The reduce loop of ring slot 3, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t17_trips : k0_t17_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t17 (d : Dev nD) (L : grid0.Coords)
    (a14 a15 a16 a17 r0 r1 r2 r3 r4 r5 : DmaSems sig S_)
    (v871_5 : FVec F S16 .f32) (v871_6 : FVec F S16 .f32) (v871_7 : FVec F S16 .f32) (v901 : FVec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t17_loop.lb k0_t17_loop.ub k0_t17_loop.st k0_t17_ok init
      (k0_t17_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v871_5 v871_6 v871_7 v901) where
  inv l acc := iprop(((s5).view.loc (thrOf d L) ↦{fullShare} fb) ∗ ⌜acc = accsAt fb 3 l⌝)
  step l acc := by
    iintro ⟨HB, %hacc⟩
    subst hacc
    unfold Gen.k0_t17_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScChunkVal.lean ====
/-
  A chunk of the pooled array, as the 16 × 128 staging scratch holds it before it is copied out.

  Gather g = 4 k + b of stretch r fills a [200, 128] row buffer; its four segments of fifty rows are averaged into rows
  4 b + 0 … 4 b + 3 of the scratch. When all four slots b of chunk k are done, row i of the scratch (i = 4 b + s') is,
  column by column, the pooled array's entry at plane r, row 128 w + 16 k + i (w the worker's number): the scratch is
  rows 16 k … 16 k + 15 of the worker's 128 rows of plane r.
-/
import proofs.«207262_g39728447488703_cont_8to1_b_1934_40_alg».proof.Proof.ScTileVal

noncomputable section

namespace Cert.KernelIdeal.Sc

open Cert.KernelIdeal Cert.KernelIdeal.Gen
open Idealize.ShloMosaic Idealize.ShloMosaic.ValueIdx

variable {F : FTy → Type} [FloatOps F] [Named F]
variable (m : (ℓ : Loc nD τ sig) → Buf (Elt F) ℓ)

/-- The value the row buffer of gather 4 k + b of stretch r holds at (ρ, e): entry e of the row of plane r's table that
    word 200 (4 k + b) + ρ of the stretch names. -/
def rowVal (d : Dev nD) (L : grid0.Coords) (ta tb tc : S100000x128.Idx → F .f32) (r : Fin 3) (k : Fin 8) (b : Fin 4)
    (ρ : ℕ) (e : Fin 128) : F .f32 :=
  tblAt (tblSel ta tb tc r) (idxBufAt m d L r (200 * (4 * k.val + b.val) + ρ)).toNat e

/-- The mean of segment s' of that row buffer is the pooled array's entry at row segRow. -/
theorem seg_mean_rowVal (d : Dev nD) (L : grid0.Coords) (ta tb tc : S100000x128.Idx → F .f32) (r : Fin 3) (k : Fin 8)
    (b s' : Fin 4) (e : Fin 128) :
    meanOf (fun l => rowVal m d L ta tb tc r k b (50 * s'.val + l) e)
      = pooledOf (F := F) (m (iLoc d)) ta tb tc (ix3 r (segRow L k b s') e) := by
  rw [← seg_mean m d L ta tb tc r k b s' e]
  refine congrArg meanOf (funext fun l => ?_)
  unfold rowVal
  rw [Nat.add_assoc]

/-- The running sum reads only the rows it has taken. -/
theorem accN_congr {row row' : ℕ → F .f32} (k : ℕ) (h : ∀ l, l < 2 * k → row l = row' l) : accN row k = accN row' k := by
  induction k with
  | zero => rfl
  | succ k ih =>
    show FloatOps.addf (FloatOps.addf (accN row k) (row (2 * k))) (row (2 * k + 1))
      = FloatOps.addf (FloatOps.addf (accN row' k) (row' (2 * k))) (row' (2 * k + 1))
    rw [ih (fun l hl => h l (by omega)), h (2 * k) (by omega), h (2 * k + 1) (by omega)]

/-- A segment's mean reads only its fifty rows. -/
theorem meanOf_congr {row row' : ℕ → F .f32} (h : ∀ l, l < 50 → row l = row' l) : meanOf row = meanOf row' := by
  unfold meanOf
  rw [accN_congr 25 (fun l hl => h l (by omega))]

/-- The mean of ANY fifty rows that agree with segment s' of slot b's row buffer is the pooled array's entry. -/
theorem seg_mean_of_rows (d : Dev nD) (L : grid0.Coords) (ta tb tc : S100000x128.Idx → F .f32) (r : Fin 3) (k : Fin 8)
    (b s' : Fin 4) (e : Fin 128) (row : ℕ → F .f32)
    (hrow : ∀ l, l < 50 → row l = rowVal m d L ta tb tc r k b (50 * s'.val + l) e) :
    meanOf row = pooledOf (F := F) (m (iLoc d)) ta tb tc (ix3 r (segRow L k b s') e) :=
  (meanOf_congr hrow).trans (seg_mean_rowVal m d L ta tb tc r k b s' e)

/-- Row i of chunk k of worker L's rows. -/
theorem chunkRow_lt (L : grid0.Coords) (k : Fin 8) (i : Fin 16) :
    128 * (2 * (L 1).val + (L 0).val) + 16 * k.val + i.val < 4096 := by
  have h0 := L0_lt L
  have h1 := L1_lt L
  have := k.isLt; have := i.isLt
  omega

def chunkRow (L : grid0.Coords) (k : Fin 8) (i : Fin 16) : Fin 4096 :=
  ⟨128 * (2 * (L 1).val + (L 0).val) + 16 * k.val + i.val, chunkRow_lt L k i⟩

theorem chunkRow_val (L : grid0.Coords) (k : Fin 8) (i : Fin 16) :
    (chunkRow L k i).val = 128 * (2 * (L 1).val + (L 0).val) + 16 * k.val + i.val := rfl

/-- Segment s' of slot b is row 4 b + s' of the chunk. -/
theorem segRow_eq_chunkRow (L : grid0.Coords) (k : Fin 8) (b s' : Fin 4) (h : 4 * b.val + s'.val < 16) :
    segRow L k b s' = chunkRow L k ⟨4 * b.val + s'.val, h⟩ := by
  apply Fin.ext
  rw [segRow_val, chunkRow_val]
  show _ = 128 * (2 * (L 1).val + (L 0).val) + 16 * k.val + (4 * b.val + s'.val)
  omega

theorem slot_row_lt (b s' : Fin 4) : 4 * b.val + s'.val < 16 := by
  have := b.isLt; have := s'.isLt; omega

/-- THE CHUNK: a 16 × 128 scratch whose row 4 b + s' is, column by column, the pooled array's entry for segment s' of slot
    b, is rows 16 k … 16 k + 15 of worker L's rows of plane r of the pooled array. -/
theorem chunk_value (d : Dev nD) (L : grid0.Coords) (ta tb tc : S100000x128.Idx → F .f32) (r : Fin 3) (k : Fin 8)
    (sc : S16x128.Idx → F .f32)
    (hsc : ∀ (b s' : Fin 4) (e : Fin 128),
      sc (ix2 (⟨4 * b.val + s'.val, slot_row_lt b s'⟩ : Fin 16) e)
        = pooledOf (F := F) (m (iLoc d)) ta tb tc (ix3 r (segRow L k b s') e))
    (i : Fin 16) (e : Fin 128) :
    sc (ix2 i e) = pooledOf (F := F) (m (iLoc d)) ta tb tc (ix3 r (chunkRow L k i) e) := by
  have hi := i.isLt
  have hb : i.val / 4 < 4 := by omega
  have hs : i.val % 4 < 4 := by omega
  have hrow : (⟨4 * (⟨i.val / 4, hb⟩ : Fin 4).val + (⟨i.val % 4, hs⟩ : Fin 4).val, slot_row_lt _ _⟩ : Fin 16) = i := by
    apply Fin.ext
    show 4 * (i.val / 4) + i.val % 4 = i.val
    omega
  have h := hsc ⟨i.val / 4, hb⟩ ⟨i.val % 4, hs⟩ e
  rw [hrow, segRow_eq_chunkRow L k _ _ (slot_row_lt _ _), hrow] at h
  exact h

/-- The same from the means: row 4 b + s' of the scratch the mean of fifty rows agreeing with segment s' of slot b. -/
theorem chunk_value_of_means (d : Dev nD) (L : grid0.Coords) (ta tb tc : S100000x128.Idx → F .f32) (r : Fin 3) (k : Fin 8)
    (sc : S16x128.Idx → F .f32) (row : Fin 4 → Fin 4 → Fin 128 → ℕ → F .f32)
    (hrow : ∀ (b s' : Fin 4) (e : Fin 128) (l : ℕ), l < 50 → row b s' e l = rowVal m d L ta tb tc r k b (50 * s'.val + l) e)
    (hsc : ∀ (b s' : Fin 4) (e : Fin 128), sc (ix2 (⟨4 * b.val + s'.val, slot_row_lt b s'⟩ : Fin 16) e) = meanOf (row b s' e))
    (i : Fin 16) (e : Fin 128) :
    sc (ix2 i e) = pooledOf (F := F) (m (iLoc d)) ta tb tc (ix3 r (chunkRow L k i) e) :=
  chunk_value m d L ta tb tc r k sc
    (fun b s' e => (hsc b s' e).trans (seg_mean_of_rows m d L ta tb tc r k b s' e _ (hrow b s' e))) i e

end Cert.KernelIdeal.Sc

end
-- ==== Proof.ScTripVal.lean ====
/-
  The values a chunk-loop trip meets, stated over the ring's own terms.

  A row buffer that a gather of block g = 4 k + b of an index buffer holding stretch r has landed in reads, at row
  50 s' + l (l < 50) and lane i of column block j, entry 16 j + i of the row of plane r's table that word
  200 (4 k + b) + 50 s' + l of the stretch names. The payload of a lane store — a column block of a segment's running
  sum after 25 steps, times the reciprocal of fifty, as a 1 × 16 vector — is at lane i the segment's mean at column
  16 j + i, hence an entry of the pooled array. A chunk of the pooled array, as the program slices and squeezes it,
  places (i, e) at (plane, first row of the chunk + i, e); two contents that read alike through it are held alike on it.
-/
import proofs.«207262_g39728447488703_cont_8to1_b_1934_40_alg».proof.Proof.ScRing
import proofs.«207262_g39728447488703_cont_8to1_b_1934_40_alg».proof.Proof.ScRedLib
import proofs.«207262_g39728447488703_cont_8to1_b_1934_40_alg».proof.Proof.ScChunkVal
import Idealize.ShloMosaic.Lib.ValueLayout

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (m : (ℓ : Loc nD τ sig) → Buf (Elt F) ℓ)

/-! ## What a landed row buffer reads -/

section Landed

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (hX : IdxOK d L sK X)

/-- Block g's gathered rows, entry by entry: over an index buffer that reads as stretch r and a table that reads as
    `tb`, entry (ρ, e) is entry e of `tb`'s row named by word 200 g + ρ of the stretch. -/
theorem gathered_val (tb : S100000x128.Idx → F .f32) (hT : tV.view.read (Elt F) T = tb) (r : Fin 3)
    (hXr : sK.view.read (Elt F) X = idxBuf m d L r) (g : Fin 32) (ρ : Fin 200) (e : Fin 128) :
    gathered d L tV T sK X hX g (ix2 ρ e) = tblAt tb (idxBufAt m d L r (200 * g.val + ρ.val)).toNat e :=
  gathered_row m d L r gathers_S100000x128_S200x128 tV T tb hT inb_S100000x128_S100000x128_0_0 sK X hXr (200 * g.val)
    (blkOff_inb g) rfl (hX g) ρ e

/-- A landed row buffer reads as the gathered rows, whatever it held before. -/
theorem landed_read (sR : Memref sig .scVector .vmem S200x128 .f32) (g : Fin 32) (f : Buf (Elt F) (sR.view.loc (thrOf d L)))
    (x : S200x128.Idx) :
    sR.view.read (Elt F) (landed d L tV T sK X hX sR g f) x = gathered d L tV T sK X hX g x :=
  read_writes_whole sR.view f _ [] x

/-- ROW 50 s' + l, LANE i OF COLUMN BLOCK j of the row buffer landed with block 4 k + b of stretch r. -/
theorem rowAt_landed (ta tb tc : S100000x128.Idx → F .f32) (r : Fin 3) (hT : tV.view.read (Elt F) T = tblSel ta tb tc r)
    (hXr : sK.view.read (Elt F) X = idxBuf m d L r)
    (sR : Memref sig .scVector .vmem S200x128 .f32) (f : Buf (Elt F) (sR.view.loc (thrOf d L)))
    (k : Fin 8) (b s' : Fin 4) (j : Fin 8) (lane : S16.Idx) (l : ℕ) (hl : l < 50)
    (hcol : 16 * j.val + (lane 0).val < 128) :
    rowAt (sR.view.read (Elt F) (landed d L tV T sK X hX sR (Ring.bk 32 (4 * k.val + b.val)) f)) (50 * s'.val + l) (16 * j.val) lane
      = rowVal m d L ta tb tc r k b (50 * s'.val + l) ⟨16 * j.val + (lane 0).val, hcol⟩ := by
  have hk := k.isLt; have hb := b.isLt; have hs := s'.isLt
  have h1 : 50 * s'.val + l < 200 := by omega
  rw [rowAt_eq _ _ _ _ h1 hcol, landed_read, gathered_val m d L tV T sK X hX _ hT r hXr]
  unfold rowVal
  rw [bk32_val (by omega)]

theorem col_lt (j : Fin 8) (lane : S16.Idx) : 16 * j.val + (lane 0).val < 128 := by
  have := j.isLt; have : (lane 0).val < 16 := (lane 0).isLt; omega

end Landed

/-! ## A lane store's payload -/

/-- The stored 1 × 16 vector at lane i: the column block's running sum after 25 steps at that lane, times the constant. -/
theorem lane_store_val (fb : S200x128.Idx → F .f32) (s' j : ℕ) (c : F .f32) (u : Fin 1) (i : Fin 16) :
    shapeCast S1x16 (mulf (accBlk fb s' j 25) (broadcast S16 c)) shapeCasts_S16_S1x16 (ix2 u i)
      = FloatOps.mulf (accN (fun l => rowAt fb (50 * s' + l) (16 * j) (ix1 i)) 25) c :=
  (shapeCast_a_1a_apply _ shapeCasts_S16_S1x16 u i).trans rfl

/-- With the reciprocal of fifty it is the segment's mean at that lane. -/
theorem lane_store_mean (fb : S200x128.Idx → F .f32) (s' j : ℕ) (c : F .f32) (hc : c = Named.named κ "inv_50" 0x3CA3D70A#32)
    (u : Fin 1) (i : Fin 16) :
    shapeCast S1x16 (mulf (accBlk fb s' j 25) (broadcast S16 c)) shapeCasts_S16_S1x16 (ix2 u i)
      = meanOf (fun l => rowAt fb (50 * s' + l) (16 * j) (ix1 i)) := by
  subst hc
  exact lane_store_val fb s' j _ u i

section Stored

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (hX : IdxOK d L sK X)

/-- THE LANE STORE'S VALUE: over the row buffer landed with block 4 k + b of stretch r, the stored vector of segment s',
    column block j is at lane i the pooled array's entry at plane r, row segRow, column 16 j + i. -/
theorem lane_store_pooled (ta tb tc : S100000x128.Idx → F .f32) (r : Fin 3) (hT : tV.view.read (Elt F) T = tblSel ta tb tc r)
    (hXr : sK.view.read (Elt F) X = idxBuf m d L r)
    (sR : Memref sig .scVector .vmem S200x128 .f32) (f : Buf (Elt F) (sR.view.loc (thrOf d L)))
    (k : Fin 8) (b s' : Fin 4) (j : Fin 8) (c : F .f32) (hc : c = Named.named κ "inv_50" 0x3CA3D70A#32) (u : Fin 1) (i : Fin 16) :
    shapeCast S1x16 (mulf (accBlk (sR.view.read (Elt F) (landed d L tV T sK X hX sR (Ring.bk 32 (4 * k.val + b.val)) f)) s'.val j.val 25)
        (broadcast S16 c)) shapeCasts_S16_S1x16 (ix2 u i)
      = pooledOf (F := F) (m (iLoc d)) ta tb tc (ix3 r (segRow L k b s') (⟨16 * j.val + i.val, col_lt j (ix1 i)⟩ : Fin 128)) := by
  rw [lane_store_mean _ _ _ c hc u i]
  exact seg_mean_of_rows m d L ta tb tc r k b s' _ _
    (fun l hl => rowAt_landed m d L tV T sK X hX ta tb tc r hT hXr sR f k b s' j (ix1 i) l hl (col_lt j (ix1 i)))

/-- The chunk's pooled rows as a 16 × 128 array: (i, e) is the pooled array's entry at plane r, row i of chunk k of worker
    L's rows, column e. -/
def chunkG (ta tb tc : S100000x128.Idx → F .f32) (r : Fin 3) (k : Fin 8) : S16x128.Idx → F .f32 :=
  fun y => pooledOf (F := F) (m (iLoc d)) ta tb tc (ix3 r (chunkRow L k (y 0)) (y 1))

theorem chunkG_ix2 (ta tb tc : S100000x128.Idx → F .f32) (r : Fin 3) (k : Fin 8) (i : Fin 16) (e : Fin 128) :
    chunkG m d L ta tb tc r k (ix2 i e) = pooledOf (F := F) (m (iLoc d)) ta tb tc (ix3 r (chunkRow L k i) e) := rfl

/-- ONE LANE STORE IS A PIECE OF THE CHUNK: the stored vector of segment s' of slot b, column block j, through the 1 × 16
    rectangle at row 4 b + s', column 16 j of the scratch, is the chunk's pooled rows there. -/
theorem piece_ok (ta tb tc : S100000x128.Idx → F .f32) (r : Fin 3) (hT : tV.view.read (Elt F) T = tblSel ta tb tc r)
    (hXr : sK.view.read (Elt F) X = idxBuf m d L r)
    (sR : Memref sig .scVector .vmem S200x128 .f32) (f : Buf (Elt F) (sR.view.loc (thrOf d L)))
    (k : Fin 8) (b s' : Fin 4) (j : Fin 8) (kn bn : ℕ) (hkn : kn = k.val) (hbn : bn = b.val) (n : ℕ) (hn : n = 25) (c : F .f32) (hc : c = Named.named κ "inv_50" 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (sR.view.read (Elt F) (landed d L tV T sK X hX sR (Ring.bk 32 (4 * kn + bn)) f)) s'.val j.val n)
        (broadcast S16 c)) shapeCasts_S16_S1x16 x
      = chunkG m d L ta tb tc r k ((Rect.unit (s := S16x128) off S1x16.size inb).emb x) := by
  subst hn hkn hbn
  obtain ⟨u, i, rfl⟩ : ∃ (u : Fin 1) (i : Fin 16), x = ix2 u i := ⟨x 0, x 1, eq_ix2 x⟩
  rw [lane_store_pooled m d L tV T sK X hX ta tb tc r hT hXr sR f k b s' j c hc u i]
  unfold chunkG
  refine congrArg (pooledOf (F := F) (m (iLoc d)) ta tb tc) ?_
  have hu : u.val = 0 := by omega
  funext a
  match a with
  | ⟨0, _⟩ => rfl
  | ⟨1, _⟩ =>
    apply Fin.ext
    show 128 * (2 * (L 1).val + (L 0).val) + 16 * k.val + 4 * b.val + s'.val
      = 128 * (2 * (L 1).val + (L 0).val) + 16 * k.val + (off 0 + 1 * u.val)
    omega
  | ⟨2, _⟩ =>
    apply Fin.ext
    show 16 * j.val + i.val = off 1 + 1 * i.val
    omega

/-- The same with the row buffer s2 held whole, its contents spelt as the run leaves them. -/
theorem piece_ok_s2 (ta tb tc : S100000x128.Idx → F .f32) (r : Fin 3) (hT : tV.view.read (Elt F) T = tblSel ta tb tc r)
    (hXr : sK.view.read (Elt F) X = idxBuf m d L r) (f : Buf (Elt F) ((s2).view.loc (thrOf d L)))
    (k : Fin 8) (b s' : Fin 4) (j : Fin 8) (kn bn : ℕ) (hkn : kn = k.val) (hbn : bn = b.val) (n : ℕ) (hn : n = 25) (c : F .f32) (hc : c = Named.named κ "inv_50" 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s2 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s2 f k b s' j kn bn hkn hbn n hn c hc off h0 h1 inb x

/-- The same with the row buffer s3 held whole, its contents spelt as the run leaves them. -/
theorem piece_ok_s3 (ta tb tc : S100000x128.Idx → F .f32) (r : Fin 3) (hT : tV.view.read (Elt F) T = tblSel ta tb tc r)
    (hXr : sK.view.read (Elt F) X = idxBuf m d L r) (f : Buf (Elt F) ((s3).view.loc (thrOf d L)))
    (k : Fin 8) (b s' : Fin 4) (j : Fin 8) (kn bn : ℕ) (hkn : kn = k.val) (hbn : bn = b.val) (n : ℕ) (hn : n = 25) (c : F .f32) (hc : c = Named.named κ "inv_50" 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s3 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s3 f k b s' j kn bn hkn hbn n hn c hc off h0 h1 inb x

/-- The same with the row buffer s4 held whole, its contents spelt as the run leaves them. -/
theorem piece_ok_s4 (ta tb tc : S100000x128.Idx → F .f32) (r : Fin 3) (hT : tV.view.read (Elt F) T = tblSel ta tb tc r)
    (hXr : sK.view.read (Elt F) X = idxBuf m d L r) (f : Buf (Elt F) ((s4).view.loc (thrOf d L)))
    (k : Fin 8) (b s' : Fin 4) (j : Fin 8) (kn bn : ℕ) (hkn : kn = k.val) (hbn : bn = b.val) (n : ℕ) (hn : n = 25) (c : F .f32) (hc : c = Named.named κ "inv_50" 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s4 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s4 f k b s' j kn bn hkn hbn n hn c hc off h0 h1 inb x

/-- The same with the row buffer s5 held whole, its contents spelt as the run leaves them. -/
theorem piece_ok_s5 (ta tb tc : S100000x128.Idx → F .f32) (r : Fin 3) (hT : tV.view.read (Elt F) T = tblSel ta tb tc r)
    (hXr : sK.view.read (Elt F) X = idxBuf m d L r) (f : Buf (Elt F) ((s5).view.loc (thrOf d L)))
    (k : Fin 8) (b s' : Fin 4) (j : Fin 8) (kn bn : ℕ) (hkn : kn = k.val) (hbn : bn = b.val) (n : ℕ) (hn : n = 25) (c : F .f32) (hc : c = Named.named κ "inv_50" 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s5 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s5 f k b s' j kn bn hkn hbn n hn c hc off h0 h1 inb x

end Stored

/-- A scratch that reads as the chunk's pooled rows holds them entry by entry (the form the copy-out's value takes). -/
theorem chunkG_form (d : Dev nD) (L : grid0.Coords) (ta tb tc : S100000x128.Idx → F .f32) (r : Fin 3) (k : Fin 8)
    (sc : S16x128.Idx → F .f32) (h : ∀ y, sc y = chunkG m d L ta tb tc r k y) (i : Fin 16) (e : Fin 128) :
    sc (ix2 i e) = pooledOf (F := F) (m (iLoc d)) ta tb tc (ix3 r (chunkRow L k i) e) := h (ix2 i e)

/-- THE SCRATCH AFTER A CHUNK'S STORES: a list of stores through rectangles of the 16 × 128 scratch, each storing the
    chunk's pooled rows where it lands and together covering the scratch, leaves the chunk's pooled rows. (The cover of a
    literal list whose rectangles tile the scratch in 1 × 16 blocks is `View.cover_of_tiled Ls S1x16.size rfl`.) -/
theorem scratch_read (d : Dev nD) (L : grid0.Coords) (ta tb tc : S100000x128.Idx → F .f32) (r : Fin 3) (k : Fin 8)
    (sM : Memref sig .scVector .vmem S16x128 .f32) (f6 : sM.view.ty.Contents (Elt F)) (Ls : List (View.Piece (Elt F) S16x128 .f32))
    (hG : ∀ p ∈ Ls, ∀ x : p.1.shape.Idx, p.2 x = chunkG m d L ta tb tc r k (p.1.emb x))
    (hcov : ∀ y : S16x128.Idx, ∃ p ∈ Ls, y ∈ p.1.set) (y : S16x128.Idx) :
    sM.view.read (Elt F) (sM.view.writes (Elt F) f6 Ls) y = chunkG m d L ta tb tc r k y :=
  View.read_writes_apply_of_pieces sM.view f6 _ Ls hG y (hcov y)

/-! ## A chunk of the pooled array, as the program slices and squeezes it -/

/-- Where the chunk's view places (i, e): plane t, row i of chunk c of worker L's rows, column e. -/
theorem outCh_emb_ix2 (L : grid0.Coords) (t : Fin 3) (c : Fin 8) (i : Fin 16) (e : Fin 128) :
    (outCh L t c).view.emb (ix2 i e) = ix3 t (chunkRow L c i) e := by
  show (Rect.unit (s := S3x4096x128) (outOff L t c) S1x16x128.size (outOff_inb L t c)).emb
    (Shape.reshapeEquiv squeezes_S1x16x128_S16x128.numel_eq (ix2 i e)) = _
  rw [reshapeEquiv_ix2_1ab]
  funext a
  apply Fin.ext
  match a with
  | ⟨0, _⟩ => show t.val + 1 * 0 = t.val; omega
  | ⟨1, _⟩ =>
    show 256 * (L 1).val + 128 * (L 0).val + 16 * c.val + 1 * i.val = 128 * (2 * (L 1).val + (L 0).val) + 16 * c.val + i.val
    omega
  | ⟨2, _⟩ => show 0 + 1 * e.val = e.val; omega

theorem outCh_emb (L : grid0.Coords) (t : Fin 3) (c : Fin 8) (x : S16x128.Idx) :
    (outCh L t c).view.emb x = ix3 t (chunkRow L c (x 0)) (x 1) := by
  obtain ⟨i, e, rfl⟩ : ∃ (i : Fin 16) (e : Fin 128), x = ix2 i e := ⟨x 0, x 1, eq_ix2 x⟩
  exact outCh_emb_ix2 L t c i e

/-- Reading through the chunk. -/
theorem outCh_read (d : Dev nD) (L : grid0.Coords) (t : Fin 3) (c : Fin 8) (f : Buf (Elt F) (oLoc d)) (x : S16x128.Idx) :
    (outCh L t c).view.read (Elt F) f x = f (ix3 t (chunkRow L c (x 0)) (x 1)) :=
  ((View.read_apply _ _).trans (cast_eq _ _)).trans (congrArg f (outCh_emb L t c x))

/-- Contents that read alike through the chunk are held alike on it. -/
theorem outCh_congr_read (d : Dev nD) (L : grid0.Coords) (t : Fin 3) (c : Fin 8) (f g : Buf (Elt F) (oLoc d))
    (h : ∀ x, (outCh L t c).view.read (Elt F) f x = (outCh L t c).view.read (Elt F) g x) :
    ((outCh L t c).view.loc (thrOf d L) ↦[(outCh L t c).view.set]{fullShare} f : sProp 𝕄)
      = (outCh L t c).view.loc (thrOf d L) ↦[(outCh L t c).view.set]{fullShare} g := by
  refine pointsTo_congr fun i hi => ?_
  obtain ⟨x, -, rfl⟩ := Finset.mem_map.mp hi
  have hx := h x
  rw [outCh_read, outCh_read] at hx
  rw [outCh_emb]
  exact hx

/-- THE COPY-OUT'S VALUE: contents that read, through chunk c of plane t, as a scratch holding the chunk's pooled rows
    are held on the chunk as the pooled array. -/
theorem outCh_pooled (d : Dev nD) (L : grid0.Coords) (t : Fin 3) (c : Fin 8) (f : Buf (Elt F) (oLoc d))
    (sc : S16x128.Idx → F .f32) (hf : ∀ x, (outCh L t c).view.read (Elt F) f x = sc x)
    (hsc : ∀ (i : Fin 16) (e : Fin 128), sc (ix2 i e) = pooledArr m d (ix3 t (chunkRow L c i) e)) :
    ((outCh L t c).view.loc (thrOf d L) ↦[(outCh L t c).view.set]{fullShare} f : sProp 𝕄)
      = (outCh L t c).view.loc (thrOf d L) ↦[(outCh L t c).view.set]{fullShare} pooledArr m d := by
  refine outCh_congr_read d L t c f (pooledArr m d) fun x => ?_
  obtain ⟨i, e, rfl⟩ : ∃ (i : Fin 16) (e : Fin 128), x = ix2 i e := ⟨x 0, x 1, eq_ix2 x⟩
  rw [hf, outCh_read]
  exact hsc i e

/-- THE COPY-OUT, in the form the run leaves it: the chunk written whole with a payload that is the chunk's pooled rows is
    held as the pooled array on the chunk. -/
theorem copyout_pooled (d : Dev nD) (L : grid0.Coords) (t : Fin 3) (c : Fin 8) (fo : Buf (Elt F) (oLoc d))
    (P : S16x128.Idx → F .f32) (hP : ∀ y, P y = chunkG m d L (m (aLoc d)) (m (bLoc d)) (m (cLoc d)) t c y) :
    ((outCh L t c).view.loc (thrOf d L) ↦[(outCh L t c).view.set]{fullShare}
        (outCh L t c).view.writes (Elt F) fo [⟨Rect.whole S16x128, P⟩] : sProp 𝕄)
      = (outCh L t c).view.loc (thrOf d L) ↦[(outCh L t c).view.set]{fullShare} pooledArr m d :=
  outCh_pooled m d L t c _ P (fun x => read_writes_whole (outCh L t c).view fo P [] x) (fun i e => hP (ix2 i e))

end Cert.KernelIdeal.Sc

end
-- ==== Proof.ScTripClose.lean ====
/-
  The closing of a chunk-loop trip: from what the run leaves — the 16 × 128 scratch written by the chunk's 128 lane
  stores, and the chunk of the pooled array written whole with the scratch's read — to the chunk held at the pooled
  array.

  Each lane store is a piece of the chunk's pooled rows (its row 4 b + s' and column block j read off the store's own
  rectangle and running sum, as natural numbers); the 128 rectangles tile the scratch; so the scratch reads as the
  chunk's pooled rows, and the chunk, written with them, is held as the pooled array on its own elements.
-/
import proofs.«207262_g39728447488703_cont_8to1_b_1934_40_alg».proof.Proof.ScTripVal

noncomputable section

namespace Cert.KernelIdeal.Sc

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig (HIx 1) (Elt F) ℕ UU ℕ

variable (m : (ℓ : Loc nD τ sig) → Buf (Elt F) ℓ)

/-! ## One lane store, its slot, segment and column block given as numbers -/

section Pieces

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (hX : IdxOK d L sK X)

theorem piece_nat_s2 (ta tb tc : S100000x128.Idx → F .f32) (r : Fin 3) (hT : tV.view.read (Elt F) T = tblSel ta tb tc r)
    (hXr : sK.view.read (Elt F) X = idxBuf m d L r) (f : Buf (Elt F) ((s2).view.loc (thrOf d L)))
    (k : Fin 8) (kn bn sn jn : ℕ) (hkn : kn = k.val) (hb : bn < 4) (hs : sn < 4) (hj : jn < 8) (n : ℕ) (hn : n = 25)
    (c : F .f32) (hc : c = Named.named κ "inv_50" 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s2 (Ring.bk 32 (4 * kn + bn)) f) sn jn n)
        (broadcast S16 c)) shapeCasts_S16_S1x16 x
      = chunkG m d L ta tb tc r k ((Rect.unit (s := S16x128) off S1x16.size inb).emb x) :=
  piece_ok_s2 m d L tV T sK X hX ta tb tc r hT hXr f k ⟨bn, hb⟩ ⟨sn, hs⟩ ⟨jn, hj⟩ kn bn hkn rfl n hn c hc off h0 h1 inb x

theorem piece_nat_s3 (ta tb tc : S100000x128.Idx → F .f32) (r : Fin 3) (hT : tV.view.read (Elt F) T = tblSel ta tb tc r)
    (hXr : sK.view.read (Elt F) X = idxBuf m d L r) (f : Buf (Elt F) ((s3).view.loc (thrOf d L)))
    (k : Fin 8) (kn bn sn jn : ℕ) (hkn : kn = k.val) (hb : bn < 4) (hs : sn < 4) (hj : jn < 8) (n : ℕ) (hn : n = 25)
    (c : F .f32) (hc : c = Named.named κ "inv_50" 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s3 (Ring.bk 32 (4 * kn + bn)) f) sn jn n)
        (broadcast S16 c)) shapeCasts_S16_S1x16 x
      = chunkG m d L ta tb tc r k ((Rect.unit (s := S16x128) off S1x16.size inb).emb x) :=
  piece_ok_s3 m d L tV T sK X hX ta tb tc r hT hXr f k ⟨bn, hb⟩ ⟨sn, hs⟩ ⟨jn, hj⟩ kn bn hkn rfl n hn c hc off h0 h1 inb x

theorem piece_nat_s4 (ta tb tc : S100000x128.Idx → F .f32) (r : Fin 3) (hT : tV.view.read (Elt F) T = tblSel ta tb tc r)
    (hXr : sK.view.read (Elt F) X = idxBuf m d L r) (f : Buf (Elt F) ((s4).view.loc (thrOf d L)))
    (k : Fin 8) (kn bn sn jn : ℕ) (hkn : kn = k.val) (hb : bn < 4) (hs : sn < 4) (hj : jn < 8) (n : ℕ) (hn : n = 25)
    (c : F .f32) (hc : c = Named.named κ "inv_50" 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s4 (Ring.bk 32 (4 * kn + bn)) f) sn jn n)
        (broadcast S16 c)) shapeCasts_S16_S1x16 x
      = chunkG m d L ta tb tc r k ((Rect.unit (s := S16x128) off S1x16.size inb).emb x) :=
  piece_ok_s4 m d L tV T sK X hX ta tb tc r hT hXr f k ⟨bn, hb⟩ ⟨sn, hs⟩ ⟨jn, hj⟩ kn bn hkn rfl n hn c hc off h0 h1 inb x

theorem piece_nat_s5 (ta tb tc : S100000x128.Idx → F .f32) (r : Fin 3) (hT : tV.view.read (Elt F) T = tblSel ta tb tc r)
    (hXr : sK.view.read (Elt F) X = idxBuf m d L r) (f : Buf (Elt F) ((s5).view.loc (thrOf d L)))
    (k : Fin 8) (kn bn sn jn : ℕ) (hkn : kn = k.val) (hb : bn < 4) (hs : sn < 4) (hj : jn < 8) (n : ℕ) (hn : n = 25)
    (c : F .f32) (hc : c = Named.named κ "inv_50" 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s5 (Ring.bk 32 (4 * kn + bn)) f) sn jn n)
        (broadcast S16 c)) shapeCasts_S16_S1x16 x
      = chunkG m d L ta tb tc r k ((Rect.unit (s := S16x128) off S1x16.size inb).emb x) :=
  piece_ok_s5 m d L tV T sK X hX ta tb tc r hT hXr f k ⟨bn, hb⟩ ⟨sn, hs⟩ ⟨jn, hj⟩ kn bn hkn rfl n hn c hc off h0 h1 inb x

end Pieces

/-! ## The closing -/

/-- THE TRIP'S VALUE: the chunk written whole with the read of a scratch whose stores are pieces of the chunk's pooled
    rows and cover it is the chunk held at the pooled array. -/
theorem trip_close (d : Dev nD) (L : grid0.Coords) (t : Fin 3) (c : Fin 8)
    (sM : Memref sig .scVector .vmem S16x128 .f32) (f6 : sM.view.ty.Contents (Elt F))
    (Ls : List (View.Piece (Elt F) S16x128 .f32)) (fo : Buf (Elt F) (oLoc d))
    (hG : ∀ p ∈ Ls, ∀ x : p.1.shape.Idx, p.2 x = chunkG m d L (m (aLoc d)) (m (bLoc d)) (m (cLoc d)) t c (p.1.emb x))
    (hcov : ∀ y : S16x128.Idx, ∃ p ∈ Ls, y ∈ p.1.set)
    (P : S16x128.Idx → F .f32) (hP : P = sM.view.read (Elt F) (sM.view.writes (Elt F) f6 Ls)) :
    ((outCh L t c).view.loc (thrOf d L) ↦[(outCh L t c).view.set]{fullShare}
        (outCh L t c).view.writes (Elt F) fo [⟨Rect.whole S16x128, P⟩] : sProp 𝕄)
      = chunkP d L t c (pooledArr m d) := by
  subst hP
  exact copyout_pooled m d L t c fo _
    (fun y => scratch_read m d L (m (aLoc d)) (m (bLoc d)) (m (cLoc d)) t c sM f6 Ls hG hcov y)

/-- Peels a literal list of lane stores: each piece by the slot's lemma (the four given, in slot order, each already
    applied up to its table and index-buffer facts), its numbers read off the piece; `k` the chunk, `hk` that the
    trip's number is the chunk's. Leaves the first piece it cannot match as the goal. -/
macro "sc_pieces " p2:term:max p3:term:max p4:term:max p5:term:max k:term:max hk:term:max : tactic =>
  `(tactic| (
    repeat
      (refine List.forall_mem_cons.2 ⟨?_, ?_⟩
       · intro x
         first
         | exact $p2 _ $k _ _ _ _ $hk (by decide) (by decide) (by decide) _ (by decide) _ (by rfl) _ (by rfl) (by rfl) (by decide) x
         | exact $p3 _ $k _ _ _ _ $hk (by decide) (by decide) (by decide) _ (by decide) _ (by rfl) _ (by rfl) (by rfl) (by decide) x
         | exact $p4 _ $k _ _ _ _ $hk (by decide) (by decide) (by decide) _ (by decide) _ (by rfl) _ (by rfl) (by rfl) (by decide) x
         | exact $p5 _ $k _ _ _ _ $hk (by decide) (by decide) (by decide) _ (by decide) _ (by rfl) _ (by rfl) (by rfl) (by decide) x)
    intro p hp
    cases hp))

end Cert.KernelIdeal.Sc

end
-- ==== Proof.ScPhase0Lt.lean ====
/-
  A trip of the first chunk loop below its last.

  Before trip k < 7 the four ring slots are in flight with streams 4 k … 4 k + 3 of the first table over the first
  index buffer. The trip waits for each slot in turn, sums the four segments of its two hundred rows two rows a step,
  stores each sum times the reciprocal of fifty into a row of the 16 × 128 scratch, and re-fires the slot with stream
  4 k + b + 4; then it copies the scratch out to chunk k of plane 0. After it the four slots are in flight with streams
  4 (k + 1) … 4 (k + 1) + 3, the four blocks just read are home again, and chunk k holds the pooled rows: every stored
  lane is a segment's mean, a segment's fifty rows are the table rows the index array names for one pooled row, and the
  128 lane stores tile the scratch.
-/
import proofs.«207262_g39728447488703_cont_8to1_b_1934_40_alg».proof.Proof.ScPhase0Defs
import proofs.«207262_g39728447488703_cont_8to1_b_1934_40_alg».proof.Proof.ScCanon
import proofs.«207262_g39728447488703_cont_8to1_b_1934_40_alg».proof.Proof.ScCanonSets
import proofs.«207262_g39728447488703_cont_8to1_b_1934_40_alg».proof.Proof.ScRed02
import proofs.«207262_g39728447488703_cont_8to1_b_1934_40_alg».proof.Proof.ScRed03
import proofs.«207262_g39728447488703_cont_8to1_b_1934_40_alg».proof.Proof.ScRed04
import proofs.«207262_g39728447488703_cont_8to1_b_1934_40_alg».proof.Proof.ScRed05
import proofs.«207262_g39728447488703_cont_8to1_b_1934_40_alg».proof.Proof.ScRed06
import proofs.«207262_g39728447488703_cont_8to1_b_1934_40_alg».proof.Proof.ScRed07
import proofs.«207262_g39728447488703_cont_8to1_b_1934_40_alg».proof.Proof.ScRed08
import proofs.«207262_g39728447488703_cont_8to1_b_1934_40_alg».proof.Proof.ScRed09
import proofs.«207262_g39728447488703_cont_8to1_b_1934_40_alg».proof.Proof.ScRed10
import proofs.«207262_g39728447488703_cont_8to1_b_1934_40_alg».proof.Proof.ScRed11
import proofs.«207262_g39728447488703_cont_8to1_b_1934_40_alg».proof.Proof.ScRed12
import proofs.«207262_g39728447488703_cont_8to1_b_1934_40_alg».proof.Proof.ScRed13
import proofs.«207262_g39728447488703_cont_8to1_b_1934_40_alg».proof.Proof.ScRed14
import proofs.«207262_g39728447488703_cont_8to1_b_1934_40_alg».proof.Proof.ScRed15
import proofs.«207262_g39728447488703_cont_8to1_b_1934_40_alg».proof.Proof.ScRed16
import proofs.«207262_g39728447488703_cont_8to1_b_1934_40_alg».proof.Proof.ScRed17
import proofs.«207262_g39728447488703_cont_8to1_b_1934_40_alg».proof.Proof.ScTripClose
import proofs.«207262_g39728447488703_cont_8to1_b_1934_40_alg».proof.Proof.Gen.KernelIdeal.Skeleton

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

set_option maxHeartbeats 32000000 in
/-- A trip below the last: the four slots land streams `4 k + b`, their segments are averaged into chunk `k`, each slot
    re-fires stream `4 k + b + 4` of the same table, and the chunk is copied out at the pooled value. -/
theorem trip_lt (hR0 : (s0).view.read (Elt F) X0 = idxBuf m d L 0) (k : Fin k0_t1_loop.trips) (hk : k.val < 7) (v2 : BitVec 32) :
    inv0 m d L q X0 hX0 X1 hX1 O W k.val
      ⊢ wp frame (wpE (defs₀ (F := F)) 𝒱₀ (thrOf d L) none) Set.univ
          (k0_t1_body L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5 v2 0#32 1#32 k ())
          (fun _ => inv0 m d L q X0 hX0 X1 hX1 O W (k.val + 1)) := by
  have h8 : k.val < 8 := by omega
  have h8' : k.val + 1 < 8 := by omega
  unfold inv0
  rw [if_pos h8, if_pos h8']
  unfold resAt ringAt
  simp only [slotAt, if_pos (show 4 * k.val + 0 < 32 by omega), if_pos (show 4 * k.val + 1 < 32 by omega),
    if_pos (show 4 * k.val + 2 < 32 by omega), if_pos (show 4 * k.val + 3 < 32 by omega),
    if_pos (show 4 * (k.val + 1) + 0 < 32 by omega), if_pos (show 4 * (k.val + 1) + 1 < 32 by omega),
    if_pos (show 4 * (k.val + 1) + 2 < 32 by omega), if_pos (show 4 * (k.val + 1) + 3 < 32 by omega)]
  rw [chunk_homes_here (homeP d L s0 X0) k.val hk, chunk_homes_next (homeP d L s0 X0) k.val hk,
    plane_here m d L 0 k.val h8, plane_next m d L 0 k.val h8]
  simp only [bk32_next]
  iintro ⟨⟨⟨⟨Hh0, Hh1, Hh2, Hh3, Hrest⟩, ⟨%f2, HF0, Hr0⟩, ⟨%f3, HF1, Hr1⟩, ⟨%f4, HF2, Hr2⟩, ⟨%f5, HF3, Hr3⟩⟩, ⟨%f6, H6⟩, Hc, ⟨⟨%fo, Ho⟩, Hpl⟩, Hmw, ⟨%W', %hW', HO⟩⟩, Hs1, Htb⟩
  have hin0 : ∀ x : S200.Idx, ((blk s0 (Ring.bk 32 (4 * k.val + 0 + 4))).view.read (Elt F) X0 x).toNat < 100000 := hX0 _
  have hin1 : ∀ x : S200.Idx, ((blk s0 (Ring.bk 32 (4 * k.val + 1 + 4))).view.read (Elt F) X0 x).toNat < 100000 := hX0 _
  have hin2 : ∀ x : S200.Idx, ((blk s0 (Ring.bk 32 (4 * k.val + 2 + 4))).view.read (Elt F) X0 x).toNat < 100000 := hX0 _
  have hin3 : ∀ x : S200.Idx, ((blk s0 (Ring.bk 32 (4 * k.val + 3 + 4))).view.read (Elt F) X0 x).toNat < 100000 := hX0 _
  have hc1 : k0_cond1 k = 1#1 := (cond1_iff k).mpr hk
  have hc3 : k0_cond3 k = 1#1 := (cond3_iff k).mpr hk
  have hc5 : k0_cond5 k = 1#1 := (cond5_iff k).mpr hk
  have hc7 : k0_cond7 k = 1#1 := (cond7_iff k).mpr hk
  have hn2 : ¬ k0_cond2 k = 1#1 := fun h => by have := (cond2_iff k).mp h; omega
  have hn4 : ¬ k0_cond4 k = 1#1 := fun h => by have := (cond4_iff k).mp h; omega
  have hn6 : ¬ k0_cond6 k = 1#1 := fun h => by have := (cond6_iff k).mp h; omega
  have hn8 : ¬ k0_cond8 k = 1#1 := fun h => by have := (cond8_iff k).mp h; omega
  clear hk h8 h8'
  unfold Gen.k0_t1_body
  sl_exec
  sl_step
  have hG : ∀ p ∈ trip_lt.sl.H6_128 m d L X0 hX0 k, ∀ x : p.1.shape.Idx,
      p.2 x = chunkG m d L (m (aLoc d)) (m (bLoc d)) (m (cLoc d)) 0 (Ring.bk 8 k.val) (p.1.emb x) := by
    sl_unfold_run_names
    have hk8 : k.val = (Ring.bk 8 k.val).val := (bk8_val (trips1 k)).symm
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 7 k.val 3 hk8 rfl _ k0_t17_trips _ rfl ![15, 112] rfl rfl inb_S16x128_S1x16_15_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 6 k.val 3 hk8 rfl _ k0_t17_trips _ rfl ![15, 96] rfl rfl inb_S16x128_S1x16_15_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 5 k.val 3 hk8 rfl _ k0_t17_trips _ rfl ![15, 80] rfl rfl inb_S16x128_S1x16_15_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 4 k.val 3 hk8 rfl _ k0_t17_trips _ rfl ![15, 64] rfl rfl inb_S16x128_S1x16_15_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 3 k.val 3 hk8 rfl _ k0_t17_trips _ rfl ![15, 48] rfl rfl inb_S16x128_S1x16_15_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 2 k.val 3 hk8 rfl _ k0_t17_trips _ rfl ![15, 32] rfl rfl inb_S16x128_S1x16_15_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 1 k.val 3 hk8 rfl _ k0_t17_trips _ rfl ![15, 16] rfl rfl inb_S16x128_S1x16_15_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 0 k.val 3 hk8 rfl _ k0_t17_trips _ rfl ![15, 0] rfl rfl inb_S16x128_S1x16_15_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 7 k.val 3 hk8 rfl _ k0_t16_trips _ rfl ![14, 112] rfl rfl inb_S16x128_S1x16_14_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 6 k.val 3 hk8 rfl _ k0_t16_trips _ rfl ![14, 96] rfl rfl inb_S16x128_S1x16_14_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 5 k.val 3 hk8 rfl _ k0_t16_trips _ rfl ![14, 80] rfl rfl inb_S16x128_S1x16_14_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 4 k.val 3 hk8 rfl _ k0_t16_trips _ rfl ![14, 64] rfl rfl inb_S16x128_S1x16_14_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 3 k.val 3 hk8 rfl _ k0_t16_trips _ rfl ![14, 48] rfl rfl inb_S16x128_S1x16_14_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 2 k.val 3 hk8 rfl _ k0_t16_trips _ rfl ![14, 32] rfl rfl inb_S16x128_S1x16_14_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 1 k.val 3 hk8 rfl _ k0_t16_trips _ rfl ![14, 16] rfl rfl inb_S16x128_S1x16_14_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 0 k.val 3 hk8 rfl _ k0_t16_trips _ rfl ![14, 0] rfl rfl inb_S16x128_S1x16_14_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 7 k.val 3 hk8 rfl _ k0_t15_trips _ rfl ![13, 112] rfl rfl inb_S16x128_S1x16_13_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 6 k.val 3 hk8 rfl _ k0_t15_trips _ rfl ![13, 96] rfl rfl inb_S16x128_S1x16_13_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 5 k.val 3 hk8 rfl _ k0_t15_trips _ rfl ![13, 80] rfl rfl inb_S16x128_S1x16_13_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 4 k.val 3 hk8 rfl _ k0_t15_trips _ rfl ![13, 64] rfl rfl inb_S16x128_S1x16_13_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 3 k.val 3 hk8 rfl _ k0_t15_trips _ rfl ![13, 48] rfl rfl inb_S16x128_S1x16_13_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 2 k.val 3 hk8 rfl _ k0_t15_trips _ rfl ![13, 32] rfl rfl inb_S16x128_S1x16_13_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 1 k.val 3 hk8 rfl _ k0_t15_trips _ rfl ![13, 16] rfl rfl inb_S16x128_S1x16_13_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 0 k.val 3 hk8 rfl _ k0_t15_trips _ rfl ![13, 0] rfl rfl inb_S16x128_S1x16_13_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 7 k.val 3 hk8 rfl _ k0_t14_trips _ rfl ![12, 112] rfl rfl inb_S16x128_S1x16_12_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 6 k.val 3 hk8 rfl _ k0_t14_trips _ rfl ![12, 96] rfl rfl inb_S16x128_S1x16_12_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 5 k.val 3 hk8 rfl _ k0_t14_trips _ rfl ![12, 80] rfl rfl inb_S16x128_S1x16_12_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 4 k.val 3 hk8 rfl _ k0_t14_trips _ rfl ![12, 64] rfl rfl inb_S16x128_S1x16_12_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 3 k.val 3 hk8 rfl _ k0_t14_trips _ rfl ![12, 48] rfl rfl inb_S16x128_S1x16_12_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 2 k.val 3 hk8 rfl _ k0_t14_trips _ rfl ![12, 32] rfl rfl inb_S16x128_S1x16_12_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 1 k.val 3 hk8 rfl _ k0_t14_trips _ rfl ![12, 16] rfl rfl inb_S16x128_S1x16_12_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 0 k.val 3 hk8 rfl _ k0_t14_trips _ rfl ![12, 0] rfl rfl inb_S16x128_S1x16_12_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 7 k.val 2 hk8 rfl _ k0_t13_trips _ rfl ![11, 112] rfl rfl inb_S16x128_S1x16_11_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 6 k.val 2 hk8 rfl _ k0_t13_trips _ rfl ![11, 96] rfl rfl inb_S16x128_S1x16_11_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 5 k.val 2 hk8 rfl _ k0_t13_trips _ rfl ![11, 80] rfl rfl inb_S16x128_S1x16_11_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 4 k.val 2 hk8 rfl _ k0_t13_trips _ rfl ![11, 64] rfl rfl inb_S16x128_S1x16_11_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 3 k.val 2 hk8 rfl _ k0_t13_trips _ rfl ![11, 48] rfl rfl inb_S16x128_S1x16_11_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 2 k.val 2 hk8 rfl _ k0_t13_trips _ rfl ![11, 32] rfl rfl inb_S16x128_S1x16_11_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 1 k.val 2 hk8 rfl _ k0_t13_trips _ rfl ![11, 16] rfl rfl inb_S16x128_S1x16_11_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 0 k.val 2 hk8 rfl _ k0_t13_trips _ rfl ![11, 0] rfl rfl inb_S16x128_S1x16_11_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 7 k.val 2 hk8 rfl _ k0_t12_trips _ rfl ![10, 112] rfl rfl inb_S16x128_S1x16_10_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 6 k.val 2 hk8 rfl _ k0_t12_trips _ rfl ![10, 96] rfl rfl inb_S16x128_S1x16_10_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 5 k.val 2 hk8 rfl _ k0_t12_trips _ rfl ![10, 80] rfl rfl inb_S16x128_S1x16_10_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 4 k.val 2 hk8 rfl _ k0_t12_trips _ rfl ![10, 64] rfl rfl inb_S16x128_S1x16_10_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 3 k.val 2 hk8 rfl _ k0_t12_trips _ rfl ![10, 48] rfl rfl inb_S16x128_S1x16_10_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 2 k.val 2 hk8 rfl _ k0_t12_trips _ rfl ![10, 32] rfl rfl inb_S16x128_S1x16_10_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 1 k.val 2 hk8 rfl _ k0_t12_trips _ rfl ![10, 16] rfl rfl inb_S16x128_S1x16_10_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 0 k.val 2 hk8 rfl _ k0_t12_trips _ rfl ![10, 0] rfl rfl inb_S16x128_S1x16_10_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 7 k.val 2 hk8 rfl _ k0_t11_trips _ rfl ![9, 112] rfl rfl inb_S16x128_S1x16_9_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 6 k.val 2 hk8 rfl _ k0_t11_trips _ rfl ![9, 96] rfl rfl inb_S16x128_S1x16_9_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 5 k.val 2 hk8 rfl _ k0_t11_trips _ rfl ![9, 80] rfl rfl inb_S16x128_S1x16_9_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 4 k.val 2 hk8 rfl _ k0_t11_trips _ rfl ![9, 64] rfl rfl inb_S16x128_S1x16_9_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 3 k.val 2 hk8 rfl _ k0_t11_trips _ rfl ![9, 48] rfl rfl inb_S16x128_S1x16_9_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 2 k.val 2 hk8 rfl _ k0_t11_trips _ rfl ![9, 32] rfl rfl inb_S16x128_S1x16_9_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 1 k.val 2 hk8 rfl _ k0_t11_trips _ rfl ![9, 16] rfl rfl inb_S16x128_S1x16_9_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 0 k.val 2 hk8 rfl _ k0_t11_trips _ rfl ![9, 0] rfl rfl inb_S16x128_S1x16_9_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 7 k.val 2 hk8 rfl _ k0_t10_trips _ rfl ![8, 112] rfl rfl inb_S16x128_S1x16_8_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 6 k.val 2 hk8 rfl _ k0_t10_trips _ rfl ![8, 96] rfl rfl inb_S16x128_S1x16_8_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 5 k.val 2 hk8 rfl _ k0_t10_trips _ rfl ![8, 80] rfl rfl inb_S16x128_S1x16_8_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 4 k.val 2 hk8 rfl _ k0_t10_trips _ rfl ![8, 64] rfl rfl inb_S16x128_S1x16_8_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 3 k.val 2 hk8 rfl _ k0_t10_trips _ rfl ![8, 48] rfl rfl inb_S16x128_S1x16_8_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 2 k.val 2 hk8 rfl _ k0_t10_trips _ rfl ![8, 32] rfl rfl inb_S16x128_S1x16_8_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 1 k.val 2 hk8 rfl _ k0_t10_trips _ rfl ![8, 16] rfl rfl inb_S16x128_S1x16_8_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 0 k.val 2 hk8 rfl _ k0_t10_trips _ rfl ![8, 0] rfl rfl inb_S16x128_S1x16_8_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 7 k.val 1 hk8 rfl _ k0_t9_trips _ rfl ![7, 112] rfl rfl inb_S16x128_S1x16_7_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 6 k.val 1 hk8 rfl _ k0_t9_trips _ rfl ![7, 96] rfl rfl inb_S16x128_S1x16_7_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 5 k.val 1 hk8 rfl _ k0_t9_trips _ rfl ![7, 80] rfl rfl inb_S16x128_S1x16_7_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 4 k.val 1 hk8 rfl _ k0_t9_trips _ rfl ![7, 64] rfl rfl inb_S16x128_S1x16_7_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 3 k.val 1 hk8 rfl _ k0_t9_trips _ rfl ![7, 48] rfl rfl inb_S16x128_S1x16_7_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 2 k.val 1 hk8 rfl _ k0_t9_trips _ rfl ![7, 32] rfl rfl inb_S16x128_S1x16_7_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 1 k.val 1 hk8 rfl _ k0_t9_trips _ rfl ![7, 16] rfl rfl inb_S16x128_S1x16_7_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 0 k.val 1 hk8 rfl _ k0_t9_trips _ rfl ![7, 0] rfl rfl inb_S16x128_S1x16_7_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 7 k.val 1 hk8 rfl _ k0_t8_trips _ rfl ![6, 112] rfl rfl inb_S16x128_S1x16_6_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 6 k.val 1 hk8 rfl _ k0_t8_trips _ rfl ![6, 96] rfl rfl inb_S16x128_S1x16_6_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 5 k.val 1 hk8 rfl _ k0_t8_trips _ rfl ![6, 80] rfl rfl inb_S16x128_S1x16_6_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 4 k.val 1 hk8 rfl _ k0_t8_trips _ rfl ![6, 64] rfl rfl inb_S16x128_S1x16_6_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 3 k.val 1 hk8 rfl _ k0_t8_trips _ rfl ![6, 48] rfl rfl inb_S16x128_S1x16_6_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 2 k.val 1 hk8 rfl _ k0_t8_trips _ rfl ![6, 32] rfl rfl inb_S16x128_S1x16_6_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 1 k.val 1 hk8 rfl _ k0_t8_trips _ rfl ![6, 16] rfl rfl inb_S16x128_S1x16_6_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 0 k.val 1 hk8 rfl _ k0_t8_trips _ rfl ![6, 0] rfl rfl inb_S16x128_S1x16_6_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 7 k.val 1 hk8 rfl _ k0_t7_trips _ rfl ![5, 112] rfl rfl inb_S16x128_S1x16_5_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 6 k.val 1 hk8 rfl _ k0_t7_trips _ rfl ![5, 96] rfl rfl inb_S16x128_S1x16_5_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 5 k.val 1 hk8 rfl _ k0_t7_trips _ rfl ![5, 80] rfl rfl inb_S16x128_S1x16_5_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 4 k.val 1 hk8 rfl _ k0_t7_trips _ rfl ![5, 64] rfl rfl inb_S16x128_S1x16_5_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 3 k.val 1 hk8 rfl _ k0_t7_trips _ rfl ![5, 48] rfl rfl inb_S16x128_S1x16_5_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 2 k.val 1 hk8 rfl _ k0_t7_trips _ rfl ![5, 32] rfl rfl inb_S16x128_S1x16_5_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 1 k.val 1 hk8 rfl _ k0_t7_trips _ rfl ![5, 16] rfl rfl inb_S16x128_S1x16_5_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 0 k.val 1 hk8 rfl _ k0_t7_trips _ rfl ![5, 0] rfl rfl inb_S16x128_S1x16_5_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 7 k.val 1 hk8 rfl _ k0_t6_trips _ rfl ![4, 112] rfl rfl inb_S16x128_S1x16_4_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 6 k.val 1 hk8 rfl _ k0_t6_trips _ rfl ![4, 96] rfl rfl inb_S16x128_S1x16_4_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 5 k.val 1 hk8 rfl _ k0_t6_trips _ rfl ![4, 80] rfl rfl inb_S16x128_S1x16_4_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 4 k.val 1 hk8 rfl _ k0_t6_trips _ rfl ![4, 64] rfl rfl inb_S16x128_S1x16_4_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 3 k.val 1 hk8 rfl _ k0_t6_trips _ rfl ![4, 48] rfl rfl inb_S16x128_S1x16_4_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 2 k.val 1 hk8 rfl _ k0_t6_trips _ rfl ![4, 32] rfl rfl inb_S16x128_S1x16_4_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 1 k.val 1 hk8 rfl _ k0_t6_trips _ rfl ![4, 16] rfl rfl inb_S16x128_S1x16_4_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 0 k.val 1 hk8 rfl _ k0_t6_trips _ rfl ![4, 0] rfl rfl inb_S16x128_S1x16_4_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 7 k.val 0 hk8 rfl _ k0_t5_trips _ rfl ![3, 112] rfl rfl inb_S16x128_S1x16_3_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 6 k.val 0 hk8 rfl _ k0_t5_trips _ rfl ![3, 96] rfl rfl inb_S16x128_S1x16_3_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 5 k.val 0 hk8 rfl _ k0_t5_trips _ rfl ![3, 80] rfl rfl inb_S16x128_S1x16_3_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 4 k.val 0 hk8 rfl _ k0_t5_trips _ rfl ![3, 64] rfl rfl inb_S16x128_S1x16_3_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 3 k.val 0 hk8 rfl _ k0_t5_trips _ rfl ![3, 48] rfl rfl inb_S16x128_S1x16_3_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 2 k.val 0 hk8 rfl _ k0_t5_trips _ rfl ![3, 32] rfl rfl inb_S16x128_S1x16_3_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 1 k.val 0 hk8 rfl _ k0_t5_trips _ rfl ![3, 16] rfl rfl inb_S16x128_S1x16_3_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 0 k.val 0 hk8 rfl _ k0_t5_trips _ rfl ![3, 0] rfl rfl inb_S16x128_S1x16_3_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 7 k.val 0 hk8 rfl _ k0_t4_trips _ rfl ![2, 112] rfl rfl inb_S16x128_S1x16_2_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 6 k.val 0 hk8 rfl _ k0_t4_trips _ rfl ![2, 96] rfl rfl inb_S16x128_S1x16_2_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 5 k.val 0 hk8 rfl _ k0_t4_trips _ rfl ![2, 80] rfl rfl inb_S16x128_S1x16_2_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 4 k.val 0 hk8 rfl _ k0_t4_trips _ rfl ![2, 64] rfl rfl inb_S16x128_S1x16_2_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 3 k.val 0 hk8 rfl _ k0_t4_trips _ rfl ![2, 48] rfl rfl inb_S16x128_S1x16_2_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 2 k.val 0 hk8 rfl _ k0_t4_trips _ rfl ![2, 32] rfl rfl inb_S16x128_S1x16_2_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 1 k.val 0 hk8 rfl _ k0_t4_trips _ rfl ![2, 16] rfl rfl inb_S16x128_S1x16_2_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 0 k.val 0 hk8 rfl _ k0_t4_trips _ rfl ![2, 0] rfl rfl inb_S16x128_S1x16_2_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 7 k.val 0 hk8 rfl _ k0_t3_trips _ rfl ![1, 112] rfl rfl inb_S16x128_S1x16_1_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 6 k.val 0 hk8 rfl _ k0_t3_trips _ rfl ![1, 96] rfl rfl inb_S16x128_S1x16_1_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 5 k.val 0 hk8 rfl _ k0_t3_trips _ rfl ![1, 80] rfl rfl inb_S16x128_S1x16_1_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 4 k.val 0 hk8 rfl _ k0_t3_trips _ rfl ![1, 64] rfl rfl inb_S16x128_S1x16_1_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 3 k.val 0 hk8 rfl _ k0_t3_trips _ rfl ![1, 48] rfl rfl inb_S16x128_S1x16_1_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 2 k.val 0 hk8 rfl _ k0_t3_trips _ rfl ![1, 32] rfl rfl inb_S16x128_S1x16_1_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 1 k.val 0 hk8 rfl _ k0_t3_trips _ rfl ![1, 16] rfl rfl inb_S16x128_S1x16_1_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 0 k.val 0 hk8 rfl _ k0_t3_trips _ rfl ![1, 0] rfl rfl inb_S16x128_S1x16_1_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 7 k.val 0 hk8 rfl _ k0_t2_trips _ rfl ![0, 112] rfl rfl inb_S16x128_S1x16_0_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 6 k.val 0 hk8 rfl _ k0_t2_trips _ rfl ![0, 96] rfl rfl inb_S16x128_S1x16_0_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 5 k.val 0 hk8 rfl _ k0_t2_trips _ rfl ![0, 80] rfl rfl inb_S16x128_S1x16_0_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 4 k.val 0 hk8 rfl _ k0_t2_trips _ rfl ![0, 64] rfl rfl inb_S16x128_S1x16_0_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 3 k.val 0 hk8 rfl _ k0_t2_trips _ rfl ![0, 48] rfl rfl inb_S16x128_S1x16_0_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 2 k.val 0 hk8 rfl _ k0_t2_trips _ rfl ![0, 32] rfl rfl inb_S16x128_S1x16_0_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 1 k.val 0 hk8 rfl _ k0_t2_trips _ rfl ![0, 16] rfl rfl inb_S16x128_S1x16_0_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 0 k.val 0 hk8 rfl _ k0_t2_trips _ rfl ![0, 0] rfl rfl inb_S16x128_S1x16_0_0 x, ?_⟩
    exact List.forall_mem_nil _
  have hcov : ∀ y : S16x128.Idx, ∃ p ∈ trip_lt.sl.H6_128 m d L X0 hX0 k, y ∈ p.1.set := by
    sl_unfold_run_names
    exact View.cover_of_tiled _ S1x16.size rfl
  ihave Ho' := (Entails.of_eq (trip_close m d L 0 (Ring.bk 8 k.val) s6 f6 _ fo hG hcov (trip_lt.sl.dma16 m d L X0 hX0 k f6) rfl)) $$ Ho
  clear hG hcov
  isplitr [Hs1 Htb]
  · isplitl [HF0_dst_and HF1_dst_and HF2_dst_and HF3_dst_and Hrest HF0 Hr0 HF1 Hr1 HF2 Hr2 HF3 Hr3]
    · isplitl [HF0_dst_and HF1_dst_and HF2_dst_and HF3_dst_and Hrest]
      · isplitl [HF0_dst_and]
        · iexact HF0_dst_and
        isplitl [HF1_dst_and]
        · iexact HF1_dst_and
        isplitl [HF2_dst_and]
        · iexact HF2_dst_and
        isplitl [HF3_dst_and]
        · iexact HF3_dst_and
        iexact Hrest
      isplitl [HF0 Hr0]
      · iexists ((s2).view.writes (Elt F) (s2).view.junk [⟨Rect.whole S200x128, gathered d L aV (m (aLoc d)) s0 X0 hX0 (Ring.bk 32 (4 * k.val + 0))⟩])
        irw [flightP_after]
        isplitl [HF0]
        · iexact HF0
        iexact Hr0
      isplitl [HF1 Hr1]
      · iexists ((s3).view.writes (Elt F) (s3).view.junk [⟨Rect.whole S200x128, gathered d L aV (m (aLoc d)) s0 X0 hX0 (Ring.bk 32 (4 * k.val + 1))⟩])
        irw [flightP_after]
        isplitl [HF1]
        · iexact HF1
        iexact Hr1
      isplitl [HF2 Hr2]
      · iexists ((s4).view.writes (Elt F) (s4).view.junk [⟨Rect.whole S200x128, gathered d L aV (m (aLoc d)) s0 X0 hX0 (Ring.bk 32 (4 * k.val + 2))⟩])
        irw [flightP_after]
        isplitl [HF2]
        · iexact HF2
        iexact Hr2
      iexists ((s5).view.writes (Elt F) (s5).view.junk [⟨Rect.whole S200x128, gathered d L aV (m (aLoc d)) s0 X0 hX0 (Ring.bk 32 (4 * k.val + 3))⟩])
      irw [flightP_after]
      isplitl [HF3]
      · iexact HF3
      iexact Hr3
    isplitl [H6]
    · iexists _; iexact H6
    isplitl [Hc]
    · iexact Hc
    isplitl [Ho' Hpl]
    · isplitl [Ho']
      · iexact Ho'
      iexact Hpl
    isplitl [Hmw]
    · iexact Hmw
    iexists _
    isplitr
    rotate_left
    · iexact HO
    · ipureintro
      intro p hp
      simp only [Finset.mem_insert] at hp
      rcases hp with rfl | rfl | rfl | rfl | rfl | hp
      all_goals first | exact Or.inr rfl | exact hW' p hp
  isplitl [Hs1]
  · iexact Hs1
  iexact Htb

end Phase0

end Cert.KernelIdeal.Sc

end
-- ==== Proof.ScPhase0Last.lean ====
/-
  The LAST trip of the first chunk loop of a vector subcore (trip 7 of 8).

  Like every trip it lands the four streams 28 … 31 of the first table over the first index buffer and averages their
  segments into the sixteen rows of chunk 7 of plane 0; but nothing of the first index buffer is left to fire, and the
  trip fires instead the FIRST four streams of the second table over the second index buffer (blocks 0 … 3), into the
  same four row buffers. So from the loop's invariant at trip 7 — the first table's ring at point 28, the second index
  buffer's blocks all home, the second table's tokens — it reaches the invariant at trip 8: the second table's ring
  before its first point, every block of the first index buffer home, the first table's four tokens back whole,
  plane 0 complete.
-/
import proofs.«207262_g39728447488703_cont_8to1_b_1934_40_alg».proof.Proof.ScPhase0Defs
import proofs.«207262_g39728447488703_cont_8to1_b_1934_40_alg».proof.Proof.ScCanon
import proofs.«207262_g39728447488703_cont_8to1_b_1934_40_alg».proof.Proof.ScCanonSets
import proofs.«207262_g39728447488703_cont_8to1_b_1934_40_alg».proof.Proof.ScRingSets
import proofs.«207262_g39728447488703_cont_8to1_b_1934_40_alg».proof.Proof.ScRed02
import proofs.«207262_g39728447488703_cont_8to1_b_1934_40_alg».proof.Proof.ScRed03
import proofs.«207262_g39728447488703_cont_8to1_b_1934_40_alg».proof.Proof.ScRed04
import proofs.«207262_g39728447488703_cont_8to1_b_1934_40_alg».proof.Proof.ScRed05
import proofs.«207262_g39728447488703_cont_8to1_b_1934_40_alg».proof.Proof.ScRed06
import proofs.«207262_g39728447488703_cont_8to1_b_1934_40_alg».proof.Proof.ScRed07
import proofs.«207262_g39728447488703_cont_8to1_b_1934_40_alg».proof.Proof.ScRed08
import proofs.«207262_g39728447488703_cont_8to1_b_1934_40_alg».proof.Proof.ScRed09
import proofs.«207262_g39728447488703_cont_8to1_b_1934_40_alg».proof.Proof.ScRed10
import proofs.«207262_g39728447488703_cont_8to1_b_1934_40_alg».proof.Proof.ScRed11
import proofs.«207262_g39728447488703_cont_8to1_b_1934_40_alg».proof.Proof.ScRed12
import proofs.«207262_g39728447488703_cont_8to1_b_1934_40_alg».proof.Proof.ScRed13
import proofs.«207262_g39728447488703_cont_8to1_b_1934_40_alg».proof.Proof.ScRed14
import proofs.«207262_g39728447488703_cont_8to1_b_1934_40_alg».proof.Proof.ScRed15
import proofs.«207262_g39728447488703_cont_8to1_b_1934_40_alg».proof.Proof.ScRed16
import proofs.«207262_g39728447488703_cont_8to1_b_1934_40_alg».proof.Proof.ScRed17
import proofs.«207262_g39728447488703_cont_8to1_b_1934_40_alg».proof.Proof.ScChunkVal
import proofs.«207262_g39728447488703_cont_8to1_b_1934_40_alg».proof.Proof.ScTripVal
import proofs.«207262_g39728447488703_cont_8to1_b_1934_40_alg».proof.Proof.ScTripClose
import proofs.«207262_g39728447488703_cont_8to1_b_1934_40_alg».proof.Proof.Gen.KernelIdeal.Skeleton
import Idealize.ShloMosaic.Lib.Ring
import Idealize.ShloMosaic.Lib.SparseCore.Stream
import Idealize.ShloMosaic.Lib.Transfers
import Idealize.ShloMosaic.Lib.Tactic

noncomputable section

namespace Cert.KernelIdeal.Sc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

/-- A flight issued over a row buffer that earlier writes left: the new block's rows consed on those writes. -/
theorem flightP_over (tV : Memref sig .scVector .hbm S100000x128 .f32) (T : Buf (Elt F) (tV.view.loc (thrOf d L)))
    (sK : Memref sig .scVector .vmem S6400 .i32) (X : Buf (Elt F) (sK.view.loc (thrOf d L))) (hX : IdxOK d L sK X)
    (sR : Memref sig .scVector .vmem S200x128 .f32) (sm : DmaSems sig S_) (b : Fin 4) (g : Fin 32)
    (Ps : List (View.Piece (Elt F) S200x128 .f32)) :
    flightP d L tV T sK X q hX sR sm b g (sR.view.writes (Elt F) sR.view.junk Ps)
      = iprop(Transfers.Flight countersEmb (thrOf d L) (SemLoc.dma sm.sem) default 819200
          iprop(((sR.view.loc (thrOf d L) ↦{fullShare} sR.view.writes (Elt F) sR.view.junk
                    (⟨Rect.whole S200x128, gathered d L tV T sK X hX g⟩ :: Ps))
                ∗ homeP d L sK X g)
            ∗ (tV.view.loc (thrOf d L) ↦[(tblW tV).view.set]{Transfers.shareTok q 4 b} T))
        ∗ (tV.view.loc (thrOf d L) ↦[Finset.univ \ (tblW tV).view.set]{Transfers.shareTok q 4 b} T)) := rfl

set_option maxHeartbeats 16000000 in
theorem trip_last (hR0 : (s0).view.read (Elt F) X0 = idxBuf m d L 0) (k : Fin k0_t1_loop.trips) (hk : k.val = 7) (v2 : BitVec 32) :
    inv0 m d L q X0 hX0 X1 hX1 O W k.val
      ⊢ wp frame (wpE (defs₀ (F := F)) 𝒱₀ (thrOf d L) none) Set.univ
          (k0_t1_body L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5 v2 0#32 1#32 k ())
          (fun _ => inv0 m d L q X0 hX0 X1 hX1 O W (k.val + 1)) := by
  have h8 : k.val < 8 := by omega
  have h8' : ¬ k.val + 1 < 8 := by omega
  unfold inv0
  rw [if_pos h8, if_neg h8']
  have eS0 : bigSep (Finset.univ : Finset (Fin 32)) (homeP d L s0 X0)
      = iprop(homeP d L s0 X0 (Ring.bk 32 (4 * k.val + 0)) ∗ homeP d L s0 X0 (Ring.bk 32 (4 * k.val + 1))
          ∗ homeP d L s0 X0 (Ring.bk 32 (4 * k.val + 2)) ∗ homeP d L s0 X0 (Ring.bk 32 (4 * k.val + 3))
          ∗ bigSep (Ring.homeSet (NB := 32) 4 (4 * k.val)) (homeP d L s0 X0)) := by
    rw [← Ring.homeSet_last (NB := 32) (L := 4) (4 * (k.val + 1)) (by omega)]
    exact chunk_homes_last' _ k.val hk
  have eS1 : bigSep (Finset.univ : Finset (Fin 32)) (homeP d L s1 X1)
      = iprop(homeP d L s1 X1 (Ring.bk 32 0) ∗ homeP d L s1 X1 (Ring.bk 32 1) ∗ homeP d L s1 X1 (Ring.bk 32 2) ∗ homeP d L s1 X1 (Ring.bk 32 3)
          ∗ bigSep (Ring.homeSet (NB := 32) 4 0) (homeP d L s1 X1)) :=
    homes_all _ _ _ _ _ rfl rfl rfl rfl
  have eP : planeAt m d L 0 8 = planeAt m d L 0 (k.val + 1) := by rw [hk]
  rw [eS0, eS1, eP]
  unfold resAt ringAt
  simp only [slotAt, if_pos (show 4 * k.val + 0 < 32 by omega), if_pos (show 4 * k.val + 1 < 32 by omega),
    if_pos (show 4 * k.val + 2 < 32 by omega), if_pos (show 4 * k.val + 3 < 32 by omega),
    if_pos (show 0 + 0 < 32 by omega), if_pos (show 0 + 1 < 32 by omega),
    if_pos (show 0 + 2 < 32 by omega), if_pos (show 0 + 3 < 32 by omega)]
  rw [plane_here m d L 0 k.val h8, plane_next m d L 0 k.val h8]
  iintro ⟨⟨⟨Hhome0, ⟨%f2, HF0, Hr0⟩, ⟨%f3, HF1, Hr1⟩, ⟨%f4, HF2, Hr2⟩, ⟨%f5, HF3, Hr3⟩⟩, ⟨%f6, H6⟩, Hc, ⟨⟨%fo, Ho⟩, Hpl⟩, Hmw, ⟨%W', %hW', HO⟩⟩, ⟨Hb0, Hb1, Hb2, Hb3, Hs1rest⟩, ⟨Ht0, Ht1, Ht2, Ht3⟩⟩
  have hin0 : ∀ x : S200.Idx, ((blk s1 (Ring.bk 32 0)).view.read (Elt F) X1 x).toNat < 100000 := hX1 _
  have hin1 : ∀ x : S200.Idx, ((blk s1 (Ring.bk 32 1)).view.read (Elt F) X1 x).toNat < 100000 := hX1 _
  have hin2 : ∀ x : S200.Idx, ((blk s1 (Ring.bk 32 2)).view.read (Elt F) X1 x).toNat < 100000 := hX1 _
  have hin3 : ∀ x : S200.Idx, ((blk s1 (Ring.bk 32 3)).view.read (Elt F) X1 x).toNat < 100000 := hX1 _
  have hc2 : k0_cond2 k = 1#1 := (cond2_iff k).mpr hk
  have hc4 : k0_cond4 k = 1#1 := (cond4_iff k).mpr hk
  have hc6 : k0_cond6 k = 1#1 := (cond6_iff k).mpr hk
  have hc8 : k0_cond8 k = 1#1 := (cond8_iff k).mpr hk
  have hn1 : ¬ k0_cond1 k = 1#1 := fun h => by have := (cond1_iff k).mp h; omega
  have hn3 : ¬ k0_cond3 k = 1#1 := fun h => by have := (cond3_iff k).mp h; omega
  have hn5 : ¬ k0_cond5 k = 1#1 := fun h => by have := (cond5_iff k).mp h; omega
  have hn7 : ¬ k0_cond7 k = 1#1 := fun h => by have := (cond7_iff k).mp h; omega
  clear h8 h8' eS0 eS1 eP
  unfold Gen.k0_t1_body
  sl_exec
  sl_step
  have hG : ∀ p ∈ trip_last.sl.H6_128 m d L X0 hX0 k, ∀ x : p.1.shape.Idx,
      p.2 x = chunkG m d L (m (aLoc d)) (m (bLoc d)) (m (cLoc d)) 0 (Ring.bk 8 k.val) (p.1.emb x) := by
    sl_unfold_run_names
    have hk8 : k.val = (Ring.bk 8 k.val).val := (bk8_val (trips1 k)).symm
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 7 k.val 3 hk8 rfl _ k0_t17_trips _ rfl ![15, 112] rfl rfl inb_S16x128_S1x16_15_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 6 k.val 3 hk8 rfl _ k0_t17_trips _ rfl ![15, 96] rfl rfl inb_S16x128_S1x16_15_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 5 k.val 3 hk8 rfl _ k0_t17_trips _ rfl ![15, 80] rfl rfl inb_S16x128_S1x16_15_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 4 k.val 3 hk8 rfl _ k0_t17_trips _ rfl ![15, 64] rfl rfl inb_S16x128_S1x16_15_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 3 k.val 3 hk8 rfl _ k0_t17_trips _ rfl ![15, 48] rfl rfl inb_S16x128_S1x16_15_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 2 k.val 3 hk8 rfl _ k0_t17_trips _ rfl ![15, 32] rfl rfl inb_S16x128_S1x16_15_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 1 k.val 3 hk8 rfl _ k0_t17_trips _ rfl ![15, 16] rfl rfl inb_S16x128_S1x16_15_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 0 k.val 3 hk8 rfl _ k0_t17_trips _ rfl ![15, 0] rfl rfl inb_S16x128_S1x16_15_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 7 k.val 3 hk8 rfl _ k0_t16_trips _ rfl ![14, 112] rfl rfl inb_S16x128_S1x16_14_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 6 k.val 3 hk8 rfl _ k0_t16_trips _ rfl ![14, 96] rfl rfl inb_S16x128_S1x16_14_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 5 k.val 3 hk8 rfl _ k0_t16_trips _ rfl ![14, 80] rfl rfl inb_S16x128_S1x16_14_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 4 k.val 3 hk8 rfl _ k0_t16_trips _ rfl ![14, 64] rfl rfl inb_S16x128_S1x16_14_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 3 k.val 3 hk8 rfl _ k0_t16_trips _ rfl ![14, 48] rfl rfl inb_S16x128_S1x16_14_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 2 k.val 3 hk8 rfl _ k0_t16_trips _ rfl ![14, 32] rfl rfl inb_S16x128_S1x16_14_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 1 k.val 3 hk8 rfl _ k0_t16_trips _ rfl ![14, 16] rfl rfl inb_S16x128_S1x16_14_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 0 k.val 3 hk8 rfl _ k0_t16_trips _ rfl ![14, 0] rfl rfl inb_S16x128_S1x16_14_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 7 k.val 3 hk8 rfl _ k0_t15_trips _ rfl ![13, 112] rfl rfl inb_S16x128_S1x16_13_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 6 k.val 3 hk8 rfl _ k0_t15_trips _ rfl ![13, 96] rfl rfl inb_S16x128_S1x16_13_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 5 k.val 3 hk8 rfl _ k0_t15_trips _ rfl ![13, 80] rfl rfl inb_S16x128_S1x16_13_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 4 k.val 3 hk8 rfl _ k0_t15_trips _ rfl ![13, 64] rfl rfl inb_S16x128_S1x16_13_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 3 k.val 3 hk8 rfl _ k0_t15_trips _ rfl ![13, 48] rfl rfl inb_S16x128_S1x16_13_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 2 k.val 3 hk8 rfl _ k0_t15_trips _ rfl ![13, 32] rfl rfl inb_S16x128_S1x16_13_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 1 k.val 3 hk8 rfl _ k0_t15_trips _ rfl ![13, 16] rfl rfl inb_S16x128_S1x16_13_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 0 k.val 3 hk8 rfl _ k0_t15_trips _ rfl ![13, 0] rfl rfl inb_S16x128_S1x16_13_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 7 k.val 3 hk8 rfl _ k0_t14_trips _ rfl ![12, 112] rfl rfl inb_S16x128_S1x16_12_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 6 k.val 3 hk8 rfl _ k0_t14_trips _ rfl ![12, 96] rfl rfl inb_S16x128_S1x16_12_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 5 k.val 3 hk8 rfl _ k0_t14_trips _ rfl ![12, 80] rfl rfl inb_S16x128_S1x16_12_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 4 k.val 3 hk8 rfl _ k0_t14_trips _ rfl ![12, 64] rfl rfl inb_S16x128_S1x16_12_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 3 k.val 3 hk8 rfl _ k0_t14_trips _ rfl ![12, 48] rfl rfl inb_S16x128_S1x16_12_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 2 k.val 3 hk8 rfl _ k0_t14_trips _ rfl ![12, 32] rfl rfl inb_S16x128_S1x16_12_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 1 k.val 3 hk8 rfl _ k0_t14_trips _ rfl ![12, 16] rfl rfl inb_S16x128_S1x16_12_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 0 k.val 3 hk8 rfl _ k0_t14_trips _ rfl ![12, 0] rfl rfl inb_S16x128_S1x16_12_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 7 k.val 2 hk8 rfl _ k0_t13_trips _ rfl ![11, 112] rfl rfl inb_S16x128_S1x16_11_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 6 k.val 2 hk8 rfl _ k0_t13_trips _ rfl ![11, 96] rfl rfl inb_S16x128_S1x16_11_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 5 k.val 2 hk8 rfl _ k0_t13_trips _ rfl ![11, 80] rfl rfl inb_S16x128_S1x16_11_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 4 k.val 2 hk8 rfl _ k0_t13_trips _ rfl ![11, 64] rfl rfl inb_S16x128_S1x16_11_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 3 k.val 2 hk8 rfl _ k0_t13_trips _ rfl ![11, 48] rfl rfl inb_S16x128_S1x16_11_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 2 k.val 2 hk8 rfl _ k0_t13_trips _ rfl ![11, 32] rfl rfl inb_S16x128_S1x16_11_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 1 k.val 2 hk8 rfl _ k0_t13_trips _ rfl ![11, 16] rfl rfl inb_S16x128_S1x16_11_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 0 k.val 2 hk8 rfl _ k0_t13_trips _ rfl ![11, 0] rfl rfl inb_S16x128_S1x16_11_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 7 k.val 2 hk8 rfl _ k0_t12_trips _ rfl ![10, 112] rfl rfl inb_S16x128_S1x16_10_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 6 k.val 2 hk8 rfl _ k0_t12_trips _ rfl ![10, 96] rfl rfl inb_S16x128_S1x16_10_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 5 k.val 2 hk8 rfl _ k0_t12_trips _ rfl ![10, 80] rfl rfl inb_S16x128_S1x16_10_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 4 k.val 2 hk8 rfl _ k0_t12_trips _ rfl ![10, 64] rfl rfl inb_S16x128_S1x16_10_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 3 k.val 2 hk8 rfl _ k0_t12_trips _ rfl ![10, 48] rfl rfl inb_S16x128_S1x16_10_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 2 k.val 2 hk8 rfl _ k0_t12_trips _ rfl ![10, 32] rfl rfl inb_S16x128_S1x16_10_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 1 k.val 2 hk8 rfl _ k0_t12_trips _ rfl ![10, 16] rfl rfl inb_S16x128_S1x16_10_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 0 k.val 2 hk8 rfl _ k0_t12_trips _ rfl ![10, 0] rfl rfl inb_S16x128_S1x16_10_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 7 k.val 2 hk8 rfl _ k0_t11_trips _ rfl ![9, 112] rfl rfl inb_S16x128_S1x16_9_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 6 k.val 2 hk8 rfl _ k0_t11_trips _ rfl ![9, 96] rfl rfl inb_S16x128_S1x16_9_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 5 k.val 2 hk8 rfl _ k0_t11_trips _ rfl ![9, 80] rfl rfl inb_S16x128_S1x16_9_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 4 k.val 2 hk8 rfl _ k0_t11_trips _ rfl ![9, 64] rfl rfl inb_S16x128_S1x16_9_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 3 k.val 2 hk8 rfl _ k0_t11_trips _ rfl ![9, 48] rfl rfl inb_S16x128_S1x16_9_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 2 k.val 2 hk8 rfl _ k0_t11_trips _ rfl ![9, 32] rfl rfl inb_S16x128_S1x16_9_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 1 k.val 2 hk8 rfl _ k0_t11_trips _ rfl ![9, 16] rfl rfl inb_S16x128_S1x16_9_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 0 k.val 2 hk8 rfl _ k0_t11_trips _ rfl ![9, 0] rfl rfl inb_S16x128_S1x16_9_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 7 k.val 2 hk8 rfl _ k0_t10_trips _ rfl ![8, 112] rfl rfl inb_S16x128_S1x16_8_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 6 k.val 2 hk8 rfl _ k0_t10_trips _ rfl ![8, 96] rfl rfl inb_S16x128_S1x16_8_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 5 k.val 2 hk8 rfl _ k0_t10_trips _ rfl ![8, 80] rfl rfl inb_S16x128_S1x16_8_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 4 k.val 2 hk8 rfl _ k0_t10_trips _ rfl ![8, 64] rfl rfl inb_S16x128_S1x16_8_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 3 k.val 2 hk8 rfl _ k0_t10_trips _ rfl ![8, 48] rfl rfl inb_S16x128_S1x16_8_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 2 k.val 2 hk8 rfl _ k0_t10_trips _ rfl ![8, 32] rfl rfl inb_S16x128_S1x16_8_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 1 k.val 2 hk8 rfl _ k0_t10_trips _ rfl ![8, 16] rfl rfl inb_S16x128_S1x16_8_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 0 k.val 2 hk8 rfl _ k0_t10_trips _ rfl ![8, 0] rfl rfl inb_S16x128_S1x16_8_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 7 k.val 1 hk8 rfl _ k0_t9_trips _ rfl ![7, 112] rfl rfl inb_S16x128_S1x16_7_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 6 k.val 1 hk8 rfl _ k0_t9_trips _ rfl ![7, 96] rfl rfl inb_S16x128_S1x16_7_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 5 k.val 1 hk8 rfl _ k0_t9_trips _ rfl ![7, 80] rfl rfl inb_S16x128_S1x16_7_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 4 k.val 1 hk8 rfl _ k0_t9_trips _ rfl ![7, 64] rfl rfl inb_S16x128_S1x16_7_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 3 k.val 1 hk8 rfl _ k0_t9_trips _ rfl ![7, 48] rfl rfl inb_S16x128_S1x16_7_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 2 k.val 1 hk8 rfl _ k0_t9_trips _ rfl ![7, 32] rfl rfl inb_S16x128_S1x16_7_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 1 k.val 1 hk8 rfl _ k0_t9_trips _ rfl ![7, 16] rfl rfl inb_S16x128_S1x16_7_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 0 k.val 1 hk8 rfl _ k0_t9_trips _ rfl ![7, 0] rfl rfl inb_S16x128_S1x16_7_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 7 k.val 1 hk8 rfl _ k0_t8_trips _ rfl ![6, 112] rfl rfl inb_S16x128_S1x16_6_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 6 k.val 1 hk8 rfl _ k0_t8_trips _ rfl ![6, 96] rfl rfl inb_S16x128_S1x16_6_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 5 k.val 1 hk8 rfl _ k0_t8_trips _ rfl ![6, 80] rfl rfl inb_S16x128_S1x16_6_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 4 k.val 1 hk8 rfl _ k0_t8_trips _ rfl ![6, 64] rfl rfl inb_S16x128_S1x16_6_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 3 k.val 1 hk8 rfl _ k0_t8_trips _ rfl ![6, 48] rfl rfl inb_S16x128_S1x16_6_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 2 k.val 1 hk8 rfl _ k0_t8_trips _ rfl ![6, 32] rfl rfl inb_S16x128_S1x16_6_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 1 k.val 1 hk8 rfl _ k0_t8_trips _ rfl ![6, 16] rfl rfl inb_S16x128_S1x16_6_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 0 k.val 1 hk8 rfl _ k0_t8_trips _ rfl ![6, 0] rfl rfl inb_S16x128_S1x16_6_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 7 k.val 1 hk8 rfl _ k0_t7_trips _ rfl ![5, 112] rfl rfl inb_S16x128_S1x16_5_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 6 k.val 1 hk8 rfl _ k0_t7_trips _ rfl ![5, 96] rfl rfl inb_S16x128_S1x16_5_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 5 k.val 1 hk8 rfl _ k0_t7_trips _ rfl ![5, 80] rfl rfl inb_S16x128_S1x16_5_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 4 k.val 1 hk8 rfl _ k0_t7_trips _ rfl ![5, 64] rfl rfl inb_S16x128_S1x16_5_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 3 k.val 1 hk8 rfl _ k0_t7_trips _ rfl ![5, 48] rfl rfl inb_S16x128_S1x16_5_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 2 k.val 1 hk8 rfl _ k0_t7_trips _ rfl ![5, 32] rfl rfl inb_S16x128_S1x16_5_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 1 k.val 1 hk8 rfl _ k0_t7_trips _ rfl ![5, 16] rfl rfl inb_S16x128_S1x16_5_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 0 k.val 1 hk8 rfl _ k0_t7_trips _ rfl ![5, 0] rfl rfl inb_S16x128_S1x16_5_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 7 k.val 1 hk8 rfl _ k0_t6_trips _ rfl ![4, 112] rfl rfl inb_S16x128_S1x16_4_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 6 k.val 1 hk8 rfl _ k0_t6_trips _ rfl ![4, 96] rfl rfl inb_S16x128_S1x16_4_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 5 k.val 1 hk8 rfl _ k0_t6_trips _ rfl ![4, 80] rfl rfl inb_S16x128_S1x16_4_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 4 k.val 1 hk8 rfl _ k0_t6_trips _ rfl ![4, 64] rfl rfl inb_S16x128_S1x16_4_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 3 k.val 1 hk8 rfl _ k0_t6_trips _ rfl ![4, 48] rfl rfl inb_S16x128_S1x16_4_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 2 k.val 1 hk8 rfl _ k0_t6_trips _ rfl ![4, 32] rfl rfl inb_S16x128_S1x16_4_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 1 k.val 1 hk8 rfl _ k0_t6_trips _ rfl ![4, 16] rfl rfl inb_S16x128_S1x16_4_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 0 k.val 1 hk8 rfl _ k0_t6_trips _ rfl ![4, 0] rfl rfl inb_S16x128_S1x16_4_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 7 k.val 0 hk8 rfl _ k0_t5_trips _ rfl ![3, 112] rfl rfl inb_S16x128_S1x16_3_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 6 k.val 0 hk8 rfl _ k0_t5_trips _ rfl ![3, 96] rfl rfl inb_S16x128_S1x16_3_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 5 k.val 0 hk8 rfl _ k0_t5_trips _ rfl ![3, 80] rfl rfl inb_S16x128_S1x16_3_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 4 k.val 0 hk8 rfl _ k0_t5_trips _ rfl ![3, 64] rfl rfl inb_S16x128_S1x16_3_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 3 k.val 0 hk8 rfl _ k0_t5_trips _ rfl ![3, 48] rfl rfl inb_S16x128_S1x16_3_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 2 k.val 0 hk8 rfl _ k0_t5_trips _ rfl ![3, 32] rfl rfl inb_S16x128_S1x16_3_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 1 k.val 0 hk8 rfl _ k0_t5_trips _ rfl ![3, 16] rfl rfl inb_S16x128_S1x16_3_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 0 k.val 0 hk8 rfl _ k0_t5_trips _ rfl ![3, 0] rfl rfl inb_S16x128_S1x16_3_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 7 k.val 0 hk8 rfl _ k0_t4_trips _ rfl ![2, 112] rfl rfl inb_S16x128_S1x16_2_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 6 k.val 0 hk8 rfl _ k0_t4_trips _ rfl ![2, 96] rfl rfl inb_S16x128_S1x16_2_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 5 k.val 0 hk8 rfl _ k0_t4_trips _ rfl ![2, 80] rfl rfl inb_S16x128_S1x16_2_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 4 k.val 0 hk8 rfl _ k0_t4_trips _ rfl ![2, 64] rfl rfl inb_S16x128_S1x16_2_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 3 k.val 0 hk8 rfl _ k0_t4_trips _ rfl ![2, 48] rfl rfl inb_S16x128_S1x16_2_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 2 k.val 0 hk8 rfl _ k0_t4_trips _ rfl ![2, 32] rfl rfl inb_S16x128_S1x16_2_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 1 k.val 0 hk8 rfl _ k0_t4_trips _ rfl ![2, 16] rfl rfl inb_S16x128_S1x16_2_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 0 k.val 0 hk8 rfl _ k0_t4_trips _ rfl ![2, 0] rfl rfl inb_S16x128_S1x16_2_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 7 k.val 0 hk8 rfl _ k0_t3_trips _ rfl ![1, 112] rfl rfl inb_S16x128_S1x16_1_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 6 k.val 0 hk8 rfl _ k0_t3_trips _ rfl ![1, 96] rfl rfl inb_S16x128_S1x16_1_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 5 k.val 0 hk8 rfl _ k0_t3_trips _ rfl ![1, 80] rfl rfl inb_S16x128_S1x16_1_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 4 k.val 0 hk8 rfl _ k0_t3_trips _ rfl ![1, 64] rfl rfl inb_S16x128_S1x16_1_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 3 k.val 0 hk8 rfl _ k0_t3_trips _ rfl ![1, 48] rfl rfl inb_S16x128_S1x16_1_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 2 k.val 0 hk8 rfl _ k0_t3_trips _ rfl ![1, 32] rfl rfl inb_S16x128_S1x16_1_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 1 k.val 0 hk8 rfl _ k0_t3_trips _ rfl ![1, 16] rfl rfl inb_S16x128_S1x16_1_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 0 k.val 0 hk8 rfl _ k0_t3_trips _ rfl ![1, 0] rfl rfl inb_S16x128_S1x16_1_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 7 k.val 0 hk8 rfl _ k0_t2_trips _ rfl ![0, 112] rfl rfl inb_S16x128_S1x16_0_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 6 k.val 0 hk8 rfl _ k0_t2_trips _ rfl ![0, 96] rfl rfl inb_S16x128_S1x16_0_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 5 k.val 0 hk8 rfl _ k0_t2_trips _ rfl ![0, 80] rfl rfl inb_S16x128_S1x16_0_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 4 k.val 0 hk8 rfl _ k0_t2_trips _ rfl ![0, 64] rfl rfl inb_S16x128_S1x16_0_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 3 k.val 0 hk8 rfl _ k0_t2_trips _ rfl ![0, 48] rfl rfl inb_S16x128_S1x16_0_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 2 k.val 0 hk8 rfl _ k0_t2_trips _ rfl ![0, 32] rfl rfl inb_S16x128_S1x16_0_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 1 k.val 0 hk8 rfl _ k0_t2_trips _ rfl ![0, 16] rfl rfl inb_S16x128_S1x16_0_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 0 k.val 0 hk8 rfl _ k0_t2_trips _ rfl ![0, 0] rfl rfl inb_S16x128_S1x16_0_0 x, ?_⟩
    exact List.forall_mem_nil _
  have hcov : ∀ y : S16x128.Idx, ∃ p ∈ trip_last.sl.H6_128 m d L X0 hX0 k, y ∈ p.1.set := by
    sl_unfold_run_names
    exact View.cover_of_tiled _ S1x16.size rfl
  ihave Ho' := (Entails.of_eq (trip_close m d L 0 (Ring.bk 8 k.val) s6 f6 _ fo hG hcov (trip_last.sl.dma16 m d L X0 hX0 k f6) rfl)) $$ Ho
  clear hG hcov
  -- the second table's ring before its first point
  isplitl [Hs1rest HF0 Ht0 HF1 Ht1 HF2 Ht2 HF3 Ht3]
  · isplitl [Hs1rest]
    · iexact Hs1rest
    isplitl [HF0 Ht0]
    · iexists ((s2).view.writes (Elt F) (s2).view.junk [⟨Rect.whole S200x128, gathered d L aV (m (aLoc d)) s0 X0 hX0 (Ring.bk 32 (4 * k.val + 0))⟩])
      irw [flightP_over]
      isplitl [HF0]
      · iexact HF0
      iexact Ht0
    isplitl [HF1 Ht1]
    · iexists ((s3).view.writes (Elt F) (s3).view.junk [⟨Rect.whole S200x128, gathered d L aV (m (aLoc d)) s0 X0 hX0 (Ring.bk 32 (4 * k.val + 1))⟩])
      irw [flightP_over]
      isplitl [HF1]
      · iexact HF1
      iexact Ht1
    isplitl [HF2 Ht2]
    · iexists ((s4).view.writes (Elt F) (s4).view.junk [⟨Rect.whole S200x128, gathered d L aV (m (aLoc d)) s0 X0 hX0 (Ring.bk 32 (4 * k.val + 2))⟩])
      irw [flightP_over]
      isplitl [HF2]
      · iexact HF2
      iexact Ht2
    iexists ((s5).view.writes (Elt F) (s5).view.junk [⟨Rect.whole S200x128, gathered d L aV (m (aLoc d)) s0 X0 hX0 (Ring.bk 32 (4 * k.val + 3))⟩])
    irw [flightP_over]
    isplitl [HF3]
    · iexact HF3
    iexact Ht3
  -- the first index buffer's blocks, all home
  isplitl [HF0_dst_and HF1_dst_and HF2_dst_and HF3_dst_and Hhome0]
  · isplitl [HF0_dst_and]
    · iexact HF0_dst_and
    isplitl [HF1_dst_and]
    · iexact HF1_dst_and
    isplitl [HF2_dst_and]
    · iexact HF2_dst_and
    isplitl [HF3_dst_and]
    · iexact HF3_dst_and
    iexact Hhome0
  -- the first table's tokens, back whole
  isplitl [Hr0 Hr1 Hr2 Hr3]
  · isplitl [Hr0]
    · iexact Hr0
    isplitl [Hr1]
    · iexact Hr1
    isplitl [Hr2]
    · iexact Hr2
    iexact Hr3
  isplitl [H6]
  · iexists _; iexact H6
  isplitl [Hc]
  · iexact Hc
  isplitl [Ho' Hpl]
  · isplitl [Ho']
    · iexact Ho'
    iexact Hpl
  isplitl [Hmw]
  · iexact Hmw
  iexists _
  isplitr
  rotate_left
  · iexact HO
  · ipureintro
    intro p hp
    simp only [Finset.mem_insert] at hp
    rcases hp with rfl | rfl | rfl | rfl | rfl | hp
    all_goals first | exact Or.inr rfl | exact hW' p hp

end Phase0

end Cert.KernelIdeal.Sc

end
-- ==== Proof.ScPhase0.lean ====
/-
  The first chunk loop of a vector subcore, by its invariant: before trip k it holds what `inv0` states, and one trip
  takes that at k to that at k + 1 — below the last trip by re-firing the same table, at the last trip by firing the
  next table's first four streams from the other index buffer.
-/
import proofs.«207262_g39728447488703_cont_8to1_b_1934_40_alg».proof.Proof.ScPhase0Defs
import proofs.«207262_g39728447488703_cont_8to1_b_1934_40_alg».proof.Proof.ScPhase0Lt
import proofs.«207262_g39728447488703_cont_8to1_b_1934_40_alg».proof.Proof.ScPhase0Last
import proofs.«207262_g39728447488703_cont_8to1_b_1934_40_alg».proof.Proof.ScCanon
import proofs.«207262_g39728447488703_cont_8to1_b_1934_40_alg».proof.Proof.ScTileVal
import proofs.«207262_g39728447488703_cont_8to1_b_1934_40_alg».proof.Proof.Gen.KernelIdeal.Skeleton

noncomputable section

namespace Cert.KernelIdeal.Sc

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

set_option warn.classDefReducibility false in
/-- The first chunk loop's invariant, instanced for the run: the word `v2` the region reads is any word. -/
@[sl_loop] def loopInv_k0_t1 (hR0 : (s0).view.read (Elt F) X0 = idxBuf m d L 0) (v2 : BitVec 32) :
    Idealize.ShloMosaic.LoopInv (M := 𝕄) Idealize.ShloMosaic.frame (wpE (defs₀ (F := F)) 𝒱₀ (thrOf d L) none) Set.univ
      k0_t1_loop.lb k0_t1_loop.ub k0_t1_loop.st k0_t1_ok ()
      (k0_t1_body (F := F) L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5 v2 0#32 1#32) where
  inv k _ := inv0 m d L q X0 hX0 X1 hX1 O W k
  step k _ := by
    by_cases hk : k.val < 7
    · exact trip_lt m d L q X0 hX0 X1 hX1 O W hR0 k hk v2
    · have h7 : k.val = 7 := by have := trips1 k; omega
      exact trip_last m d L q X0 hX0 X1 hX1 O W hR0 k h7 v2

end Phase0

end Cert.KernelIdeal.Sc

end
-- ==== Proof.ScRed19.lean ====
/-
  The reduce loop of ring slot 0, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t19_trips : k0_t19_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t19 (d : Dev nD) (L : grid0.Coords)
    (a14 a15 a16 a17 r0 r1 r2 r3 r4 r5 : DmaSems sig S_)
    (c0_i32_15 : BitVec 32) (c1_i32_17 : BitVec 32) (k0_t18 : Fin k0_t18_loop.trips)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t19_loop.lb k0_t19_loop.ub k0_t19_loop.st k0_t19_ok init
      (k0_t19_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        c0_i32_15 c1_i32_17 k0_t18) where
  inv l acc := iprop(((s2).view.loc (thrOf d L) ↦{fullShare} fb) ∗ ⌜acc = accsAt fb 0 l⌝)
  step l acc := by
    iintro ⟨HB, %hacc⟩
    subst hacc
    unfold Gen.k0_t19_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed20.lean ====
/-
  The reduce loop of ring slot 0, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t20_trips : k0_t20_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t20 (d : Dev nD) (L : grid0.Coords)
    (a14 a15 a16 a17 r0 r1 r2 r3 r4 r5 : DmaSems sig S_)
    (v84 : FVec F S16 .f32) (v85 : FVec F S16 .f32) (v86 : FVec F S16 .f32) (v87 : FVec F S16 .f32) (v88 : FVec F S16 .f32) (cst_58 : F .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t20_loop.lb k0_t20_loop.ub k0_t20_loop.st k0_t20_ok init
      (k0_t20_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v84 v85 v86 v87 v88 cst_58) where
  inv l acc := iprop(((s2).view.loc (thrOf d L) ↦{fullShare} fb) ∗ ⌜acc = accsAt fb 1 l⌝)
  step l acc := by
    iintro ⟨HB, %hacc⟩
    subst hacc
    unfold Gen.k0_t20_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed21.lean ====
/-
  The reduce loop of ring slot 0, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t21_trips : k0_t21_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t21 (d : Dev nD) (L : grid0.Coords)
    (a14 a15 a16 a17 r0 r1 r2 r3 r4 r5 : DmaSems sig S_)
    (v93_5 : FVec F S16 .f32) (v93_6 : FVec F S16 .f32) (v93_7 : FVec F S16 .f32) (v123 : FVec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t21_loop.lb k0_t21_loop.ub k0_t21_loop.st k0_t21_ok init
      (k0_t21_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v93_5 v93_6 v93_7 v123) where
  inv l acc := iprop(((s2).view.loc (thrOf d L) ↦{fullShare} fb) ∗ ⌜acc = accsAt fb 2 l⌝)
  step l acc := by
    iintro ⟨HB, %hacc⟩
    subst hacc
    unfold Gen.k0_t21_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed22.lean ====
/-
  The reduce loop of ring slot 0, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t22_trips : k0_t22_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t22 (d : Dev nD) (L : grid0.Coords)
    (a14 a15 a16 a17 r0 r1 r2 r3 r4 r5 : DmaSems sig S_)
    (v151_7 : FVec F S16 .f32) (v189 : FVec F S16 .f32) (v191 : Vec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t22_loop.lb k0_t22_loop.ub k0_t22_loop.st k0_t22_ok init
      (k0_t22_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v151_7 v189 v191) where
  inv l acc := iprop(((s2).view.loc (thrOf d L) ↦{fullShare} fb) ∗ ⌜acc = accsAt fb 3 l⌝)
  step l acc := by
    iintro ⟨HB, %hacc⟩
    subst hacc
    unfold Gen.k0_t22_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed23.lean ====
/-
  The reduce loop of ring slot 1, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t23_trips : k0_t23_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t23 (d : Dev nD) (L : grid0.Coords)
    (a14 a15 a16 a17 r0 r1 r2 r3 r4 r5 : DmaSems sig S_)
    (k0_t18 : Fin k0_t18_loop.trips) (arg18 : BitVec 32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t23_loop.lb k0_t23_loop.ub k0_t23_loop.st k0_t23_ok init
      (k0_t23_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t18 arg18) where
  inv l acc := iprop(((s3).view.loc (thrOf d L) ↦{fullShare} fb) ∗ ⌜acc = accsAt fb 0 l⌝)
  step l acc := by
    iintro ⟨HB, %hacc⟩
    subst hacc
    unfold Gen.k0_t23_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed24.lean ====
/-
  The reduce loop of ring slot 1, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t24_trips : k0_t24_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t24 (d : Dev nD) (L : grid0.Coords)
    (a14 a15 a16 a17 r0 r1 r2 r3 r4 r5 : DmaSems sig S_)
    (v324 : FVec F S16 .f32) (v325 : FVec F S16 .f32) (cst_203 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t24_loop.lb k0_t24_loop.ub k0_t24_loop.st k0_t24_ok init
      (k0_t24_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v324 v325 cst_203) where
  inv l acc := iprop(((s3).view.loc (thrOf d L) ↦{fullShare} fb) ∗ ⌜acc = accsAt fb 1 l⌝)
  step l acc := by
    iintro ⟨HB, %hacc⟩
    subst hacc
    unfold Gen.k0_t24_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed25.lean ====
/-
  The reduce loop of ring slot 1, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t25_trips : k0_t25_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t25 (d : Dev nD) (L : grid0.Coords)
    (a14 a15 a16 a17 r0 r1 r2 r3 r4 r5 : DmaSems sig S_)
    (v333_5 : FVec F S16 .f32) (v333_6 : FVec F S16 .f32) (v333_7 : FVec F S16 .f32) (v359 : FVec F S16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t25_loop.lb k0_t25_loop.ub k0_t25_loop.st k0_t25_ok init
      (k0_t25_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v333_5 v333_6 v333_7 v359) where
  inv l acc := iprop(((s3).view.loc (thrOf d L) ↦{fullShare} fb) ∗ ⌜acc = accsAt fb 2 l⌝)
  step l acc := by
    iintro ⟨HB, %hacc⟩
    subst hacc
    unfold Gen.k0_t25_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed26.lean ====
/-
  The reduce loop of ring slot 1, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t26_trips : k0_t26_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t26 (d : Dev nD) (L : grid0.Coords)
    (a14 a15 a16 a17 r0 r1 r2 r3 r4 r5 : DmaSems sig S_)
    (v391_6 : FVec F S16 .f32) (v391_7 : FVec F S16 .f32) (cst_265 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t26_loop.lb k0_t26_loop.ub k0_t26_loop.st k0_t26_ok init
      (k0_t26_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v391_6 v391_7 cst_265) where
  inv l acc := iprop(((s3).view.loc (thrOf d L) ↦{fullShare} fb) ∗ ⌜acc = accsAt fb 3 l⌝)
  step l acc := by
    iintro ⟨HB, %hacc⟩
    subst hacc
    unfold Gen.k0_t26_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed27.lean ====
/-
  The reduce loop of ring slot 2, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t27_trips : k0_t27_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t27 (d : Dev nD) (L : grid0.Coords)
    (a14 a15 a16 a17 r0 r1 r2 r3 r4 r5 : DmaSems sig S_)
    (k0_t18 : Fin k0_t18_loop.trips) (arg18 : BitVec 32) (v497 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t27_loop.lb k0_t27_loop.ub k0_t27_loop.st k0_t27_ok init
      (k0_t27_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t18 arg18 v497) where
  inv l acc := iprop(((s4).view.loc (thrOf d L) ↦{fullShare} fb) ∗ ⌜acc = accsAt fb 0 l⌝)
  step l acc := by
    iintro ⟨HB, %hacc⟩
    subst hacc
    unfold Gen.k0_t27_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed28.lean ====
/-
  The reduce loop of ring slot 2, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t28_trips : k0_t28_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t28 (d : Dev nD) (L : grid0.Coords)
    (a14 a15 a16 a17 r0 r1 r2 r3 r4 r5 : DmaSems sig S_)
    (v563 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t28_loop.lb k0_t28_loop.ub k0_t28_loop.st k0_t28_ok init
      (k0_t28_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v563) where
  inv l acc := iprop(((s4).view.loc (thrOf d L) ↦{fullShare} fb) ∗ ⌜acc = accsAt fb 1 l⌝)
  step l acc := by
    iintro ⟨HB, %hacc⟩
    subst hacc
    unfold Gen.k0_t28_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed29.lean ====
/-
  The reduce loop of ring slot 2, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t29_trips : k0_t29_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t29 (d : Dev nD) (L : grid0.Coords)
    (a14 a15 a16 a17 r0 r1 r2 r3 r4 r5 : DmaSems sig S_)
    (v622 : FVec F S16 .f32) (v623 : FVec F S16 .f32) (v624 : FVec F S16 .f32) (v625 : FVec F S16 .f32) (v626 : FVec F S16 .f32) (v627 : FVec F S16 .f32) (v628 : FVec F S16 .f32) (v629 : FVec F S16 .f32) (c0_i32_393 : BitVec 32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t29_loop.lb k0_t29_loop.ub k0_t29_loop.st k0_t29_ok init
      (k0_t29_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v622 v623 v624 v625 v626 v627 v628 v629 c0_i32_393) where
  inv l acc := iprop(((s4).view.loc (thrOf d L) ↦{fullShare} fb) ∗ ⌜acc = accsAt fb 2 l⌝)
  step l acc := by
    iintro ⟨HB, %hacc⟩
    subst hacc
    unfold Gen.k0_t29_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed30.lean ====
/-
  The reduce loop of ring slot 2, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t30_trips : k0_t30_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t30 (d : Dev nD) (L : grid0.Coords)
    (a14 a15 a16 a17 r0 r1 r2 r3 r4 r5 : DmaSems sig S_)
    (v631_6 : FVec F S16 .f32) (v631_7 : FVec F S16 .f32) (v663 : FVec F S16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t30_loop.lb k0_t30_loop.ub k0_t30_loop.st k0_t30_ok init
      (k0_t30_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v631_6 v631_7 v663) where
  inv l acc := iprop(((s4).view.loc (thrOf d L) ↦{fullShare} fb) ∗ ⌜acc = accsAt fb 3 l⌝)
  step l acc := by
    iintro ⟨HB, %hacc⟩
    subst hacc
    unfold Gen.k0_t30_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed31.lean ====
/-
  The reduce loop of ring slot 3, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t31_trips : k0_t31_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t31 (d : Dev nD) (L : grid0.Coords)
    (a14 a15 a16 a17 r0 r1 r2 r3 r4 r5 : DmaSems sig S_)
    (k0_t18 : Fin k0_t18_loop.trips) (arg18 : BitVec 32) (v733 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t31_loop.lb k0_t31_loop.ub k0_t31_loop.st k0_t31_ok init
      (k0_t31_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t18 arg18 v733) where
  inv l acc := iprop(((s5).view.loc (thrOf d L) ↦{fullShare} fb) ∗ ⌜acc = accsAt fb 0 l⌝)
  step l acc := by
    iintro ⟨HB, %hacc⟩
    subst hacc
    unfold Gen.k0_t31_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed32.lean ====
/-
  The reduce loop of ring slot 3, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t32_trips : k0_t32_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t32 (d : Dev nD) (L : grid0.Coords)
    (a14 a15 a16 a17 r0 r1 r2 r3 r4 r5 : DmaSems sig S_)
    (v799 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t32_loop.lb k0_t32_loop.ub k0_t32_loop.st k0_t32_ok init
      (k0_t32_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v799) where
  inv l acc := iprop(((s5).view.loc (thrOf d L) ↦{fullShare} fb) ∗ ⌜acc = accsAt fb 1 l⌝)
  step l acc := by
    iintro ⟨HB, %hacc⟩
    subst hacc
    unfold Gen.k0_t32_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed33.lean ====
/-
  The reduce loop of ring slot 3, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t33_trips : k0_t33_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t33 (d : Dev nD) (L : grid0.Coords)
    (a14 a15 a16 a17 r0 r1 r2 r3 r4 r5 : DmaSems sig S_)
    (v862 : FVec F S16 .f32) (v863 : FVec F S16 .f32) (v864 : FVec F S16 .f32) (v865 : FVec F S16 .f32) (v866 : FVec F S16 .f32) (cst_537 : F .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t33_loop.lb k0_t33_loop.ub k0_t33_loop.st k0_t33_ok init
      (k0_t33_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v862 v863 v864 v865 v866 cst_537) where
  inv l acc := iprop(((s5).view.loc (thrOf d L) ↦{fullShare} fb) ∗ ⌜acc = accsAt fb 2 l⌝)
  step l acc := by
    iintro ⟨HB, %hacc⟩
    subst hacc
    unfold Gen.k0_t33_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed34.lean ====
/-
  The reduce loop of ring slot 3, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t34_trips : k0_t34_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t34 (d : Dev nD) (L : grid0.Coords)
    (a14 a15 a16 a17 r0 r1 r2 r3 r4 r5 : DmaSems sig S_)
    (v871_5 : FVec F S16 .f32) (v871_6 : FVec F S16 .f32) (v871_7 : FVec F S16 .f32) (v901 : FVec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t34_loop.lb k0_t34_loop.ub k0_t34_loop.st k0_t34_ok init
      (k0_t34_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v871_5 v871_6 v871_7 v901) where
  inv l acc := iprop(((s5).view.loc (thrOf d L) ↦{fullShare} fb) ∗ ⌜acc = accsAt fb 3 l⌝)
  step l acc := by
    iintro ⟨HB, %hacc⟩
    subst hacc
    unfold Gen.k0_t34_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScPhase1Lt.lean ====
/-
  One trip of the second table's chunk loop below the last: trip k < 7.

  For each ring slot b in turn: the gather of block 4 k + b of index buffer 1 is waited (row buffer, block and token
  back), its four segments of fifty rows are summed two rows a step and each column block's sum times the reciprocal of
  fifty is stored into row 4 b + s of the means' scratch, and block 4 k + b + 4 is fired into the slot. Then the scratch
  is copied out to chunk k of plane 1. After it the ring stands at point 4 (k + 1); the chunk holds the pooled value:
  every stored piece is a piece of the chunk's pooled rows and the 128 pieces tile the scratch.
-/
import proofs.«207262_g39728447488703_cont_8to1_b_1934_40_alg».proof.Proof.ScPhase1Defs
import proofs.«207262_g39728447488703_cont_8to1_b_1934_40_alg».proof.Proof.ScRed19
import proofs.«207262_g39728447488703_cont_8to1_b_1934_40_alg».proof.Proof.ScRed20
import proofs.«207262_g39728447488703_cont_8to1_b_1934_40_alg».proof.Proof.ScRed21
import proofs.«207262_g39728447488703_cont_8to1_b_1934_40_alg».proof.Proof.ScRed22
import proofs.«207262_g39728447488703_cont_8to1_b_1934_40_alg».proof.Proof.ScRed23
import proofs.«207262_g39728447488703_cont_8to1_b_1934_40_alg».proof.Proof.ScRed24
import proofs.«207262_g39728447488703_cont_8to1_b_1934_40_alg».proof.Proof.ScRed25
import proofs.«207262_g39728447488703_cont_8to1_b_1934_40_alg».proof.Proof.ScRed26
import proofs.«207262_g39728447488703_cont_8to1_b_1934_40_alg».proof.Proof.ScRed27
import proofs.«207262_g39728447488703_cont_8to1_b_1934_40_alg».proof.Proof.ScRed28
import proofs.«207262_g39728447488703_cont_8to1_b_1934_40_alg».proof.Proof.ScRed29
import proofs.«207262_g39728447488703_cont_8to1_b_1934_40_alg».proof.Proof.ScRed30
import proofs.«207262_g39728447488703_cont_8to1_b_1934_40_alg».proof.Proof.ScRed31
import proofs.«207262_g39728447488703_cont_8to1_b_1934_40_alg».proof.Proof.ScRed32
import proofs.«207262_g39728447488703_cont_8to1_b_1934_40_alg».proof.Proof.ScRed33
import proofs.«207262_g39728447488703_cont_8to1_b_1934_40_alg».proof.Proof.ScRed34
import proofs.«207262_g39728447488703_cont_8to1_b_1934_40_alg».proof.Proof.ScTripClose
import proofs.«207262_g39728447488703_cont_8to1_b_1934_40_alg».proof.Proof.Gen.KernelIdeal.Skeleton
import Idealize.ShloMosaic.Lib.Ring
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Trips

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1)
  (O : CellTallies nD τ sig (HIx 1)) (W : Waits sig (HIx 1))

set_option maxHeartbeats 16000000 in
theorem trip1_lt (v2 : BitVec 32) (k : Fin k0_t18_loop.trips) (hk : k.val < 7) (hR1 : (s1).view.read (Elt F) X1 = idxBuf m d L 1) :
    inv1 m d L q X0 X1 hX0 hX1 O W k.val ⊢ wp frame (wpE (defs₀ (F := F)) 𝒱₀ (thrOf d L) none) Set.univ
      (k0_t18_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        cc0_scratch7 cc0_scratch8 cc0_scratch9 cc0_scratch10 cc0_scoped0 cc0_scoped1 cc0_scoped2 cc0_scoped3 cc0_scoped4 cc0_scoped5 v2 k ()) (fun _ => inv1 m d L q X0 X1 hX0 hX1 O W (k.val + 1)) := by
  have hk8 : k.val < 8 := by omega
  unfold inv1
  rw [if_pos hk8, if_pos (show k.val + 1 < 8 by omega)]
  unfold ringAt
  rw [chunk_homes_here _ k.val hk, chunk_homes_next _ k.val hk,
    slotAt_lt _ _ _ _ _ _ _ _ _ _ _ (show 4 * k.val + 0 < 32 by omega), slotAt_lt _ _ _ _ _ _ _ _ _ _ _ (show 4 * k.val + 1 < 32 by omega),
    slotAt_lt _ _ _ _ _ _ _ _ _ _ _ (show 4 * k.val + 2 < 32 by omega), slotAt_lt _ _ _ _ _ _ _ _ _ _ _ (show 4 * k.val + 3 < 32 by omega),
    slotAt_lt _ _ _ _ _ _ _ _ _ _ _ (show 4 * (k.val + 1) + 0 < 32 by omega), slotAt_lt _ _ _ _ _ _ _ _ _ _ _ (show 4 * (k.val + 1) + 1 < 32 by omega),
    slotAt_lt _ _ _ _ _ _ _ _ _ _ _ (show 4 * (k.val + 1) + 2 < 32 by omega), slotAt_lt _ _ _ _ _ _ _ _ _ _ _ (show 4 * (k.val + 1) + 3 < 32 by omega),
    bk32_next k.val 0, bk32_next k.val 1, bk32_next k.val 2, bk32_next k.val 3,
    plane_here m d L 1 k.val hk8, plane_next m d L 1 k.val hk8]
  iintro ⟨⟨⟨Hh0, Hh1, Hh2, Hh3, Hrest⟩, ⟨%f2, HF0, Hb0⟩, ⟨%f3, HF1, Hb1⟩, ⟨%f4, HF2, Hb2⟩, ⟨%f5, HF3, Hb3⟩⟩, Hs0, Hc0, Hc1, Hc2, Hc3, ⟨%f6, H6⟩, Hr4, ⟨⟨%fo, Ho⟩, Hpl⟩, Hmw, ⟨%W', %hW', HO⟩⟩
  have hin0 := hX1 (Ring.bk 32 (4 * k.val + 0 + 4))
  have hin1 := hX1 (Ring.bk 32 (4 * k.val + 1 + 4))
  have hin2 := hX1 (Ring.bk 32 (4 * k.val + 2 + 4))
  have hin3 := hX1 (Ring.bk 32 (4 * k.val + 3 + 4))
  have hc9 : k0_cond9 k = 1#1 := (cond9_iff k).mpr hk
  have hc11 : k0_cond11 k = 1#1 := (cond11_iff k).mpr hk
  have hc13 : k0_cond13 k = 1#1 := (cond13_iff k).mpr hk
  have hc15 : k0_cond15 k = 1#1 := (cond15_iff k).mpr hk
  have hn10 : ¬ k0_cond10 k = 1#1 := fun h => by have := (cond10_iff k).mp h; omega
  have hn12 : ¬ k0_cond12 k = 1#1 := fun h => by have := (cond12_iff k).mp h; omega
  have hn14 : ¬ k0_cond14 k = 1#1 := fun h => by have := (cond14_iff k).mp h; omega
  have hn16 : ¬ k0_cond16 k = 1#1 := fun h => by have := (cond16_iff k).mp h; omega
  unfold Gen.k0_t18_body
  sl_exec
  sl_step
  -- the four blocks just back, the rest
  isplitl [HF0_dst_and HF1_dst_and HF2_dst_and HF3_dst_and Hrest HF0 Hb0 HF1 Hb1 HF2 Hb2 HF3 Hb3]
  · isplitl [HF0_dst_and HF1_dst_and HF2_dst_and HF3_dst_and Hrest]
    · isplitl [HF0_dst_and]; · iexact HF0_dst_and
      isplitl [HF1_dst_and]; · iexact HF1_dst_and
      isplitl [HF2_dst_and]; · iexact HF2_dst_and
      isplitl [HF3_dst_and]; · iexact HF3_dst_and
      iexact Hrest
    isplitl [HF0 Hb0]
    · iexists (s2.view.writes (Elt F) s2.view.junk [⟨Rect.whole S200x128, gathered d L bV (m (bLoc d)) s1 X1 hX1 (Ring.bk 32 (4 * k.val + 0))⟩])
      irw [flightP_after]
      isplitl [HF0]; · iexact HF0
      iexact Hb0
    isplitl [HF1 Hb1]
    · iexists (s3.view.writes (Elt F) s3.view.junk [⟨Rect.whole S200x128, gathered d L bV (m (bLoc d)) s1 X1 hX1 (Ring.bk 32 (4 * k.val + 1))⟩])
      irw [flightP_after]
      isplitl [HF1]; · iexact HF1
      iexact Hb1
    isplitl [HF2 Hb2]
    · iexists (s4.view.writes (Elt F) s4.view.junk [⟨Rect.whole S200x128, gathered d L bV (m (bLoc d)) s1 X1 hX1 (Ring.bk 32 (4 * k.val + 2))⟩])
      irw [flightP_after]
      isplitl [HF2]; · iexact HF2
      iexact Hb2
    · iexists (s5.view.writes (Elt F) s5.view.junk [⟨Rect.whole S200x128, gathered d L bV (m (bLoc d)) s1 X1 hX1 (Ring.bk 32 (4 * k.val + 3))⟩])
      irw [flightP_after]
      isplitl [HF3]; · iexact HF3
      iexact Hb3
  isplitl [Hs0]; · iexact Hs0
  isplitl [Hc0]; · iexact Hc0
  isplitl [Hc1]; · iexact Hc1
  isplitl [Hc2]; · iexact Hc2
  isplitl [Hc3]; · iexact Hc3
  isplitl [H6]; · iexists _; iexact H6
  isplitl [Hr4]; · iexact Hr4
  isplitl [Ho Hpl]
  · isplitl [Ho]
    · have hG : ∀ p ∈ trip1_lt.sl.H6_128 m d L X1 hX1 k, ∀ x : p.1.shape.Idx,
          p.2 x = chunkG m d L (m (aLoc d)) (m (bLoc d)) (m (cLoc d)) 1 (Ring.bk 8 k.val) (p.1.emb x) := by
        sl_unfold_run_names
        have hk8 : k.val = (Ring.bk 8 k.val).val := (bk8_val (trips18 k)).symm
        refine List.forall_mem_cons.2 ⟨fun x => piece_ok_s5 m d L bV (m (bLoc d)) s1 X1 hX1 (m (aLoc d)) (m (bLoc d)) (m (cLoc d)) 1 rfl hR1 _ (Ring.bk 8 k.val) 3 3 7 k.val 3 hk8 rfl _ k0_t34_trips _ rfl ![15, 112] rfl rfl inb_S16x128_S1x16_15_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 6 k.val 3 hk8 rfl _ k0_t34_trips _ rfl ![15, 96] rfl rfl inb_S16x128_S1x16_15_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 5 k.val 3 hk8 rfl _ k0_t34_trips _ rfl ![15, 80] rfl rfl inb_S16x128_S1x16_15_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 4 k.val 3 hk8 rfl _ k0_t34_trips _ rfl ![15, 64] rfl rfl inb_S16x128_S1x16_15_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 3 k.val 3 hk8 rfl _ k0_t34_trips _ rfl ![15, 48] rfl rfl inb_S16x128_S1x16_15_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 2 k.val 3 hk8 rfl _ k0_t34_trips _ rfl ![15, 32] rfl rfl inb_S16x128_S1x16_15_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 1 k.val 3 hk8 rfl _ k0_t34_trips _ rfl ![15, 16] rfl rfl inb_S16x128_S1x16_15_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 0 k.val 3 hk8 rfl _ k0_t34_trips _ rfl ![15, 0] rfl rfl inb_S16x128_S1x16_15_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 7 k.val 3 hk8 rfl _ k0_t33_trips _ rfl ![14, 112] rfl rfl inb_S16x128_S1x16_14_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 6 k.val 3 hk8 rfl _ k0_t33_trips _ rfl ![14, 96] rfl rfl inb_S16x128_S1x16_14_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 5 k.val 3 hk8 rfl _ k0_t33_trips _ rfl ![14, 80] rfl rfl inb_S16x128_S1x16_14_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 4 k.val 3 hk8 rfl _ k0_t33_trips _ rfl ![14, 64] rfl rfl inb_S16x128_S1x16_14_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 3 k.val 3 hk8 rfl _ k0_t33_trips _ rfl ![14, 48] rfl rfl inb_S16x128_S1x16_14_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 2 k.val 3 hk8 rfl _ k0_t33_trips _ rfl ![14, 32] rfl rfl inb_S16x128_S1x16_14_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 1 k.val 3 hk8 rfl _ k0_t33_trips _ rfl ![14, 16] rfl rfl inb_S16x128_S1x16_14_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 0 k.val 3 hk8 rfl _ k0_t33_trips _ rfl ![14, 0] rfl rfl inb_S16x128_S1x16_14_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 7 k.val 3 hk8 rfl _ k0_t32_trips _ rfl ![13, 112] rfl rfl inb_S16x128_S1x16_13_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 6 k.val 3 hk8 rfl _ k0_t32_trips _ rfl ![13, 96] rfl rfl inb_S16x128_S1x16_13_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 5 k.val 3 hk8 rfl _ k0_t32_trips _ rfl ![13, 80] rfl rfl inb_S16x128_S1x16_13_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 4 k.val 3 hk8 rfl _ k0_t32_trips _ rfl ![13, 64] rfl rfl inb_S16x128_S1x16_13_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 3 k.val 3 hk8 rfl _ k0_t32_trips _ rfl ![13, 48] rfl rfl inb_S16x128_S1x16_13_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 2 k.val 3 hk8 rfl _ k0_t32_trips _ rfl ![13, 32] rfl rfl inb_S16x128_S1x16_13_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 1 k.val 3 hk8 rfl _ k0_t32_trips _ rfl ![13, 16] rfl rfl inb_S16x128_S1x16_13_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 0 k.val 3 hk8 rfl _ k0_t32_trips _ rfl ![13, 0] rfl rfl inb_S16x128_S1x16_13_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 7 k.val 3 hk8 rfl _ k0_t31_trips _ rfl ![12, 112] rfl rfl inb_S16x128_S1x16_12_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 6 k.val 3 hk8 rfl _ k0_t31_trips _ rfl ![12, 96] rfl rfl inb_S16x128_S1x16_12_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 5 k.val 3 hk8 rfl _ k0_t31_trips _ rfl ![12, 80] rfl rfl inb_S16x128_S1x16_12_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 4 k.val 3 hk8 rfl _ k0_t31_trips _ rfl ![12, 64] rfl rfl inb_S16x128_S1x16_12_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 3 k.val 3 hk8 rfl _ k0_t31_trips _ rfl ![12, 48] rfl rfl inb_S16x128_S1x16_12_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 2 k.val 3 hk8 rfl _ k0_t31_trips _ rfl ![12, 32] rfl rfl inb_S16x128_S1x16_12_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 1 k.val 3 hk8 rfl _ k0_t31_trips _ rfl ![12, 16] rfl rfl inb_S16x128_S1x16_12_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 0 k.val 3 hk8 rfl _ k0_t31_trips _ rfl ![12, 0] rfl rfl inb_S16x128_S1x16_12_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 7 k.val 2 hk8 rfl _ k0_t30_trips _ rfl ![11, 112] rfl rfl inb_S16x128_S1x16_11_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 6 k.val 2 hk8 rfl _ k0_t30_trips _ rfl ![11, 96] rfl rfl inb_S16x128_S1x16_11_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 5 k.val 2 hk8 rfl _ k0_t30_trips _ rfl ![11, 80] rfl rfl inb_S16x128_S1x16_11_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 4 k.val 2 hk8 rfl _ k0_t30_trips _ rfl ![11, 64] rfl rfl inb_S16x128_S1x16_11_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 3 k.val 2 hk8 rfl _ k0_t30_trips _ rfl ![11, 48] rfl rfl inb_S16x128_S1x16_11_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 2 k.val 2 hk8 rfl _ k0_t30_trips _ rfl ![11, 32] rfl rfl inb_S16x128_S1x16_11_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 1 k.val 2 hk8 rfl _ k0_t30_trips _ rfl ![11, 16] rfl rfl inb_S16x128_S1x16_11_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 0 k.val 2 hk8 rfl _ k0_t30_trips _ rfl ![11, 0] rfl rfl inb_S16x128_S1x16_11_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 7 k.val 2 hk8 rfl _ k0_t29_trips _ rfl ![10, 112] rfl rfl inb_S16x128_S1x16_10_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 6 k.val 2 hk8 rfl _ k0_t29_trips _ rfl ![10, 96] rfl rfl inb_S16x128_S1x16_10_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 5 k.val 2 hk8 rfl _ k0_t29_trips _ rfl ![10, 80] rfl rfl inb_S16x128_S1x16_10_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 4 k.val 2 hk8 rfl _ k0_t29_trips _ rfl ![10, 64] rfl rfl inb_S16x128_S1x16_10_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 3 k.val 2 hk8 rfl _ k0_t29_trips _ rfl ![10, 48] rfl rfl inb_S16x128_S1x16_10_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 2 k.val 2 hk8 rfl _ k0_t29_trips _ rfl ![10, 32] rfl rfl inb_S16x128_S1x16_10_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 1 k.val 2 hk8 rfl _ k0_t29_trips _ rfl ![10, 16] rfl rfl inb_S16x128_S1x16_10_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 0 k.val 2 hk8 rfl _ k0_t29_trips _ rfl ![10, 0] rfl rfl inb_S16x128_S1x16_10_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 7 k.val 2 hk8 rfl _ k0_t28_trips _ rfl ![9, 112] rfl rfl inb_S16x128_S1x16_9_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 6 k.val 2 hk8 rfl _ k0_t28_trips _ rfl ![9, 96] rfl rfl inb_S16x128_S1x16_9_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 5 k.val 2 hk8 rfl _ k0_t28_trips _ rfl ![9, 80] rfl rfl inb_S16x128_S1x16_9_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 4 k.val 2 hk8 rfl _ k0_t28_trips _ rfl ![9, 64] rfl rfl inb_S16x128_S1x16_9_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 3 k.val 2 hk8 rfl _ k0_t28_trips _ rfl ![9, 48] rfl rfl inb_S16x128_S1x16_9_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 2 k.val 2 hk8 rfl _ k0_t28_trips _ rfl ![9, 32] rfl rfl inb_S16x128_S1x16_9_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 1 k.val 2 hk8 rfl _ k0_t28_trips _ rfl ![9, 16] rfl rfl inb_S16x128_S1x16_9_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 0 k.val 2 hk8 rfl _ k0_t28_trips _ rfl ![9, 0] rfl rfl inb_S16x128_S1x16_9_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 7 k.val 2 hk8 rfl _ k0_t27_trips _ rfl ![8, 112] rfl rfl inb_S16x128_S1x16_8_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 6 k.val 2 hk8 rfl _ k0_t27_trips _ rfl ![8, 96] rfl rfl inb_S16x128_S1x16_8_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 5 k.val 2 hk8 rfl _ k0_t27_trips _ rfl ![8, 80] rfl rfl inb_S16x128_S1x16_8_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 4 k.val 2 hk8 rfl _ k0_t27_trips _ rfl ![8, 64] rfl rfl inb_S16x128_S1x16_8_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 3 k.val 2 hk8 rfl _ k0_t27_trips _ rfl ![8, 48] rfl rfl inb_S16x128_S1x16_8_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 2 k.val 2 hk8 rfl _ k0_t27_trips _ rfl ![8, 32] rfl rfl inb_S16x128_S1x16_8_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 1 k.val 2 hk8 rfl _ k0_t27_trips _ rfl ![8, 16] rfl rfl inb_S16x128_S1x16_8_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 0 k.val 2 hk8 rfl _ k0_t27_trips _ rfl ![8, 0] rfl rfl inb_S16x128_S1x16_8_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 7 k.val 1 hk8 rfl _ k0_t26_trips _ rfl ![7, 112] rfl rfl inb_S16x128_S1x16_7_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 6 k.val 1 hk8 rfl _ k0_t26_trips _ rfl ![7, 96] rfl rfl inb_S16x128_S1x16_7_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 5 k.val 1 hk8 rfl _ k0_t26_trips _ rfl ![7, 80] rfl rfl inb_S16x128_S1x16_7_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 4 k.val 1 hk8 rfl _ k0_t26_trips _ rfl ![7, 64] rfl rfl inb_S16x128_S1x16_7_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 3 k.val 1 hk8 rfl _ k0_t26_trips _ rfl ![7, 48] rfl rfl inb_S16x128_S1x16_7_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 2 k.val 1 hk8 rfl _ k0_t26_trips _ rfl ![7, 32] rfl rfl inb_S16x128_S1x16_7_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 1 k.val 1 hk8 rfl _ k0_t26_trips _ rfl ![7, 16] rfl rfl inb_S16x128_S1x16_7_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 0 k.val 1 hk8 rfl _ k0_t26_trips _ rfl ![7, 0] rfl rfl inb_S16x128_S1x16_7_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 7 k.val 1 hk8 rfl _ k0_t25_trips _ rfl ![6, 112] rfl rfl inb_S16x128_S1x16_6_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 6 k.val 1 hk8 rfl _ k0_t25_trips _ rfl ![6, 96] rfl rfl inb_S16x128_S1x16_6_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 5 k.val 1 hk8 rfl _ k0_t25_trips _ rfl ![6, 80] rfl rfl inb_S16x128_S1x16_6_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 4 k.val 1 hk8 rfl _ k0_t25_trips _ rfl ![6, 64] rfl rfl inb_S16x128_S1x16_6_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 3 k.val 1 hk8 rfl _ k0_t25_trips _ rfl ![6, 48] rfl rfl inb_S16x128_S1x16_6_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 2 k.val 1 hk8 rfl _ k0_t25_trips _ rfl ![6, 32] rfl rfl inb_S16x128_S1x16_6_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 1 k.val 1 hk8 rfl _ k0_t25_trips _ rfl ![6, 16] rfl rfl inb_S16x128_S1x16_6_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 0 k.val 1 hk8 rfl _ k0_t25_trips _ rfl ![6, 0] rfl rfl inb_S16x128_S1x16_6_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 7 k.val 1 hk8 rfl _ k0_t24_trips _ rfl ![5, 112] rfl rfl inb_S16x128_S1x16_5_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 6 k.val 1 hk8 rfl _ k0_t24_trips _ rfl ![5, 96] rfl rfl inb_S16x128_S1x16_5_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 5 k.val 1 hk8 rfl _ k0_t24_trips _ rfl ![5, 80] rfl rfl inb_S16x128_S1x16_5_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 4 k.val 1 hk8 rfl _ k0_t24_trips _ rfl ![5, 64] rfl rfl inb_S16x128_S1x16_5_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 3 k.val 1 hk8 rfl _ k0_t24_trips _ rfl ![5, 48] rfl rfl inb_S16x128_S1x16_5_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 2 k.val 1 hk8 rfl _ k0_t24_trips _ rfl ![5, 32] rfl rfl inb_S16x128_S1x16_5_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 1 k.val 1 hk8 rfl _ k0_t24_trips _ rfl ![5, 16] rfl rfl inb_S16x128_S1x16_5_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 0 k.val 1 hk8 rfl _ k0_t24_trips _ rfl ![5, 0] rfl rfl inb_S16x128_S1x16_5_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 7 k.val 1 hk8 rfl _ k0_t23_trips _ rfl ![4, 112] rfl rfl inb_S16x128_S1x16_4_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 6 k.val 1 hk8 rfl _ k0_t23_trips _ rfl ![4, 96] rfl rfl inb_S16x128_S1x16_4_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 5 k.val 1 hk8 rfl _ k0_t23_trips _ rfl ![4, 80] rfl rfl inb_S16x128_S1x16_4_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 4 k.val 1 hk8 rfl _ k0_t23_trips _ rfl ![4, 64] rfl rfl inb_S16x128_S1x16_4_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 3 k.val 1 hk8 rfl _ k0_t23_trips _ rfl ![4, 48] rfl rfl inb_S16x128_S1x16_4_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 2 k.val 1 hk8 rfl _ k0_t23_trips _ rfl ![4, 32] rfl rfl inb_S16x128_S1x16_4_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 1 k.val 1 hk8 rfl _ k0_t23_trips _ rfl ![4, 16] rfl rfl inb_S16x128_S1x16_4_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 0 k.val 1 hk8 rfl _ k0_t23_trips _ rfl ![4, 0] rfl rfl inb_S16x128_S1x16_4_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 7 k.val 0 hk8 rfl _ k0_t22_trips _ rfl ![3, 112] rfl rfl inb_S16x128_S1x16_3_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 6 k.val 0 hk8 rfl _ k0_t22_trips _ rfl ![3, 96] rfl rfl inb_S16x128_S1x16_3_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 5 k.val 0 hk8 rfl _ k0_t22_trips _ rfl ![3, 80] rfl rfl inb_S16x128_S1x16_3_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 4 k.val 0 hk8 rfl _ k0_t22_trips _ rfl ![3, 64] rfl rfl inb_S16x128_S1x16_3_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 3 k.val 0 hk8 rfl _ k0_t22_trips _ rfl ![3, 48] rfl rfl inb_S16x128_S1x16_3_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 2 k.val 0 hk8 rfl _ k0_t22_trips _ rfl ![3, 32] rfl rfl inb_S16x128_S1x16_3_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 1 k.val 0 hk8 rfl _ k0_t22_trips _ rfl ![3, 16] rfl rfl inb_S16x128_S1x16_3_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 0 k.val 0 hk8 rfl _ k0_t22_trips _ rfl ![3, 0] rfl rfl inb_S16x128_S1x16_3_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 7 k.val 0 hk8 rfl _ k0_t21_trips _ rfl ![2, 112] rfl rfl inb_S16x128_S1x16_2_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 6 k.val 0 hk8 rfl _ k0_t21_trips _ rfl ![2, 96] rfl rfl inb_S16x128_S1x16_2_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 5 k.val 0 hk8 rfl _ k0_t21_trips _ rfl ![2, 80] rfl rfl inb_S16x128_S1x16_2_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 4 k.val 0 hk8 rfl _ k0_t21_trips _ rfl ![2, 64] rfl rfl inb_S16x128_S1x16_2_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 3 k.val 0 hk8 rfl _ k0_t21_trips _ rfl ![2, 48] rfl rfl inb_S16x128_S1x16_2_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 2 k.val 0 hk8 rfl _ k0_t21_trips _ rfl ![2, 32] rfl rfl inb_S16x128_S1x16_2_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 1 k.val 0 hk8 rfl _ k0_t21_trips _ rfl ![2, 16] rfl rfl inb_S16x128_S1x16_2_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 0 k.val 0 hk8 rfl _ k0_t21_trips _ rfl ![2, 0] rfl rfl inb_S16x128_S1x16_2_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 7 k.val 0 hk8 rfl _ k0_t20_trips _ rfl ![1, 112] rfl rfl inb_S16x128_S1x16_1_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 6 k.val 0 hk8 rfl _ k0_t20_trips _ rfl ![1, 96] rfl rfl inb_S16x128_S1x16_1_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 5 k.val 0 hk8 rfl _ k0_t20_trips _ rfl ![1, 80] rfl rfl inb_S16x128_S1x16_1_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 4 k.val 0 hk8 rfl _ k0_t20_trips _ rfl ![1, 64] rfl rfl inb_S16x128_S1x16_1_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 3 k.val 0 hk8 rfl _ k0_t20_trips _ rfl ![1, 48] rfl rfl inb_S16x128_S1x16_1_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 2 k.val 0 hk8 rfl _ k0_t20_trips _ rfl ![1, 32] rfl rfl inb_S16x128_S1x16_1_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 1 k.val 0 hk8 rfl _ k0_t20_trips _ rfl ![1, 16] rfl rfl inb_S16x128_S1x16_1_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 0 k.val 0 hk8 rfl _ k0_t20_trips _ rfl ![1, 0] rfl rfl inb_S16x128_S1x16_1_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 7 k.val 0 hk8 rfl _ k0_t19_trips _ rfl ![0, 112] rfl rfl inb_S16x128_S1x16_0_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 6 k.val 0 hk8 rfl _ k0_t19_trips _ rfl ![0, 96] rfl rfl inb_S16x128_S1x16_0_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 5 k.val 0 hk8 rfl _ k0_t19_trips _ rfl ![0, 80] rfl rfl inb_S16x128_S1x16_0_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 4 k.val 0 hk8 rfl _ k0_t19_trips _ rfl ![0, 64] rfl rfl inb_S16x128_S1x16_0_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 3 k.val 0 hk8 rfl _ k0_t19_trips _ rfl ![0, 48] rfl rfl inb_S16x128_S1x16_0_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 2 k.val 0 hk8 rfl _ k0_t19_trips _ rfl ![0, 32] rfl rfl inb_S16x128_S1x16_0_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 1 k.val 0 hk8 rfl _ k0_t19_trips _ rfl ![0, 16] rfl rfl inb_S16x128_S1x16_0_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 0 k.val 0 hk8 rfl _ k0_t19_trips _ rfl ![0, 0] rfl rfl inb_S16x128_S1x16_0_0 x, ?_⟩
        exact List.forall_mem_nil _
      have hcov : ∀ y : S16x128.Idx, ∃ p ∈ trip1_lt.sl.H6_128 m d L X1 hX1 k, y ∈ p.1.set := by
        sl_unfold_run_names
        exact View.cover_of_tiled _ S1x16.size rfl
      iapply (Entails.of_eq (trip_close m d L 1 (Ring.bk 8 k.val) s6 f6 _ fo hG hcov (trip1_lt.sl.dma16 m d L X1 hX1 k f6) rfl))
      iexact Ho
    iexact Hpl
  isplitl [Hmw]; · iexact Hmw
  iexists _; isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Trips

end Cert.KernelIdeal.Sc

end
-- ==== Proof.ScPhase1Last.lean ====
/-
  The last trip of the second table's chunk loop: the four slots land the second table's last streams over index
  buffer 1, the chunk's sixteen means are reduced and copied out, and each slot is fired again — now for the THIRD
  table, over index buffer 0's first four blocks. After it every block of buffer 1 is home, the second table's tokens
  are whole, and the third table's ring stands at its start.
-/
import proofs.«207262_g39728447488703_cont_8to1_b_1934_40_alg».proof.Proof.ScPhase1Defs
import proofs.«207262_g39728447488703_cont_8to1_b_1934_40_alg».proof.Proof.ScRed19
import proofs.«207262_g39728447488703_cont_8to1_b_1934_40_alg».proof.Proof.ScRed20
import proofs.«207262_g39728447488703_cont_8to1_b_1934_40_alg».proof.Proof.ScRed21
import proofs.«207262_g39728447488703_cont_8to1_b_1934_40_alg».proof.Proof.ScRed22
import proofs.«207262_g39728447488703_cont_8to1_b_1934_40_alg».proof.Proof.ScRed23
import proofs.«207262_g39728447488703_cont_8to1_b_1934_40_alg».proof.Proof.ScRed24
import proofs.«207262_g39728447488703_cont_8to1_b_1934_40_alg».proof.Proof.ScRed25
import proofs.«207262_g39728447488703_cont_8to1_b_1934_40_alg».proof.Proof.ScRed26
import proofs.«207262_g39728447488703_cont_8to1_b_1934_40_alg».proof.Proof.ScRed27
import proofs.«207262_g39728447488703_cont_8to1_b_1934_40_alg».proof.Proof.ScRed28
import proofs.«207262_g39728447488703_cont_8to1_b_1934_40_alg».proof.Proof.ScRed29
import proofs.«207262_g39728447488703_cont_8to1_b_1934_40_alg».proof.Proof.ScRed30
import proofs.«207262_g39728447488703_cont_8to1_b_1934_40_alg».proof.Proof.ScRed31
import proofs.«207262_g39728447488703_cont_8to1_b_1934_40_alg».proof.Proof.ScRed32
import proofs.«207262_g39728447488703_cont_8to1_b_1934_40_alg».proof.Proof.ScRed33
import proofs.«207262_g39728447488703_cont_8to1_b_1934_40_alg».proof.Proof.ScRed34
import proofs.«207262_g39728447488703_cont_8to1_b_1934_40_alg».proof.Proof.ScTripVal
import proofs.«207262_g39728447488703_cont_8to1_b_1934_40_alg».proof.Proof.ScTripClose
import proofs.«207262_g39728447488703_cont_8to1_b_1934_40_alg».proof.Proof.Gen.KernelIdeal.Skeleton
import Idealize.ShloMosaic.Lib.Ring
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Trips

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1)
  (O : CellTallies nD τ sig (HIx 1)) (W : Waits sig (HIx 1))

set_option maxHeartbeats 16000000 in
theorem trip_7 (v2 : BitVec 32) (k : Fin k0_t18_loop.trips) (hk : k.val = 7) (hR1 : (s1).view.read (Elt F) X1 = idxBuf m d L 1) :
    inv1 m d L q X0 X1 hX0 hX1 O W k.val ⊢ wp frame (wpE (defs₀ (F := F)) 𝒱₀ (thrOf d L) none) Set.univ
      (k0_t18_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        cc0_scratch7 cc0_scratch8 cc0_scratch9 cc0_scratch10 cc0_scoped0 cc0_scoped1 cc0_scoped2 cc0_scoped3 cc0_scoped4 cc0_scoped5 v2 k ()) (fun _ => inv1 m d L q X0 X1 hX0 hX1 O W (k.val + 1)) := by
  have hk8 : k.val < 8 := by omega
  have e8 : inv1 m d L q X0 X1 hX0 hX1 O W (k.val + 1) = inv1 m d L q X0 X1 hX0 hX1 O W 8 := by rw [hk]
  have e9 : planeAt m d L 1 8 = planeAt m d L 1 (k.val + 1) := by rw [hk]
  rw [e8, inv1_eight, e9, ringAt_point0, homes_univ_last d L s1 X1 k.val hk]
  unfold inv1
  rw [if_pos hk8, homes_univ_start d L s0 X0]
  unfold ringAt
  rw [slotAt_lt _ _ _ _ _ _ _ _ _ _ _ (show 4 * k.val + 0 < 32 by omega), slotAt_lt _ _ _ _ _ _ _ _ _ _ _ (show 4 * k.val + 1 < 32 by omega),
    slotAt_lt _ _ _ _ _ _ _ _ _ _ _ (show 4 * k.val + 2 < 32 by omega), slotAt_lt _ _ _ _ _ _ _ _ _ _ _ (show 4 * k.val + 3 < 32 by omega),
    plane_here m d L 1 k.val hk8, plane_next m d L 1 k.val hk8]
  iintro ⟨⟨Hhome, ⟨%f2, HF0, Hb0⟩, ⟨%f3, HF1, Hb1⟩, ⟨%f4, HF2, Hb2⟩, ⟨%f5, HF3, Hb3⟩⟩, ⟨Hz0, Hz1, Hz2, Hz3, Hzrest⟩, Hc0, Hc1, Hc2, Hc3, ⟨%f6, H6⟩, Hr4, ⟨⟨%fo, Ho⟩, Hpl⟩, Hmw, ⟨%W', %hW', HO⟩⟩
  have hin0 := hX0 (Ring.bk 32 0)
  have hin1 := hX0 (Ring.bk 32 1)
  have hin2 := hX0 (Ring.bk 32 2)
  have hin3 := hX0 (Ring.bk 32 3)
  have hn9 : ¬ k0_cond9 k = 1#1 := fun h => by have := (cond9_iff k).mp h; omega
  have hn11 : ¬ k0_cond11 k = 1#1 := fun h => by have := (cond11_iff k).mp h; omega
  have hn13 : ¬ k0_cond13 k = 1#1 := fun h => by have := (cond13_iff k).mp h; omega
  have hn15 : ¬ k0_cond15 k = 1#1 := fun h => by have := (cond15_iff k).mp h; omega
  have hc10 : k0_cond10 k = 1#1 := (cond10_iff k).mpr hk
  have hc12 : k0_cond12 k = 1#1 := (cond12_iff k).mpr hk
  have hc14 : k0_cond14 k = 1#1 := (cond14_iff k).mpr hk
  have hc16 : k0_cond16 k = 1#1 := (cond16_iff k).mpr hk
  unfold Gen.k0_t18_body
  sl_exec
  sl_step
  -- the third table's ring at its start over buffer 0: the blocks no slot took, the four slots in flight
  isplitl [Hzrest HF0 Hc0 HF1 Hc1 HF2 Hc2 HF3 Hc3]
  · isplitl [Hzrest]; · iexact Hzrest
    isplitl [HF0 Hc0]
    · iexists (s2.view.writes (Elt F) s2.view.junk [⟨Rect.whole S200x128, gathered d L bV (m (bLoc d)) s1 X1 hX1 (Ring.bk 32 (4 * k.val + 0))⟩])
      irw [flightP_afterG]
      isplitl [HF0]; · iexact HF0
      iexact Hc0
    isplitl [HF1 Hc1]
    · iexists (s3.view.writes (Elt F) s3.view.junk [⟨Rect.whole S200x128, gathered d L bV (m (bLoc d)) s1 X1 hX1 (Ring.bk 32 (4 * k.val + 1))⟩])
      irw [flightP_afterG]
      isplitl [HF1]; · iexact HF1
      iexact Hc1
    isplitl [HF2 Hc2]
    · iexists (s4.view.writes (Elt F) s4.view.junk [⟨Rect.whole S200x128, gathered d L bV (m (bLoc d)) s1 X1 hX1 (Ring.bk 32 (4 * k.val + 2))⟩])
      irw [flightP_afterG]
      isplitl [HF2]; · iexact HF2
      iexact Hc2
    · iexists (s5.view.writes (Elt F) s5.view.junk [⟨Rect.whole S200x128, gathered d L bV (m (bLoc d)) s1 X1 hX1 (Ring.bk 32 (4 * k.val + 3))⟩])
      irw [flightP_afterG]
      isplitl [HF3]; · iexact HF3
      iexact Hc3
  -- buffer 1: the four blocks just back, the rest
  isplitl [HF0_dst_and HF1_dst_and HF2_dst_and HF3_dst_and Hhome]
  · isplitl [HF0_dst_and]; · iexact HF0_dst_and
    isplitl [HF1_dst_and]; · iexact HF1_dst_and
    isplitl [HF2_dst_and]; · iexact HF2_dst_and
    isplitl [HF3_dst_and]; · iexact HF3_dst_and
    iexact Hhome
  -- the second table's tokens, whole again
  isplitl [Hb0]; · iexact Hb0
  isplitl [Hb1]; · iexact Hb1
  isplitl [Hb2]; · iexact Hb2
  isplitl [Hb3]; · iexact Hb3
  isplitl [H6]; · iexists _; iexact H6
  isplitl [Hr4]; · iexact Hr4
  -- the chunk just copied out holds the pooled rows
  isplitl [Ho Hpl]
  · isplitl [Ho]
    · have hG : ∀ p ∈ trip_7.sl.H6_128 m d L X1 hX1 k, ∀ x : p.1.shape.Idx,
          p.2 x = chunkG m d L (m (aLoc d)) (m (bLoc d)) (m (cLoc d)) 1 (Ring.bk 8 k.val) (p.1.emb x) := by
        sl_unfold_run_names
        have hk8 : k.val = (Ring.bk 8 k.val).val := (bk8_val (trips18 k)).symm
        refine List.forall_mem_cons.2 ⟨fun x => piece_ok_s5 m d L bV (m (bLoc d)) s1 X1 hX1 (m (aLoc d)) (m (bLoc d)) (m (cLoc d)) 1 rfl hR1 _ (Ring.bk 8 k.val) 3 3 7 k.val 3 hk8 rfl _ k0_t34_trips _ rfl ![15, 112] rfl rfl inb_S16x128_S1x16_15_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 6 k.val 3 hk8 rfl _ k0_t34_trips _ rfl ![15, 96] rfl rfl inb_S16x128_S1x16_15_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 5 k.val 3 hk8 rfl _ k0_t34_trips _ rfl ![15, 80] rfl rfl inb_S16x128_S1x16_15_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 4 k.val 3 hk8 rfl _ k0_t34_trips _ rfl ![15, 64] rfl rfl inb_S16x128_S1x16_15_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 3 k.val 3 hk8 rfl _ k0_t34_trips _ rfl ![15, 48] rfl rfl inb_S16x128_S1x16_15_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 2 k.val 3 hk8 rfl _ k0_t34_trips _ rfl ![15, 32] rfl rfl inb_S16x128_S1x16_15_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 1 k.val 3 hk8 rfl _ k0_t34_trips _ rfl ![15, 16] rfl rfl inb_S16x128_S1x16_15_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 0 k.val 3 hk8 rfl _ k0_t34_trips _ rfl ![15, 0] rfl rfl inb_S16x128_S1x16_15_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 7 k.val 3 hk8 rfl _ k0_t33_trips _ rfl ![14, 112] rfl rfl inb_S16x128_S1x16_14_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 6 k.val 3 hk8 rfl _ k0_t33_trips _ rfl ![14, 96] rfl rfl inb_S16x128_S1x16_14_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 5 k.val 3 hk8 rfl _ k0_t33_trips _ rfl ![14, 80] rfl rfl inb_S16x128_S1x16_14_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 4 k.val 3 hk8 rfl _ k0_t33_trips _ rfl ![14, 64] rfl rfl inb_S16x128_S1x16_14_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 3 k.val 3 hk8 rfl _ k0_t33_trips _ rfl ![14, 48] rfl rfl inb_S16x128_S1x16_14_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 2 k.val 3 hk8 rfl _ k0_t33_trips _ rfl ![14, 32] rfl rfl inb_S16x128_S1x16_14_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 1 k.val 3 hk8 rfl _ k0_t33_trips _ rfl ![14, 16] rfl rfl inb_S16x128_S1x16_14_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 0 k.val 3 hk8 rfl _ k0_t33_trips _ rfl ![14, 0] rfl rfl inb_S16x128_S1x16_14_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 7 k.val 3 hk8 rfl _ k0_t32_trips _ rfl ![13, 112] rfl rfl inb_S16x128_S1x16_13_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 6 k.val 3 hk8 rfl _ k0_t32_trips _ rfl ![13, 96] rfl rfl inb_S16x128_S1x16_13_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 5 k.val 3 hk8 rfl _ k0_t32_trips _ rfl ![13, 80] rfl rfl inb_S16x128_S1x16_13_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 4 k.val 3 hk8 rfl _ k0_t32_trips _ rfl ![13, 64] rfl rfl inb_S16x128_S1x16_13_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 3 k.val 3 hk8 rfl _ k0_t32_trips _ rfl ![13, 48] rfl rfl inb_S16x128_S1x16_13_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 2 k.val 3 hk8 rfl _ k0_t32_trips _ rfl ![13, 32] rfl rfl inb_S16x128_S1x16_13_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 1 k.val 3 hk8 rfl _ k0_t32_trips _ rfl ![13, 16] rfl rfl inb_S16x128_S1x16_13_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 0 k.val 3 hk8 rfl _ k0_t32_trips _ rfl ![13, 0] rfl rfl inb_S16x128_S1x16_13_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 7 k.val 3 hk8 rfl _ k0_t31_trips _ rfl ![12, 112] rfl rfl inb_S16x128_S1x16_12_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 6 k.val 3 hk8 rfl _ k0_t31_trips _ rfl ![12, 96] rfl rfl inb_S16x128_S1x16_12_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 5 k.val 3 hk8 rfl _ k0_t31_trips _ rfl ![12, 80] rfl rfl inb_S16x128_S1x16_12_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 4 k.val 3 hk8 rfl _ k0_t31_trips _ rfl ![12, 64] rfl rfl inb_S16x128_S1x16_12_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 3 k.val 3 hk8 rfl _ k0_t31_trips _ rfl ![12, 48] rfl rfl inb_S16x128_S1x16_12_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 2 k.val 3 hk8 rfl _ k0_t31_trips _ rfl ![12, 32] rfl rfl inb_S16x128_S1x16_12_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 1 k.val 3 hk8 rfl _ k0_t31_trips _ rfl ![12, 16] rfl rfl inb_S16x128_S1x16_12_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 0 k.val 3 hk8 rfl _ k0_t31_trips _ rfl ![12, 0] rfl rfl inb_S16x128_S1x16_12_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 7 k.val 2 hk8 rfl _ k0_t30_trips _ rfl ![11, 112] rfl rfl inb_S16x128_S1x16_11_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 6 k.val 2 hk8 rfl _ k0_t30_trips _ rfl ![11, 96] rfl rfl inb_S16x128_S1x16_11_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 5 k.val 2 hk8 rfl _ k0_t30_trips _ rfl ![11, 80] rfl rfl inb_S16x128_S1x16_11_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 4 k.val 2 hk8 rfl _ k0_t30_trips _ rfl ![11, 64] rfl rfl inb_S16x128_S1x16_11_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 3 k.val 2 hk8 rfl _ k0_t30_trips _ rfl ![11, 48] rfl rfl inb_S16x128_S1x16_11_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 2 k.val 2 hk8 rfl _ k0_t30_trips _ rfl ![11, 32] rfl rfl inb_S16x128_S1x16_11_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 1 k.val 2 hk8 rfl _ k0_t30_trips _ rfl ![11, 16] rfl rfl inb_S16x128_S1x16_11_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 0 k.val 2 hk8 rfl _ k0_t30_trips _ rfl ![11, 0] rfl rfl inb_S16x128_S1x16_11_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 7 k.val 2 hk8 rfl _ k0_t29_trips _ rfl ![10, 112] rfl rfl inb_S16x128_S1x16_10_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 6 k.val 2 hk8 rfl _ k0_t29_trips _ rfl ![10, 96] rfl rfl inb_S16x128_S1x16_10_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 5 k.val 2 hk8 rfl _ k0_t29_trips _ rfl ![10, 80] rfl rfl inb_S16x128_S1x16_10_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 4 k.val 2 hk8 rfl _ k0_t29_trips _ rfl ![10, 64] rfl rfl inb_S16x128_S1x16_10_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 3 k.val 2 hk8 rfl _ k0_t29_trips _ rfl ![10, 48] rfl rfl inb_S16x128_S1x16_10_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 2 k.val 2 hk8 rfl _ k0_t29_trips _ rfl ![10, 32] rfl rfl inb_S16x128_S1x16_10_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 1 k.val 2 hk8 rfl _ k0_t29_trips _ rfl ![10, 16] rfl rfl inb_S16x128_S1x16_10_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 0 k.val 2 hk8 rfl _ k0_t29_trips _ rfl ![10, 0] rfl rfl inb_S16x128_S1x16_10_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 7 k.val 2 hk8 rfl _ k0_t28_trips _ rfl ![9, 112] rfl rfl inb_S16x128_S1x16_9_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 6 k.val 2 hk8 rfl _ k0_t28_trips _ rfl ![9, 96] rfl rfl inb_S16x128_S1x16_9_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 5 k.val 2 hk8 rfl _ k0_t28_trips _ rfl ![9, 80] rfl rfl inb_S16x128_S1x16_9_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 4 k.val 2 hk8 rfl _ k0_t28_trips _ rfl ![9, 64] rfl rfl inb_S16x128_S1x16_9_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 3 k.val 2 hk8 rfl _ k0_t28_trips _ rfl ![9, 48] rfl rfl inb_S16x128_S1x16_9_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 2 k.val 2 hk8 rfl _ k0_t28_trips _ rfl ![9, 32] rfl rfl inb_S16x128_S1x16_9_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 1 k.val 2 hk8 rfl _ k0_t28_trips _ rfl ![9, 16] rfl rfl inb_S16x128_S1x16_9_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 0 k.val 2 hk8 rfl _ k0_t28_trips _ rfl ![9, 0] rfl rfl inb_S16x128_S1x16_9_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 7 k.val 2 hk8 rfl _ k0_t27_trips _ rfl ![8, 112] rfl rfl inb_S16x128_S1x16_8_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 6 k.val 2 hk8 rfl _ k0_t27_trips _ rfl ![8, 96] rfl rfl inb_S16x128_S1x16_8_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 5 k.val 2 hk8 rfl _ k0_t27_trips _ rfl ![8, 80] rfl rfl inb_S16x128_S1x16_8_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 4 k.val 2 hk8 rfl _ k0_t27_trips _ rfl ![8, 64] rfl rfl inb_S16x128_S1x16_8_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 3 k.val 2 hk8 rfl _ k0_t27_trips _ rfl ![8, 48] rfl rfl inb_S16x128_S1x16_8_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 2 k.val 2 hk8 rfl _ k0_t27_trips _ rfl ![8, 32] rfl rfl inb_S16x128_S1x16_8_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 1 k.val 2 hk8 rfl _ k0_t27_trips _ rfl ![8, 16] rfl rfl inb_S16x128_S1x16_8_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 0 k.val 2 hk8 rfl _ k0_t27_trips _ rfl ![8, 0] rfl rfl inb_S16x128_S1x16_8_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 7 k.val 1 hk8 rfl _ k0_t26_trips _ rfl ![7, 112] rfl rfl inb_S16x128_S1x16_7_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 6 k.val 1 hk8 rfl _ k0_t26_trips _ rfl ![7, 96] rfl rfl inb_S16x128_S1x16_7_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 5 k.val 1 hk8 rfl _ k0_t26_trips _ rfl ![7, 80] rfl rfl inb_S16x128_S1x16_7_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 4 k.val 1 hk8 rfl _ k0_t26_trips _ rfl ![7, 64] rfl rfl inb_S16x128_S1x16_7_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 3 k.val 1 hk8 rfl _ k0_t26_trips _ rfl ![7, 48] rfl rfl inb_S16x128_S1x16_7_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 2 k.val 1 hk8 rfl _ k0_t26_trips _ rfl ![7, 32] rfl rfl inb_S16x128_S1x16_7_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 1 k.val 1 hk8 rfl _ k0_t26_trips _ rfl ![7, 16] rfl rfl inb_S16x128_S1x16_7_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 0 k.val 1 hk8 rfl _ k0_t26_trips _ rfl ![7, 0] rfl rfl inb_S16x128_S1x16_7_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 7 k.val 1 hk8 rfl _ k0_t25_trips _ rfl ![6, 112] rfl rfl inb_S16x128_S1x16_6_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 6 k.val 1 hk8 rfl _ k0_t25_trips _ rfl ![6, 96] rfl rfl inb_S16x128_S1x16_6_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 5 k.val 1 hk8 rfl _ k0_t25_trips _ rfl ![6, 80] rfl rfl inb_S16x128_S1x16_6_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 4 k.val 1 hk8 rfl _ k0_t25_trips _ rfl ![6, 64] rfl rfl inb_S16x128_S1x16_6_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 3 k.val 1 hk8 rfl _ k0_t25_trips _ rfl ![6, 48] rfl rfl inb_S16x128_S1x16_6_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 2 k.val 1 hk8 rfl _ k0_t25_trips _ rfl ![6, 32] rfl rfl inb_S16x128_S1x16_6_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 1 k.val 1 hk8 rfl _ k0_t25_trips _ rfl ![6, 16] rfl rfl inb_S16x128_S1x16_6_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 0 k.val 1 hk8 rfl _ k0_t25_trips _ rfl ![6, 0] rfl rfl inb_S16x128_S1x16_6_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 7 k.val 1 hk8 rfl _ k0_t24_trips _ rfl ![5, 112] rfl rfl inb_S16x128_S1x16_5_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 6 k.val 1 hk8 rfl _ k0_t24_trips _ rfl ![5, 96] rfl rfl inb_S16x128_S1x16_5_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 5 k.val 1 hk8 rfl _ k0_t24_trips _ rfl ![5, 80] rfl rfl inb_S16x128_S1x16_5_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 4 k.val 1 hk8 rfl _ k0_t24_trips _ rfl ![5, 64] rfl rfl inb_S16x128_S1x16_5_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 3 k.val 1 hk8 rfl _ k0_t24_trips _ rfl ![5, 48] rfl rfl inb_S16x128_S1x16_5_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 2 k.val 1 hk8 rfl _ k0_t24_trips _ rfl ![5, 32] rfl rfl inb_S16x128_S1x16_5_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 1 k.val 1 hk8 rfl _ k0_t24_trips _ rfl ![5, 16] rfl rfl inb_S16x128_S1x16_5_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 0 k.val 1 hk8 rfl _ k0_t24_trips _ rfl ![5, 0] rfl rfl inb_S16x128_S1x16_5_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 7 k.val 1 hk8 rfl _ k0_t23_trips _ rfl ![4, 112] rfl rfl inb_S16x128_S1x16_4_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 6 k.val 1 hk8 rfl _ k0_t23_trips _ rfl ![4, 96] rfl rfl inb_S16x128_S1x16_4_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 5 k.val 1 hk8 rfl _ k0_t23_trips _ rfl ![4, 80] rfl rfl inb_S16x128_S1x16_4_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 4 k.val 1 hk8 rfl _ k0_t23_trips _ rfl ![4, 64] rfl rfl inb_S16x128_S1x16_4_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 3 k.val 1 hk8 rfl _ k0_t23_trips _ rfl ![4, 48] rfl rfl inb_S16x128_S1x16_4_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 2 k.val 1 hk8 rfl _ k0_t23_trips _ rfl ![4, 32] rfl rfl inb_S16x128_S1x16_4_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 1 k.val 1 hk8 rfl _ k0_t23_trips _ rfl ![4, 16] rfl rfl inb_S16x128_S1x16_4_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 0 k.val 1 hk8 rfl _ k0_t23_trips _ rfl ![4, 0] rfl rfl inb_S16x128_S1x16_4_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 7 k.val 0 hk8 rfl _ k0_t22_trips _ rfl ![3, 112] rfl rfl inb_S16x128_S1x16_3_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 6 k.val 0 hk8 rfl _ k0_t22_trips _ rfl ![3, 96] rfl rfl inb_S16x128_S1x16_3_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 5 k.val 0 hk8 rfl _ k0_t22_trips _ rfl ![3, 80] rfl rfl inb_S16x128_S1x16_3_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 4 k.val 0 hk8 rfl _ k0_t22_trips _ rfl ![3, 64] rfl rfl inb_S16x128_S1x16_3_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 3 k.val 0 hk8 rfl _ k0_t22_trips _ rfl ![3, 48] rfl rfl inb_S16x128_S1x16_3_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 2 k.val 0 hk8 rfl _ k0_t22_trips _ rfl ![3, 32] rfl rfl inb_S16x128_S1x16_3_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 1 k.val 0 hk8 rfl _ k0_t22_trips _ rfl ![3, 16] rfl rfl inb_S16x128_S1x16_3_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 0 k.val 0 hk8 rfl _ k0_t22_trips _ rfl ![3, 0] rfl rfl inb_S16x128_S1x16_3_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 7 k.val 0 hk8 rfl _ k0_t21_trips _ rfl ![2, 112] rfl rfl inb_S16x128_S1x16_2_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 6 k.val 0 hk8 rfl _ k0_t21_trips _ rfl ![2, 96] rfl rfl inb_S16x128_S1x16_2_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 5 k.val 0 hk8 rfl _ k0_t21_trips _ rfl ![2, 80] rfl rfl inb_S16x128_S1x16_2_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 4 k.val 0 hk8 rfl _ k0_t21_trips _ rfl ![2, 64] rfl rfl inb_S16x128_S1x16_2_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 3 k.val 0 hk8 rfl _ k0_t21_trips _ rfl ![2, 48] rfl rfl inb_S16x128_S1x16_2_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 2 k.val 0 hk8 rfl _ k0_t21_trips _ rfl ![2, 32] rfl rfl inb_S16x128_S1x16_2_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 1 k.val 0 hk8 rfl _ k0_t21_trips _ rfl ![2, 16] rfl rfl inb_S16x128_S1x16_2_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 0 k.val 0 hk8 rfl _ k0_t21_trips _ rfl ![2, 0] rfl rfl inb_S16x128_S1x16_2_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 7 k.val 0 hk8 rfl _ k0_t20_trips _ rfl ![1, 112] rfl rfl inb_S16x128_S1x16_1_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 6 k.val 0 hk8 rfl _ k0_t20_trips _ rfl ![1, 96] rfl rfl inb_S16x128_S1x16_1_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 5 k.val 0 hk8 rfl _ k0_t20_trips _ rfl ![1, 80] rfl rfl inb_S16x128_S1x16_1_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 4 k.val 0 hk8 rfl _ k0_t20_trips _ rfl ![1, 64] rfl rfl inb_S16x128_S1x16_1_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 3 k.val 0 hk8 rfl _ k0_t20_trips _ rfl ![1, 48] rfl rfl inb_S16x128_S1x16_1_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 2 k.val 0 hk8 rfl _ k0_t20_trips _ rfl ![1, 32] rfl rfl inb_S16x128_S1x16_1_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 1 k.val 0 hk8 rfl _ k0_t20_trips _ rfl ![1, 16] rfl rfl inb_S16x128_S1x16_1_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 0 k.val 0 hk8 rfl _ k0_t20_trips _ rfl ![1, 0] rfl rfl inb_S16x128_S1x16_1_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 7 k.val 0 hk8 rfl _ k0_t19_trips _ rfl ![0, 112] rfl rfl inb_S16x128_S1x16_0_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 6 k.val 0 hk8 rfl _ k0_t19_trips _ rfl ![0, 96] rfl rfl inb_S16x128_S1x16_0_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 5 k.val 0 hk8 rfl _ k0_t19_trips _ rfl ![0, 80] rfl rfl inb_S16x128_S1x16_0_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 4 k.val 0 hk8 rfl _ k0_t19_trips _ rfl ![0, 64] rfl rfl inb_S16x128_S1x16_0_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 3 k.val 0 hk8 rfl _ k0_t19_trips _ rfl ![0, 48] rfl rfl inb_S16x128_S1x16_0_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 2 k.val 0 hk8 rfl _ k0_t19_trips _ rfl ![0, 32] rfl rfl inb_S16x128_S1x16_0_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 1 k.val 0 hk8 rfl _ k0_t19_trips _ rfl ![0, 16] rfl rfl inb_S16x128_S1x16_0_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 0 k.val 0 hk8 rfl _ k0_t19_trips _ rfl ![0, 0] rfl rfl inb_S16x128_S1x16_0_0 x, ?_⟩
        exact List.forall_mem_nil _
      have hcov : ∀ y : S16x128.Idx, ∃ p ∈ trip_7.sl.H6_128 m d L X1 hX1 k, y ∈ p.1.set := by
        sl_unfold_run_names
        exact View.cover_of_tiled _ S1x16.size rfl
      iapply (Entails.of_eq (trip_close m d L 1 (Ring.bk 8 k.val) s6 f6 _ fo hG hcov (trip_7.sl.dma16 m d L X1 hX1 k f6) rfl))
      iexact Ho
    iexact Hpl
  isplitl [Hmw]; · iexact Hmw
  iexists _; isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Trips

end Cert.KernelIdeal.Sc

end
-- ==== Proof.ScPhase1.lean ====
/-
  The second table's chunk loop by its invariant: before trip k the subcore holds inv1 … k; a trip below the last
  re-fires from index buffer 1, the last fires the third table's first four blocks from index buffer 0.
-/
import proofs.«207262_g39728447488703_cont_8to1_b_1934_40_alg».proof.Proof.ScPhase1Lt
import proofs.«207262_g39728447488703_cont_8to1_b_1934_40_alg».proof.Proof.ScPhase1Last
import Idealize.ShloMosaic.Lib.Ring
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Loop

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1) (hR1 : (s1).view.read (Elt F) X1 = idxBuf m d L 1)
  (O : CellTallies nD τ sig (HIx 1)) (W : Waits sig (HIx 1)) (v2 : BitVec 32)

set_option warn.classDefReducibility false in
/-- The loop's invariant, instanced: index buffer 1 reads as the second stretch (so that the chunks' values are the
    pooled array's); the contents of both index buffers, the share and the waits are found against the context. -/
@[sl_loop] def loopInv_k0_t18 :
    Idealize.ShloMosaic.LoopInv (M := 𝕄) Idealize.ShloMosaic.frame (wpE (defs₀ (F := F)) 𝒱₀ (thrOf d L) none) Set.univ
      k0_t18_loop.lb k0_t18_loop.ub k0_t18_loop.st k0_t18_ok ()
      (k0_t18_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        cc0_scratch7 cc0_scratch8 cc0_scratch9 cc0_scratch10 cc0_scoped0 cc0_scoped1 cc0_scoped2 cc0_scoped3 cc0_scoped4 cc0_scoped5 v2) where
  inv k _ := inv1 m d L q X0 X1 hX0 hX1 O W k
  step k acc := by
    cases acc
    by_cases hk : k.val < 7
    · exact trip1_lt m d L q X0 X1 hX0 hX1 O W v2 k hk hR1
    · exact trip_7 m d L q X0 X1 hX0 hX1 O W v2 k (by have := trips18 k; omega) hR1

end Loop

end Cert.KernelIdeal.Sc

end
-- ==== Proof.ScRed36.lean ====
/-
  The reduce loop of ring slot 0, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t36_trips : k0_t36_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t36 (d : Dev nD) (L : grid0.Coords)
    (a14 a15 a16 a17 r0 r1 r2 r3 r4 r5 : DmaSems sig S_)
    (c0_i32_20 : BitVec 32) (c1_i32_22 : BitVec 32) (k0_t35 : Fin k0_t35_loop.trips)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t36_loop.lb k0_t36_loop.ub k0_t36_loop.st k0_t36_ok init
      (k0_t36_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        c0_i32_20 c1_i32_22 k0_t35) where
  inv l acc := iprop(((s2).view.loc (thrOf d L) ↦{fullShare} fb) ∗ ⌜acc = accsAt fb 0 l⌝)
  step l acc := by
    iintro ⟨HB, %hacc⟩
    subst hacc
    unfold Gen.k0_t36_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed37.lean ====
/-
  The reduce loop of ring slot 0, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t37_trips : k0_t37_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t37 (d : Dev nD) (L : grid0.Coords)
    (a14 a15 a16 a17 r0 r1 r2 r3 r4 r5 : DmaSems sig S_)
    (v84 : FVec F S16 .f32) (v85 : FVec F S16 .f32) (v86 : FVec F S16 .f32) (v87 : FVec F S16 .f32) (v88 : FVec F S16 .f32) (cst_58 : F .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t37_loop.lb k0_t37_loop.ub k0_t37_loop.st k0_t37_ok init
      (k0_t37_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v84 v85 v86 v87 v88 cst_58) where
  inv l acc := iprop(((s2).view.loc (thrOf d L) ↦{fullShare} fb) ∗ ⌜acc = accsAt fb 1 l⌝)
  step l acc := by
    iintro ⟨HB, %hacc⟩
    subst hacc
    unfold Gen.k0_t37_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed38.lean ====
/-
  The reduce loop of ring slot 0, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t38_trips : k0_t38_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t38 (d : Dev nD) (L : grid0.Coords)
    (a14 a15 a16 a17 r0 r1 r2 r3 r4 r5 : DmaSems sig S_)
    (v93_5 : FVec F S16 .f32) (v93_6 : FVec F S16 .f32) (v93_7 : FVec F S16 .f32) (v123 : FVec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t38_loop.lb k0_t38_loop.ub k0_t38_loop.st k0_t38_ok init
      (k0_t38_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v93_5 v93_6 v93_7 v123) where
  inv l acc := iprop(((s2).view.loc (thrOf d L) ↦{fullShare} fb) ∗ ⌜acc = accsAt fb 2 l⌝)
  step l acc := by
    iintro ⟨HB, %hacc⟩
    subst hacc
    unfold Gen.k0_t38_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed39.lean ====
/-
  The reduce loop of ring slot 0, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t39_trips : k0_t39_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t39 (d : Dev nD) (L : grid0.Coords)
    (a14 a15 a16 a17 r0 r1 r2 r3 r4 r5 : DmaSems sig S_)
    (v151_7 : FVec F S16 .f32) (v189 : FVec F S16 .f32) (v191 : Vec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t39_loop.lb k0_t39_loop.ub k0_t39_loop.st k0_t39_ok init
      (k0_t39_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v151_7 v189 v191) where
  inv l acc := iprop(((s2).view.loc (thrOf d L) ↦{fullShare} fb) ∗ ⌜acc = accsAt fb 3 l⌝)
  step l acc := by
    iintro ⟨HB, %hacc⟩
    subst hacc
    unfold Gen.k0_t39_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.KernelIdeal.Sc

end
-- ==== Proof.ScRed40.lean ====
/-
  The reduce loop of ring slot 1, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t40_trips : k0_t40_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t40 (d : Dev nD) (L : grid0.Coords)
    (a14 a15 a16 a17 r0 r1 r2 r3 r4 r5 : DmaSems sig S_)
    (k0_t35 : Fin k0_t35_loop.trips) (arg18 : BitVec 32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t40_loop.lb k0_t40_loop.ub k0_t40_loop.st k0_t40_ok init
      (k0_t40_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t35 arg18) where
  inv l acc := iprop(((s3).view.loc (thrOf d L) ↦{fullShare} fb) ∗ ⌜acc = accsAt fb 0 l⌝)
  step l acc := by
    iintro ⟨HB, %hacc⟩
    subst hacc
    unfold Gen.k0_t40_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed41.lean ====
/-
  The reduce loop of ring slot 1, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t41_trips : k0_t41_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t41 (d : Dev nD) (L : grid0.Coords)
    (a14 a15 a16 a17 r0 r1 r2 r3 r4 r5 : DmaSems sig S_)
    (v321 : FVec F S16 .f32) (v322 : FVec F S16 .f32) (v323 : FVec F S16 .f32) (v324 : FVec F S16 .f32) (v325 : FVec F S16 .f32) (cst_204 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t41_loop.lb k0_t41_loop.ub k0_t41_loop.st k0_t41_ok init
      (k0_t41_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v321 v322 v323 v324 v325 cst_204) where
  inv l acc := iprop(((s3).view.loc (thrOf d L) ↦{fullShare} fb) ∗ ⌜acc = accsAt fb 1 l⌝)
  step l acc := by
    iintro ⟨HB, %hacc⟩
    subst hacc
    unfold Gen.k0_t41_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed42.lean ====
/-
  The reduce loop of ring slot 1, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t42_trips : k0_t42_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t42 (d : Dev nD) (L : grid0.Coords)
    (a14 a15 a16 a17 r0 r1 r2 r3 r4 r5 : DmaSems sig S_)
    (v330_5 : FVec F S16 .f32) (v330_6 : FVec F S16 .f32) (v330_7 : FVec F S16 .f32) (v360 : FVec F S1x16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t42_loop.lb k0_t42_loop.ub k0_t42_loop.st k0_t42_ok init
      (k0_t42_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v330_5 v330_6 v330_7 v360) where
  inv l acc := iprop(((s3).view.loc (thrOf d L) ↦{fullShare} fb) ∗ ⌜acc = accsAt fb 2 l⌝)
  step l acc := by
    iintro ⟨HB, %hacc⟩
    subst hacc
    unfold Gen.k0_t42_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed43.lean ====
/-
  The reduce loop of ring slot 1, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t43_trips : k0_t43_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t43 (d : Dev nD) (L : grid0.Coords)
    (a14 a15 a16 a17 r0 r1 r2 r3 r4 r5 : DmaSems sig S_)
    (v388_7 : FVec F S16 .f32) (v426 : FVec F S16 .f32) (v428 : Vec F S1x16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t43_loop.lb k0_t43_loop.ub k0_t43_loop.st k0_t43_ok init
      (k0_t43_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v388_7 v426 v428) where
  inv l acc := iprop(((s3).view.loc (thrOf d L) ↦{fullShare} fb) ∗ ⌜acc = accsAt fb 3 l⌝)
  step l acc := by
    iintro ⟨HB, %hacc⟩
    subst hacc
    unfold Gen.k0_t43_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.KernelIdeal.Sc

end
-- ==== Proof.ScRed44.lean ====
/-
  The reduce loop of ring slot 2, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t44_trips : k0_t44_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t44 (d : Dev nD) (L : grid0.Coords)
    (a14 a15 a16 a17 r0 r1 r2 r3 r4 r5 : DmaSems sig S_)
    (k0_t35 : Fin k0_t35_loop.trips) (arg18 : BitVec 32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t44_loop.lb k0_t44_loop.ub k0_t44_loop.st k0_t44_ok init
      (k0_t44_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t35 arg18) where
  inv l acc := iprop(((s4).view.loc (thrOf d L) ↦{fullShare} fb) ∗ ⌜acc = accsAt fb 0 l⌝)
  step l acc := by
    iintro ⟨HB, %hacc⟩
    subst hacc
    unfold Gen.k0_t44_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed45.lean ====
/-
  The reduce loop of ring slot 2, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t45_trips : k0_t45_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t45 (d : Dev nD) (L : grid0.Coords)
    (a14 a15 a16 a17 r0 r1 r2 r3 r4 r5 : DmaSems sig S_)
    (v558 : FVec F S16 .f32) (v559 : FVec F S16 .f32) (v560 : FVec F S16 .f32) (v561 : FVec F S16 .f32) (v562 : FVec F S16 .f32) (cst_351 : F .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t45_loop.lb k0_t45_loop.ub k0_t45_loop.st k0_t45_ok init
      (k0_t45_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v558 v559 v560 v561 v562 cst_351) where
  inv l acc := iprop(((s4).view.loc (thrOf d L) ↦{fullShare} fb) ∗ ⌜acc = accsAt fb 1 l⌝)
  step l acc := by
    iintro ⟨HB, %hacc⟩
    subst hacc
    unfold Gen.k0_t45_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed46.lean ====
/-
  The reduce loop of ring slot 2, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t46_trips : k0_t46_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t46 (d : Dev nD) (L : grid0.Coords)
    (a14 a15 a16 a17 r0 r1 r2 r3 r4 r5 : DmaSems sig S_)
    (v567_5 : FVec F S16 .f32) (v567_6 : FVec F S16 .f32) (v567_7 : FVec F S16 .f32) (v597 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t46_loop.lb k0_t46_loop.ub k0_t46_loop.st k0_t46_ok init
      (k0_t46_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v567_5 v567_6 v567_7 v597) where
  inv l acc := iprop(((s4).view.loc (thrOf d L) ↦{fullShare} fb) ∗ ⌜acc = accsAt fb 2 l⌝)
  step l acc := by
    iintro ⟨HB, %hacc⟩
    subst hacc
    unfold Gen.k0_t46_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed47.lean ====
/-
  The reduce loop of ring slot 2, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t47_trips : k0_t47_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t47 (d : Dev nD) (L : grid0.Coords)
    (a14 a15 a16 a17 r0 r1 r2 r3 r4 r5 : DmaSems sig S_)
    (v625_7 : FVec F S16 .f32) (v663 : FVec F S16 .f32) (v665 : Vec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t47_loop.lb k0_t47_loop.ub k0_t47_loop.st k0_t47_ok init
      (k0_t47_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v625_7 v663 v665) where
  inv l acc := iprop(((s4).view.loc (thrOf d L) ↦{fullShare} fb) ∗ ⌜acc = accsAt fb 3 l⌝)
  step l acc := by
    iintro ⟨HB, %hacc⟩
    subst hacc
    unfold Gen.k0_t47_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.KernelIdeal.Sc

end
-- ==== Proof.ScRed48.lean ====
/-
  The reduce loop of ring slot 3, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t48_trips : k0_t48_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t48 (d : Dev nD) (L : grid0.Coords)
    (a14 a15 a16 a17 r0 r1 r2 r3 r4 r5 : DmaSems sig S_)
    (k0_t35 : Fin k0_t35_loop.trips) (arg18 : BitVec 32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t48_loop.lb k0_t48_loop.ub k0_t48_loop.st k0_t48_ok init
      (k0_t48_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t35 arg18) where
  inv l acc := iprop(((s5).view.loc (thrOf d L) ↦{fullShare} fb) ∗ ⌜acc = accsAt fb 0 l⌝)
  step l acc := by
    iintro ⟨HB, %hacc⟩
    subst hacc
    unfold Gen.k0_t48_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed49.lean ====
/-
  The reduce loop of ring slot 3, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t49_trips : k0_t49_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t49 (d : Dev nD) (L : grid0.Coords)
    (a14 a15 a16 a17 r0 r1 r2 r3 r4 r5 : DmaSems sig S_)
    (v795 : FVec F S16 .f32) (v796 : FVec F S16 .f32) (v797 : FVec F S16 .f32) (v798 : FVec F S16 .f32) (v799 : FVec F S16 .f32) (cst_496 : F .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t49_loop.lb k0_t49_loop.ub k0_t49_loop.st k0_t49_ok init
      (k0_t49_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v795 v796 v797 v798 v799 cst_496) where
  inv l acc := iprop(((s5).view.loc (thrOf d L) ↦{fullShare} fb) ∗ ⌜acc = accsAt fb 1 l⌝)
  step l acc := by
    iintro ⟨HB, %hacc⟩
    subst hacc
    unfold Gen.k0_t49_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed50.lean ====
/-
  The reduce loop of ring slot 3, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t50_trips : k0_t50_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t50 (d : Dev nD) (L : grid0.Coords)
    (a14 a15 a16 a17 r0 r1 r2 r3 r4 r5 : DmaSems sig S_)
    (v804_5 : FVec F S16 .f32) (v804_6 : FVec F S16 .f32) (v804_7 : FVec F S16 .f32) (v834 : FVec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t50_loop.lb k0_t50_loop.ub k0_t50_loop.st k0_t50_ok init
      (k0_t50_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v804_5 v804_6 v804_7 v834) where
  inv l acc := iprop(((s5).view.loc (thrOf d L) ↦{fullShare} fb) ∗ ⌜acc = accsAt fb 2 l⌝)
  step l acc := by
    iintro ⟨HB, %hacc⟩
    subst hacc
    unfold Gen.k0_t50_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScRed51.lean ====
/-
  The reduce loop of ring slot 3, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.ScRedLib
import proofs.«207262_g39728447488703_cont_8to1_b_1934_40_alg».proof.Proof.Gen.KernelIdeal.Skeleton

noncomputable section

namespace Cert.KernelIdeal.Sc

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 1) (Elt F) ℕ UU ℕ

/-- The loop makes twenty-five steps. -/
theorem k0_t51_trips : k0_t51_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t51 (d : Dev nD) (L : grid0.Coords)
    (a14 a15 a16 a17 r0 r1 r2 r3 r4 r5 : DmaSems sig S_)
    (v862_7 : FVec F S16 .f32) (v900 : FVec F S16 .f32) (v902 : Vec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t51_loop.lb k0_t51_loop.ub k0_t51_loop.st k0_t51_ok init
      (k0_t51_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v862_7 v900 v902) where
  inv l acc := iprop(((s5).view.loc (thrOf d L) ↦{fullShare} fb) ∗ ⌜acc = accsAt fb 3 l⌝)
  step l acc := by
    iintro ⟨HB, %hacc⟩
    subst hacc
    unfold Gen.k0_t51_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.KernelIdeal.Sc

end
-- ==== Proof.ScPhase2Lt.lean ====
/-
  The third chunk loop of a vector subcore (the third table's plane): one trip, and the loop by its invariant.

  Before trip `k` the four ring slots are in flight with blocks `4 k … 4 k + 3` of the first index buffer (the third
  table's rows), every other block is home, the chunks before `k` of the plane hold the pooled value. A trip lands the
  four blocks in turn, sums each row buffer's four segments and stores their means into the sixteen-row scratch, re-fires
  each slot with the block four ahead (none at the last trip), and copies the scratch out to chunk `k`.
-/
import proofs.«207262_g39728447488703_cont_8to1_b_1934_40_alg».proof.Proof.ScRing
import proofs.«207262_g39728447488703_cont_8to1_b_1934_40_alg».proof.Proof.ScCanonSets
import proofs.«207262_g39728447488703_cont_8to1_b_1934_40_alg».proof.Proof.ScTripClose
import proofs.«207262_g39728447488703_cont_8to1_b_1934_40_alg».proof.Proof.ScRed36
import proofs.«207262_g39728447488703_cont_8to1_b_1934_40_alg».proof.Proof.ScRed37
import proofs.«207262_g39728447488703_cont_8to1_b_1934_40_alg».proof.Proof.ScRed38
import proofs.«207262_g39728447488703_cont_8to1_b_1934_40_alg».proof.Proof.ScRed39
import proofs.«207262_g39728447488703_cont_8to1_b_1934_40_alg».proof.Proof.ScRed40
import proofs.«207262_g39728447488703_cont_8to1_b_1934_40_alg».proof.Proof.ScRed41
import proofs.«207262_g39728447488703_cont_8to1_b_1934_40_alg».proof.Proof.ScRed42
import proofs.«207262_g39728447488703_cont_8to1_b_1934_40_alg».proof.Proof.ScRed43
import proofs.«207262_g39728447488703_cont_8to1_b_1934_40_alg».proof.Proof.ScRed44
import proofs.«207262_g39728447488703_cont_8to1_b_1934_40_alg».proof.Proof.ScRed45
import proofs.«207262_g39728447488703_cont_8to1_b_1934_40_alg».proof.Proof.ScRed46
import proofs.«207262_g39728447488703_cont_8to1_b_1934_40_alg».proof.Proof.ScRed47
import proofs.«207262_g39728447488703_cont_8to1_b_1934_40_alg».proof.Proof.ScRed48
import proofs.«207262_g39728447488703_cont_8to1_b_1934_40_alg».proof.Proof.ScRed49
import proofs.«207262_g39728447488703_cont_8to1_b_1934_40_alg».proof.Proof.ScRed50
import proofs.«207262_g39728447488703_cont_8to1_b_1934_40_alg».proof.Proof.ScRed51
import proofs.«207262_g39728447488703_cont_8to1_b_1934_40_alg».proof.Proof.Gen.KernelIdeal.Skeleton
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (d : Dev nD) (L : grid0.Coords)
  (X : Buf (Elt F) ((s0).view.loc (thrOf d L))) (q : PosShare TreeShare) (hX : IdxOK d L s0 X)
  (hXr : (s0).view.read (Elt F) X = idxBuf m d L 2)
  (O : CellTallies nD τ sig (HIx 1)) (W : Waits sig (HIx 1))
include hXr

set_option maxHeartbeats 4000000 in
/-- ONE TRIP at a symbolic `k < 7`: each slot in turn lands its block (the flight consumed: row buffer, block and token
    back), the four segments are summed and their means stored, the slot re-fires the block four ahead (a new flight);
    then the sixteen means are copied out to the chunk, which thereby holds the pooled value. -/
theorem tripLt35 (k : Fin k0_t35_loop.trips) (hk : k.val < 7) :
    resAt m d L cV (m (cLoc d)) s0 X q hX cc0_scoped5 2 O W k.val
      ⊢ wp frame (wpE (defs₀ (F := F)) 𝒱₀ (thrOf d L) none) Set.univ
          (k0_t35_body L aV (Memref.isWhole_whole _) bV (Memref.isWhole_whole _) cV (Memref.isWhole_whole _) iV (Memref.isWhole_whole _) oV (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) cc0_scratch7 cc0_scratch8 cc0_scratch9 cc0_scratch10 cc0_scoped0 cc0_scoped1 cc0_scoped2 cc0_scoped3 cc0_scoped4 cc0_scoped5 k ())
          (fun _ => resAt m d L cV (m (cLoc d)) s0 X q hX cc0_scoped5 2 O W (k.val + 1)) := by
  have hk8 : k.val < 8 := by omega
  have l0 : 4 * k.val + 0 < 32 := by omega
  have l1 : 4 * k.val + 1 < 32 := by omega
  have l2 : 4 * k.val + 2 < 32 := by omega
  have l3 : 4 * k.val + 3 < 32 := by omega
  have n0 : 4 * (k.val + 1) + 0 < 32 := by omega
  have n1 : 4 * (k.val + 1) + 1 < 32 := by omega
  have n2 : 4 * (k.val + 1) + 2 < 32 := by omega
  have n3 : 4 * (k.val + 1) + 3 < 32 := by omega
  unfold resAt ringAt
  rw [chunk_homes_here _ k.val hk, chunk_homes_next _ k.val hk, plane_here m d L 2 k.val hk8, plane_next m d L 2 k.val hk8]
  simp only [slotAt, l0, l1, l2, l3, n0, n1, n2, n3, ↓reduceIte, bk32_next]
  iintro ⟨⟨⟨Hh0, Hh1, Hh2, Hh3, Hrest⟩, ⟨%f0, HF0, HT0⟩, ⟨%f1, HF1, HT1⟩, ⟨%f2, HF2, HT2⟩, ⟨%f3, HF3, HT3⟩⟩, ⟨%f6, H6⟩, Hc5, ⟨⟨%fo, Ho⟩, Hpl⟩, Hmw, ⟨%W', %hW', HO⟩⟩
  have hc17 := (cond17_iff k).2 hk
  have hc18 := (cond18_iff k).2 hk
  have hc19 := (cond19_iff k).2 hk
  have hc20 := (cond20_iff k).2 hk
  have hin0 : ∀ x, ((blk s0 (Ring.bk 32 (4 * k.val + 0 + 4))).view.read (Elt F) X x).toNat < S100000x128.size gathers_S100000x128_S200x128.axis := hX _
  have hin1 : ∀ x, ((blk s0 (Ring.bk 32 (4 * k.val + 1 + 4))).view.read (Elt F) X x).toNat < S100000x128.size gathers_S100000x128_S200x128.axis := hX _
  have hin2 : ∀ x, ((blk s0 (Ring.bk 32 (4 * k.val + 2 + 4))).view.read (Elt F) X x).toNat < S100000x128.size gathers_S100000x128_S200x128.axis := hX _
  have hin3 : ∀ x, ((blk s0 (Ring.bk 32 (4 * k.val + 3 + 4))).view.read (Elt F) X x).toNat < S100000x128.size gathers_S100000x128_S200x128.axis := hX _
  have hW5 : ∀ p ∈ (insert ((SemLoc.dma cc0_scoped5.sem : SemLoc sig), (default : HIx 1)) (insert ((SemLoc.dma cc0_scratch10.sem : SemLoc sig), (default : HIx 1))
      (insert ((SemLoc.dma cc0_scratch9.sem : SemLoc sig), (default : HIx 1)) (insert ((SemLoc.dma cc0_scratch8.sem : SemLoc sig), (default : HIx 1))
        (insert ((SemLoc.dma cc0_scratch7.sem : SemLoc sig), (default : HIx 1)) W'))))), p ∈ W ∨ p.2 = none := by
    intro p hp
    simp only [Finset.mem_insert] at hp
    rcases hp with rfl | rfl | rfl | rfl | rfl | hp
    · exact Or.inr rfl
    · exact Or.inr rfl
    · exact Or.inr rfl
    · exact Or.inr rfl
    · exact Or.inr rfl
    · exact hW' p hp
  clear hk8 l0 l1 l2 l3 n0 n1 n2 n3
  unfold Gen.k0_t35_body
  sl_exec
  sl_step
  -- the chunk, written with the scratch's sixteen means, holds the pooled value: each of the 128 lane stores is a piece
  -- of the chunk's pooled rows, and the 128 rectangles tile the scratch
  have hG : ∀ p ∈ tripLt35.sl.H6_128 m d L X hX k, ∀ x : p.1.shape.Idx,
      p.2 x = chunkG m d L (m (aLoc d)) (m (bLoc d)) (m (cLoc d)) 2 (Ring.bk 8 k.val) (p.1.emb x) := by
    sl_unfold_run_names
    have hk8 : k.val = (Ring.bk 8 k.val).val := (bk8_val (trips35 k)).symm
    refine List.forall_mem_cons.2 ⟨fun x => piece_ok_s5 m d L cV (m (cLoc d)) s0 X hX (m (aLoc d)) (m (bLoc d)) (m (cLoc d)) 2 rfl hXr (s5).view.junk (Ring.bk 8 k.val) 3 3 7 k.val 3 hk8 rfl _ k0_t51_trips _ rfl ![15, 112] rfl rfl inb_S16x128_S1x16_15_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 6 k.val 3 hk8 rfl _ k0_t51_trips _ rfl ![15, 96] rfl rfl inb_S16x128_S1x16_15_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 5 k.val 3 hk8 rfl _ k0_t51_trips _ rfl ![15, 80] rfl rfl inb_S16x128_S1x16_15_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 4 k.val 3 hk8 rfl _ k0_t51_trips _ rfl ![15, 64] rfl rfl inb_S16x128_S1x16_15_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 3 k.val 3 hk8 rfl _ k0_t51_trips _ rfl ![15, 48] rfl rfl inb_S16x128_S1x16_15_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 2 k.val 3 hk8 rfl _ k0_t51_trips _ rfl ![15, 32] rfl rfl inb_S16x128_S1x16_15_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 1 k.val 3 hk8 rfl _ k0_t51_trips _ rfl ![15, 16] rfl rfl inb_S16x128_S1x16_15_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 0 k.val 3 hk8 rfl _ k0_t51_trips _ rfl ![15, 0] rfl rfl inb_S16x128_S1x16_15_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 7 k.val 3 hk8 rfl _ k0_t50_trips _ rfl ![14, 112] rfl rfl inb_S16x128_S1x16_14_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 6 k.val 3 hk8 rfl _ k0_t50_trips _ rfl ![14, 96] rfl rfl inb_S16x128_S1x16_14_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 5 k.val 3 hk8 rfl _ k0_t50_trips _ rfl ![14, 80] rfl rfl inb_S16x128_S1x16_14_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 4 k.val 3 hk8 rfl _ k0_t50_trips _ rfl ![14, 64] rfl rfl inb_S16x128_S1x16_14_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 3 k.val 3 hk8 rfl _ k0_t50_trips _ rfl ![14, 48] rfl rfl inb_S16x128_S1x16_14_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 2 k.val 3 hk8 rfl _ k0_t50_trips _ rfl ![14, 32] rfl rfl inb_S16x128_S1x16_14_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 1 k.val 3 hk8 rfl _ k0_t50_trips _ rfl ![14, 16] rfl rfl inb_S16x128_S1x16_14_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 0 k.val 3 hk8 rfl _ k0_t50_trips _ rfl ![14, 0] rfl rfl inb_S16x128_S1x16_14_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 7 k.val 3 hk8 rfl _ k0_t49_trips _ rfl ![13, 112] rfl rfl inb_S16x128_S1x16_13_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 6 k.val 3 hk8 rfl _ k0_t49_trips _ rfl ![13, 96] rfl rfl inb_S16x128_S1x16_13_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 5 k.val 3 hk8 rfl _ k0_t49_trips _ rfl ![13, 80] rfl rfl inb_S16x128_S1x16_13_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 4 k.val 3 hk8 rfl _ k0_t49_trips _ rfl ![13, 64] rfl rfl inb_S16x128_S1x16_13_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 3 k.val 3 hk8 rfl _ k0_t49_trips _ rfl ![13, 48] rfl rfl inb_S16x128_S1x16_13_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 2 k.val 3 hk8 rfl _ k0_t49_trips _ rfl ![13, 32] rfl rfl inb_S16x128_S1x16_13_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 1 k.val 3 hk8 rfl _ k0_t49_trips _ rfl ![13, 16] rfl rfl inb_S16x128_S1x16_13_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 0 k.val 3 hk8 rfl _ k0_t49_trips _ rfl ![13, 0] rfl rfl inb_S16x128_S1x16_13_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 7 k.val 3 hk8 rfl _ k0_t48_trips _ rfl ![12, 112] rfl rfl inb_S16x128_S1x16_12_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 6 k.val 3 hk8 rfl _ k0_t48_trips _ rfl ![12, 96] rfl rfl inb_S16x128_S1x16_12_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 5 k.val 3 hk8 rfl _ k0_t48_trips _ rfl ![12, 80] rfl rfl inb_S16x128_S1x16_12_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 4 k.val 3 hk8 rfl _ k0_t48_trips _ rfl ![12, 64] rfl rfl inb_S16x128_S1x16_12_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 3 k.val 3 hk8 rfl _ k0_t48_trips _ rfl ![12, 48] rfl rfl inb_S16x128_S1x16_12_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 2 k.val 3 hk8 rfl _ k0_t48_trips _ rfl ![12, 32] rfl rfl inb_S16x128_S1x16_12_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 1 k.val 3 hk8 rfl _ k0_t48_trips _ rfl ![12, 16] rfl rfl inb_S16x128_S1x16_12_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 0 k.val 3 hk8 rfl _ k0_t48_trips _ rfl ![12, 0] rfl rfl inb_S16x128_S1x16_12_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 7 k.val 2 hk8 rfl _ k0_t47_trips _ rfl ![11, 112] rfl rfl inb_S16x128_S1x16_11_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 6 k.val 2 hk8 rfl _ k0_t47_trips _ rfl ![11, 96] rfl rfl inb_S16x128_S1x16_11_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 5 k.val 2 hk8 rfl _ k0_t47_trips _ rfl ![11, 80] rfl rfl inb_S16x128_S1x16_11_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 4 k.val 2 hk8 rfl _ k0_t47_trips _ rfl ![11, 64] rfl rfl inb_S16x128_S1x16_11_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 3 k.val 2 hk8 rfl _ k0_t47_trips _ rfl ![11, 48] rfl rfl inb_S16x128_S1x16_11_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 2 k.val 2 hk8 rfl _ k0_t47_trips _ rfl ![11, 32] rfl rfl inb_S16x128_S1x16_11_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 1 k.val 2 hk8 rfl _ k0_t47_trips _ rfl ![11, 16] rfl rfl inb_S16x128_S1x16_11_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 0 k.val 2 hk8 rfl _ k0_t47_trips _ rfl ![11, 0] rfl rfl inb_S16x128_S1x16_11_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 7 k.val 2 hk8 rfl _ k0_t46_trips _ rfl ![10, 112] rfl rfl inb_S16x128_S1x16_10_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 6 k.val 2 hk8 rfl _ k0_t46_trips _ rfl ![10, 96] rfl rfl inb_S16x128_S1x16_10_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 5 k.val 2 hk8 rfl _ k0_t46_trips _ rfl ![10, 80] rfl rfl inb_S16x128_S1x16_10_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 4 k.val 2 hk8 rfl _ k0_t46_trips _ rfl ![10, 64] rfl rfl inb_S16x128_S1x16_10_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 3 k.val 2 hk8 rfl _ k0_t46_trips _ rfl ![10, 48] rfl rfl inb_S16x128_S1x16_10_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 2 k.val 2 hk8 rfl _ k0_t46_trips _ rfl ![10, 32] rfl rfl inb_S16x128_S1x16_10_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 1 k.val 2 hk8 rfl _ k0_t46_trips _ rfl ![10, 16] rfl rfl inb_S16x128_S1x16_10_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 0 k.val 2 hk8 rfl _ k0_t46_trips _ rfl ![10, 0] rfl rfl inb_S16x128_S1x16_10_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 7 k.val 2 hk8 rfl _ k0_t45_trips _ rfl ![9, 112] rfl rfl inb_S16x128_S1x16_9_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 6 k.val 2 hk8 rfl _ k0_t45_trips _ rfl ![9, 96] rfl rfl inb_S16x128_S1x16_9_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 5 k.val 2 hk8 rfl _ k0_t45_trips _ rfl ![9, 80] rfl rfl inb_S16x128_S1x16_9_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 4 k.val 2 hk8 rfl _ k0_t45_trips _ rfl ![9, 64] rfl rfl inb_S16x128_S1x16_9_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 3 k.val 2 hk8 rfl _ k0_t45_trips _ rfl ![9, 48] rfl rfl inb_S16x128_S1x16_9_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 2 k.val 2 hk8 rfl _ k0_t45_trips _ rfl ![9, 32] rfl rfl inb_S16x128_S1x16_9_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 1 k.val 2 hk8 rfl _ k0_t45_trips _ rfl ![9, 16] rfl rfl inb_S16x128_S1x16_9_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 0 k.val 2 hk8 rfl _ k0_t45_trips _ rfl ![9, 0] rfl rfl inb_S16x128_S1x16_9_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 7 k.val 2 hk8 rfl _ k0_t44_trips _ rfl ![8, 112] rfl rfl inb_S16x128_S1x16_8_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 6 k.val 2 hk8 rfl _ k0_t44_trips _ rfl ![8, 96] rfl rfl inb_S16x128_S1x16_8_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 5 k.val 2 hk8 rfl _ k0_t44_trips _ rfl ![8, 80] rfl rfl inb_S16x128_S1x16_8_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 4 k.val 2 hk8 rfl _ k0_t44_trips _ rfl ![8, 64] rfl rfl inb_S16x128_S1x16_8_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 3 k.val 2 hk8 rfl _ k0_t44_trips _ rfl ![8, 48] rfl rfl inb_S16x128_S1x16_8_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 2 k.val 2 hk8 rfl _ k0_t44_trips _ rfl ![8, 32] rfl rfl inb_S16x128_S1x16_8_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 1 k.val 2 hk8 rfl _ k0_t44_trips _ rfl ![8, 16] rfl rfl inb_S16x128_S1x16_8_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 0 k.val 2 hk8 rfl _ k0_t44_trips _ rfl ![8, 0] rfl rfl inb_S16x128_S1x16_8_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 7 k.val 1 hk8 rfl _ k0_t43_trips _ rfl ![7, 112] rfl rfl inb_S16x128_S1x16_7_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 6 k.val 1 hk8 rfl _ k0_t43_trips _ rfl ![7, 96] rfl rfl inb_S16x128_S1x16_7_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 5 k.val 1 hk8 rfl _ k0_t43_trips _ rfl ![7, 80] rfl rfl inb_S16x128_S1x16_7_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 4 k.val 1 hk8 rfl _ k0_t43_trips _ rfl ![7, 64] rfl rfl inb_S16x128_S1x16_7_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 3 k.val 1 hk8 rfl _ k0_t43_trips _ rfl ![7, 48] rfl rfl inb_S16x128_S1x16_7_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 2 k.val 1 hk8 rfl _ k0_t43_trips _ rfl ![7, 32] rfl rfl inb_S16x128_S1x16_7_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 1 k.val 1 hk8 rfl _ k0_t43_trips _ rfl ![7, 16] rfl rfl inb_S16x128_S1x16_7_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 0 k.val 1 hk8 rfl _ k0_t43_trips _ rfl ![7, 0] rfl rfl inb_S16x128_S1x16_7_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 7 k.val 1 hk8 rfl _ k0_t42_trips _ rfl ![6, 112] rfl rfl inb_S16x128_S1x16_6_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 6 k.val 1 hk8 rfl _ k0_t42_trips _ rfl ![6, 96] rfl rfl inb_S16x128_S1x16_6_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 5 k.val 1 hk8 rfl _ k0_t42_trips _ rfl ![6, 80] rfl rfl inb_S16x128_S1x16_6_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 4 k.val 1 hk8 rfl _ k0_t42_trips _ rfl ![6, 64] rfl rfl inb_S16x128_S1x16_6_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 3 k.val 1 hk8 rfl _ k0_t42_trips _ rfl ![6, 48] rfl rfl inb_S16x128_S1x16_6_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 2 k.val 1 hk8 rfl _ k0_t42_trips _ rfl ![6, 32] rfl rfl inb_S16x128_S1x16_6_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 1 k.val 1 hk8 rfl _ k0_t42_trips _ rfl ![6, 16] rfl rfl inb_S16x128_S1x16_6_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 0 k.val 1 hk8 rfl _ k0_t42_trips _ rfl ![6, 0] rfl rfl inb_S16x128_S1x16_6_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 7 k.val 1 hk8 rfl _ k0_t41_trips _ rfl ![5, 112] rfl rfl inb_S16x128_S1x16_5_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 6 k.val 1 hk8 rfl _ k0_t41_trips _ rfl ![5, 96] rfl rfl inb_S16x128_S1x16_5_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 5 k.val 1 hk8 rfl _ k0_t41_trips _ rfl ![5, 80] rfl rfl inb_S16x128_S1x16_5_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 4 k.val 1 hk8 rfl _ k0_t41_trips _ rfl ![5, 64] rfl rfl inb_S16x128_S1x16_5_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 3 k.val 1 hk8 rfl _ k0_t41_trips _ rfl ![5, 48] rfl rfl inb_S16x128_S1x16_5_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 2 k.val 1 hk8 rfl _ k0_t41_trips _ rfl ![5, 32] rfl rfl inb_S16x128_S1x16_5_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 1 k.val 1 hk8 rfl _ k0_t41_trips _ rfl ![5, 16] rfl rfl inb_S16x128_S1x16_5_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 0 k.val 1 hk8 rfl _ k0_t41_trips _ rfl ![5, 0] rfl rfl inb_S16x128_S1x16_5_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 7 k.val 1 hk8 rfl _ k0_t40_trips _ rfl ![4, 112] rfl rfl inb_S16x128_S1x16_4_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 6 k.val 1 hk8 rfl _ k0_t40_trips _ rfl ![4, 96] rfl rfl inb_S16x128_S1x16_4_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 5 k.val 1 hk8 rfl _ k0_t40_trips _ rfl ![4, 80] rfl rfl inb_S16x128_S1x16_4_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 4 k.val 1 hk8 rfl _ k0_t40_trips _ rfl ![4, 64] rfl rfl inb_S16x128_S1x16_4_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 3 k.val 1 hk8 rfl _ k0_t40_trips _ rfl ![4, 48] rfl rfl inb_S16x128_S1x16_4_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 2 k.val 1 hk8 rfl _ k0_t40_trips _ rfl ![4, 32] rfl rfl inb_S16x128_S1x16_4_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 1 k.val 1 hk8 rfl _ k0_t40_trips _ rfl ![4, 16] rfl rfl inb_S16x128_S1x16_4_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 0 k.val 1 hk8 rfl _ k0_t40_trips _ rfl ![4, 0] rfl rfl inb_S16x128_S1x16_4_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 7 k.val 0 hk8 rfl _ k0_t39_trips _ rfl ![3, 112] rfl rfl inb_S16x128_S1x16_3_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 6 k.val 0 hk8 rfl _ k0_t39_trips _ rfl ![3, 96] rfl rfl inb_S16x128_S1x16_3_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 5 k.val 0 hk8 rfl _ k0_t39_trips _ rfl ![3, 80] rfl rfl inb_S16x128_S1x16_3_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 4 k.val 0 hk8 rfl _ k0_t39_trips _ rfl ![3, 64] rfl rfl inb_S16x128_S1x16_3_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 3 k.val 0 hk8 rfl _ k0_t39_trips _ rfl ![3, 48] rfl rfl inb_S16x128_S1x16_3_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 2 k.val 0 hk8 rfl _ k0_t39_trips _ rfl ![3, 32] rfl rfl inb_S16x128_S1x16_3_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 1 k.val 0 hk8 rfl _ k0_t39_trips _ rfl ![3, 16] rfl rfl inb_S16x128_S1x16_3_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 0 k.val 0 hk8 rfl _ k0_t39_trips _ rfl ![3, 0] rfl rfl inb_S16x128_S1x16_3_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 7 k.val 0 hk8 rfl _ k0_t38_trips _ rfl ![2, 112] rfl rfl inb_S16x128_S1x16_2_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 6 k.val 0 hk8 rfl _ k0_t38_trips _ rfl ![2, 96] rfl rfl inb_S16x128_S1x16_2_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 5 k.val 0 hk8 rfl _ k0_t38_trips _ rfl ![2, 80] rfl rfl inb_S16x128_S1x16_2_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 4 k.val 0 hk8 rfl _ k0_t38_trips _ rfl ![2, 64] rfl rfl inb_S16x128_S1x16_2_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 3 k.val 0 hk8 rfl _ k0_t38_trips _ rfl ![2, 48] rfl rfl inb_S16x128_S1x16_2_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 2 k.val 0 hk8 rfl _ k0_t38_trips _ rfl ![2, 32] rfl rfl inb_S16x128_S1x16_2_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 1 k.val 0 hk8 rfl _ k0_t38_trips _ rfl ![2, 16] rfl rfl inb_S16x128_S1x16_2_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 0 k.val 0 hk8 rfl _ k0_t38_trips _ rfl ![2, 0] rfl rfl inb_S16x128_S1x16_2_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 7 k.val 0 hk8 rfl _ k0_t37_trips _ rfl ![1, 112] rfl rfl inb_S16x128_S1x16_1_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 6 k.val 0 hk8 rfl _ k0_t37_trips _ rfl ![1, 96] rfl rfl inb_S16x128_S1x16_1_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 5 k.val 0 hk8 rfl _ k0_t37_trips _ rfl ![1, 80] rfl rfl inb_S16x128_S1x16_1_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 4 k.val 0 hk8 rfl _ k0_t37_trips _ rfl ![1, 64] rfl rfl inb_S16x128_S1x16_1_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 3 k.val 0 hk8 rfl _ k0_t37_trips _ rfl ![1, 48] rfl rfl inb_S16x128_S1x16_1_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 2 k.val 0 hk8 rfl _ k0_t37_trips _ rfl ![1, 32] rfl rfl inb_S16x128_S1x16_1_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 1 k.val 0 hk8 rfl _ k0_t37_trips _ rfl ![1, 16] rfl rfl inb_S16x128_S1x16_1_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 0 k.val 0 hk8 rfl _ k0_t37_trips _ rfl ![1, 0] rfl rfl inb_S16x128_S1x16_1_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 7 k.val 0 hk8 rfl _ k0_t36_trips _ rfl ![0, 112] rfl rfl inb_S16x128_S1x16_0_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 6 k.val 0 hk8 rfl _ k0_t36_trips _ rfl ![0, 96] rfl rfl inb_S16x128_S1x16_0_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 5 k.val 0 hk8 rfl _ k0_t36_trips _ rfl ![0, 80] rfl rfl inb_S16x128_S1x16_0_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 4 k.val 0 hk8 rfl _ k0_t36_trips _ rfl ![0, 64] rfl rfl inb_S16x128_S1x16_0_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 3 k.val 0 hk8 rfl _ k0_t36_trips _ rfl ![0, 48] rfl rfl inb_S16x128_S1x16_0_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 2 k.val 0 hk8 rfl _ k0_t36_trips _ rfl ![0, 32] rfl rfl inb_S16x128_S1x16_0_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 1 k.val 0 hk8 rfl _ k0_t36_trips _ rfl ![0, 16] rfl rfl inb_S16x128_S1x16_0_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 0 k.val 0 hk8 rfl _ k0_t36_trips _ rfl ![0, 0] rfl rfl inb_S16x128_S1x16_0_0 x, ?_⟩
    exact List.forall_mem_nil _
  have hcov : ∀ y : S16x128.Idx, ∃ p ∈ tripLt35.sl.H6_128 m d L X hX k, y ∈ p.1.set := by
    sl_unfold_run_names
    exact View.cover_of_tiled _ S1x16.size rfl
  ihave Ho2 := (Entails.of_eq (trip_close m d L 2 (Ring.bk 8 k.val) s6 f6 _ fo hG hcov (tripLt35.sl.dma16 m d L X hX k f6) rfl)) $$ Ho
  clear hG hcov
  -- the blocks the trip landed, the rest
  isplitl [HF0_dst_and HF1_dst_and HF2_dst_and HF3_dst_and Hrest HF0 HT0 HF1 HT1 HF2 HT2 HF3 HT3]
  · isplitl [HF0_dst_and HF1_dst_and HF2_dst_and HF3_dst_and Hrest]
    · isplitl [HF0_dst_and]; · iexact HF0_dst_and
      isplitl [HF1_dst_and]; · iexact HF1_dst_and
      isplitl [HF2_dst_and]; · iexact HF2_dst_and
      isplitl [HF3_dst_and]; · iexact HF3_dst_and
      iexact Hrest
    isplitl [HF0 HT0]
    · iexists (s2.view.writes (Elt F) s2.view.junk [⟨Rect.whole S200x128, gathered d L cV (m (cLoc d)) s0 X hX (Ring.bk 32 (4 * k.val + 0))⟩])
      irw [flightP_after]
      isplitl [HF0]; · iexact HF0
      iexact HT0
    isplitl [HF1 HT1]
    · iexists (s3.view.writes (Elt F) s3.view.junk [⟨Rect.whole S200x128, gathered d L cV (m (cLoc d)) s0 X hX (Ring.bk 32 (4 * k.val + 1))⟩])
      irw [flightP_after]
      isplitl [HF1]; · iexact HF1
      iexact HT1
    isplitl [HF2 HT2]
    · iexists (s4.view.writes (Elt F) s4.view.junk [⟨Rect.whole S200x128, gathered d L cV (m (cLoc d)) s0 X hX (Ring.bk 32 (4 * k.val + 2))⟩])
      irw [flightP_after]
      isplitl [HF2]; · iexact HF2
      iexact HT2
    iexists (s5.view.writes (Elt F) s5.view.junk [⟨Rect.whole S200x128, gathered d L cV (m (cLoc d)) s0 X hX (Ring.bk 32 (4 * k.val + 3))⟩])
    irw [flightP_after]
    isplitl [HF3]; · iexact HF3
    iexact HT3
  isplitl [H6]; · iexists _; iexact H6
  isplitl [Hc5]; · iexact Hc5
  isplitl [Ho2 Hpl]
  · isplitl [Ho2]; · iexact Ho2
    iexact Hpl
  isplitl [Hmw]; · iexact Hmw
  iexists _
  isplitr
  · ipureintro; exact hW5
  · iexact HO

end Cert.KernelIdeal.Sc

end
-- ==== Proof.ScPhase2Last.lean ====
/-
  The last trip of the third chunk loop of a vector subcore (the third table's plane, chunk 7).

  Before it the four ring slots are in flight with the last four blocks of the first index buffer, every other block is
  home, and chunks 0 … 6 of the plane hold the pooled value. The trip lands the four blocks in turn, sums each row
  buffer's four segments and stores their means into the sixteen-row scratch; no block is left to fire, so each slot is
  idle from then on (its cell at zero, its row buffer and its read token of the table back whole); the sixteen means
  are copied out to chunk 7, which thereby holds the pooled value; every block of the index buffer is home again.
-/
import proofs.«207262_g39728447488703_cont_8to1_b_1934_40_alg».proof.Proof.ScRing
import proofs.«207262_g39728447488703_cont_8to1_b_1934_40_alg».proof.Proof.ScCanonSets
import proofs.«207262_g39728447488703_cont_8to1_b_1934_40_alg».proof.Proof.ScTripClose
import proofs.«207262_g39728447488703_cont_8to1_b_1934_40_alg».proof.Proof.ScRed36
import proofs.«207262_g39728447488703_cont_8to1_b_1934_40_alg».proof.Proof.ScRed37
import proofs.«207262_g39728447488703_cont_8to1_b_1934_40_alg».proof.Proof.ScRed38
import proofs.«207262_g39728447488703_cont_8to1_b_1934_40_alg».proof.Proof.ScRed39
import proofs.«207262_g39728447488703_cont_8to1_b_1934_40_alg».proof.Proof.ScRed40
import proofs.«207262_g39728447488703_cont_8to1_b_1934_40_alg».proof.Proof.ScRed41
import proofs.«207262_g39728447488703_cont_8to1_b_1934_40_alg».proof.Proof.ScRed42
import proofs.«207262_g39728447488703_cont_8to1_b_1934_40_alg».proof.Proof.ScRed43
import proofs.«207262_g39728447488703_cont_8to1_b_1934_40_alg».proof.Proof.ScRed44
import proofs.«207262_g39728447488703_cont_8to1_b_1934_40_alg».proof.Proof.ScRed45
import proofs.«207262_g39728447488703_cont_8to1_b_1934_40_alg».proof.Proof.ScRed46
import proofs.«207262_g39728447488703_cont_8to1_b_1934_40_alg».proof.Proof.ScRed47
import proofs.«207262_g39728447488703_cont_8to1_b_1934_40_alg».proof.Proof.ScRed48
import proofs.«207262_g39728447488703_cont_8to1_b_1934_40_alg».proof.Proof.ScRed49
import proofs.«207262_g39728447488703_cont_8to1_b_1934_40_alg».proof.Proof.ScRed50
import proofs.«207262_g39728447488703_cont_8to1_b_1934_40_alg».proof.Proof.ScRed51
import proofs.«207262_g39728447488703_cont_8to1_b_1934_40_alg».proof.Proof.Gen.KernelIdeal.Skeleton
import Idealize.ShloMosaic.Lib.Tactic

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (d : Dev nD) (L : grid0.Coords)
  (X : Buf (Elt F) ((s0).view.loc (thrOf d L))) (q : PosShare TreeShare) (hX : IdxOK d L s0 X)
  (hXr : (s0).view.read (Elt F) X = idxBuf m d L 2)
  (O : CellTallies nD τ sig (HIx 1)) (W : Waits sig (HIx 1))
include hXr

set_option maxHeartbeats 4000000 in
/-- THE LAST TRIP (`k = 7`): each slot lands its block and is idle from then on (no block is left to fire); the sixteen
    means are copied out to the last chunk; every block is home again. -/
theorem tripLast35 (k : Fin k0_t35_loop.trips) (hk : ¬ k.val < 7) :
    resAt m d L cV (m (cLoc d)) s0 X q hX cc0_scoped5 2 O W k.val
      ⊢ wp frame (wpE (defs₀ (F := F)) 𝒱₀ (thrOf d L) none) Set.univ
          (k0_t35_body L aV (Memref.isWhole_whole _) bV (Memref.isWhole_whole _) cV (Memref.isWhole_whole _) iV (Memref.isWhole_whole _) oV (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) cc0_scratch7 cc0_scratch8 cc0_scratch9 cc0_scratch10 cc0_scoped0 cc0_scoped1 cc0_scoped2 cc0_scoped3 cc0_scoped4 cc0_scoped5 k ())
          (fun _ => resAt m d L cV (m (cLoc d)) s0 X q hX cc0_scoped5 2 O W (k.val + 1)) := by
  have hk8 : k.val < 8 := trips35 k
  have hk7 : k.val = 7 := by omega
  have l0 : 4 * k.val + 0 < 32 := by omega
  have l1 : 4 * k.val + 1 < 32 := by omega
  have l2 : 4 * k.val + 2 < 32 := by omega
  have l3 : 4 * k.val + 3 < 32 := by omega
  have g0 : ¬ 4 * (k.val + 1) + 0 < 32 := by omega
  have g1 : ¬ 4 * (k.val + 1) + 1 < 32 := by omega
  have g2 : ¬ 4 * (k.val + 1) + 2 < 32 := by omega
  have g3 : ¬ 4 * (k.val + 1) + 3 < 32 := by omega
  unfold resAt ringAt
  rw [chunk_homes_last' _ k.val hk7, plane_here m d L 2 k.val hk8, plane_next m d L 2 k.val hk8]
  simp only [slotAt, l0, l1, l2, l3, g0, g1, g2, g3, ↓reduceIte]
  iintro ⟨⟨Hhome, ⟨%f0, HF0, HT0⟩, ⟨%f1, HF1, HT1⟩, ⟨%f2, HF2, HT2⟩, ⟨%f3, HF3, HT3⟩⟩, ⟨%f6, H6⟩, Hc5, ⟨⟨%fo, Ho⟩, Hpl⟩, Hmw, ⟨%W', %hW', HO⟩⟩
  have hc17 : ¬ k0_cond17 k = 1#1 := fun h => hk ((cond17_iff k).1 h)
  have hc18 : ¬ k0_cond18 k = 1#1 := fun h => hk ((cond18_iff k).1 h)
  have hc19 : ¬ k0_cond19 k = 1#1 := fun h => hk ((cond19_iff k).1 h)
  have hc20 : ¬ k0_cond20 k = 1#1 := fun h => hk ((cond20_iff k).1 h)
  have hW5 : ∀ p ∈ (insert ((SemLoc.dma cc0_scoped5.sem : SemLoc sig), (default : HIx 1)) (insert ((SemLoc.dma cc0_scratch10.sem : SemLoc sig), (default : HIx 1))
      (insert ((SemLoc.dma cc0_scratch9.sem : SemLoc sig), (default : HIx 1)) (insert ((SemLoc.dma cc0_scratch8.sem : SemLoc sig), (default : HIx 1))
        (insert ((SemLoc.dma cc0_scratch7.sem : SemLoc sig), (default : HIx 1)) W'))))), p ∈ W ∨ p.2 = none := by
    intro p hp
    simp only [Finset.mem_insert] at hp
    rcases hp with rfl | rfl | rfl | rfl | rfl | hp
    · exact Or.inr rfl
    · exact Or.inr rfl
    · exact Or.inr rfl
    · exact Or.inr rfl
    · exact Or.inr rfl
    · exact hW' p hp
  clear hk8 l0 l1 l2 l3 g0 g1 g2 g3
  unfold Gen.k0_t35_body
  sl_exec
  sl_step
  -- the chunk, written with the scratch's sixteen means, holds the pooled value: the 128 lane stores, newest first, each
  -- the piece of the chunk's pooled rows at its own row (slot, segment) and column block
  have hG : ∀ p ∈ tripLast35.sl.H6_128 m d L X hX k, ∀ x : p.1.shape.Idx,
      p.2 x = chunkG m d L (m (aLoc d)) (m (bLoc d)) (m (cLoc d)) 2 (Ring.bk 8 k.val) (p.1.emb x) := by
    sl_unfold_run_names
    have hk8 : k.val = (Ring.bk 8 k.val).val := (bk8_val (trips35 k)).symm
    refine List.forall_mem_cons.2 ⟨fun x => piece_ok_s5 m d L cV (m (cLoc d)) s0 X hX (m (aLoc d)) (m (bLoc d)) (m (cLoc d)) 2 rfl hXr (s5).view.junk (Ring.bk 8 k.val) 3 3 7 k.val 3 hk8 rfl _ k0_t51_trips _ rfl ![15, 112] rfl rfl inb_S16x128_S1x16_15_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 6 k.val 3 hk8 rfl _ k0_t51_trips _ rfl ![15, 96] rfl rfl inb_S16x128_S1x16_15_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 5 k.val 3 hk8 rfl _ k0_t51_trips _ rfl ![15, 80] rfl rfl inb_S16x128_S1x16_15_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 4 k.val 3 hk8 rfl _ k0_t51_trips _ rfl ![15, 64] rfl rfl inb_S16x128_S1x16_15_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 3 k.val 3 hk8 rfl _ k0_t51_trips _ rfl ![15, 48] rfl rfl inb_S16x128_S1x16_15_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 2 k.val 3 hk8 rfl _ k0_t51_trips _ rfl ![15, 32] rfl rfl inb_S16x128_S1x16_15_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 1 k.val 3 hk8 rfl _ k0_t51_trips _ rfl ![15, 16] rfl rfl inb_S16x128_S1x16_15_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 0 k.val 3 hk8 rfl _ k0_t51_trips _ rfl ![15, 0] rfl rfl inb_S16x128_S1x16_15_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 7 k.val 3 hk8 rfl _ k0_t50_trips _ rfl ![14, 112] rfl rfl inb_S16x128_S1x16_14_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 6 k.val 3 hk8 rfl _ k0_t50_trips _ rfl ![14, 96] rfl rfl inb_S16x128_S1x16_14_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 5 k.val 3 hk8 rfl _ k0_t50_trips _ rfl ![14, 80] rfl rfl inb_S16x128_S1x16_14_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 4 k.val 3 hk8 rfl _ k0_t50_trips _ rfl ![14, 64] rfl rfl inb_S16x128_S1x16_14_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 3 k.val 3 hk8 rfl _ k0_t50_trips _ rfl ![14, 48] rfl rfl inb_S16x128_S1x16_14_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 2 k.val 3 hk8 rfl _ k0_t50_trips _ rfl ![14, 32] rfl rfl inb_S16x128_S1x16_14_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 1 k.val 3 hk8 rfl _ k0_t50_trips _ rfl ![14, 16] rfl rfl inb_S16x128_S1x16_14_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 0 k.val 3 hk8 rfl _ k0_t50_trips _ rfl ![14, 0] rfl rfl inb_S16x128_S1x16_14_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 7 k.val 3 hk8 rfl _ k0_t49_trips _ rfl ![13, 112] rfl rfl inb_S16x128_S1x16_13_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 6 k.val 3 hk8 rfl _ k0_t49_trips _ rfl ![13, 96] rfl rfl inb_S16x128_S1x16_13_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 5 k.val 3 hk8 rfl _ k0_t49_trips _ rfl ![13, 80] rfl rfl inb_S16x128_S1x16_13_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 4 k.val 3 hk8 rfl _ k0_t49_trips _ rfl ![13, 64] rfl rfl inb_S16x128_S1x16_13_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 3 k.val 3 hk8 rfl _ k0_t49_trips _ rfl ![13, 48] rfl rfl inb_S16x128_S1x16_13_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 2 k.val 3 hk8 rfl _ k0_t49_trips _ rfl ![13, 32] rfl rfl inb_S16x128_S1x16_13_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 1 k.val 3 hk8 rfl _ k0_t49_trips _ rfl ![13, 16] rfl rfl inb_S16x128_S1x16_13_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 0 k.val 3 hk8 rfl _ k0_t49_trips _ rfl ![13, 0] rfl rfl inb_S16x128_S1x16_13_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 7 k.val 3 hk8 rfl _ k0_t48_trips _ rfl ![12, 112] rfl rfl inb_S16x128_S1x16_12_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 6 k.val 3 hk8 rfl _ k0_t48_trips _ rfl ![12, 96] rfl rfl inb_S16x128_S1x16_12_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 5 k.val 3 hk8 rfl _ k0_t48_trips _ rfl ![12, 80] rfl rfl inb_S16x128_S1x16_12_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 4 k.val 3 hk8 rfl _ k0_t48_trips _ rfl ![12, 64] rfl rfl inb_S16x128_S1x16_12_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 3 k.val 3 hk8 rfl _ k0_t48_trips _ rfl ![12, 48] rfl rfl inb_S16x128_S1x16_12_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 2 k.val 3 hk8 rfl _ k0_t48_trips _ rfl ![12, 32] rfl rfl inb_S16x128_S1x16_12_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 1 k.val 3 hk8 rfl _ k0_t48_trips _ rfl ![12, 16] rfl rfl inb_S16x128_S1x16_12_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 0 k.val 3 hk8 rfl _ k0_t48_trips _ rfl ![12, 0] rfl rfl inb_S16x128_S1x16_12_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 7 k.val 2 hk8 rfl _ k0_t47_trips _ rfl ![11, 112] rfl rfl inb_S16x128_S1x16_11_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 6 k.val 2 hk8 rfl _ k0_t47_trips _ rfl ![11, 96] rfl rfl inb_S16x128_S1x16_11_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 5 k.val 2 hk8 rfl _ k0_t47_trips _ rfl ![11, 80] rfl rfl inb_S16x128_S1x16_11_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 4 k.val 2 hk8 rfl _ k0_t47_trips _ rfl ![11, 64] rfl rfl inb_S16x128_S1x16_11_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 3 k.val 2 hk8 rfl _ k0_t47_trips _ rfl ![11, 48] rfl rfl inb_S16x128_S1x16_11_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 2 k.val 2 hk8 rfl _ k0_t47_trips _ rfl ![11, 32] rfl rfl inb_S16x128_S1x16_11_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 1 k.val 2 hk8 rfl _ k0_t47_trips _ rfl ![11, 16] rfl rfl inb_S16x128_S1x16_11_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 0 k.val 2 hk8 rfl _ k0_t47_trips _ rfl ![11, 0] rfl rfl inb_S16x128_S1x16_11_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 7 k.val 2 hk8 rfl _ k0_t46_trips _ rfl ![10, 112] rfl rfl inb_S16x128_S1x16_10_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 6 k.val 2 hk8 rfl _ k0_t46_trips _ rfl ![10, 96] rfl rfl inb_S16x128_S1x16_10_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 5 k.val 2 hk8 rfl _ k0_t46_trips _ rfl ![10, 80] rfl rfl inb_S16x128_S1x16_10_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 4 k.val 2 hk8 rfl _ k0_t46_trips _ rfl ![10, 64] rfl rfl inb_S16x128_S1x16_10_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 3 k.val 2 hk8 rfl _ k0_t46_trips _ rfl ![10, 48] rfl rfl inb_S16x128_S1x16_10_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 2 k.val 2 hk8 rfl _ k0_t46_trips _ rfl ![10, 32] rfl rfl inb_S16x128_S1x16_10_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 1 k.val 2 hk8 rfl _ k0_t46_trips _ rfl ![10, 16] rfl rfl inb_S16x128_S1x16_10_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 0 k.val 2 hk8 rfl _ k0_t46_trips _ rfl ![10, 0] rfl rfl inb_S16x128_S1x16_10_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 7 k.val 2 hk8 rfl _ k0_t45_trips _ rfl ![9, 112] rfl rfl inb_S16x128_S1x16_9_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 6 k.val 2 hk8 rfl _ k0_t45_trips _ rfl ![9, 96] rfl rfl inb_S16x128_S1x16_9_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 5 k.val 2 hk8 rfl _ k0_t45_trips _ rfl ![9, 80] rfl rfl inb_S16x128_S1x16_9_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 4 k.val 2 hk8 rfl _ k0_t45_trips _ rfl ![9, 64] rfl rfl inb_S16x128_S1x16_9_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 3 k.val 2 hk8 rfl _ k0_t45_trips _ rfl ![9, 48] rfl rfl inb_S16x128_S1x16_9_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 2 k.val 2 hk8 rfl _ k0_t45_trips _ rfl ![9, 32] rfl rfl inb_S16x128_S1x16_9_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 1 k.val 2 hk8 rfl _ k0_t45_trips _ rfl ![9, 16] rfl rfl inb_S16x128_S1x16_9_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 0 k.val 2 hk8 rfl _ k0_t45_trips _ rfl ![9, 0] rfl rfl inb_S16x128_S1x16_9_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 7 k.val 2 hk8 rfl _ k0_t44_trips _ rfl ![8, 112] rfl rfl inb_S16x128_S1x16_8_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 6 k.val 2 hk8 rfl _ k0_t44_trips _ rfl ![8, 96] rfl rfl inb_S16x128_S1x16_8_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 5 k.val 2 hk8 rfl _ k0_t44_trips _ rfl ![8, 80] rfl rfl inb_S16x128_S1x16_8_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 4 k.val 2 hk8 rfl _ k0_t44_trips _ rfl ![8, 64] rfl rfl inb_S16x128_S1x16_8_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 3 k.val 2 hk8 rfl _ k0_t44_trips _ rfl ![8, 48] rfl rfl inb_S16x128_S1x16_8_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 2 k.val 2 hk8 rfl _ k0_t44_trips _ rfl ![8, 32] rfl rfl inb_S16x128_S1x16_8_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 1 k.val 2 hk8 rfl _ k0_t44_trips _ rfl ![8, 16] rfl rfl inb_S16x128_S1x16_8_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 0 k.val 2 hk8 rfl _ k0_t44_trips _ rfl ![8, 0] rfl rfl inb_S16x128_S1x16_8_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 7 k.val 1 hk8 rfl _ k0_t43_trips _ rfl ![7, 112] rfl rfl inb_S16x128_S1x16_7_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 6 k.val 1 hk8 rfl _ k0_t43_trips _ rfl ![7, 96] rfl rfl inb_S16x128_S1x16_7_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 5 k.val 1 hk8 rfl _ k0_t43_trips _ rfl ![7, 80] rfl rfl inb_S16x128_S1x16_7_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 4 k.val 1 hk8 rfl _ k0_t43_trips _ rfl ![7, 64] rfl rfl inb_S16x128_S1x16_7_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 3 k.val 1 hk8 rfl _ k0_t43_trips _ rfl ![7, 48] rfl rfl inb_S16x128_S1x16_7_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 2 k.val 1 hk8 rfl _ k0_t43_trips _ rfl ![7, 32] rfl rfl inb_S16x128_S1x16_7_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 1 k.val 1 hk8 rfl _ k0_t43_trips _ rfl ![7, 16] rfl rfl inb_S16x128_S1x16_7_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 0 k.val 1 hk8 rfl _ k0_t43_trips _ rfl ![7, 0] rfl rfl inb_S16x128_S1x16_7_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 7 k.val 1 hk8 rfl _ k0_t42_trips _ rfl ![6, 112] rfl rfl inb_S16x128_S1x16_6_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 6 k.val 1 hk8 rfl _ k0_t42_trips _ rfl ![6, 96] rfl rfl inb_S16x128_S1x16_6_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 5 k.val 1 hk8 rfl _ k0_t42_trips _ rfl ![6, 80] rfl rfl inb_S16x128_S1x16_6_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 4 k.val 1 hk8 rfl _ k0_t42_trips _ rfl ![6, 64] rfl rfl inb_S16x128_S1x16_6_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 3 k.val 1 hk8 rfl _ k0_t42_trips _ rfl ![6, 48] rfl rfl inb_S16x128_S1x16_6_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 2 k.val 1 hk8 rfl _ k0_t42_trips _ rfl ![6, 32] rfl rfl inb_S16x128_S1x16_6_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 1 k.val 1 hk8 rfl _ k0_t42_trips _ rfl ![6, 16] rfl rfl inb_S16x128_S1x16_6_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 0 k.val 1 hk8 rfl _ k0_t42_trips _ rfl ![6, 0] rfl rfl inb_S16x128_S1x16_6_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 7 k.val 1 hk8 rfl _ k0_t41_trips _ rfl ![5, 112] rfl rfl inb_S16x128_S1x16_5_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 6 k.val 1 hk8 rfl _ k0_t41_trips _ rfl ![5, 96] rfl rfl inb_S16x128_S1x16_5_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 5 k.val 1 hk8 rfl _ k0_t41_trips _ rfl ![5, 80] rfl rfl inb_S16x128_S1x16_5_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 4 k.val 1 hk8 rfl _ k0_t41_trips _ rfl ![5, 64] rfl rfl inb_S16x128_S1x16_5_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 3 k.val 1 hk8 rfl _ k0_t41_trips _ rfl ![5, 48] rfl rfl inb_S16x128_S1x16_5_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 2 k.val 1 hk8 rfl _ k0_t41_trips _ rfl ![5, 32] rfl rfl inb_S16x128_S1x16_5_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 1 k.val 1 hk8 rfl _ k0_t41_trips _ rfl ![5, 16] rfl rfl inb_S16x128_S1x16_5_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 0 k.val 1 hk8 rfl _ k0_t41_trips _ rfl ![5, 0] rfl rfl inb_S16x128_S1x16_5_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 7 k.val 1 hk8 rfl _ k0_t40_trips _ rfl ![4, 112] rfl rfl inb_S16x128_S1x16_4_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 6 k.val 1 hk8 rfl _ k0_t40_trips _ rfl ![4, 96] rfl rfl inb_S16x128_S1x16_4_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 5 k.val 1 hk8 rfl _ k0_t40_trips _ rfl ![4, 80] rfl rfl inb_S16x128_S1x16_4_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 4 k.val 1 hk8 rfl _ k0_t40_trips _ rfl ![4, 64] rfl rfl inb_S16x128_S1x16_4_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 3 k.val 1 hk8 rfl _ k0_t40_trips _ rfl ![4, 48] rfl rfl inb_S16x128_S1x16_4_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 2 k.val 1 hk8 rfl _ k0_t40_trips _ rfl ![4, 32] rfl rfl inb_S16x128_S1x16_4_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 1 k.val 1 hk8 rfl _ k0_t40_trips _ rfl ![4, 16] rfl rfl inb_S16x128_S1x16_4_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 0 k.val 1 hk8 rfl _ k0_t40_trips _ rfl ![4, 0] rfl rfl inb_S16x128_S1x16_4_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 7 k.val 0 hk8 rfl _ k0_t39_trips _ rfl ![3, 112] rfl rfl inb_S16x128_S1x16_3_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 6 k.val 0 hk8 rfl _ k0_t39_trips _ rfl ![3, 96] rfl rfl inb_S16x128_S1x16_3_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 5 k.val 0 hk8 rfl _ k0_t39_trips _ rfl ![3, 80] rfl rfl inb_S16x128_S1x16_3_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 4 k.val 0 hk8 rfl _ k0_t39_trips _ rfl ![3, 64] rfl rfl inb_S16x128_S1x16_3_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 3 k.val 0 hk8 rfl _ k0_t39_trips _ rfl ![3, 48] rfl rfl inb_S16x128_S1x16_3_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 2 k.val 0 hk8 rfl _ k0_t39_trips _ rfl ![3, 32] rfl rfl inb_S16x128_S1x16_3_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 1 k.val 0 hk8 rfl _ k0_t39_trips _ rfl ![3, 16] rfl rfl inb_S16x128_S1x16_3_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 0 k.val 0 hk8 rfl _ k0_t39_trips _ rfl ![3, 0] rfl rfl inb_S16x128_S1x16_3_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 7 k.val 0 hk8 rfl _ k0_t38_trips _ rfl ![2, 112] rfl rfl inb_S16x128_S1x16_2_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 6 k.val 0 hk8 rfl _ k0_t38_trips _ rfl ![2, 96] rfl rfl inb_S16x128_S1x16_2_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 5 k.val 0 hk8 rfl _ k0_t38_trips _ rfl ![2, 80] rfl rfl inb_S16x128_S1x16_2_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 4 k.val 0 hk8 rfl _ k0_t38_trips _ rfl ![2, 64] rfl rfl inb_S16x128_S1x16_2_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 3 k.val 0 hk8 rfl _ k0_t38_trips _ rfl ![2, 48] rfl rfl inb_S16x128_S1x16_2_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 2 k.val 0 hk8 rfl _ k0_t38_trips _ rfl ![2, 32] rfl rfl inb_S16x128_S1x16_2_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 1 k.val 0 hk8 rfl _ k0_t38_trips _ rfl ![2, 16] rfl rfl inb_S16x128_S1x16_2_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 0 k.val 0 hk8 rfl _ k0_t38_trips _ rfl ![2, 0] rfl rfl inb_S16x128_S1x16_2_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 7 k.val 0 hk8 rfl _ k0_t37_trips _ rfl ![1, 112] rfl rfl inb_S16x128_S1x16_1_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 6 k.val 0 hk8 rfl _ k0_t37_trips _ rfl ![1, 96] rfl rfl inb_S16x128_S1x16_1_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 5 k.val 0 hk8 rfl _ k0_t37_trips _ rfl ![1, 80] rfl rfl inb_S16x128_S1x16_1_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 4 k.val 0 hk8 rfl _ k0_t37_trips _ rfl ![1, 64] rfl rfl inb_S16x128_S1x16_1_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 3 k.val 0 hk8 rfl _ k0_t37_trips _ rfl ![1, 48] rfl rfl inb_S16x128_S1x16_1_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 2 k.val 0 hk8 rfl _ k0_t37_trips _ rfl ![1, 32] rfl rfl inb_S16x128_S1x16_1_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 1 k.val 0 hk8 rfl _ k0_t37_trips _ rfl ![1, 16] rfl rfl inb_S16x128_S1x16_1_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 0 k.val 0 hk8 rfl _ k0_t37_trips _ rfl ![1, 0] rfl rfl inb_S16x128_S1x16_1_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 7 k.val 0 hk8 rfl _ k0_t36_trips _ rfl ![0, 112] rfl rfl inb_S16x128_S1x16_0_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 6 k.val 0 hk8 rfl _ k0_t36_trips _ rfl ![0, 96] rfl rfl inb_S16x128_S1x16_0_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 5 k.val 0 hk8 rfl _ k0_t36_trips _ rfl ![0, 80] rfl rfl inb_S16x128_S1x16_0_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 4 k.val 0 hk8 rfl _ k0_t36_trips _ rfl ![0, 64] rfl rfl inb_S16x128_S1x16_0_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 3 k.val 0 hk8 rfl _ k0_t36_trips _ rfl ![0, 48] rfl rfl inb_S16x128_S1x16_0_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 2 k.val 0 hk8 rfl _ k0_t36_trips _ rfl ![0, 32] rfl rfl inb_S16x128_S1x16_0_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 1 k.val 0 hk8 rfl _ k0_t36_trips _ rfl ![0, 16] rfl rfl inb_S16x128_S1x16_0_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 0 k.val 0 hk8 rfl _ k0_t36_trips _ rfl ![0, 0] rfl rfl inb_S16x128_S1x16_0_0 x, ?_⟩
    exact List.forall_mem_nil _
  have hcov : ∀ y : S16x128.Idx, ∃ p ∈ tripLast35.sl.H6_128 m d L X hX k, y ∈ p.1.set := by
    sl_unfold_run_names
    exact View.cover_of_tiled _ S1x16.size rfl
  ihave Ho2 := (Entails.of_eq (trip_close m d L 2 (Ring.bk 8 k.val) s6 f6 _ fo hG hcov (tripLast35.sl.dma16 m d L X hX k f6) rfl)) $$ Ho
  clear hG hcov
  -- every block home; the four slots idle; the rest as it came
  isplitl [HF0_dst_and HF1_dst_and HF2_dst_and HF3_dst_and Hhome HF0 HF0_dst HT0 HF1 HF1_dst HT1 HF2 HF2_dst HT2 HF3 HF3_dst HT3]
  · isplitl [HF0_dst_and HF1_dst_and HF2_dst_and HF3_dst_and Hhome]
    · isplitl [HF0_dst_and]; · iexact HF0_dst_and
      isplitl [HF1_dst_and]; · iexact HF1_dst_and
      isplitl [HF2_dst_and]; · iexact HF2_dst_and
      isplitl [HF3_dst_and]; · iexact HF3_dst_and
      iexact Hhome
    isplitl [HF0 HF0_dst HT0]
    · isplitl [HF0]; · iexact HF0
      isplitl [HF0_dst]; · iexists _; iexact HF0_dst
      iexact HT0
    isplitl [HF1 HF1_dst HT1]
    · isplitl [HF1]; · iexact HF1
      isplitl [HF1_dst]; · iexists _; iexact HF1_dst
      iexact HT1
    isplitl [HF2 HF2_dst HT2]
    · isplitl [HF2]; · iexact HF2
      isplitl [HF2_dst]; · iexists _; iexact HF2_dst
      iexact HT2
    isplitl [HF3]; · iexact HF3
    isplitl [HF3_dst]; · iexists _; iexact HF3_dst
    iexact HT3
  isplitl [H6]; · iexists _; iexact H6
  isplitl [Hc5]; · iexact Hc5
  isplitl [Ho2 Hpl]
  · isplitl [Ho2]; · iexact Ho2
    iexact Hpl
  isplitl [Hmw]; · iexact Hmw
  iexists _
  isplitr
  · ipureintro; exact hW5
  · iexact HO

end Cert.KernelIdeal.Sc

end
-- ==== Proof.ScPhase2.lean ====
/-
  The third chunk loop of a vector subcore by its invariant: the ring at point `4 k` over the first index buffer and the
  third table, the plane's chunks before `k` at the pooled value; a trip below 7 re-fires each slot, the last does not.
-/
import proofs.«207262_g39728447488703_cont_8to1_b_1934_40_alg».proof.Proof.ScPhase2Lt
import proofs.«207262_g39728447488703_cont_8to1_b_1934_40_alg».proof.Proof.ScPhase2Last

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

set_option warn.classDefReducibility false in
/-- THE THIRD CHUNK LOOP'S INVARIANT, instanced: before trip `k` the resources of `resAt` at `k` (the index buffer's
    contents `X`, the worker's read share `q`, the launch's waits found by matching trip 0 against the context); a trip
    below 7 re-fires, the last does not. -/
@[sl_loop] def loopInv35 (m : (ℓ : Loc nD τ sig) → Buf (Elt F) ℓ) (d : Dev nD) (L : grid0.Coords)
    (X : Buf (Elt F) ((s0).view.loc (thrOf d L))) (q : PosShare TreeShare) (hX : IdxOK d L s0 X)
    (hXr : (s0).view.read (Elt F) X = idxBuf m d L 2)
    (O : CellTallies nD τ sig (HIx 1)) (W : Waits sig (HIx 1)) :
    Idealize.ShloMosaic.LoopInv (M := 𝕄) Idealize.ShloMosaic.frame (wpE (defs₀ (F := F)) 𝒱₀ (thrOf d L) none) Set.univ
      k0_t35_loop.lb k0_t35_loop.ub k0_t35_loop.st k0_t35_ok ()
      (k0_t35_body (F := F) L aV (Memref.isWhole_whole _) bV (Memref.isWhole_whole _) cV (Memref.isWhole_whole _) iV (Memref.isWhole_whole _) oV (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) cc0_scratch7 cc0_scratch8 cc0_scratch9 cc0_scratch10 cc0_scoped0 cc0_scoped1 cc0_scoped2 cc0_scoped3 cc0_scoped4 cc0_scoped5) where
  inv k _ := resAt m d L cV (m (cLoc d)) s0 X q hX cc0_scoped5 2 O W k
  step k _ := by
    by_cases hk : k.val < 7
    · exact tripLt35 m d L X q hX hXr O W k hk
    · exact tripLast35 m d L X q hX hXr O W k hk

/-- The invariant before the first trip and after the last, in the ring's vocabulary. -/
theorem inv35_zero (m : (ℓ : Loc nD τ sig) → Buf (Elt F) ℓ) (d : Dev nD) (L : grid0.Coords)
    (X : Buf (Elt F) ((s0).view.loc (thrOf d L))) (q : PosShare TreeShare) (hX : IdxOK d L s0 X)
    (hXr : (s0).view.read (Elt F) X = idxBuf m d L 2)
    (O : CellTallies nD τ sig (HIx 1)) (W : Waits sig (HIx 1)) (acc : Unit) :
    (loopInv35 m d L X q hX hXr O W).inv 0 acc = resAt m d L cV (m (cLoc d)) s0 X q hX cc0_scoped5 2 O W 0 := rfl
theorem inv35_eight (m : (ℓ : Loc nD τ sig) → Buf (Elt F) ℓ) (d : Dev nD) (L : grid0.Coords)
    (X : Buf (Elt F) ((s0).view.loc (thrOf d L))) (q : PosShare TreeShare) (hX : IdxOK d L s0 X)
    (hXr : (s0).view.read (Elt F) X = idxBuf m d L 2)
    (O : CellTallies nD τ sig (HIx 1)) (W : Waits sig (HIx 1)) (acc : Unit) :
    (loopInv35 m d L X q hX hXr O W).inv 8 acc = resAt m d L cV (m (cLoc d)) s0 X q hX cc0_scoped5 2 O W 8 := rfl

end Cert.KernelIdeal.Sc

end
-- ==== Proof.ScTileTop.lean ====
/-
  The vector subcore's task: the three chunk loops' steps are their invariants' own.
-/
import proofs.«207262_g39728447488703_cont_8to1_b_1934_40_alg».proof.Proof.ScTileBody
import proofs.«207262_g39728447488703_cont_8to1_b_1934_40_alg».proof.Proof.ScPhase0
import proofs.«207262_g39728447488703_cont_8to1_b_1934_40_alg».proof.Proof.ScPhase1
import proofs.«207262_g39728447488703_cont_8to1_b_1934_40_alg».proof.Proof.ScPhase2

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

theorem tile_body (hF : (K (F := F)).Facts) (hpre : PreOK m) (d : Dev nD) (L : grid0.Coords) (O : CellTallies nD τ sig (HIx 1)) (W : Waits sig (HIx 1)) (hO : ∀ g, O g none = 0) :
    iprop(levAts (K (F := F)).L (K (F := F)).lev ∗ emp
        ∗ (reads m d (tileSh (cL L) (sL L)) ∗ ∃ f, oOn d (oSet (wOf (cL L) (sL L))) f)
        ∗ scopedBufs (thrOf d L) ∗ scopedSems0 (thrOf d L) ∗ owes (thrOf d L) O W)
      ⊢ wp frame (wpE (defs₀ (F := F)) 𝒱₀ (thrOf d L) none) Set.univ
          (cc0_pool_kernel L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5)
          fun _ => iprop((reads m d (tileSh (cL L) (sL L)) ∗ oOn d (oSet (wOf (cL L) (sL L))) (pooledArr m d))
            ∗ scopedBufs (thrOf d L) ∗ scopedSems0 (thrOf d L)
            ∗ ∃ W', ⌜∀ p ∈ W', p ∈ W ∨ p.2 = none⌝ ∗ owes (thrOf d L) O W') :=
  tile_body_of m hF hpre d L O W hO
    (fun X0 hX0 X1 hX1 hR0 v2 k acc => (loopInv_k0_t1 m d L (tileSh (cL L) (sL L)) X0 hX0 X1 hX1 O W hR0 v2).step k acc)
    (fun X0 X1 hX0 hX1 hR1 v2 k acc => (loopInv_k0_t18 m d L (tileSh (cL L) (sL L)) X0 X1 hX0 hX1 hR1 O W v2).step k acc)
    (fun X hX hXr k acc => (loopInv35 m d L X (tileSh (cL L) (sL L)) hX hXr O W).step k acc)

end Cert.KernelIdeal.Sc

end
-- ==== Proof.ScSplit.lean ====
/-
  How what the call hands a SparseCore splits among its sixteen vector subcores, and how the two SparseCores' shares make
  up the whole.

  Reading: an array every worker reads whole is held at a read share; a share splits into sixteen tokens and a remainder,
  and the remainder stays behind while the tokens are out, to be joined with them when they return.

  Writing: the pooled array's rows are cut into 32 parts along the row axis; worker w = 2 i + c owns part w. The sixteen parts
  (2 i + c) for i < 16 are pairwise disjoint and make up what SparseCore c owns; the two SparseCores' rows are disjoint and
  make up the array.
-/
import proofs.«207262_g39728447488703_cont_8to1_b_1934_40_alg».proof.Proof.ScSetup

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ)

/-! ## The rows: 32 parts, worker 2 i + c owning part 2 i + c -/

theorem oSet_eq (w : Fin 32) : oSet w = (oPart w).set := by
  show ((View.whole (main_v1_scv : Ref sig .scVector)).slice (oPart w)).set = _
  rw [View.set_slice]; exact Finset.map_refl

theorem oSet_disjoint {w w' : Fin 32} (h : w ≠ w') : Disjoint (oSet w) (oSet w') := by
  rw [oSet_eq, oSet_eq]; exact Rect.part_disjoint odiv h

theorem wOf_ne {c c' : Fin 2} {i j : Fin 16} (h : c ≠ c' ∨ i ≠ j) : wOf c i ≠ wOf c' j := by
  intro e
  have e' : 2 * i.val + c.val = 2 * j.val + c'.val := congrArg Fin.val e
  have hc := c.isLt; have hc' := c'.isLt
  rcases h with h | h
  · exact h (Fin.ext (by omega))
  · exact h (Fin.ext (by omega))

/-- The sixteen workers of one SparseCore own disjoint rows. -/
theorem oSets_disjoint (c : Fin 2) :
    ∀ i ∈ (Finset.univ : Finset (Fin 16)), ∀ j ∈ (Finset.univ : Finset (Fin 16)), i ≠ j → Disjoint (oSet (wOf c i)) (oSet (wOf c j)) :=
  fun _ _ _ _ h => oSet_disjoint (wOf_ne (.inr h))

/-- The two SparseCores own disjoint rows. -/
theorem oCore_disjoint : Disjoint (oCore 0) (oCore 1) := by
  unfold oCore
  rw [Finset.disjoint_biUnion_left]; intro i _
  rw [Finset.disjoint_biUnion_right]; intro j _
  exact oSet_disjoint (wOf_ne (.inl (by decide)))

/-- Between them they own every row. -/
theorem oCore_cover : oCore 0 ∪ oCore 1 = Finset.univ := by
  ext x
  simp only [Finset.mem_union, Finset.mem_univ, iff_true]
  obtain ⟨w, hw⟩ := Rect.exists_mem_part odiv x
  rw [← oSet_eq] at hw
  have hwlt := w.isLt
  rcases Nat.mod_two_eq_zero_or_one w.val with h0 | h1
  · refine .inl (Finset.mem_biUnion.mpr ⟨⟨w.val / 2, by omega⟩, Finset.mem_univ _, ?_⟩)
    rwa [show wOf 0 ⟨w.val / 2, by omega⟩ = w from Fin.ext (by show 2 * (w.val / 2) + 0 = w.val; omega)]
  · refine .inr (Finset.mem_biUnion.mpr ⟨⟨w.val / 2, by omega⟩, Finset.mem_univ _, ?_⟩)
    rwa [show wOf 1 ⟨w.val / 2, by omega⟩ = w from Fin.ext (by show 2 * (w.val / 2) + 1 = w.val; omega)]

/-- A SparseCore's rows at one valuation are its workers' rows at it. -/
theorem oOn_core (d : Dev nD) (c : Fin 2) (f : Buf (Elt F) (oLoc d)) :
    (oOn d (oCore c) f : sProp 𝕄) = bigSep Finset.univ fun i : Fin 16 => oOn d (oSet (wOf c i)) f :=
  pointsTo_biUnion Finset.univ (ℓ := oLoc d) (fun i : Fin 16 => oSet (wOf c i)) (oSets_disjoint c)

theorem oOn_parts_ex (d : Dev nD) (c : Fin 2) (f : Buf (Elt F) (oLoc d)) :
    (bigSep Finset.univ fun i : Fin 16 => (oOn d (oSet (wOf c i)) f : sProp 𝕄))
      ⊢ bigSep Finset.univ fun i : Fin 16 => iprop(∃ f, oOn d (oSet (wOf c i)) f) :=
  bigSep_mono fun i _ => by
    show (oOn d (oSet (wOf c i)) f : sProp 𝕄) ⊢ iprop(∃ f, oOn d (oSet (wOf c i)) f)
    iintro H; iexists f; iexact H

/-- Held at some valuation, a SparseCore's rows give each worker its rows at some valuation (the same one). -/
theorem oOn_core_ex (d : Dev nD) (c : Fin 2) :
    (iprop(∃ f, oOn d (oCore c) f) : sProp 𝕄) ⊢ bigSep Finset.univ fun i : Fin 16 => iprop(∃ f, oOn d (oSet (wOf c i)) f) := by
  iintro ⟨%f, H⟩
  iapply (oOn_parts_ex d c f)
  iapply (Entails.of_eq (oOn_core d c f)); iexact H

/-- The whole array is the two SparseCores' rows. -/
theorem o_split (d : Dev nD) (f : Buf (Elt F) (oLoc d)) :
    (oLoc d ↦{fullShare} f : sProp 𝕄) ⊣⊢ iprop(oOn d (oCore 0) f ∗ oOn d (oCore 1) f) := by
  rw [← oCore_cover]; exact pointsTo_union oCore_disjoint

/-! ## The read shares -/

theorem bigSep_reads (d : Dev nD) (n : ℕ) (q : Fin n → PosShare TreeShare) :
    (bigSep Finset.univ fun i : Fin n => (reads m d (q i) : sProp 𝕄))
      = iprop((bigSep Finset.univ fun i : Fin n => iSh m d (q i)) ∗ (bigSep Finset.univ fun i : Fin n => aSh m d (q i))
          ∗ (bigSep Finset.univ fun i : Fin n => bSh m d (q i)) ∗ (bigSep Finset.univ fun i : Fin n => cSh m d (q i))) := by
  rw [← bigSep_sep', ← bigSep_sep', ← bigSep_sep']

/-- The four read-shared arrays at a share are the four at the remainder beside the four at each of n tokens. -/
theorem reads_toks (d : Dev nD) (q : PosShare TreeShare) (n : ℕ) :
    (reads m d q : sProp 𝕄) ⊣⊢ iprop(reads m d (Transfers.shareDrop q n) ∗ bigSep Finset.univ fun i : Fin n => reads m d (Transfers.shareTok q n i)) := by
  rw [bigSep_reads]
  constructor
  · iintro ⟨Hi, Ha, Hb, Hc⟩
    ihave Hi' := (Transfers.pointsTo_toks_split q n) $$ Hi
    ihave Ha' := (Transfers.pointsTo_toks_split q n) $$ Ha
    ihave Hb' := (Transfers.pointsTo_toks_split q n) $$ Hb
    ihave Hc' := (Transfers.pointsTo_toks_split q n) $$ Hc
    icases Hi' with ⟨Hi0, Hi1⟩; icases Ha' with ⟨Ha0, Ha1⟩; icases Hb' with ⟨Hb0, Hb1⟩; icases Hc' with ⟨Hc0, Hc1⟩
    isplitl [Hi0 Ha0 Hb0 Hc0]
    · isplitl [Hi0]; · iexact Hi0
      isplitl [Ha0]; · iexact Ha0
      isplitl [Hb0]; · iexact Hb0
      iexact Hc0
    · isplitl [Hi1]; · iexact Hi1
      isplitl [Ha1]; · iexact Ha1
      isplitl [Hb1]; · iexact Hb1
      iexact Hc1
  · iintro ⟨⟨Hi0, Ha0, Hb0, Hc0⟩, Hi1, Ha1, Hb1, Hc1⟩
    isplitl [Hi0 Hi1]; · iapply (Transfers.pointsTo_toks_join q n); isplitl [Hi0]; · iexact Hi0
                         iexact Hi1
    isplitl [Ha0 Ha1]; · iapply (Transfers.pointsTo_toks_join q n); isplitl [Ha0]; · iexact Ha0
                         iexact Ha1
    isplitl [Hb0 Hb1]; · iapply (Transfers.pointsTo_toks_join q n); isplitl [Hb0]; · iexact Hb0
                         iexact Hb1
    iapply (Transfers.pointsTo_toks_join q n); isplitl [Hc0]; · iexact Hc0
    iexact Hc1

/-- The four at the full share: a remainder and the two SparseCores' shares. -/
theorem reads_split (d : Dev nD) :
    (reads m d fullShare : sProp 𝕄) ⊣⊢ iprop(reads m d (Transfers.shareDrop fullShare 2) ∗ reads m d (coreSh 0) ∗ reads m d (coreSh 1)) := by
  have h := reads_toks (F := F) m d fullShare 2
  rw [bigSep_univ_two] at h
  exact h

/-! ## One SparseCore's split -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem split_core (d : Dev nD) (c : Fin 2) :
    (iprop(reads m d (coreSh c) ∗ ∃ f, oOn d (oCore c) f) : sProp 𝕄) ⊢ |={Set.univ}=> iprop(
      (bigSep Finset.univ fun i : Fin 16 => iprop(reads m d (tileSh c i) ∗ ∃ f, oOn d (oSet (wOf c i)) f))
      ∗ ((bigSep Finset.univ fun i : Fin 16 => iprop(reads m d (tileSh c i) ∗ oOn d (oSet (wOf c i)) (pooledArr m d)))
          -∗ iprop(reads m d (coreSh c) ∗ oOn d (oCore c) (pooledArr m d)))) := by
  rw [bigSep_sep' Finset.univ (fun i : Fin 16 => (reads m d (tileSh c i) : sProp 𝕄)) (fun i => iprop(∃ f, oOn d (oSet (wOf c i)) f)),
    bigSep_sep' Finset.univ (fun i : Fin 16 => (reads m d (tileSh c i) : sProp 𝕄)) (fun i => oOn d (oSet (wOf c i)) (pooledArr m d))]
  iintro ⟨Hr, Ho⟩
  ihave Hr' := (reads_toks m d (coreSh c) 16).1 $$ Hr
  icases Hr' with ⟨Hrest, Htoks⟩
  imodintro
  isplitl [Htoks Ho]
  · isplitl [Htoks]; · iexact Htoks
    iapply (oOn_core_ex d c); iexact Ho
  iintro ⟨Htk, Hov⟩
  isplitl [Hrest Htk]
  · iapply (reads_toks m d (coreSh c) 16).2
    isplitl [Hrest]; · iexact Hrest
    iexact Htk
  · iapply (Entails.of_eq (oOn_core d c (pooledArr m d)).symm); iexact Hov

theorem vecSplit : (K (F := F)).VecSplit' (P m) 0 := by
  intro d c
  show (iprop(reads m d (coreSh (Fin.cast nCore_zero c)) ∗ ∃ f, oOn d (oCore (Fin.cast nCore_zero c)) f) : sProp 𝕄) ⊢ |={Set.univ}=> iprop(
      (bigSep Finset.univ fun i : Fin ((K (F := F)).nSub 0) =>
        iprop(reads m d (tileSh (Fin.cast nCore_zero c) (Fin.cast nSub_zero i)) ∗ ∃ f, oOn d (oSet (wOf (Fin.cast nCore_zero c) (Fin.cast nSub_zero i))) f))
      ∗ ((bigSep Finset.univ fun i : Fin ((K (F := F)).nSub 0) =>
          iprop(reads m d (tileSh (Fin.cast nCore_zero c) (Fin.cast nSub_zero i)) ∗ oOn d (oSet (wOf (Fin.cast nCore_zero c) (Fin.cast nSub_zero i))) (pooledArr m d)))
          -∗ iprop(reads m d (coreSh (Fin.cast nCore_zero c)) ∗ oOn d (oCore (Fin.cast nCore_zero c)) (pooledArr m d))))
  rw [bigSep_tasks (F := F) (fun i => iprop(reads m d (tileSh (Fin.cast nCore_zero c) i) ∗ ∃ f, oOn d (oSet (wOf (Fin.cast nCore_zero c) i)) f)),
    bigSep_tasks (F := F) (fun i => iprop(reads m d (tileSh (Fin.cast nCore_zero c) i) ∗ oOn d (oSet (wOf (Fin.cast nCore_zero c) i)) (pooledArr m d)))]
  exact split_core m d (Fin.cast nCore_zero c)

/-! ## The two SparseCores' resources together -/

/-- What the call takes for the two SparseCores, -/
theorem st_all (d : Dev nD) :
    (bigSep Finset.univ fun c : Fin ((K (F := F)).nCore 0) => (P m).st 0 d c)
      = iprop((reads m d (coreSh 0) ∗ ∃ f, oOn d (oCore 0) f) ∗ (reads m d (coreSh 1) ∗ ∃ f, oOn d (oCore 1) f)) := by
  show (bigSep (Finset.univ : Finset (Fin 2)) fun c => iprop(reads m d (coreSh c) ∗ ∃ f, oOn d (oCore c) f)) = _
  rw [bigSep_univ_two]

/-- and what it hands back. -/
theorem dn_all (d : Dev nD) :
    (bigSep Finset.univ fun c : Fin ((K (F := F)).nCore 0) => (P m).dn 0 d c)
      = iprop((reads m d (coreSh 0) ∗ oOn d (oCore 0) (pooledArr m d)) ∗ (reads m d (coreSh 1) ∗ oOn d (oCore 1) (pooledArr m d))) := by
  show (bigSep (Finset.univ : Finset (Fin 2)) fun c => iprop(reads m d (coreSh c) ∗ oOn d (oCore c) (pooledArr m d))) = _
  rw [bigSep_univ_two]

end Cert.KernelIdeal.Sc

end
-- ==== Proof.ScMain.lean ====
/-
  The kernel program's run: the launch element of the ghost state, @main on the TensorCore, and the launch theorem
  applied.

  @main is a reshape of the index tensor to the flat index array, the SparseCore call, five small host operations on
  the weights (two reshapes, two paddings to 128 columns, each a conversion of the padding constant then the pad, and a
  reshape of the padded bias), the TensorCore call, and a slice of its first ten columns. The SparseCore call therefore
  runs on the launch memory AFTER the first reshape: that memory is what the kernel's assertions are stated over.
  Every host operation is a function of the valuation of the TensorCore's unscoped buffers, so the run is a chain of
  valuations: the launch contents, after the reshape, the pooled array replaced by the kernel's value, after the nine
  host operations, the TensorCore call's result replaced, after the slice. The result read off the last one is the
  claim's value.
-/
import proofs.«207262_g39728447488703_cont_8to1_b_1934_40_alg».proof.Proof.ScSetup
import proofs.«207262_g39728447488703_cont_8to1_b_1934_40_alg».proof.Proof.ScSplit
import proofs.«207262_g39728447488703_cont_8to1_b_1934_40_alg».proof.Proof.Gen.KernelIdeal.Launch
import Idealize.ShloMosaic.Lib.Pipeline.Frame
import Idealize.ShloMosaic.Lib.Pipeline.Sound

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The host operations of @main, as printed -/

abbrev opIdx : HloOp τ sig (Elt F) := StableHlo.reshape main_arg0 main_v0 rfl shapeCasts_S4x4096x50_S819200
abbrev opW1 : HloOp τ sig (Elt F) := StableHlo.reshape main_arg4 main_v2 rfl shapeCasts_S384x256_S3x128x256
abbrev opB1 : HloOp τ sig (Elt F) := StableHlo.reshape main_arg5 main_v3 rfl shapeCasts_S256_S1x256
abbrev opC : HloOp τ sig (Elt F) := StableHlo.nullary main_c (constantI S_ 32 0#32)
abbrev opCf : HloOp τ sig (Elt F) := StableHlo.TRef.unary (.of main_c : StableHlo.TRef sig ⟨S_, .i32⟩) main_call0.v0 (sitofp .f32)
abbrev opW2 : HloOp τ sig (Elt F) :=
  StableHlo.TRef.binary (.of main_arg6 : StableHlo.TRef sig ⟨S256x10, .f32⟩) main_call0.v0 main_call0.v1 (fun x v => pad S256x128 ![0, 0] ![0, 118] ![0, 0] x v pads_S256x10_S256x128_000_01180 h_S_)
abbrev opC' : HloOp τ sig (Elt F) := StableHlo.nullary main_c_0 (constantI S_ 32 0#32)
abbrev opCf' : HloOp τ sig (Elt F) := StableHlo.TRef.unary (.of main_c_0 : StableHlo.TRef sig ⟨S_, .i32⟩) main_call1.v0 (sitofp .f32)
abbrev opB2 : HloOp τ sig (Elt F) :=
  StableHlo.TRef.binary (.of main_arg7 : StableHlo.TRef sig ⟨S10, .f32⟩) main_call1.v0 main_call1.v1 (fun x v => pad S128 ![0] ![118] ![0] x v pads_S10_S128_01180 h_S_)
abbrev opB2r : HloOp τ sig (Elt F) := StableHlo.reshape main_v5 main_v6 rfl shapeCasts_S128_S1x128
abbrev opOut : HloOp τ sig (Elt F) :=
  StableHlo.unary main_v7 main_v8 ((extractStridedSlice S4096x10 ![0, 0] · slices_S4096x128_S4096x10_0_0) : (⟨S4096x128, .f32⟩ : BufTy).Contents (Elt F) → (⟨S4096x10, .f32⟩ : BufTy).Contents (Elt F))

/-- The nine host operations between the SparseCore call and the TensorCore call, in order. -/
abbrev midOps : List (HloOp τ sig (Elt F)) := [opW1, opB1, opC, opCf, opW2, opC', opCf', opB2, opB2r]

/-! ## The TensorCore's references -/

abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)
abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_a3 : DevRef τ sig := Proc.devRef .tc (main_arg3 : Ref sig .tc)
abbrev r_a4 : DevRef τ sig := Proc.devRef .tc (main_arg4 : Ref sig .tc)
abbrev r_a5 : DevRef τ sig := Proc.devRef .tc (main_arg5 : Ref sig .tc)
abbrev r_a6 : DevRef τ sig := Proc.devRef .tc (main_arg6 : Ref sig .tc)
abbrev r_a7 : DevRef τ sig := Proc.devRef .tc (main_arg7 : Ref sig .tc)

/-- The result array, as the TensorCore names it. -/
abbrev rLoc (d : Dev nD) : Loc nD τ sig := (SparseCore.T d).loc main_v8

/-- Every unscoped buffer of the TensorCore. -/
abbrev UC : Finset (DevRef τ sig) := Pipeline.ucRefs τ sig

/-- Each host operation touches unscoped buffers of the TensorCore only. -/
theorem hIdx : (opIdx (F := F)).bufs ⊆ UC := Pipeline.sub_ucRefs _ (StableHlo.reshape_bufs_sub ..)
theorem hW1 : (opW1 (F := F)).bufs ⊆ UC := Pipeline.sub_ucRefs _ (StableHlo.reshape_bufs_sub ..)
theorem hB1 : (opB1 (F := F)).bufs ⊆ UC := Pipeline.sub_ucRefs _ (StableHlo.reshape_bufs_sub ..)
theorem hC : (opC (F := F)).bufs ⊆ UC := Pipeline.sub_ucRefs _ (StableHlo.nullary_bufs_sub ..)
theorem hCf : (opCf (F := F)).bufs ⊆ UC := Pipeline.sub_ucRefs _ (StableHlo.unary_bufs_sub ..)
theorem hW2 : (opW2 (F := F)).bufs ⊆ UC := Pipeline.sub_ucRefs _ (StableHlo.binary_bufs_sub ..)
theorem hC' : (opC' (F := F)).bufs ⊆ UC := Pipeline.sub_ucRefs _ (StableHlo.nullary_bufs_sub ..)
theorem hCf' : (opCf' (F := F)).bufs ⊆ UC := Pipeline.sub_ucRefs _ (StableHlo.unary_bufs_sub ..)
theorem hB2 : (opB2 (F := F)).bufs ⊆ UC := Pipeline.sub_ucRefs _ (StableHlo.binary_bufs_sub ..)
theorem hB2r : (opB2r (F := F)).bufs ⊆ UC := Pipeline.sub_ucRefs _ (StableHlo.reshape_bufs_sub ..)
theorem hOut : (opOut (F := F)).bufs ⊆ UC := Pipeline.sub_ucRefs _ (StableHlo.unary_bufs_sub ..)

/-! ## The chain of valuations -/

/-- The launch contents of device `d`. -/
def W0 (d : Dev nD) : Valuation τ sig (Elt F) := fun b => m (d, b)
/-- After the reshape of the index tensor. -/
def W1 (d : Dev nD) : Valuation τ sig (Elt F) := (opIdx (F := F)).result (W0 m d)

theorem W1_def (d : Dev nD) : (opIdx (F := F)).result (W0 m d) = W1 m d := rfl

/-- The memory the SparseCore call runs on: the launch memory after @main's first operation. -/
def mK : (ℓ : Loc nD τ sig) → Buf (Elt F) ℓ := fun ℓ => W1 m ℓ.1 ℓ.2

/-- After the SparseCore call: the pooled array at the kernel's value. -/
def W2 (d : Dev nD) : Valuation τ sig (Elt F) := Function.update (W1 m d) r_v1 (pooledArr (mK m) d)
/-- After each of the nine host operations in turn. -/
abbrev M1 (d : Dev nD) : Valuation τ sig (Elt F) := (opW1 (F := F)).result (W2 m d)
abbrev M2 (d : Dev nD) : Valuation τ sig (Elt F) := (opB1 (F := F)).result (M1 m d)
abbrev M3 (d : Dev nD) : Valuation τ sig (Elt F) := (opC (F := F)).result (M2 m d)
abbrev M4 (d : Dev nD) : Valuation τ sig (Elt F) := (opCf (F := F)).result (M3 m d)
abbrev M5 (d : Dev nD) : Valuation τ sig (Elt F) := (opW2 (F := F)).result (M4 m d)
abbrev M6 (d : Dev nD) : Valuation τ sig (Elt F) := (opC' (F := F)).result (M5 m d)
abbrev M7 (d : Dev nD) : Valuation τ sig (Elt F) := (opCf' (F := F)).result (M6 m d)
abbrev M8 (d : Dev nD) : Valuation τ sig (Elt F) := (opB2 (F := F)).result (M7 m d)
abbrev M9 (d : Dev nD) : Valuation τ sig (Elt F) := (opB2r (F := F)).result (M8 m d)
/-- After the nine host operations. -/
def W3 (d : Dev nD) : Valuation τ sig (Elt F) := StableHlo.after (midOps (F := F)) (W2 m d)
theorem W3_def (d : Dev nD) : M9 m d = W3 m d := rfl

/-! ## The TensorCore call's value, and the result -/

/-- The contents types of the TensorCore call's operands and result. -/
abbrev C1 : Type := (⟨S3x4096x128, .f32⟩ : BufTy).Contents (Elt F)
abbrev C2 : Type := (⟨S3x128x256, .f32⟩ : BufTy).Contents (Elt F)
abbrev C3 : Type := (⟨S1x256, .f32⟩ : BufTy).Contents (Elt F)
abbrev C4 : Type := (⟨S256x128, .f32⟩ : BufTy).Contents (Elt F)
abbrev C6 : Type := (⟨S1x128, .f32⟩ : BufTy).Contents (Elt F)
abbrev C7 : Type := (⟨S4096x128, .f32⟩ : BufTy).Contents (Elt F)

variable (tcOut : C1 (F := F) → C2 (F := F) → C3 (F := F) → C4 (F := F) → C6 (F := F) → C7 (F := F))

/-- After the TensorCore call: its result array at the call's value of the five operands. -/
def W4 (d : Dev nD) : Valuation τ sig (Elt F) :=
  Function.update (W3 m d) r_v7 (tcOut (W3 m d r_v1) (W3 m d r_v2) (W3 m d r_v3) (W3 m d r_v4) (W3 m d r_v6))
/-- After the slice. -/
def W5 (d : Dev nD) : Valuation τ sig (Elt F) := (opOut (F := F)).result (W4 m tcOut d)
theorem W5_def (d : Dev nD) : (opOut (F := F)).result (W4 m tcOut d) = W5 m tcOut d := rfl

/-- The kernel's result on device `d`, a function of the launch contents. -/
def outOf (d : Dev nD) : Buf (Elt F) (rLoc d) := W5 m tcOut d r_v8

/-! ## Taking arrays out of the TensorCore's unscoped buffers and putting them back -/

/-- The SparseCore call's five arrays. -/
abbrev T5 : Finset (DevRef τ sig) := {r_v0, r_a1, r_a2, r_a3, r_v1}
/-- The TensorCore call's six arrays. -/
abbrev T6 : Finset (DevRef τ sig) := {r_v1, r_v2, r_v3, r_v4, r_v6, r_v7}
/-- The claim's nine arrays. -/
abbrev T9 : Finset (DevRef τ sig) := {r_a0, r_a1, r_a2, r_a3, r_a4, r_a5, r_a6, r_a7, r_v8}

theorem T5_sub : T5 ⊆ UC := by decide
theorem T6_sub : T6 ⊆ UC := by decide
theorem T9_sub : T9 ⊆ UC := by decide

theorem held_T5 (d : Dev nD) (W : Valuation τ sig (Elt F)) :
    (held (SparseCore.T d) T5 W : sProp 𝕄) = iprop((iLoc d ↦{fullShare} W r_v0) ∗ (aLoc d ↦{fullShare} W r_a1) ∗ (bLoc d ↦{fullShare} W r_a2)
      ∗ (cLoc d ↦{fullShare} W r_a3) ∗ (oLoc d ↦{fullShare} W r_v1)) := by
  unfold held T5
  rw [SparseCore.bigSep_insert' (by decide), SparseCore.bigSep_insert' (by decide), SparseCore.bigSep_insert' (by decide),
    SparseCore.bigSep_insert' (by decide), bigSep_singleton]

theorem held_T6 (d : Dev nD) (W : Valuation τ sig (Elt F)) :
    (held (SparseCore.T d) T6 W : sProp 𝕄) = iprop(((SparseCore.T d).loc main_v1 ↦{fullShare} W r_v1) ∗ ((SparseCore.T d).loc main_v2 ↦{fullShare} W r_v2)
      ∗ ((SparseCore.T d).loc main_v3 ↦{fullShare} W r_v3) ∗ ((SparseCore.T d).loc main_v4 ↦{fullShare} W r_v4)
      ∗ ((SparseCore.T d).loc main_v6 ↦{fullShare} W r_v6) ∗ ((SparseCore.T d).loc main_v7 ↦{fullShare} W r_v7)) := by
  unfold held T6
  rw [SparseCore.bigSep_insert' (by decide), SparseCore.bigSep_insert' (by decide), SparseCore.bigSep_insert' (by decide),
    SparseCore.bigSep_insert' (by decide), SparseCore.bigSep_insert' (by decide), bigSep_singleton]

theorem held_T9 (d : Dev nD) (W : Valuation τ sig (Elt F)) :
    (held (SparseCore.T d) T9 W : sProp 𝕄) = iprop(((SparseCore.T d).loc main_arg0 ↦{fullShare} W r_a0) ∗ ((SparseCore.T d).loc main_arg1 ↦{fullShare} W r_a1)
      ∗ ((SparseCore.T d).loc main_arg2 ↦{fullShare} W r_a2) ∗ ((SparseCore.T d).loc main_arg3 ↦{fullShare} W r_a3)
      ∗ ((SparseCore.T d).loc main_arg4 ↦{fullShare} W r_a4) ∗ ((SparseCore.T d).loc main_arg5 ↦{fullShare} W r_a5)
      ∗ ((SparseCore.T d).loc main_arg6 ↦{fullShare} W r_a6) ∗ ((SparseCore.T d).loc main_arg7 ↦{fullShare} W r_a7)
      ∗ ((SparseCore.T d).loc main_v8 ↦{fullShare} W r_v8)) := by
  unfold held T9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch's unscoped buffers are the set held at the launch valuation. -/
theorem unscoped_held (d : Dev nD) :
    (unscopedBufs d (fun b => m ((SparseCore.T d).loc b)) : sProp 𝕄) = held (SparseCore.T d) UC (W0 m d) :=
  Pipeline.unscopedBufs_held d (W0 m d)

/-- The held set at a valuation respelt. -/
theorem held_cast {V V' : Valuation τ sig (Elt F)} (h : V = V') (d : Dev nD) :
    (held (SparseCore.T d) UC V : sProp 𝕄) ⊢ held (SparseCore.T d) UC V' := by subst h; exact .rfl

/-! ### Around the SparseCore call -/

theorem W2_v0 (d : Dev nD) : W2 m d r_v0 = W1 m d r_v0 := Function.update_of_ne (show r_v0 ≠ r_v1 by decide) _ _
theorem W2_a1 (d : Dev nD) : W2 m d r_a1 = W1 m d r_a1 := Function.update_of_ne (show r_a1 ≠ r_v1 by decide) _ _
theorem W2_a2 (d : Dev nD) : W2 m d r_a2 = W1 m d r_a2 := Function.update_of_ne (show r_a2 ≠ r_v1 by decide) _ _
theorem W2_a3 (d : Dev nD) : W2 m d r_a3 = W1 m d r_a3 := Function.update_of_ne (show r_a3 ≠ r_v1 by decide) _ _
theorem W2_v1 (d : Dev nD) : W2 m d r_v1 = pooledArr (mK m) d := Function.update_self _ _ _

theorem held_rest_W2 (d : Dev nD) : (held (SparseCore.T d) (UC \ T5) (W2 m d) : sProp 𝕄) = held (SparseCore.T d) (UC \ T5) (W1 m d) :=
  StableHlo.held_congr (SparseCore.T d) fun b hb =>
    Function.update_of_ne (fun h => (Finset.mem_sdiff.mp hb).2 (by rw [h]; decide)) _ _

/-- Before the call: the four arrays the kernel reads and the pooled array, out of the unscoped buffers. -/
theorem scPre (d : Dev nD) :
    (held (SparseCore.T d) UC (W1 m d) : sProp 𝕄)
      ⊢ iprop((reads (mK m) d fullShare ∗ ∃ f, oLoc d ↦{fullShare} f) ∗ held (SparseCore.T d) (UC \ T5) (W1 m d)) := by
  rw [StableHlo.held_sub_split (SparseCore.T d) T5_sub (W1 m d), held_T5]
  iintro ⟨⟨Hi, Ha, Hb, Hc, Ho⟩, Hr⟩
  isplitr [Hr]
  · isplitr [Ho]
    · isplitl [Hi]; · iexact Hi
      isplitl [Ha]; · iexact Ha
      isplitl [Hb]; · iexact Hb
      iexact Hc
    · iexists _; iexact Ho
  · iexact Hr

/-- After the call: back in, the pooled array at the kernel's value. -/
theorem scPost (d : Dev nD) :
    iprop((reads (mK m) d fullShare ∗ oLoc d ↦{fullShare} pooledArr (mK m) d) ∗ held (SparseCore.T d) (UC \ T5) (W1 m d))
      ⊢ (held (SparseCore.T d) UC (W2 m d) : sProp 𝕄) := by
  rw [StableHlo.held_sub_split (SparseCore.T d) T5_sub (W2 m d), held_T5, held_rest_W2, W2_v0, W2_a1, W2_a2, W2_a3, W2_v1]
  iintro ⟨⟨⟨Hi, Ha, Hb, Hc⟩, Ho⟩, Hr⟩
  isplitr [Hr]
  · isplitl [Hi]; · iexact Hi
    isplitl [Ha]; · iexact Ha
    isplitl [Hb]; · iexact Hb
    isplitl [Hc]; · iexact Hc
    iexact Ho
  · iexact Hr

/-- How the call's operands split between the two SparseCores and gather again (proved beside this module). -/
structure SplitFacts : Prop where
  o_split : ∀ (d : Dev nD) (f : Buf (Elt F) (oLoc d)), (oLoc d ↦{fullShare} f : sProp 𝕄) ⊢ iprop(oOn d (oCore 0) f ∗ oOn d (oCore 1) f)
  o_join : ∀ (d : Dev nD) (f : Buf (Elt F) (oLoc d)), iprop(oOn d (oCore 0) f ∗ oOn d (oCore 1) f) ⊢ (oLoc d ↦{fullShare} f : sProp 𝕄)
  r_split : ∀ (m : (ℓ : Loc nD τ sig) → Buf (Elt F) ℓ) (d : Dev nD), (reads m d fullShare : sProp 𝕄)
      ⊢ iprop(reads m d (Transfers.shareDrop fullShare 2) ∗ reads m d (coreSh 0) ∗ reads m d (coreSh 1))
  r_join : ∀ (m : (ℓ : Loc nD τ sig) → Buf (Elt F) ℓ) (d : Dev nD),
      iprop(reads m d (Transfers.shareDrop fullShare 2) ∗ reads m d (coreSh 0) ∗ reads m d (coreSh 1)) ⊢ (reads m d fullShare : sProp 𝕄)
  st_all : ∀ (m : (ℓ : Loc nD τ sig) → Buf (Elt F) ℓ) (d : Dev nD), (bigSep Finset.univ fun c : Fin ((K (F := F)).nCore 0) => (P m).st 0 d c)
      = iprop((reads m d (coreSh 0) ∗ ∃ f, oOn d (oCore 0) f) ∗ (reads m d (coreSh 1) ∗ ∃ f, oOn d (oCore 1) f))
  dn_all : ∀ (m : (ℓ : Loc nD τ sig) → Buf (Elt F) ℓ) (d : Dev nD), (bigSep Finset.univ fun c : Fin ((K (F := F)).nCore 0) => (P m).dn 0 d c)
      = iprop((reads m d (coreSh 0) ∗ oOn d (oCore 0) (pooledArr m d)) ∗ (reads m d (coreSh 1) ∗ oOn d (oCore 1) (pooledArr m d)))

/-- The hand-over: a read share of the four arrays and its rows of the pooled array to each SparseCore; a share is kept. -/
theorem handOver (hs : SplitFacts (F := F)) (d : Dev nD) :
    iprop(reads m d fullShare ∗ ∃ f, oLoc d ↦{fullShare} f)
      ⊢ iprop(reads m d (Transfers.shareDrop fullShare 2) ∗ bigSep Finset.univ fun c : Fin ((K (F := F)).nCore 0) => (P m).st 0 d c) := by
  rw [hs.st_all m d]
  iintro ⟨Hr, %f, Ho⟩
  ihave Hr' := (hs.r_split m d) $$ Hr
  icases Hr' with ⟨Hd, H0, H1⟩
  ihave Ho' := (hs.o_split d f) $$ Ho
  icases Ho' with ⟨Ho0, Ho1⟩
  isplitl [Hd]; · iexact Hd
  isplitl [H0 Ho0]
  · isplitl [H0]; · iexact H0
    iexists f; iexact Ho0
  · isplitl [H1]; · iexact H1
    iexists f; iexact Ho1

/-- And back: the shares rejoin, the two SparseCores' rows are the pooled array whole, at the kernel's value. -/
theorem handBack (hs : SplitFacts (F := F)) (d : Dev nD) :
    iprop(reads m d (Transfers.shareDrop fullShare 2) ∗ bigSep Finset.univ fun c : Fin ((K (F := F)).nCore 0) => (P m).dn 0 d c)
      ⊢ iprop(reads m d fullShare ∗ oLoc d ↦{fullShare} pooledArr m d) := by
  rw [hs.dn_all m d]
  iintro ⟨Hd, ⟨H0, Ho0⟩, ⟨H1, Ho1⟩⟩
  isplitl [Hd H0 H1]
  · iapply (hs.r_join m d)
    isplitl [Hd]; · iexact Hd
    isplitl [H0]; · iexact H0
    iexact H1
  · iapply (hs.o_join d _)
    isplitl [Ho0]; · iexact Ho0
    iexact Ho1

/-- The six facts, as proved beside this module. -/
theorem splitFacts : SplitFacts (F := F) where
  o_split d f := (o_split d f).1
  o_join d f := (o_split d f).2
  r_split m d := (reads_split m d).1
  r_join m d := (reads_split m d).2
  st_all m d := st_all m d
  dn_all m d := dn_all m d

/-! ### Around the TensorCore call -/

theorem held_rest_W4 (d : Dev nD) :
    (held (SparseCore.T d) (UC \ T6) (W4 m tcOut d) : sProp 𝕄) = held (SparseCore.T d) (UC \ T6) (W3 m d) :=
  StableHlo.held_congr (SparseCore.T d) fun b hb =>
    Function.update_of_ne (fun h => (Finset.mem_sdiff.mp hb).2 (by rw [h]; decide)) _ _

theorem W4_v1 (d : Dev nD) : W4 m tcOut d r_v1 = W3 m d r_v1 := Function.update_of_ne (show r_v1 ≠ r_v7 by decide) _ _
theorem W4_v2 (d : Dev nD) : W4 m tcOut d r_v2 = W3 m d r_v2 := Function.update_of_ne (show r_v2 ≠ r_v7 by decide) _ _
theorem W4_v3 (d : Dev nD) : W4 m tcOut d r_v3 = W3 m d r_v3 := Function.update_of_ne (show r_v3 ≠ r_v7 by decide) _ _
theorem W4_v4 (d : Dev nD) : W4 m tcOut d r_v4 = W3 m d r_v4 := Function.update_of_ne (show r_v4 ≠ r_v7 by decide) _ _
theorem W4_v6 (d : Dev nD) : W4 m tcOut d r_v6 = W3 m d r_v6 := Function.update_of_ne (show r_v6 ≠ r_v7 by decide) _ _
theorem W4_v7 (d : Dev nD) :
    W4 m tcOut d r_v7 = tcOut (W3 m d r_v1) (W3 m d r_v2) (W3 m d r_v3) (W3 m d r_v4) (W3 m d r_v6) := Function.update_self _ _ _

/-- Before the call: its six arrays out of the unscoped buffers. -/
theorem tcPre (d : Dev nD) :
    (held (SparseCore.T d) UC (W3 m d) : sProp 𝕄)
      ⊢ iprop((((SparseCore.T d).loc main_v1 ↦{fullShare} W3 m d r_v1) ∗ ((SparseCore.T d).loc main_v2 ↦{fullShare} W3 m d r_v2)
          ∗ ((SparseCore.T d).loc main_v3 ↦{fullShare} W3 m d r_v3) ∗ ((SparseCore.T d).loc main_v4 ↦{fullShare} W3 m d r_v4)
          ∗ ((SparseCore.T d).loc main_v6 ↦{fullShare} W3 m d r_v6) ∗ ((SparseCore.T d).loc main_v7 ↦{fullShare} W3 m d r_v7))
        ∗ held (SparseCore.T d) (UC \ T6) (W3 m d)) := by
  rw [StableHlo.held_sub_split (SparseCore.T d) T6_sub (W3 m d), held_T6]

/-- After the call: back in, the result array at the call's value. -/
theorem tcPost (d : Dev nD) :
    iprop((((SparseCore.T d).loc main_v1 ↦{fullShare} W3 m d r_v1) ∗ ((SparseCore.T d).loc main_v2 ↦{fullShare} W3 m d r_v2)
          ∗ ((SparseCore.T d).loc main_v3 ↦{fullShare} W3 m d r_v3) ∗ ((SparseCore.T d).loc main_v4 ↦{fullShare} W3 m d r_v4)
          ∗ ((SparseCore.T d).loc main_v6 ↦{fullShare} W3 m d r_v6)
          ∗ ((SparseCore.T d).loc main_v7 ↦{fullShare} tcOut (W3 m d r_v1) (W3 m d r_v2) (W3 m d r_v3) (W3 m d r_v4) (W3 m d r_v6)))
        ∗ held (SparseCore.T d) (UC \ T6) (W3 m d))
      ⊢ (held (SparseCore.T d) UC (W4 m tcOut d) : sProp 𝕄) := by
  rw [StableHlo.held_sub_split (SparseCore.T d) T6_sub (W4 m tcOut d), held_T6, held_rest_W4, W4_v1, W4_v2, W4_v3, W4_v4, W4_v6, W4_v7]

/-! ### What @main leaves the claim -/

/-- The buffers the nine host operations write. -/
abbrev midW : Finset (DevRef τ sig) :=
  {r_v2, r_v3, Proc.devRef .tc (main_c : Ref sig .tc), Proc.devRef .tc (main_call0_v0 : Ref sig .tc), r_v4,
    Proc.devRef .tc (main_c_0 : Ref sig .tc), Proc.devRef .tc (main_call1_v0 : Ref sig .tc), Proc.devRef .tc (main_v5 : Ref sig .tc), r_v6}

theorem midOps_writes : ∀ op ∈ midOps (F := F), op.writes ⊆ midW := by
  intro op hop
  have hop' : op ∈ [opW1 (F := F), opB1, opC, opCf, opW2, opC', opCf', opB2, opB2r] := hop
  simp only [List.mem_cons, List.mem_nil_iff, or_false] at hop'
  rcases hop' with rfl | rfl | rfl | rfl | rfl | rfl | rfl | rfl | rfl <;> exact Finset.singleton_subset_iff.mpr (by decide)

/-- A buffer that no step of @main writes holds its launch contents at the end. -/
theorem W5_keep (d : Dev nD) (b : DevRef τ sig) (h8 : b ≠ r_v8) (h7 : b ≠ r_v7) (hmid : b ∉ midW) (h1 : b ≠ r_v1) (h0 : b ≠ r_v0) :
    W5 m tcOut d b = m (d, b) := by
  unfold W5 W4 W3 W2 W1 W0
  rw [(opOut (F := F)).result_of_not_mem _ (fun h => h8 (Finset.mem_singleton.mp h)), Function.update_of_ne h7,
    StableHlo.after_of_forall_not_mem _ _ (fun op hop hb => hmid (midOps_writes op hop hb)),
    Function.update_of_ne h1, (opIdx (F := F)).result_of_not_mem _ (fun h => h0 (Finset.mem_singleton.mp h))]

/-- @main's eight arguments at their launch contents, its result at the kernel's value. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ (rLoc d ↦{fullShare} outOf m tcOut d))

theorem finPost (d : Dev nD) : (held (SparseCore.T d) UC (W5 m tcOut d) : sProp 𝕄) ⊢ FIN m tcOut d := by
  rw [StableHlo.held_sub_split (SparseCore.T d) T9_sub (W5 m tcOut d), held_T9,
    W5_keep m tcOut d r_a0 (by decide) (by decide) (by decide) (by decide) (by decide),
    W5_keep m tcOut d r_a1 (by decide) (by decide) (by decide) (by decide) (by decide),
    W5_keep m tcOut d r_a2 (by decide) (by decide) (by decide) (by decide) (by decide),
    W5_keep m tcOut d r_a3 (by decide) (by decide) (by decide) (by decide) (by decide),
    W5_keep m tcOut d r_a4 (by decide) (by decide) (by decide) (by decide) (by decide),
    W5_keep m tcOut d r_a5 (by decide) (by decide) (by decide) (by decide) (by decide),
    W5_keep m tcOut d r_a6 (by decide) (by decide) (by decide) (by decide) (by decide),
    W5_keep m tcOut d r_a7 (by decide) (by decide) (by decide) (by decide) (by decide)]
  unfold FIN outOf
  exact sep_elim_left

/-! ## The launch element: the handshakes' rounds, the TensorCore call's staging cells; nothing of the kernel's own -/

/-- The pipeline has no prefetched table: the one admissible choice. -/
abbrev adm : (p : Fin 1) → (pcfgs (F := F) p).Adm := fun p => (cfgs p).toPCfg_adm

/-- The TensorCore call's funded staging cells on device `d`: their ghost state and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (nD := nD) (τ := τ) cfgs Gen.cellOf_inj) (Pipeline.launchToks (nD := nD) (τ := τ) cfgs Gen.cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hG : (bigSep Finset.univ (fun d : Dev nD => G (F := F) d) : sProp 𝕄)
      = iprop((bigSep Finset.univ fun c : Dev nD => bigSep Finset.univ fun p : Fin 1 => Pipeline.cellsGhost cfgs EP p c)
          ∗ (bigSep Finset.univ fun c : Dev nD => bigSep Finset.univ fun p : Fin 1 => (Pipeline.toksInit cfgs EP p c : sProp 𝕄))) := by
    rw [← bigSep_sep']
    refine bigSep_congr fun c _ => ?_
    rw [show (Finset.univ : Finset (Fin 1)) = {0} from rfl, bigSep_singleton, bigSep_singleton]
  unfold u₀
  iintro Hu
  ihave H := (ownU_pair _ _) $$ Hu
  icases H with ⟨HH, HR⟩
  ihave H2 := (own_pair_emb embR _ _) $$ HR
  icases H2 with ⟨HP, -⟩
  rw [show ((Emb.inl : Emb UP (UP × Counters)).trans (embR : Emb (UP × Counters) 𝕄)) = EP from rfl]
  imod (Pipeline.fund_ghost cfgs EP Gen.cellOf_inj) $$ HP with ⟨Hg, Ht⟩
  imodintro
  isplitl [HH]; · iexact HH
  isplitl [Hg Ht]
  · rw [hG]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## The TensorCore call's contract -/

/-- The recorded waits the TensorCore may hold after the SparseCore call: those at level at most eight. -/
abbrev BB (d : Dev nD) : Set (SemLoc sig × HIx 1) := {p | (K (F := F)).lev (SparseCore.T d, p.1) p.2 ≤ 8 * 1}

/-- The TensorCore call's own waits are among them: they sit at no call's index, level zero. -/
theorem hBB (d : Dev nD) : cfg1.waitPairs (none : HIx 1) ⊆ BB (F := F) d := by
  rintro p ⟨w, s, rfl⟩
  show (K (F := F)).lev _ none ≤ 8 * 1
  rw [SparseCore.Cfg.lev_none]; exact Nat.zero_le _

/-- After its one SparseCore call the TensorCore owes nothing. -/
theorem hOtc (d : Dev nD) (g : GSem nD τ sig) : (K (F := F)).Otc d 1 g none = 0 := by
  rw [(K (F := F)).Otc_end d (le_refl 1)]; rfl

/-- What the TensorCore call does (proved beside this module), at any contents `Vl` of the TensorCore's buffers: from the
    region boundary, its five operands and its result array whole, what the TensorCore owes with its recorded waits
    among those above, the level facts and the funded staging cells, it leaves the operands as they were and the result
    array at the call's value of them. -/
def RegionSpec : Prop :=
  ∀ (Vl : Dev nD → Valuation τ sig (Elt F)) (d : Dev nD),
    (iprop(boundary (SparseCore.T d)
        ∗ (((SparseCore.T d).loc main_v1 ↦{fullShare} Vl d r_v1) ∗ ((SparseCore.T d).loc main_v2 ↦{fullShare} Vl d r_v2)
          ∗ ((SparseCore.T d).loc main_v3 ↦{fullShare} Vl d r_v3) ∗ ((SparseCore.T d).loc main_v4 ↦{fullShare} Vl d r_v4)
          ∗ ((SparseCore.T d).loc main_v6 ↦{fullShare} Vl d r_v6) ∗ ((SparseCore.T d).loc main_v7 ↦{fullShare} Vl d r_v7))
        ∗ (∃ W : Waits sig (HIx 1), ⌜(↑W : Set (SemLoc sig × HIx 1)) ⊆ BB (F := F) d⌝ ∗ owes (SparseCore.T d) ((K (F := F)).Otc d 1) W)
        ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => iprop(boundary (SparseCore.T d)
            ∗ (((SparseCore.T d).loc main_v1 ↦{fullShare} Vl d r_v1) ∗ ((SparseCore.T d).loc main_v2 ↦{fullShare} Vl d r_v2)
              ∗ ((SparseCore.T d).loc main_v3 ↦{fullShare} Vl d r_v3) ∗ ((SparseCore.T d).loc main_v4 ↦{fullShare} Vl d r_v4)
              ∗ ((SparseCore.T d).loc main_v6 ↦{fullShare} Vl d r_v6)
              ∗ ((SparseCore.T d).loc main_v7 ↦{fullShare} tcOut (Vl d r_v1) (Vl d r_v2) (Vl d r_v3) (Vl d r_v4) (Vl d r_v6)))
            ∗ (∃ W : Waits sig (HIx 1), ⌜(↑W : Set (SemLoc sig × HIx 1)) ⊆ BB (F := F) d⌝ ∗ owes (SparseCore.T d) ((K (F := F)).Otc d 1) W))

/-! ## @main on the TensorCore -/

/-- @main on device `d`'s TensorCore: the reshape; the SparseCore call, from the four arrays it reads and the pooled
    array; nine host operations; the TensorCore call, from its six arrays; the slice. -/
theorem hmain (hs : SplitFacts (F := F)) (hregion : RegionSpec (F := F) tcOut) (κ : GSem nD τ sig → ℕ) (d : Dev nD) :
    iprop((K (F := F)).ctx EH (P (mK m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m tcOut d) := by
  unfold SparseCore.Cfg.tcRes
  rw [unscoped_held]
  simp only [main, fn_pad.body, fn_pad_0.body, wp_bind, wp_pure]
  iintro ⟨#Hctx, Hst, ⟨Hb, Hheld, -, -⟩, Hcg, Htk⟩
  -- the reshape of the index tensor
  iapply (StableHlo.wp_hlo_within 𝒱 (SparseCore.T d) none Set.univ (op := opIdx) (S := UC) hIdx (V := W0 m d)) $$ [Hb Hheld]
  · isplitl [Hb]; · iexact Hb
    iexact Hheld
  iintro ⟨Hb, Hheld⟩
  rw [wp_ret]; imodintro
  ihave Hheld := (held_cast (W1_def m d) d) $$ Hheld
  -- the SparseCore call: a share of the four arrays it reads and the pooled array to each SparseCore, and back
  ihave Hh := (scPre m d) $$ Hheld
  icases Hh with ⟨Hops, Hrest⟩
  ihave Hh := (handOver (mK m) hs d) $$ Hops
  icases Hh with ⟨Hkeep, Hsts⟩
  iapply ((K (F := F)).wp_run (D (F := F)) 𝒱 (EH := EH) (P := P (mK m)) κ d 0) $$ [Hst Hsts Hb Hrest Hkeep Hcg Htk]
  isplitr; · iexact Hctx
  isplitl [Hst]; · iexact Hst
  isplitl [Hsts]; · iexact Hsts
  iintro ⟨Hst, Hdn⟩
  ihave Hh := (handBack (mK m) hs d) $$ [Hkeep Hdn]
  · isplitl [Hkeep]; · iexact Hkeep
    iexact Hdn
  ihave Hheld := (scPost m d) $$ [Hh Hrest]
  · isplitl [Hh]; · iexact Hh
    iexact Hrest
  -- the weights: reshapes, the padding constants' conversions, the pads
  iapply (StableHlo.wp_hlo_within 𝒱 (SparseCore.T d) none Set.univ (op := opW1) (S := UC) hW1 (V := W2 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opB1) (S := UC) hB1 (V := M1 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opC) (S := UC) hC (V := M2 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opCf) (S := UC) hCf (V := M3 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opW2) (S := UC) hW2 (V := M4 m d)) $$ [Hb Hheld]
  · isplitl [Hb]; · iexact Hb
    iexact Hheld
  iintro ⟨Hb, Hheld⟩
  rw [wp_ret]; imodintro; imodintro
  iapply (StableHlo.wp_hlo_within 𝒱 (SparseCore.T d) none Set.univ (op := opC') (S := UC) hC' (V := M5 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opCf') (S := UC) hCf' (V := M6 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opB2) (S := UC) hB2 (V := M7 m d)) $$ [Hb Hheld]
  · isplitl [Hb]; · iexact Hb
    iexact Hheld
  iintro ⟨Hb, Hheld⟩
  rw [wp_ret]; imodintro; imodintro
  iapply (StableHlo.wp_hlo_within 𝒱 (SparseCore.T d) none Set.univ (op := opB2r) (S := UC) hB2r (V := M8 m d)) $$ [Hb Hheld]
  · isplitl [Hb]; · iexact Hb
    iexact Hheld
  iintro ⟨Hb, Hheld⟩
  rw [wp_ret]; imodintro
  -- the TensorCore call, from its six arrays, what the TensorCore owes, the level facts and the staging cells
  ihave Hheld := (held_cast (W3_def m d) d) $$ Hheld
  ihave Hh := (tcPre m d) $$ Hheld
  icases Hh with ⟨Hsix, Hrest⟩
  unfold SparseCore.Cfg.tcSt
  icases Hst with ⟨⟨%W, %hW, HO⟩, Hst'⟩
  ihave Hlev := (SparseCore.Cfg.ctx_levAts κ) $$ Hctx
  iapply (wp_wand_r frame _ Set.univ) $$ [Hb Hsix HO Hlev Hcg Htk Hrest Hst']
  isplitl [Hb Hsix HO Hlev Hcg Htk]
  · iapply (hregion (fun c => W3 m c) d)
    isplitl [Hb]; · iexact Hb
    isplitl [Hsix]; · iexact Hsix
    isplitl [HO]
    · iexists W
      isplitr; · ipureintro; exact fun p hp => hW p (Finset.mem_coe.mp hp)
      iexact HO
    isplitl [Hlev]; · iexact Hlev
    isplitl [Hcg]; · iexact Hcg
    iexact Htk
  iintro %_ ⟨Hb, Hsix, %W', %hW', HO⟩
  ihave Hheld := (tcPost m tcOut d) $$ [Hsix Hrest]
  · isplitl [Hsix]; · iexact Hsix
    iexact Hrest
  -- the slice
  iapply (StableHlo.wp_hlo_within 𝒱 (SparseCore.T d) none Set.univ (op := opOut) (S := UC) hOut (V := W4 m tcOut d)) $$ [Hb Hheld]
  · isplitl [Hb]; · iexact Hb
    iexact Hheld
  iintro ⟨Hb, Hheld⟩
  rw [wp_ret]; imodintro; imodintro
  isplitl [HO Hst']
  · isplitl [HO]
    · iexists W'
      isplitr; · ipureintro; exact fun p hp => hW' (Finset.mem_coe.mpr hp)
      iexact HO
    · iexact Hst'
  · iapply (finPost m tcOut d)
    iapply (held_cast (W5_def m tcOut d) d)
    iexact Hheld

/-! ## The final memory reads the claim -/

def fq (d : Dev nD) (s' : Phys nD τ sig (Elt F)) : Prop :=
  s'.mem.mem ((SparseCore.T d).loc main_v8) = outOf m tcOut d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ s'.mem.mem ((SparseCore.T d).loc main_arg6) = m ((SparseCore.T d).loc main_arg6) ∧ s'.mem.mem ((SparseCore.T d).loc main_arg7) = m ((SparseCore.T d).loc main_arg7)

theorem hfin (d : Dev nD) (s' : Phys nD τ sig (Elt F)) : iprop(FIN m tcOut d ∗ SI s') ⊢ (⌜fq m tcOut d s'⌝ : sProp 𝕄) := by
  unfold FIN
  iintro ⟨⟨H0, H1, H2, H3, H4, H5, H6, H7, H8⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  ipureintro
  exact ⟨funext fun i => h8 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i), funext fun i => h6 i (Finset.mem_univ i), funext fun i => h7 i (Finset.mem_univ i)⟩

/-! ## The program's run -/

/-- The claim's post: on every device the result at the kernel's value, the eight arguments unchanged. -/
def QC : PUnit × MemSt nD τ sig (Elt F) → Prop := fun r => ∀ c : Dev nD,
  r.2.mem ((SparseCore.T c).loc main_v8) = outOf m tcOut c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5)
    ∧ r.2.mem ((SparseCore.T c).loc main_arg6) = m ((SparseCore.T c).loc main_arg6) ∧ r.2.mem ((SparseCore.T c).loc main_arg7) = m ((SparseCore.T c).loc main_arg7)

/-- The kernel program's run, by the launch theorem: from the vector subcores' task (the body obligation), how a
    SparseCore's operands split among its sixteen subcores, @main on the TensorCore, and the launch element. -/
theorem run_main [∀ e, Nonempty (Elt F e)] (hregion : RegionSpec (F := F) tcOut)
    (htile : (K (F := F)).TileObl (D (F := F)) 𝒱 (P (mK m)) v₀ 0) :
    θ_run (Cert.KernelIdeal.defs (F := F)) (Cert.KernelIdeal.threads (F := F)) ⟨m, fun _ => 0, ρ⟩ (QC m tcOut) :=
  SparseCore.Cfg.θ_run_sc (K := K (F := F)) (D := D (F := F)) (𝒱 := 𝒱) (EH := EH) (P := P (mK m)) facts v₀
    (fun q hq => match q with | 0 => absurd hq (show ¬ scKind 0 = .scScalar by decide))
    (fun q _ => match q with | 0 => htile)
    (fun q _ => match q with | 0 => SparseCore.Cfg.VecSplit.of_plain (vecSplit (mK m)))
    m ρ main (fun d => G (F := F) d) (FIN m tcOut) (u₀ (F := F)) (sep_elim_left.trans (hu₀ (mK m))) (hmain m ρ tcOut splitFacts hregion) (fq m tcOut) (hfin m tcOut)
    (QC m tcOut) (fun _ h => h)

end Cert.KernelIdeal.Sc

end
-- ==== Proof.TcPay.lean ====
/-
  The arithmetic of the TensorCore call of this program, as pure terms generic in the float values: what one grid
  point computes from its block of the pooled array and the four small arrays (`tcPay`), block `t` of the pooled
  array (`pooledBlock`), and the whole result array as a function of the whole inputs (`tcOut`): row `r` of the
  result lies in block `r / 512`, at row `r % 512` of that block's `tcPay`.
-/
import proofs.«207262_g39728447488703_cont_8to1_b_1934_40_alg».proof.KernelIdeal
import Idealize.ShloMosaic.Lib.ValueIdx

noncomputable section

namespace Cert.KernelIdeal.TcRegion

open Cert.KernelIdeal
open Cert.KernelIdeal.Shapes1.Facts₀
open Idealize.ShloMosaic
open Idealize.ShloMosaic.ValueIdx (ix2 ix3)

variable {F : FTy → Type} [FloatOps F] [Named F]
variable [Facts]

/-! ## One grid point -/

/-- Plane `k` of a block of the pooled array, as a matrix of 512 rows and 128 columns. -/
abbrev plane0 (p : FVec F S3x512x128 .f32) : FVec F S512x128 .f32 :=
  shapeCast S512x128 (extractStridedSlice S1x512x128 ![0, 0, 0] (shapeCast S3x512x128 p shapeCasts_S3x512x128_S3x512x128) slices_S3x512x128_o0_0_0_S1x512x128) shapeCasts_S1x512x128_S512x128
abbrev plane1 (p : FVec F S3x512x128 .f32) : FVec F S512x128 .f32 :=
  shapeCast S512x128 (extractStridedSlice S1x512x128 ![1, 0, 0] (shapeCast S3x512x128 p shapeCasts_S3x512x128_S3x512x128) slices_S3x512x128_o1_0_0_S1x512x128) shapeCasts_S1x512x128_S512x128
abbrev plane2 (p : FVec F S3x512x128 .f32) : FVec F S512x128 .f32 :=
  shapeCast S512x128 (extractStridedSlice S1x512x128 ![2, 0, 0] (shapeCast S3x512x128 p shapeCasts_S3x512x128_S3x512x128) slices_S3x512x128_o2_0_0_S1x512x128) shapeCasts_S1x512x128_S512x128
/-- Slab `k` of the first weight, 128 rows and 256 columns. -/
abbrev slab0 (w1 : FVec F S3x128x256 .f32) : FVec F S128x256 .f32 :=
  shapeCast S128x256 (extractStridedSlice S1x128x256 ![0, 0, 0] (shapeCast S3x128x256 w1 shapeCasts_S3x128x256_S3x128x256) slices_S3x128x256_o0_0_0_S1x128x256) shapeCasts_S1x128x256_S128x256
abbrev slab1 (w1 : FVec F S3x128x256 .f32) : FVec F S128x256 .f32 :=
  shapeCast S128x256 (extractStridedSlice S1x128x256 ![1, 0, 0] (shapeCast S3x128x256 w1 shapeCasts_S3x128x256_S3x128x256) slices_S3x128x256_o1_0_0_S1x128x256) shapeCasts_S1x128x256_S128x256
abbrev slab2 (w1 : FVec F S3x128x256 .f32) : FVec F S128x256 .f32 :=
  shapeCast S128x256 (extractStridedSlice S1x128x256 ![2, 0, 0] (shapeCast S3x128x256 w1 shapeCasts_S3x128x256_S3x128x256) slices_S3x128x256_o2_0_0_S1x128x256) shapeCasts_S1x128x256_S128x256

/-- The hidden layer of one block of 512 examples: the three planes times the three slabs, each product into a zero
    accumulator, summed, plus the first bias on every row, clamped below at zero. -/
noncomputable def tcHidden (p : FVec F S3x512x128 .f32) (w1 : FVec F S3x128x256 .f32) (b1 : FVec F S1x256 .f32) : FVec F S512x256 .f32 :=
  maximumf
    (addf
      (addf
        (addf (matmul dot_S512x128_S128x256_S512x256_1_0_0_1_n_n none (plane0 p) (slab0 w1) (constant S512x256 .f32 0x00000000#32))
          (matmul dot_S512x128_S128x256_S512x256_1_0_0_1_n_n none (plane1 p) (slab1 w1) (constant S512x256 .f32 0x00000000#32)))
        (matmul dot_S512x128_S128x256_S512x256_1_0_0_1_n_n none (plane2 p) (slab2 w1) (constant S512x256 .f32 0x00000000#32)))
      (broadcastTo S512x256 (shapeCast S1x256 b1 shapeCasts_S1x256_S1x256) broadcasts_S1x256_S512x256))
    (broadcast S512x256 (Scalar.ofBits .f32 0x00000000#32))

/-- What one grid point stores: the hidden layer times the second weight, into a zero accumulator, plus the second
    bias on every row. -/
noncomputable def tcPay (p : FVec F S3x512x128 .f32) (w1 : FVec F S3x128x256 .f32) (b1 : FVec F S1x256 .f32)
    (w2 : FVec F S256x128 .f32) (b2 : FVec F S1x128 .f32) : FVec F S512x128 .f32 :=
  addf
    (matmul dot_S512x256_S256x128_S512x128_1_0_0_1_n_n none (tcHidden p w1 b1) (shapeCast S256x128 w2 shapeCasts_S256x128_S256x128) (constant S512x128 .f32 0x00000000#32))
    (broadcastTo S512x128 (shapeCast S1x128 b2 shapeCasts_S1x128_S1x128) broadcasts_S1x128_S512x128)

/-! ## The whole arrays -/

/-- Block `t` of the pooled array: rows `512 t … 512 t + 511` of each of the three planes. -/
def pooledBlock (p : Vec F S3x4096x128 .f32) (t : Fin 8) : Vec F S3x512x128 .f32 :=
  fun y => p (ix3 (n0 := 3) (n1 := 4096) (n2 := 128) (y 0)
    ⟨512 * t.val + (y 1).val, by have h1 : (y 1).val < 512 := (y 1).isLt; have h2 := t.isLt; omega⟩ (y 2))

/-- The whole result array: row `r` lies in block `r / 512`, at row `r % 512` of `tcPay` of that block of the
    pooled array and the four whole small arrays. -/
def tcOut (p : Vec F S3x4096x128 .f32) (w1 : Vec F S3x128x256 .f32) (b1 : Vec F S1x256 .f32)
    (w2 : Vec F S256x128 .f32) (b2 : Vec F S1x128 .f32) : Vec F S4096x128 .f32 :=
  fun i => tcPay (pooledBlock p ⟨(i 0).val / 512, by have h : (i 0).val < 4096 := (i 0).isLt; omega⟩) w1 b1 w2 b2
    (ix2 (n0 := 512) (n1 := 128) ⟨(i 0).val % 512, Nat.mod_lt _ (by decide)⟩ (i 1))

/-- The result array at an index of block `t`. -/
theorem tcOut_at (p : Vec F S3x4096x128 .f32) (w1 : Vec F S3x128x256 .f32) (b1 : Vec F S1x256 .f32)
    (w2 : Vec F S256x128 .f32) (b2 : Vec F S1x128 .f32) (t : Fin 8) (i : S4096x128.Idx) (j : S512x128.Idx)
    (h0 : (i 0).val = 512 * t.val + (j 0).val) (h1 : (i 1).val = (j 1).val) :
    tcOut p w1 b1 w2 b2 i = tcPay (pooledBlock p t) w1 b1 w2 b2 j := by
  have hj : (j 0).val < 512 := (j 0).isLt
  have ht : (⟨(i 0).val / 512, by have h : (i 0).val < 4096 := (i 0).isLt; omega⟩ : Fin 8) = t :=
    Fin.ext (by show (i 0).val / 512 = t.val; omega)
  have hx : ix2 (n0 := 512) (n1 := 128) ⟨(i 0).val % 512, Nat.mod_lt _ (by decide)⟩ (i 1) = j := by
    funext a
    match a with
    | ⟨0, _⟩ => exact Fin.ext (by show (i 0).val % 512 = (j 0).val; omega)
    | ⟨1, _⟩ => exact Fin.ext h1
  unfold tcOut
  rw [ht, hx]

end Cert.KernelIdeal.TcRegion

end
-- ==== Proof.TcRegion.lean ====
/-
  The TensorCore call inside this program: its body run once at a symbolic grid point (`sound_kernel`), the
  pipeline's proof data and body obligation, the region as the pipeline library's record (`reg`), the result array
  after the region as one function of the five input arrays (`finalOut_eq`: the blocks the eight points write back
  tile it), and the region's rule in the program's own signature (`region_wp`).
-/
import proofs.«207262_g39728447488703_cont_8to1_b_1934_40_alg».proof.Proof.Gen.KernelIdeal.Launch
import proofs.«207262_g39728447488703_cont_8to1_b_1934_40_alg».proof.Proof.TcPay
import proofs.«207262_g39728447488703_cont_8to1_b_1934_40_alg».proof.Proof.Gen.KernelIdeal.Points
import proofs.«207262_g39728447488703_cont_8to1_b_1934_40_alg».proof.Proof.Gen.KernelIdeal.Skeleton
import Idealize.ShloMosaic.Lib.Tactic
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.SparseCore.Launch
import Idealize.ShloMosaic.Lib.ValueIdx

noncomputable section

namespace Cert.KernelIdeal.TcRegion

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {Name : Type} [DecidableEq Name] {U : Type} [URA U]

local notation "𝕄" => MT nD τ sig (HIx 1) (Elt F) Name U ℕ

/-! ## The body's arithmetic -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed body's stored value is `tcPay` of the values it loads. -/
theorem pay_eq (v0 : Vec F S3x512x128 .f32) (v2 : Vec F S3x128x256 .f32) (v21 : Vec F S1x256 .f32) (v27 : Vec F S256x128 .f32) (v30 : Vec F S1x128 .f32) :
    k1_pay1 v0 v2 v21 v27 v30 = tcPay v0 v2 v21 v27 v30 := rfl

/-! ## The body's triple -/

set_option maxHeartbeats 1000000 in
/-- The body on whole staging memrefs — the five inputs' at read contents, the output's at anything — runs to the
    continuation holding the inputs' as they were and the output's at `tcPay` of the inputs'. -/
theorem sound_kernel (c : Dev nD) (E : Set Name) (i : grid1.Coords)
    (arg1 : Memref sig .tc .vmem S3x512x128 .f32) (harg1 : arg1.IsWhole) (arg2 : Memref sig .tc .vmem S3x128x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S512x128 .f32) (harg6 : arg6.IsWhole)
    (x0 : Vec F S3x512x128 .f32) (x1 : Vec F S3x128x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tcPay x0 x1 x2 x3 x4)) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => ⟨_, List.mem_singleton_self _, View.mem_set_unit_zero hz2 inb_S512x128_S512x128_0_0 y⟩)).trans ?_
  rw [View.canon_unit_zero hz2]
  simp only [View.readAt_eq_ld, View.ld_unit_zero (S := S3x512x128) hz3, View.ld_unit_zero (S := S3x128x256) hz3,
    View.ld_unit_zero (S := S1x256) hz2, View.ld_unit_zero (S := S256x128) hz2, View.ld_unit_zero (S := S1x128) hz2]
  exact pay_eq _ _ _ _ _

/-! ## The pipeline's proof data -/

variable (Vl : (c : Dev nD) → (b : Ref sig .tc) → Buf (Elt F) ((c : Thread nD τ).loc b))
variable (O : Dev nD → CellTallies nD τ sig (HIx 1)) (B : Dev nD → Set (SemLoc sig × HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vl c (Pipeline.arrRef spec1 w))

/-- The proof data on core `c`: the arrays as the region finds them; after the body at point `t` each input's buffer
    at its block and the output's at `tcPay` of the input blocks; the invariant the scoped buffers no window stages;
    the core owing `O c` throughout, its recorded pairs within `B c`; full shares. -/
def dats (_ : Fin 1) (c : Dev nD) : Dat τ (Elt F) (HIx 1) Name U ℕ cfg1 c where
  A w := Vl c (Pipeline.arrRef spec1 w)
  after w t := match w with
    | ⟨0, _⟩ => iblk Vl c 0 t
    | ⟨1, _⟩ => iblk Vl c 1 t
    | ⟨2, _⟩ => iblk Vl c 2 t
    | ⟨3, _⟩ => iblk Vl c 3 t
    | ⟨4, _⟩ => iblk Vl c 4 t
    | ⟨5, _⟩ => tcPay (iblk Vl c 0 t) (iblk Vl c 1 t) (iblk Vl c 2 t) (iblk Vl c 3 t) (iblk Vl c 4 t)
  Φ _ := Pipeline.scopedRest (Ix := HIx 1) (Name := Name) (U := U) (Lvl := ℕ) (Val := Elt F) spec1 c
  q _ := fullShare
  owed _ := O c
  recorded _ := B c

local notation "𝔡" => dats (Name := Name) (U := U) Vl O B 0

theorem A_eq (c : Dev nD) (w : Fin cfg1.W) : (𝔡 c).A w = Vl c (Pipeline.arrRef spec1 w) := by
  dsimp only [dats]

theorem after1_0 (c : Dev nD) (t : Fin cfg1.N) : (𝔡 c).after 0 t = iblk Vl c 0 t := by dsimp only [dats]
theorem after1_1 (c : Dev nD) (t : Fin cfg1.N) : (𝔡 c).after 1 t = iblk Vl c 1 t := by dsimp only [dats]
theorem after1_2 (c : Dev nD) (t : Fin cfg1.N) : (𝔡 c).after 2 t = iblk Vl c 2 t := by dsimp only [dats]
theorem after1_3 (c : Dev nD) (t : Fin cfg1.N) : (𝔡 c).after 3 t = iblk Vl c 3 t := by dsimp only [dats]
theorem after1_4 (c : Dev nD) (t : Fin cfg1.N) : (𝔡 c).after 4 t = iblk Vl c 4 t := by dsimp only [dats]
theorem after1_5 (c : Dev nD) (t : Fin cfg1.N) :
    (𝔡 c).after 5 t = tcPay (iblk Vl c 0 t) (iblk Vl c 1 t) (iblk Vl c 2 t) (iblk Vl c 3 t) (iblk Vl c 4 t) := by dsimp only [dats]

/-- Each input's current staging buffer holds its block at every point, fetched there or not: unfetched, the block
    index has not moved. -/
theorem before1_0 (c : Dev nD) (t : Fin cfg1.N) (d) : (𝔡 c).before 0 t d = iblk Vl c 0 t :=
  ((𝔡 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (𝔡 c).before 1 t d = iblk Vl c 1 t :=
  ((𝔡 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (𝔡 c).before 2 t d = iblk Vl c 2 t :=
  ((𝔡 c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (𝔡 c).before 3 t d = iblk Vl c 3 t :=
  ((𝔡 c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (𝔡 c).before 4 t d = iblk Vl c 4 t :=
  ((𝔡 c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((𝔡 c).Φ t.castSucc ∗ (𝔡 c).owesAt none t.castSucc
    ∗ (∃ d, owns (c : Thread nD τ) (st1_0 t) fullShare ((𝔡 c).before 0 t d))
    ∗ (∃ d, owns (c : Thread nD τ) (st1_1 t) fullShare ((𝔡 c).before 1 t d))
    ∗ (∃ d, owns (c : Thread nD τ) (st1_2 t) fullShare ((𝔡 c).before 2 t d))
    ∗ (∃ d, owns (c : Thread nD τ) (st1_3 t) fullShare ((𝔡 c).before 3 t d))
    ∗ (∃ d, owns (c : Thread nD τ) (st1_4 t) fullShare ((𝔡 c).before 4 t d))
    ∗ (∃ d, owns (c : Thread nD τ) (st1_5 t) fullShare ((𝔡 c).before 5 t d)))

/-- and what it returns. -/
def bodyPost (c : Dev nD) (t : Fin cfg1.N) : sProp 𝕄 :=
  iprop((𝔡 c).Φ t.succ ∗ (𝔡 c).owesAt none t.succ
    ∗ owns (c : Thread nD τ) (st1_0 t) fullShare ((𝔡 c).after 0 t)
    ∗ owns (c : Thread nD τ) (st1_1 t) fullShare ((𝔡 c).after 1 t)
    ∗ owns (c : Thread nD τ) (st1_2 t) fullShare ((𝔡 c).after 2 t)
    ∗ owns (c : Thread nD τ) (st1_3 t) fullShare ((𝔡 c).after 3 t)
    ∗ owns (c : Thread nD τ) (st1_4 t) fullShare ((𝔡 c).after 4 t)
    ∗ owns (c : Thread nD τ) (st1_5 t) fullShare ((𝔡 c).after 5 t))

/-- The body at any point: the inputs' memrefs hold their blocks, so `sound_kernel` applies; the invariant and the
    core's `owes` pass through unread. -/
theorem sound_body (c : Dev nD) (t : Fin cfg1.N) :
    bodyPre (Name := Name) (U := U) Vl O B c t ⊢ wp frame (wpE (defs₀ (F := F)) Variants.none c none) Set.univ (bodyAt1 t) (fun _ => bodyPost (Name := Name) (U := U) Vl O B c t) := by
  unfold bodyPre bodyPost bodyAt1
  simp only [before1_0, before1_1, before1_2, before1_3, before1_4]
  rw [show (𝔡 c).Φ t.succ = (𝔡 c).Φ t.castSucc from rfl,
    show (𝔡 c).owesAt none t.succ = (𝔡 c).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk Vl c 0 t) (iblk Vl c 1 t) (iblk Vl c 2 t) (iblk Vl c 3 t) (iblk Vl c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (𝔡 c) (defs₀ (F := F)) Variants.none none Set.univ := fun t => by
  rw [bigSep_W1, bigSep_W1]
  exact sound_body Vl O B c t

/-! ## The region -/

/-- The prefetched tables' admissible contents: no table. -/
abbrev adm : (p : Fin 1) → (pcfgs (F := F) p).Adm := fun p => (cfgs p).toPCfg_adm
abbrev 𝒱₀ : Variants := Variants.none

variable (EP : Emb (URounds (GSem nD τ sig) Unit) (MT nD τ sig (HIx 1) (Elt F) Name U ℕ))
variable (lv : GSem nD τ sig → HIx 1 → ℕ)

/-- The six arrays of the call on core `c`, each whole: the five inputs at the contents the region finds, the
    result at `o`. -/
def arrs (c : Dev nD) (o : Buf (Elt F) ((c : Thread nD τ).loc main_v7)) : sProp 𝕄 :=
  iprop((((c : Thread nD τ).loc main_v1) ↦{fullShare} Vl c main_v1) ∗ (((c : Thread nD τ).loc main_v2) ↦{fullShare} Vl c main_v2)
    ∗ (((c : Thread nD τ).loc main_v3) ↦{fullShare} Vl c main_v3) ∗ (((c : Thread nD τ).loc main_v4) ↦{fullShare} Vl c main_v4)
    ∗ (((c : Thread nD τ).loc main_v6) ↦{fullShare} Vl c main_v6) ∗ (((c : Thread nD τ).loc main_v7) ↦{fullShare} o))

/-- What the core owes, its recorded pairs within `B c`. -/
def owesB (c : Dev nD) : sProp 𝕄 := iprop(∃ W : Waits sig (HIx 1), ⌜(↑W : Set (SemLoc sig × HIx 1)) ⊆ B c⌝ ∗ owes (c : Thread nD τ) (O c) W)

/-- The result array after the region, as the pipeline library computes it from the proof data. -/
def finalOut (c : Dev nD) : Buf (Elt F) ((c : Thread nD τ).loc main_v7) := (𝔡 c).arrAt 5 cfg1.N

theorem share_full (c : Dev nD) (w : Fin cfg1.W) : (𝔡 c).share w = fullShare := (𝔡 c).share_full (fun _ => rfl) w

/-- An input array is never written: at every point it holds what the region found. -/
theorem arrAt_in0 (c : Dev nD) (n : Nat) : (𝔡 c).arrAt 0 n = Vl c main_v1 := ((𝔡 c).arrAt_in 0 rfl n).trans (A_eq Vl O B c 0)
theorem arrAt_in1 (c : Dev nD) (n : Nat) : (𝔡 c).arrAt 1 n = Vl c main_v2 := ((𝔡 c).arrAt_in 1 rfl n).trans (A_eq Vl O B c 1)
theorem arrAt_in2 (c : Dev nD) (n : Nat) : (𝔡 c).arrAt 2 n = Vl c main_v3 := ((𝔡 c).arrAt_in 2 rfl n).trans (A_eq Vl O B c 2)
theorem arrAt_in3 (c : Dev nD) (n : Nat) : (𝔡 c).arrAt 3 n = Vl c main_v4 := ((𝔡 c).arrAt_in 3 rfl n).trans (A_eq Vl O B c 3)
theorem arrAt_in4 (c : Dev nD) (n : Nat) : (𝔡 c).arrAt 4 n = Vl c main_v6 := ((𝔡 c).arrAt_in 4 rfl n).trans (A_eq Vl O B c 4)

set_option backward.isDefEq.respectTransparency.types false in
/-- THE REGION as the pipeline library's record: the windows' layout facts, no semaphore of the kernel's own, the body
    obligation, the wait evidence from the level facts (the staging cells wait at index `none`, below everything the
    core owes); entered from the six arrays and the core's `owes`, left with the result array at `finalOut`. -/
def reg (hO : ∀ c g, O c g none = 0) (hB : ∀ c, cfg1.waitPairs none ⊆ B c) (hlv : (sc (F := F)).Refines lv) :
    Pipeline.RegionSeg (pcfgs (F := F)) adm (dats (Name := Name) (U := U) Vl O B) none defs₀ 𝒱₀ (sc (F := F)).L lv 0 where
  win := launch1.win.to₀
  block_pos := launch1.block_pos
  stage_whole := launch1.stage_whole
  K := PEmpty
  osem := fun k => k.elim
  ho := Pipeline.OwnSemFacts.none _
  hbody c := (body_obligation Vl O B c).loose
  hwaits c := Pipeline.cellsWaits_intro (Pipeline.pin pcfgs adm) (dats (Name := Name) (U := U) Vl O B) none 0 c
    (R := levAts (sc (F := F)).L lv) fun w s t => (sc (F := F)).mayWait_none _ (hO c) lv hlv
  pre c := iprop(arrs (Name := Name) (U := U) Vl c (Vl c main_v7) ∗ owesB (Name := Name) (U := U) O B c)
  post c := iprop(arrs (Name := Name) (U := U) Vl c (finalOut (Name := Name) (U := U) Vl O B c) ∗ owesB (Name := Name) (U := U) O B c)
  X _ := iprop(emp)
  Y _ := iprop(emp)
  Z _ := iprop(emp)
  hentry c := by
    rw [Pipeline.arrays_eq (Pipeline.pin pcfgs adm) (dats (Name := Name) (U := U) Vl O B) 0 c launch1.arr_whole (share_full Vl O B c), bigSep_W1]
    unfold arrs owesB Pipeline.Dat.owesAt Pipeline.owesWithin
    iintro ⟨⟨⟨H1, H2, H3, H4, H6, H7⟩, ⟨%W, %hW, HO⟩⟩, -, -⟩
    imodintro
    isplitl [H1 H2 H3 H4 H6 H7]
    · isplitl [H1]; · iexact H1
      isplitl [H2]; · iexact H2
      isplitl [H3]; · iexact H3
      isplitl [H4]; · iexact H4
      isplitl [H6]; · iexact H6
      iexact H7
    isplitr; · unfold Pipeline.prefHeld; rw [show (Finset.univ : Finset (Fin 0)) = ∅ from rfl, BI.bigSep_empty]; iempintro
    isplitl [HO]
    · iexists W; isplitr; · ipureintro; exact fun p hp => Or.inl (hW hp)
      iexact HO
    isplitl <;> iempintro
  hin c := by
    rw [show (𝔡 c).Φ 0 = Pipeline.scopedRest (Ix := HIx 1) (Name := Name) (U := U) (Lvl := ℕ) (Val := Elt F) spec1 c from rfl]
    iintro ⟨-, -, Hr⟩; iexact Hr
  hout c := by
    rw [show (𝔡 c).Φ (Fin.last cfg1.N) = Pipeline.scopedRest (Ix := HIx 1) (Name := Name) (U := U) (Lvl := ℕ) (Val := Elt F) spec1 c from rfl]
    iintro Hr
    isplitr; · iempintro
    isplitr
    · unfold Pipeline.ownSems0; rw [show (Finset.univ : Finset PEmpty) = ∅ from rfl, BI.bigSep_empty]; iempintro
    iexact Hr
  hexit c := by
    rw [Pipeline.arrays_eq (Pipeline.pin pcfgs adm) (dats (Name := Name) (U := U) Vl O B) 0 c launch1.arr_whole (share_full Vl O B c), bigSep_W1]
    rw [arrAt_in0, arrAt_in1, arrAt_in2, arrAt_in3, arrAt_in4]
    unfold arrs owesB Pipeline.Dat.owesAt Pipeline.owesWithin finalOut
    iintro ⟨⟨H1, H2, H3, H4, H6, H7⟩, ⟨%W, %hW, HO⟩, -, -⟩
    imodintro
    isplitl [H1 H2 H3 H4 H6 H7]
    · isplitl [H1]; · iexact H1
      isplitl [H2]; · iexact H2
      isplitl [H3]; · iexact H3
      isplitl [H4]; · iexact H4
      isplitl [H6]; · iexact H6
      iexact H7
    iexists W; isplitr
    · ipureintro; exact fun p hp => (hW hp).elim id (fun h => hB c h)
    iexact HO

/-! ## From blocks to the array -/

open Idealize.ShloMosaic.ValueIdx (ix2 ix3)

/-- The printed index maps, decided over the grid: the pooled window and the result window move with the point along
    the rows, the four small windows stay. -/
theorem idx_facts : ∀ t : Fin cfg1.N, win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_N (t : Fin cfg1.N) : t.val < 8 := lt_of_lt_of_eq t.isLt N_1

/-- The pooled window's block at point `t` is block `t` of the pooled array. -/
theorem blk0_eq (c : Dev nD) (t : Fin cfg1.N) :
    (iblk Vl c 0 t : Vec F S3x512x128 .f32) = pooledBlock (Vl c main_v1) ⟨t.val, lt_N t⟩ := by
  obtain ⟨e0, e1, e2, -⟩ := idx_facts t
  funext y
  show Vl c main_v1 (((cfg1.win 0).blk t).view.emb y) = Vl c main_v1 _
  congr 1
  funext a; apply Fin.ext
  match a with
  | ⟨0, _⟩ => show win1_0.index t (0 : Fin 3) * 3 + 1 * (y 0).val = (y 0).val; omega
  | ⟨1, _⟩ => show win1_0.index t (1 : Fin 3) * 512 + 1 * (y 1).val = 512 * t.val + (y 1).val; omega
  | ⟨2, _⟩ => show win1_0.index t (2 : Fin 3) * 128 + 1 * (y 2).val = (y 2).val; omega

/-- Each small window's block is its whole array, at every point. -/
theorem blk1_eq (c : Dev nD) (t : Fin cfg1.N) : (iblk Vl c 1 t : Vec F S3x128x256 .f32) = (Vl c main_v2 : Vec F S3x128x256 .f32) := by
  obtain ⟨-, -, -, e0, e1, e2, -⟩ := idx_facts t
  funext y
  show Vl c main_v2 (((cfg1.win 1).blk t).view.emb y) = Vl c main_v2 y
  congr 1
  funext a; apply Fin.ext
  match a with
  | ⟨0, _⟩ => show win1_1.index t (0 : Fin 3) * 3 + 1 * (y 0).val = (y 0).val; omega
  | ⟨1, _⟩ => show win1_1.index t (1 : Fin 3) * 128 + 1 * (y 1).val = (y 1).val; omega
  | ⟨2, _⟩ => show win1_1.index t (2 : Fin 3) * 256 + 1 * (y 2).val = (y 2).val; omega
theorem blk2_eq (c : Dev nD) (t : Fin cfg1.N) : (iblk Vl c 2 t : Vec F S1x256 .f32) = (Vl c main_v3 : Vec F S1x256 .f32) := by
  obtain ⟨-, -, -, -, -, -, e0, e1, -⟩ := idx_facts t
  funext y
  show Vl c main_v3 (((cfg1.win 2).blk t).view.emb y) = Vl c main_v3 y
  congr 1
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega
theorem blk3_eq (c : Dev nD) (t : Fin cfg1.N) : (iblk Vl c 3 t : Vec F S256x128 .f32) = (Vl c main_v4 : Vec F S256x128 .f32) := by
  obtain ⟨-, -, -, -, -, -, -, -, e0, e1, -⟩ := idx_facts t
  funext y
  show Vl c main_v4 (((cfg1.win 3).blk t).view.emb y) = Vl c main_v4 y
  congr 1
  funext a; apply Fin.ext
  match a with
  | ⟨0, _⟩ => show win1_3.index t (0 : Fin 2) * 256 + 1 * (y 0).val = (y 0).val; omega
  | ⟨1, _⟩ => show win1_3.index t (1 : Fin 2) * 128 + 1 * (y 1).val = (y 1).val; omega
theorem blk4_eq (c : Dev nD) (t : Fin cfg1.N) : (iblk Vl c 4 t : Vec F S1x128 .f32) = (Vl c main_v6 : Vec F S1x128 .f32) := by
  obtain ⟨-, -, -, -, -, -, -, -, -, -, e0, e1, -⟩ := idx_facts t
  funext y
  show Vl c main_v6 (((cfg1.win 4).blk t).view.emb y) = Vl c main_v6 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The whole result, as a function of what the region finds in the five input arrays. -/
abbrev outOf (c : Dev nD) : Vec F S4096x128 .f32 :=
  tcOut (Vl c main_v1) (Vl c main_v2) (Vl c main_v3) (Vl c main_v4) (Vl c main_v6)

/-- WHAT POINT `t` WRITES BACK is block `t` of the whole result. -/
theorem flushed_eq (c : Dev nD) (t : Fin cfg1.N) :
    (𝔡 c).flushed 5 t = ((cfg1.win 5).blk t).view.read (Elt F) (outOf Vl c) := by
  show (cfg1.win 5).cut (grid1.coords t) ((𝔡 c).after 5 t) = _
  rw [after1_5]
  obtain ⟨-, -, -, -, -, -, -, -, -, -, -, -, e0, e1⟩ := idx_facts t
  funext j
  show tcPay (iblk Vl c 0 t) (iblk Vl c 1 t) (iblk Vl c 2 t) (iblk Vl c 3 t) (iblk Vl c 4 t) j
    = tcOut (Vl c main_v1) (Vl c main_v2) (Vl c main_v3) (Vl c main_v4) (Vl c main_v6) (((cfg1.win 5).blk t).view.emb j)
  rw [blk0_eq Vl c t, blk1_eq Vl c t, blk2_eq Vl c t, blk3_eq Vl c t, blk4_eq Vl c t]
  refine (tcOut_at _ _ _ _ _ ⟨t.val, lt_N t⟩ _ j ?_ ?_).symm
  · show win1_5.index t (0 : Fin 2) * 512 + 1 * (j 0).val = 512 * t.val + (j 0).val; omega
  · show win1_5.index t (1 : Fin 2) * 128 + 1 * (j 1).val = (j 1).val; omega

/-- An index of the result array is in point `t`'s block iff each coordinate is in the block's range on its axis. -/
theorem mem_blk (t : Fin cfg1.N) (i : S4096x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v7).slice (win1_5.rect t)).set ↔ _
  rw [View.set_slice_whole, Rect.mem_set_unit]
  exact Iff.rfl

/-- Every row is in the block of the point `r / 512`. -/
theorem cover (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  let t : Fin cfg1.N := ⟨(i 0).val / 512, lt_of_lt_of_eq (by omega : (i 0).val / 512 < 8) N_1.symm⟩
  obtain ⟨-, -, -, -, -, -, -, -, -, -, -, -, e0, e1⟩ := idx_facts t
  have ht : t.val = (i 0).val / 512 := rfl
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 128 ≤ (i 1).val ∧ (i 1).val < win1_5.index t (1 : Fin 2) * 128 + 128; omega

/-- THE RESULT ARRAY after the region is the whole result. -/
theorem finalOut_eq (c : Dev nD) : finalOut (Name := Name) (U := U) Vl O B c = outOf Vl c :=
  (𝔡 c).arrAt_eq_of_cover 5 (outOf Vl c) (fun t _ => flushed_eq Vl O B c t) cover

/-! ## The region's rule -/

set_option backward.isDefEq.respectTransparency.types false in
/-- THE REGION, in the pipelines' own signature: from the region boundary, the six arrays whole (the result's at what
    it holds), the core's `owes`, the level facts and the pipeline's staging cells' ghost state and duty tokens, the
    region runs to the boundary, the five inputs unchanged, the result array at the whole result, the `owes` as
    they were. -/
theorem region_inner [Infinite Name] [EP.LandsIn (upEmb : UEmb _ 𝕄)]
    (hO : ∀ c g, O c g none = 0) (hB : ∀ c, cfg1.waitPairs none ⊆ B c) (hlv : (sc (F := F)).Refines lv) (d : Dev nD) :
    iprop(boundary (d : Thread nD τ) ∗ arrs (Name := Name) (U := U) Vl d (Vl d main_v7) ∗ owesB (Name := Name) (U := U) O B d
        ∗ levAts (sc (F := F)).L lv
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) 𝒱₀.lift (d : Thread nD τ) none) Set.univ
          (Prog.lift (.customCall (Pipeline.entry 0) ()))
          fun _ => iprop(boundary (d : Thread nD τ) ∗ arrs (Name := Name) (U := U) Vl d (outOf Vl d) ∗ owesB (Name := Name) (U := U) O B d) := by
  have hpost : (reg (Name := Name) (U := U) Vl O B lv hO hB hlv).post d
      ⊢ iprop(arrs (Name := Name) (U := U) Vl d (outOf Vl d) ∗ owesB (Name := Name) (U := U) O B d) := by
    show iprop(arrs (Name := Name) (U := U) Vl d (finalOut (Name := Name) (U := U) Vl O B d) ∗ owesB (Name := Name) (U := U) O B d) ⊢ _
    rw [finalOut_eq]
  have hpre : iprop(arrs (Name := Name) (U := U) Vl d (Vl d main_v7) ∗ owesB (Name := Name) (U := U) O B d)
      ⊢ (reg (Name := Name) (U := U) Vl O B lv hO hB hlv).pre d := by
    show _ ⊢ iprop(arrs (Name := Name) (U := U) Vl d (Vl d main_v7) ∗ owesB (Name := Name) (U := U) O B d)
    exact .rfl
  iintro ⟨Hb, Ha, Ho, Hl, Hg, Ht⟩
  iapply (Pipeline.RegionSeg.wp (pcfgs (F := F)) adm (dats (Name := Name) (U := U) Vl O B) none cellOf_inj EP defs₀ 𝒱₀ (sc (F := F)).L lv
    (reg Vl O B lv hO hB hlv) d none (fun u h => nomatch h) Prog.ret _)
  isplitr [Hb Ha Ho Hl Hg Ht]
  · iintro ⟨Hb, Hp⟩
    ihave Hp' := hpost $$ Hp
    sl_step
    isplitl [Hb]; · iexact Hb
    iexact Hp'
  isplitl [Hb]; · iexact Hb
  isplitl [Ha Ho]
  · iapply hpre
    isplitl [Ha] <;> iassumption
  isplitl [Hl]; · iexact Hl
  isplitl [Hg] <;> iassumption

/-- THE REGION as @main runs it, under the program's body table: `region_inner` lifted to the signature that adds
    the SparseCore calls. -/
theorem region_wp [Infinite Name] [EP.LandsIn (upEmb : UEmb _ 𝕄)]
    (hO : ∀ c g, O c g none = 0) (hB : ∀ c, cfg1.waitPairs none ⊆ B c) (hlv : (sc (F := F)).Refines lv) (d : Dev nD) :
    iprop(boundary (d : Thread nD τ) ∗ arrs (Name := Name) (U := U) Vl d (Vl d main_v7) ∗ owesB (Name := Name) (U := U) O B d
        ∗ levAts (sc (F := F)).L lv
        ∗ Pipeline.cellsGhost (Pipeline.pin (pcfgs (F := F)) adm) EP 0 d ∗ Pipeline.toksInit (Pipeline.pin (pcfgs (F := F)) adm) EP 0 d)
      ⊢ wp frame (wpE (defs (F := F)) 𝒱₀.lift (d : Thread nD τ) none) Set.univ
          (Prog.lift (.customCall (SparseCore.inner (Pipeline.entry 0)) ()))
          fun _ => iprop(boundary (d : Thread nD τ) ∗ arrs (Name := Name) (U := U) Vl d (outOf Vl d) ∗ owesB (Name := Name) (U := U) O B d) :=
  (region_inner Vl O B EP lv hO hB hlv d).trans
    ((sc (F := F)).wp_liftProg (Pipeline.defs (pcfgs (F := F)) defs₀) 𝒱₀.lift (d : Thread nD τ) Set.univ none _ _)

end Cert.KernelIdeal.TcRegion

end
-- ==== Proof.ScRun.lean ====
/-
  The kernel program's run, closed but for the vector subcores' task: the TensorCore call's contract is the theorem
  proved for the region, read at the contents the nine host operations leave, at what the TensorCore owes after its one
  SparseCore call (nothing) and at the recorded waits of level at most eight.
-/
import proofs.«207262_g39728447488703_cont_8to1_b_1934_40_alg».proof.Proof.ScMain
import proofs.«207262_g39728447488703_cont_8to1_b_1934_40_alg».proof.Proof.TcRegion

noncomputable section

namespace Cert.KernelIdeal.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- The TensorCore call's contract, from the region's theorem. -/
theorem regionSpec : RegionSpec (F := F) TcRegion.tcOut := fun Vl d =>
  TcRegion.region_wp (Name := ℕ) (U := UU) (fun c b => Vl c (Proc.devRef .tc b)) (fun c => (K (F := F)).Otc c 1) (fun c => BB (F := F) c)
    EP (K (F := F)).lev (fun c g => hOtc c g) (fun c => hBB c) (by sl_refines_lev) d

/-- The kernel program's run, from the vector subcores' task alone. -/
theorem run_main' [∀ e, Nonempty (Elt F e)] (hpre : PreOK (mK m)) (htile : (K (F := F)).TileObl (D (F := F)) 𝒱 (P (mK m)) v₀ 0) :
    θ_run (Cert.KernelIdeal.defs (F := F)) (Cert.KernelIdeal.threads (F := F)) ⟨m, fun _ => 0, ρ⟩ (QC m TcRegion.tcOut) :=
  run_main m ρ TcRegion.tcOut regionSpec htile

end Cert.KernelIdeal.Sc

end
-- ==== Proof.PreDecode.lean ====
/-
  The index range, read out of the input-domain predicate.

  The predicate is a conjunction (by `and` on one-bit words) of eight `all`-reductions; the last one reduces, over every
  index j of the [4, 4096, 50] integer array x, the bit (x[j] ≥ 0 signed) and (x[j] ≤ 99999 signed). If the whole
  predicate is the one-bit word 1, then so is its last conjunct, so every element of the reduced array is 1, so both
  comparisons hold at every j: 0 ≤ x[j] ≤ 99999 as signed integers, hence x[j] < 100000 as an unsigned integer.
  None of this looks at the float arguments, so it is stated for any float instance.
-/
import proofs.«207262_g39728447488703_cont_8to1_b_1934_40_alg».proof.Pre_input_domain
import proofs.«207262_g39728447488703_cont_8to1_b_1934_40_alg».proof.Proof.Gen.Pre_input_domain
import Idealize.ShloMosaic.Lib.ReduceAll
import Idealize.ShloMosaic.Lib.Affine
import Idealize.ShloMosaic.Lib.ValueIdx

noncomputable section

namespace Cert.PreDecode

open Idealize.ShloMosaic
open Cert.Pre_input_domain

/-- The result shape of an `all`-reduction has one index. -/
instance subsingleton_S_Idx : Subsingleton S_.Idx := ⟨fun a b => funext fun d => d.elim0⟩

/-- The one index of the rank-0 result. -/
abbrev i0 : S_.Idx := fun a => a.elim0

variable {F : FTy → Type} [FloatOps F] [Facts]

/-- The last conjunct: if the tail of the predicate (its last `and`) is 1, each x[j] is in [0, 99999], signed. -/
theorem part2_range (x : IVec S4x4096x50 32) (v : IVec S_ 1)
    (h : fn_part2 (F := F) x v = (fun _ => 1#1)) (j : S4x4096x50.Idx) :
    0 ≤ (x j).toInt ∧ (x j).toInt ≤ 99999 := by
  -- the predicate's value at its one index, its broadcasts of constants read
  have e : IntOp.andi (v i0)
      (Host.reduce IntOp.andi
        (fun i : S4x4096x50.Idx => IntOp.andi (IntOp.cmpi .sge (x i) 0#32) (IntOp.cmpi .sle (x i) 99999#32))
        (fun _ : S_.Idx => 1#1) Facts.reducesTo_S4x4096x50_S_d0_1_2 Facts.h_S_ i0) = 1#1 := congrFun h i0
  have e2 := (IntOp.andi_eq_one.1 e).2
  have e3 := Host.reduce_andi_all _ _ _ _ i0 e2 j
  obtain ⟨h0, h1⟩ := IntOp.andi_eq_one.1 e3
  have z0 : (0#32 : BitVec 32).toInt = 0 := by decide
  have z1 : (99999#32 : BitVec 32).toInt = 99999 := by decide
  have g0 := IntOp.cmpi_sge.1 h0
  have g1 := IntOp.cmpi_sle.1 h1
  rw [z0] at g0
  rw [z1] at g1
  exact ⟨g0, g1⟩

/-- THE INDEX RANGE: if the input-domain predicate is the all-ones scalar, every x[j] is in [0, 99999], signed. -/
theorem x_in_range (x : (⟨S4x4096x50, .i32⟩ : BufTy).Contents (Elt F))
    (a1 a2 a3 : (⟨S100000x128, .f32⟩ : BufTy).Contents (Elt F)) (a4 : (⟨S384x256, .f32⟩ : BufTy).Contents (Elt F))
    (a5 : (⟨S256, .f32⟩ : BufTy).Contents (Elt F)) (a6 : (⟨S256x10, .f32⟩ : BufTy).Contents (Elt F))
    (a7 : (⟨S10, .f32⟩ : BufTy).Contents (Elt F))
    (h : Cert.Pre_input_domain.fn (F := F) x a1 a2 a3 a4 a5 a6 a7 = (fun _ => 1#1)) :
    ∀ j, 0 ≤ (x j).toInt ∧ (x j).toInt ≤ 99999 :=
  fun j => part2_range (F := F) x _ h j

/-- A 32-bit word in [0, n] signed is at most n unsigned. -/
theorem toNat_of_toInt (w : BitVec 32) (n : Nat) (h0 : 0 ≤ w.toInt) (h1 : w.toInt ≤ n) : w.toNat ≤ n := by
  have h32 := w.isLt
  rw [BitVec.toInt_eq_toNat_cond] at h0 h1
  split at h0 <;> omega

/-- The unsigned form: every x[j] is below 100000. -/
theorem x_lt (x : (⟨S4x4096x50, .i32⟩ : BufTy).Contents (Elt F))
    (a1 a2 a3 : (⟨S100000x128, .f32⟩ : BufTy).Contents (Elt F)) (a4 : (⟨S384x256, .f32⟩ : BufTy).Contents (Elt F))
    (a5 : (⟨S256, .f32⟩ : BufTy).Contents (Elt F)) (a6 : (⟨S256x10, .f32⟩ : BufTy).Contents (Elt F))
    (a7 : (⟨S10, .f32⟩ : BufTy).Contents (Elt F))
    (h : Cert.Pre_input_domain.fn (F := F) x a1 a2 a3 a4 a5 a6 a7 = (fun _ => 1#1)) :
    ∀ j, (x j).toNat < 100000 := fun j => by
  obtain ⟨h0, h1⟩ := x_in_range (F := F) x a1 a2 a3 a4 a5 a6 a7 h j
  have := toNat_of_toInt (x j) 99999 h0 h1
  omega

end Cert.PreDecode

end
-- ==== Proof.PreOK.lean ====
/-
  From the input-domain predicate to the first call's requirement on its memory.

  The first call of the program runs on the launch memory after the index array [4, 4096, 50] has been reshaped to a
  flat array of 819200 words.  A reshape only moves entries, so if the input-domain predicate holds of the launch
  memory (every index word in [0, 99999], signed), every word of the flat array is below 100000: each names a row of
  the tables.  Nothing here looks at a float, so it holds for any float values.
-/
import proofs.«207262_g39728447488703_cont_8to1_b_1934_40_alg».proof.Proof.ScMain
import proofs.«207262_g39728447488703_cont_8to1_b_1934_40_alg».proof.Proof.PreDecode
import Idealize.ShloMosaic.Lib.StableHlo.Run

noncomputable section

namespace Cert.KernelIdeal.PreOK

open Cert.KernelIdeal Cert.KernelIdeal.Gen
open Idealize.ShloMosaic Idealize.ShloMosaic.ValueIdx Idealize.ShloMosaic.StableHlo

variable {F : FTy → Type} [FloatOps F] [Named F]

/-! ## The memory the first call runs on -/

/-- The flat index array the first call reads is the index array reshaped. -/
theorem mK_iLoc (m : (ℓ : Loc nD τ sig) → Buf (Elt F) ℓ) (d : Dev nD) :
    Sc.mK m (Sc.iLoc d) = shapeCast S819200 (m ((d.tc : Thread nD τ).loc main_arg0)) shapeCasts_S4x4096x50_S819200 := by
  show (Sc.opIdx (F := F)).result (Sc.W0 m d) Sc.r_v0 = _
  rw [StableHlo.reshape_result]
  rfl

/-- From the input-domain predicate: every word of the flat index array names a row of the tables (a reshape only
    moves the entries). -/
theorem preOK_of_pre [Cert.Pre_input_domain.Facts] (m : (ℓ : Loc nD τ sig) → Buf (Elt F) ℓ)
    (hpre : ∀ c : Dev nD,
      (Cert.Pre_input_domain.fn (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
        = (fun _ => 1#1)) :
    Sc.PreOK (Sc.mK m) := by
  intro d j
  rw [mK_iLoc]
  unfold shapeCast
  exact Cert.PreDecode.x_lt (F := F) _ _ _ _ _ _ _ _ (hpre d) _

end Cert.KernelIdeal.PreOK

end
-- ==== Proof.B_ScSetup.lean ====
/-
  The kernel program's SparseCore call, as the launch theorem sees it: the configuration, the ghost algebra (the
  handshakes' rounds beside the transfers' counters: the kernel makes only local copies and gathers and waits for
  them, so it needs no schedule of its own), the arrays, what each vector subcore is handed, and the value it leaves.

  Vector subcore `s` of SparseCore `c` is worker `w = 2 s + c`. It owns rows `128 w … 128 w + 127` of each of the three
  planes of the pooled array, reads the three stretches `off r + 6400 w … + 6399` (`off = 0, 409600, 614400`) of the flat
  index array, and reads all three tables, each at a read share of its own. Row `ρ` of plane `t` ends at
  `(∑ over l < 50 of table_t[idx[off t + 50 ρ + l], e]) · inv_50`, the sum taken two rows a step from the zero word.
-/
import proofs.«207262_g39728447488703_cont_8to1_b_1934_40_alg».proof.Kernel
import proofs.«207262_g39728447488703_cont_8to1_b_1934_40_alg».proof.Proof.Gen.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Transfers
import Idealize.ShloMosaic.Lib.Tactic
import Idealize.ShloMosaic.Lib.ValueIdx

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds (the TensorCore call's staging cells): the middle component. -/
def EP : Emb UP (MT nD τ sig (HIx 1) (Elt F) ℕ UU ℕ) := (Emb.inl : Emb UP (UP × Counters)).trans embR
instance EP_landsIn : (EP : Emb UP 𝕄).LandsIn (upEmb : UEmb _ 𝕄) := by unfold EP embR; infer_instance

/-! ## The arrays -/

variable (m : (ℓ : Loc nD τ sig) → Buf (Elt F) ℓ) (ρ : Dev nD → PrngReg)

/-- The flat index array (the reshape of `x`), the three tables, the pooled array: the TensorCore's names. -/
abbrev iLoc (d : Dev nD) : Loc nD τ sig := (SparseCore.T d).loc main_v0
abbrev aLoc (d : Dev nD) : Loc nD τ sig := (SparseCore.T d).loc main_arg1
abbrev bLoc (d : Dev nD) : Loc nD τ sig := (SparseCore.T d).loc main_arg2
abbrev cLoc (d : Dev nD) : Loc nD τ sig := (SparseCore.T d).loc main_arg3
abbrev oLoc (d : Dev nD) : Loc nD τ sig := (SparseCore.T d).loc main_v1

/-- The same arrays as a vector subcore's memrefs address them. -/
abbrev iV : Memref sig .scVector .hbm S819200 .i32 := Memref.whole main_v0_scv
abbrev aV : Memref sig .scVector .hbm S100000x128 .f32 := Memref.whole main_arg1_scv
abbrev bV : Memref sig .scVector .hbm S100000x128 .f32 := Memref.whole main_arg2_scv
abbrev cV : Memref sig .scVector .hbm S100000x128 .f32 := Memref.whole main_arg3_scv
abbrev oV : Memref sig .scVector .hbm S3x4096x128 .f32 := Memref.whole main_v1_scv

/-! ## A vector subcore's views -/

abbrev cOf (L : grid0.Coords) : Fin τ.nSC := (L 0).castLE hcore0
abbrev sOf (L : grid0.Coords) : Fin τ.nSub := (L 1).castLE hsub0

def coordsV (c : Fin (grid0.bound 0)) (s : Fin (grid0.bound 1)) : grid0.Coords :=
  fun | 0 => c | 1 => s | ⟨_ + 2, h⟩ => absurd h (Nat.not_lt.2 (Nat.le_add_left _ _))

/-- Stretch `r` of the index array that worker `L` stages: 6400 words from the program's own offset. -/
abbrev iSl (L : grid0.Coords) (r : Fin 3) : Memref sig .scVector .hbm S6400 .i32 :=
  (iV).slice (Rect.unit (s := S819200) (k0_off1 L (k0_off1_at r)) S6400.size (k0_off1_inb L r)) (fun _ => rfl)

/-- The 128 rows of plane `t` of the pooled array that worker `L` owns, as a set of indices. -/
def oRows (L : grid0.Coords) (t : Fin 3) : Finset S3x4096x128.Idx :=
  Finset.univ.filter fun j => (j 0).val = t.val ∧ 256 * (L 1).val + 128 * (L 0).val ≤ (j 1).val ∧ (j 1).val < 256 * (L 1).val + 128 * (L 0).val + 128

/-! ## The value -/

/-- The running sum of a segment's rows, two rows a step, from the zero word. -/
def accN (row : ℕ → F .f32) : ℕ → F .f32
  | 0 => Scalar.ofBits .f32 0x00000000#32
  | k + 1 => FloatOps.addf (FloatOps.addf (accN row k) (row (2 * k))) (row (2 * k + 1))

/-- A segment's mean as the kernel takes it: the sum of its fifty rows, times the named reciprocal of fifty. -/
def meanOf (row : ℕ → F .f32) : F .f32 := FloatOps.mulf (accN row 25) (Scalar.ofBits .f32 0x3CA3D70A#32)

/-! ## Read shares: one per SparseCore, then one per vector subcore, of an array every worker reads whole -/

abbrev coreSh (c : Fin 2) : PosShare TreeShare := Transfers.shareTok fullShare 2 c
abbrev tileSh (c : Fin 2) (i : Fin 16) : PosShare TreeShare := Transfers.shareTok (coreSh c) 16 i

/-! ## The pooled array's rows by worker -/

theorem odiv : 32 ∣ S3x4096x128.size 1 := ⟨128, rfl⟩
/-- Worker `w`'s rows of all three planes: part `w` of 32 along the row axis. -/
abbrev oPart (w : Fin 32) : Rect S3x4096x128 := Rect.part (s := S3x4096x128) (a₀ := 1) odiv w
abbrev oSet (w : Fin 32) : Finset S3x4096x128.Idx := ((oV).view.slice (oPart w)).set
/-- The worker number of vector subcore `i` of SparseCore `c`. -/
def wOf (c : Fin 2) (i : Fin 16) : Fin 32 := ⟨2 * i.val + c.val, by omega⟩
/-- What SparseCore `c`'s sixteen workers own together. -/
def oCore (c : Fin 2) : Finset S3x4096x128.Idx := Finset.univ.biUnion fun i : Fin 16 => oSet (wOf c i)

/-! ## The pooled value as ONE whole-array function of the launch contents -/

/-- Where plane `t`'s indices start in the flat index array. -/
def offOf (t : ℕ) : ℕ := if t = 0 then 0 else if t = 1 then 409600 else 614400

/-- The word of the flat index array at a position (any word past the end). -/
def idxAt (ix : S819200.Idx → BitVec 32) (p : ℕ) : BitVec 32 := if h : p < 819200 then ix (ValueIdx.ix1 (⟨p, h⟩ : Fin 819200)) else 0#32

/-- Entry `(row, e)` of a table (any value past the end). -/
def tblAt (tb : S100000x128.Idx → F .f32) (row : ℕ) (e : Fin 128) : F .f32 :=
  if h : row < 100000 then tb (ValueIdx.ix2 (⟨row, h⟩ : Fin 100000) e) else Scalar.ofBits .f32 0x00000000#32

/-- The pooled array the SparseCore call leaves: plane `t`, row `r`, column `e` is the mean of the fifty rows of table `t`
    that the index array names for `(t, r)`. -/
def pooledOf (ix : S819200.Idx → BitVec 32) (ta tb tc : S100000x128.Idx → F .f32) : S3x4096x128.Idx → F .f32 := fun j =>
  meanOf (fun l => tblAt (if (j 0).val = 0 then ta else if (j 0).val = 1 then tb else tc)
    (idxAt ix (offOf (j 0).val + 50 * (j 1).val + l)).toNat ⟨(j 2).val, (j 2).isLt⟩)

/-- It, over the launch memory of device `d`. -/
abbrev pooledArr (d : Dev nD) : Buf (Elt F) (oLoc d) := pooledOf (F := F) (m (iLoc d)) (m (aLoc d)) (m (bLoc d)) (m (cLoc d))

/-! ## What the handshakes carry -/

abbrev iSh (d : Dev nD) (q : PosShare TreeShare) : sProp 𝕄 := iLoc d ↦{q} m (iLoc d)
abbrev aSh (d : Dev nD) (q : PosShare TreeShare) : sProp 𝕄 := aLoc d ↦{q} m (aLoc d)
abbrev bSh (d : Dev nD) (q : PosShare TreeShare) : sProp 𝕄 := bLoc d ↦{q} m (bLoc d)
abbrev cSh (d : Dev nD) (q : PosShare TreeShare) : sProp 𝕄 := cLoc d ↦{q} m (cLoc d)
abbrev reads (d : Dev nD) (q : PosShare TreeShare) : sProp 𝕄 := iprop(iSh m d q ∗ aSh m d q ∗ bSh m d q ∗ cSh m d q)
abbrev oOn (d : Dev nD) (I : Finset S3x4096x128.Idx) (f : Buf (Elt F) (oLoc d)) : sProp 𝕄 := oLoc d ↦[I]{fullShare} f

/-- The call hands SparseCore `c` a read share of the index array and of the three tables and its workers' rows of the
    pooled array; each worker a read share of the four and its own rows; back come the same, the rows at the pooled
    value. The kernel consumes nothing of the launch's. -/
def P : (K (F := F)).Pay (nD := nD) (Val := Elt F) (Name := ℕ) (U := UU) where
  st := fun q d c => match q with | 0 => iprop(reads m d (coreSh (Fin.cast nCore_zero c)) ∗ ∃ f, oOn d (oCore (Fin.cast nCore_zero c)) f)
  dn := fun q d c => match q with | 0 => iprop(reads m d (coreSh (Fin.cast nCore_zero c)) ∗ oOn d (oCore (Fin.cast nCore_zero c)) (pooledArr m d))
  go := fun q d c i => match q with
    | 0 => iprop(reads m d (tileSh (Fin.cast nCore_zero c) (Fin.cast nSub_zero i)) ∗ ∃ f, oOn d (oSet (wOf (Fin.cast nCore_zero c) (Fin.cast nSub_zero i))) f)
  td := fun q d c i => match q with
    | 0 => iprop(reads m d (tileSh (Fin.cast nCore_zero c) (Fin.cast nSub_zero i)) ∗ oOn d (oSet (wOf (Fin.cast nCore_zero c) (Fin.cast nSub_zero i))) (pooledArr m d))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

/-- What the proof asks of the launch memory: every word of the flat index array names a row of the tables. -/
def PreOK : Prop := ∀ (d : Dev nD) (j : S819200.Idx), (m (iLoc d) j).toNat < 100000

end Cert.Kernel.Sc

end
-- ==== Proof.B_ScTileDefs.lean ====
/-
  A vector subcore at the pooling call: the thread it is, the memrefs the body table hands it (the four arrays it
  reads, the pooled array, its seven scratch buffers), its ten DMA semaphores split off its own scoped cells and its
  seven scratch buffers split off its own buffers, and the body table's row for it.
-/
import proofs.«207262_g39728447488703_cont_8to1_b_1934_40_alg».proof.Proof.B_ScSetup

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A list of members split off a `bigSep` -/

section SplitList

variable {M : Type} [URA M] {I : Type} [DecidableEq I]

/-- `Φ` at each member of a list in turn, then a remainder. -/
def sepOver (Φ : I → sProp M) : List I → sProp M → sProp M
  | [], R => R
  | i :: l, R => iprop(Φ i ∗ sepOver Φ l R)

/-- A `bigSep` over a set is `Φ` at each of a duplicate-free list of its members, then the `bigSep` over the others. -/
theorem bigSep_split_list (Φ : I → sProp M) : ∀ (l : List I) (s : Finset I), l.Nodup → (∀ i ∈ l, i ∈ s) →
    bigSep s Φ = sepOver Φ l (bigSep (s \ l.toFinset) Φ)
  | [], s, _, _ => by simp [sepOver]
  | i :: l, s, hnd, hmem => by
    have hi : i ∈ s := hmem i (List.mem_cons_self ..)
    have hnd' := List.nodup_cons.mp hnd
    rw [SparseCore.bigSep_erase' hi, bigSep_split_list Φ l (s.erase i) hnd'.2
      (fun j hj => Finset.mem_erase.mpr ⟨fun e => hnd'.1 (e ▸ hj), hmem j (List.mem_cons_of_mem _ hj)⟩)]
    simp only [sepOver, List.toFinset_cons, Finset.sdiff_insert, Finset.erase_sdiff_comm]

end SplitList

/-! ## The thread and what the body table passes it -/

abbrev cL (L : grid0.Coords) : Fin 2 := Fin.cast (by rfl : grid0.bound 0 = 2) (L 0)
abbrev sL (L : grid0.Coords) : Fin 16 := Fin.cast (by rfl : grid0.bound 1 = 16) (L 1)
abbrev thrOf (d : Dev nD) (L : grid0.Coords) : Thread nD τ := V d (cOf L) (sOf L)
/-- the seven scratch buffers as the body table passes them -/
abbrev s0 : Memref sig .scVector .vmem S6400 .i32 := Memref.whole cc0_scratch0     -- index buffer 0
abbrev s1 : Memref sig .scVector .vmem S6400 .i32 := Memref.whole cc0_scratch1     -- index buffer 1
abbrev s2 : Memref sig .scVector .vmem S200x128 .f32 := Memref.whole cc0_scratch2  -- row buffers 0..3
abbrev s3 : Memref sig .scVector .vmem S200x128 .f32 := Memref.whole cc0_scratch3
abbrev s4 : Memref sig .scVector .vmem S200x128 .f32 := Memref.whole cc0_scratch4
abbrev s5 : Memref sig .scVector .vmem S200x128 .f32 := Memref.whole cc0_scratch5
abbrev s6 : Memref sig .scVector .vmem S16x128 .f32 := Memref.whole cc0_scratch6   -- the pooled rows of one chunk

section Tile

variable (d : Dev nD) (L : grid0.Coords)

/-! ## The arrays, as the vector subcore's memrefs name them, are the TensorCore's -/

theorem pts_iV (q : PosShare TreeShare) (f : Buf (Elt F) (iLoc d)) :
    ((iV).view.loc (thrOf d L) ↦{q} f : sProp 𝕄) = iLoc d ↦{q} f := rfl
theorem pts_aV (q : PosShare TreeShare) (f : Buf (Elt F) (aLoc d)) :
    ((aV).view.loc (thrOf d L) ↦{q} f : sProp 𝕄) = aLoc d ↦{q} f := rfl
theorem pts_bV (q : PosShare TreeShare) (f : Buf (Elt F) (bLoc d)) :
    ((bV).view.loc (thrOf d L) ↦{q} f : sProp 𝕄) = bLoc d ↦{q} f := rfl
theorem pts_cV (q : PosShare TreeShare) (f : Buf (Elt F) (cLoc d)) :
    ((cV).view.loc (thrOf d L) ↦{q} f : sProp 𝕄) = cLoc d ↦{q} f := rfl
theorem pts_oV (I : Finset S3x4096x128.Idx) (f : Buf (Elt F) (oLoc d)) :
    (oLoc d ↦[I]{fullShare} f : sProp 𝕄) = (oV).view.loc (thrOf d L) ↦[I]{fullShare} f := rfl

theorem pts_s0 (f : Buf (Elt F) ((thrOf d L).loc cc0_scratch0)) :
    ((s0).view.loc (thrOf d L) ↦{fullShare} f : sProp 𝕄) = (thrOf d L).loc cc0_scratch0 ↦{fullShare} f := rfl
theorem pts_s1 (f : Buf (Elt F) ((thrOf d L).loc cc0_scratch1)) :
    ((s1).view.loc (thrOf d L) ↦{fullShare} f : sProp 𝕄) = (thrOf d L).loc cc0_scratch1 ↦{fullShare} f := rfl
theorem pts_s2 (f : Buf (Elt F) ((thrOf d L).loc cc0_scratch2)) :
    ((s2).view.loc (thrOf d L) ↦{fullShare} f : sProp 𝕄) = (thrOf d L).loc cc0_scratch2 ↦{fullShare} f := rfl
theorem pts_s3 (f : Buf (Elt F) ((thrOf d L).loc cc0_scratch3)) :
    ((s3).view.loc (thrOf d L) ↦{fullShare} f : sProp 𝕄) = (thrOf d L).loc cc0_scratch3 ↦{fullShare} f := rfl
theorem pts_s4 (f : Buf (Elt F) ((thrOf d L).loc cc0_scratch4)) :
    ((s4).view.loc (thrOf d L) ↦{fullShare} f : sProp 𝕄) = (thrOf d L).loc cc0_scratch4 ↦{fullShare} f := rfl
theorem pts_s5 (f : Buf (Elt F) ((thrOf d L).loc cc0_scratch5)) :
    ((s5).view.loc (thrOf d L) ↦{fullShare} f : sProp 𝕄) = (thrOf d L).loc cc0_scratch5 ↦{fullShare} f := rfl
theorem pts_s6 (f : Buf (Elt F) ((thrOf d L).loc cc0_scratch6)) :
    ((s6).view.loc (thrOf d L) ↦{fullShare} f : sProp 𝕄) = (thrOf d L).loc cc0_scratch6 ↦{fullShare} f := rfl

/-! ## Its ten DMA semaphores among its own scoped cells -/

/-- The ten DMA semaphores the kernel names: four scratch operands, six scoped allocations. -/
abbrev dmaSems : List (SemLoc sig) :=
  [.dma cc0_scratch7.sem, .dma cc0_scratch8.sem, .dma cc0_scratch9.sem, .dma cc0_scratch10.sem, .dma cc0_scoped0.sem,
    .dma cc0_scoped1.sem, .dma cc0_scoped2.sem, .dma cc0_scoped3.sem, .dma cc0_scoped4.sem, .dma cc0_scoped5.sem]

theorem dmaSems_nodup : (dmaSems).Nodup := by decide
theorem dmaSems_scoped : ∀ sm ∈ dmaSems, sm.isScoped .scVector = true := by decide

/-- The subcore's other scoped cells. -/
abbrev restSems : Finset (SemLoc sig) := (Finset.univ.filter fun sm : SemLoc sig => sm.isScoped .scVector) \ (dmaSems).toFinset

theorem ownSems0_V :
    (ownSems0 (thrOf d L) : sProp 𝕄)
      = iprop(semVal (thrOf d L, .dma cc0_scratch7.sem) 0 ∗ semVal (thrOf d L, .dma cc0_scratch8.sem) 0 ∗ semVal (thrOf d L, .dma cc0_scratch9.sem) 0
          ∗ semVal (thrOf d L, .dma cc0_scratch10.sem) 0 ∗ semVal (thrOf d L, .dma cc0_scoped0.sem) 0 ∗ semVal (thrOf d L, .dma cc0_scoped1.sem) 0
          ∗ semVal (thrOf d L, .dma cc0_scoped2.sem) 0 ∗ semVal (thrOf d L, .dma cc0_scoped3.sem) 0 ∗ semVal (thrOf d L, .dma cc0_scoped4.sem) 0
          ∗ semVal (thrOf d L, .dma cc0_scoped5.sem) 0 ∗ bigSep restSems fun sm => semVal (thrOf d L, sm) 0) := by
  rw [SparseCore.Cfg.ownSems0_eq]
  exact bigSep_split_list (fun sm : SemLoc sig => (semVal (thrOf d L, sm) 0 : sProp 𝕄)) dmaSems _ dmaSems_nodup
    fun sm h => Finset.mem_filter.mpr ⟨Finset.mem_univ _, dmaSems_scoped sm h⟩

/-! ## Its seven scratch buffers among its own buffers -/

abbrev scratchRefs : List (Ref sig .scVector) := [cc0_scratch0, cc0_scratch1, cc0_scratch2, cc0_scratch3, cc0_scratch4, cc0_scratch5, cc0_scratch6]
theorem scratchRefs_nodup : (scratchRefs).Nodup := by decide

/-- The seven, as buffers of the device. -/
abbrev scratchDev : List (DevRef τ sig) := (scratchRefs).map (Proc.scVector (cOf L) (sOf L)).devRef
/-- The subcore's other buffers. -/
abbrev restRefs : Finset (DevRef τ sig) := ownRefs (τ := τ) (.scVector (cOf L) (sOf L)) \ (scratchDev L).toFinset

theorem ownBufs_V :
    (ownBufs (thrOf d L) : sProp 𝕄)
      = iprop((∃ f, (thrOf d L).loc cc0_scratch0 ↦{fullShare} f) ∗ (∃ f, (thrOf d L).loc cc0_scratch1 ↦{fullShare} f)
          ∗ (∃ f, (thrOf d L).loc cc0_scratch2 ↦{fullShare} f) ∗ (∃ f, (thrOf d L).loc cc0_scratch3 ↦{fullShare} f)
          ∗ (∃ f, (thrOf d L).loc cc0_scratch4 ↦{fullShare} f) ∗ (∃ f, (thrOf d L).loc cc0_scratch5 ↦{fullShare} f)
          ∗ (∃ f, (thrOf d L).loc cc0_scratch6 ↦{fullShare} f)
          ∗ bigSep (restRefs L) fun b => iprop(∃ f, ((d, b) : Loc nD τ sig) ↦{fullShare} f)) := by
  unfold SparseCore.Cfg.ownBufs
  exact bigSep_split_list (fun b : DevRef τ sig => (iprop(∃ f, ((d, b) : Loc nD τ sig) ↦{fullShare} f) : sProp 𝕄)) (scratchDev L) _
    (scratchRefs_nodup.map (Proc.devRef_injective _))
    fun b h => by
      obtain ⟨r, hr, rfl⟩ := List.mem_map.mp h
      simp only [scratchRefs, List.mem_cons, List.not_mem_nil, or_false] at hr
      rcases hr with rfl | rfl | rfl | rfl | rfl | rfl | rfl <;>
        exact SparseCore.Cfg.mem_ownRefs_of_owner (p := Proc.scVector (cOf L) (sOf L)) rfl

end Tile

/-! ## The body table's row for a vector subcore -/

theorem defs₀_vector (c : Fin τ.nSC) (s : Fin τ.nSub) :
    defs₀ (F := F) (.scVector c s) 0 ()
      = SparseCore.onTile hcore0 hsub0 (fun c s => cc0_pool_kernel (coordsV c s)
          aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _)
          s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5) ⟨⟩ c s := rfl

/-- A task that leaves only waits of its own kernel's leaves waits the call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Kernel.Sc

end
-- ==== Proof.B_ScTileObl.lean ====
/-
  The launch theorem's obligation for a vector subcore's task, from the task body's own triple: the body table's row
  is the kernel function at the subcore's coordinates on the whole arrays and its scratch; the task's operands and
  results are the body's, the subcore's number read off its coordinates.
-/
import proofs.«207262_g39728447488703_cont_8to1_b_1934_40_alg».proof.Proof.B_ScTileDefs

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- The coordinates of subcore `i` of SparseCore `c` of the call's grid name SparseCore `c`, -/
theorem cL_coordsV (c : Fin ((K (F := F)).nCore 0)) (i : Fin ((K (F := F)).nSub 0)) (hc : ((K (F := F)).core 0 c).val < grid0.bound 0)
    (hi : ((K (F := F)).sub 0 i).val < grid0.bound 1) : cL (coordsV ⟨_, hc⟩ ⟨_, hi⟩) = Fin.cast nCore_zero c := Fin.ext rfl
/-- and subcore `i`. -/
theorem sL_coordsV (c : Fin ((K (F := F)).nCore 0)) (i : Fin ((K (F := F)).nSub 0)) (hc : ((K (F := F)).core 0 c).val < grid0.bound 0)
    (hi : ((K (F := F)).sub 0 i).val < grid0.bound 1) : sL (coordsV ⟨_, hc⟩ ⟨_, hi⟩) = Fin.cast nSub_zero i := Fin.ext rfl

theorem tileObl (hF : (K (F := F)).Facts) (hpre : PreOK m)
    (hbody : ∀ (d : Dev nD) (L : grid0.Coords) (O : CellTallies nD τ sig (HIx 1)) (W : Waits sig (HIx 1)) (_ : ∀ g, O g none = 0),
      iprop(levAts (K (F := F)).L (K (F := F)).lev ∗ emp
          ∗ (reads m d (tileSh (cL L) (sL L)) ∗ ∃ f, oOn d (oSet (wOf (cL L) (sL L))) f)
          ∗ scopedBufs (thrOf d L) ∗ scopedSems0 (thrOf d L) ∗ owes (thrOf d L) O W)
        ⊢ wp frame (wpE (defs₀ (F := F)) 𝒱₀ (thrOf d L) none) Set.univ
            (cc0_pool_kernel L aV (Memref.isWhole_whole _) bV (Memref.isWhole_whole _) cV (Memref.isWhole_whole _) iV (Memref.isWhole_whole _) oV (Memref.isWhole_whole _)
              s0 (Memref.isWhole_whole _) s1 (Memref.isWhole_whole _) s2 (Memref.isWhole_whole _) s3 (Memref.isWhole_whole _) s4 (Memref.isWhole_whole _) s5 (Memref.isWhole_whole _) s6 (Memref.isWhole_whole _)
              cc0_scratch7 cc0_scratch8 cc0_scratch9 cc0_scratch10 cc0_scoped0 cc0_scoped1 cc0_scoped2 cc0_scoped3 cc0_scoped4 cc0_scoped5)
            fun _ => iprop((reads m d (tileSh (cL L) (sL L)) ∗ oOn d (oSet (wOf (cL L) (sL L))) (pooledArr m d))
              ∗ scopedBufs (thrOf d L) ∗ scopedSems0 (thrOf d L)
              ∗ ∃ W', ⌜∀ p ∈ W', p ∈ W ∨ p.2 = none⌝ ∗ owes (thrOf d L) O W')) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := hbody d (coordsV ⟨_, hc.1⟩ ⟨_, hc.2⟩) O W hO
  rw [cL_coordsV c i hc.1 hc.2, sL_coordsV c i hc.1 hc.2] at h
  exact h.trans (wp_mono frame _ _ fun _ => obl_post)

end Cert.Kernel.Sc

end
-- ==== Proof.B_ScTileVal.lean ====
/-
  What a vector subcore's buffers hold, as pure facts about arrays (no program, no resource).

  Worker (c, s) has number w = 2 s + c. Stretch r (r = 0, 1, 2) of the flat index array that it stages starts at flat
  position off r + 6400 w (off = 0, 409600, 614400): the printed offset, a chain of 32-bit products and sums, never
  wraps. So after the whole-buffer copy the index buffer holds, at position p, the flat array's word at
  off r + 6400 w + p; every such word names a row of the tables when every word of the flat array does.

  A gather of the 200 words at positions o, …, o + 199 of the index buffer into a [200, 128] row buffer leaves, at
  (ρ, e), entry e of the table's row named by the word at position o + ρ.

  With o = 200 (4 k + b), segment s' of the row buffer and l < 50, position o + 50 s' + l of stretch r is flat position
  off r + 50 (128 w + 16 k + 4 b + s') + l: the mean of the segment's fifty rows is the pooled array's entry at plane
  r, row 128 w + 16 k + 4 b + s'.
-/
import proofs.«207262_g39728447488703_cont_8to1_b_1934_40_alg».proof.Proof.B_ScSetup
import Idealize.ShloMosaic.Lib.Writes
import Idealize.ShloMosaic.Lib.SparseCore.Stream
import Idealize.ShloMosaic.Lib.ValueIdx

noncomputable section

namespace Cert.Kernel.Sc

open Cert.Kernel Cert.Kernel.Gen
open Idealize.ShloMosaic Idealize.ShloMosaic.ValueIdx

variable {F : FTy → Type} [FloatOps F]
variable (m : (ℓ : Loc nD τ sig) → Buf (Elt F) ℓ)

/-! ## Reading through a slice of a view that was just written whole -/

/-- A slice of a view reads the view at the slice's own indices placed in it. -/
theorem read_slice_eq {κ : Kind} {sp : Space} {s : Shape} {e : EltTy} (v : View sig κ sp s e) (f : v.ty.Contents (Elt F))
    (R : Rect s) (x : R.shape.Idx) : (v.slice R).read (Elt F) f x = v.read (Elt F) f (R.emb x) := rfl

/-- After an unmasked write of a whole view, a slice of it reads the payload. -/
theorem read_slice_write_univ {κ : Kind} {sp : Space} {s : Shape} {e : EltTy} (v : View sig κ sp s e)
    (fs : v.ty.Contents (Elt F)) (pay : s.Idx → Elt F e) (R : Rect s) (x : R.shape.Idx) :
    (v.slice R).read (Elt F) (v.write (Elt F) fs pay Finset.univ) x = pay (R.emb x) :=
  (read_slice_eq v _ R x).trans (View.read_write_of_mem fs pay (Finset.mem_univ _))

/-- After a list of writes whose last covers the whole shape, the view reads that write's payload. -/
theorem read_writes_whole {κ : Kind} {sp : Space} {s : Shape} {e : EltTy} (v : View sig κ sp s e)
    (f : v.ty.Contents (Elt F)) (w : s.Idx → Elt F e) (Ls : List (View.Piece (Elt F) s e)) (x : s.Idx) :
    v.read (Elt F) (v.writes (Elt F) f (⟨Rect.whole s, w⟩ :: Ls)) x = w x := by
  have h := View.read_writes_cons_emb v f (Rect.whole s) w Ls x
  rwa [Rect.emb_whole_apply] at h

/-! ## Where a worker's stretches start -/

/-- The three starts, case by case. -/
theorem offOf_cases (r : Fin 3) :
    (r.val = 0 ∧ offOf r.val = 0 ∧ k0_off1_at r = 0#32) ∨ (r.val = 1 ∧ offOf r.val = 409600 ∧ k0_off1_at r = 409600#32)
      ∨ (r.val = 2 ∧ offOf r.val = 614400 ∧ k0_off1_at r = 614400#32) :=
  match r with
  | ⟨0, _⟩ => Or.inl ⟨rfl, rfl, rfl⟩
  | ⟨1, _⟩ => Or.inr (Or.inl ⟨rfl, rfl, rfl⟩)
  | ⟨2, _⟩ => Or.inr (Or.inr ⟨rfl, rfl, rfl⟩)

theorem L0_lt (L : grid0.Coords) : (L 0).val < 2 := (L 0).isLt
theorem L1_lt (L : grid0.Coords) : (L 1).val < 16 := (L 1).isLt

/-- The printed offset of stretch r, in closed form: no product or sum of the chain wraps. -/
theorem k0_off1_closed (L : grid0.Coords) (r : Fin 3) :
    (k0_off1 L (k0_off1_at r)) 0 = offOf r.val + 6400 * (2 * (L 1).val + (L 0).val) := by
  have h0 := L0_lt L
  have h1 := L1_lt L
  show (Scalar.addi (k0_off1_at r) (Scalar.muli (Scalar.muli (Scalar.addi (Scalar.muli (BitVec.ofNat 32 (L 1).val) 2#32)
    (BitVec.ofNat 32 (L 0).val)) 128#32) 50#32)).toNat = _
  simp only [Scalar.addi, Scalar.muli, IntOp.addi, IntOp.muli]
  rcases offOf_cases r with ⟨-, e1, e2⟩ | ⟨-, e1, e2⟩ | ⟨-, e1, e2⟩ <;>
    (rw [e1, e2]; simp only [BitVec.toNat_add, BitVec.toNat_mul, BitVec.toNat_ofNat]; omega)

/-! ## The index buffers -/

/-- The word at position p of stretch r of worker L (any word past the flat array's end). -/
def idxBufAt (d : Dev nD) (L : grid0.Coords) (r : Fin 3) (p : ℕ) : BitVec 32 :=
  idxAt (m (iLoc d)) (offOf r.val + 6400 * (2 * (L 1).val + (L 0).val) + p)

/-- An index buffer holding stretch r of worker L. -/
def idxBuf (d : Dev nD) (L : grid0.Coords) (r : Fin 3) : S6400.Idx → BitVec 32 := fun j => idxBufAt m d L r (j 0).val

theorem idxBuf_apply (d : Dev nD) (L : grid0.Coords) (r : Fin 3) (j : S6400.Idx) :
    idxBuf m d L r j = idxBufAt m d L r (j 0).val := rfl

theorem idxBuf_ix1 (d : Dev nD) (L : grid0.Coords) (r : Fin 3) (p : Fin 6400) :
    idxBuf m d L r (ix1 p) = idxBufAt m d L r p.val := rfl

/-- Positions of a stretch are inside the flat array. -/
theorem stretch_lt (L : grid0.Coords) (r : Fin 3) (p : ℕ) (hp : p < 6400) :
    offOf r.val + 6400 * (2 * (L 1).val + (L 0).val) + p < 819200 := by
  have h0 := L0_lt L
  have h1 := L1_lt L
  rcases offOf_cases r with ⟨-, e1, -⟩ | ⟨-, e1, -⟩ | ⟨-, e1, -⟩ <;> omega

/-- Inside a stretch the word is the flat array's own. -/
theorem idxBufAt_eq (d : Dev nD) (L : grid0.Coords) (r : Fin 3) (p : ℕ) (hp : p < 6400) :
    idxBufAt m d L r p = m (iLoc d) (ix1 (⟨offOf r.val + 6400 * (2 * (L 1).val + (L 0).val) + p, stretch_lt L r p hp⟩ : Fin 819200)) := by
  unfold idxBufAt idxAt
  rw [dif_pos (stretch_lt L r p hp)]

/-- The staged stretch, read where it lies in the flat array, is the index buffer's closed term. -/
theorem stretch_read (d : Dev nD) (L : grid0.Coords) (r : Fin 3) (j : S6400.Idx) :
    (iSl L r).view.read (Elt F) (m (iLoc d)) j = idxBuf m d L r j := by
  rw [idxBuf_apply, idxBufAt_eq m d L r _ (j 0).isLt]
  refine ((View.read_apply _ _).trans (cast_eq _ _)).trans (congrArg (m (iLoc d)) ?_)
  funext a
  apply Fin.ext
  match a with
  | ⟨0, _⟩ =>
    show (k0_off1 L (k0_off1_at r)) 0 + 1 * (j 0).val = offOf r.val + 6400 * (2 * (L 1).val + (L 0).val) + (j 0).val
    rw [k0_off1_closed]; omega

/-- What an index buffer reads after the stretch was copied onto all of it. -/
theorem staged_read (d : Dev nD) (L : grid0.Coords) (r : Fin 3) (sK : Memref sig .scVector .vmem S6400 .i32)
    (fs : sK.view.ty.Contents (Elt F)) :
    sK.view.read (Elt F) (View.write (Elt F) sK.view fs ((iSl L r).view.read (Elt F) (m (iLoc d))) Finset.univ) = idxBuf m d L r :=
  (View.read_write_univ fs _).trans (funext (stretch_read m d L r))

/-- The first index buffer after the copy IS the closed term. -/
theorem staged_eq0 (d : Dev nD) (L : grid0.Coords) (r : Fin 3)
    (fs : (Memref.whole cc0_scratch0 : Memref sig .scVector .vmem S6400 .i32).view.ty.Contents (Elt F)) :
    View.write (Elt F) (Memref.whole cc0_scratch0 : Memref sig .scVector .vmem S6400 .i32).view fs
      ((iSl L r).view.read (Elt F) (m (iLoc d))) Finset.univ = idxBuf m d L r :=
  (View.write_whole_univ cc0_scratch0 fs _).trans (funext (stretch_read m d L r))

/-- The second index buffer after the copy IS the closed term. -/
theorem staged_eq1 (d : Dev nD) (L : grid0.Coords) (r : Fin 3)
    (fs : (Memref.whole cc0_scratch1 : Memref sig .scVector .vmem S6400 .i32).view.ty.Contents (Elt F)) :
    View.write (Elt F) (Memref.whole cc0_scratch1 : Memref sig .scVector .vmem S6400 .i32).view fs
      ((iSl L r).view.read (Elt F) (m (iLoc d))) Finset.univ = idxBuf m d L r :=
  (View.write_whole_univ cc0_scratch1 fs _).trans (funext (stretch_read m d L r))

/-- Every word of a stretch names a row of the tables. -/
theorem idxBuf_lt (hpre : PreOK m) (d : Dev nD) (L : grid0.Coords) (r : Fin 3) (j : S6400.Idx) :
    (idxBuf m d L r j).toNat < 100000 := by
  rw [idxBuf_apply, idxBufAt_eq m d L r _ (j 0).isLt]
  exact hpre d _

/-- THE RANGE FACT A GATHER ASKS FOR: a 200-slice of an index buffer just written with stretch r reads row numbers. -/
theorem idx_inb (hpre : PreOK m) (d : Dev nD) (L : grid0.Coords) (r : Fin 3) (sK : Memref sig .scVector .vmem S6400 .i32)
    (fs : sK.view.ty.Contents (Elt F)) (pay : S6400.Idx → Elt F .i32) (hpay : pay = (iSl L r).view.read (Elt F) (m (iLoc d)))
    (off : ℕ) (inb : ∀ a, (![off] : Fin 1 → ℕ) a + S200.size a ≤ S6400.size a) :
    ∀ x, ((sK.slice (Rect.unit (s := S6400) ![off] S200.size inb) (fun _ => rfl)).view.read (Elt F)
      (View.write (Elt F) sK.view fs pay Finset.univ) x).toNat < 100000 := by
  subst hpay; intro x
  exact (congrArg BitVec.toNat ((read_slice_write_univ sK.view fs _ _ x).trans (stretch_read m d L r _))).trans_lt
    (idxBuf_lt m hpre d L r _)

/-- The same of an index buffer held at the closed term (or at anything that reads as it). -/
theorem idx_inb' (hpre : PreOK m) (d : Dev nD) (L : grid0.Coords) (r : Fin 3) (sK : Memref sig .scVector .vmem S6400 .i32)
    (fo : sK.view.ty.Contents (Elt F)) (hfo : sK.view.read (Elt F) fo = idxBuf m d L r)
    (off : ℕ) (inb : ∀ a, (![off] : Fin 1 → ℕ) a + S200.size a ≤ S6400.size a) :
    ∀ x, ((sK.slice (Rect.unit (s := S6400) ![off] S200.size inb) (fun _ => rfl)).view.read (Elt F) fo x).toNat < 100000 := by
  intro x
  exact (congrArg BitVec.toNat ((read_slice_eq sK.view fo _ x).trans (congrFun hfo _))).trans_lt
    (idxBuf_lt m hpre d L r _)

/-! ## The gathered rows -/

/-- Which table plane r reads. -/
def tblSel (ta tb tc : S100000x128.Idx → F .f32) (r : Fin 3) : S100000x128.Idx → F .f32 :=
  if r.val = 0 then ta else if r.val = 1 then tb else tc

theorem tblSel_zero (ta tb tc : S100000x128.Idx → F .f32) : tblSel ta tb tc 0 = ta := rfl
theorem tblSel_one (ta tb tc : S100000x128.Idx → F .f32) : tblSel ta tb tc 1 = tb := rfl
theorem tblSel_two (ta tb tc : S100000x128.Idx → F .f32) : tblSel ta tb tc 2 = tc := rfl

/-- The source index of a row gather from a [100000, 128] table into [200, 128]: the named row, the same column. -/
theorem gather_idx (hg : S100000x128.Gathers 0 S200x128)
    (rws : Fin (S200x128.size hg.axis') → Fin (S100000x128.size hg.axis)) (ρ : Fin 200) (e : Fin 128) :
    hg.idx rws (ix2 ρ e) = ix2 (rws ρ) e := by
  funext b
  apply Fin.ext
  match b with
  | ⟨0, h0⟩ => exact congrArg Fin.val (Shape.Gathers.idx_axis hg rws (ix2 ρ e))
  | ⟨1, h1⟩ => exact Shape.Gathers.idx_of_ne hg rws (ix2 ρ e) ⟨1, h1⟩ (Nat.succ_ne_zero 0)

/-- Entry ρ of a 200-word list, in row-major order, is its word at index ρ. -/
theorem rowMajor_symm_S200 (hn : S200.numel = 200) (ρ : Fin 200) : S200.rowMajor.symm (ρ.cast hn.symm) = ix1 ρ := by
  rw [Equiv.symm_apply_eq]
  apply Fin.ext
  rw [Shape.rowMajor_val_one]
  rfl

/-- THE GATHER'S PAYLOAD at (ρ, e): entry e of the table's row that word ρ of the list names. -/
theorem gathered_at (hg : S100000x128.Gathers 0 S200x128) (g : S100000x128.Idx → Elt F .f32) (idx : S200.Idx → Elt F .i32)
    (hn : S200.numel = S200x128.size hg.axis') (hin : ∀ x, (idx x).toNat < S100000x128.size hg.axis)
    (ρ : Fin 200) (e : Fin 128) :
    SparseCore.gatherPayload hg g (SparseCore.rows idx hn hin) (ix2 ρ e) = tblAt g (idx (ix1 ρ)).toNat e := by
  unfold SparseCore.gatherPayload
  rw [gather_idx]
  unfold tblAt
  have h : (idx (ix1 ρ)).toNat < 100000 := hin (ix1 ρ)
  rw [dif_pos h]
  exact congrArg (fun j => g (ix2 (⟨(idx j).toNat, hin j⟩ : Fin 100000) e)) (rowMajor_symm_S200 hn ρ)

/-- A table's whole-rectangle slice reads as the table. -/
theorem tblSl_read (tV : Memref sig .scVector .hbm S100000x128 .f32) (ft : tV.view.ty.Contents (Elt F))
    (inb : ∀ a, (![0, 0] : Fin 2 → ℕ) a + S100000x128.size a ≤ S100000x128.size a) :
    (tV.slice (Rect.unit (s := S100000x128) ![0, 0] S100000x128.size inb) (fun _ => rfl)).view.read (Elt F) ft
      = tV.view.read (Elt F) ft := by
  funext x
  refine (read_slice_eq tV.view ft (Rect.unit (s := S100000x128) ![0, 0] S100000x128.size inb) x).trans
    (congrArg (tV.view.read (Elt F) ft) ?_)
  funext a
  apply Fin.ext
  match a with
  | ⟨0, _⟩ => show 0 + 1 * (x 0).val = (x 0).val; omega
  | ⟨1, _⟩ => show 0 + 1 * (x 1).val = (x 1).val; omega

/-- Position o + ρ of an index buffer, through its 200-slice at o. -/
theorem slice200_read (sK : Memref sig .scVector .vmem S6400 .i32) (fo : sK.view.ty.Contents (Elt F)) (off : ℕ)
    (inb : ∀ a, (![off] : Fin 1 → ℕ) a + S200.size a ≤ S6400.size a) (ρ : Fin 200) (h : off + ρ.val < 6400) :
    (sK.slice (Rect.unit (s := S6400) ![off] S200.size inb) (fun _ => rfl)).view.read (Elt F) fo (ix1 ρ)
      = sK.view.read (Elt F) fo (ix1 (⟨off + ρ.val, h⟩ : Fin 6400)) := by
  refine (read_slice_eq sK.view fo (Rect.unit (s := S6400) ![off] S200.size inb) (ix1 ρ)).trans
    (congrArg (sK.view.read (Elt F) fo) ?_)
  funext a
  apply Fin.ext
  match a with
  | ⟨0, _⟩ => show off + 1 * ρ.val = off + ρ.val; omega

/-- THE ROW BUFFER'S PAYLOAD: gathering, by the 200-slice at o of an index buffer that reads as stretch r, from a table
    that reads as `tb`, leaves at (ρ, e) entry e of `tb`'s row named by the stretch's word at position o + ρ. -/
theorem gathered_row (d : Dev nD) (L : grid0.Coords) (r : Fin 3) (hg : S100000x128.Gathers 0 S200x128)
    (tV : Memref sig .scVector .hbm S100000x128 .f32) (ft : tV.view.ty.Contents (Elt F)) (tb : S100000x128.Idx → F .f32)
    (hft : tV.view.read (Elt F) ft = tb)
    (inbT : ∀ a, (![0, 0] : Fin 2 → ℕ) a + S100000x128.size a ≤ S100000x128.size a)
    (sK : Memref sig .scVector .vmem S6400 .i32) (fo : sK.view.ty.Contents (Elt F)) (hfo : sK.view.read (Elt F) fo = idxBuf m d L r)
    (off : ℕ) (inb : ∀ a, (![off] : Fin 1 → ℕ) a + S200.size a ≤ S6400.size a)
    (hn : S200.numel = S200x128.size hg.axis')
    (hin : ∀ x, ((sK.slice (Rect.unit (s := S6400) ![off] S200.size inb) (fun _ => rfl)).view.read (Elt F) fo x).toNat
      < S100000x128.size hg.axis)
    (ρ : Fin 200) (e : Fin 128) :
    SparseCore.gatherPayload hg
        ((tV.slice (Rect.unit (s := S100000x128) ![0, 0] S100000x128.size inbT) (fun _ => rfl)).view.read (Elt F) ft)
        (SparseCore.rows ((sK.slice (Rect.unit (s := S6400) ![off] S200.size inb) (fun _ => rfl)).view.read (Elt F) fo) hn hin)
        (ix2 ρ e)
      = tblAt tb (idxBufAt m d L r (off + ρ.val)).toNat e := by
  have hoff : off + ρ.val < 6400 := by
    have := inb 0
    have h1 : (![off] : Fin 1 → ℕ) 0 = off := rfl
    have h2 : S200.size 0 = 200 := rfl
    have h3 : S6400.size 0 = 6400 := rfl
    have := ρ.isLt
    omega
  rw [gathered_at, tblSl_read, hft, slice200_read sK fo off inb ρ hoff, hfo, idxBuf_ix1]

/-! ## A segment's mean is an entry of the pooled array -/

/-- The pooled array at (t, row, e), spelt out. -/
theorem pooledOf_apply (ix : S819200.Idx → BitVec 32) (ta tb tc : S100000x128.Idx → F .f32) (t : Fin 3) (row : Fin 4096)
    (e : Fin 128) :
    pooledOf (F := F) ix ta tb tc (ix3 t row e)
      = meanOf (fun l => tblAt (tblSel ta tb tc t) (idxAt ix (offOf t.val + 50 * row.val + l)).toNat e) := rfl

/-- The row of the pooled array that segment s' of slot b of chunk k of worker L fills. -/
theorem segRow_lt (L : grid0.Coords) (k : Fin 8) (b s' : Fin 4) :
    128 * (2 * (L 1).val + (L 0).val) + 16 * k.val + 4 * b.val + s'.val < 4096 := by
  have h0 := L0_lt L
  have h1 := L1_lt L
  have := k.isLt; have := b.isLt; have := s'.isLt
  omega

def segRow (L : grid0.Coords) (k : Fin 8) (b s' : Fin 4) : Fin 4096 :=
  ⟨128 * (2 * (L 1).val + (L 0).val) + 16 * k.val + 4 * b.val + s'.val, segRow_lt L k b s'⟩

theorem segRow_val (L : grid0.Coords) (k : Fin 8) (b s' : Fin 4) :
    (segRow L k b s').val = 128 * (2 * (L 1).val + (L 0).val) + 16 * k.val + 4 * b.val + s'.val := rfl

/-- The position arithmetic: word l of segment s' of gather 4 k + b of stretch r is word l of pooled row segRow. -/
theorem seg_pos (L : grid0.Coords) (r : Fin 3) (k : Fin 8) (b s' : Fin 4) (l : ℕ) :
    offOf r.val + 6400 * (2 * (L 1).val + (L 0).val) + (200 * (4 * k.val + b.val) + 50 * s'.val + l)
      = offOf r.val + 50 * (segRow L k b s').val + l := by
  rw [segRow_val]; omega

/-- THE SEGMENT'S MEAN: the mean of the fifty gathered rows of segment s' of gather 4 k + b of stretch r is the pooled
    array's entry at plane r, row segRow, for every column. -/
theorem seg_mean (d : Dev nD) (L : grid0.Coords) (ta tb tc : S100000x128.Idx → F .f32) (r : Fin 3) (k : Fin 8) (b s' : Fin 4)
    (e : Fin 128) :
    meanOf (fun l => tblAt (tblSel ta tb tc r) (idxBufAt m d L r (200 * (4 * k.val + b.val) + 50 * s'.val + l)).toNat e)
      = pooledOf (F := F) (m (iLoc d)) ta tb tc (ix3 r (segRow L k b s') e) := by
  rw [pooledOf_apply]
  refine congrArg meanOf (funext fun l => ?_)
  unfold idxBufAt
  rw [seg_pos]

end Cert.Kernel.Sc

end
-- ==== Proof.B_ScCanon.lean ====
/-
  The names the proof holds a vector subcore's memref slices under, and the equations that rewrite each spelling the
  kernel program uses into them.

  An index buffer's 6400 words are 32 blocks of 200 (one block names the 200 table rows of four segments of fifty);
  block `g` starts at word `200 g`. A gather reads a block of an index buffer and the whole of a table. The copy-out of
  chunk `k` (of eight) of plane `t` writes the sixteen rows `base + 16 k … + 15` of that plane of the pooled array,
  `base = 256 s + 128 c` the first row of the subcore's own 128. The program names a block by a literal offset
  (`0, 200, 400, 600`) or by the chain `(4 k + b + 4) · 200` of the trip `k` and the slot `b`; the chunk by the chain
  `base + 16 k`. Blocks and chunks are indexed by the residue of a natural number, so that a statement over every
  trip count names them totally.
-/
import proofs.«207262_g39728447488703_cont_8to1_b_1934_40_alg».proof.Proof.B_ScTileDefs
import proofs.«207262_g39728447488703_cont_8to1_b_1934_40_alg».proof.Proof.Gen.Kernel
import Idealize.ShloMosaic.Lib.Affine
import Idealize.ShloMosaic.Lib.Ring
import Idealize.ShloMosaic.Lib.Tactic

noncomputable section

namespace Cert.Kernel.Sc

open Cert.Kernel Cert.Kernel.Gen

open Idealize.ShloMosaic
open Idealize.ShloMosaic.SparseCore (S V T)
open Idealize.SL Idealize.SL.RA Idealize.SL.BI
open scoped Idealize.SL.BI
open Idealize.SL.Sem
open Idealize.ShloMosaic.Tactic

variable {F : FTy → Type} [FloatOps F]

/-! ## Blocks of an index buffer -/

/-- Where block `g` starts. -/
abbrev blkOff (g : Fin 32) : Fin 1 → Nat := ![200 * g.val]
theorem blkOff_inb (g : Fin 32) : ∀ a, blkOff g a + S200.size a ≤ S6400.size a := by
  have := g.isLt; intro a; fin_cases a
  show 200 * g.val + 200 ≤ 6400; omega

/-- Block `g` of an index buffer, as the program slices it. -/
def blk (sK : Memref sig .scVector .vmem S6400 .i32) (g : Fin 32) : Memref sig .scVector .vmem S200 .i32 :=
  sK.slice (Rect.unit (s := S6400) (blkOff g) S200.size (blkOff_inb g)) (fun _ => rfl)

/-- A table whole, as every gather slices it. -/
def tblW (tV : Memref sig .scVector .hbm S100000x128 .f32) : Memref sig .scVector .hbm S100000x128 .f32 :=
  tV.slice (Rect.unit (s := S100000x128) ![0, 0] S100000x128.size inb_S100000x128_S100000x128_0_0) (fun _ => rfl)

/-! ## Chunks of the pooled array -/

/-- Where chunk `k` of plane `t` of worker `L`'s rows starts. -/
abbrev outOff (L : grid0.Coords) (t : Fin 3) (k : Fin 8) : Fin 3 → Nat := ![t.val, 256 * (L 1).val + 128 * (L 0).val + 16 * k.val, 0]
theorem outOff_inb (L : grid0.Coords) (t : Fin 3) (k : Fin 8) : ∀ a, outOff L t k a + S1x16x128.size a ≤ S3x4096x128.size a := by
  have ht := t.isLt; have hk := k.isLt
  have h0 : (L 0).val < 2 := (L 0).isLt
  have h1 : (L 1).val < 16 := (L 1).isLt
  intro a; fin_cases a
  · show t.val + 1 ≤ 3; omega
  · show 256 * (L 1).val + 128 * (L 0).val + 16 * k.val + 16 ≤ 4096; omega
  · show 0 + 128 ≤ 128; omega

/-- Chunk `k` of plane `t` of worker `L`'s rows of the pooled array, as the program slices and squeezes it. -/
def outCh (L : grid0.Coords) (t : Fin 3) (k : Fin 8) : Memref sig .scVector .hbm S16x128 .f32 :=
  ((oV).slice (Rect.unit (s := S3x4096x128) (outOff L t k) S1x16x128.size (outOff_inb L t k)) (fun _ => rfl)).squeeze S16x128 squeezes_S1x16x128_S16x128

/-! ## The buffers, cells, tables by number -/

def idxBufOf (p : Fin 2) : Memref sig .scVector .vmem S6400 .i32 := match p with | 0 => s0 | 1 => s1
def rowBuf (b : Fin 4) : Memref sig .scVector .vmem S200x128 .f32 := match b with | 0 => s2 | 1 => s3 | 2 => s4 | 3 => s5
def cellOf (b : Fin 4) : DmaSems sig S_ := match b with | 0 => cc0_scratch7 | 1 => cc0_scratch8 | 2 => cc0_scratch9 | 3 => cc0_scratch10
def tblV (t : Fin 3) : Memref sig .scVector .hbm S100000x128 .f32 := match t with | 0 => aV | 1 => bV | 2 => cV
def tLocOf (d : Dev nD) (t : Fin 3) : Loc nD τ sig := match t with | 0 => aLoc d | 1 => bLoc d | 2 => cLoc d

/-! ## Trip counts, residues -/

theorem trips1 (k : Fin k0_t1_loop.trips) : k.val < 8 := Nat.lt_of_lt_of_le k.isLt k0_t1_abs.2.1
theorem trips18 (k : Fin k0_t18_loop.trips) : k.val < 8 := Nat.lt_of_lt_of_le k.isLt k0_t18_abs.2.1
theorem trips35 (k : Fin k0_t35_loop.trips) : k.val < 8 := Nat.lt_of_lt_of_le k.isLt k0_t35_abs.2.1

theorem bk32_val {n : ℕ} (h : n < 32) : (Ring.bk 32 n).val = n := Ring.bk_val h
theorem bk8_val {n : ℕ} (h : n < 8) : (Ring.bk 8 n).val = n := Ring.bk_val h

/-! ## A slice at an offset in closed form is the block, the chunk -/

/-- An offset `200 n` at which 200 words fit is block `n`'s: the fit bounds `n`. -/
theorem off_blk {off : Fin 1 → Nat} {c : ℕ} (n : ℕ) (e : off = ![c]) (hh : ∀ a, off a + S200.size a ≤ S6400.size a) (hc : c = 200 * n) :
    off = blkOff (Ring.bk 32 n) := by
  subst e
  have h0 : c + 200 ≤ 6400 := hh 0
  have hn : n < 32 := by omega
  show (![c] : Fin 1 → ℕ) = ![200 * (Ring.bk 32 n).val]
  rw [Ring.bk_val hn, hc]

theorem blk_congr (sK : Memref sig .scVector .vmem S6400 .i32) {off : Fin 1 → Nat} {g : Fin 32} (e : off = blkOff g) (hh hs) :
    sK.slice (Rect.unit (s := S6400) off S200.size hh) hs = blk sK g := Memref.slice_unit_congr _ e _ _ _ (fun _ => rfl)

theorem off_out {off : Fin 3 → Nat} (L : grid0.Coords) (t : Fin 3) {n : ℕ} (hn : n < 8)
    (e : off = ![t.val, 256 * (L 1).val + 128 * (L 0).val + 16 * n, 0]) : off = outOff L t (Ring.bk 8 n) := by
  subst e
  show (![_, _, _] : Fin 3 → ℕ) = ![t.val, 256 * (L 1).val + 128 * (L 0).val + 16 * (Ring.bk 8 n).val, 0]
  rw [Ring.bk_val hn]

theorem outCh_congr {off : Fin 3 → Nat} {L : grid0.Coords} {t : Fin 3} {k : Fin 8} (e : off = outOff L t k) (hh hs) :
    ((oV).slice (Rect.unit (s := S3x4096x128) off S1x16x128.size hh) hs).squeeze S16x128 squeezes_S1x16x128_S16x128 = outCh L t k :=
  congrArg (fun M : Memref sig .scVector .hbm S1x16x128 .f32 => M.squeeze S16x128 squeezes_S1x16x128_S16x128) (Memref.slice_unit_congr _ e _ _ _ _)

/-! ## The equations the run rewrites the program by -/

section Canon
variable (sK : Memref sig .scVector .vmem S6400 .i32) (tV : Memref sig .scVector .hbm S100000x128 .f32)

/-- The literal blocks: the first four streams of a buffer. -/
@[sl_canon] theorem blkL0 (hh hs) : sK.slice (Rect.unit (s := S6400) ![0] S200.size hh) hs = blk sK (Ring.bk 32 0) := blk_congr sK (by decide) _ _
@[sl_canon] theorem blkL1 (hh hs) : sK.slice (Rect.unit (s := S6400) ![200] S200.size hh) hs = blk sK (Ring.bk 32 1) := blk_congr sK (by decide) _ _
@[sl_canon] theorem blkL2 (hh hs) : sK.slice (Rect.unit (s := S6400) ![400] S200.size hh) hs = blk sK (Ring.bk 32 2) := blk_congr sK (by decide) _ _
@[sl_canon] theorem blkL3 (hh hs) : sK.slice (Rect.unit (s := S6400) ![600] S200.size hh) hs = blk sK (Ring.bk 32 3) := blk_congr sK (by decide) _ _

/-- The first table's loop, trip `k`: slot `b` refills with block `4 k + b + 4`. -/
@[sl_canon] theorem blkA0 (k : Fin k0_t1_loop.trips) (hh hs) :
    sK.slice (Rect.unit (s := S6400) (k0_off66 k) S200.size hh) hs = blk sK (Ring.bk 32 (4 * k.val + 0 + 4)) := blk_congr sK (off_blk _ (k0_off66_eq k) hh (by omega)) _ _
@[sl_canon] theorem blkA1 (k : Fin k0_t1_loop.trips) (hh hs) :
    sK.slice (Rect.unit (s := S6400) (k0_off131 k) S200.size hh) hs = blk sK (Ring.bk 32 (4 * k.val + 1 + 4)) := blk_congr sK (off_blk _ (k0_off131_eq k) hh (by omega)) _ _
@[sl_canon] theorem blkA2 (k : Fin k0_t1_loop.trips) (hh hs) :
    sK.slice (Rect.unit (s := S6400) (k0_off196 k) S200.size hh) hs = blk sK (Ring.bk 32 (4 * k.val + 2 + 4)) := blk_congr sK (off_blk _ (k0_off196_eq k) hh (by omega)) _ _
@[sl_canon] theorem blkA3 (k : Fin k0_t1_loop.trips) (hh hs) :
    sK.slice (Rect.unit (s := S6400) (k0_off261 k) S200.size hh) hs = blk sK (Ring.bk 32 (4 * k.val + 3 + 4)) := blk_congr sK (off_blk _ (k0_off261_eq k) hh (by omega)) _ _

/-- The second table's loop. -/
@[sl_canon] theorem blkB0 (k : Fin k0_t18_loop.trips) (hh hs) :
    sK.slice (Rect.unit (s := S6400) (k0_off327 k) S200.size hh) hs = blk sK (Ring.bk 32 (4 * k.val + 0 + 4)) := blk_congr sK (off_blk _ (k0_off327_eq k) hh (by omega)) _ _
@[sl_canon] theorem blkB1 (k : Fin k0_t18_loop.trips) (hh hs) :
    sK.slice (Rect.unit (s := S6400) (k0_off392 k) S200.size hh) hs = blk sK (Ring.bk 32 (4 * k.val + 1 + 4)) := blk_congr sK (off_blk _ (k0_off392_eq k) hh (by omega)) _ _
@[sl_canon] theorem blkB2 (k : Fin k0_t18_loop.trips) (hh hs) :
    sK.slice (Rect.unit (s := S6400) (k0_off457 k) S200.size hh) hs = blk sK (Ring.bk 32 (4 * k.val + 2 + 4)) := blk_congr sK (off_blk _ (k0_off457_eq k) hh (by omega)) _ _
@[sl_canon] theorem blkB3 (k : Fin k0_t18_loop.trips) (hh hs) :
    sK.slice (Rect.unit (s := S6400) (k0_off522 k) S200.size hh) hs = blk sK (Ring.bk 32 (4 * k.val + 3 + 4)) := blk_congr sK (off_blk _ (k0_off522_eq k) hh (by omega)) _ _

/-- The third table's loop. -/
@[sl_canon] theorem blkC0 (k : Fin k0_t35_loop.trips) (hh hs) :
    sK.slice (Rect.unit (s := S6400) (k0_off588 k) S200.size hh) hs = blk sK (Ring.bk 32 (4 * k.val + 0 + 4)) := blk_congr sK (off_blk _ (k0_off588_eq k) hh (by omega)) _ _
@[sl_canon] theorem blkC1 (k : Fin k0_t35_loop.trips) (hh hs) :
    sK.slice (Rect.unit (s := S6400) (k0_off653 k) S200.size hh) hs = blk sK (Ring.bk 32 (4 * k.val + 1 + 4)) := blk_congr sK (off_blk _ (k0_off653_eq k) hh (by omega)) _ _
@[sl_canon] theorem blkC2 (k : Fin k0_t35_loop.trips) (hh hs) :
    sK.slice (Rect.unit (s := S6400) (k0_off718 k) S200.size hh) hs = blk sK (Ring.bk 32 (4 * k.val + 2 + 4)) := blk_congr sK (off_blk _ (k0_off718_eq k) hh (by omega)) _ _
@[sl_canon] theorem blkC3 (k : Fin k0_t35_loop.trips) (hh hs) :
    sK.slice (Rect.unit (s := S6400) (k0_off783 k) S200.size hh) hs = blk sK (Ring.bk 32 (4 * k.val + 3 + 4)) := blk_congr sK (off_blk _ (k0_off783_eq k) hh (by omega)) _ _

/-- A gather's table. -/
@[sl_canon] theorem tblE (hh hs) : tV.slice (Rect.unit (s := S100000x128) ![0, 0] S100000x128.size hh) hs = tblW tV := Memref.slice_unit_congr _ rfl _ _ _ (fun _ => rfl)

/-- The copy-out of chunk `k`, one plane a loop. -/
@[sl_canon] theorem outA (L : grid0.Coords) (k : Fin k0_t1_loop.trips) (hh hs) :
    ((oV).slice (Rect.unit (s := S3x4096x128) (k0_off262 L k) S1x16x128.size hh) hs).squeeze S16x128 squeezes_S1x16x128_S16x128 = outCh L 0 (Ring.bk 8 k.val) :=
  outCh_congr (off_out L 0 (trips1 k) (k0_off262_eq L k)) _ _
@[sl_canon] theorem outB (L : grid0.Coords) (k : Fin k0_t18_loop.trips) (hh hs) :
    ((oV).slice (Rect.unit (s := S3x4096x128) (k0_off523 L k) S1x16x128.size hh) hs).squeeze S16x128 squeezes_S1x16x128_S16x128 = outCh L 1 (Ring.bk 8 k.val) :=
  outCh_congr (off_out L 1 (trips18 k) (k0_off523_eq L k)) _ _
@[sl_canon] theorem outC (L : grid0.Coords) (k : Fin k0_t35_loop.trips) (hh hs) :
    ((oV).slice (Rect.unit (s := S3x4096x128) (k0_off784 L k) S1x16x128.size hh) hs).squeeze S16x128 squeezes_S1x16x128_S16x128 = outCh L 2 (Ring.bk 8 k.val) :=
  outCh_congr (off_out L 2 (trips35 k) (k0_off784_eq L k)) _ _

end Canon

/-! ## The staged stretches of the index array -/

theorem off1_at0 : k0_off1_at 0 = 0#32 := rfl
theorem off1_at1 : k0_off1_at 1 = 409600#32 := rfl
theorem off1_at2 : k0_off1_at 2 = 614400#32 := rfl
theorem iSl0 (L : grid0.Coords) (hh hs) : (iV).slice (Rect.unit (s := S819200) (k0_off1 L 0#32) S6400.size hh) hs = iSl L 0 := Memref.slice_unit_congr _ rfl _ _ _ _
theorem iSl1 (L : grid0.Coords) (hh hs) : (iV).slice (Rect.unit (s := S819200) (k0_off1 L 409600#32) S6400.size hh) hs = iSl L 1 := Memref.slice_unit_congr _ rfl _ _ _ _
theorem iSl2 (L : grid0.Coords) (hh hs) : (iV).slice (Rect.unit (s := S819200) (k0_off1 L 614400#32) S6400.size hh) hs = iSl L 2 := Memref.slice_unit_congr _ rfl _ _ _ _

end Cert.Kernel.Sc

end
-- ==== Proof.B_ScRing.lean ====
/-
  The ring of four row buffers a vector subcore keeps in flight over one index buffer and one table, and the invariant
  of a chunk loop over it.

  The index buffer is 32 blocks of 200 words; stream `g` gathers the 200 rows of the table that block `g` names into
  a row buffer. Chunk `k`, slot `b` lands stream `4 k + b` and re-fires stream `4 k + b + 4` into the same row buffer:
  before virtual point `p = 4 k + b` the blocks `p … p + 3` are out with the four slots and every other block is home.
  A flight carries the row buffer (delivered written whole with the named rows), the block, and the slot's read token
  of the table. The pooled array's plane is held chunk by chunk (sixteen rows each): the chunks before the trip hold
  the pooled value, the others anything.
-/
import proofs.«207262_g39728447488703_cont_8to1_b_1934_40_alg».proof.Proof.B_ScCanon
import Idealize.ShloMosaic.Lib.Ring
import Idealize.ShloMosaic.Lib.SparseCore.Stream
import Idealize.ShloMosaic.Lib.Transfers
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The pieces of the ring: a block of the index buffer at home, a row buffer held, its cell, its read token of the
table, a row buffer in flight with a block's rows -/

section Pieces

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare)

/-- Every word of the index buffer names a row of the table. -/
def IdxOK : Prop := ∀ (g : Fin 32) (x : S200.Idx), ((blk sK g).view.read (Elt F) X x).toNat < 100000

/-- A DMA semaphore at zero. -/
abbrev cellP (sm : DmaSems sig S_) : sProp 𝕄 := semVal (thrOf d L, SemLoc.dma sm.sem) 0
/-- A row buffer held whole. -/
abbrev slotP (sR : Memref sig .scVector .vmem S200x128 .f32) (f : Buf (Elt F) (sR.view.loc (thrOf d L))) : sProp 𝕄 :=
  sR.view.loc (thrOf d L) ↦{fullShare} f
/-- Block `g` of the index buffer at home: held on its 200 words at the buffer's contents. -/
abbrev homeP (g : Fin 32) : sProp 𝕄 := (blk sK g).view.loc (thrOf d L) ↦[(blk sK g).view.set]{fullShare} X
/-- Ring slot `b`'s read token of the table, whole. -/
abbrev tokP (b : Fin 4) : sProp 𝕄 := tV.view.loc (thrOf d L) ↦{Transfers.shareTok q 4 b} T

variable (hX : IdxOK d L sK X)

/-- The 200 rows of the table that block `g`'s words name. -/
abbrev gathered (g : Fin 32) : S200x128.Idx → Elt F .f32 :=
  SparseCore.gatherPayload gathers_S100000x128_S200x128 ((tblW tV).view.read (Elt F) T)
    (SparseCore.rows ((blk sK g).view.read (Elt F) X) rfl (hX g))
/-- What the gather of block `g` leaves in a row buffer over prior contents `f`. -/
abbrev landed (sR : Memref sig .scVector .vmem S200x128 .f32) (g : Fin 32) (f : Buf (Elt F) (sR.view.loc (thrOf d L))) :
    Buf (Elt F) (sR.view.loc (thrOf d L)) :=
  sR.view.writes (Elt F) f [⟨Rect.whole S200x128, gathered d L tV T sK X hX g⟩]
/-- Ring slot `b` IN FLIGHT with block `g`'s rows, issued over `f`: the wait hands back the row buffer landed (held
    whole), the block and the slot's token; beside the flight sits what the issue left of the token outside the transfer's
    window (nothing: the window is the whole table), which the wait joins back. -/
abbrev flightP (sR : Memref sig .scVector .vmem S200x128 .f32) (sm : DmaSems sig S_) (b : Fin 4) (g : Fin 32)
    (f : Buf (Elt F) (sR.view.loc (thrOf d L))) : sProp 𝕄 :=
  iprop(Transfers.Flight countersEmb (thrOf d L) (SemLoc.dma sm.sem) default 819200
      iprop(((sR.view.loc (thrOf d L) ↦{fullShare} landed d L tV T sK X hX sR g f) ∗ homeP d L sK X g)
        ∗ (tV.view.loc (thrOf d L) ↦[(tblW tV).view.set]{Transfers.shareTok q 4 b} T))
    ∗ (tV.view.loc (thrOf d L) ↦[Finset.univ \ (tblW tV).view.set]{Transfers.shareTok q 4 b} T))
/-- The flight a re-fire leaves, as the run states it: into the row buffer as the previous block's flight delivered it
    (restated over junk), the new block's rows consed on. -/
theorem flightP_after (sR : Memref sig .scVector .vmem S200x128 .f32) (sm : DmaSems sig S_) (b : Fin 4) (g g' : Fin 32) :
    flightP d L tV T sK X q hX sR sm b g' (sR.view.writes (Elt F) sR.view.junk [⟨Rect.whole S200x128, gathered d L tV T sK X hX g⟩])
      = iprop(Transfers.Flight countersEmb (thrOf d L) (SemLoc.dma sm.sem) default 819200
          iprop(((sR.view.loc (thrOf d L) ↦{fullShare} sR.view.writes (Elt F) sR.view.junk
                    [⟨Rect.whole S200x128, gathered d L tV T sK X hX g'⟩, ⟨Rect.whole S200x128, gathered d L tV T sK X hX g⟩])
                ∗ homeP d L sK X g')
            ∗ (tV.view.loc (thrOf d L) ↦[(tblW tV).view.set]{Transfers.shareTok q 4 b} T))
        ∗ (tV.view.loc (thrOf d L) ↦[Finset.univ \ (tblW tV).view.set]{Transfers.shareTok q 4 b} T)) := by
  simp only [flightP, landed, View.writes]
/-- Ring slot `b` idle: its cell at zero, its row buffer at anything, its token. -/
abbrev idleP (sR : Memref sig .scVector .vmem S200x128 .f32) (sm : DmaSems sig S_) (b : Fin 4) : sProp 𝕄 :=
  iprop(cellP d L sm ∗ (∃ f, slotP d L sR f) ∗ tokP d L tV T q b)
/-- Ring slot `b` whose next stream to land is `n`: in flight with it if there is such a stream, else idle. -/
def slotAt (sR : Memref sig .scVector .vmem S200x128 .f32) (sm : DmaSems sig S_) (b : Fin 4) (n : ℕ) : sProp 𝕄 :=
  if n < 32 then iprop(∃ f, flightP d L tV T sK X q hX sR sm b (Ring.bk 32 n) f) else idleP d L tV T q sR sm b
theorem slotAt_lt (sR : Memref sig .scVector .vmem S200x128 .f32) (sm : DmaSems sig S_) (b : Fin 4) {n : ℕ} (h : n < 32) :
    slotAt d L tV T sK X q hX sR sm b n = iprop(∃ f, flightP d L tV T sK X q hX sR sm b (Ring.bk 32 n) f) := if_pos h
theorem slotAt_ge (sR : Memref sig .scVector .vmem S200x128 .f32) (sm : DmaSems sig S_) (b : Fin 4) {n : ℕ} (h : ¬ n < 32) :
    slotAt d L tV T sK X q hX sR sm b n = idleP d L tV T q sR sm b := if_neg h
/-- The ring before virtual point `p`: blocks `p … p + 3` out with the four slots, the others home. -/
def ringAt (p : ℕ) : sProp 𝕄 :=
  iprop(bigSep (Ring.homeSet (NB := 32) 4 p) (homeP d L sK X)
    ∗ slotAt d L tV T sK X q hX s2 cc0_scratch7 0 (p + 0) ∗ slotAt d L tV T sK X q hX s3 cc0_scratch8 1 (p + 1)
    ∗ slotAt d L tV T sK X q hX s4 cc0_scratch9 2 (p + 2) ∗ slotAt d L tV T sK X q hX s5 cc0_scratch10 3 (p + 3))

end Pieces

/-! ## The home blocks regrouped by chunk -/

section Regroup

/-- The blocks no slot holds before or after chunk `k`. -/
def chunkRest (k : ℕ) : Finset (Fin 32) := Finset.univ.filter fun g => g.val < 4 * k ∨ 4 * k + 8 ≤ g.val

theorem bigSep_insert4 {S R : Finset (Fin 32)} (Φ : Fin 32 → sProp 𝕄) (a0 a1 a2 a3 : Fin 32)
    (e : S = insert a0 (insert a1 (insert a2 (insert a3 R))))
    (h0 : a0 ∉ insert a1 (insert a2 (insert a3 R))) (h1 : a1 ∉ insert a2 (insert a3 R)) (h2 : a2 ∉ insert a3 R) (h3 : a3 ∉ R) :
    bigSep S Φ = iprop(Φ a0 ∗ Φ a1 ∗ Φ a2 ∗ Φ a3 ∗ bigSep R Φ) := by
  rw [e, bigSep_insert h0, bigSep_insert h1, bigSep_insert h2, bigSep_insert h3]; rfl

/-- Before chunk `k < 7`: the four blocks the chunk re-fires, beside the rest. -/
theorem chunk_homes_here (Φ : Fin 32 → sProp 𝕄) (k : ℕ) (hk : k < 7) :
    bigSep (Ring.homeSet (NB := 32) 4 (4 * k)) Φ
      = iprop(Φ (Ring.bk 32 (4 * k + 0 + 4)) ∗ Φ (Ring.bk 32 (4 * k + 1 + 4)) ∗ Φ (Ring.bk 32 (4 * k + 2 + 4)) ∗ Φ (Ring.bk 32 (4 * k + 3 + 4))
          ∗ bigSep (chunkRest k) Φ) := by
  apply bigSep_insert4
  · ext g
    simp only [Finset.mem_insert, Ring.mem_homeSet, chunkRest, Finset.mem_filter, Finset.mem_univ, true_and, Fin.ext_iff,
      Ring.bk_val (show 4 * k + 0 + 4 < 32 by omega), Ring.bk_val (show 4 * k + 1 + 4 < 32 by omega),
      Ring.bk_val (show 4 * k + 2 + 4 < 32 by omega), Ring.bk_val (show 4 * k + 3 + 4 < 32 by omega)]
    omega
  all_goals
    simp only [Finset.mem_insert, chunkRest, Finset.mem_filter, Finset.mem_univ, true_and, Fin.ext_iff,
      Ring.bk_val (show 4 * k + 0 + 4 < 32 by omega), Ring.bk_val (show 4 * k + 1 + 4 < 32 by omega),
      Ring.bk_val (show 4 * k + 2 + 4 < 32 by omega), Ring.bk_val (show 4 * k + 3 + 4 < 32 by omega)]
    omega

/-- Before chunk `k + 1` (`k < 7`): the four blocks chunk `k` landed, beside the same rest. -/
theorem chunk_homes_next (Φ : Fin 32 → sProp 𝕄) (k : ℕ) (hk : k < 7) :
    bigSep (Ring.homeSet (NB := 32) 4 (4 * (k + 1))) Φ
      = iprop(Φ (Ring.bk 32 (4 * k + 0)) ∗ Φ (Ring.bk 32 (4 * k + 1)) ∗ Φ (Ring.bk 32 (4 * k + 2)) ∗ Φ (Ring.bk 32 (4 * k + 3))
          ∗ bigSep (chunkRest k) Φ) := by
  apply bigSep_insert4
  · ext g
    simp only [Finset.mem_insert, Ring.mem_homeSet, chunkRest, Finset.mem_filter, Finset.mem_univ, true_and, Fin.ext_iff,
      Ring.bk_val (show 4 * k + 0 < 32 by omega), Ring.bk_val (show 4 * k + 1 < 32 by omega),
      Ring.bk_val (show 4 * k + 2 < 32 by omega), Ring.bk_val (show 4 * k + 3 < 32 by omega)]
    omega
  all_goals
    simp only [Finset.mem_insert, chunkRest, Finset.mem_filter, Finset.mem_univ, true_and, Fin.ext_iff,
      Ring.bk_val (show 4 * k + 0 < 32 by omega), Ring.bk_val (show 4 * k + 1 < 32 by omega),
      Ring.bk_val (show 4 * k + 2 < 32 by omega), Ring.bk_val (show 4 * k + 3 < 32 by omega)]
    omega

/-- After the last chunk every block is home: the four it landed beside those home before it. -/
theorem chunk_homes_last (Φ : Fin 32 → sProp 𝕄) :
    bigSep (Ring.homeSet (NB := 32) 4 (4 * (7 + 1))) Φ
      = iprop(Φ (Ring.bk 32 (4 * 7 + 0)) ∗ Φ (Ring.bk 32 (4 * 7 + 1)) ∗ Φ (Ring.bk 32 (4 * 7 + 2)) ∗ Φ (Ring.bk 32 (4 * 7 + 3))
          ∗ bigSep (Ring.homeSet (NB := 32) 4 (4 * 7)) Φ) := by
  apply bigSep_insert4
  · ext g
    simp only [Finset.mem_insert, Ring.mem_homeSet, Fin.ext_iff,
      Ring.bk_val (show 4 * 7 + 0 < 32 by omega), Ring.bk_val (show 4 * 7 + 1 < 32 by omega),
      Ring.bk_val (show 4 * 7 + 2 < 32 by omega), Ring.bk_val (show 4 * 7 + 3 < 32 by omega)]
    omega
  all_goals
    simp only [Finset.mem_insert, Ring.mem_homeSet, Fin.ext_iff,
      Ring.bk_val (show 4 * 7 + 0 < 32 by omega), Ring.bk_val (show 4 * 7 + 1 < 32 by omega),
      Ring.bk_val (show 4 * 7 + 2 < 32 by omega), Ring.bk_val (show 4 * 7 + 3 < 32 by omega)]
    omega

/-- The same, the last chunk a variable. -/
theorem chunk_homes_last' (Φ : Fin 32 → sProp 𝕄) (k : ℕ) (hk : k = 7) :
    bigSep (Ring.homeSet (NB := 32) 4 (4 * (k + 1))) Φ
      = iprop(Φ (Ring.bk 32 (4 * k + 0)) ∗ Φ (Ring.bk 32 (4 * k + 1)) ∗ Φ (Ring.bk 32 (4 * k + 2)) ∗ Φ (Ring.bk 32 (4 * k + 3))
          ∗ bigSep (Ring.homeSet (NB := 32) 4 (4 * k)) Φ) := by
  subst hk; exact chunk_homes_last Φ

theorem bk32_next (k b : ℕ) : Ring.bk 32 (4 * (k + 1) + b) = Ring.bk 32 (4 * k + b + 4) := by
  congr 1; omega

end Regroup

/-! ## The pooled array's chunks, the scratch of one chunk's means, what the subcore owes -/

section Plane

variable (m : (ℓ : Loc nD τ sig) → Buf (Elt F) ℓ) (d : Dev nD) (L : grid0.Coords)

/-- Chunk `c` (sixteen rows) of plane `t` of the worker's rows of the pooled array, held at `f`. -/
abbrev chunkP (t : Fin 3) (c : Fin 8) (f : Buf (Elt F) (oLoc d)) : sProp 𝕄 :=
  (outCh L t c).view.loc (thrOf d L) ↦[(outCh L t c).view.set]{fullShare} f
/-- Before trip `k` of plane `t`'s loop: the chunks before `k` hold the pooled value, the others anything. -/
def chunkAt (t : Fin 3) (k : ℕ) (c : Fin 8) : sProp 𝕄 :=
  if c.val < k then chunkP d L t c (pooledArr m d) else iprop(∃ f, chunkP d L t c f)
def planeAt (t : Fin 3) (k : ℕ) : sProp 𝕄 := bigSep Finset.univ (chunkAt m d L t k)

/-- Before trip `k`: chunk `k` at anything, beside the others. -/
theorem plane_here (t : Fin 3) (k : ℕ) (hk : k < 8) :
    planeAt m d L t k = iprop((∃ f, chunkP d L t (Ring.bk 8 k) f) ∗ bigSep (Finset.univ.erase (Ring.bk 8 k)) (chunkAt m d L t k)) := by
  unfold planeAt
  rw [SparseCore.bigSep_erase' (Finset.mem_univ (Ring.bk 8 k))]
  congr 1
  unfold chunkAt; rw [if_neg (by rw [Ring.bk_val hk]; omega)]
/-- Before trip `k + 1`: chunk `k` at the pooled value, beside the same others. -/
theorem plane_next (t : Fin 3) (k : ℕ) (hk : k < 8) :
    planeAt m d L t (k + 1) = iprop(chunkP d L t (Ring.bk 8 k) (pooledArr m d) ∗ bigSep (Finset.univ.erase (Ring.bk 8 k)) (chunkAt m d L t k)) := by
  unfold planeAt
  rw [SparseCore.bigSep_erase' (Finset.mem_univ (Ring.bk 8 k))]
  congr 1
  · unfold chunkAt; rw [if_pos (by rw [Ring.bk_val hk]; omega)]
  · apply bigSep_congr
    intro c hc
    have hne : c.val ≠ k := fun e => (Finset.mem_erase.mp hc).1 (Fin.ext (by rw [Ring.bk_val hk]; exact e))
    unfold chunkAt
    by_cases h : c.val < k
    · rw [if_pos h, if_pos (by omega)]
    · rw [if_neg h, if_neg (by omega)]

/-- The scratch of a chunk's sixteen means, at anything. -/
abbrev meansP : sProp 𝕄 := iprop(∃ f, (s6).view.loc (thrOf d L) ↦{fullShare} f)
/-- The subcore's recorded waits: the launch's, and waits of its own local transfers. -/
abbrev owesP (O : CellTallies nD τ sig (HIx 1)) (W : Waits sig (HIx 1)) : sProp 𝕄 :=
  iprop(∃ W', ⌜∀ p ∈ W', p ∈ W ∨ p.2 = none⌝ ∗ owes (thrOf d L) O W')

end Plane

/-! ## The invariant of a chunk loop whose re-fires stay within one table and one index buffer (the third loop; the
first two loops' invariant is this one at trips below 8 beside the other index buffer held whole, and at trip 8 the
next table's ring at point 0 beside this buffer's blocks all home) -/

section Inv

variable (m : (ℓ : Loc nD τ sig) → Buf (Elt F) ℓ) (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)
  (smO : DmaSems sig S_) (t : Fin 3) (O : CellTallies nD τ sig (HIx 1)) (W : Waits sig (HIx 1))

/-- Before trip `k` of plane `t`'s chunk loop: the ring at point `4 k`, the means' scratch, the copy-out's cell, the
    plane's chunks, the subcore's waits. -/
def resAt (k : ℕ) : sProp 𝕄 :=
  iprop(ringAt d L tV T sK X q hX (4 * k) ∗ meansP d L ∗ cellP d L smO ∗ planeAt m d L t k
    ∗ Transfers.MayWaits (thrOf d L) (default : HIx 1) O ∗ owesP d L O W)

end Inv

end Cert.Kernel.Sc

end
-- ==== Proof.B_ScCanonSets.lean ====
/-
  The element sets behind the names of a vector subcore's memref slices: an index buffer's 6400 words are its 32
  blocks of 200, pairwise disjoint; the 128 rows a worker owns of each of the three planes of the pooled array are
  its 24 chunks of sixteen rows (three planes, eight chunks a plane), pairwise disjoint; and when each slot's
  conditional re-fires run: at every trip but the last the next block of the same buffer, at the last trip the first
  blocks of the other buffer.
-/
import proofs.«207262_g39728447488703_cont_8to1_b_1934_40_alg».proof.Proof.B_ScCanon

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Tactic

variable {F : FTy → Type} [FloatOps F]

local notation "𝕄" => MT nD τ sig (HIx 1) (Elt F) ℕ UU ℕ

/-! ## Element sets: an index buffer's 32 blocks, the pooled array's chunks -/

/-- Block `g`'s words. -/
abbrev B32 (g : Fin 32) : Finset S6400.Idx := (Rect.unit (s := S6400) (blkOff g) S200.size (blkOff_inb g)).set

theorem blk_set0 (g : Fin 32) : (blk s0 g).view.set = B32 g := View.set_slice_whole _ _
theorem blk_set1 (g : Fin 32) : (blk s1 g).view.set = B32 g := View.set_slice_whole _ _

theorem mem_B32 (g : Fin 32) (y : S6400.Idx) : y ∈ B32 g ↔ 200 * g.val ≤ (y 0).val ∧ (y 0).val < 200 * g.val + 200 := by
  rw [Rect.mem_set_unit]
  constructor
  · intro H; exact H 0
  · intro H a; fin_cases a; exact H

/-- The blocks are pairwise disjoint and cover the buffer. -/
theorem B32_disjoint (g g' : Fin 32) (h : g ≠ g') : Disjoint (B32 g) (B32 g') :=
  Ring.lead_disjoint (s := S6400) (NB := 32) (⟨0, by decide⟩ : Fin S6400.rank) 200 (fun g => blkOff g) S200.size blkOff_inb (fun _ => rfl) rfl g g' h

theorem B32_cover : Finset.univ.biUnion B32 = Finset.univ :=
  Ring.lead_cover (s := S6400) (NB := 32) (⟨0, by decide⟩ : Fin S6400.rank) 200 (fun g => blkOff g) S200.size blkOff_inb (fun _ => rfl)
    (fun b a ha => by fin_cases a; exact absurd rfl ha) rfl (fun a ha => by fin_cases a; exact absurd rfl ha) rfl

/-- Chunk `k` of plane `t` of worker `L`'s rows. -/
abbrev O16 (L : grid0.Coords) (t : Fin 3) (k : Fin 8) : Finset S3x4096x128.Idx :=
  (Rect.unit (s := S3x4096x128) (outOff L t k) S1x16x128.size (outOff_inb L t k)).set

theorem outCh_set (L : grid0.Coords) (t : Fin 3) (k : Fin 8) : (outCh L t k).view.set = O16 L t k :=
  (View.set_reshape _ _).trans (View.set_slice_whole _ _)

theorem mem_O16 (L : grid0.Coords) (t : Fin 3) (k : Fin 8) (y : S3x4096x128.Idx) :
    y ∈ O16 L t k ↔ (y 0).val = t.val ∧ 256 * (L 1).val + 128 * (L 0).val + 16 * k.val ≤ (y 1).val
      ∧ (y 1).val < 256 * (L 1).val + 128 * (L 0).val + 16 * k.val + 16 := by
  rw [Rect.mem_set_unit]
  have h2 : (y 2).val < 128 := (y 2).isLt
  constructor
  · intro H
    have a0 : t.val ≤ (y 0).val ∧ (y 0).val < t.val + 1 := H 0
    have a1 : 256 * (L 1).val + 128 * (L 0).val + 16 * k.val ≤ (y 1).val ∧ (y 1).val < 256 * (L 1).val + 128 * (L 0).val + 16 * k.val + 16 := H 1
    omega
  · intro H a; fin_cases a
    · show t.val ≤ (y 0).val ∧ (y 0).val < t.val + 1; omega
    · show 256 * (L 1).val + 128 * (L 0).val + 16 * k.val ≤ (y 1).val ∧ (y 1).val < 256 * (L 1).val + 128 * (L 0).val + 16 * k.val + 16; omega
    · show 0 ≤ (y 2).val ∧ (y 2).val < 0 + 128; omega

/-- Worker `w`'s rows of the pooled array are rows `128 w … 128 w + 127` of every plane. -/
theorem mem_oSet (w : Fin 32) (y : S3x4096x128.Idx) : y ∈ oSet w ↔ 128 * w.val ≤ (y 1).val ∧ (y 1).val < 128 * w.val + 128 := by
  have e : oSet w = (oPart w).set := View.set_slice_whole _ _
  rw [e, Rect.mem_set_unit]
  have h0 : (y 0).val < 3 := (y 0).isLt
  have h2 : (y 2).val < 128 := (y 2).isLt
  constructor
  · intro H
    have a1 : w.val * 128 ≤ (y 1).val ∧ (y 1).val < w.val * 128 + 128 := H 1
    omega
  · intro H a; fin_cases a
    · show 0 * 3 ≤ (y 0).val ∧ (y 0).val < 0 * 3 + 3; omega
    · show w.val * 128 ≤ (y 1).val ∧ (y 1).val < w.val * 128 + 128; omega
    · show 0 * 128 ≤ (y 2).val ∧ (y 2).val < 0 * 128 + 128; omega

/-- A worker's chunks lie in its rows, -/
theorem O16_subset (L : grid0.Coords) (t : Fin 3) (k : Fin 8) : O16 L t k ⊆ oSet (wOf (cL L) (sL L)) := by
  intro y hy
  rw [mem_O16] at hy; rw [mem_oSet]
  have hk := k.isLt
  show 128 * (2 * (L 1).val + (L 0).val) ≤ (y 1).val ∧ (y 1).val < 128 * (2 * (L 1).val + (L 0).val) + 128
  omega

/-- are pairwise disjoint, -/
theorem O16_disjoint (L : grid0.Coords) (t t' : Fin 3) (k k' : Fin 8) (h : t ≠ t' ∨ k ≠ k') : Disjoint (O16 L t k) (O16 L t' k') := by
  rw [Finset.disjoint_left]
  intro y hy hy'
  rw [mem_O16] at hy hy'
  rcases h with h | h
  · exact h (Fin.ext (by omega))
  · exact h (Fin.ext (by omega))

/-- and cover them. -/
theorem O16_cover (L : grid0.Coords) :
    (Finset.univ : Finset (Fin 3 × Fin 8)).biUnion (fun p => O16 L p.1 p.2) = oSet (wOf (cL L) (sL L)) := by
  ext y
  simp only [Finset.mem_biUnion, Finset.mem_univ, true_and]
  constructor
  · rintro ⟨p, hp⟩; exact O16_subset L p.1 p.2 hp
  · intro hy
    rw [mem_oSet] at hy
    have hy' : 128 * (2 * (L 1).val + (L 0).val) ≤ (y 1).val ∧ (y 1).val < 128 * (2 * (L 1).val + (L 0).val) + 128 := hy
    have h0 : (y 0).val < 3 := (y 0).isLt
    refine ⟨(⟨(y 0).val, h0⟩, ⟨((y 1).val - (256 * (L 1).val + 128 * (L 0).val)) / 16, by omega⟩), ?_⟩
    rw [mem_O16]
    show (y 0).val = (y 0).val ∧ 256 * (L 1).val + 128 * (L 0).val + 16 * (((y 1).val - (256 * (L 1).val + 128 * (L 0).val)) / 16) ≤ (y 1).val
      ∧ (y 1).val < 256 * (L 1).val + 128 * (L 0).val + 16 * (((y 1).val - (256 * (L 1).val + 128 * (L 0).val)) / 16) + 16
    omega

/-! ## An index buffer held block by block -/

theorem blk_disjoint0 (g g' : Fin 32) (h : g ≠ g') : Disjoint (blk s0 g).view.set (blk s0 g').view.set := by
  rw [blk_set0, blk_set0]; exact B32_disjoint g g' h
theorem blk_disjoint1 (g g' : Fin 32) (h : g ≠ g') : Disjoint (blk s1 g).view.set (blk s1 g').view.set := by
  rw [blk_set1, blk_set1]; exact B32_disjoint g g' h

/-- Different residues below 32 name different blocks. -/
theorem bk32_ne {a b : ℕ} (ha : a < 32) (hb : b < 32) (h : a ≠ b) : Ring.bk 32 a ≠ Ring.bk 32 b := fun e =>
  h (by have e' := congrArg Fin.val e; rwa [Ring.bk_val ha, Ring.bk_val hb] at e')

/-- An index buffer held whole is held block by block. -/
theorem idx_blocks0 (d : Dev nD) (L : grid0.Coords) (q : PosShare TreeShare) (f : Buf (Elt F) ((thrOf d L).loc cc0_scratch0)) :
    ((s0).view.loc (thrOf d L) ↦{q} f : sProp 𝕄)
      = bigSep Finset.univ fun g : Fin 32 => ((s0).view.loc (thrOf d L) ↦[(blk s0 g).view.set]{q} f : sProp 𝕄) := by
  simp only [blk_set0]
  exact Ring.pointsTo_blocks (ℓ := (thrOf d L).loc cc0_scratch0) B32 B32_disjoint B32_cover f
theorem idx_blocks1 (d : Dev nD) (L : grid0.Coords) (q : PosShare TreeShare) (f : Buf (Elt F) ((thrOf d L).loc cc0_scratch1)) :
    ((s1).view.loc (thrOf d L) ↦{q} f : sProp 𝕄)
      = bigSep Finset.univ fun g : Fin 32 => ((s1).view.loc (thrOf d L) ↦[(blk s1 g).view.set]{q} f : sProp 𝕄) := by
  simp only [blk_set1]
  exact Ring.pointsTo_blocks (ℓ := (thrOf d L).loc cc0_scratch1) B32 B32_disjoint B32_cover f

/-! ## The re-fires' conditions -/

theorem cond1_iff : ∀ k : Fin k0_t1_loop.trips, k0_cond1 k = 1#1 ↔ k.val < 7 := by decide +kernel
theorem cond2_iff : ∀ k : Fin k0_t1_loop.trips, k0_cond2 k = 1#1 ↔ k.val = 7 := by decide +kernel
theorem cond3_iff : ∀ k : Fin k0_t1_loop.trips, k0_cond3 k = 1#1 ↔ k.val < 7 := by decide +kernel
theorem cond4_iff : ∀ k : Fin k0_t1_loop.trips, k0_cond4 k = 1#1 ↔ k.val = 7 := by decide +kernel
theorem cond5_iff : ∀ k : Fin k0_t1_loop.trips, k0_cond5 k = 1#1 ↔ k.val < 7 := by decide +kernel
theorem cond6_iff : ∀ k : Fin k0_t1_loop.trips, k0_cond6 k = 1#1 ↔ k.val = 7 := by decide +kernel
theorem cond7_iff : ∀ k : Fin k0_t1_loop.trips, k0_cond7 k = 1#1 ↔ k.val < 7 := by decide +kernel
theorem cond8_iff : ∀ k : Fin k0_t1_loop.trips, k0_cond8 k = 1#1 ↔ k.val = 7 := by decide +kernel
theorem cond9_iff : ∀ k : Fin k0_t18_loop.trips, k0_cond9 k = 1#1 ↔ k.val < 7 := by decide +kernel
theorem cond10_iff : ∀ k : Fin k0_t18_loop.trips, k0_cond10 k = 1#1 ↔ k.val = 7 := by decide +kernel
theorem cond11_iff : ∀ k : Fin k0_t18_loop.trips, k0_cond11 k = 1#1 ↔ k.val < 7 := by decide +kernel
theorem cond12_iff : ∀ k : Fin k0_t18_loop.trips, k0_cond12 k = 1#1 ↔ k.val = 7 := by decide +kernel
theorem cond13_iff : ∀ k : Fin k0_t18_loop.trips, k0_cond13 k = 1#1 ↔ k.val < 7 := by decide +kernel
theorem cond14_iff : ∀ k : Fin k0_t18_loop.trips, k0_cond14 k = 1#1 ↔ k.val = 7 := by decide +kernel
theorem cond15_iff : ∀ k : Fin k0_t18_loop.trips, k0_cond15 k = 1#1 ↔ k.val < 7 := by decide +kernel
theorem cond16_iff : ∀ k : Fin k0_t18_loop.trips, k0_cond16 k = 1#1 ↔ k.val = 7 := by decide +kernel
theorem cond17_iff : ∀ k : Fin k0_t35_loop.trips, k0_cond17 k = 1#1 ↔ k.val < 7 := by decide +kernel
theorem cond18_iff : ∀ k : Fin k0_t35_loop.trips, k0_cond18 k = 1#1 ↔ k.val < 7 := by decide +kernel
theorem cond19_iff : ∀ k : Fin k0_t35_loop.trips, k0_cond19 k = 1#1 ↔ k.val < 7 := by decide +kernel
theorem cond20_iff : ∀ k : Fin k0_t35_loop.trips, k0_cond20 k = 1#1 ↔ k.val < 7 := by decide +kernel

end Cert.Kernel.Sc

end
-- ==== Proof.B_ScRingSets.lean ====
/-
  A ring of depth four over 32 blocks, advanced FOUR points a trip: which blocks are home before point p, taken apart
  into the four about to go out (p + 4 … p + 7), or the four just back (p … p + 3), and the blocks neither (below p or
  from p + 8 on). Stated over any spelling of the eight blocks (a block is named by its number).
-/
import Idealize.ShloMosaic.Lib.Ring

noncomputable section

namespace Cert.Kernel.Sc

open Idealize.ShloMosaic
open Idealize.SL Idealize.SL.RA Idealize.SL.BI
open scoped Idealize.SL.BI
open Idealize.SL.BI.BIBase Idealize.SL.BI.Laws Idealize.SL.ProofMode Idealize.SL.Sem

variable {M : Type} [URA M]

/-- The blocks that stay home through the four steps from point p: below p, or from p + 8 on. -/
def restSet (p : ℕ) : Finset (Fin 32) := Finset.univ.filter fun b => b.val < p ∨ p + 8 ≤ b.val

theorem mem_restSet (p : ℕ) (b : Fin 32) : b ∈ restSet p ↔ b.val < p ∨ p + 8 ≤ b.val := by
  simp only [restSet, Finset.mem_filter, Finset.mem_univ, true_and]

/-- Before point p, with four more to go out: the homes are the next four beside the rest. -/
theorem homeSet_here (p : ℕ) (g0 g1 g2 g3 : Fin 32) (h0 : g0.val = p + 4) (h1 : g1.val = p + 5) (h2 : g2.val = p + 6) (h3 : g3.val = p + 7) :
    Ring.homeSet (NB := 32) 4 p = insert g0 (insert g1 (insert g2 (insert g3 (restSet p)))) := by
  ext b
  simp only [Ring.mem_homeSet, Finset.mem_insert, mem_restSet, Fin.ext_iff, h0, h1, h2, h3]
  omega

/-- Before point p + 4: the four just back beside the rest. -/
theorem homeSet_next (p : ℕ) (g0 g1 g2 g3 : Fin 32) (h0 : g0.val = p) (h1 : g1.val = p + 1) (h2 : g2.val = p + 2) (h3 : g3.val = p + 3) :
    Ring.homeSet (NB := 32) 4 (p + 4) = insert g0 (insert g1 (insert g2 (insert g3 (restSet p)))) := by
  ext b
  simp only [Ring.mem_homeSet, Finset.mem_insert, mem_restSet, Fin.ext_iff, h0, h1, h2, h3]
  omega

/-- Before the last four points nothing more goes out: the homes are the rest. -/
theorem homeSet_here_last (p : ℕ) (hp : 32 ≤ p + 4) : Ring.homeSet (NB := 32) 4 p = restSet p := by
  ext b
  have := b.isLt
  simp only [Ring.mem_homeSet, mem_restSet]
  omega

theorem bigSep_four_rest (Φ : Fin 32 → sProp M) (S : Finset (Fin 32)) (g0 g1 g2 g3 : Fin 32)
    (n0 : g0 ∉ insert g1 (insert g2 (insert g3 S))) (n1 : g1 ∉ insert g2 (insert g3 S)) (n2 : g2 ∉ insert g3 S) (n3 : g3 ∉ S) :
    bigSep (insert g0 (insert g1 (insert g2 (insert g3 S)))) Φ = iprop(Φ g0 ∗ Φ g1 ∗ Φ g2 ∗ Φ g3 ∗ bigSep S Φ) := by
  rw [bigSep_insert n0, bigSep_insert n1, bigSep_insert n2, bigSep_insert n3]; rfl

/-- The homes before point p as separate resources: the four about to go out, then the rest. -/
theorem homes_here (Φ : Fin 32 → sProp M) (p : ℕ) (g0 g1 g2 g3 : Fin 32)
    (h0 : g0.val = p + 4) (h1 : g1.val = p + 5) (h2 : g2.val = p + 6) (h3 : g3.val = p + 7) :
    bigSep (Ring.homeSet (NB := 32) 4 p) Φ = iprop(Φ g0 ∗ Φ g1 ∗ Φ g2 ∗ Φ g3 ∗ bigSep (restSet p) Φ) := by
  rw [homeSet_here p g0 g1 g2 g3 h0 h1 h2 h3]
  refine bigSep_four_rest Φ _ g0 g1 g2 g3 ?_ ?_ ?_ ?_ <;>
    simp only [Finset.mem_insert, mem_restSet, Fin.ext_iff, h0, h1, h2, h3] <;> omega

/-- The homes before point p + 4: the four just back, then the rest. -/
theorem homes_next (Φ : Fin 32 → sProp M) (p : ℕ) (g0 g1 g2 g3 : Fin 32)
    (h0 : g0.val = p) (h1 : g1.val = p + 1) (h2 : g2.val = p + 2) (h3 : g3.val = p + 3) :
    bigSep (Ring.homeSet (NB := 32) 4 (p + 4)) Φ = iprop(Φ g0 ∗ Φ g1 ∗ Φ g2 ∗ Φ g3 ∗ bigSep (restSet p) Φ) := by
  rw [homeSet_next p g0 g1 g2 g3 h0 h1 h2 h3]
  refine bigSep_four_rest Φ _ g0 g1 g2 g3 ?_ ?_ ?_ ?_ <;>
    simp only [Finset.mem_insert, mem_restSet, Fin.ext_iff, h0, h1, h2, h3] <;> omega

/-- Every block, as the first four beside the homes before point 0. -/
theorem homes_all (Φ : Fin 32 → sProp M) (g0 g1 g2 g3 : Fin 32)
    (h0 : g0.val = 0) (h1 : g1.val = 1) (h2 : g2.val = 2) (h3 : g3.val = 3) :
    bigSep (Finset.univ : Finset (Fin 32)) Φ = iprop(Φ g0 ∗ Φ g1 ∗ Φ g2 ∗ Φ g3 ∗ bigSep (Ring.homeSet (NB := 32) 4 0) Φ) := by
  have e : (Finset.univ : Finset (Fin 32)) = insert g0 (insert g1 (insert g2 (insert g3 (Ring.homeSet (NB := 32) 4 0)))) := by
    ext b
    simp only [Finset.mem_univ, Finset.mem_insert, Ring.mem_homeSet, Fin.ext_iff, h0, h1, h2, h3, true_iff]
    omega
  rw [e]
  refine bigSep_four_rest Φ _ g0 g1 g2 g3 ?_ ?_ ?_ ?_ <;>
    simp only [Finset.mem_insert, Ring.mem_homeSet, Fin.ext_iff, h0, h1, h2, h3] <;> omega

end Cert.Kernel.Sc

end
-- ==== Proof.B_ScPlanes.lean ====
/-
  The rows of the pooled array a worker owns, as its three planes' chunks: held on the worker's rectangle at one
  contents, the array is held chunk by chunk (three planes, eight chunks of sixteen rows a plane) at those contents,
  and back; a plane before its first trip holds every chunk at anything, after its eighth every chunk at the pooled
  value; trip `k` turns chunk `k` from anything to the pooled value and leaves the other chunks as they were.
-/
import proofs.«207262_g39728447488703_cont_8to1_b_1934_40_alg».proof.Proof.B_ScRing
import proofs.«207262_g39728447488703_cont_8to1_b_1934_40_alg».proof.Proof.B_ScCanonSets

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-! ## The worker's rectangle is its 24 chunks -/

/-- A chunk held is the pooled array held on the chunk's rows. -/
theorem chunkP_eq (t : Fin 3) (c : Fin 8) (f : Buf (Elt F) (oLoc d)) :
    (chunkP d L t c f : sProp 𝕄) = ((oV).view.loc (thrOf d L) ↦[O16 L t c]{fullShare} f : sProp 𝕄) :=
  congrArg (fun I : Finset S3x4096x128.Idx => ((oV).view.loc (thrOf d L) ↦[I]{fullShare} f : sProp 𝕄)) (outCh_set L t c)

/-- The worker's rows held at one contents are its chunks held at those contents, plane by plane. -/
theorem rows_chunks (f : Buf (Elt F) (oLoc d)) :
    ((oV).view.loc (thrOf d L) ↦[oSet (wOf (cL L) (sL L))]{fullShare} f : sProp 𝕄)
      = iprop((bigSep Finset.univ fun c : Fin 8 => chunkP d L 0 c f) ∗ (bigSep Finset.univ fun c : Fin 8 => chunkP d L 1 c f)
          ∗ (bigSep Finset.univ fun c : Fin 8 => chunkP d L 2 c f)) := by
  have h1 := pointsTo_biUnion (Ix := HIx 1) (Name := ℕ) (U := UU) (Lvl := ℕ) (ℓ := (oV).view.loc (thrOf d L)) (q := fullShare) (f := f)
    (Finset.univ : Finset (Fin 3 × Fin 8)) (fun p => O16 L p.1 p.2)
    (fun p _ p' _ h => O16_disjoint L p.1 p'.1 p.2 p'.2 (by
      by_contra hc; rw [not_or, not_not, not_not] at hc; exact h (Prod.ext hc.1 hc.2)))
  rw [← O16_cover L]
  refine h1.trans ?_
  rw [BI.bigSep_univ_prod, Ring.bigSep_fin3]
  simp only [chunkP_eq]

/-! ## A plane before its first trip, after its last, across a trip -/

theorem planeAt_zero (t : Fin 3) : planeAt m d L t 0 = bigSep Finset.univ fun c : Fin 8 => (iprop(∃ f, chunkP d L t c f) : sProp 𝕄) := by
  unfold planeAt
  exact BI.bigSep_congr fun c _ => by unfold chunkAt; rw [if_neg (Nat.not_lt_zero _)]

theorem planeAt_full (t : Fin 3) : planeAt m d L t 8 = bigSep Finset.univ fun c : Fin 8 => (chunkP d L t c (pooledArr m d) : sProp 𝕄) := by
  unfold planeAt
  exact BI.bigSep_congr fun c _ => by unfold chunkAt; rw [if_pos c.isLt]

/-- The chunks other than `k`, as trip `k` finds and leaves them. -/
abbrev planeRest (t : Fin 3) (k : Fin 8) : sProp 𝕄 := bigSep (Finset.univ.erase k) (chunkAt m d L t k.val)

/-- Before trip `k`: chunk `k` at anything, beside the others; -/
theorem planeAt_here (t : Fin 3) (k : Fin 8) :
    planeAt m d L t k.val = iprop((∃ f, chunkP d L t k f) ∗ planeRest m d L t k) := by
  unfold planeAt
  rw [BI.bigSep_univ_split k]
  congr 1
  unfold chunkAt; rw [if_neg (Nat.lt_irrefl _)]

/-- after it: chunk `k` at the pooled value, beside the same others. -/
theorem planeAt_next (t : Fin 3) (k : Fin 8) :
    planeAt m d L t (k.val + 1) = iprop(chunkP d L t k (pooledArr m d) ∗ planeRest m d L t k) := by
  unfold planeAt
  rw [BI.bigSep_univ_split k]
  congr 1
  · unfold chunkAt; rw [if_pos (Nat.lt_succ_self _)]
  · refine BI.bigSep_congr fun c hc => ?_
    have hne : c.val ≠ k.val := fun e => (Finset.mem_erase.mp hc).1 (Fin.ext e)
    unfold chunkAt
    by_cases h : c.val < k.val
    · rw [if_pos h, if_pos (by omega)]
    · rw [if_neg h, if_neg (by omega)]

/-! ## In: the worker's rows at anything are the three planes before their first trips; out: the three planes after
their last trips are the worker's rows at the pooled value -/

/-- Chunks held at one contents are chunks held at anything. -/
theorem chunks_any (t : Fin 3) (f : Buf (Elt F) (oLoc d)) :
    (bigSep Finset.univ fun c : Fin 8 => (chunkP d L t c f : sProp 𝕄)) ⊢ bigSep Finset.univ fun c : Fin 8 => (iprop(∃ f, chunkP d L t c f) : sProp 𝕄) :=
  BI.bigSep_mono fun c _ => BIClass.exists_intro (Φ := fun f : Buf (Elt F) (oLoc d) => (chunkP d L t c f : sProp 𝕄)) f

theorem planes_split :
    (iprop(∃ f, (oV).view.loc (thrOf d L) ↦[oSet (wOf (cL L) (sL L))]{fullShare} f) : sProp 𝕄)
      ⊢ iprop(planeAt m d L 0 0 ∗ planeAt m d L 1 0 ∗ planeAt m d L 2 0) := by
  rw [planeAt_zero, planeAt_zero, planeAt_zero]
  iintro ⟨%f, H⟩
  ihave H' := (Entails.of_eq (rows_chunks d L f)) $$ H
  icases H' with ⟨H0, H1, H2⟩
  isplitl [H0]
  · iapply (chunks_any d L 0 f); iexact H0
  isplitl [H1]
  · iapply (chunks_any d L 1 f); iexact H1
  · iapply (chunks_any d L 2 f); iexact H2

theorem planes_join :
    (iprop(planeAt m d L 0 8 ∗ planeAt m d L 1 8 ∗ planeAt m d L 2 8) : sProp 𝕄)
      ⊢ ((oV).view.loc (thrOf d L) ↦[oSet (wOf (cL L) (sL L))]{fullShare} pooledArr m d : sProp 𝕄) := by
  rw [planeAt_full, planeAt_full, planeAt_full, rows_chunks d L (pooledArr m d)]

/-! ## Where the named slices live, and a whole table's elements -/

/-- A block of an index buffer lives in the buffer; a whole-table slice in the table; a chunk in the pooled array. -/
theorem blk_loc (sK : Memref sig .scVector .vmem S6400 .i32) (g : Fin 32) : (blk sK g).view.loc (thrOf d L) = sK.view.loc (thrOf d L) := rfl
theorem tblW_loc (tV : Memref sig .scVector .hbm S100000x128 .f32) : (tblW tV).view.loc (thrOf d L) = tV.view.loc (thrOf d L) := rfl
theorem outCh_loc (t : Fin 3) (c : Fin 8) : (outCh L t c).view.loc (thrOf d L) = (oV).view.loc (thrOf d L) := rfl

/-- The whole-table slice of a table holds every element. -/
theorem unit00_set (inb) : (Rect.unit (s := S100000x128) ![0, 0] S100000x128.size inb).set = Finset.univ := by
  refine Finset.eq_univ_iff_forall.mpr fun y => Rect.mem_set_unit.mpr fun a => ?_
  have h0 : (y 0).val < 100000 := (y 0).isLt
  have h1 : (y 1).val < 128 := (y 1).isLt
  fin_cases a
  · show 0 ≤ (y 0).val ∧ (y 0).val < 0 + 100000; omega
  · show 0 ≤ (y 1).val ∧ (y 1).val < 0 + 128; omega
theorem tblW_set_a : (tblW aV).view.set = Finset.univ := (View.set_slice_whole _ _).trans (unit00_set _)
theorem tblW_set_b : (tblW bV).view.set = Finset.univ := (View.set_slice_whole _ _).trans (unit00_set _)
theorem tblW_set_c : (tblW cV).view.set = Finset.univ := (View.set_slice_whole _ _).trans (unit00_set _)

end Cert.Kernel.Sc

end
-- ==== Proof.B_ScPhase0Defs.lean ====
/-
  The first chunk loop of a vector subcore: what it holds before each trip.

  The loop pools plane 0: trip k lands the four streams 4 k … 4 k + 3 of the first table over the first index buffer,
  averages their segments into the sixteen rows of chunk k, and re-fires streams 4 k + 4 … 4 k + 7; its last trip
  instead fires the first four streams of the SECOND table over the second index buffer, so that the next loop starts
  with its ring already in flight.
-/
import proofs.«207262_g39728447488703_cont_8to1_b_1934_40_alg».proof.Proof.B_ScRing

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

/-- The four ring slots' read tokens of a table, none lent. -/
abbrev toks (tV : Memref sig .scVector .hbm S100000x128 .f32) (T : Buf (Elt F) (tV.view.loc (thrOf d L))) : sProp 𝕄 :=
  iprop(tokP d L tV T q 0 ∗ tokP d L tV T q 1 ∗ tokP d L tV T q 2 ∗ tokP d L tV T q 3)

/-- Before trip `k` of the first chunk loop. Below trip 8: the first table's ring over the first index buffer at chunk
    `k`, beside the second index buffer's blocks all home and the second table's tokens. At trip 8: the second table's
    ring over the second index buffer before its first point, beside the first buffer's blocks all home, the first
    table's tokens, and plane 0 complete. -/
def inv0 (k : ℕ) : sProp 𝕄 :=
  if k < 8 then
    iprop(resAt m d L aV (m (aLoc d)) s0 X0 q hX0 cc0_scoped2 0 O W k
      ∗ bigSep Finset.univ (homeP d L s1 X1) ∗ toks d L q bV (m (bLoc d)))
  else
    iprop(ringAt d L bV (m (bLoc d)) s1 X1 q hX1 0
      ∗ bigSep Finset.univ (homeP d L s0 X0) ∗ toks d L q aV (m (aLoc d))
      ∗ meansP d L ∗ cellP d L cc0_scoped2 ∗ planeAt m d L 0 8
      ∗ Transfers.MayWaits (thrOf d L) (default : HIx 1) O ∗ owesP d L O W)

theorem inv0_lt (k : ℕ) (h : k < 8) :
    inv0 m d L q X0 hX0 X1 hX1 O W k
      = iprop(resAt m d L aV (m (aLoc d)) s0 X0 q hX0 cc0_scoped2 0 O W k
          ∗ bigSep Finset.univ (homeP d L s1 X1) ∗ toks d L q bV (m (bLoc d))) := if_pos h

theorem inv0_ge (k : ℕ) (h : ¬ k < 8) :
    inv0 m d L q X0 hX0 X1 hX1 O W k
      = iprop(ringAt d L bV (m (bLoc d)) s1 X1 q hX1 0
          ∗ bigSep Finset.univ (homeP d L s0 X0) ∗ toks d L q aV (m (aLoc d))
          ∗ meansP d L ∗ cellP d L cc0_scoped2 ∗ planeAt m d L 0 8
          ∗ Transfers.MayWaits (thrOf d L) (default : HIx 1) O ∗ owesP d L O W) := if_neg h

end Phase0

end Cert.Kernel.Sc

end
-- ==== Proof.B_ScTileMid.lean ====
/-
  Between the chunk loops of a vector subcore's task: how the state one loop leaves is the state the next one starts
  from.

  The first loop runs table a's ring over index buffer 0 and, in its last trip, fires table b's first four streams over
  index buffer 1; the second runs table b's ring over buffer 1 and fires table c's first four over buffer 0, restaged
  before it; the third runs table c's ring over buffer 0 and fires nothing further. An index buffer held whole is its 32
  blocks at home; after a ring's last point every block is home and the four slots are idle.
-/
import proofs.«207262_g39728447488703_cont_8to1_b_1934_40_alg».proof.Proof.B_ScRing
import proofs.«207262_g39728447488703_cont_8to1_b_1934_40_alg».proof.Proof.B_ScCanonSets
import proofs.«207262_g39728447488703_cont_8to1_b_1934_40_alg».proof.Proof.B_ScPhase0Defs

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The end of a ring -/

/-- Before point 32 no block is out. -/
theorem homeSet_end : Ring.homeSet (NB := 32) 4 32 = Finset.univ :=
  Finset.eq_univ_iff_forall.mpr fun b => by rw [Ring.mem_homeSet]; have := b.isLt; omega

section Ring

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)

/-- After the last chunk: every block of the index buffer home, the four slots idle. -/
theorem ringAt_end :
    (ringAt d L tV T sK X q hX 32 : sProp 𝕄)
      ⊢ iprop(bigSep Finset.univ (homeP d L sK X) ∗ idleP d L tV T q s2 cc0_scratch7 0 ∗ idleP d L tV T q s3 cc0_scratch8 1
          ∗ idleP d L tV T q s4 cc0_scratch9 2 ∗ idleP d L tV T q s5 cc0_scratch10 3) := by
  unfold ringAt slotAt
  rw [homeSet_end, if_neg (by decide), if_neg (by decide), if_neg (by decide), if_neg (by decide)]

/-- The start of a ring: the first four blocks out with the four slots, the others home. -/
theorem ringAt_enter :
    iprop(bigSep (Ring.homeSet (NB := 32) 4 0) (homeP d L sK X)
        ∗ (∃ f, flightP d L tV T sK X q hX s2 cc0_scratch7 0 (Ring.bk 32 0) f) ∗ (∃ f, flightP d L tV T sK X q hX s3 cc0_scratch8 1 (Ring.bk 32 1) f)
        ∗ (∃ f, flightP d L tV T sK X q hX s4 cc0_scratch9 2 (Ring.bk 32 2) f) ∗ (∃ f, flightP d L tV T sK X q hX s5 cc0_scratch10 3 (Ring.bk 32 3) f))
      ⊢ (ringAt d L tV T sK X q hX 0 : sProp 𝕄) := by
  unfold ringAt slotAt
  rw [if_pos (by decide), if_pos (by decide), if_pos (by decide), if_pos (by decide)]

end Ring

/-! ## The hand-overs -/

section Phases

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (O : CellTallies nD τ sig (HIx 1)) (W : Waits sig (HIx 1))

/-- Index buffer 0 whole is its 32 blocks at home. -/
theorem s0_home : ((s0).view.loc (thrOf d L) ↦{fullShare} X0 : sProp 𝕄) = bigSep Finset.univ (homeP d L s0 X0) :=
  idx_blocks0 d L fullShare X0
/-- Index buffer 1 whole is its 32 blocks at home. -/
theorem s1_home : ((s1).view.loc (thrOf d L) ↦{fullShare} X1 : sProp 𝕄) = bigSep Finset.univ (homeP d L s1 X1) :=
  idx_blocks1 d L fullShare X1

variable (hX0 : IdxOK d L s0 X0) (hX1 : IdxOK d L s1 X1)

/-- Into the first loop: table a's ring at its start over buffer 0; buffer 1, just staged, by blocks; table b's four
    tokens idle. -/
theorem enter1 :
    iprop(ringAt d L aV (m (aLoc d)) s0 X0 q hX0 0 ∗ ((s1).view.loc (thrOf d L) ↦{fullShare} X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped2 ∗ planeAt m d L 0 0
        ∗ Transfers.MayWaits (thrOf d L) (default : HIx 1) O ∗ owesP d L O W)
      ⊢ (iprop(resAt m d L aV (m (aLoc d)) s0 X0 q hX0 cc0_scoped2 0 O W 0 ∗ bigSep Finset.univ (homeP d L s1 X1)
          ∗ tokP d L bV (m (bLoc d)) q 0 ∗ tokP d L bV (m (bLoc d)) q 1 ∗ tokP d L bV (m (bLoc d)) q 2 ∗ tokP d L bV (m (bLoc d)) q 3) : sProp 𝕄) := by
  unfold resAt
  rw [← s1_home d L X1]
  iintro ⟨Hring, H1, Hb0, Hb1, Hb2, Hb3, Hm, Hc, Hp, Hmw, HO⟩
  isplitl [Hring Hm Hc Hp Hmw HO]
  · isplitl [Hring]; · iexact Hring
    isplitl [Hm]; · iexact Hm
    isplitl [Hc]; · iexact Hc
    isplitl [Hp]; · iexact Hp
    isplitl [Hmw]; · iexact Hmw
    iexact HO
  isplitl [H1]; · iexact H1
  isplitl [Hb0]; · iexact Hb0
  isplitl [Hb1]; · iexact Hb1
  isplitl [Hb2]; · iexact Hb2
  iexact Hb3

/-- Out of the first loop, for the restaging of buffer 0: it is whole again. -/
theorem leave1 :
    iprop(ringAt d L bV (m (bLoc d)) s1 X1 q hX1 0 ∗ bigSep Finset.univ (homeP d L s0 X0)
        ∗ tokP d L aV (m (aLoc d)) q 0 ∗ tokP d L aV (m (aLoc d)) q 1 ∗ tokP d L aV (m (aLoc d)) q 2 ∗ tokP d L aV (m (aLoc d)) q 3
        ∗ meansP d L ∗ cellP d L cc0_scoped2 ∗ planeAt m d L 0 8
        ∗ Transfers.MayWaits (thrOf d L) (default : HIx 1) O ∗ owesP d L O W)
      ⊢ (iprop(((s0).view.loc (thrOf d L) ↦{fullShare} X0) ∗ ringAt d L bV (m (bLoc d)) s1 X1 q hX1 0
          ∗ tokP d L aV (m (aLoc d)) q 0 ∗ tokP d L aV (m (aLoc d)) q 1 ∗ tokP d L aV (m (aLoc d)) q 2 ∗ tokP d L aV (m (aLoc d)) q 3
          ∗ meansP d L ∗ cellP d L cc0_scoped2 ∗ planeAt m d L 0 8
          ∗ Transfers.MayWaits (thrOf d L) (default : HIx 1) O ∗ owesP d L O W) : sProp 𝕄) := by
  rw [s0_home d L X0]
  iintro ⟨Hring, H0, Hrest⟩
  isplitl [H0]; · iexact H0
  isplitl [Hring]; · iexact Hring
  iexact Hrest

/-- Into the second loop: table b's ring where the first loop's last trip left it; buffer 0, restaged, by blocks;
    table c's four tokens idle. -/
theorem enter2 :
    iprop(ringAt d L bV (m (bLoc d)) s1 X1 q hX1 0 ∗ ((s0).view.loc (thrOf d L) ↦{fullShare} X0)
        ∗ tokP d L cV (m (cLoc d)) q 0 ∗ tokP d L cV (m (cLoc d)) q 1 ∗ tokP d L cV (m (cLoc d)) q 2 ∗ tokP d L cV (m (cLoc d)) q 3
        ∗ meansP d L ∗ cellP d L cc0_scoped4 ∗ planeAt m d L 1 0
        ∗ Transfers.MayWaits (thrOf d L) (default : HIx 1) O ∗ owesP d L O W)
      ⊢ (iprop(ringAt d L bV (m (bLoc d)) s1 X1 q hX1 (4 * 0) ∗ bigSep Finset.univ (homeP d L s0 X0)
          ∗ tokP d L cV (m (cLoc d)) q 0 ∗ tokP d L cV (m (cLoc d)) q 1 ∗ tokP d L cV (m (cLoc d)) q 2 ∗ tokP d L cV (m (cLoc d)) q 3
          ∗ meansP d L ∗ cellP d L cc0_scoped4 ∗ planeAt m d L 1 0
          ∗ Transfers.MayWaits (thrOf d L) (default : HIx 1) O ∗ owesP d L O W) : sProp 𝕄) := by
  rw [← s0_home d L X0]

/-- Out of the second loop into the third: table c's ring at its start over buffer 0 with the third plane and its
    copy-out cell; buffer 1 whole again, table b's tokens, the second plane done. -/
theorem leave2 :
    iprop((ringAt d L cV (m (cLoc d)) s0 X0 q hX0 (4 * 0) ∗ bigSep Finset.univ (homeP d L s1 X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped4 ∗ planeAt m d L 1 8
        ∗ Transfers.MayWaits (thrOf d L) (default : HIx 1) O ∗ owesP d L O W)
        ∗ cellP d L cc0_scoped5 ∗ planeAt m d L 2 0 ∗ Transfers.MayWaits (thrOf d L) (default : HIx 1) O)
      ⊢ (iprop(resAt m d L cV (m (cLoc d)) s0 X0 q hX0 cc0_scoped5 2 O W 0
          ∗ ((s1).view.loc (thrOf d L) ↦{fullShare} X1)
          ∗ tokP d L bV (m (bLoc d)) q 0 ∗ tokP d L bV (m (bLoc d)) q 1 ∗ tokP d L bV (m (bLoc d)) q 2 ∗ tokP d L bV (m (bLoc d)) q 3
          ∗ cellP d L cc0_scoped4 ∗ planeAt m d L 1 8) : sProp 𝕄) := by
  unfold resAt
  rw [s1_home d L X1]
  iintro ⟨⟨Hring, H1, Hb0, Hb1, Hb2, Hb3, Hm, Hc4, Hp1, -, HO⟩, Hc5, Hp2, Hmw⟩
  isplitl [Hring Hm Hc5 Hp2 Hmw HO]
  · isplitl [Hring]; · iexact Hring
    isplitl [Hm]; · iexact Hm
    isplitl [Hc5]; · iexact Hc5
    isplitl [Hp2]; · iexact Hp2
    isplitl [Hmw]; · iexact Hmw
    iexact HO
  isplitl [H1]; · iexact H1
  isplitl [Hb0]; · iexact Hb0
  isplitl [Hb1]; · iexact Hb1
  isplitl [Hb2]; · iexact Hb2
  isplitl [Hb3]; · iexact Hb3
  isplitl [Hc4]; · iexact Hc4
  iexact Hp1

/-- Out of the third loop: buffer 0 whole, the four slots idle (cell at zero, row buffer at anything, table c's
    token), the third plane done. -/
theorem leave3 :
    (resAt m d L cV (m (cLoc d)) s0 X0 q hX0 cc0_scoped5 2 O W 8 : sProp 𝕄)
      ⊢ iprop(((s0).view.loc (thrOf d L) ↦{fullShare} X0)
          ∗ idleP d L cV (m (cLoc d)) q s2 cc0_scratch7 0 ∗ idleP d L cV (m (cLoc d)) q s3 cc0_scratch8 1
          ∗ idleP d L cV (m (cLoc d)) q s4 cc0_scratch9 2 ∗ idleP d L cV (m (cLoc d)) q s5 cc0_scratch10 3
          ∗ meansP d L ∗ cellP d L cc0_scoped5 ∗ planeAt m d L 2 8
          ∗ Transfers.MayWaits (thrOf d L) (default : HIx 1) O ∗ owesP d L O W) := by
  unfold resAt
  rw [s0_home d L X0]
  iintro ⟨Hring, Hrest⟩
  ihave H := (ringAt_end d L cV (m (cLoc d)) s0 X0 q hX0) $$ Hring
  icases H with ⟨Hh, Hi0, Hi1, Hi2, Hi3⟩
  isplitl [Hh]; · iexact Hh
  isplitl [Hi0]; · iexact Hi0
  isplitl [Hi1]; · iexact Hi1
  isplitl [Hi2]; · iexact Hi2
  isplitl [Hi3]; · iexact Hi3
  iexact Hrest

/-! ### The same, over the first loop's invariant as stated -/

/-- Into the first loop: its invariant before trip 0. -/
theorem enter1' :
    iprop(ringAt d L aV (m (aLoc d)) s0 X0 q hX0 0 ∗ ((s1).view.loc (thrOf d L) ↦{fullShare} X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped2 ∗ planeAt m d L 0 0
        ∗ Transfers.MayWaits (thrOf d L) (default : HIx 1) O ∗ owesP d L O W)
      ⊢ (inv0 m d L q X0 hX0 X1 hX1 O W 0 : sProp 𝕄) := by
  rw [inv0_lt m d L q X0 hX0 X1 hX1 O W 0 (by decide)]
  exact enter1 m d L q X0 X1 O W hX0

/-- Out of the first loop: its invariant after the last trip gives buffer 0 whole for the restaging, the second table's
    ring at its start, the first table's tokens, the first plane done. -/
theorem leave1' :
    (inv0 m d L q X0 hX0 X1 hX1 O W 8 : sProp 𝕄)
      ⊢ iprop(((s0).view.loc (thrOf d L) ↦{fullShare} X0) ∗ ringAt d L bV (m (bLoc d)) s1 X1 q hX1 0
          ∗ tokP d L aV (m (aLoc d)) q 0 ∗ tokP d L aV (m (aLoc d)) q 1 ∗ tokP d L aV (m (aLoc d)) q 2 ∗ tokP d L aV (m (aLoc d)) q 3
          ∗ meansP d L ∗ cellP d L cc0_scoped2 ∗ planeAt m d L 0 8
          ∗ Transfers.MayWaits (thrOf d L) (default : HIx 1) O ∗ owesP d L O W) := by
  rw [inv0_ge m d L q X0 hX0 X1 hX1 O W 8 (by decide), s0_home d L X0]
  iintro ⟨Hring, H0, ⟨Ht0, Ht1, Ht2, Ht3⟩, Hrest⟩
  isplitl [H0]; · iexact H0
  isplitl [Hring]; · iexact Hring
  isplitl [Ht0]; · iexact Ht0
  isplitl [Ht1]; · iexact Ht1
  isplitl [Ht2]; · iexact Ht2
  isplitl [Ht3]; · iexact Ht3
  iexact Hrest

end Phases

end Cert.Kernel.Sc

end
-- ==== Proof.B_ScPhase1Defs.lean ====
/-
  The second table's chunk loop (eight trips, one chunk of sixteen pooled rows a trip), what it holds before each trip.

  Below trip 8 the second table's ring runs over index buffer 1: before trip k its four slots are in flight with blocks
  4 k … 4 k + 3, the other blocks home; index buffer 0 (holding the third stretch) has its 32 blocks home and the third
  table's four slot tokens are idle. The last trip, instead of re-firing from buffer 1, fires the third table's first four
  blocks from buffer 0: at trip 8 the third table's ring stands at its start over buffer 0, buffer 1's blocks are all home
  and the second table's tokens idle. Plane 1's chunks before k hold the pooled value.
-/
import proofs.«207262_g39728447488703_cont_8to1_b_1934_40_alg».proof.Proof.B_ScRing
import proofs.«207262_g39728447488703_cont_8to1_b_1934_40_alg».proof.Proof.B_ScCanon
import proofs.«207262_g39728447488703_cont_8to1_b_1934_40_alg».proof.Proof.B_ScCanonSets
import proofs.«207262_g39728447488703_cont_8to1_b_1934_40_alg».proof.Proof.B_ScRingSets
import Idealize.ShloMosaic.Lib.Ring
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Phase1

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1)
  (O : CellTallies nD τ sig (HIx 1)) (W : Waits sig (HIx 1))

/-- Before trip k of the second table's chunk loop. Below trip 8: the second table's ring over index buffer 1 at point
    4 k, index buffer 0's 32 blocks all home, the third table's four slot tokens idle, the means' scratch, the copy-out's
    cell, plane 1's chunks, the subcore's waits. At trip 8 (the loop's exit): the third table's ring over index buffer 0
    at point 0 (the last trip fired it), index buffer 1's blocks all home, the second table's tokens idle. -/
def inv1 (k : ℕ) : sProp 𝕄 :=
  if k < 8 then
    iprop(ringAt d L bV (m (bLoc d)) s1 X1 q hX1 (4 * k)
      ∗ bigSep Finset.univ (homeP d L s0 X0)
      ∗ tokP d L cV (m (cLoc d)) q 0 ∗ tokP d L cV (m (cLoc d)) q 1 ∗ tokP d L cV (m (cLoc d)) q 2 ∗ tokP d L cV (m (cLoc d)) q 3
      ∗ meansP d L ∗ cellP d L cc0_scoped4 ∗ planeAt m d L 1 k
      ∗ Transfers.MayWaits (thrOf d L) (default : HIx 1) O ∗ owesP d L O W)
  else
    iprop(ringAt d L cV (m (cLoc d)) s0 X0 q hX0 (4 * 0)
      ∗ bigSep Finset.univ (homeP d L s1 X1)
      ∗ tokP d L bV (m (bLoc d)) q 0 ∗ tokP d L bV (m (bLoc d)) q 1 ∗ tokP d L bV (m (bLoc d)) q 2 ∗ tokP d L bV (m (bLoc d)) q 3
      ∗ meansP d L ∗ cellP d L cc0_scoped4 ∗ planeAt m d L 1 8
      ∗ Transfers.MayWaits (thrOf d L) (default : HIx 1) O ∗ owesP d L O W)

theorem inv1_zero : inv1 m d L q X0 X1 hX0 hX1 O W 0
    = iprop(ringAt d L bV (m (bLoc d)) s1 X1 q hX1 (4 * 0) ∗ bigSep Finset.univ (homeP d L s0 X0)
        ∗ tokP d L cV (m (cLoc d)) q 0 ∗ tokP d L cV (m (cLoc d)) q 1 ∗ tokP d L cV (m (cLoc d)) q 2 ∗ tokP d L cV (m (cLoc d)) q 3
        ∗ meansP d L ∗ cellP d L cc0_scoped4 ∗ planeAt m d L 1 0
        ∗ Transfers.MayWaits (thrOf d L) (default : HIx 1) O ∗ owesP d L O W) := by
  unfold inv1; exact if_pos (by decide)

theorem inv1_eight : inv1 m d L q X0 X1 hX0 hX1 O W 8
    = iprop(ringAt d L cV (m (cLoc d)) s0 X0 q hX0 (4 * 0) ∗ bigSep Finset.univ (homeP d L s1 X1)
        ∗ tokP d L bV (m (bLoc d)) q 0 ∗ tokP d L bV (m (bLoc d)) q 1 ∗ tokP d L bV (m (bLoc d)) q 2 ∗ tokP d L bV (m (bLoc d)) q 3
        ∗ meansP d L ∗ cellP d L cc0_scoped4 ∗ planeAt m d L 1 8
        ∗ Transfers.MayWaits (thrOf d L) (default : HIx 1) O ∗ owesP d L O W) := by
  unfold inv1; exact if_neg (by decide)

end Phase1

section Glue

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)

/-- The ring at its start: blocks 0 … 3 out with the four slots, the others home. -/
theorem ringAt_point0 : ringAt d L tV T sK X q hX (4 * 0)
    = iprop(bigSep (Ring.homeSet (NB := 32) 4 0) (homeP d L sK X)
        ∗ (∃ f, flightP d L tV T sK X q hX s2 cc0_scratch7 0 (Ring.bk 32 0) f) ∗ (∃ f, flightP d L tV T sK X q hX s3 cc0_scratch8 1 (Ring.bk 32 1) f)
        ∗ (∃ f, flightP d L tV T sK X q hX s4 cc0_scratch9 2 (Ring.bk 32 2) f) ∗ (∃ f, flightP d L tV T sK X q hX s5 cc0_scratch10 3 (Ring.bk 32 3) f)) := by
  unfold ringAt
  rw [slotAt_lt _ _ _ _ _ _ _ _ _ _ _ (show 4 * 0 + 0 < 32 by decide), slotAt_lt _ _ _ _ _ _ _ _ _ _ _ (show 4 * 0 + 1 < 32 by decide),
    slotAt_lt _ _ _ _ _ _ _ _ _ _ _ (show 4 * 0 + 2 < 32 by decide), slotAt_lt _ _ _ _ _ _ _ _ _ _ _ (show 4 * 0 + 3 < 32 by decide)]

/-- Every block home: blocks 0 … 3 beside those home at the ring's start. -/
theorem homes_univ_start : bigSep Finset.univ (homeP d L sK X)
    = (iprop(homeP d L sK X (Ring.bk 32 0) ∗ homeP d L sK X (Ring.bk 32 1) ∗ homeP d L sK X (Ring.bk 32 2) ∗ homeP d L sK X (Ring.bk 32 3)
        ∗ bigSep (Ring.homeSet (NB := 32) 4 0) (homeP d L sK X)) : sProp 𝕄) :=
  homes_all (homeP d L sK X) (Ring.bk 32 0) (Ring.bk 32 1) (Ring.bk 32 2) (Ring.bk 32 3)
    (Ring.bk_val (by decide)) (Ring.bk_val (by decide)) (Ring.bk_val (by decide)) (Ring.bk_val (by decide))

/-- Every block home after the last trip: the four it landed beside those home before it. -/
theorem homes_univ_last (k : ℕ) (hk : k = 7) : bigSep Finset.univ (homeP d L sK X)
    = (iprop(homeP d L sK X (Ring.bk 32 (4 * k + 0)) ∗ homeP d L sK X (Ring.bk 32 (4 * k + 1)) ∗ homeP d L sK X (Ring.bk 32 (4 * k + 2))
        ∗ homeP d L sK X (Ring.bk 32 (4 * k + 3)) ∗ bigSep (Ring.homeSet (NB := 32) 4 (4 * k)) (homeP d L sK X)) : sProp 𝕄) := by
  rw [← chunk_homes_last' (homeP d L sK X) k hk, Ring.homeSet_last 4 (4 * (k + 1)) (by omega)]

/-- The flight a fire leaves over a row buffer last landed with ANY rows: the new block's rows consed on. -/
theorem flightP_afterG (sR : Memref sig .scVector .vmem S200x128 .f32) (sm : DmaSems sig S_) (b : Fin 4) (g' : Fin 32)
    (G : S200x128.Idx → Elt F .f32) :
    flightP d L tV T sK X q hX sR sm b g' (sR.view.writes (Elt F) sR.view.junk [⟨Rect.whole S200x128, G⟩])
      = iprop(Transfers.Flight countersEmb (thrOf d L) (SemLoc.dma sm.sem) default 819200
          iprop(((sR.view.loc (thrOf d L) ↦{fullShare} sR.view.writes (Elt F) sR.view.junk
                    [⟨Rect.whole S200x128, gathered d L tV T sK X hX g'⟩, ⟨Rect.whole S200x128, G⟩])
                ∗ homeP d L sK X g')
            ∗ (tV.view.loc (thrOf d L) ↦[(tblW tV).view.set]{Transfers.shareTok q 4 b} T))
        ∗ (tV.view.loc (thrOf d L) ↦[Finset.univ \ (tblW tV).view.set]{Transfers.shareTok q 4 b} T)) := by
  simp only [flightP, landed, View.writes]

end Glue

end Cert.Kernel.Sc

end
-- ==== Proof.B_ScTileBody.lean ====
/-
  A vector subcore's task, whole: what the call hands it is taken apart (the tables' read shares into one token a ring
  slot, the scratch buffers and the ten DMA semaphores out of the subcore's own); the first stretch of the index array is
  staged and held block by block, the four first gathers issued, the second stretch staged; each of the three chunk
  loops is passed by its invariant, the index buffer restaged between the first and the second; at the end the
  tokens are rejoined, the pooled rows rejoined chunk by chunk at the pooled value, and the subcore's own handed back.
-/
import proofs.«207262_g39728447488703_cont_8to1_b_1934_40_alg».proof.Proof.B_ScTileDefs
import proofs.«207262_g39728447488703_cont_8to1_b_1934_40_alg».proof.Proof.B_ScTileVal
import proofs.«207262_g39728447488703_cont_8to1_b_1934_40_alg».proof.Proof.B_ScRing
import proofs.«207262_g39728447488703_cont_8to1_b_1934_40_alg».proof.Proof.B_ScCanonSets
import proofs.«207262_g39728447488703_cont_8to1_b_1934_40_alg».proof.Proof.B_ScRingSets
import proofs.«207262_g39728447488703_cont_8to1_b_1934_40_alg».proof.Proof.B_ScPlanes
import proofs.«207262_g39728447488703_cont_8to1_b_1934_40_alg».proof.Proof.B_ScTileMid
import proofs.«207262_g39728447488703_cont_8to1_b_1934_40_alg».proof.Proof.B_ScPhase0Defs
import proofs.«207262_g39728447488703_cont_8to1_b_1934_40_alg».proof.Proof.B_ScPhase1Defs
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## A table's read share as its four slot tokens and the remainder -/
/-- Four members, one by one. -/
theorem bigSep_fin4 {M : Type} [URA M] (Φ : Fin 4 → sProp M) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

/-- A read share of a table as its four slot tokens and the remainder. -/
theorem toks4 {ℓ : Loc nD τ sig} (f : Buf (Elt F) ℓ) (q : PosShare TreeShare) :
    (ℓ ↦{q} f : sProp 𝕄) ⊣⊢ iprop((ℓ ↦{Transfers.shareDrop q 4} f) ∗ (ℓ ↦{Transfers.shareTok q 4 0} f) ∗ (ℓ ↦{Transfers.shareTok q 4 1} f)
      ∗ (ℓ ↦{Transfers.shareTok q 4 2} f) ∗ (ℓ ↦{Transfers.shareTok q 4 3} f)) := by
  have h : (ℓ ↦{q} f : sProp 𝕄) ⊣⊢ iprop((ℓ ↦{Transfers.shareDrop q 4} f) ∗ bigSep Finset.univ (fun i : Fin 4 => ℓ ↦{Transfers.shareTok q 4 i} f)) :=
    Transfers.pointsTo_toks q 4
  rw [bigSep_fin4] at h
  exact h

/-! ## The three chunk loops run eight trips each -/

theorem trips1_eq : Scf.trips k0_t1_loop.lb k0_t1_loop.ub k0_t1_loop.st = 8 := by decide
theorem trips18_eq : Scf.trips k0_t18_loop.lb k0_t18_loop.ub k0_t18_loop.st = 8 := by decide
theorem trips35_eq : Scf.trips k0_t35_loop.lb k0_t35_loop.ub k0_t35_loop.st = 8 := by decide

/-! ## The prologue's gathers, as the ring's slots in flight -/

section Fold

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (q : PosShare TreeShare) (hX : IdxOK d L sK X)

/-- A gather issued over a row buffer held whole, beside what the issue left of the slot's token: the slot in flight. -/
theorem flight_fold (sR : Memref sig .scVector .vmem S200x128 .f32) (sm : DmaSems sig S_) (b : Fin 4)
    (g : Fin 32) (f : Buf (Elt F) (sR.view.loc (thrOf d L))) (pay : S200x128.Idx → Elt F .f32)
    (hpay : pay = gathered d L tV T sK X hX g) :
    (iprop(Transfers.Flight countersEmb (thrOf d L) (SemLoc.dma sm.sem) (default : HIx 1) 819200
        iprop(((sR.view.loc (thrOf d L) ↦{fullShare} sR.view.writes (Elt F) f [⟨Rect.whole S200x128, pay⟩]) ∗ homeP d L sK X g)
          ∗ (tV.view.loc (thrOf d L) ↦[(tblW tV).view.set]{Transfers.shareTok q 4 b} T))
      ∗ (tV.view.loc (thrOf d L) ↦[Finset.univ \ (tblW tV).view.set]{Transfers.shareTok q 4 b} T)) : sProp 𝕄)
      ⊢ flightP d L tV T sK X q hX sR sm b g f := by
  subst hpay
  iintro H; iexact H

/-- The four first gathers in flight beside the blocks they did not take: the ring at its start. -/
theorem ring_fold (f2 : Buf (Elt F) ((s2).view.loc (thrOf d L))) (f3 : Buf (Elt F) ((s3).view.loc (thrOf d L)))
    (f4 : Buf (Elt F) ((s4).view.loc (thrOf d L))) (f5 : Buf (Elt F) ((s5).view.loc (thrOf d L)))
    (p0 p1 p2 p3 : S200x128.Idx → Elt F .f32)
    (h0 : p0 = gathered d L tV T sK X hX (Ring.bk 32 0)) (h1 : p1 = gathered d L tV T sK X hX (Ring.bk 32 1))
    (h2 : p2 = gathered d L tV T sK X hX (Ring.bk 32 2)) (h3 : p3 = gathered d L tV T sK X hX (Ring.bk 32 3)) :
    (iprop(bigSep (Ring.homeSet (NB := 32) 4 0) (homeP d L sK X)
      ∗ (Transfers.Flight countersEmb (thrOf d L) (SemLoc.dma cc0_scratch7.sem) (default : HIx 1) 819200
          iprop((((s2).view.loc (thrOf d L) ↦{fullShare} (s2).view.writes (Elt F) f2 [⟨Rect.whole S200x128, p0⟩]) ∗ homeP d L sK X (Ring.bk 32 0))
            ∗ (tV.view.loc (thrOf d L) ↦[(tblW tV).view.set]{Transfers.shareTok q 4 0} T))
        ∗ (tV.view.loc (thrOf d L) ↦[Finset.univ \ (tblW tV).view.set]{Transfers.shareTok q 4 0} T))
      ∗ (Transfers.Flight countersEmb (thrOf d L) (SemLoc.dma cc0_scratch8.sem) (default : HIx 1) 819200
          iprop((((s3).view.loc (thrOf d L) ↦{fullShare} (s3).view.writes (Elt F) f3 [⟨Rect.whole S200x128, p1⟩]) ∗ homeP d L sK X (Ring.bk 32 1))
            ∗ (tV.view.loc (thrOf d L) ↦[(tblW tV).view.set]{Transfers.shareTok q 4 1} T))
        ∗ (tV.view.loc (thrOf d L) ↦[Finset.univ \ (tblW tV).view.set]{Transfers.shareTok q 4 1} T))
      ∗ (Transfers.Flight countersEmb (thrOf d L) (SemLoc.dma cc0_scratch9.sem) (default : HIx 1) 819200
          iprop((((s4).view.loc (thrOf d L) ↦{fullShare} (s4).view.writes (Elt F) f4 [⟨Rect.whole S200x128, p2⟩]) ∗ homeP d L sK X (Ring.bk 32 2))
            ∗ (tV.view.loc (thrOf d L) ↦[(tblW tV).view.set]{Transfers.shareTok q 4 2} T))
        ∗ (tV.view.loc (thrOf d L) ↦[Finset.univ \ (tblW tV).view.set]{Transfers.shareTok q 4 2} T))
      ∗ (Transfers.Flight countersEmb (thrOf d L) (SemLoc.dma cc0_scratch10.sem) (default : HIx 1) 819200
          iprop((((s5).view.loc (thrOf d L) ↦{fullShare} (s5).view.writes (Elt F) f5 [⟨Rect.whole S200x128, p3⟩]) ∗ homeP d L sK X (Ring.bk 32 3))
            ∗ (tV.view.loc (thrOf d L) ↦[(tblW tV).view.set]{Transfers.shareTok q 4 3} T))
        ∗ (tV.view.loc (thrOf d L) ↦[Finset.univ \ (tblW tV).view.set]{Transfers.shareTok q 4 3} T))) : sProp 𝕄)
      ⊢ ringAt d L tV T sK X q hX 0 := by
  unfold ringAt
  rw [slotAt_lt d L tV T sK X q hX s2 cc0_scratch7 0 (show 0 + 0 < 32 by decide), slotAt_lt d L tV T sK X q hX s3 cc0_scratch8 1 (show 0 + 1 < 32 by decide),
    slotAt_lt d L tV T sK X q hX s4 cc0_scratch9 2 (show 0 + 2 < 32 by decide), slotAt_lt d L tV T sK X q hX s5 cc0_scratch10 3 (show 0 + 3 < 32 by decide)]
  iintro ⟨Hh, HA, HB, HC, HD⟩
  isplitl [Hh]; · iexact Hh
  isplitl [HA]; · iexists f2; iapply (flight_fold d L tV T sK X q hX s2 cc0_scratch7 0 (Ring.bk 32 (0 + 0)) f2 p0 h0); iexact HA
  isplitl [HB]; · iexists f3; iapply (flight_fold d L tV T sK X q hX s3 cc0_scratch8 1 (Ring.bk 32 (0 + 1)) f3 p1 h1); iexact HB
  isplitl [HC]; · iexists f4; iapply (flight_fold d L tV T sK X q hX s4 cc0_scratch9 2 (Ring.bk 32 (0 + 2)) f4 p2 h2); iexact HC
  iexists f5; iapply (flight_fold d L tV T sK X q hX s5 cc0_scratch10 3 (Ring.bk 32 (0 + 3)) f5 p3 h3); iexact HD

end Fold

/-! ## The closing: the tokens rejoined, the planes rejoined -/

section Close

variable (d : Dev nD) (L : grid0.Coords)

/-- A table's remainder and four slot tokens, held under the vector subcore's name, are its read share. -/
theorem toks4_join (tV : Memref sig .scVector .hbm S100000x128 .f32) (T : Buf (Elt F) (tV.view.loc (thrOf d L))) (q : PosShare TreeShare) :
    (iprop((tV.view.loc (thrOf d L) ↦{Transfers.shareDrop q 4} T) ∗ (tV.view.loc (thrOf d L) ↦{Transfers.shareTok q 4 0} T)
      ∗ (tV.view.loc (thrOf d L) ↦{Transfers.shareTok q 4 1} T) ∗ (tV.view.loc (thrOf d L) ↦{Transfers.shareTok q 4 2} T)
      ∗ (tV.view.loc (thrOf d L) ↦{Transfers.shareTok q 4 3} T)) : sProp 𝕄) ⊢ tV.view.loc (thrOf d L) ↦{q} T :=
  (toks4 (F := F) T q).2

theorem tile_close (O : CellTallies nD τ sig (HIx 1)) (W : Waits sig (HIx 1)) (R1 R2 : sProp 𝕄) :
    (iprop(((iV).view.loc (thrOf d L) ↦{tileSh (cL L) (sL L)} m (iLoc d))
        ∗ (((aV).view.loc (thrOf d L) ↦{Transfers.shareDrop (tileSh (cL L) (sL L)) 4} m (aLoc d)) ∗ ((aV).view.loc (thrOf d L) ↦{Transfers.shareTok (tileSh (cL L) (sL L)) 4 0} m (aLoc d))
          ∗ ((aV).view.loc (thrOf d L) ↦{Transfers.shareTok (tileSh (cL L) (sL L)) 4 1} m (aLoc d)) ∗ ((aV).view.loc (thrOf d L) ↦{Transfers.shareTok (tileSh (cL L) (sL L)) 4 2} m (aLoc d))
          ∗ ((aV).view.loc (thrOf d L) ↦{Transfers.shareTok (tileSh (cL L) (sL L)) 4 3} m (aLoc d)))
        ∗ (((bV).view.loc (thrOf d L) ↦{Transfers.shareDrop (tileSh (cL L) (sL L)) 4} m (bLoc d)) ∗ ((bV).view.loc (thrOf d L) ↦{Transfers.shareTok (tileSh (cL L) (sL L)) 4 0} m (bLoc d))
          ∗ ((bV).view.loc (thrOf d L) ↦{Transfers.shareTok (tileSh (cL L) (sL L)) 4 1} m (bLoc d)) ∗ ((bV).view.loc (thrOf d L) ↦{Transfers.shareTok (tileSh (cL L) (sL L)) 4 2} m (bLoc d))
          ∗ ((bV).view.loc (thrOf d L) ↦{Transfers.shareTok (tileSh (cL L) (sL L)) 4 3} m (bLoc d)))
        ∗ (((cV).view.loc (thrOf d L) ↦{Transfers.shareDrop (tileSh (cL L) (sL L)) 4} m (cLoc d)) ∗ ((cV).view.loc (thrOf d L) ↦{Transfers.shareTok (tileSh (cL L) (sL L)) 4 0} m (cLoc d))
          ∗ ((cV).view.loc (thrOf d L) ↦{Transfers.shareTok (tileSh (cL L) (sL L)) 4 1} m (cLoc d)) ∗ ((cV).view.loc (thrOf d L) ↦{Transfers.shareTok (tileSh (cL L) (sL L)) 4 2} m (cLoc d))
          ∗ ((cV).view.loc (thrOf d L) ↦{Transfers.shareTok (tileSh (cL L) (sL L)) 4 3} m (cLoc d)))
        ∗ (planeAt m d L 0 8 ∗ planeAt m d L 1 8 ∗ planeAt m d L 2 8)
        ∗ R1 ∗ R2 ∗ owesP d L O W) : sProp 𝕄)
      ⊢ iprop((reads m d (tileSh (cL L) (sL L)) ∗ oOn d (oSet (wOf (cL L) (sL L))) (pooledArr m d)) ∗ R1 ∗ R2
          ∗ ∃ W', ⌜∀ p ∈ W', p ∈ W ∨ p.2 = none⌝ ∗ owes (thrOf d L) O W') := by
  iintro ⟨Hi, Ha, Hb, Hc, Hp, H1, H2, HO⟩
  isplitl [Hi Ha Hb Hc Hp]
  · isplitl [Hi Ha Hb Hc]
    · isplitl [Hi]; · iexact Hi
      isplitl [Ha]; · iapply (toks4_join (F := F) d L aV (m (aLoc d)) _); iexact Ha
      isplitl [Hb]; · iapply (toks4_join (F := F) d L bV (m (bLoc d)) _); iexact Hb
      iapply (toks4_join (F := F) d L cV (m (cLoc d)) _); iexact Hc
    · iapply (planes_join m d L); iexact Hp
  isplitl [H1]; · iexact H1
  isplitl [H2]; · iexact H2
  iexact HO

end Close

/-! ## The task, from the three chunk loops' steps -/

set_option maxHeartbeats 4000000 in
/-- The vector subcore's task, given one trip of each of the three chunk loops from its invariant to the next. -/
theorem tile_body_of (hF : (K (F := F)).Facts) (hpre : PreOK m) (d : Dev nD) (L : grid0.Coords) (O : CellTallies nD τ sig (HIx 1)) (W : Waits sig (HIx 1)) (hO : ∀ g, O g none = 0)
    (hstep0 : ∀ (X0 : Buf (Elt F) ((s0).view.loc (thrOf d L))) (hX0 : IdxOK d L s0 X0) (X1 : Buf (Elt F) ((s1).view.loc (thrOf d L))) (hX1 : IdxOK d L s1 X1)
      (_ : (s0).view.read (Elt F) X0 = idxBuf m d L 0) (v2 : BitVec 32) (k : Fin (Scf.trips k0_t1_loop.lb k0_t1_loop.ub k0_t1_loop.st)) (acc : PUnit),
      inv0 m d L (tileSh (cL L) (sL L)) X0 hX0 X1 hX1 O W k.val
        ⊢ wp frame (wpE (defs₀ (F := F)) 𝒱₀ (thrOf d L) none) Set.univ (k0_t1_body (F := F) L aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _) s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5 v2 0#32 1#32 k acc)
            fun _ => inv0 m d L (tileSh (cL L) (sL L)) X0 hX0 X1 hX1 O W (k.val + 1))
    (hstep1 : ∀ (X0 : Buf (Elt F) ((s0).view.loc (thrOf d L))) (X1 : Buf (Elt F) ((s1).view.loc (thrOf d L))) (hX0 : IdxOK d L s0 X0) (hX1 : IdxOK d L s1 X1)
      (_ : (s1).view.read (Elt F) X1 = idxBuf m d L 1) (v2 : BitVec 32) (k : Fin (Scf.trips k0_t18_loop.lb k0_t18_loop.ub k0_t18_loop.st)) (acc : PUnit),
      inv1 m d L (tileSh (cL L) (sL L)) X0 X1 hX0 hX1 O W k.val
        ⊢ wp frame (wpE (defs₀ (F := F)) 𝒱₀ (thrOf d L) none) Set.univ (k0_t18_body (F := F) L aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _) s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5 v2 k acc)
            fun _ => inv1 m d L (tileSh (cL L) (sL L)) X0 X1 hX0 hX1 O W (k.val + 1))
    (hstep2 : ∀ (X : Buf (Elt F) ((s0).view.loc (thrOf d L))) (hX : IdxOK d L s0 X) (_ : (s0).view.read (Elt F) X = idxBuf m d L 2)
      (k : Fin (Scf.trips k0_t35_loop.lb k0_t35_loop.ub k0_t35_loop.st)) (acc : PUnit),
      resAt m d L cV (m (cLoc d)) s0 X (tileSh (cL L) (sL L)) hX cc0_scoped5 2 O W k.val
        ⊢ wp frame (wpE (defs₀ (F := F)) 𝒱₀ (thrOf d L) none) Set.univ (k0_t35_body (F := F) L aV (Memref.isWhole_whole _) bV (Memref.isWhole_whole _) cV (Memref.isWhole_whole _) iV (Memref.isWhole_whole _) oV (Memref.isWhole_whole _)
          s0 (Memref.isWhole_whole _) s1 (Memref.isWhole_whole _) s2 (Memref.isWhole_whole _) s3 (Memref.isWhole_whole _) s4 (Memref.isWhole_whole _) s5 (Memref.isWhole_whole _) s6 (Memref.isWhole_whole _)
          cc0_scratch7 cc0_scratch8 cc0_scratch9 cc0_scratch10 cc0_scoped0 cc0_scoped1 cc0_scoped2 cc0_scoped3 cc0_scoped4 cc0_scoped5 k acc)
            fun _ => resAt m d L cV (m (cLoc d)) s0 X (tileSh (cL L) (sL L)) hX cc0_scoped5 2 O W (k.val + 1)) :
    iprop(levAts (K (F := F)).L (K (F := F)).lev ∗ emp
        ∗ (reads m d (tileSh (cL L) (sL L)) ∗ ∃ f, oOn d (oSet (wOf (cL L) (sL L))) f)
        ∗ scopedBufs (thrOf d L) ∗ scopedSems0 (thrOf d L) ∗ owes (thrOf d L) O W)
      ⊢ wp frame (wpE (defs₀ (F := F)) 𝒱₀ (thrOf d L) none) Set.univ
          (cc0_pool_kernel L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5)
          fun _ => iprop((reads m d (tileSh (cL L) (sL L)) ∗ oOn d (oSet (wOf (cL L) (sL L))) (pooledArr m d))
            ∗ scopedBufs (thrOf d L) ∗ scopedSems0 (thrOf d L)
            ∗ ∃ W', ⌜∀ p ∈ W', p ∈ W ∨ p.2 = none⌝ ∗ owes (thrOf d L) O W') := by
  rw [(K (F := F)).scopedBufs_V hF d (cOf L) (sOf L), SparseCore.Cfg.scopedSems0_V (Val := Elt F) d (cOf L) (sOf L), ownSems0_V, ownBufs_V]
  iintro ⟨#Hlv, -, ⟨⟨Hi, Ha, Hb, Hc⟩, ⟨%fo, Ho⟩⟩, ⟨⟨%f0, H0⟩, ⟨%f1, H1⟩, ⟨%f2, H2⟩, ⟨%f3, H3⟩, ⟨%f4, H4⟩, ⟨%f5, H5⟩, ⟨%f6, H6⟩, Hbufs⟩,
    ⟨Hg0, Hg1, Hg2, Hg3, Hr0, Hr1, Hr2, Hr3, Hr4, Hr5, Hsems⟩, HO⟩
  ihave Hmw := (show levAts (K (F := F)).L (K (F := F)).lev ⊢ Transfers.MayWaits (thrOf d L) (default : HIx 1) O from
    (K (F := F)).mayWaits_none (thr := thrOf d L) hO) $$ Hlv
  ihave Ha' := (toks4 (F := F) (m (aLoc d)) (tileSh (cL L) (sL L))).1 $$ Ha
  ihave Hb' := (toks4 (F := F) (m (bLoc d)) (tileSh (cL L) (sL L))).1 $$ Hb
  ihave Hc' := (toks4 (F := F) (m (cLoc d)) (tileSh (cL L) (sL L))).1 $$ Hc
  icases Ha' with ⟨HaR, Ha0, Ha1, Ha2, Ha3⟩
  icases Hb' with ⟨HbR, Hb0, Hb1, Hb2, Hb3⟩
  icases Hc' with ⟨HcR, Hc0, Hc1, Hc2, Hc3⟩
  ihave Hi := (Entails.of_eq (pts_iV (F := F) d L _ _).symm) $$ Hi
  ihave HaR := (Entails.of_eq (pts_aV (F := F) d L _ _).symm) $$ HaR
  ihave Ha0 := (Entails.of_eq (pts_aV (F := F) d L _ _).symm) $$ Ha0
  ihave Ha1 := (Entails.of_eq (pts_aV (F := F) d L _ _).symm) $$ Ha1
  ihave Ha2 := (Entails.of_eq (pts_aV (F := F) d L _ _).symm) $$ Ha2
  ihave Ha3 := (Entails.of_eq (pts_aV (F := F) d L _ _).symm) $$ Ha3
  ihave HbR := (Entails.of_eq (pts_bV (F := F) d L _ _).symm) $$ HbR
  ihave Hb0 := (Entails.of_eq (pts_bV (F := F) d L _ _).symm) $$ Hb0
  ihave Hb1 := (Entails.of_eq (pts_bV (F := F) d L _ _).symm) $$ Hb1
  ihave Hb2 := (Entails.of_eq (pts_bV (F := F) d L _ _).symm) $$ Hb2
  ihave Hb3 := (Entails.of_eq (pts_bV (F := F) d L _ _).symm) $$ Hb3
  ihave HcR := (Entails.of_eq (pts_cV (F := F) d L _ _).symm) $$ HcR
  ihave Hc0 := (Entails.of_eq (pts_cV (F := F) d L _ _).symm) $$ Hc0
  ihave Hc1 := (Entails.of_eq (pts_cV (F := F) d L _ _).symm) $$ Hc1
  ihave Hc2 := (Entails.of_eq (pts_cV (F := F) d L _ _).symm) $$ Hc2
  ihave Hc3 := (Entails.of_eq (pts_cV (F := F) d L _ _).symm) $$ Hc3
  ihave Ho := (Entails.of_eq (pts_oV (F := F) d L _ _)) $$ Ho
  ihave H0 := (Entails.of_eq (pts_s0 (F := F) d L _).symm) $$ H0
  ihave H1 := (Entails.of_eq (pts_s1 (F := F) d L _).symm) $$ H1
  ihave H2 := (Entails.of_eq (pts_s2 (F := F) d L _).symm) $$ H2
  ihave H3 := (Entails.of_eq (pts_s3 (F := F) d L _).symm) $$ H3
  ihave H4 := (Entails.of_eq (pts_s4 (F := F) d L _).symm) $$ H4
  ihave H5 := (Entails.of_eq (pts_s5 (F := F) d L _).symm) $$ H5
  ihave H6 := (Entails.of_eq (pts_s6 (F := F) d L _).symm) $$ H6
  rw [cc0_pool_kernel_eq_skeleton]; unfold cc0_pool_kernel_skel
  sl_exec

  -- the index buffer just staged: every word names a row; held block by block
  have hX0 : IdxOK (F := F) d L s0 (View.write (Elt F) s0.view f0 (tile_body_of.sl.dma0 m d L) Finset.univ) :=
    fun g x => idx_inb m hpre d L 0 s0 f0 (tile_body_of.sl.dma0 m d L) rfl (200 * g.val) (blkOff_inb g) x
  ihave Hh := (Entails.of_eq ((s0_home (F := F) d L _).trans (homes_all _ (Ring.bk 32 0) (Ring.bk 32 1) (Ring.bk 32 2) (Ring.bk 32 3) rfl rfl rfl rfl))) $$ H0
  icases Hh with ⟨Hh0, Hh1, Hh2, Hh3, Hhome⟩
  have hin0 := hX0 (Ring.bk 32 0)
  have hin1 := hX0 (Ring.bk 32 1)
  have hin2 := hX0 (Ring.bk 32 2)
  have hin3 := hX0 (Ring.bk 32 3)
  -- the four first gathers, the second stretch staged
  sl_exec
  have hX1 : IdxOK (F := F) d L s1 (View.write (Elt F) s1.view f1 (tile_body_of.sl.dma0_1 m d L) Finset.univ) :=
    fun g x => idx_inb m hpre d L 1 s1 f1 (tile_body_of.sl.dma0_1 m d L) rfl (200 * g.val) (blkOff_inb g) x
  -- the ring at its start
  ihave Hring := (ring_fold (F := F) d L aV (m (aLoc d)) s0 _ (tileSh (cL L) (sL L)) hX0 f2 f3 f4 f5 _ _ _ _ rfl rfl rfl rfl) $$ [Hhome Hg0 Ha0 Hg1 Ha1 Hg2 Ha2 Hg3 Ha3]
  · isplitl [Hhome]; · iexact Hhome
    isplitl [Hg0 Ha0]; · isplitl [Hg0]; · iexact Hg0
                         iexact Ha0
    isplitl [Hg1 Ha1]; · isplitl [Hg1]; · iexact Hg1
                         iexact Ha1
    isplitl [Hg2 Ha2]; · isplitl [Hg2]; · iexact Hg2
                         iexact Ha2
    isplitl [Hg3]; · iexact Hg3
    iexact Ha3
  -- the pooled rows chunk by chunk, the means' scratch, the recorded waits
  ihave Hp := (planes_split m d L) $$ [Ho]
  · iexists fo; iexact Ho
  icases Hp with ⟨Hp0, Hp1, Hp2⟩
  ihave Hm : meansP (F := F) d L $$ [H6]
  · iexists f6; iexact H6
  ihave HO : owesP (F := F) d L O W $$ [HO]
  · iexists _; isplitr
    on_goal 2 => iexact HO
    ipureintro; intro p hp
    rcases Finset.mem_insert.mp hp with rfl | hp
    · exact .inr rfl
    rcases Finset.mem_insert.mp hp with rfl | hp
    · exact .inr rfl
    · exact .inl hp

  -- into the first loop
  have hR0 : (s0).view.read (Elt F) (View.write (Elt F) s0.view f0 (tile_body_of.sl.dma0 m d L) Finset.univ) = idxBuf m d L 0 :=
    staged_read m d L 0 s0 f0
  have hR1 : (s1).view.read (Elt F) (View.write (Elt F) s1.view f1 (tile_body_of.sl.dma0_1 m d L) Finset.univ) = idxBuf m d L 1 :=
    staged_read m d L 1 s1 f1
  ihave Hin := (enter1 m d L (tileSh (cL L) (sL L)) _ _ O W hX0) $$ [Hring H1 Hb0 Hb1 Hb2 Hb3 Hm Hr2 Hp0 HO]
  · isplitl [Hring]; · iexact Hring
    isplitl [H1]; · iexact H1
    isplitl [Hb0]; · iexact Hb0
    isplitl [Hb1]; · iexact Hb1
    isplitl [Hb2]; · iexact Hb2
    isplitl [Hb3]; · iexact Hb3
    isplitl [Hm]; · iexact Hm
    isplitl [Hr2]; · iexact Hr2
    isplitl [Hp0]; · iexact Hp0
    isplitr; · iexact Hmw
    iexact HO
  sl_for (fun (k : ℕ) (_ : PUnit) => inv0 m d L (tileSh (cL L) (sL L)) _ hX0 _ hX1 O W k) $$ [Hin]
  case region => intro k acc; exact hstep0 _ hX0 _ hX1 hR0 _ k acc
  · rw [inv0_lt m d L (tileSh (cL L) (sL L)) _ hX0 _ hX1 O W 0 (by decide)]; iexact Hin
  rw [trips1_eq, inv0_ge m d L (tileSh (cL L) (sL L)) _ hX0 _ hX1 O W 8 (by decide)]
  iintro %acc ⟨Hring, Hh0s, ⟨Ha0, Ha1, Ha2, Ha3⟩, Hm, Hr2, Hp0, -, ⟨%W1, %hW1, HO⟩⟩
  -- out of the first loop: the first index buffer whole again, for the third stretch
  ihave H0 := (Entails.of_eq (s0_home (F := F) d L _).symm) $$ Hh0s
  sl_exec
  -- the third stretch staged over the first buffer
  have hX2 : IdxOK (F := F) d L s0 (View.write (Elt F) s0.view (View.write (Elt F) s0.view f0 (tile_body_of.sl.dma0 m d L) Finset.univ) (tile_body_of.sl.dma0_2 m d L) Finset.univ) :=
    fun g x => idx_inb m hpre d L 2 s0 _ (tile_body_of.sl.dma0_2 m d L) rfl (200 * g.val) (blkOff_inb g) x
  have hR2 : (s0).view.read (Elt F) (View.write (Elt F) s0.view (View.write (Elt F) s0.view f0 (tile_body_of.sl.dma0 m d L) Finset.univ) (tile_body_of.sl.dma0_2 m d L) Finset.univ) = idxBuf m d L 2 :=
    staged_read m d L 2 s0 _
  ihave HO : owesP (F := F) d L O W $$ [HO]
  · iexists _; isplitr
    on_goal 2 => iexact HO
    ipureintro; intro p hp
    rcases Finset.mem_insert.mp hp with rfl | hp
    · exact .inr rfl
    · exact hW1 p hp
  -- into the second loop
  ihave Hin := (enter2 m d L (tileSh (cL L) (sL L)) _ _ O W hX1) $$ [Hring H0 Hc0 Hc1 Hc2 Hc3 Hm Hr4 Hp1 HO]
  · isplitl [Hring]; · iexact Hring
    isplitl [H0]; · iexact H0
    isplitl [Hc0]; · iexact Hc0
    isplitl [Hc1]; · iexact Hc1
    isplitl [Hc2]; · iexact Hc2
    isplitl [Hc3]; · iexact Hc3
    isplitl [Hm]; · iexact Hm
    isplitl [Hr4]; · iexact Hr4
    isplitl [Hp1]; · iexact Hp1
    isplitr; · iexact Hmw
    iexact HO
  sl_for (fun (k : ℕ) (_ : PUnit) => inv1 m d L (tileSh (cL L) (sL L)) _ _ hX2 hX1 O W k) $$ [Hin]
  case region => intro k acc; exact hstep1 _ _ hX2 hX1 hR1 _ k acc
  · rw [inv1_zero]; iexact Hin
  rw [trips18_eq, inv1_eight]
  iintro %acc2 HI
  -- out of the second loop, into the third
  ihave H := (leave2 m d L (tileSh (cL L) (sL L)) _ _ O W hX2) $$ [HI Hr5 Hp2]
  · isplitl [HI]; · iexact HI
    isplitl [Hr5]; · iexact Hr5
    isplitl [Hp2]; · iexact Hp2
    iexact Hmw
  icases H with ⟨Hin, H1, Hb0, Hb1, Hb2, Hb3, Hr4, Hp1⟩
  sl_for (fun (k : ℕ) (_ : PUnit) => resAt m d L cV (m (cLoc d)) s0 _ (tileSh (cL L) (sL L)) hX2 cc0_scoped5 2 O W k) $$ [Hin]
  case region => intro k acc; exact hstep2 _ hX2 hR2 k acc
  · iexact Hin
  rw [trips35_eq]
  iintro %acc3 HI
  -- out of the third loop
  ihave H := (leave3 m d L (tileSh (cL L) (sL L)) _ O W hX2) $$ [HI]
  · iexact HI
  icases H with ⟨H0, ⟨Hg0, ⟨%g2, H2⟩, Hc0⟩, ⟨Hg1, ⟨%g3, H3⟩, Hc1⟩, ⟨Hg2, ⟨%g4, H4⟩, Hc2⟩, ⟨Hg3, ⟨%g5, H5⟩, Hc3⟩, Hm, Hr5, Hp2, -, HO⟩
  sl_exec
  rw [wp_ret]; imodintro
  -- the closing: the tokens and the planes rejoined, the subcore's own handed back
  iapply (tile_close m d L O W _ _)
  isplitl [Hi]; · iexact Hi
  isplitl [HaR Ha0 Ha1 Ha2 Ha3]
  · isplitl [HaR]; · iexact HaR
    isplitl [Ha0]; · iexact Ha0
    isplitl [Ha1]; · iexact Ha1
    isplitl [Ha2]; · iexact Ha2
    iexact Ha3
  isplitl [HbR Hb0 Hb1 Hb2 Hb3]
  · isplitl [HbR]; · iexact HbR
    isplitl [Hb0]; · iexact Hb0
    isplitl [Hb1]; · iexact Hb1
    isplitl [Hb2]; · iexact Hb2
    iexact Hb3
  isplitl [HcR Hc0 Hc1 Hc2 Hc3]
  · isplitl [HcR]; · iexact HcR
    isplitl [Hc0]; · iexact Hc0
    isplitl [Hc1]; · iexact Hc1
    isplitl [Hc2]; · iexact Hc2
    iexact Hc3
  isplitl [Hp0 Hp1 Hp2]
  · isplitl [Hp0]; · iexact Hp0
    isplitl [Hp1]; · iexact Hp1
    iexact Hp2
  isplitl [H0 H1 H2 H3 H4 H5 Hm Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [Hm]; · iexact Hm
    iexact Hbufs
  isplitl [Hg0 Hg1 Hg2 Hg3 Hr0 Hr1 Hr2 Hr3 Hr4 Hr5 Hsems]
  · isplitl [Hg0]; · iexact Hg0
    isplitl [Hg1]; · iexact Hg1
    isplitl [Hg2]; · iexact Hg2
    isplitl [Hg3]; · iexact Hg3
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hsems
  iexact HO

end Cert.Kernel.Sc
end
-- ==== Proof.B_ScRedLib.lean ====
/-
  What a reduce loop of the kernel carries. A row buffer holds 200 rows of 128 lanes: four segments of fifty rows. A
  reduce loop sums one segment two rows a step, in eight column blocks of sixteen lanes, each from the zero word:
  after `l` steps block `j` of segment `s` holds, at each lane, the running sum `accN` of rows `50 s … 50 s + 2 l - 1`
  of column `16 j + lane`. One step adds rows `50 s + 2 l` and `50 s + 2 l + 1` in turn; a 1 × 16 load at offsets
  `(r, c)`, cast to sixteen lanes, reads row `r`, columns `c … c + 15`.
-/
import proofs.«207262_g39728447488703_cont_8to1_b_1934_40_alg».proof.Proof.B_ScTileDefs
import Idealize.ShloMosaic.Lib.ValueLayout

noncomputable section

namespace Cert.Kernel.Sc

open Cert.Kernel Cert.Kernel.Gen

open Idealize.ShloMosaic
open Idealize.ShloMosaic.SparseCore (S V T)
open Idealize.SL Idealize.SL.Sem

variable {F : FTy → Type} [FloatOps F]

/-! ## A row buffer read by rows and lanes -/

/-- Entry `(r, c + lane)` of a row buffer's contents (the zero word past the end). -/
def rowAt (fb : S200x128.Idx → F .f32) (r c : ℕ) (lane : S16.Idx) : F .f32 :=
  if h : r < 200 ∧ c + (lane 0).val < 128 then fb (ValueIdx.ix2 (⟨r, h.1⟩ : Fin 200) (⟨c + (lane 0).val, h.2⟩ : Fin 128))
  else Scalar.ofBits .f32 0x00000000#32

/-- Column block `j` (lanes `16 j … 16 j + 15`) of the running sum of segment `s` (rows `50 s … 50 s + 49`) after `l` steps
    of two rows each, from the zero word. -/
def accBlk (fb : S200x128.Idx → F .f32) (s j l : ℕ) : FVec F S16 .f32 :=
  fun lane => accN (fun i => rowAt fb (50 * s + i) (16 * j) lane) l

/-- The eight column blocks of segment `s`'s running sum after `l` steps: what a reduce loop carries. -/
def accsAt (fb : S200x128.Idx → F .f32) (s l : ℕ) :
    FVec F S16 .f32 × FVec F S16 .f32 × FVec F S16 .f32 × FVec F S16 .f32 × FVec F S16 .f32 × FVec F S16 .f32 × FVec F S16 .f32 × FVec F S16 .f32 :=
  (accBlk fb s 0 l, accBlk fb s 1 l, accBlk fb s 2 l, accBlk fb s 3 l, accBlk fb s 4 l, accBlk fb s 5 l, accBlk fb s 6 l, accBlk fb s 7 l)

/-- One step of a column block: the two rows `50 s + 2 l` and `50 s + 2 l + 1` added to it in turn. -/
theorem accBlk_succ (fb : S200x128.Idx → F .f32) (s j l : ℕ) (a : FVec F S16 .f32) (x y : Vec F S1x16 .f32) (ha : a = accBlk fb s j l)
    (hx : ∀ lane, shapeCast S16 x shapeCasts_S1x16_S16 lane = rowAt fb (50 * s + 2 * l) (16 * j) lane)
    (hy : ∀ lane, shapeCast S16 y shapeCasts_S1x16_S16 lane = rowAt fb (50 * s + (2 * l + 1)) (16 * j) lane) :
    addf (addf a (shapeCast S16 x shapeCasts_S1x16_S16)) (shapeCast S16 y shapeCasts_S1x16_S16) = accBlk fb s j (l + 1) := by
  subst ha
  funext lane
  show FloatOps.addf (FloatOps.addf (accBlk fb s j l lane) (shapeCast S16 x shapeCasts_S1x16_S16 lane)) (shapeCast S16 y shapeCasts_S1x16_S16 lane) = _
  rw [hx lane, hy lane]
  rfl

/-- The eight blocks step together. -/
theorem accsAt_succ (fb : S200x128.Idx → F .f32) (s l : ℕ) (t0 t1 t2 t3 t4 t5 t6 t7 : FVec F S16 .f32)
    (h0 : t0 = accBlk fb s 0 (l + 1)) (h1 : t1 = accBlk fb s 1 (l + 1)) (h2 : t2 = accBlk fb s 2 (l + 1)) (h3 : t3 = accBlk fb s 3 (l + 1))
    (h4 : t4 = accBlk fb s 4 (l + 1)) (h5 : t5 = accBlk fb s 5 (l + 1)) (h6 : t6 = accBlk fb s 6 (l + 1)) (h7 : t7 = accBlk fb s 7 (l + 1)) :
    (t0, t1, t2, t3, t4, t5, t6, t7) = accsAt fb s (l + 1) := by
  subst h0 h1 h2 h3 h4 h5 h6 h7; rfl

set_option hygiene false in
/-- A 1 × 16 load from a row buffer held whole, cast to sixteen lanes, reads the row and the columns its offsets name:
    the cast drops the unit axis, the whole view reads the contents as they are, and a unit-stride rectangle places
    `(0, i)` at `(off 0, off 1 + i)`. -/
local macro "load_lane_proof" : tactic =>
  `(tactic| (
    intro d L fb off inb lane
    have h0 : off 0 + 1 ≤ 200 := inb 0
    have h1 : off 1 + 16 ≤ 128 := inb 1
    obtain ⟨i, rfl⟩ : ∃ i : Fin 16, lane = ValueIdx.ix1 i := ⟨lane 0, ValueIdx.eq_ix1 lane⟩
    refine (ValueIdx.shapeCast_1a_a_apply _ shapeCasts_S1x16_S16 i).trans ?_
    have hi : i.val < 16 := i.isLt
    unfold rowAt
    rw [dif_pos ⟨by omega, by show off 1 + i.val < 128; omega⟩, View.readAt_apply]
    show fb _ = fb _
    congr 1
    funext a
    match a with
    | ⟨0, _⟩ => exact Fin.ext (by show off 0 + 1 * 0 = off 0; omega)
    | ⟨1, _⟩ => exact Fin.ext (by show off 1 + 1 * i.val = off 1 + i.val; omega)))

theorem load_lane_s2 : ∀ (d : Dev nD) (L : grid0.Coords) (fb : Buf (Elt F) ((thrOf d L).loc cc0_scratch2)) (off : Fin 2 → ℕ)
    (inb : ∀ a, off a + S1x16.size a ≤ S200x128.size a) (lane : S16.Idx),
    shapeCast S16 (View.readAt (Elt F) s2.view (Rect.unit (s := S200x128) off S1x16.size inb).toLoadRect fb) shapeCasts_S1x16_S16 lane
      = rowAt fb (off 0) (off 1) lane := by load_lane_proof
theorem load_lane_s3 : ∀ (d : Dev nD) (L : grid0.Coords) (fb : Buf (Elt F) ((thrOf d L).loc cc0_scratch3)) (off : Fin 2 → ℕ)
    (inb : ∀ a, off a + S1x16.size a ≤ S200x128.size a) (lane : S16.Idx),
    shapeCast S16 (View.readAt (Elt F) s3.view (Rect.unit (s := S200x128) off S1x16.size inb).toLoadRect fb) shapeCasts_S1x16_S16 lane
      = rowAt fb (off 0) (off 1) lane := by load_lane_proof
theorem load_lane_s4 : ∀ (d : Dev nD) (L : grid0.Coords) (fb : Buf (Elt F) ((thrOf d L).loc cc0_scratch4)) (off : Fin 2 → ℕ)
    (inb : ∀ a, off a + S1x16.size a ≤ S200x128.size a) (lane : S16.Idx),
    shapeCast S16 (View.readAt (Elt F) s4.view (Rect.unit (s := S200x128) off S1x16.size inb).toLoadRect fb) shapeCasts_S1x16_S16 lane
      = rowAt fb (off 0) (off 1) lane := by load_lane_proof
theorem load_lane_s5 : ∀ (d : Dev nD) (L : grid0.Coords) (fb : Buf (Elt F) ((thrOf d L).loc cc0_scratch5)) (off : Fin 2 → ℕ)
    (inb : ∀ a, off a + S1x16.size a ≤ S200x128.size a) (lane : S16.Idx),
    shapeCast S16 (View.readAt (Elt F) s5.view (Rect.unit (s := S200x128) off S1x16.size inb).toLoadRect fb) shapeCasts_S1x16_S16 lane
      = rowAt fb (off 0) (off 1) lane := by load_lane_proof

/-- In range, it is the entry. -/
theorem rowAt_eq (fb : S200x128.Idx → F .f32) (r c : ℕ) (lane : S16.Idx) (h : r < 200) (h' : c + (lane 0).val < 128) :
    rowAt fb r c lane = fb (ValueIdx.ix2 (⟨r, h⟩ : Fin 200) (⟨c + (lane 0).val, h'⟩ : Fin 128)) := dif_pos ⟨h, h'⟩

/-- The row and column read through offsets spelt by the program are those of the offsets' closed form. -/
theorem rowAt_closed (fb : S200x128.Idx → F .f32) (off : Fin 2 → ℕ) [co : ClosedOff off] (r c : ℕ) (lane : S16.Idx)
    (hr : co.form 0 = r) (hc : co.form 1 = c) : rowAt fb (off 0) (off 1) lane = rowAt fb r c lane := by
  rw [show off 0 = r from (congrFun co.eq 0).trans hr, show off 1 = c from (congrFun co.eq 1).trans hc]

/-- Reads a coordinate of a closed form and leaves linear arithmetic. -/
macro "closed_off" : tactic =>
  `(tactic| (simp only [ClosedOff.form, Matrix.cons_val_zero, Matrix.cons_val_one, Matrix.head_cons] <;> omega))

end Cert.Kernel.Sc

end
-- ==== Proof.B_ScRed02.lean ====
/-
  The reduce loop of ring slot 0, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t2_trips : k0_t2_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t2 (d : Dev nD) (L : grid0.Coords)
    (a14 a15 a16 a17 r0 r1 r2 r3 r4 r5 : DmaSems sig S_)
    (c0_i32_11 : BitVec 32) (c1_i32 : BitVec 32) (k0_t1 : Fin k0_t1_loop.trips)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t2_loop.lb k0_t2_loop.ub k0_t2_loop.st k0_t2_ok init
      (k0_t2_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        c0_i32_11 c1_i32 k0_t1) where
  inv l acc := iprop(((s2).view.loc (thrOf d L) ↦{fullShare} fb) ∗ ⌜acc = accsAt fb 0 l⌝)
  step l acc := by
    iintro ⟨HB, %hacc⟩
    subst hacc
    unfold Gen.k0_t2_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed03.lean ====
/-
  The reduce loop of ring slot 0, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t3_trips : k0_t3_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t3 (d : Dev nD) (L : grid0.Coords)
    (a14 a15 a16 a17 r0 r1 r2 r3 r4 r5 : DmaSems sig S_)
    (v84 : FVec F S16 .f32) (v85 : FVec F S16 .f32) (v86 : FVec F S16 .f32) (v87 : FVec F S16 .f32) (v88 : FVec F S16 .f32) (cst_58 : F .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t3_loop.lb k0_t3_loop.ub k0_t3_loop.st k0_t3_ok init
      (k0_t3_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v84 v85 v86 v87 v88 cst_58) where
  inv l acc := iprop(((s2).view.loc (thrOf d L) ↦{fullShare} fb) ∗ ⌜acc = accsAt fb 1 l⌝)
  step l acc := by
    iintro ⟨HB, %hacc⟩
    subst hacc
    unfold Gen.k0_t3_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed04.lean ====
/-
  The reduce loop of ring slot 0, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t4_trips : k0_t4_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t4 (d : Dev nD) (L : grid0.Coords)
    (a14 a15 a16 a17 r0 r1 r2 r3 r4 r5 : DmaSems sig S_)
    (v93_5 : FVec F S16 .f32) (v93_6 : FVec F S16 .f32) (v93_7 : FVec F S16 .f32) (v123 : FVec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t4_loop.lb k0_t4_loop.ub k0_t4_loop.st k0_t4_ok init
      (k0_t4_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v93_5 v93_6 v93_7 v123) where
  inv l acc := iprop(((s2).view.loc (thrOf d L) ↦{fullShare} fb) ∗ ⌜acc = accsAt fb 2 l⌝)
  step l acc := by
    iintro ⟨HB, %hacc⟩
    subst hacc
    unfold Gen.k0_t4_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed05.lean ====
/-
  The reduce loop of ring slot 0, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t5_trips : k0_t5_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t5 (d : Dev nD) (L : grid0.Coords)
    (a14 a15 a16 a17 r0 r1 r2 r3 r4 r5 : DmaSems sig S_)
    (v151_7 : FVec F S16 .f32) (v189 : FVec F S16 .f32) (v191 : Vec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t5_loop.lb k0_t5_loop.ub k0_t5_loop.st k0_t5_ok init
      (k0_t5_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v151_7 v189 v191) where
  inv l acc := iprop(((s2).view.loc (thrOf d L) ↦{fullShare} fb) ∗ ⌜acc = accsAt fb 3 l⌝)
  step l acc := by
    iintro ⟨HB, %hacc⟩
    subst hacc
    unfold Gen.k0_t5_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed06.lean ====
/-
  The reduce loop of ring slot 1, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t6_trips : k0_t6_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t6 (d : Dev nD) (L : grid0.Coords)
    (a14 a15 a16 a17 r0 r1 r2 r3 r4 r5 : DmaSems sig S_)
    (k0_t1 : Fin k0_t1_loop.trips) (arg18 : BitVec 32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t6_loop.lb k0_t6_loop.ub k0_t6_loop.st k0_t6_ok init
      (k0_t6_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t1 arg18) where
  inv l acc := iprop(((s3).view.loc (thrOf d L) ↦{fullShare} fb) ∗ ⌜acc = accsAt fb 0 l⌝)
  step l acc := by
    iintro ⟨HB, %hacc⟩
    subst hacc
    unfold Gen.k0_t6_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed07.lean ====
/-
  The reduce loop of ring slot 1, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t7_trips : k0_t7_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t7 (d : Dev nD) (L : grid0.Coords)
    (a14 a15 a16 a17 r0 r1 r2 r3 r4 r5 : DmaSems sig S_)
    (v324 : FVec F S16 .f32) (v325 : FVec F S16 .f32) (cst_203 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t7_loop.lb k0_t7_loop.ub k0_t7_loop.st k0_t7_ok init
      (k0_t7_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v324 v325 cst_203) where
  inv l acc := iprop(((s3).view.loc (thrOf d L) ↦{fullShare} fb) ∗ ⌜acc = accsAt fb 1 l⌝)
  step l acc := by
    iintro ⟨HB, %hacc⟩
    subst hacc
    unfold Gen.k0_t7_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed08.lean ====
/-
  The reduce loop of ring slot 1, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t8_trips : k0_t8_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t8 (d : Dev nD) (L : grid0.Coords)
    (a14 a15 a16 a17 r0 r1 r2 r3 r4 r5 : DmaSems sig S_)
    (v333_5 : FVec F S16 .f32) (v333_6 : FVec F S16 .f32) (v333_7 : FVec F S16 .f32) (v359 : FVec F S16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t8_loop.lb k0_t8_loop.ub k0_t8_loop.st k0_t8_ok init
      (k0_t8_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v333_5 v333_6 v333_7 v359) where
  inv l acc := iprop(((s3).view.loc (thrOf d L) ↦{fullShare} fb) ∗ ⌜acc = accsAt fb 2 l⌝)
  step l acc := by
    iintro ⟨HB, %hacc⟩
    subst hacc
    unfold Gen.k0_t8_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed09.lean ====
/-
  The reduce loop of ring slot 1, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t9_trips : k0_t9_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t9 (d : Dev nD) (L : grid0.Coords)
    (a14 a15 a16 a17 r0 r1 r2 r3 r4 r5 : DmaSems sig S_)
    (v391_6 : FVec F S16 .f32) (v391_7 : FVec F S16 .f32) (cst_265 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t9_loop.lb k0_t9_loop.ub k0_t9_loop.st k0_t9_ok init
      (k0_t9_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v391_6 v391_7 cst_265) where
  inv l acc := iprop(((s3).view.loc (thrOf d L) ↦{fullShare} fb) ∗ ⌜acc = accsAt fb 3 l⌝)
  step l acc := by
    iintro ⟨HB, %hacc⟩
    subst hacc
    unfold Gen.k0_t9_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed10.lean ====
/-
  The reduce loop of ring slot 2, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t10_trips : k0_t10_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t10 (d : Dev nD) (L : grid0.Coords)
    (a14 a15 a16 a17 r0 r1 r2 r3 r4 r5 : DmaSems sig S_)
    (k0_t1 : Fin k0_t1_loop.trips) (arg18 : BitVec 32) (v497 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t10_loop.lb k0_t10_loop.ub k0_t10_loop.st k0_t10_ok init
      (k0_t10_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t1 arg18 v497) where
  inv l acc := iprop(((s4).view.loc (thrOf d L) ↦{fullShare} fb) ∗ ⌜acc = accsAt fb 0 l⌝)
  step l acc := by
    iintro ⟨HB, %hacc⟩
    subst hacc
    unfold Gen.k0_t10_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed11.lean ====
/-
  The reduce loop of ring slot 2, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t11_trips : k0_t11_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t11 (d : Dev nD) (L : grid0.Coords)
    (a14 a15 a16 a17 r0 r1 r2 r3 r4 r5 : DmaSems sig S_)
    (v563 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t11_loop.lb k0_t11_loop.ub k0_t11_loop.st k0_t11_ok init
      (k0_t11_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v563) where
  inv l acc := iprop(((s4).view.loc (thrOf d L) ↦{fullShare} fb) ∗ ⌜acc = accsAt fb 1 l⌝)
  step l acc := by
    iintro ⟨HB, %hacc⟩
    subst hacc
    unfold Gen.k0_t11_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed12.lean ====
/-
  The reduce loop of ring slot 2, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t12_trips : k0_t12_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t12 (d : Dev nD) (L : grid0.Coords)
    (a14 a15 a16 a17 r0 r1 r2 r3 r4 r5 : DmaSems sig S_)
    (v622 : FVec F S16 .f32) (v623 : FVec F S16 .f32) (v624 : FVec F S16 .f32) (v625 : FVec F S16 .f32) (v626 : FVec F S16 .f32) (v627 : FVec F S16 .f32) (v628 : FVec F S16 .f32) (v629 : FVec F S16 .f32) (c0_i32_393 : BitVec 32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t12_loop.lb k0_t12_loop.ub k0_t12_loop.st k0_t12_ok init
      (k0_t12_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v622 v623 v624 v625 v626 v627 v628 v629 c0_i32_393) where
  inv l acc := iprop(((s4).view.loc (thrOf d L) ↦{fullShare} fb) ∗ ⌜acc = accsAt fb 2 l⌝)
  step l acc := by
    iintro ⟨HB, %hacc⟩
    subst hacc
    unfold Gen.k0_t12_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed13.lean ====
/-
  The reduce loop of ring slot 2, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t13_trips : k0_t13_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t13 (d : Dev nD) (L : grid0.Coords)
    (a14 a15 a16 a17 r0 r1 r2 r3 r4 r5 : DmaSems sig S_)
    (v631_6 : FVec F S16 .f32) (v631_7 : FVec F S16 .f32) (v663 : FVec F S16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t13_loop.lb k0_t13_loop.ub k0_t13_loop.st k0_t13_ok init
      (k0_t13_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v631_6 v631_7 v663) where
  inv l acc := iprop(((s4).view.loc (thrOf d L) ↦{fullShare} fb) ∗ ⌜acc = accsAt fb 3 l⌝)
  step l acc := by
    iintro ⟨HB, %hacc⟩
    subst hacc
    unfold Gen.k0_t13_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed14.lean ====
/-
  The reduce loop of ring slot 3, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t14_trips : k0_t14_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t14 (d : Dev nD) (L : grid0.Coords)
    (a14 a15 a16 a17 r0 r1 r2 r3 r4 r5 : DmaSems sig S_)
    (k0_t1 : Fin k0_t1_loop.trips) (arg18 : BitVec 32) (v733 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t14_loop.lb k0_t14_loop.ub k0_t14_loop.st k0_t14_ok init
      (k0_t14_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t1 arg18 v733) where
  inv l acc := iprop(((s5).view.loc (thrOf d L) ↦{fullShare} fb) ∗ ⌜acc = accsAt fb 0 l⌝)
  step l acc := by
    iintro ⟨HB, %hacc⟩
    subst hacc
    unfold Gen.k0_t14_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed15.lean ====
/-
  The reduce loop of ring slot 3, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t15_trips : k0_t15_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t15 (d : Dev nD) (L : grid0.Coords)
    (a14 a15 a16 a17 r0 r1 r2 r3 r4 r5 : DmaSems sig S_)
    (v799 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t15_loop.lb k0_t15_loop.ub k0_t15_loop.st k0_t15_ok init
      (k0_t15_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v799) where
  inv l acc := iprop(((s5).view.loc (thrOf d L) ↦{fullShare} fb) ∗ ⌜acc = accsAt fb 1 l⌝)
  step l acc := by
    iintro ⟨HB, %hacc⟩
    subst hacc
    unfold Gen.k0_t15_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed16.lean ====
/-
  The reduce loop of ring slot 3, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t16_trips : k0_t16_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t16 (d : Dev nD) (L : grid0.Coords)
    (a14 a15 a16 a17 r0 r1 r2 r3 r4 r5 : DmaSems sig S_)
    (v862 : FVec F S16 .f32) (v863 : FVec F S16 .f32) (v864 : FVec F S16 .f32) (v865 : FVec F S16 .f32) (v866 : FVec F S16 .f32) (cst_537 : F .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t16_loop.lb k0_t16_loop.ub k0_t16_loop.st k0_t16_ok init
      (k0_t16_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v862 v863 v864 v865 v866 cst_537) where
  inv l acc := iprop(((s5).view.loc (thrOf d L) ↦{fullShare} fb) ∗ ⌜acc = accsAt fb 2 l⌝)
  step l acc := by
    iintro ⟨HB, %hacc⟩
    subst hacc
    unfold Gen.k0_t16_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed17.lean ====
/-
  The reduce loop of ring slot 3, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t17_trips : k0_t17_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t17 (d : Dev nD) (L : grid0.Coords)
    (a14 a15 a16 a17 r0 r1 r2 r3 r4 r5 : DmaSems sig S_)
    (v871_5 : FVec F S16 .f32) (v871_6 : FVec F S16 .f32) (v871_7 : FVec F S16 .f32) (v901 : FVec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t17_loop.lb k0_t17_loop.ub k0_t17_loop.st k0_t17_ok init
      (k0_t17_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v871_5 v871_6 v871_7 v901) where
  inv l acc := iprop(((s5).view.loc (thrOf d L) ↦{fullShare} fb) ∗ ⌜acc = accsAt fb 3 l⌝)
  step l acc := by
    iintro ⟨HB, %hacc⟩
    subst hacc
    unfold Gen.k0_t17_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScChunkVal.lean ====
/-
  A chunk of the pooled array, as the 16 × 128 staging scratch holds it before it is copied out.

  Gather g = 4 k + b of stretch r fills a [200, 128] row buffer; its four segments of fifty rows are averaged into rows
  4 b + 0 … 4 b + 3 of the scratch. When all four slots b of chunk k are done, row i of the scratch (i = 4 b + s') is,
  column by column, the pooled array's entry at plane r, row 128 w + 16 k + i (w the worker's number): the scratch is
  rows 16 k … 16 k + 15 of the worker's 128 rows of plane r.
-/
import proofs.«207262_g39728447488703_cont_8to1_b_1934_40_alg».proof.Proof.B_ScTileVal

noncomputable section

namespace Cert.Kernel.Sc

open Cert.Kernel Cert.Kernel.Gen
open Idealize.ShloMosaic Idealize.ShloMosaic.ValueIdx

variable {F : FTy → Type} [FloatOps F]
variable (m : (ℓ : Loc nD τ sig) → Buf (Elt F) ℓ)

/-- The value the row buffer of gather 4 k + b of stretch r holds at (ρ, e): entry e of the row of plane r's table that
    word 200 (4 k + b) + ρ of the stretch names. -/
def rowVal (d : Dev nD) (L : grid0.Coords) (ta tb tc : S100000x128.Idx → F .f32) (r : Fin 3) (k : Fin 8) (b : Fin 4)
    (ρ : ℕ) (e : Fin 128) : F .f32 :=
  tblAt (tblSel ta tb tc r) (idxBufAt m d L r (200 * (4 * k.val + b.val) + ρ)).toNat e

/-- The mean of segment s' of that row buffer is the pooled array's entry at row segRow. -/
theorem seg_mean_rowVal (d : Dev nD) (L : grid0.Coords) (ta tb tc : S100000x128.Idx → F .f32) (r : Fin 3) (k : Fin 8)
    (b s' : Fin 4) (e : Fin 128) :
    meanOf (fun l => rowVal m d L ta tb tc r k b (50 * s'.val + l) e)
      = pooledOf (F := F) (m (iLoc d)) ta tb tc (ix3 r (segRow L k b s') e) := by
  rw [← seg_mean m d L ta tb tc r k b s' e]
  refine congrArg meanOf (funext fun l => ?_)
  unfold rowVal
  rw [Nat.add_assoc]

/-- The running sum reads only the rows it has taken. -/
theorem accN_congr {row row' : ℕ → F .f32} (k : ℕ) (h : ∀ l, l < 2 * k → row l = row' l) : accN row k = accN row' k := by
  induction k with
  | zero => rfl
  | succ k ih =>
    show FloatOps.addf (FloatOps.addf (accN row k) (row (2 * k))) (row (2 * k + 1))
      = FloatOps.addf (FloatOps.addf (accN row' k) (row' (2 * k))) (row' (2 * k + 1))
    rw [ih (fun l hl => h l (by omega)), h (2 * k) (by omega), h (2 * k + 1) (by omega)]

/-- A segment's mean reads only its fifty rows. -/
theorem meanOf_congr {row row' : ℕ → F .f32} (h : ∀ l, l < 50 → row l = row' l) : meanOf row = meanOf row' := by
  unfold meanOf
  rw [accN_congr 25 (fun l hl => h l (by omega))]

/-- The mean of ANY fifty rows that agree with segment s' of slot b's row buffer is the pooled array's entry. -/
theorem seg_mean_of_rows (d : Dev nD) (L : grid0.Coords) (ta tb tc : S100000x128.Idx → F .f32) (r : Fin 3) (k : Fin 8)
    (b s' : Fin 4) (e : Fin 128) (row : ℕ → F .f32)
    (hrow : ∀ l, l < 50 → row l = rowVal m d L ta tb tc r k b (50 * s'.val + l) e) :
    meanOf row = pooledOf (F := F) (m (iLoc d)) ta tb tc (ix3 r (segRow L k b s') e) :=
  (meanOf_congr hrow).trans (seg_mean_rowVal m d L ta tb tc r k b s' e)

/-- Row i of chunk k of worker L's rows. -/
theorem chunkRow_lt (L : grid0.Coords) (k : Fin 8) (i : Fin 16) :
    128 * (2 * (L 1).val + (L 0).val) + 16 * k.val + i.val < 4096 := by
  have h0 := L0_lt L
  have h1 := L1_lt L
  have := k.isLt; have := i.isLt
  omega

def chunkRow (L : grid0.Coords) (k : Fin 8) (i : Fin 16) : Fin 4096 :=
  ⟨128 * (2 * (L 1).val + (L 0).val) + 16 * k.val + i.val, chunkRow_lt L k i⟩

theorem chunkRow_val (L : grid0.Coords) (k : Fin 8) (i : Fin 16) :
    (chunkRow L k i).val = 128 * (2 * (L 1).val + (L 0).val) + 16 * k.val + i.val := rfl

/-- Segment s' of slot b is row 4 b + s' of the chunk. -/
theorem segRow_eq_chunkRow (L : grid0.Coords) (k : Fin 8) (b s' : Fin 4) (h : 4 * b.val + s'.val < 16) :
    segRow L k b s' = chunkRow L k ⟨4 * b.val + s'.val, h⟩ := by
  apply Fin.ext
  rw [segRow_val, chunkRow_val]
  show _ = 128 * (2 * (L 1).val + (L 0).val) + 16 * k.val + (4 * b.val + s'.val)
  omega

theorem slot_row_lt (b s' : Fin 4) : 4 * b.val + s'.val < 16 := by
  have := b.isLt; have := s'.isLt; omega

/-- THE CHUNK: a 16 × 128 scratch whose row 4 b + s' is, column by column, the pooled array's entry for segment s' of slot
    b, is rows 16 k … 16 k + 15 of worker L's rows of plane r of the pooled array. -/
theorem chunk_value (d : Dev nD) (L : grid0.Coords) (ta tb tc : S100000x128.Idx → F .f32) (r : Fin 3) (k : Fin 8)
    (sc : S16x128.Idx → F .f32)
    (hsc : ∀ (b s' : Fin 4) (e : Fin 128),
      sc (ix2 (⟨4 * b.val + s'.val, slot_row_lt b s'⟩ : Fin 16) e)
        = pooledOf (F := F) (m (iLoc d)) ta tb tc (ix3 r (segRow L k b s') e))
    (i : Fin 16) (e : Fin 128) :
    sc (ix2 i e) = pooledOf (F := F) (m (iLoc d)) ta tb tc (ix3 r (chunkRow L k i) e) := by
  have hi := i.isLt
  have hb : i.val / 4 < 4 := by omega
  have hs : i.val % 4 < 4 := by omega
  have hrow : (⟨4 * (⟨i.val / 4, hb⟩ : Fin 4).val + (⟨i.val % 4, hs⟩ : Fin 4).val, slot_row_lt _ _⟩ : Fin 16) = i := by
    apply Fin.ext
    show 4 * (i.val / 4) + i.val % 4 = i.val
    omega
  have h := hsc ⟨i.val / 4, hb⟩ ⟨i.val % 4, hs⟩ e
  rw [hrow, segRow_eq_chunkRow L k _ _ (slot_row_lt _ _), hrow] at h
  exact h

/-- The same from the means: row 4 b + s' of the scratch the mean of fifty rows agreeing with segment s' of slot b. -/
theorem chunk_value_of_means (d : Dev nD) (L : grid0.Coords) (ta tb tc : S100000x128.Idx → F .f32) (r : Fin 3) (k : Fin 8)
    (sc : S16x128.Idx → F .f32) (row : Fin 4 → Fin 4 → Fin 128 → ℕ → F .f32)
    (hrow : ∀ (b s' : Fin 4) (e : Fin 128) (l : ℕ), l < 50 → row b s' e l = rowVal m d L ta tb tc r k b (50 * s'.val + l) e)
    (hsc : ∀ (b s' : Fin 4) (e : Fin 128), sc (ix2 (⟨4 * b.val + s'.val, slot_row_lt b s'⟩ : Fin 16) e) = meanOf (row b s' e))
    (i : Fin 16) (e : Fin 128) :
    sc (ix2 i e) = pooledOf (F := F) (m (iLoc d)) ta tb tc (ix3 r (chunkRow L k i) e) :=
  chunk_value m d L ta tb tc r k sc
    (fun b s' e => (hsc b s' e).trans (seg_mean_of_rows m d L ta tb tc r k b s' e _ (hrow b s' e))) i e

end Cert.Kernel.Sc

end
-- ==== Proof.B_ScTripVal.lean ====
/-
  The values a chunk-loop trip meets, stated over the ring's own terms.

  A row buffer that a gather of block g = 4 k + b of an index buffer holding stretch r has landed in reads, at row
  50 s' + l (l < 50) and lane i of column block j, entry 16 j + i of the row of plane r's table that word
  200 (4 k + b) + 50 s' + l of the stretch names. The payload of a lane store — a column block of a segment's running
  sum after 25 steps, times the reciprocal of fifty, as a 1 × 16 vector — is at lane i the segment's mean at column
  16 j + i, hence an entry of the pooled array. A chunk of the pooled array, as the program slices and squeezes it,
  places (i, e) at (plane, first row of the chunk + i, e); two contents that read alike through it are held alike on it.
-/
import proofs.«207262_g39728447488703_cont_8to1_b_1934_40_alg».proof.Proof.B_ScRing
import proofs.«207262_g39728447488703_cont_8to1_b_1934_40_alg».proof.Proof.B_ScRedLib
import proofs.«207262_g39728447488703_cont_8to1_b_1934_40_alg».proof.Proof.B_ScChunkVal
import Idealize.ShloMosaic.Lib.ValueLayout

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-! ## What a landed row buffer reads -/

section Landed

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (hX : IdxOK d L sK X)

/-- Block g's gathered rows, entry by entry: over an index buffer that reads as stretch r and a table that reads as
    `tb`, entry (ρ, e) is entry e of `tb`'s row named by word 200 g + ρ of the stretch. -/
theorem gathered_val (tb : S100000x128.Idx → F .f32) (hT : tV.view.read (Elt F) T = tb) (r : Fin 3)
    (hXr : sK.view.read (Elt F) X = idxBuf m d L r) (g : Fin 32) (ρ : Fin 200) (e : Fin 128) :
    gathered d L tV T sK X hX g (ix2 ρ e) = tblAt tb (idxBufAt m d L r (200 * g.val + ρ.val)).toNat e :=
  gathered_row m d L r gathers_S100000x128_S200x128 tV T tb hT inb_S100000x128_S100000x128_0_0 sK X hXr (200 * g.val)
    (blkOff_inb g) rfl (hX g) ρ e

/-- A landed row buffer reads as the gathered rows, whatever it held before. -/
theorem landed_read (sR : Memref sig .scVector .vmem S200x128 .f32) (g : Fin 32) (f : Buf (Elt F) (sR.view.loc (thrOf d L)))
    (x : S200x128.Idx) :
    sR.view.read (Elt F) (landed d L tV T sK X hX sR g f) x = gathered d L tV T sK X hX g x :=
  read_writes_whole sR.view f _ [] x

/-- ROW 50 s' + l, LANE i OF COLUMN BLOCK j of the row buffer landed with block 4 k + b of stretch r. -/
theorem rowAt_landed (ta tb tc : S100000x128.Idx → F .f32) (r : Fin 3) (hT : tV.view.read (Elt F) T = tblSel ta tb tc r)
    (hXr : sK.view.read (Elt F) X = idxBuf m d L r)
    (sR : Memref sig .scVector .vmem S200x128 .f32) (f : Buf (Elt F) (sR.view.loc (thrOf d L)))
    (k : Fin 8) (b s' : Fin 4) (j : Fin 8) (lane : S16.Idx) (l : ℕ) (hl : l < 50)
    (hcol : 16 * j.val + (lane 0).val < 128) :
    rowAt (sR.view.read (Elt F) (landed d L tV T sK X hX sR (Ring.bk 32 (4 * k.val + b.val)) f)) (50 * s'.val + l) (16 * j.val) lane
      = rowVal m d L ta tb tc r k b (50 * s'.val + l) ⟨16 * j.val + (lane 0).val, hcol⟩ := by
  have hk := k.isLt; have hb := b.isLt; have hs := s'.isLt
  have h1 : 50 * s'.val + l < 200 := by omega
  rw [rowAt_eq _ _ _ _ h1 hcol, landed_read, gathered_val m d L tV T sK X hX _ hT r hXr]
  unfold rowVal
  rw [bk32_val (by omega)]

theorem col_lt (j : Fin 8) (lane : S16.Idx) : 16 * j.val + (lane 0).val < 128 := by
  have := j.isLt; have : (lane 0).val < 16 := (lane 0).isLt; omega

end Landed

/-! ## A lane store's payload -/

/-- The stored 1 × 16 vector at lane i: the column block's running sum after 25 steps at that lane, times the constant. -/
theorem lane_store_val (fb : S200x128.Idx → F .f32) (s' j : ℕ) (c : F .f32) (u : Fin 1) (i : Fin 16) :
    shapeCast S1x16 (mulf (accBlk fb s' j 25) (broadcast S16 c)) shapeCasts_S16_S1x16 (ix2 u i)
      = FloatOps.mulf (accN (fun l => rowAt fb (50 * s' + l) (16 * j) (ix1 i)) 25) c :=
  (shapeCast_a_1a_apply _ shapeCasts_S16_S1x16 u i).trans rfl

/-- With the reciprocal of fifty it is the segment's mean at that lane. -/
theorem lane_store_mean (fb : S200x128.Idx → F .f32) (s' j : ℕ) (c : F .f32) (hc : c = Scalar.ofBits .f32 0x3CA3D70A#32)
    (u : Fin 1) (i : Fin 16) :
    shapeCast S1x16 (mulf (accBlk fb s' j 25) (broadcast S16 c)) shapeCasts_S16_S1x16 (ix2 u i)
      = meanOf (fun l => rowAt fb (50 * s' + l) (16 * j) (ix1 i)) := by
  subst hc
  exact lane_store_val fb s' j _ u i

section Stored

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (hX : IdxOK d L sK X)

/-- THE LANE STORE'S VALUE: over the row buffer landed with block 4 k + b of stretch r, the stored vector of segment s',
    column block j is at lane i the pooled array's entry at plane r, row segRow, column 16 j + i. -/
theorem lane_store_pooled (ta tb tc : S100000x128.Idx → F .f32) (r : Fin 3) (hT : tV.view.read (Elt F) T = tblSel ta tb tc r)
    (hXr : sK.view.read (Elt F) X = idxBuf m d L r)
    (sR : Memref sig .scVector .vmem S200x128 .f32) (f : Buf (Elt F) (sR.view.loc (thrOf d L)))
    (k : Fin 8) (b s' : Fin 4) (j : Fin 8) (c : F .f32) (hc : c = Scalar.ofBits .f32 0x3CA3D70A#32) (u : Fin 1) (i : Fin 16) :
    shapeCast S1x16 (mulf (accBlk (sR.view.read (Elt F) (landed d L tV T sK X hX sR (Ring.bk 32 (4 * k.val + b.val)) f)) s'.val j.val 25)
        (broadcast S16 c)) shapeCasts_S16_S1x16 (ix2 u i)
      = pooledOf (F := F) (m (iLoc d)) ta tb tc (ix3 r (segRow L k b s') (⟨16 * j.val + i.val, col_lt j (ix1 i)⟩ : Fin 128)) := by
  rw [lane_store_mean _ _ _ c hc u i]
  exact seg_mean_of_rows m d L ta tb tc r k b s' _ _
    (fun l hl => rowAt_landed m d L tV T sK X hX ta tb tc r hT hXr sR f k b s' j (ix1 i) l hl (col_lt j (ix1 i)))

/-- The chunk's pooled rows as a 16 × 128 array: (i, e) is the pooled array's entry at plane r, row i of chunk k of worker
    L's rows, column e. -/
def chunkG (ta tb tc : S100000x128.Idx → F .f32) (r : Fin 3) (k : Fin 8) : S16x128.Idx → F .f32 :=
  fun y => pooledOf (F := F) (m (iLoc d)) ta tb tc (ix3 r (chunkRow L k (y 0)) (y 1))

theorem chunkG_ix2 (ta tb tc : S100000x128.Idx → F .f32) (r : Fin 3) (k : Fin 8) (i : Fin 16) (e : Fin 128) :
    chunkG m d L ta tb tc r k (ix2 i e) = pooledOf (F := F) (m (iLoc d)) ta tb tc (ix3 r (chunkRow L k i) e) := rfl

/-- ONE LANE STORE IS A PIECE OF THE CHUNK: the stored vector of segment s' of slot b, column block j, through the 1 × 16
    rectangle at row 4 b + s', column 16 j of the scratch, is the chunk's pooled rows there. -/
theorem piece_ok (ta tb tc : S100000x128.Idx → F .f32) (r : Fin 3) (hT : tV.view.read (Elt F) T = tblSel ta tb tc r)
    (hXr : sK.view.read (Elt F) X = idxBuf m d L r)
    (sR : Memref sig .scVector .vmem S200x128 .f32) (f : Buf (Elt F) (sR.view.loc (thrOf d L)))
    (k : Fin 8) (b s' : Fin 4) (j : Fin 8) (kn bn : ℕ) (hkn : kn = k.val) (hbn : bn = b.val) (n : ℕ) (hn : n = 25) (c : F .f32) (hc : c = Scalar.ofBits .f32 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (sR.view.read (Elt F) (landed d L tV T sK X hX sR (Ring.bk 32 (4 * kn + bn)) f)) s'.val j.val n)
        (broadcast S16 c)) shapeCasts_S16_S1x16 x
      = chunkG m d L ta tb tc r k ((Rect.unit (s := S16x128) off S1x16.size inb).emb x) := by
  subst hn hkn hbn
  obtain ⟨u, i, rfl⟩ : ∃ (u : Fin 1) (i : Fin 16), x = ix2 u i := ⟨x 0, x 1, eq_ix2 x⟩
  rw [lane_store_pooled m d L tV T sK X hX ta tb tc r hT hXr sR f k b s' j c hc u i]
  unfold chunkG
  refine congrArg (pooledOf (F := F) (m (iLoc d)) ta tb tc) ?_
  have hu : u.val = 0 := by omega
  funext a
  match a with
  | ⟨0, _⟩ => rfl
  | ⟨1, _⟩ =>
    apply Fin.ext
    show 128 * (2 * (L 1).val + (L 0).val) + 16 * k.val + 4 * b.val + s'.val
      = 128 * (2 * (L 1).val + (L 0).val) + 16 * k.val + (off 0 + 1 * u.val)
    omega
  | ⟨2, _⟩ =>
    apply Fin.ext
    show 16 * j.val + i.val = off 1 + 1 * i.val
    omega

/-- The same with the row buffer s2 held whole, its contents spelt as the run leaves them. -/
theorem piece_ok_s2 (ta tb tc : S100000x128.Idx → F .f32) (r : Fin 3) (hT : tV.view.read (Elt F) T = tblSel ta tb tc r)
    (hXr : sK.view.read (Elt F) X = idxBuf m d L r) (f : Buf (Elt F) ((s2).view.loc (thrOf d L)))
    (k : Fin 8) (b s' : Fin 4) (j : Fin 8) (kn bn : ℕ) (hkn : kn = k.val) (hbn : bn = b.val) (n : ℕ) (hn : n = 25) (c : F .f32) (hc : c = Scalar.ofBits .f32 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s2 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s2 f k b s' j kn bn hkn hbn n hn c hc off h0 h1 inb x

/-- The same with the row buffer s3 held whole, its contents spelt as the run leaves them. -/
theorem piece_ok_s3 (ta tb tc : S100000x128.Idx → F .f32) (r : Fin 3) (hT : tV.view.read (Elt F) T = tblSel ta tb tc r)
    (hXr : sK.view.read (Elt F) X = idxBuf m d L r) (f : Buf (Elt F) ((s3).view.loc (thrOf d L)))
    (k : Fin 8) (b s' : Fin 4) (j : Fin 8) (kn bn : ℕ) (hkn : kn = k.val) (hbn : bn = b.val) (n : ℕ) (hn : n = 25) (c : F .f32) (hc : c = Scalar.ofBits .f32 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s3 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s3 f k b s' j kn bn hkn hbn n hn c hc off h0 h1 inb x

/-- The same with the row buffer s4 held whole, its contents spelt as the run leaves them. -/
theorem piece_ok_s4 (ta tb tc : S100000x128.Idx → F .f32) (r : Fin 3) (hT : tV.view.read (Elt F) T = tblSel ta tb tc r)
    (hXr : sK.view.read (Elt F) X = idxBuf m d L r) (f : Buf (Elt F) ((s4).view.loc (thrOf d L)))
    (k : Fin 8) (b s' : Fin 4) (j : Fin 8) (kn bn : ℕ) (hkn : kn = k.val) (hbn : bn = b.val) (n : ℕ) (hn : n = 25) (c : F .f32) (hc : c = Scalar.ofBits .f32 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s4 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s4 f k b s' j kn bn hkn hbn n hn c hc off h0 h1 inb x

/-- The same with the row buffer s5 held whole, its contents spelt as the run leaves them. -/
theorem piece_ok_s5 (ta tb tc : S100000x128.Idx → F .f32) (r : Fin 3) (hT : tV.view.read (Elt F) T = tblSel ta tb tc r)
    (hXr : sK.view.read (Elt F) X = idxBuf m d L r) (f : Buf (Elt F) ((s5).view.loc (thrOf d L)))
    (k : Fin 8) (b s' : Fin 4) (j : Fin 8) (kn bn : ℕ) (hkn : kn = k.val) (hbn : bn = b.val) (n : ℕ) (hn : n = 25) (c : F .f32) (hc : c = Scalar.ofBits .f32 0x3CA3D70A#32)
    (off : Fin 2 → ℕ) (h0 : off 0 = 4 * b.val + s'.val) (h1 : off 1 = 16 * j.val)
    (inb : ∀ a, off a + S1x16.size a ≤ S16x128.size a) (x : S1x16.Idx) :
    shapeCast S1x16 (mulf (accBlk (landed d L tV T sK X hX s5 (Ring.bk 32 (4 * kn + bn)) f) s'.val j.val n)
        (broadcast S16 c)) shapeCasts_S16_S1x16 x
      = chunkG m d L ta tb tc r k ((Rect.unit (s := S16x128) off S1x16.size inb).emb x) :=
  piece_ok m d L tV T sK X hX ta tb tc r hT hXr s5 f k b s' j kn bn hkn hbn n hn c hc off h0 h1 inb x

end Stored

/-- A scratch that reads as the chunk's pooled rows holds them entry by entry (the form the copy-out's value takes). -/
theorem chunkG_form (d : Dev nD) (L : grid0.Coords) (ta tb tc : S100000x128.Idx → F .f32) (r : Fin 3) (k : Fin 8)
    (sc : S16x128.Idx → F .f32) (h : ∀ y, sc y = chunkG m d L ta tb tc r k y) (i : Fin 16) (e : Fin 128) :
    sc (ix2 i e) = pooledOf (F := F) (m (iLoc d)) ta tb tc (ix3 r (chunkRow L k i) e) := h (ix2 i e)

/-- THE SCRATCH AFTER A CHUNK'S STORES: a list of stores through rectangles of the 16 × 128 scratch, each storing the
    chunk's pooled rows where it lands and together covering the scratch, leaves the chunk's pooled rows. (The cover of a
    literal list whose rectangles tile the scratch in 1 × 16 blocks is `View.cover_of_tiled Ls S1x16.size rfl`.) -/
theorem scratch_read (d : Dev nD) (L : grid0.Coords) (ta tb tc : S100000x128.Idx → F .f32) (r : Fin 3) (k : Fin 8)
    (sM : Memref sig .scVector .vmem S16x128 .f32) (f6 : sM.view.ty.Contents (Elt F)) (Ls : List (View.Piece (Elt F) S16x128 .f32))
    (hG : ∀ p ∈ Ls, ∀ x : p.1.shape.Idx, p.2 x = chunkG m d L ta tb tc r k (p.1.emb x))
    (hcov : ∀ y : S16x128.Idx, ∃ p ∈ Ls, y ∈ p.1.set) (y : S16x128.Idx) :
    sM.view.read (Elt F) (sM.view.writes (Elt F) f6 Ls) y = chunkG m d L ta tb tc r k y :=
  View.read_writes_apply_of_pieces sM.view f6 _ Ls hG y (hcov y)

/-! ## A chunk of the pooled array, as the program slices and squeezes it -/

/-- Where the chunk's view places (i, e): plane t, row i of chunk c of worker L's rows, column e. -/
theorem outCh_emb_ix2 (L : grid0.Coords) (t : Fin 3) (c : Fin 8) (i : Fin 16) (e : Fin 128) :
    (outCh L t c).view.emb (ix2 i e) = ix3 t (chunkRow L c i) e := by
  show (Rect.unit (s := S3x4096x128) (outOff L t c) S1x16x128.size (outOff_inb L t c)).emb
    (Shape.reshapeEquiv squeezes_S1x16x128_S16x128.numel_eq (ix2 i e)) = _
  rw [reshapeEquiv_ix2_1ab]
  funext a
  apply Fin.ext
  match a with
  | ⟨0, _⟩ => show t.val + 1 * 0 = t.val; omega
  | ⟨1, _⟩ =>
    show 256 * (L 1).val + 128 * (L 0).val + 16 * c.val + 1 * i.val = 128 * (2 * (L 1).val + (L 0).val) + 16 * c.val + i.val
    omega
  | ⟨2, _⟩ => show 0 + 1 * e.val = e.val; omega

theorem outCh_emb (L : grid0.Coords) (t : Fin 3) (c : Fin 8) (x : S16x128.Idx) :
    (outCh L t c).view.emb x = ix3 t (chunkRow L c (x 0)) (x 1) := by
  obtain ⟨i, e, rfl⟩ : ∃ (i : Fin 16) (e : Fin 128), x = ix2 i e := ⟨x 0, x 1, eq_ix2 x⟩
  exact outCh_emb_ix2 L t c i e

/-- Reading through the chunk. -/
theorem outCh_read (d : Dev nD) (L : grid0.Coords) (t : Fin 3) (c : Fin 8) (f : Buf (Elt F) (oLoc d)) (x : S16x128.Idx) :
    (outCh L t c).view.read (Elt F) f x = f (ix3 t (chunkRow L c (x 0)) (x 1)) :=
  ((View.read_apply _ _).trans (cast_eq _ _)).trans (congrArg f (outCh_emb L t c x))

/-- Contents that read alike through the chunk are held alike on it. -/
theorem outCh_congr_read (d : Dev nD) (L : grid0.Coords) (t : Fin 3) (c : Fin 8) (f g : Buf (Elt F) (oLoc d))
    (h : ∀ x, (outCh L t c).view.read (Elt F) f x = (outCh L t c).view.read (Elt F) g x) :
    ((outCh L t c).view.loc (thrOf d L) ↦[(outCh L t c).view.set]{fullShare} f : sProp 𝕄)
      = (outCh L t c).view.loc (thrOf d L) ↦[(outCh L t c).view.set]{fullShare} g := by
  refine pointsTo_congr fun i hi => ?_
  obtain ⟨x, -, rfl⟩ := Finset.mem_map.mp hi
  have hx := h x
  rw [outCh_read, outCh_read] at hx
  rw [outCh_emb]
  exact hx

/-- THE COPY-OUT'S VALUE: contents that read, through chunk c of plane t, as a scratch holding the chunk's pooled rows
    are held on the chunk as the pooled array. -/
theorem outCh_pooled (d : Dev nD) (L : grid0.Coords) (t : Fin 3) (c : Fin 8) (f : Buf (Elt F) (oLoc d))
    (sc : S16x128.Idx → F .f32) (hf : ∀ x, (outCh L t c).view.read (Elt F) f x = sc x)
    (hsc : ∀ (i : Fin 16) (e : Fin 128), sc (ix2 i e) = pooledArr m d (ix3 t (chunkRow L c i) e)) :
    ((outCh L t c).view.loc (thrOf d L) ↦[(outCh L t c).view.set]{fullShare} f : sProp 𝕄)
      = (outCh L t c).view.loc (thrOf d L) ↦[(outCh L t c).view.set]{fullShare} pooledArr m d := by
  refine outCh_congr_read d L t c f (pooledArr m d) fun x => ?_
  obtain ⟨i, e, rfl⟩ : ∃ (i : Fin 16) (e : Fin 128), x = ix2 i e := ⟨x 0, x 1, eq_ix2 x⟩
  rw [hf, outCh_read]
  exact hsc i e

/-- THE COPY-OUT, in the form the run leaves it: the chunk written whole with a payload that is the chunk's pooled rows is
    held as the pooled array on the chunk. -/
theorem copyout_pooled (d : Dev nD) (L : grid0.Coords) (t : Fin 3) (c : Fin 8) (fo : Buf (Elt F) (oLoc d))
    (P : S16x128.Idx → F .f32) (hP : ∀ y, P y = chunkG m d L (m (aLoc d)) (m (bLoc d)) (m (cLoc d)) t c y) :
    ((outCh L t c).view.loc (thrOf d L) ↦[(outCh L t c).view.set]{fullShare}
        (outCh L t c).view.writes (Elt F) fo [⟨Rect.whole S16x128, P⟩] : sProp 𝕄)
      = (outCh L t c).view.loc (thrOf d L) ↦[(outCh L t c).view.set]{fullShare} pooledArr m d :=
  outCh_pooled m d L t c _ P (fun x => read_writes_whole (outCh L t c).view fo P [] x) (fun i e => hP (ix2 i e))

end Cert.Kernel.Sc

end
-- ==== Proof.B_ScTripClose.lean ====
/-
  The closing of a chunk-loop trip: from what the run leaves — the 16 × 128 scratch written by the chunk's 128 lane
  stores, and the chunk of the pooled array written whole with the scratch's read — to the chunk held at the pooled
  array.

  Each lane store is a piece of the chunk's pooled rows (its row 4 b + s' and column block j read off the store's own
  rectangle and running sum, as natural numbers); the 128 rectangles tile the scratch; so the scratch reads as the
  chunk's pooled rows, and the chunk, written with them, is held as the pooled array on its own elements.
-/
import proofs.«207262_g39728447488703_cont_8to1_b_1934_40_alg».proof.Proof.B_ScTripVal

noncomputable section

namespace Cert.Kernel.Sc

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-! ## One lane store, its slot, segment and column block given as numbers -/

section Pieces

variable (d : Dev nD) (L : grid0.Coords)
  (tV : Memref sig .scVector .hbm S100000x128 .f32) (T : Buf (Elt F) (tV.view.loc (thrOf d L)))
  (sK : Memref sig .scVector .vmem S6400 .i32) (X : Buf (Elt F) (sK.view.loc (thrOf d L)))
  (hX : IdxOK d L sK X)

theorem piece_nat_s2 (ta tb tc : S100000x128.Idx → F .f32) (r : Fin 3) (hT : tV.view.read (Elt F) T = tblSel ta tb tc r)
    (hXr : sK.view.read (Elt F) X = idxBuf m d L r) (f : Buf (Elt F) ((s2).view.loc (thrOf d L)))
    (k : Fin 8) (kn bn sn jn : ℕ) (hkn : kn = k.val) (hb : bn < 4) (hs : sn < 4) (hj : jn < 8) (n : ℕ) (hn : n = 25)
    (c : F .f32) (hc : c = Scalar.ofBits .f32 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s2 (Ring.bk 32 (4 * kn + bn)) f) sn jn n)
        (broadcast S16 c)) shapeCasts_S16_S1x16 x
      = chunkG m d L ta tb tc r k ((Rect.unit (s := S16x128) off S1x16.size inb).emb x) :=
  piece_ok_s2 m d L tV T sK X hX ta tb tc r hT hXr f k ⟨bn, hb⟩ ⟨sn, hs⟩ ⟨jn, hj⟩ kn bn hkn rfl n hn c hc off h0 h1 inb x

theorem piece_nat_s3 (ta tb tc : S100000x128.Idx → F .f32) (r : Fin 3) (hT : tV.view.read (Elt F) T = tblSel ta tb tc r)
    (hXr : sK.view.read (Elt F) X = idxBuf m d L r) (f : Buf (Elt F) ((s3).view.loc (thrOf d L)))
    (k : Fin 8) (kn bn sn jn : ℕ) (hkn : kn = k.val) (hb : bn < 4) (hs : sn < 4) (hj : jn < 8) (n : ℕ) (hn : n = 25)
    (c : F .f32) (hc : c = Scalar.ofBits .f32 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s3 (Ring.bk 32 (4 * kn + bn)) f) sn jn n)
        (broadcast S16 c)) shapeCasts_S16_S1x16 x
      = chunkG m d L ta tb tc r k ((Rect.unit (s := S16x128) off S1x16.size inb).emb x) :=
  piece_ok_s3 m d L tV T sK X hX ta tb tc r hT hXr f k ⟨bn, hb⟩ ⟨sn, hs⟩ ⟨jn, hj⟩ kn bn hkn rfl n hn c hc off h0 h1 inb x

theorem piece_nat_s4 (ta tb tc : S100000x128.Idx → F .f32) (r : Fin 3) (hT : tV.view.read (Elt F) T = tblSel ta tb tc r)
    (hXr : sK.view.read (Elt F) X = idxBuf m d L r) (f : Buf (Elt F) ((s4).view.loc (thrOf d L)))
    (k : Fin 8) (kn bn sn jn : ℕ) (hkn : kn = k.val) (hb : bn < 4) (hs : sn < 4) (hj : jn < 8) (n : ℕ) (hn : n = 25)
    (c : F .f32) (hc : c = Scalar.ofBits .f32 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s4 (Ring.bk 32 (4 * kn + bn)) f) sn jn n)
        (broadcast S16 c)) shapeCasts_S16_S1x16 x
      = chunkG m d L ta tb tc r k ((Rect.unit (s := S16x128) off S1x16.size inb).emb x) :=
  piece_ok_s4 m d L tV T sK X hX ta tb tc r hT hXr f k ⟨bn, hb⟩ ⟨sn, hs⟩ ⟨jn, hj⟩ kn bn hkn rfl n hn c hc off h0 h1 inb x

theorem piece_nat_s5 (ta tb tc : S100000x128.Idx → F .f32) (r : Fin 3) (hT : tV.view.read (Elt F) T = tblSel ta tb tc r)
    (hXr : sK.view.read (Elt F) X = idxBuf m d L r) (f : Buf (Elt F) ((s5).view.loc (thrOf d L)))
    (k : Fin 8) (kn bn sn jn : ℕ) (hkn : kn = k.val) (hb : bn < 4) (hs : sn < 4) (hj : jn < 8) (n : ℕ) (hn : n = 25)
    (c : F .f32) (hc : c = Scalar.ofBits .f32 0x3CA3D70A#32)
    (off : Fin 2 → ℕ) (h0 : off 0 = 4 * bn + sn) (h1 : off 1 = 16 * jn)
    (inb : ∀ a, off a + S1x16.size a ≤ S16x128.size a) (x : S1x16.Idx) :
    shapeCast S1x16 (mulf (accBlk (landed d L tV T sK X hX s5 (Ring.bk 32 (4 * kn + bn)) f) sn jn n)
        (broadcast S16 c)) shapeCasts_S16_S1x16 x
      = chunkG m d L ta tb tc r k ((Rect.unit (s := S16x128) off S1x16.size inb).emb x) :=
  piece_ok_s5 m d L tV T sK X hX ta tb tc r hT hXr f k ⟨bn, hb⟩ ⟨sn, hs⟩ ⟨jn, hj⟩ kn bn hkn rfl n hn c hc off h0 h1 inb x

end Pieces

/-! ## The closing -/

/-- THE TRIP'S VALUE: the chunk written whole with the read of a scratch whose stores are pieces of the chunk's pooled
    rows and cover it is the chunk held at the pooled array. -/
theorem trip_close (d : Dev nD) (L : grid0.Coords) (t : Fin 3) (c : Fin 8)
    (sM : Memref sig .scVector .vmem S16x128 .f32) (f6 : sM.view.ty.Contents (Elt F))
    (Ls : List (View.Piece (Elt F) S16x128 .f32)) (fo : Buf (Elt F) (oLoc d))
    (hG : ∀ p ∈ Ls, ∀ x : p.1.shape.Idx, p.2 x = chunkG m d L (m (aLoc d)) (m (bLoc d)) (m (cLoc d)) t c (p.1.emb x))
    (hcov : ∀ y : S16x128.Idx, ∃ p ∈ Ls, y ∈ p.1.set)
    (P : S16x128.Idx → F .f32) (hP : P = sM.view.read (Elt F) (sM.view.writes (Elt F) f6 Ls)) :
    ((outCh L t c).view.loc (thrOf d L) ↦[(outCh L t c).view.set]{fullShare}
        (outCh L t c).view.writes (Elt F) fo [⟨Rect.whole S16x128, P⟩] : sProp 𝕄)
      = chunkP d L t c (pooledArr m d) := by
  subst hP
  exact copyout_pooled m d L t c fo _
    (fun y => scratch_read m d L (m (aLoc d)) (m (bLoc d)) (m (cLoc d)) t c sM f6 Ls hG hcov y)

/-- Peels a literal list of lane stores: each piece by the slot's lemma (the four given, in slot order, each already
    applied up to its table and index-buffer facts), its numbers read off the piece; `k` the chunk, `hk` that the
    trip's number is the chunk's. Leaves the first piece it cannot match as the goal. -/
macro "sc_pieces " p2:term:max p3:term:max p4:term:max p5:term:max k:term:max hk:term:max : tactic =>
  `(tactic| (
    repeat
      (refine List.forall_mem_cons.2 ⟨?_, ?_⟩
       · intro x
         first
         | exact $p2 _ $k _ _ _ _ $hk (by decide) (by decide) (by decide) _ (by decide) _ (by rfl) _ (by rfl) (by rfl) (by decide) x
         | exact $p3 _ $k _ _ _ _ $hk (by decide) (by decide) (by decide) _ (by decide) _ (by rfl) _ (by rfl) (by rfl) (by decide) x
         | exact $p4 _ $k _ _ _ _ $hk (by decide) (by decide) (by decide) _ (by decide) _ (by rfl) _ (by rfl) (by rfl) (by decide) x
         | exact $p5 _ $k _ _ _ _ $hk (by decide) (by decide) (by decide) _ (by decide) _ (by rfl) _ (by rfl) (by rfl) (by decide) x)
    intro p hp
    cases hp))

end Cert.Kernel.Sc

end
-- ==== Proof.B_ScPhase0Lt.lean ====
/-
  A trip of the first chunk loop below its last.

  Before trip k < 7 the four ring slots are in flight with streams 4 k … 4 k + 3 of the first table over the first
  index buffer. The trip waits for each slot in turn, sums the four segments of its two hundred rows two rows a step,
  stores each sum times the reciprocal of fifty into a row of the 16 × 128 scratch, and re-fires the slot with stream
  4 k + b + 4; then it copies the scratch out to chunk k of plane 0. After it the four slots are in flight with streams
  4 (k + 1) … 4 (k + 1) + 3, the four blocks just read are home again, and chunk k holds the pooled rows: every stored
  lane is a segment's mean, a segment's fifty rows are the table rows the index array names for one pooled row, and the
  128 lane stores tile the scratch.
-/
import proofs.«207262_g39728447488703_cont_8to1_b_1934_40_alg».proof.Proof.B_ScPhase0Defs
import proofs.«207262_g39728447488703_cont_8to1_b_1934_40_alg».proof.Proof.B_ScCanon
import proofs.«207262_g39728447488703_cont_8to1_b_1934_40_alg».proof.Proof.B_ScCanonSets
import proofs.«207262_g39728447488703_cont_8to1_b_1934_40_alg».proof.Proof.B_ScRed02
import proofs.«207262_g39728447488703_cont_8to1_b_1934_40_alg».proof.Proof.B_ScRed03
import proofs.«207262_g39728447488703_cont_8to1_b_1934_40_alg».proof.Proof.B_ScRed04
import proofs.«207262_g39728447488703_cont_8to1_b_1934_40_alg».proof.Proof.B_ScRed05
import proofs.«207262_g39728447488703_cont_8to1_b_1934_40_alg».proof.Proof.B_ScRed06
import proofs.«207262_g39728447488703_cont_8to1_b_1934_40_alg».proof.Proof.B_ScRed07
import proofs.«207262_g39728447488703_cont_8to1_b_1934_40_alg».proof.Proof.B_ScRed08
import proofs.«207262_g39728447488703_cont_8to1_b_1934_40_alg».proof.Proof.B_ScRed09
import proofs.«207262_g39728447488703_cont_8to1_b_1934_40_alg».proof.Proof.B_ScRed10
import proofs.«207262_g39728447488703_cont_8to1_b_1934_40_alg».proof.Proof.B_ScRed11
import proofs.«207262_g39728447488703_cont_8to1_b_1934_40_alg».proof.Proof.B_ScRed12
import proofs.«207262_g39728447488703_cont_8to1_b_1934_40_alg».proof.Proof.B_ScRed13
import proofs.«207262_g39728447488703_cont_8to1_b_1934_40_alg».proof.Proof.B_ScRed14
import proofs.«207262_g39728447488703_cont_8to1_b_1934_40_alg».proof.Proof.B_ScRed15
import proofs.«207262_g39728447488703_cont_8to1_b_1934_40_alg».proof.Proof.B_ScRed16
import proofs.«207262_g39728447488703_cont_8to1_b_1934_40_alg».proof.Proof.B_ScRed17
import proofs.«207262_g39728447488703_cont_8to1_b_1934_40_alg».proof.Proof.B_ScTripClose
import proofs.«207262_g39728447488703_cont_8to1_b_1934_40_alg».proof.Proof.Gen.Kernel.Skeleton

noncomputable section

namespace Cert.Kernel.Sc

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

set_option maxHeartbeats 32000000 in
/-- A trip below the last: the four slots land streams `4 k + b`, their segments are averaged into chunk `k`, each slot
    re-fires stream `4 k + b + 4` of the same table, and the chunk is copied out at the pooled value. -/
theorem trip_lt (hR0 : (s0).view.read (Elt F) X0 = idxBuf m d L 0) (k : Fin k0_t1_loop.trips) (hk : k.val < 7) (v2 : BitVec 32) :
    inv0 m d L q X0 hX0 X1 hX1 O W k.val
      ⊢ wp frame (wpE (defs₀ (F := F)) 𝒱₀ (thrOf d L) none) Set.univ
          (k0_t1_body L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5 v2 0#32 1#32 k ())
          (fun _ => inv0 m d L q X0 hX0 X1 hX1 O W (k.val + 1)) := by
  have h8 : k.val < 8 := by omega
  have h8' : k.val + 1 < 8 := by omega
  unfold inv0
  rw [if_pos h8, if_pos h8']
  unfold resAt ringAt
  simp only [slotAt, if_pos (show 4 * k.val + 0 < 32 by omega), if_pos (show 4 * k.val + 1 < 32 by omega),
    if_pos (show 4 * k.val + 2 < 32 by omega), if_pos (show 4 * k.val + 3 < 32 by omega),
    if_pos (show 4 * (k.val + 1) + 0 < 32 by omega), if_pos (show 4 * (k.val + 1) + 1 < 32 by omega),
    if_pos (show 4 * (k.val + 1) + 2 < 32 by omega), if_pos (show 4 * (k.val + 1) + 3 < 32 by omega)]
  rw [chunk_homes_here (homeP d L s0 X0) k.val hk, chunk_homes_next (homeP d L s0 X0) k.val hk,
    plane_here m d L 0 k.val h8, plane_next m d L 0 k.val h8]
  simp only [bk32_next]
  iintro ⟨⟨⟨⟨Hh0, Hh1, Hh2, Hh3, Hrest⟩, ⟨%f2, HF0, Hr0⟩, ⟨%f3, HF1, Hr1⟩, ⟨%f4, HF2, Hr2⟩, ⟨%f5, HF3, Hr3⟩⟩, ⟨%f6, H6⟩, Hc, ⟨⟨%fo, Ho⟩, Hpl⟩, Hmw, ⟨%W', %hW', HO⟩⟩, Hs1, Htb⟩
  have hin0 : ∀ x : S200.Idx, ((blk s0 (Ring.bk 32 (4 * k.val + 0 + 4))).view.read (Elt F) X0 x).toNat < 100000 := hX0 _
  have hin1 : ∀ x : S200.Idx, ((blk s0 (Ring.bk 32 (4 * k.val + 1 + 4))).view.read (Elt F) X0 x).toNat < 100000 := hX0 _
  have hin2 : ∀ x : S200.Idx, ((blk s0 (Ring.bk 32 (4 * k.val + 2 + 4))).view.read (Elt F) X0 x).toNat < 100000 := hX0 _
  have hin3 : ∀ x : S200.Idx, ((blk s0 (Ring.bk 32 (4 * k.val + 3 + 4))).view.read (Elt F) X0 x).toNat < 100000 := hX0 _
  have hc1 : k0_cond1 k = 1#1 := (cond1_iff k).mpr hk
  have hc3 : k0_cond3 k = 1#1 := (cond3_iff k).mpr hk
  have hc5 : k0_cond5 k = 1#1 := (cond5_iff k).mpr hk
  have hc7 : k0_cond7 k = 1#1 := (cond7_iff k).mpr hk
  have hn2 : ¬ k0_cond2 k = 1#1 := fun h => by have := (cond2_iff k).mp h; omega
  have hn4 : ¬ k0_cond4 k = 1#1 := fun h => by have := (cond4_iff k).mp h; omega
  have hn6 : ¬ k0_cond6 k = 1#1 := fun h => by have := (cond6_iff k).mp h; omega
  have hn8 : ¬ k0_cond8 k = 1#1 := fun h => by have := (cond8_iff k).mp h; omega
  clear hk h8 h8'
  unfold Gen.k0_t1_body
  sl_exec
  sl_step
  have hG : ∀ p ∈ trip_lt.sl.H6_128 m d L X0 hX0 k, ∀ x : p.1.shape.Idx,
      p.2 x = chunkG m d L (m (aLoc d)) (m (bLoc d)) (m (cLoc d)) 0 (Ring.bk 8 k.val) (p.1.emb x) := by
    sl_unfold_run_names
    have hk8 : k.val = (Ring.bk 8 k.val).val := (bk8_val (trips1 k)).symm
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 7 k.val 3 hk8 rfl _ k0_t17_trips _ rfl ![15, 112] rfl rfl inb_S16x128_S1x16_15_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 6 k.val 3 hk8 rfl _ k0_t17_trips _ rfl ![15, 96] rfl rfl inb_S16x128_S1x16_15_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 5 k.val 3 hk8 rfl _ k0_t17_trips _ rfl ![15, 80] rfl rfl inb_S16x128_S1x16_15_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 4 k.val 3 hk8 rfl _ k0_t17_trips _ rfl ![15, 64] rfl rfl inb_S16x128_S1x16_15_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 3 k.val 3 hk8 rfl _ k0_t17_trips _ rfl ![15, 48] rfl rfl inb_S16x128_S1x16_15_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 2 k.val 3 hk8 rfl _ k0_t17_trips _ rfl ![15, 32] rfl rfl inb_S16x128_S1x16_15_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 1 k.val 3 hk8 rfl _ k0_t17_trips _ rfl ![15, 16] rfl rfl inb_S16x128_S1x16_15_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 0 k.val 3 hk8 rfl _ k0_t17_trips _ rfl ![15, 0] rfl rfl inb_S16x128_S1x16_15_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 7 k.val 3 hk8 rfl _ k0_t16_trips _ rfl ![14, 112] rfl rfl inb_S16x128_S1x16_14_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 6 k.val 3 hk8 rfl _ k0_t16_trips _ rfl ![14, 96] rfl rfl inb_S16x128_S1x16_14_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 5 k.val 3 hk8 rfl _ k0_t16_trips _ rfl ![14, 80] rfl rfl inb_S16x128_S1x16_14_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 4 k.val 3 hk8 rfl _ k0_t16_trips _ rfl ![14, 64] rfl rfl inb_S16x128_S1x16_14_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 3 k.val 3 hk8 rfl _ k0_t16_trips _ rfl ![14, 48] rfl rfl inb_S16x128_S1x16_14_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 2 k.val 3 hk8 rfl _ k0_t16_trips _ rfl ![14, 32] rfl rfl inb_S16x128_S1x16_14_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 1 k.val 3 hk8 rfl _ k0_t16_trips _ rfl ![14, 16] rfl rfl inb_S16x128_S1x16_14_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 0 k.val 3 hk8 rfl _ k0_t16_trips _ rfl ![14, 0] rfl rfl inb_S16x128_S1x16_14_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 7 k.val 3 hk8 rfl _ k0_t15_trips _ rfl ![13, 112] rfl rfl inb_S16x128_S1x16_13_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 6 k.val 3 hk8 rfl _ k0_t15_trips _ rfl ![13, 96] rfl rfl inb_S16x128_S1x16_13_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 5 k.val 3 hk8 rfl _ k0_t15_trips _ rfl ![13, 80] rfl rfl inb_S16x128_S1x16_13_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 4 k.val 3 hk8 rfl _ k0_t15_trips _ rfl ![13, 64] rfl rfl inb_S16x128_S1x16_13_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 3 k.val 3 hk8 rfl _ k0_t15_trips _ rfl ![13, 48] rfl rfl inb_S16x128_S1x16_13_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 2 k.val 3 hk8 rfl _ k0_t15_trips _ rfl ![13, 32] rfl rfl inb_S16x128_S1x16_13_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 1 k.val 3 hk8 rfl _ k0_t15_trips _ rfl ![13, 16] rfl rfl inb_S16x128_S1x16_13_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 0 k.val 3 hk8 rfl _ k0_t15_trips _ rfl ![13, 0] rfl rfl inb_S16x128_S1x16_13_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 7 k.val 3 hk8 rfl _ k0_t14_trips _ rfl ![12, 112] rfl rfl inb_S16x128_S1x16_12_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 6 k.val 3 hk8 rfl _ k0_t14_trips _ rfl ![12, 96] rfl rfl inb_S16x128_S1x16_12_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 5 k.val 3 hk8 rfl _ k0_t14_trips _ rfl ![12, 80] rfl rfl inb_S16x128_S1x16_12_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 4 k.val 3 hk8 rfl _ k0_t14_trips _ rfl ![12, 64] rfl rfl inb_S16x128_S1x16_12_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 3 k.val 3 hk8 rfl _ k0_t14_trips _ rfl ![12, 48] rfl rfl inb_S16x128_S1x16_12_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 2 k.val 3 hk8 rfl _ k0_t14_trips _ rfl ![12, 32] rfl rfl inb_S16x128_S1x16_12_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 1 k.val 3 hk8 rfl _ k0_t14_trips _ rfl ![12, 16] rfl rfl inb_S16x128_S1x16_12_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 0 k.val 3 hk8 rfl _ k0_t14_trips _ rfl ![12, 0] rfl rfl inb_S16x128_S1x16_12_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 7 k.val 2 hk8 rfl _ k0_t13_trips _ rfl ![11, 112] rfl rfl inb_S16x128_S1x16_11_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 6 k.val 2 hk8 rfl _ k0_t13_trips _ rfl ![11, 96] rfl rfl inb_S16x128_S1x16_11_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 5 k.val 2 hk8 rfl _ k0_t13_trips _ rfl ![11, 80] rfl rfl inb_S16x128_S1x16_11_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 4 k.val 2 hk8 rfl _ k0_t13_trips _ rfl ![11, 64] rfl rfl inb_S16x128_S1x16_11_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 3 k.val 2 hk8 rfl _ k0_t13_trips _ rfl ![11, 48] rfl rfl inb_S16x128_S1x16_11_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 2 k.val 2 hk8 rfl _ k0_t13_trips _ rfl ![11, 32] rfl rfl inb_S16x128_S1x16_11_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 1 k.val 2 hk8 rfl _ k0_t13_trips _ rfl ![11, 16] rfl rfl inb_S16x128_S1x16_11_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 0 k.val 2 hk8 rfl _ k0_t13_trips _ rfl ![11, 0] rfl rfl inb_S16x128_S1x16_11_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 7 k.val 2 hk8 rfl _ k0_t12_trips _ rfl ![10, 112] rfl rfl inb_S16x128_S1x16_10_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 6 k.val 2 hk8 rfl _ k0_t12_trips _ rfl ![10, 96] rfl rfl inb_S16x128_S1x16_10_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 5 k.val 2 hk8 rfl _ k0_t12_trips _ rfl ![10, 80] rfl rfl inb_S16x128_S1x16_10_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 4 k.val 2 hk8 rfl _ k0_t12_trips _ rfl ![10, 64] rfl rfl inb_S16x128_S1x16_10_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 3 k.val 2 hk8 rfl _ k0_t12_trips _ rfl ![10, 48] rfl rfl inb_S16x128_S1x16_10_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 2 k.val 2 hk8 rfl _ k0_t12_trips _ rfl ![10, 32] rfl rfl inb_S16x128_S1x16_10_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 1 k.val 2 hk8 rfl _ k0_t12_trips _ rfl ![10, 16] rfl rfl inb_S16x128_S1x16_10_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 0 k.val 2 hk8 rfl _ k0_t12_trips _ rfl ![10, 0] rfl rfl inb_S16x128_S1x16_10_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 7 k.val 2 hk8 rfl _ k0_t11_trips _ rfl ![9, 112] rfl rfl inb_S16x128_S1x16_9_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 6 k.val 2 hk8 rfl _ k0_t11_trips _ rfl ![9, 96] rfl rfl inb_S16x128_S1x16_9_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 5 k.val 2 hk8 rfl _ k0_t11_trips _ rfl ![9, 80] rfl rfl inb_S16x128_S1x16_9_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 4 k.val 2 hk8 rfl _ k0_t11_trips _ rfl ![9, 64] rfl rfl inb_S16x128_S1x16_9_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 3 k.val 2 hk8 rfl _ k0_t11_trips _ rfl ![9, 48] rfl rfl inb_S16x128_S1x16_9_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 2 k.val 2 hk8 rfl _ k0_t11_trips _ rfl ![9, 32] rfl rfl inb_S16x128_S1x16_9_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 1 k.val 2 hk8 rfl _ k0_t11_trips _ rfl ![9, 16] rfl rfl inb_S16x128_S1x16_9_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 0 k.val 2 hk8 rfl _ k0_t11_trips _ rfl ![9, 0] rfl rfl inb_S16x128_S1x16_9_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 7 k.val 2 hk8 rfl _ k0_t10_trips _ rfl ![8, 112] rfl rfl inb_S16x128_S1x16_8_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 6 k.val 2 hk8 rfl _ k0_t10_trips _ rfl ![8, 96] rfl rfl inb_S16x128_S1x16_8_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 5 k.val 2 hk8 rfl _ k0_t10_trips _ rfl ![8, 80] rfl rfl inb_S16x128_S1x16_8_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 4 k.val 2 hk8 rfl _ k0_t10_trips _ rfl ![8, 64] rfl rfl inb_S16x128_S1x16_8_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 3 k.val 2 hk8 rfl _ k0_t10_trips _ rfl ![8, 48] rfl rfl inb_S16x128_S1x16_8_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 2 k.val 2 hk8 rfl _ k0_t10_trips _ rfl ![8, 32] rfl rfl inb_S16x128_S1x16_8_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 1 k.val 2 hk8 rfl _ k0_t10_trips _ rfl ![8, 16] rfl rfl inb_S16x128_S1x16_8_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 0 k.val 2 hk8 rfl _ k0_t10_trips _ rfl ![8, 0] rfl rfl inb_S16x128_S1x16_8_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 7 k.val 1 hk8 rfl _ k0_t9_trips _ rfl ![7, 112] rfl rfl inb_S16x128_S1x16_7_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 6 k.val 1 hk8 rfl _ k0_t9_trips _ rfl ![7, 96] rfl rfl inb_S16x128_S1x16_7_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 5 k.val 1 hk8 rfl _ k0_t9_trips _ rfl ![7, 80] rfl rfl inb_S16x128_S1x16_7_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 4 k.val 1 hk8 rfl _ k0_t9_trips _ rfl ![7, 64] rfl rfl inb_S16x128_S1x16_7_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 3 k.val 1 hk8 rfl _ k0_t9_trips _ rfl ![7, 48] rfl rfl inb_S16x128_S1x16_7_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 2 k.val 1 hk8 rfl _ k0_t9_trips _ rfl ![7, 32] rfl rfl inb_S16x128_S1x16_7_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 1 k.val 1 hk8 rfl _ k0_t9_trips _ rfl ![7, 16] rfl rfl inb_S16x128_S1x16_7_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 0 k.val 1 hk8 rfl _ k0_t9_trips _ rfl ![7, 0] rfl rfl inb_S16x128_S1x16_7_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 7 k.val 1 hk8 rfl _ k0_t8_trips _ rfl ![6, 112] rfl rfl inb_S16x128_S1x16_6_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 6 k.val 1 hk8 rfl _ k0_t8_trips _ rfl ![6, 96] rfl rfl inb_S16x128_S1x16_6_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 5 k.val 1 hk8 rfl _ k0_t8_trips _ rfl ![6, 80] rfl rfl inb_S16x128_S1x16_6_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 4 k.val 1 hk8 rfl _ k0_t8_trips _ rfl ![6, 64] rfl rfl inb_S16x128_S1x16_6_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 3 k.val 1 hk8 rfl _ k0_t8_trips _ rfl ![6, 48] rfl rfl inb_S16x128_S1x16_6_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 2 k.val 1 hk8 rfl _ k0_t8_trips _ rfl ![6, 32] rfl rfl inb_S16x128_S1x16_6_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 1 k.val 1 hk8 rfl _ k0_t8_trips _ rfl ![6, 16] rfl rfl inb_S16x128_S1x16_6_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 0 k.val 1 hk8 rfl _ k0_t8_trips _ rfl ![6, 0] rfl rfl inb_S16x128_S1x16_6_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 7 k.val 1 hk8 rfl _ k0_t7_trips _ rfl ![5, 112] rfl rfl inb_S16x128_S1x16_5_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 6 k.val 1 hk8 rfl _ k0_t7_trips _ rfl ![5, 96] rfl rfl inb_S16x128_S1x16_5_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 5 k.val 1 hk8 rfl _ k0_t7_trips _ rfl ![5, 80] rfl rfl inb_S16x128_S1x16_5_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 4 k.val 1 hk8 rfl _ k0_t7_trips _ rfl ![5, 64] rfl rfl inb_S16x128_S1x16_5_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 3 k.val 1 hk8 rfl _ k0_t7_trips _ rfl ![5, 48] rfl rfl inb_S16x128_S1x16_5_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 2 k.val 1 hk8 rfl _ k0_t7_trips _ rfl ![5, 32] rfl rfl inb_S16x128_S1x16_5_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 1 k.val 1 hk8 rfl _ k0_t7_trips _ rfl ![5, 16] rfl rfl inb_S16x128_S1x16_5_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 0 k.val 1 hk8 rfl _ k0_t7_trips _ rfl ![5, 0] rfl rfl inb_S16x128_S1x16_5_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 7 k.val 1 hk8 rfl _ k0_t6_trips _ rfl ![4, 112] rfl rfl inb_S16x128_S1x16_4_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 6 k.val 1 hk8 rfl _ k0_t6_trips _ rfl ![4, 96] rfl rfl inb_S16x128_S1x16_4_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 5 k.val 1 hk8 rfl _ k0_t6_trips _ rfl ![4, 80] rfl rfl inb_S16x128_S1x16_4_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 4 k.val 1 hk8 rfl _ k0_t6_trips _ rfl ![4, 64] rfl rfl inb_S16x128_S1x16_4_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 3 k.val 1 hk8 rfl _ k0_t6_trips _ rfl ![4, 48] rfl rfl inb_S16x128_S1x16_4_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 2 k.val 1 hk8 rfl _ k0_t6_trips _ rfl ![4, 32] rfl rfl inb_S16x128_S1x16_4_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 1 k.val 1 hk8 rfl _ k0_t6_trips _ rfl ![4, 16] rfl rfl inb_S16x128_S1x16_4_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 0 k.val 1 hk8 rfl _ k0_t6_trips _ rfl ![4, 0] rfl rfl inb_S16x128_S1x16_4_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 7 k.val 0 hk8 rfl _ k0_t5_trips _ rfl ![3, 112] rfl rfl inb_S16x128_S1x16_3_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 6 k.val 0 hk8 rfl _ k0_t5_trips _ rfl ![3, 96] rfl rfl inb_S16x128_S1x16_3_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 5 k.val 0 hk8 rfl _ k0_t5_trips _ rfl ![3, 80] rfl rfl inb_S16x128_S1x16_3_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 4 k.val 0 hk8 rfl _ k0_t5_trips _ rfl ![3, 64] rfl rfl inb_S16x128_S1x16_3_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 3 k.val 0 hk8 rfl _ k0_t5_trips _ rfl ![3, 48] rfl rfl inb_S16x128_S1x16_3_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 2 k.val 0 hk8 rfl _ k0_t5_trips _ rfl ![3, 32] rfl rfl inb_S16x128_S1x16_3_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 1 k.val 0 hk8 rfl _ k0_t5_trips _ rfl ![3, 16] rfl rfl inb_S16x128_S1x16_3_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 0 k.val 0 hk8 rfl _ k0_t5_trips _ rfl ![3, 0] rfl rfl inb_S16x128_S1x16_3_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 7 k.val 0 hk8 rfl _ k0_t4_trips _ rfl ![2, 112] rfl rfl inb_S16x128_S1x16_2_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 6 k.val 0 hk8 rfl _ k0_t4_trips _ rfl ![2, 96] rfl rfl inb_S16x128_S1x16_2_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 5 k.val 0 hk8 rfl _ k0_t4_trips _ rfl ![2, 80] rfl rfl inb_S16x128_S1x16_2_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 4 k.val 0 hk8 rfl _ k0_t4_trips _ rfl ![2, 64] rfl rfl inb_S16x128_S1x16_2_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 3 k.val 0 hk8 rfl _ k0_t4_trips _ rfl ![2, 48] rfl rfl inb_S16x128_S1x16_2_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 2 k.val 0 hk8 rfl _ k0_t4_trips _ rfl ![2, 32] rfl rfl inb_S16x128_S1x16_2_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 1 k.val 0 hk8 rfl _ k0_t4_trips _ rfl ![2, 16] rfl rfl inb_S16x128_S1x16_2_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 0 k.val 0 hk8 rfl _ k0_t4_trips _ rfl ![2, 0] rfl rfl inb_S16x128_S1x16_2_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 7 k.val 0 hk8 rfl _ k0_t3_trips _ rfl ![1, 112] rfl rfl inb_S16x128_S1x16_1_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 6 k.val 0 hk8 rfl _ k0_t3_trips _ rfl ![1, 96] rfl rfl inb_S16x128_S1x16_1_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 5 k.val 0 hk8 rfl _ k0_t3_trips _ rfl ![1, 80] rfl rfl inb_S16x128_S1x16_1_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 4 k.val 0 hk8 rfl _ k0_t3_trips _ rfl ![1, 64] rfl rfl inb_S16x128_S1x16_1_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 3 k.val 0 hk8 rfl _ k0_t3_trips _ rfl ![1, 48] rfl rfl inb_S16x128_S1x16_1_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 2 k.val 0 hk8 rfl _ k0_t3_trips _ rfl ![1, 32] rfl rfl inb_S16x128_S1x16_1_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 1 k.val 0 hk8 rfl _ k0_t3_trips _ rfl ![1, 16] rfl rfl inb_S16x128_S1x16_1_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 0 k.val 0 hk8 rfl _ k0_t3_trips _ rfl ![1, 0] rfl rfl inb_S16x128_S1x16_1_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 7 k.val 0 hk8 rfl _ k0_t2_trips _ rfl ![0, 112] rfl rfl inb_S16x128_S1x16_0_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 6 k.val 0 hk8 rfl _ k0_t2_trips _ rfl ![0, 96] rfl rfl inb_S16x128_S1x16_0_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 5 k.val 0 hk8 rfl _ k0_t2_trips _ rfl ![0, 80] rfl rfl inb_S16x128_S1x16_0_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 4 k.val 0 hk8 rfl _ k0_t2_trips _ rfl ![0, 64] rfl rfl inb_S16x128_S1x16_0_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 3 k.val 0 hk8 rfl _ k0_t2_trips _ rfl ![0, 48] rfl rfl inb_S16x128_S1x16_0_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 2 k.val 0 hk8 rfl _ k0_t2_trips _ rfl ![0, 32] rfl rfl inb_S16x128_S1x16_0_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 1 k.val 0 hk8 rfl _ k0_t2_trips _ rfl ![0, 16] rfl rfl inb_S16x128_S1x16_0_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 0 k.val 0 hk8 rfl _ k0_t2_trips _ rfl ![0, 0] rfl rfl inb_S16x128_S1x16_0_0 x, ?_⟩
    exact List.forall_mem_nil _
  have hcov : ∀ y : S16x128.Idx, ∃ p ∈ trip_lt.sl.H6_128 m d L X0 hX0 k, y ∈ p.1.set := by
    sl_unfold_run_names
    exact View.cover_of_tiled _ S1x16.size rfl
  ihave Ho' := (Entails.of_eq (trip_close m d L 0 (Ring.bk 8 k.val) s6 f6 _ fo hG hcov (trip_lt.sl.dma16 m d L X0 hX0 k f6) rfl)) $$ Ho
  clear hG hcov
  isplitr [Hs1 Htb]
  · isplitl [HF0_dst_and HF1_dst_and HF2_dst_and HF3_dst_and Hrest HF0 Hr0 HF1 Hr1 HF2 Hr2 HF3 Hr3]
    · isplitl [HF0_dst_and HF1_dst_and HF2_dst_and HF3_dst_and Hrest]
      · isplitl [HF0_dst_and]
        · iexact HF0_dst_and
        isplitl [HF1_dst_and]
        · iexact HF1_dst_and
        isplitl [HF2_dst_and]
        · iexact HF2_dst_and
        isplitl [HF3_dst_and]
        · iexact HF3_dst_and
        iexact Hrest
      isplitl [HF0 Hr0]
      · iexists ((s2).view.writes (Elt F) (s2).view.junk [⟨Rect.whole S200x128, gathered d L aV (m (aLoc d)) s0 X0 hX0 (Ring.bk 32 (4 * k.val + 0))⟩])
        irw [flightP_after]
        isplitl [HF0]
        · iexact HF0
        iexact Hr0
      isplitl [HF1 Hr1]
      · iexists ((s3).view.writes (Elt F) (s3).view.junk [⟨Rect.whole S200x128, gathered d L aV (m (aLoc d)) s0 X0 hX0 (Ring.bk 32 (4 * k.val + 1))⟩])
        irw [flightP_after]
        isplitl [HF1]
        · iexact HF1
        iexact Hr1
      isplitl [HF2 Hr2]
      · iexists ((s4).view.writes (Elt F) (s4).view.junk [⟨Rect.whole S200x128, gathered d L aV (m (aLoc d)) s0 X0 hX0 (Ring.bk 32 (4 * k.val + 2))⟩])
        irw [flightP_after]
        isplitl [HF2]
        · iexact HF2
        iexact Hr2
      iexists ((s5).view.writes (Elt F) (s5).view.junk [⟨Rect.whole S200x128, gathered d L aV (m (aLoc d)) s0 X0 hX0 (Ring.bk 32 (4 * k.val + 3))⟩])
      irw [flightP_after]
      isplitl [HF3]
      · iexact HF3
      iexact Hr3
    isplitl [H6]
    · iexists _; iexact H6
    isplitl [Hc]
    · iexact Hc
    isplitl [Ho' Hpl]
    · isplitl [Ho']
      · iexact Ho'
      iexact Hpl
    isplitl [Hmw]
    · iexact Hmw
    iexists _
    isplitr
    rotate_left
    · iexact HO
    · ipureintro
      intro p hp
      simp only [Finset.mem_insert] at hp
      rcases hp with rfl | rfl | rfl | rfl | rfl | hp
      all_goals first | exact Or.inr rfl | exact hW' p hp
  isplitl [Hs1]
  · iexact Hs1
  iexact Htb

end Phase0

end Cert.Kernel.Sc

end
-- ==== Proof.B_ScPhase0Last.lean ====
/-
  The LAST trip of the first chunk loop of a vector subcore (trip 7 of 8).

  Like every trip it lands the four streams 28 … 31 of the first table over the first index buffer and averages their
  segments into the sixteen rows of chunk 7 of plane 0; but nothing of the first index buffer is left to fire, and the
  trip fires instead the FIRST four streams of the second table over the second index buffer (blocks 0 … 3), into the
  same four row buffers. So from the loop's invariant at trip 7 — the first table's ring at point 28, the second index
  buffer's blocks all home, the second table's tokens — it reaches the invariant at trip 8: the second table's ring
  before its first point, every block of the first index buffer home, the first table's four tokens back whole,
  plane 0 complete.
-/
import proofs.«207262_g39728447488703_cont_8to1_b_1934_40_alg».proof.Proof.B_ScPhase0Defs
import proofs.«207262_g39728447488703_cont_8to1_b_1934_40_alg».proof.Proof.B_ScCanon
import proofs.«207262_g39728447488703_cont_8to1_b_1934_40_alg».proof.Proof.B_ScCanonSets
import proofs.«207262_g39728447488703_cont_8to1_b_1934_40_alg».proof.Proof.B_ScRingSets
import proofs.«207262_g39728447488703_cont_8to1_b_1934_40_alg».proof.Proof.B_ScRed02
import proofs.«207262_g39728447488703_cont_8to1_b_1934_40_alg».proof.Proof.B_ScRed03
import proofs.«207262_g39728447488703_cont_8to1_b_1934_40_alg».proof.Proof.B_ScRed04
import proofs.«207262_g39728447488703_cont_8to1_b_1934_40_alg».proof.Proof.B_ScRed05
import proofs.«207262_g39728447488703_cont_8to1_b_1934_40_alg».proof.Proof.B_ScRed06
import proofs.«207262_g39728447488703_cont_8to1_b_1934_40_alg».proof.Proof.B_ScRed07
import proofs.«207262_g39728447488703_cont_8to1_b_1934_40_alg».proof.Proof.B_ScRed08
import proofs.«207262_g39728447488703_cont_8to1_b_1934_40_alg».proof.Proof.B_ScRed09
import proofs.«207262_g39728447488703_cont_8to1_b_1934_40_alg».proof.Proof.B_ScRed10
import proofs.«207262_g39728447488703_cont_8to1_b_1934_40_alg».proof.Proof.B_ScRed11
import proofs.«207262_g39728447488703_cont_8to1_b_1934_40_alg».proof.Proof.B_ScRed12
import proofs.«207262_g39728447488703_cont_8to1_b_1934_40_alg».proof.Proof.B_ScRed13
import proofs.«207262_g39728447488703_cont_8to1_b_1934_40_alg».proof.Proof.B_ScRed14
import proofs.«207262_g39728447488703_cont_8to1_b_1934_40_alg».proof.Proof.B_ScRed15
import proofs.«207262_g39728447488703_cont_8to1_b_1934_40_alg».proof.Proof.B_ScRed16
import proofs.«207262_g39728447488703_cont_8to1_b_1934_40_alg».proof.Proof.B_ScRed17
import proofs.«207262_g39728447488703_cont_8to1_b_1934_40_alg».proof.Proof.B_ScChunkVal
import proofs.«207262_g39728447488703_cont_8to1_b_1934_40_alg».proof.Proof.B_ScTripVal
import proofs.«207262_g39728447488703_cont_8to1_b_1934_40_alg».proof.Proof.B_ScTripClose
import proofs.«207262_g39728447488703_cont_8to1_b_1934_40_alg».proof.Proof.Gen.Kernel.Skeleton
import Idealize.ShloMosaic.Lib.Ring
import Idealize.ShloMosaic.Lib.SparseCore.Stream
import Idealize.ShloMosaic.Lib.Transfers
import Idealize.ShloMosaic.Lib.Tactic

noncomputable section

namespace Cert.Kernel.Sc

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

/-- A flight issued over a row buffer that earlier writes left: the new block's rows consed on those writes. -/
theorem flightP_over (tV : Memref sig .scVector .hbm S100000x128 .f32) (T : Buf (Elt F) (tV.view.loc (thrOf d L)))
    (sK : Memref sig .scVector .vmem S6400 .i32) (X : Buf (Elt F) (sK.view.loc (thrOf d L))) (hX : IdxOK d L sK X)
    (sR : Memref sig .scVector .vmem S200x128 .f32) (sm : DmaSems sig S_) (b : Fin 4) (g : Fin 32)
    (Ps : List (View.Piece (Elt F) S200x128 .f32)) :
    flightP d L tV T sK X q hX sR sm b g (sR.view.writes (Elt F) sR.view.junk Ps)
      = iprop(Transfers.Flight countersEmb (thrOf d L) (SemLoc.dma sm.sem) default 819200
          iprop(((sR.view.loc (thrOf d L) ↦{fullShare} sR.view.writes (Elt F) sR.view.junk
                    (⟨Rect.whole S200x128, gathered d L tV T sK X hX g⟩ :: Ps))
                ∗ homeP d L sK X g)
            ∗ (tV.view.loc (thrOf d L) ↦[(tblW tV).view.set]{Transfers.shareTok q 4 b} T))
        ∗ (tV.view.loc (thrOf d L) ↦[Finset.univ \ (tblW tV).view.set]{Transfers.shareTok q 4 b} T)) := rfl

set_option maxHeartbeats 16000000 in
theorem trip_last (hR0 : (s0).view.read (Elt F) X0 = idxBuf m d L 0) (k : Fin k0_t1_loop.trips) (hk : k.val = 7) (v2 : BitVec 32) :
    inv0 m d L q X0 hX0 X1 hX1 O W k.val
      ⊢ wp frame (wpE (defs₀ (F := F)) 𝒱₀ (thrOf d L) none) Set.univ
          (k0_t1_body L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5 v2 0#32 1#32 k ())
          (fun _ => inv0 m d L q X0 hX0 X1 hX1 O W (k.val + 1)) := by
  have h8 : k.val < 8 := by omega
  have h8' : ¬ k.val + 1 < 8 := by omega
  unfold inv0
  rw [if_pos h8, if_neg h8']
  have eS0 : bigSep (Finset.univ : Finset (Fin 32)) (homeP d L s0 X0)
      = iprop(homeP d L s0 X0 (Ring.bk 32 (4 * k.val + 0)) ∗ homeP d L s0 X0 (Ring.bk 32 (4 * k.val + 1))
          ∗ homeP d L s0 X0 (Ring.bk 32 (4 * k.val + 2)) ∗ homeP d L s0 X0 (Ring.bk 32 (4 * k.val + 3))
          ∗ bigSep (Ring.homeSet (NB := 32) 4 (4 * k.val)) (homeP d L s0 X0)) := by
    rw [← Ring.homeSet_last (NB := 32) (L := 4) (4 * (k.val + 1)) (by omega)]
    exact chunk_homes_last' _ k.val hk
  have eS1 : bigSep (Finset.univ : Finset (Fin 32)) (homeP d L s1 X1)
      = iprop(homeP d L s1 X1 (Ring.bk 32 0) ∗ homeP d L s1 X1 (Ring.bk 32 1) ∗ homeP d L s1 X1 (Ring.bk 32 2) ∗ homeP d L s1 X1 (Ring.bk 32 3)
          ∗ bigSep (Ring.homeSet (NB := 32) 4 0) (homeP d L s1 X1)) :=
    homes_all _ _ _ _ _ rfl rfl rfl rfl
  have eP : planeAt m d L 0 8 = planeAt m d L 0 (k.val + 1) := by rw [hk]
  rw [eS0, eS1, eP]
  unfold resAt ringAt
  simp only [slotAt, if_pos (show 4 * k.val + 0 < 32 by omega), if_pos (show 4 * k.val + 1 < 32 by omega),
    if_pos (show 4 * k.val + 2 < 32 by omega), if_pos (show 4 * k.val + 3 < 32 by omega),
    if_pos (show 0 + 0 < 32 by omega), if_pos (show 0 + 1 < 32 by omega),
    if_pos (show 0 + 2 < 32 by omega), if_pos (show 0 + 3 < 32 by omega)]
  rw [plane_here m d L 0 k.val h8, plane_next m d L 0 k.val h8]
  iintro ⟨⟨⟨Hhome0, ⟨%f2, HF0, Hr0⟩, ⟨%f3, HF1, Hr1⟩, ⟨%f4, HF2, Hr2⟩, ⟨%f5, HF3, Hr3⟩⟩, ⟨%f6, H6⟩, Hc, ⟨⟨%fo, Ho⟩, Hpl⟩, Hmw, ⟨%W', %hW', HO⟩⟩, ⟨Hb0, Hb1, Hb2, Hb3, Hs1rest⟩, ⟨Ht0, Ht1, Ht2, Ht3⟩⟩
  have hin0 : ∀ x : S200.Idx, ((blk s1 (Ring.bk 32 0)).view.read (Elt F) X1 x).toNat < 100000 := hX1 _
  have hin1 : ∀ x : S200.Idx, ((blk s1 (Ring.bk 32 1)).view.read (Elt F) X1 x).toNat < 100000 := hX1 _
  have hin2 : ∀ x : S200.Idx, ((blk s1 (Ring.bk 32 2)).view.read (Elt F) X1 x).toNat < 100000 := hX1 _
  have hin3 : ∀ x : S200.Idx, ((blk s1 (Ring.bk 32 3)).view.read (Elt F) X1 x).toNat < 100000 := hX1 _
  have hc2 : k0_cond2 k = 1#1 := (cond2_iff k).mpr hk
  have hc4 : k0_cond4 k = 1#1 := (cond4_iff k).mpr hk
  have hc6 : k0_cond6 k = 1#1 := (cond6_iff k).mpr hk
  have hc8 : k0_cond8 k = 1#1 := (cond8_iff k).mpr hk
  have hn1 : ¬ k0_cond1 k = 1#1 := fun h => by have := (cond1_iff k).mp h; omega
  have hn3 : ¬ k0_cond3 k = 1#1 := fun h => by have := (cond3_iff k).mp h; omega
  have hn5 : ¬ k0_cond5 k = 1#1 := fun h => by have := (cond5_iff k).mp h; omega
  have hn7 : ¬ k0_cond7 k = 1#1 := fun h => by have := (cond7_iff k).mp h; omega
  clear h8 h8' eS0 eS1 eP
  unfold Gen.k0_t1_body
  sl_exec
  sl_step
  have hG : ∀ p ∈ trip_last.sl.H6_128 m d L X0 hX0 k, ∀ x : p.1.shape.Idx,
      p.2 x = chunkG m d L (m (aLoc d)) (m (bLoc d)) (m (cLoc d)) 0 (Ring.bk 8 k.val) (p.1.emb x) := by
    sl_unfold_run_names
    have hk8 : k.val = (Ring.bk 8 k.val).val := (bk8_val (trips1 k)).symm
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 7 k.val 3 hk8 rfl _ k0_t17_trips _ rfl ![15, 112] rfl rfl inb_S16x128_S1x16_15_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 6 k.val 3 hk8 rfl _ k0_t17_trips _ rfl ![15, 96] rfl rfl inb_S16x128_S1x16_15_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 5 k.val 3 hk8 rfl _ k0_t17_trips _ rfl ![15, 80] rfl rfl inb_S16x128_S1x16_15_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 4 k.val 3 hk8 rfl _ k0_t17_trips _ rfl ![15, 64] rfl rfl inb_S16x128_S1x16_15_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 3 k.val 3 hk8 rfl _ k0_t17_trips _ rfl ![15, 48] rfl rfl inb_S16x128_S1x16_15_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 2 k.val 3 hk8 rfl _ k0_t17_trips _ rfl ![15, 32] rfl rfl inb_S16x128_S1x16_15_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 1 k.val 3 hk8 rfl _ k0_t17_trips _ rfl ![15, 16] rfl rfl inb_S16x128_S1x16_15_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 3 0 k.val 3 hk8 rfl _ k0_t17_trips _ rfl ![15, 0] rfl rfl inb_S16x128_S1x16_15_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 7 k.val 3 hk8 rfl _ k0_t16_trips _ rfl ![14, 112] rfl rfl inb_S16x128_S1x16_14_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 6 k.val 3 hk8 rfl _ k0_t16_trips _ rfl ![14, 96] rfl rfl inb_S16x128_S1x16_14_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 5 k.val 3 hk8 rfl _ k0_t16_trips _ rfl ![14, 80] rfl rfl inb_S16x128_S1x16_14_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 4 k.val 3 hk8 rfl _ k0_t16_trips _ rfl ![14, 64] rfl rfl inb_S16x128_S1x16_14_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 3 k.val 3 hk8 rfl _ k0_t16_trips _ rfl ![14, 48] rfl rfl inb_S16x128_S1x16_14_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 2 k.val 3 hk8 rfl _ k0_t16_trips _ rfl ![14, 32] rfl rfl inb_S16x128_S1x16_14_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 1 k.val 3 hk8 rfl _ k0_t16_trips _ rfl ![14, 16] rfl rfl inb_S16x128_S1x16_14_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 2 0 k.val 3 hk8 rfl _ k0_t16_trips _ rfl ![14, 0] rfl rfl inb_S16x128_S1x16_14_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 7 k.val 3 hk8 rfl _ k0_t15_trips _ rfl ![13, 112] rfl rfl inb_S16x128_S1x16_13_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 6 k.val 3 hk8 rfl _ k0_t15_trips _ rfl ![13, 96] rfl rfl inb_S16x128_S1x16_13_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 5 k.val 3 hk8 rfl _ k0_t15_trips _ rfl ![13, 80] rfl rfl inb_S16x128_S1x16_13_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 4 k.val 3 hk8 rfl _ k0_t15_trips _ rfl ![13, 64] rfl rfl inb_S16x128_S1x16_13_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 3 k.val 3 hk8 rfl _ k0_t15_trips _ rfl ![13, 48] rfl rfl inb_S16x128_S1x16_13_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 2 k.val 3 hk8 rfl _ k0_t15_trips _ rfl ![13, 32] rfl rfl inb_S16x128_S1x16_13_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 1 k.val 3 hk8 rfl _ k0_t15_trips _ rfl ![13, 16] rfl rfl inb_S16x128_S1x16_13_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 1 0 k.val 3 hk8 rfl _ k0_t15_trips _ rfl ![13, 0] rfl rfl inb_S16x128_S1x16_13_0 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 7 k.val 3 hk8 rfl _ k0_t14_trips _ rfl ![12, 112] rfl rfl inb_S16x128_S1x16_12_112 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 6 k.val 3 hk8 rfl _ k0_t14_trips _ rfl ![12, 96] rfl rfl inb_S16x128_S1x16_12_96 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 5 k.val 3 hk8 rfl _ k0_t14_trips _ rfl ![12, 80] rfl rfl inb_S16x128_S1x16_12_80 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 4 k.val 3 hk8 rfl _ k0_t14_trips _ rfl ![12, 64] rfl rfl inb_S16x128_S1x16_12_64 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 3 k.val 3 hk8 rfl _ k0_t14_trips _ rfl ![12, 48] rfl rfl inb_S16x128_S1x16_12_48 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 2 k.val 3 hk8 rfl _ k0_t14_trips _ rfl ![12, 32] rfl rfl inb_S16x128_S1x16_12_32 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 1 k.val 3 hk8 rfl _ k0_t14_trips _ rfl ![12, 16] rfl rfl inb_S16x128_S1x16_12_16 x, ?_⟩
    refine List.forall_mem_cons.2 ⟨fun x => piece_ok_s5 m d L aV (m (aLoc d)) s0 X0 hX0 (m (aLoc d)) (m (bLoc d)) (m (cLoc d)) 0 rfl hR0 (s5).view.junk (Ring.bk 8 k.val) 3 0 0 k.val 3 hk8 rfl _ k0_t14_trips _ rfl ![12, 0] rfl rfl inb_S16x128_S1x16_12_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 7 k.val 2 hk8 rfl _ k0_t13_trips _ rfl ![11, 112] rfl rfl inb_S16x128_S1x16_11_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 6 k.val 2 hk8 rfl _ k0_t13_trips _ rfl ![11, 96] rfl rfl inb_S16x128_S1x16_11_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 5 k.val 2 hk8 rfl _ k0_t13_trips _ rfl ![11, 80] rfl rfl inb_S16x128_S1x16_11_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 4 k.val 2 hk8 rfl _ k0_t13_trips _ rfl ![11, 64] rfl rfl inb_S16x128_S1x16_11_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 3 k.val 2 hk8 rfl _ k0_t13_trips _ rfl ![11, 48] rfl rfl inb_S16x128_S1x16_11_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 2 k.val 2 hk8 rfl _ k0_t13_trips _ rfl ![11, 32] rfl rfl inb_S16x128_S1x16_11_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 1 k.val 2 hk8 rfl _ k0_t13_trips _ rfl ![11, 16] rfl rfl inb_S16x128_S1x16_11_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 3 0 k.val 2 hk8 rfl _ k0_t13_trips _ rfl ![11, 0] rfl rfl inb_S16x128_S1x16_11_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 7 k.val 2 hk8 rfl _ k0_t12_trips _ rfl ![10, 112] rfl rfl inb_S16x128_S1x16_10_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 6 k.val 2 hk8 rfl _ k0_t12_trips _ rfl ![10, 96] rfl rfl inb_S16x128_S1x16_10_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 5 k.val 2 hk8 rfl _ k0_t12_trips _ rfl ![10, 80] rfl rfl inb_S16x128_S1x16_10_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 4 k.val 2 hk8 rfl _ k0_t12_trips _ rfl ![10, 64] rfl rfl inb_S16x128_S1x16_10_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 3 k.val 2 hk8 rfl _ k0_t12_trips _ rfl ![10, 48] rfl rfl inb_S16x128_S1x16_10_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 2 k.val 2 hk8 rfl _ k0_t12_trips _ rfl ![10, 32] rfl rfl inb_S16x128_S1x16_10_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 1 k.val 2 hk8 rfl _ k0_t12_trips _ rfl ![10, 16] rfl rfl inb_S16x128_S1x16_10_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 2 0 k.val 2 hk8 rfl _ k0_t12_trips _ rfl ![10, 0] rfl rfl inb_S16x128_S1x16_10_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 7 k.val 2 hk8 rfl _ k0_t11_trips _ rfl ![9, 112] rfl rfl inb_S16x128_S1x16_9_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 6 k.val 2 hk8 rfl _ k0_t11_trips _ rfl ![9, 96] rfl rfl inb_S16x128_S1x16_9_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 5 k.val 2 hk8 rfl _ k0_t11_trips _ rfl ![9, 80] rfl rfl inb_S16x128_S1x16_9_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 4 k.val 2 hk8 rfl _ k0_t11_trips _ rfl ![9, 64] rfl rfl inb_S16x128_S1x16_9_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 3 k.val 2 hk8 rfl _ k0_t11_trips _ rfl ![9, 48] rfl rfl inb_S16x128_S1x16_9_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 2 k.val 2 hk8 rfl _ k0_t11_trips _ rfl ![9, 32] rfl rfl inb_S16x128_S1x16_9_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 1 k.val 2 hk8 rfl _ k0_t11_trips _ rfl ![9, 16] rfl rfl inb_S16x128_S1x16_9_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 1 0 k.val 2 hk8 rfl _ k0_t11_trips _ rfl ![9, 0] rfl rfl inb_S16x128_S1x16_9_0 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 7 k.val 2 hk8 rfl _ k0_t10_trips _ rfl ![8, 112] rfl rfl inb_S16x128_S1x16_8_112 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 6 k.val 2 hk8 rfl _ k0_t10_trips _ rfl ![8, 96] rfl rfl inb_S16x128_S1x16_8_96 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 5 k.val 2 hk8 rfl _ k0_t10_trips _ rfl ![8, 80] rfl rfl inb_S16x128_S1x16_8_80 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 4 k.val 2 hk8 rfl _ k0_t10_trips _ rfl ![8, 64] rfl rfl inb_S16x128_S1x16_8_64 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 3 k.val 2 hk8 rfl _ k0_t10_trips _ rfl ![8, 48] rfl rfl inb_S16x128_S1x16_8_48 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 2 k.val 2 hk8 rfl _ k0_t10_trips _ rfl ![8, 32] rfl rfl inb_S16x128_S1x16_8_32 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 1 k.val 2 hk8 rfl _ k0_t10_trips _ rfl ![8, 16] rfl rfl inb_S16x128_S1x16_8_16 x, ?_⟩
    refine List.forall_mem_cons.2 ⟨fun x => piece_ok_s4 m d L aV (m (aLoc d)) s0 X0 hX0 (m (aLoc d)) (m (bLoc d)) (m (cLoc d)) 0 rfl hR0 (s4).view.junk (Ring.bk 8 k.val) 2 0 0 k.val 2 hk8 rfl _ k0_t10_trips _ rfl ![8, 0] rfl rfl inb_S16x128_S1x16_8_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 7 k.val 1 hk8 rfl _ k0_t9_trips _ rfl ![7, 112] rfl rfl inb_S16x128_S1x16_7_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 6 k.val 1 hk8 rfl _ k0_t9_trips _ rfl ![7, 96] rfl rfl inb_S16x128_S1x16_7_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 5 k.val 1 hk8 rfl _ k0_t9_trips _ rfl ![7, 80] rfl rfl inb_S16x128_S1x16_7_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 4 k.val 1 hk8 rfl _ k0_t9_trips _ rfl ![7, 64] rfl rfl inb_S16x128_S1x16_7_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 3 k.val 1 hk8 rfl _ k0_t9_trips _ rfl ![7, 48] rfl rfl inb_S16x128_S1x16_7_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 2 k.val 1 hk8 rfl _ k0_t9_trips _ rfl ![7, 32] rfl rfl inb_S16x128_S1x16_7_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 1 k.val 1 hk8 rfl _ k0_t9_trips _ rfl ![7, 16] rfl rfl inb_S16x128_S1x16_7_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 3 0 k.val 1 hk8 rfl _ k0_t9_trips _ rfl ![7, 0] rfl rfl inb_S16x128_S1x16_7_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 7 k.val 1 hk8 rfl _ k0_t8_trips _ rfl ![6, 112] rfl rfl inb_S16x128_S1x16_6_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 6 k.val 1 hk8 rfl _ k0_t8_trips _ rfl ![6, 96] rfl rfl inb_S16x128_S1x16_6_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 5 k.val 1 hk8 rfl _ k0_t8_trips _ rfl ![6, 80] rfl rfl inb_S16x128_S1x16_6_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 4 k.val 1 hk8 rfl _ k0_t8_trips _ rfl ![6, 64] rfl rfl inb_S16x128_S1x16_6_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 3 k.val 1 hk8 rfl _ k0_t8_trips _ rfl ![6, 48] rfl rfl inb_S16x128_S1x16_6_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 2 k.val 1 hk8 rfl _ k0_t8_trips _ rfl ![6, 32] rfl rfl inb_S16x128_S1x16_6_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 1 k.val 1 hk8 rfl _ k0_t8_trips _ rfl ![6, 16] rfl rfl inb_S16x128_S1x16_6_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 2 0 k.val 1 hk8 rfl _ k0_t8_trips _ rfl ![6, 0] rfl rfl inb_S16x128_S1x16_6_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 7 k.val 1 hk8 rfl _ k0_t7_trips _ rfl ![5, 112] rfl rfl inb_S16x128_S1x16_5_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 6 k.val 1 hk8 rfl _ k0_t7_trips _ rfl ![5, 96] rfl rfl inb_S16x128_S1x16_5_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 5 k.val 1 hk8 rfl _ k0_t7_trips _ rfl ![5, 80] rfl rfl inb_S16x128_S1x16_5_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 4 k.val 1 hk8 rfl _ k0_t7_trips _ rfl ![5, 64] rfl rfl inb_S16x128_S1x16_5_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 3 k.val 1 hk8 rfl _ k0_t7_trips _ rfl ![5, 48] rfl rfl inb_S16x128_S1x16_5_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 2 k.val 1 hk8 rfl _ k0_t7_trips _ rfl ![5, 32] rfl rfl inb_S16x128_S1x16_5_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 1 k.val 1 hk8 rfl _ k0_t7_trips _ rfl ![5, 16] rfl rfl inb_S16x128_S1x16_5_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 1 0 k.val 1 hk8 rfl _ k0_t7_trips _ rfl ![5, 0] rfl rfl inb_S16x128_S1x16_5_0 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 7 k.val 1 hk8 rfl _ k0_t6_trips _ rfl ![4, 112] rfl rfl inb_S16x128_S1x16_4_112 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 6 k.val 1 hk8 rfl _ k0_t6_trips _ rfl ![4, 96] rfl rfl inb_S16x128_S1x16_4_96 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 5 k.val 1 hk8 rfl _ k0_t6_trips _ rfl ![4, 80] rfl rfl inb_S16x128_S1x16_4_80 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 4 k.val 1 hk8 rfl _ k0_t6_trips _ rfl ![4, 64] rfl rfl inb_S16x128_S1x16_4_64 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 3 k.val 1 hk8 rfl _ k0_t6_trips _ rfl ![4, 48] rfl rfl inb_S16x128_S1x16_4_48 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 2 k.val 1 hk8 rfl _ k0_t6_trips _ rfl ![4, 32] rfl rfl inb_S16x128_S1x16_4_32 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 1 k.val 1 hk8 rfl _ k0_t6_trips _ rfl ![4, 16] rfl rfl inb_S16x128_S1x16_4_16 x, ?_⟩
    refine List.forall_mem_cons.2 ⟨fun x => piece_ok_s3 m d L aV (m (aLoc d)) s0 X0 hX0 (m (aLoc d)) (m (bLoc d)) (m (cLoc d)) 0 rfl hR0 (s3).view.junk (Ring.bk 8 k.val) 1 0 0 k.val 1 hk8 rfl _ k0_t6_trips _ rfl ![4, 0] rfl rfl inb_S16x128_S1x16_4_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 7 k.val 0 hk8 rfl _ k0_t5_trips _ rfl ![3, 112] rfl rfl inb_S16x128_S1x16_3_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 6 k.val 0 hk8 rfl _ k0_t5_trips _ rfl ![3, 96] rfl rfl inb_S16x128_S1x16_3_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 5 k.val 0 hk8 rfl _ k0_t5_trips _ rfl ![3, 80] rfl rfl inb_S16x128_S1x16_3_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 4 k.val 0 hk8 rfl _ k0_t5_trips _ rfl ![3, 64] rfl rfl inb_S16x128_S1x16_3_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 3 k.val 0 hk8 rfl _ k0_t5_trips _ rfl ![3, 48] rfl rfl inb_S16x128_S1x16_3_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 2 k.val 0 hk8 rfl _ k0_t5_trips _ rfl ![3, 32] rfl rfl inb_S16x128_S1x16_3_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 1 k.val 0 hk8 rfl _ k0_t5_trips _ rfl ![3, 16] rfl rfl inb_S16x128_S1x16_3_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 3 0 k.val 0 hk8 rfl _ k0_t5_trips _ rfl ![3, 0] rfl rfl inb_S16x128_S1x16_3_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 7 k.val 0 hk8 rfl _ k0_t4_trips _ rfl ![2, 112] rfl rfl inb_S16x128_S1x16_2_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 6 k.val 0 hk8 rfl _ k0_t4_trips _ rfl ![2, 96] rfl rfl inb_S16x128_S1x16_2_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 5 k.val 0 hk8 rfl _ k0_t4_trips _ rfl ![2, 80] rfl rfl inb_S16x128_S1x16_2_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 4 k.val 0 hk8 rfl _ k0_t4_trips _ rfl ![2, 64] rfl rfl inb_S16x128_S1x16_2_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 3 k.val 0 hk8 rfl _ k0_t4_trips _ rfl ![2, 48] rfl rfl inb_S16x128_S1x16_2_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 2 k.val 0 hk8 rfl _ k0_t4_trips _ rfl ![2, 32] rfl rfl inb_S16x128_S1x16_2_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 1 k.val 0 hk8 rfl _ k0_t4_trips _ rfl ![2, 16] rfl rfl inb_S16x128_S1x16_2_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 2 0 k.val 0 hk8 rfl _ k0_t4_trips _ rfl ![2, 0] rfl rfl inb_S16x128_S1x16_2_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 7 k.val 0 hk8 rfl _ k0_t3_trips _ rfl ![1, 112] rfl rfl inb_S16x128_S1x16_1_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 6 k.val 0 hk8 rfl _ k0_t3_trips _ rfl ![1, 96] rfl rfl inb_S16x128_S1x16_1_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 5 k.val 0 hk8 rfl _ k0_t3_trips _ rfl ![1, 80] rfl rfl inb_S16x128_S1x16_1_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 4 k.val 0 hk8 rfl _ k0_t3_trips _ rfl ![1, 64] rfl rfl inb_S16x128_S1x16_1_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 3 k.val 0 hk8 rfl _ k0_t3_trips _ rfl ![1, 48] rfl rfl inb_S16x128_S1x16_1_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 2 k.val 0 hk8 rfl _ k0_t3_trips _ rfl ![1, 32] rfl rfl inb_S16x128_S1x16_1_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 1 k.val 0 hk8 rfl _ k0_t3_trips _ rfl ![1, 16] rfl rfl inb_S16x128_S1x16_1_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 1 0 k.val 0 hk8 rfl _ k0_t3_trips _ rfl ![1, 0] rfl rfl inb_S16x128_S1x16_1_0 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 7 k.val 0 hk8 rfl _ k0_t2_trips _ rfl ![0, 112] rfl rfl inb_S16x128_S1x16_0_112 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 6 k.val 0 hk8 rfl _ k0_t2_trips _ rfl ![0, 96] rfl rfl inb_S16x128_S1x16_0_96 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 5 k.val 0 hk8 rfl _ k0_t2_trips _ rfl ![0, 80] rfl rfl inb_S16x128_S1x16_0_80 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 4 k.val 0 hk8 rfl _ k0_t2_trips _ rfl ![0, 64] rfl rfl inb_S16x128_S1x16_0_64 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 3 k.val 0 hk8 rfl _ k0_t2_trips _ rfl ![0, 48] rfl rfl inb_S16x128_S1x16_0_48 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 2 k.val 0 hk8 rfl _ k0_t2_trips _ rfl ![0, 32] rfl rfl inb_S16x128_S1x16_0_32 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 1 k.val 0 hk8 rfl _ k0_t2_trips _ rfl ![0, 16] rfl rfl inb_S16x128_S1x16_0_16 x, ?_⟩
    refine List.forall_mem_cons.2 ⟨fun x => piece_ok_s2 m d L aV (m (aLoc d)) s0 X0 hX0 (m (aLoc d)) (m (bLoc d)) (m (cLoc d)) 0 rfl hR0 (s2).view.junk (Ring.bk 8 k.val) 0 0 0 k.val 0 hk8 rfl _ k0_t2_trips _ rfl ![0, 0] rfl rfl inb_S16x128_S1x16_0_0 x, ?_⟩
    exact List.forall_mem_nil _
  have hcov : ∀ y : S16x128.Idx, ∃ p ∈ trip_last.sl.H6_128 m d L X0 hX0 k, y ∈ p.1.set := by
    sl_unfold_run_names
    exact View.cover_of_tiled _ S1x16.size rfl
  ihave Ho' := (Entails.of_eq (trip_close m d L 0 (Ring.bk 8 k.val) s6 f6 _ fo hG hcov (trip_last.sl.dma16 m d L X0 hX0 k f6) rfl)) $$ Ho
  clear hG hcov
  -- the second table's ring before its first point
  isplitl [Hs1rest HF0 Ht0 HF1 Ht1 HF2 Ht2 HF3 Ht3]
  · isplitl [Hs1rest]
    · iexact Hs1rest
    isplitl [HF0 Ht0]
    · iexists ((s2).view.writes (Elt F) (s2).view.junk [⟨Rect.whole S200x128, gathered d L aV (m (aLoc d)) s0 X0 hX0 (Ring.bk 32 (4 * k.val + 0))⟩])
      irw [flightP_over]
      isplitl [HF0]
      · iexact HF0
      iexact Ht0
    isplitl [HF1 Ht1]
    · iexists ((s3).view.writes (Elt F) (s3).view.junk [⟨Rect.whole S200x128, gathered d L aV (m (aLoc d)) s0 X0 hX0 (Ring.bk 32 (4 * k.val + 1))⟩])
      irw [flightP_over]
      isplitl [HF1]
      · iexact HF1
      iexact Ht1
    isplitl [HF2 Ht2]
    · iexists ((s4).view.writes (Elt F) (s4).view.junk [⟨Rect.whole S200x128, gathered d L aV (m (aLoc d)) s0 X0 hX0 (Ring.bk 32 (4 * k.val + 2))⟩])
      irw [flightP_over]
      isplitl [HF2]
      · iexact HF2
      iexact Ht2
    iexists ((s5).view.writes (Elt F) (s5).view.junk [⟨Rect.whole S200x128, gathered d L aV (m (aLoc d)) s0 X0 hX0 (Ring.bk 32 (4 * k.val + 3))⟩])
    irw [flightP_over]
    isplitl [HF3]
    · iexact HF3
    iexact Ht3
  -- the first index buffer's blocks, all home
  isplitl [HF0_dst_and HF1_dst_and HF2_dst_and HF3_dst_and Hhome0]
  · isplitl [HF0_dst_and]
    · iexact HF0_dst_and
    isplitl [HF1_dst_and]
    · iexact HF1_dst_and
    isplitl [HF2_dst_and]
    · iexact HF2_dst_and
    isplitl [HF3_dst_and]
    · iexact HF3_dst_and
    iexact Hhome0
  -- the first table's tokens, back whole
  isplitl [Hr0 Hr1 Hr2 Hr3]
  · isplitl [Hr0]
    · iexact Hr0
    isplitl [Hr1]
    · iexact Hr1
    isplitl [Hr2]
    · iexact Hr2
    iexact Hr3
  isplitl [H6]
  · iexists _; iexact H6
  isplitl [Hc]
  · iexact Hc
  isplitl [Ho' Hpl]
  · isplitl [Ho']
    · iexact Ho'
    iexact Hpl
  isplitl [Hmw]
  · iexact Hmw
  iexists _
  isplitr
  rotate_left
  · iexact HO
  · ipureintro
    intro p hp
    simp only [Finset.mem_insert] at hp
    rcases hp with rfl | rfl | rfl | rfl | rfl | hp
    all_goals first | exact Or.inr rfl | exact hW' p hp

end Phase0

end Cert.Kernel.Sc

end
-- ==== Proof.B_ScPhase0.lean ====
/-
  The first chunk loop of a vector subcore, by its invariant: before trip k it holds what `inv0` states, and one trip
  takes that at k to that at k + 1 — below the last trip by re-firing the same table, at the last trip by firing the
  next table's first four streams from the other index buffer.
-/
import proofs.«207262_g39728447488703_cont_8to1_b_1934_40_alg».proof.Proof.B_ScPhase0Defs
import proofs.«207262_g39728447488703_cont_8to1_b_1934_40_alg».proof.Proof.B_ScPhase0Lt
import proofs.«207262_g39728447488703_cont_8to1_b_1934_40_alg».proof.Proof.B_ScPhase0Last
import proofs.«207262_g39728447488703_cont_8to1_b_1934_40_alg».proof.Proof.B_ScCanon
import proofs.«207262_g39728447488703_cont_8to1_b_1934_40_alg».proof.Proof.B_ScTileVal
import proofs.«207262_g39728447488703_cont_8to1_b_1934_40_alg».proof.Proof.Gen.Kernel.Skeleton

noncomputable section

namespace Cert.Kernel.Sc

open Cert.Kernel Cert.Kernel.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Phase0

variable (m : (ℓ : Loc nD τ sig) → Buf (Elt F) ℓ) (d : Dev nD) (L : grid0.Coords) (q : PosShare TreeShare)
  (X0 : Buf (Elt F) ((s0).view.loc (thrOf d L))) (hX0 : IdxOK d L s0 X0)
  (X1 : Buf (Elt F) ((s1).view.loc (thrOf d L))) (hX1 : IdxOK d L s1 X1)
  (O : CellTallies nD τ sig (HIx 1)) (W : Waits sig (HIx 1))

set_option warn.classDefReducibility false in
/-- The first chunk loop's invariant, instanced for the run: the word `v2` the region reads is any word. -/
@[sl_loop] def loopInv_k0_t1 (hR0 : (s0).view.read (Elt F) X0 = idxBuf m d L 0) (v2 : BitVec 32) :
    Idealize.ShloMosaic.LoopInv (M := 𝕄) Idealize.ShloMosaic.frame (wpE (defs₀ (F := F)) 𝒱₀ (thrOf d L) none) Set.univ
      k0_t1_loop.lb k0_t1_loop.ub k0_t1_loop.st k0_t1_ok ()
      (k0_t1_body (F := F) L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5 v2 0#32 1#32) where
  inv k _ := inv0 m d L q X0 hX0 X1 hX1 O W k
  step k _ := by
    by_cases hk : k.val < 7
    · exact trip_lt m d L q X0 hX0 X1 hX1 O W hR0 k hk v2
    · have h7 : k.val = 7 := by have := trips1 k; omega
      exact trip_last m d L q X0 hX0 X1 hX1 O W hR0 k h7 v2

end Phase0

end Cert.Kernel.Sc

end
-- ==== Proof.B_ScRed19.lean ====
/-
  The reduce loop of ring slot 0, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t19_trips : k0_t19_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t19 (d : Dev nD) (L : grid0.Coords)
    (a14 a15 a16 a17 r0 r1 r2 r3 r4 r5 : DmaSems sig S_)
    (c0_i32_15 : BitVec 32) (c1_i32_17 : BitVec 32) (k0_t18 : Fin k0_t18_loop.trips)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t19_loop.lb k0_t19_loop.ub k0_t19_loop.st k0_t19_ok init
      (k0_t19_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        c0_i32_15 c1_i32_17 k0_t18) where
  inv l acc := iprop(((s2).view.loc (thrOf d L) ↦{fullShare} fb) ∗ ⌜acc = accsAt fb 0 l⌝)
  step l acc := by
    iintro ⟨HB, %hacc⟩
    subst hacc
    unfold Gen.k0_t19_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed20.lean ====
/-
  The reduce loop of ring slot 0, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t20_trips : k0_t20_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t20 (d : Dev nD) (L : grid0.Coords)
    (a14 a15 a16 a17 r0 r1 r2 r3 r4 r5 : DmaSems sig S_)
    (v84 : FVec F S16 .f32) (v85 : FVec F S16 .f32) (v86 : FVec F S16 .f32) (v87 : FVec F S16 .f32) (v88 : FVec F S16 .f32) (cst_58 : F .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t20_loop.lb k0_t20_loop.ub k0_t20_loop.st k0_t20_ok init
      (k0_t20_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v84 v85 v86 v87 v88 cst_58) where
  inv l acc := iprop(((s2).view.loc (thrOf d L) ↦{fullShare} fb) ∗ ⌜acc = accsAt fb 1 l⌝)
  step l acc := by
    iintro ⟨HB, %hacc⟩
    subst hacc
    unfold Gen.k0_t20_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed21.lean ====
/-
  The reduce loop of ring slot 0, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t21_trips : k0_t21_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t21 (d : Dev nD) (L : grid0.Coords)
    (a14 a15 a16 a17 r0 r1 r2 r3 r4 r5 : DmaSems sig S_)
    (v93_5 : FVec F S16 .f32) (v93_6 : FVec F S16 .f32) (v93_7 : FVec F S16 .f32) (v123 : FVec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t21_loop.lb k0_t21_loop.ub k0_t21_loop.st k0_t21_ok init
      (k0_t21_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v93_5 v93_6 v93_7 v123) where
  inv l acc := iprop(((s2).view.loc (thrOf d L) ↦{fullShare} fb) ∗ ⌜acc = accsAt fb 2 l⌝)
  step l acc := by
    iintro ⟨HB, %hacc⟩
    subst hacc
    unfold Gen.k0_t21_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed22.lean ====
/-
  The reduce loop of ring slot 0, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t22_trips : k0_t22_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t22 (d : Dev nD) (L : grid0.Coords)
    (a14 a15 a16 a17 r0 r1 r2 r3 r4 r5 : DmaSems sig S_)
    (v151_7 : FVec F S16 .f32) (v189 : FVec F S16 .f32) (v191 : Vec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t22_loop.lb k0_t22_loop.ub k0_t22_loop.st k0_t22_ok init
      (k0_t22_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v151_7 v189 v191) where
  inv l acc := iprop(((s2).view.loc (thrOf d L) ↦{fullShare} fb) ∗ ⌜acc = accsAt fb 3 l⌝)
  step l acc := by
    iintro ⟨HB, %hacc⟩
    subst hacc
    unfold Gen.k0_t22_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed23.lean ====
/-
  The reduce loop of ring slot 1, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t23_trips : k0_t23_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t23 (d : Dev nD) (L : grid0.Coords)
    (a14 a15 a16 a17 r0 r1 r2 r3 r4 r5 : DmaSems sig S_)
    (k0_t18 : Fin k0_t18_loop.trips) (arg18 : BitVec 32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t23_loop.lb k0_t23_loop.ub k0_t23_loop.st k0_t23_ok init
      (k0_t23_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t18 arg18) where
  inv l acc := iprop(((s3).view.loc (thrOf d L) ↦{fullShare} fb) ∗ ⌜acc = accsAt fb 0 l⌝)
  step l acc := by
    iintro ⟨HB, %hacc⟩
    subst hacc
    unfold Gen.k0_t23_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed24.lean ====
/-
  The reduce loop of ring slot 1, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t24_trips : k0_t24_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t24 (d : Dev nD) (L : grid0.Coords)
    (a14 a15 a16 a17 r0 r1 r2 r3 r4 r5 : DmaSems sig S_)
    (v324 : FVec F S16 .f32) (v325 : FVec F S16 .f32) (cst_203 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t24_loop.lb k0_t24_loop.ub k0_t24_loop.st k0_t24_ok init
      (k0_t24_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v324 v325 cst_203) where
  inv l acc := iprop(((s3).view.loc (thrOf d L) ↦{fullShare} fb) ∗ ⌜acc = accsAt fb 1 l⌝)
  step l acc := by
    iintro ⟨HB, %hacc⟩
    subst hacc
    unfold Gen.k0_t24_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed25.lean ====
/-
  The reduce loop of ring slot 1, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t25_trips : k0_t25_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t25 (d : Dev nD) (L : grid0.Coords)
    (a14 a15 a16 a17 r0 r1 r2 r3 r4 r5 : DmaSems sig S_)
    (v333_5 : FVec F S16 .f32) (v333_6 : FVec F S16 .f32) (v333_7 : FVec F S16 .f32) (v359 : FVec F S16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t25_loop.lb k0_t25_loop.ub k0_t25_loop.st k0_t25_ok init
      (k0_t25_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v333_5 v333_6 v333_7 v359) where
  inv l acc := iprop(((s3).view.loc (thrOf d L) ↦{fullShare} fb) ∗ ⌜acc = accsAt fb 2 l⌝)
  step l acc := by
    iintro ⟨HB, %hacc⟩
    subst hacc
    unfold Gen.k0_t25_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed26.lean ====
/-
  The reduce loop of ring slot 1, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t26_trips : k0_t26_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t26 (d : Dev nD) (L : grid0.Coords)
    (a14 a15 a16 a17 r0 r1 r2 r3 r4 r5 : DmaSems sig S_)
    (v391_6 : FVec F S16 .f32) (v391_7 : FVec F S16 .f32) (cst_265 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t26_loop.lb k0_t26_loop.ub k0_t26_loop.st k0_t26_ok init
      (k0_t26_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v391_6 v391_7 cst_265) where
  inv l acc := iprop(((s3).view.loc (thrOf d L) ↦{fullShare} fb) ∗ ⌜acc = accsAt fb 3 l⌝)
  step l acc := by
    iintro ⟨HB, %hacc⟩
    subst hacc
    unfold Gen.k0_t26_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed27.lean ====
/-
  The reduce loop of ring slot 2, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t27_trips : k0_t27_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t27 (d : Dev nD) (L : grid0.Coords)
    (a14 a15 a16 a17 r0 r1 r2 r3 r4 r5 : DmaSems sig S_)
    (k0_t18 : Fin k0_t18_loop.trips) (arg18 : BitVec 32) (v497 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t27_loop.lb k0_t27_loop.ub k0_t27_loop.st k0_t27_ok init
      (k0_t27_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t18 arg18 v497) where
  inv l acc := iprop(((s4).view.loc (thrOf d L) ↦{fullShare} fb) ∗ ⌜acc = accsAt fb 0 l⌝)
  step l acc := by
    iintro ⟨HB, %hacc⟩
    subst hacc
    unfold Gen.k0_t27_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed28.lean ====
/-
  The reduce loop of ring slot 2, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t28_trips : k0_t28_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t28 (d : Dev nD) (L : grid0.Coords)
    (a14 a15 a16 a17 r0 r1 r2 r3 r4 r5 : DmaSems sig S_)
    (v563 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t28_loop.lb k0_t28_loop.ub k0_t28_loop.st k0_t28_ok init
      (k0_t28_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v563) where
  inv l acc := iprop(((s4).view.loc (thrOf d L) ↦{fullShare} fb) ∗ ⌜acc = accsAt fb 1 l⌝)
  step l acc := by
    iintro ⟨HB, %hacc⟩
    subst hacc
    unfold Gen.k0_t28_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed29.lean ====
/-
  The reduce loop of ring slot 2, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t29_trips : k0_t29_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t29 (d : Dev nD) (L : grid0.Coords)
    (a14 a15 a16 a17 r0 r1 r2 r3 r4 r5 : DmaSems sig S_)
    (v622 : FVec F S16 .f32) (v623 : FVec F S16 .f32) (v624 : FVec F S16 .f32) (v625 : FVec F S16 .f32) (v626 : FVec F S16 .f32) (v627 : FVec F S16 .f32) (v628 : FVec F S16 .f32) (v629 : FVec F S16 .f32) (c0_i32_393 : BitVec 32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t29_loop.lb k0_t29_loop.ub k0_t29_loop.st k0_t29_ok init
      (k0_t29_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v622 v623 v624 v625 v626 v627 v628 v629 c0_i32_393) where
  inv l acc := iprop(((s4).view.loc (thrOf d L) ↦{fullShare} fb) ∗ ⌜acc = accsAt fb 2 l⌝)
  step l acc := by
    iintro ⟨HB, %hacc⟩
    subst hacc
    unfold Gen.k0_t29_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed30.lean ====
/-
  The reduce loop of ring slot 2, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t30_trips : k0_t30_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t30 (d : Dev nD) (L : grid0.Coords)
    (a14 a15 a16 a17 r0 r1 r2 r3 r4 r5 : DmaSems sig S_)
    (v631_6 : FVec F S16 .f32) (v631_7 : FVec F S16 .f32) (v663 : FVec F S16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t30_loop.lb k0_t30_loop.ub k0_t30_loop.st k0_t30_ok init
      (k0_t30_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v631_6 v631_7 v663) where
  inv l acc := iprop(((s4).view.loc (thrOf d L) ↦{fullShare} fb) ∗ ⌜acc = accsAt fb 3 l⌝)
  step l acc := by
    iintro ⟨HB, %hacc⟩
    subst hacc
    unfold Gen.k0_t30_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed31.lean ====
/-
  The reduce loop of ring slot 3, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t31_trips : k0_t31_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t31 (d : Dev nD) (L : grid0.Coords)
    (a14 a15 a16 a17 r0 r1 r2 r3 r4 r5 : DmaSems sig S_)
    (k0_t18 : Fin k0_t18_loop.trips) (arg18 : BitVec 32) (v733 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t31_loop.lb k0_t31_loop.ub k0_t31_loop.st k0_t31_ok init
      (k0_t31_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t18 arg18 v733) where
  inv l acc := iprop(((s5).view.loc (thrOf d L) ↦{fullShare} fb) ∗ ⌜acc = accsAt fb 0 l⌝)
  step l acc := by
    iintro ⟨HB, %hacc⟩
    subst hacc
    unfold Gen.k0_t31_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed32.lean ====
/-
  The reduce loop of ring slot 3, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t32_trips : k0_t32_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t32 (d : Dev nD) (L : grid0.Coords)
    (a14 a15 a16 a17 r0 r1 r2 r3 r4 r5 : DmaSems sig S_)
    (v799 : FVec F S16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t32_loop.lb k0_t32_loop.ub k0_t32_loop.st k0_t32_ok init
      (k0_t32_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v799) where
  inv l acc := iprop(((s5).view.loc (thrOf d L) ↦{fullShare} fb) ∗ ⌜acc = accsAt fb 1 l⌝)
  step l acc := by
    iintro ⟨HB, %hacc⟩
    subst hacc
    unfold Gen.k0_t32_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed33.lean ====
/-
  The reduce loop of ring slot 3, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t33_trips : k0_t33_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t33 (d : Dev nD) (L : grid0.Coords)
    (a14 a15 a16 a17 r0 r1 r2 r3 r4 r5 : DmaSems sig S_)
    (v862 : FVec F S16 .f32) (v863 : FVec F S16 .f32) (v864 : FVec F S16 .f32) (v865 : FVec F S16 .f32) (v866 : FVec F S16 .f32) (cst_537 : F .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t33_loop.lb k0_t33_loop.ub k0_t33_loop.st k0_t33_ok init
      (k0_t33_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v862 v863 v864 v865 v866 cst_537) where
  inv l acc := iprop(((s5).view.loc (thrOf d L) ↦{fullShare} fb) ∗ ⌜acc = accsAt fb 2 l⌝)
  step l acc := by
    iintro ⟨HB, %hacc⟩
    subst hacc
    unfold Gen.k0_t33_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed34.lean ====
/-
  The reduce loop of ring slot 3, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t34_trips : k0_t34_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t34 (d : Dev nD) (L : grid0.Coords)
    (a14 a15 a16 a17 r0 r1 r2 r3 r4 r5 : DmaSems sig S_)
    (v871_5 : FVec F S16 .f32) (v871_6 : FVec F S16 .f32) (v871_7 : FVec F S16 .f32) (v901 : FVec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t34_loop.lb k0_t34_loop.ub k0_t34_loop.st k0_t34_ok init
      (k0_t34_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v871_5 v871_6 v871_7 v901) where
  inv l acc := iprop(((s5).view.loc (thrOf d L) ↦{fullShare} fb) ∗ ⌜acc = accsAt fb 3 l⌝)
  step l acc := by
    iintro ⟨HB, %hacc⟩
    subst hacc
    unfold Gen.k0_t34_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScPhase1Lt.lean ====
/-
  One trip of the second table's chunk loop below the last: trip k < 7.

  For each ring slot b in turn: the gather of block 4 k + b of index buffer 1 is waited (row buffer, block and token
  back), its four segments of fifty rows are summed two rows a step and each column block's sum times the reciprocal of
  fifty is stored into row 4 b + s of the means' scratch, and block 4 k + b + 4 is fired into the slot. Then the scratch
  is copied out to chunk k of plane 1. After it the ring stands at point 4 (k + 1); the chunk holds the pooled value:
  every stored piece is a piece of the chunk's pooled rows and the 128 pieces tile the scratch.
-/
import proofs.«207262_g39728447488703_cont_8to1_b_1934_40_alg».proof.Proof.B_ScPhase1Defs
import proofs.«207262_g39728447488703_cont_8to1_b_1934_40_alg».proof.Proof.B_ScRed19
import proofs.«207262_g39728447488703_cont_8to1_b_1934_40_alg».proof.Proof.B_ScRed20
import proofs.«207262_g39728447488703_cont_8to1_b_1934_40_alg».proof.Proof.B_ScRed21
import proofs.«207262_g39728447488703_cont_8to1_b_1934_40_alg».proof.Proof.B_ScRed22
import proofs.«207262_g39728447488703_cont_8to1_b_1934_40_alg».proof.Proof.B_ScRed23
import proofs.«207262_g39728447488703_cont_8to1_b_1934_40_alg».proof.Proof.B_ScRed24
import proofs.«207262_g39728447488703_cont_8to1_b_1934_40_alg».proof.Proof.B_ScRed25
import proofs.«207262_g39728447488703_cont_8to1_b_1934_40_alg».proof.Proof.B_ScRed26
import proofs.«207262_g39728447488703_cont_8to1_b_1934_40_alg».proof.Proof.B_ScRed27
import proofs.«207262_g39728447488703_cont_8to1_b_1934_40_alg».proof.Proof.B_ScRed28
import proofs.«207262_g39728447488703_cont_8to1_b_1934_40_alg».proof.Proof.B_ScRed29
import proofs.«207262_g39728447488703_cont_8to1_b_1934_40_alg».proof.Proof.B_ScRed30
import proofs.«207262_g39728447488703_cont_8to1_b_1934_40_alg».proof.Proof.B_ScRed31
import proofs.«207262_g39728447488703_cont_8to1_b_1934_40_alg».proof.Proof.B_ScRed32
import proofs.«207262_g39728447488703_cont_8to1_b_1934_40_alg».proof.Proof.B_ScRed33
import proofs.«207262_g39728447488703_cont_8to1_b_1934_40_alg».proof.Proof.B_ScRed34
import proofs.«207262_g39728447488703_cont_8to1_b_1934_40_alg».proof.Proof.B_ScTripClose
import proofs.«207262_g39728447488703_cont_8to1_b_1934_40_alg».proof.Proof.Gen.Kernel.Skeleton
import Idealize.ShloMosaic.Lib.Ring
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Trips

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1)
  (O : CellTallies nD τ sig (HIx 1)) (W : Waits sig (HIx 1))

set_option maxHeartbeats 16000000 in
theorem trip1_lt (v2 : BitVec 32) (k : Fin k0_t18_loop.trips) (hk : k.val < 7) (hR1 : (s1).view.read (Elt F) X1 = idxBuf m d L 1) :
    inv1 m d L q X0 X1 hX0 hX1 O W k.val ⊢ wp frame (wpE (defs₀ (F := F)) 𝒱₀ (thrOf d L) none) Set.univ
      (k0_t18_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        cc0_scratch7 cc0_scratch8 cc0_scratch9 cc0_scratch10 cc0_scoped0 cc0_scoped1 cc0_scoped2 cc0_scoped3 cc0_scoped4 cc0_scoped5 v2 k ()) (fun _ => inv1 m d L q X0 X1 hX0 hX1 O W (k.val + 1)) := by
  have hk8 : k.val < 8 := by omega
  unfold inv1
  rw [if_pos hk8, if_pos (show k.val + 1 < 8 by omega)]
  unfold ringAt
  rw [chunk_homes_here _ k.val hk, chunk_homes_next _ k.val hk,
    slotAt_lt _ _ _ _ _ _ _ _ _ _ _ (show 4 * k.val + 0 < 32 by omega), slotAt_lt _ _ _ _ _ _ _ _ _ _ _ (show 4 * k.val + 1 < 32 by omega),
    slotAt_lt _ _ _ _ _ _ _ _ _ _ _ (show 4 * k.val + 2 < 32 by omega), slotAt_lt _ _ _ _ _ _ _ _ _ _ _ (show 4 * k.val + 3 < 32 by omega),
    slotAt_lt _ _ _ _ _ _ _ _ _ _ _ (show 4 * (k.val + 1) + 0 < 32 by omega), slotAt_lt _ _ _ _ _ _ _ _ _ _ _ (show 4 * (k.val + 1) + 1 < 32 by omega),
    slotAt_lt _ _ _ _ _ _ _ _ _ _ _ (show 4 * (k.val + 1) + 2 < 32 by omega), slotAt_lt _ _ _ _ _ _ _ _ _ _ _ (show 4 * (k.val + 1) + 3 < 32 by omega),
    bk32_next k.val 0, bk32_next k.val 1, bk32_next k.val 2, bk32_next k.val 3,
    plane_here m d L 1 k.val hk8, plane_next m d L 1 k.val hk8]
  iintro ⟨⟨⟨Hh0, Hh1, Hh2, Hh3, Hrest⟩, ⟨%f2, HF0, Hb0⟩, ⟨%f3, HF1, Hb1⟩, ⟨%f4, HF2, Hb2⟩, ⟨%f5, HF3, Hb3⟩⟩, Hs0, Hc0, Hc1, Hc2, Hc3, ⟨%f6, H6⟩, Hr4, ⟨⟨%fo, Ho⟩, Hpl⟩, Hmw, ⟨%W', %hW', HO⟩⟩
  have hin0 := hX1 (Ring.bk 32 (4 * k.val + 0 + 4))
  have hin1 := hX1 (Ring.bk 32 (4 * k.val + 1 + 4))
  have hin2 := hX1 (Ring.bk 32 (4 * k.val + 2 + 4))
  have hin3 := hX1 (Ring.bk 32 (4 * k.val + 3 + 4))
  have hc9 : k0_cond9 k = 1#1 := (cond9_iff k).mpr hk
  have hc11 : k0_cond11 k = 1#1 := (cond11_iff k).mpr hk
  have hc13 : k0_cond13 k = 1#1 := (cond13_iff k).mpr hk
  have hc15 : k0_cond15 k = 1#1 := (cond15_iff k).mpr hk
  have hn10 : ¬ k0_cond10 k = 1#1 := fun h => by have := (cond10_iff k).mp h; omega
  have hn12 : ¬ k0_cond12 k = 1#1 := fun h => by have := (cond12_iff k).mp h; omega
  have hn14 : ¬ k0_cond14 k = 1#1 := fun h => by have := (cond14_iff k).mp h; omega
  have hn16 : ¬ k0_cond16 k = 1#1 := fun h => by have := (cond16_iff k).mp h; omega
  unfold Gen.k0_t18_body
  sl_exec
  sl_step
  -- the four blocks just back, the rest
  isplitl [HF0_dst_and HF1_dst_and HF2_dst_and HF3_dst_and Hrest HF0 Hb0 HF1 Hb1 HF2 Hb2 HF3 Hb3]
  · isplitl [HF0_dst_and HF1_dst_and HF2_dst_and HF3_dst_and Hrest]
    · isplitl [HF0_dst_and]; · iexact HF0_dst_and
      isplitl [HF1_dst_and]; · iexact HF1_dst_and
      isplitl [HF2_dst_and]; · iexact HF2_dst_and
      isplitl [HF3_dst_and]; · iexact HF3_dst_and
      iexact Hrest
    isplitl [HF0 Hb0]
    · iexists (s2.view.writes (Elt F) s2.view.junk [⟨Rect.whole S200x128, gathered d L bV (m (bLoc d)) s1 X1 hX1 (Ring.bk 32 (4 * k.val + 0))⟩])
      irw [flightP_after]
      isplitl [HF0]; · iexact HF0
      iexact Hb0
    isplitl [HF1 Hb1]
    · iexists (s3.view.writes (Elt F) s3.view.junk [⟨Rect.whole S200x128, gathered d L bV (m (bLoc d)) s1 X1 hX1 (Ring.bk 32 (4 * k.val + 1))⟩])
      irw [flightP_after]
      isplitl [HF1]; · iexact HF1
      iexact Hb1
    isplitl [HF2 Hb2]
    · iexists (s4.view.writes (Elt F) s4.view.junk [⟨Rect.whole S200x128, gathered d L bV (m (bLoc d)) s1 X1 hX1 (Ring.bk 32 (4 * k.val + 2))⟩])
      irw [flightP_after]
      isplitl [HF2]; · iexact HF2
      iexact Hb2
    · iexists (s5.view.writes (Elt F) s5.view.junk [⟨Rect.whole S200x128, gathered d L bV (m (bLoc d)) s1 X1 hX1 (Ring.bk 32 (4 * k.val + 3))⟩])
      irw [flightP_after]
      isplitl [HF3]; · iexact HF3
      iexact Hb3
  isplitl [Hs0]; · iexact Hs0
  isplitl [Hc0]; · iexact Hc0
  isplitl [Hc1]; · iexact Hc1
  isplitl [Hc2]; · iexact Hc2
  isplitl [Hc3]; · iexact Hc3
  isplitl [H6]; · iexists _; iexact H6
  isplitl [Hr4]; · iexact Hr4
  isplitl [Ho Hpl]
  · isplitl [Ho]
    · have hG : ∀ p ∈ trip1_lt.sl.H6_128 m d L X1 hX1 k, ∀ x : p.1.shape.Idx,
          p.2 x = chunkG m d L (m (aLoc d)) (m (bLoc d)) (m (cLoc d)) 1 (Ring.bk 8 k.val) (p.1.emb x) := by
        sl_unfold_run_names
        have hk8 : k.val = (Ring.bk 8 k.val).val := (bk8_val (trips18 k)).symm
        refine List.forall_mem_cons.2 ⟨fun x => piece_ok_s5 m d L bV (m (bLoc d)) s1 X1 hX1 (m (aLoc d)) (m (bLoc d)) (m (cLoc d)) 1 rfl hR1 _ (Ring.bk 8 k.val) 3 3 7 k.val 3 hk8 rfl _ k0_t34_trips _ rfl ![15, 112] rfl rfl inb_S16x128_S1x16_15_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 6 k.val 3 hk8 rfl _ k0_t34_trips _ rfl ![15, 96] rfl rfl inb_S16x128_S1x16_15_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 5 k.val 3 hk8 rfl _ k0_t34_trips _ rfl ![15, 80] rfl rfl inb_S16x128_S1x16_15_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 4 k.val 3 hk8 rfl _ k0_t34_trips _ rfl ![15, 64] rfl rfl inb_S16x128_S1x16_15_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 3 k.val 3 hk8 rfl _ k0_t34_trips _ rfl ![15, 48] rfl rfl inb_S16x128_S1x16_15_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 2 k.val 3 hk8 rfl _ k0_t34_trips _ rfl ![15, 32] rfl rfl inb_S16x128_S1x16_15_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 1 k.val 3 hk8 rfl _ k0_t34_trips _ rfl ![15, 16] rfl rfl inb_S16x128_S1x16_15_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 0 k.val 3 hk8 rfl _ k0_t34_trips _ rfl ![15, 0] rfl rfl inb_S16x128_S1x16_15_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 7 k.val 3 hk8 rfl _ k0_t33_trips _ rfl ![14, 112] rfl rfl inb_S16x128_S1x16_14_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 6 k.val 3 hk8 rfl _ k0_t33_trips _ rfl ![14, 96] rfl rfl inb_S16x128_S1x16_14_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 5 k.val 3 hk8 rfl _ k0_t33_trips _ rfl ![14, 80] rfl rfl inb_S16x128_S1x16_14_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 4 k.val 3 hk8 rfl _ k0_t33_trips _ rfl ![14, 64] rfl rfl inb_S16x128_S1x16_14_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 3 k.val 3 hk8 rfl _ k0_t33_trips _ rfl ![14, 48] rfl rfl inb_S16x128_S1x16_14_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 2 k.val 3 hk8 rfl _ k0_t33_trips _ rfl ![14, 32] rfl rfl inb_S16x128_S1x16_14_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 1 k.val 3 hk8 rfl _ k0_t33_trips _ rfl ![14, 16] rfl rfl inb_S16x128_S1x16_14_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 0 k.val 3 hk8 rfl _ k0_t33_trips _ rfl ![14, 0] rfl rfl inb_S16x128_S1x16_14_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 7 k.val 3 hk8 rfl _ k0_t32_trips _ rfl ![13, 112] rfl rfl inb_S16x128_S1x16_13_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 6 k.val 3 hk8 rfl _ k0_t32_trips _ rfl ![13, 96] rfl rfl inb_S16x128_S1x16_13_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 5 k.val 3 hk8 rfl _ k0_t32_trips _ rfl ![13, 80] rfl rfl inb_S16x128_S1x16_13_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 4 k.val 3 hk8 rfl _ k0_t32_trips _ rfl ![13, 64] rfl rfl inb_S16x128_S1x16_13_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 3 k.val 3 hk8 rfl _ k0_t32_trips _ rfl ![13, 48] rfl rfl inb_S16x128_S1x16_13_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 2 k.val 3 hk8 rfl _ k0_t32_trips _ rfl ![13, 32] rfl rfl inb_S16x128_S1x16_13_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 1 k.val 3 hk8 rfl _ k0_t32_trips _ rfl ![13, 16] rfl rfl inb_S16x128_S1x16_13_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 0 k.val 3 hk8 rfl _ k0_t32_trips _ rfl ![13, 0] rfl rfl inb_S16x128_S1x16_13_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 7 k.val 3 hk8 rfl _ k0_t31_trips _ rfl ![12, 112] rfl rfl inb_S16x128_S1x16_12_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 6 k.val 3 hk8 rfl _ k0_t31_trips _ rfl ![12, 96] rfl rfl inb_S16x128_S1x16_12_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 5 k.val 3 hk8 rfl _ k0_t31_trips _ rfl ![12, 80] rfl rfl inb_S16x128_S1x16_12_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 4 k.val 3 hk8 rfl _ k0_t31_trips _ rfl ![12, 64] rfl rfl inb_S16x128_S1x16_12_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 3 k.val 3 hk8 rfl _ k0_t31_trips _ rfl ![12, 48] rfl rfl inb_S16x128_S1x16_12_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 2 k.val 3 hk8 rfl _ k0_t31_trips _ rfl ![12, 32] rfl rfl inb_S16x128_S1x16_12_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 1 k.val 3 hk8 rfl _ k0_t31_trips _ rfl ![12, 16] rfl rfl inb_S16x128_S1x16_12_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 0 k.val 3 hk8 rfl _ k0_t31_trips _ rfl ![12, 0] rfl rfl inb_S16x128_S1x16_12_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 7 k.val 2 hk8 rfl _ k0_t30_trips _ rfl ![11, 112] rfl rfl inb_S16x128_S1x16_11_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 6 k.val 2 hk8 rfl _ k0_t30_trips _ rfl ![11, 96] rfl rfl inb_S16x128_S1x16_11_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 5 k.val 2 hk8 rfl _ k0_t30_trips _ rfl ![11, 80] rfl rfl inb_S16x128_S1x16_11_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 4 k.val 2 hk8 rfl _ k0_t30_trips _ rfl ![11, 64] rfl rfl inb_S16x128_S1x16_11_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 3 k.val 2 hk8 rfl _ k0_t30_trips _ rfl ![11, 48] rfl rfl inb_S16x128_S1x16_11_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 2 k.val 2 hk8 rfl _ k0_t30_trips _ rfl ![11, 32] rfl rfl inb_S16x128_S1x16_11_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 1 k.val 2 hk8 rfl _ k0_t30_trips _ rfl ![11, 16] rfl rfl inb_S16x128_S1x16_11_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 0 k.val 2 hk8 rfl _ k0_t30_trips _ rfl ![11, 0] rfl rfl inb_S16x128_S1x16_11_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 7 k.val 2 hk8 rfl _ k0_t29_trips _ rfl ![10, 112] rfl rfl inb_S16x128_S1x16_10_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 6 k.val 2 hk8 rfl _ k0_t29_trips _ rfl ![10, 96] rfl rfl inb_S16x128_S1x16_10_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 5 k.val 2 hk8 rfl _ k0_t29_trips _ rfl ![10, 80] rfl rfl inb_S16x128_S1x16_10_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 4 k.val 2 hk8 rfl _ k0_t29_trips _ rfl ![10, 64] rfl rfl inb_S16x128_S1x16_10_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 3 k.val 2 hk8 rfl _ k0_t29_trips _ rfl ![10, 48] rfl rfl inb_S16x128_S1x16_10_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 2 k.val 2 hk8 rfl _ k0_t29_trips _ rfl ![10, 32] rfl rfl inb_S16x128_S1x16_10_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 1 k.val 2 hk8 rfl _ k0_t29_trips _ rfl ![10, 16] rfl rfl inb_S16x128_S1x16_10_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 0 k.val 2 hk8 rfl _ k0_t29_trips _ rfl ![10, 0] rfl rfl inb_S16x128_S1x16_10_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 7 k.val 2 hk8 rfl _ k0_t28_trips _ rfl ![9, 112] rfl rfl inb_S16x128_S1x16_9_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 6 k.val 2 hk8 rfl _ k0_t28_trips _ rfl ![9, 96] rfl rfl inb_S16x128_S1x16_9_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 5 k.val 2 hk8 rfl _ k0_t28_trips _ rfl ![9, 80] rfl rfl inb_S16x128_S1x16_9_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 4 k.val 2 hk8 rfl _ k0_t28_trips _ rfl ![9, 64] rfl rfl inb_S16x128_S1x16_9_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 3 k.val 2 hk8 rfl _ k0_t28_trips _ rfl ![9, 48] rfl rfl inb_S16x128_S1x16_9_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 2 k.val 2 hk8 rfl _ k0_t28_trips _ rfl ![9, 32] rfl rfl inb_S16x128_S1x16_9_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 1 k.val 2 hk8 rfl _ k0_t28_trips _ rfl ![9, 16] rfl rfl inb_S16x128_S1x16_9_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 0 k.val 2 hk8 rfl _ k0_t28_trips _ rfl ![9, 0] rfl rfl inb_S16x128_S1x16_9_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 7 k.val 2 hk8 rfl _ k0_t27_trips _ rfl ![8, 112] rfl rfl inb_S16x128_S1x16_8_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 6 k.val 2 hk8 rfl _ k0_t27_trips _ rfl ![8, 96] rfl rfl inb_S16x128_S1x16_8_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 5 k.val 2 hk8 rfl _ k0_t27_trips _ rfl ![8, 80] rfl rfl inb_S16x128_S1x16_8_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 4 k.val 2 hk8 rfl _ k0_t27_trips _ rfl ![8, 64] rfl rfl inb_S16x128_S1x16_8_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 3 k.val 2 hk8 rfl _ k0_t27_trips _ rfl ![8, 48] rfl rfl inb_S16x128_S1x16_8_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 2 k.val 2 hk8 rfl _ k0_t27_trips _ rfl ![8, 32] rfl rfl inb_S16x128_S1x16_8_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 1 k.val 2 hk8 rfl _ k0_t27_trips _ rfl ![8, 16] rfl rfl inb_S16x128_S1x16_8_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 0 k.val 2 hk8 rfl _ k0_t27_trips _ rfl ![8, 0] rfl rfl inb_S16x128_S1x16_8_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 7 k.val 1 hk8 rfl _ k0_t26_trips _ rfl ![7, 112] rfl rfl inb_S16x128_S1x16_7_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 6 k.val 1 hk8 rfl _ k0_t26_trips _ rfl ![7, 96] rfl rfl inb_S16x128_S1x16_7_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 5 k.val 1 hk8 rfl _ k0_t26_trips _ rfl ![7, 80] rfl rfl inb_S16x128_S1x16_7_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 4 k.val 1 hk8 rfl _ k0_t26_trips _ rfl ![7, 64] rfl rfl inb_S16x128_S1x16_7_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 3 k.val 1 hk8 rfl _ k0_t26_trips _ rfl ![7, 48] rfl rfl inb_S16x128_S1x16_7_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 2 k.val 1 hk8 rfl _ k0_t26_trips _ rfl ![7, 32] rfl rfl inb_S16x128_S1x16_7_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 1 k.val 1 hk8 rfl _ k0_t26_trips _ rfl ![7, 16] rfl rfl inb_S16x128_S1x16_7_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 0 k.val 1 hk8 rfl _ k0_t26_trips _ rfl ![7, 0] rfl rfl inb_S16x128_S1x16_7_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 7 k.val 1 hk8 rfl _ k0_t25_trips _ rfl ![6, 112] rfl rfl inb_S16x128_S1x16_6_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 6 k.val 1 hk8 rfl _ k0_t25_trips _ rfl ![6, 96] rfl rfl inb_S16x128_S1x16_6_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 5 k.val 1 hk8 rfl _ k0_t25_trips _ rfl ![6, 80] rfl rfl inb_S16x128_S1x16_6_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 4 k.val 1 hk8 rfl _ k0_t25_trips _ rfl ![6, 64] rfl rfl inb_S16x128_S1x16_6_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 3 k.val 1 hk8 rfl _ k0_t25_trips _ rfl ![6, 48] rfl rfl inb_S16x128_S1x16_6_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 2 k.val 1 hk8 rfl _ k0_t25_trips _ rfl ![6, 32] rfl rfl inb_S16x128_S1x16_6_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 1 k.val 1 hk8 rfl _ k0_t25_trips _ rfl ![6, 16] rfl rfl inb_S16x128_S1x16_6_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 0 k.val 1 hk8 rfl _ k0_t25_trips _ rfl ![6, 0] rfl rfl inb_S16x128_S1x16_6_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 7 k.val 1 hk8 rfl _ k0_t24_trips _ rfl ![5, 112] rfl rfl inb_S16x128_S1x16_5_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 6 k.val 1 hk8 rfl _ k0_t24_trips _ rfl ![5, 96] rfl rfl inb_S16x128_S1x16_5_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 5 k.val 1 hk8 rfl _ k0_t24_trips _ rfl ![5, 80] rfl rfl inb_S16x128_S1x16_5_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 4 k.val 1 hk8 rfl _ k0_t24_trips _ rfl ![5, 64] rfl rfl inb_S16x128_S1x16_5_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 3 k.val 1 hk8 rfl _ k0_t24_trips _ rfl ![5, 48] rfl rfl inb_S16x128_S1x16_5_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 2 k.val 1 hk8 rfl _ k0_t24_trips _ rfl ![5, 32] rfl rfl inb_S16x128_S1x16_5_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 1 k.val 1 hk8 rfl _ k0_t24_trips _ rfl ![5, 16] rfl rfl inb_S16x128_S1x16_5_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 0 k.val 1 hk8 rfl _ k0_t24_trips _ rfl ![5, 0] rfl rfl inb_S16x128_S1x16_5_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 7 k.val 1 hk8 rfl _ k0_t23_trips _ rfl ![4, 112] rfl rfl inb_S16x128_S1x16_4_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 6 k.val 1 hk8 rfl _ k0_t23_trips _ rfl ![4, 96] rfl rfl inb_S16x128_S1x16_4_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 5 k.val 1 hk8 rfl _ k0_t23_trips _ rfl ![4, 80] rfl rfl inb_S16x128_S1x16_4_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 4 k.val 1 hk8 rfl _ k0_t23_trips _ rfl ![4, 64] rfl rfl inb_S16x128_S1x16_4_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 3 k.val 1 hk8 rfl _ k0_t23_trips _ rfl ![4, 48] rfl rfl inb_S16x128_S1x16_4_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 2 k.val 1 hk8 rfl _ k0_t23_trips _ rfl ![4, 32] rfl rfl inb_S16x128_S1x16_4_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 1 k.val 1 hk8 rfl _ k0_t23_trips _ rfl ![4, 16] rfl rfl inb_S16x128_S1x16_4_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 0 k.val 1 hk8 rfl _ k0_t23_trips _ rfl ![4, 0] rfl rfl inb_S16x128_S1x16_4_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 7 k.val 0 hk8 rfl _ k0_t22_trips _ rfl ![3, 112] rfl rfl inb_S16x128_S1x16_3_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 6 k.val 0 hk8 rfl _ k0_t22_trips _ rfl ![3, 96] rfl rfl inb_S16x128_S1x16_3_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 5 k.val 0 hk8 rfl _ k0_t22_trips _ rfl ![3, 80] rfl rfl inb_S16x128_S1x16_3_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 4 k.val 0 hk8 rfl _ k0_t22_trips _ rfl ![3, 64] rfl rfl inb_S16x128_S1x16_3_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 3 k.val 0 hk8 rfl _ k0_t22_trips _ rfl ![3, 48] rfl rfl inb_S16x128_S1x16_3_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 2 k.val 0 hk8 rfl _ k0_t22_trips _ rfl ![3, 32] rfl rfl inb_S16x128_S1x16_3_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 1 k.val 0 hk8 rfl _ k0_t22_trips _ rfl ![3, 16] rfl rfl inb_S16x128_S1x16_3_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 0 k.val 0 hk8 rfl _ k0_t22_trips _ rfl ![3, 0] rfl rfl inb_S16x128_S1x16_3_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 7 k.val 0 hk8 rfl _ k0_t21_trips _ rfl ![2, 112] rfl rfl inb_S16x128_S1x16_2_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 6 k.val 0 hk8 rfl _ k0_t21_trips _ rfl ![2, 96] rfl rfl inb_S16x128_S1x16_2_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 5 k.val 0 hk8 rfl _ k0_t21_trips _ rfl ![2, 80] rfl rfl inb_S16x128_S1x16_2_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 4 k.val 0 hk8 rfl _ k0_t21_trips _ rfl ![2, 64] rfl rfl inb_S16x128_S1x16_2_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 3 k.val 0 hk8 rfl _ k0_t21_trips _ rfl ![2, 48] rfl rfl inb_S16x128_S1x16_2_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 2 k.val 0 hk8 rfl _ k0_t21_trips _ rfl ![2, 32] rfl rfl inb_S16x128_S1x16_2_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 1 k.val 0 hk8 rfl _ k0_t21_trips _ rfl ![2, 16] rfl rfl inb_S16x128_S1x16_2_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 0 k.val 0 hk8 rfl _ k0_t21_trips _ rfl ![2, 0] rfl rfl inb_S16x128_S1x16_2_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 7 k.val 0 hk8 rfl _ k0_t20_trips _ rfl ![1, 112] rfl rfl inb_S16x128_S1x16_1_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 6 k.val 0 hk8 rfl _ k0_t20_trips _ rfl ![1, 96] rfl rfl inb_S16x128_S1x16_1_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 5 k.val 0 hk8 rfl _ k0_t20_trips _ rfl ![1, 80] rfl rfl inb_S16x128_S1x16_1_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 4 k.val 0 hk8 rfl _ k0_t20_trips _ rfl ![1, 64] rfl rfl inb_S16x128_S1x16_1_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 3 k.val 0 hk8 rfl _ k0_t20_trips _ rfl ![1, 48] rfl rfl inb_S16x128_S1x16_1_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 2 k.val 0 hk8 rfl _ k0_t20_trips _ rfl ![1, 32] rfl rfl inb_S16x128_S1x16_1_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 1 k.val 0 hk8 rfl _ k0_t20_trips _ rfl ![1, 16] rfl rfl inb_S16x128_S1x16_1_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 0 k.val 0 hk8 rfl _ k0_t20_trips _ rfl ![1, 0] rfl rfl inb_S16x128_S1x16_1_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 7 k.val 0 hk8 rfl _ k0_t19_trips _ rfl ![0, 112] rfl rfl inb_S16x128_S1x16_0_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 6 k.val 0 hk8 rfl _ k0_t19_trips _ rfl ![0, 96] rfl rfl inb_S16x128_S1x16_0_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 5 k.val 0 hk8 rfl _ k0_t19_trips _ rfl ![0, 80] rfl rfl inb_S16x128_S1x16_0_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 4 k.val 0 hk8 rfl _ k0_t19_trips _ rfl ![0, 64] rfl rfl inb_S16x128_S1x16_0_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 3 k.val 0 hk8 rfl _ k0_t19_trips _ rfl ![0, 48] rfl rfl inb_S16x128_S1x16_0_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 2 k.val 0 hk8 rfl _ k0_t19_trips _ rfl ![0, 32] rfl rfl inb_S16x128_S1x16_0_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 1 k.val 0 hk8 rfl _ k0_t19_trips _ rfl ![0, 16] rfl rfl inb_S16x128_S1x16_0_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 0 k.val 0 hk8 rfl _ k0_t19_trips _ rfl ![0, 0] rfl rfl inb_S16x128_S1x16_0_0 x, ?_⟩
        exact List.forall_mem_nil _
      have hcov : ∀ y : S16x128.Idx, ∃ p ∈ trip1_lt.sl.H6_128 m d L X1 hX1 k, y ∈ p.1.set := by
        sl_unfold_run_names
        exact View.cover_of_tiled _ S1x16.size rfl
      iapply (Entails.of_eq (trip_close m d L 1 (Ring.bk 8 k.val) s6 f6 _ fo hG hcov (trip1_lt.sl.dma16 m d L X1 hX1 k f6) rfl))
      iexact Ho
    iexact Hpl
  isplitl [Hmw]; · iexact Hmw
  iexists _; isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Trips

end Cert.Kernel.Sc

end
-- ==== Proof.B_ScPhase1Last.lean ====
/-
  The last trip of the second table's chunk loop: the four slots land the second table's last streams over index
  buffer 1, the chunk's sixteen means are reduced and copied out, and each slot is fired again — now for the THIRD
  table, over index buffer 0's first four blocks. After it every block of buffer 1 is home, the second table's tokens
  are whole, and the third table's ring stands at its start.
-/
import proofs.«207262_g39728447488703_cont_8to1_b_1934_40_alg».proof.Proof.B_ScPhase1Defs
import proofs.«207262_g39728447488703_cont_8to1_b_1934_40_alg».proof.Proof.B_ScRed19
import proofs.«207262_g39728447488703_cont_8to1_b_1934_40_alg».proof.Proof.B_ScRed20
import proofs.«207262_g39728447488703_cont_8to1_b_1934_40_alg».proof.Proof.B_ScRed21
import proofs.«207262_g39728447488703_cont_8to1_b_1934_40_alg».proof.Proof.B_ScRed22
import proofs.«207262_g39728447488703_cont_8to1_b_1934_40_alg».proof.Proof.B_ScRed23
import proofs.«207262_g39728447488703_cont_8to1_b_1934_40_alg».proof.Proof.B_ScRed24
import proofs.«207262_g39728447488703_cont_8to1_b_1934_40_alg».proof.Proof.B_ScRed25
import proofs.«207262_g39728447488703_cont_8to1_b_1934_40_alg».proof.Proof.B_ScRed26
import proofs.«207262_g39728447488703_cont_8to1_b_1934_40_alg».proof.Proof.B_ScRed27
import proofs.«207262_g39728447488703_cont_8to1_b_1934_40_alg».proof.Proof.B_ScRed28
import proofs.«207262_g39728447488703_cont_8to1_b_1934_40_alg».proof.Proof.B_ScRed29
import proofs.«207262_g39728447488703_cont_8to1_b_1934_40_alg».proof.Proof.B_ScRed30
import proofs.«207262_g39728447488703_cont_8to1_b_1934_40_alg».proof.Proof.B_ScRed31
import proofs.«207262_g39728447488703_cont_8to1_b_1934_40_alg».proof.Proof.B_ScRed32
import proofs.«207262_g39728447488703_cont_8to1_b_1934_40_alg».proof.Proof.B_ScRed33
import proofs.«207262_g39728447488703_cont_8to1_b_1934_40_alg».proof.Proof.B_ScRed34
import proofs.«207262_g39728447488703_cont_8to1_b_1934_40_alg».proof.Proof.B_ScTripVal
import proofs.«207262_g39728447488703_cont_8to1_b_1934_40_alg».proof.Proof.B_ScTripClose
import proofs.«207262_g39728447488703_cont_8to1_b_1934_40_alg».proof.Proof.Gen.Kernel.Skeleton
import Idealize.ShloMosaic.Lib.Ring
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Trips

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1)
  (O : CellTallies nD τ sig (HIx 1)) (W : Waits sig (HIx 1))

set_option maxHeartbeats 16000000 in
theorem trip_7 (v2 : BitVec 32) (k : Fin k0_t18_loop.trips) (hk : k.val = 7) (hR1 : (s1).view.read (Elt F) X1 = idxBuf m d L 1) :
    inv1 m d L q X0 X1 hX0 hX1 O W k.val ⊢ wp frame (wpE (defs₀ (F := F)) 𝒱₀ (thrOf d L) none) Set.univ
      (k0_t18_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        cc0_scratch7 cc0_scratch8 cc0_scratch9 cc0_scratch10 cc0_scoped0 cc0_scoped1 cc0_scoped2 cc0_scoped3 cc0_scoped4 cc0_scoped5 v2 k ()) (fun _ => inv1 m d L q X0 X1 hX0 hX1 O W (k.val + 1)) := by
  have hk8 : k.val < 8 := by omega
  have e8 : inv1 m d L q X0 X1 hX0 hX1 O W (k.val + 1) = inv1 m d L q X0 X1 hX0 hX1 O W 8 := by rw [hk]
  have e9 : planeAt m d L 1 8 = planeAt m d L 1 (k.val + 1) := by rw [hk]
  rw [e8, inv1_eight, e9, ringAt_point0, homes_univ_last d L s1 X1 k.val hk]
  unfold inv1
  rw [if_pos hk8, homes_univ_start d L s0 X0]
  unfold ringAt
  rw [slotAt_lt _ _ _ _ _ _ _ _ _ _ _ (show 4 * k.val + 0 < 32 by omega), slotAt_lt _ _ _ _ _ _ _ _ _ _ _ (show 4 * k.val + 1 < 32 by omega),
    slotAt_lt _ _ _ _ _ _ _ _ _ _ _ (show 4 * k.val + 2 < 32 by omega), slotAt_lt _ _ _ _ _ _ _ _ _ _ _ (show 4 * k.val + 3 < 32 by omega),
    plane_here m d L 1 k.val hk8, plane_next m d L 1 k.val hk8]
  iintro ⟨⟨Hhome, ⟨%f2, HF0, Hb0⟩, ⟨%f3, HF1, Hb1⟩, ⟨%f4, HF2, Hb2⟩, ⟨%f5, HF3, Hb3⟩⟩, ⟨Hz0, Hz1, Hz2, Hz3, Hzrest⟩, Hc0, Hc1, Hc2, Hc3, ⟨%f6, H6⟩, Hr4, ⟨⟨%fo, Ho⟩, Hpl⟩, Hmw, ⟨%W', %hW', HO⟩⟩
  have hin0 := hX0 (Ring.bk 32 0)
  have hin1 := hX0 (Ring.bk 32 1)
  have hin2 := hX0 (Ring.bk 32 2)
  have hin3 := hX0 (Ring.bk 32 3)
  have hn9 : ¬ k0_cond9 k = 1#1 := fun h => by have := (cond9_iff k).mp h; omega
  have hn11 : ¬ k0_cond11 k = 1#1 := fun h => by have := (cond11_iff k).mp h; omega
  have hn13 : ¬ k0_cond13 k = 1#1 := fun h => by have := (cond13_iff k).mp h; omega
  have hn15 : ¬ k0_cond15 k = 1#1 := fun h => by have := (cond15_iff k).mp h; omega
  have hc10 : k0_cond10 k = 1#1 := (cond10_iff k).mpr hk
  have hc12 : k0_cond12 k = 1#1 := (cond12_iff k).mpr hk
  have hc14 : k0_cond14 k = 1#1 := (cond14_iff k).mpr hk
  have hc16 : k0_cond16 k = 1#1 := (cond16_iff k).mpr hk
  unfold Gen.k0_t18_body
  sl_exec
  sl_step
  -- the third table's ring at its start over buffer 0: the blocks no slot took, the four slots in flight
  isplitl [Hzrest HF0 Hc0 HF1 Hc1 HF2 Hc2 HF3 Hc3]
  · isplitl [Hzrest]; · iexact Hzrest
    isplitl [HF0 Hc0]
    · iexists (s2.view.writes (Elt F) s2.view.junk [⟨Rect.whole S200x128, gathered d L bV (m (bLoc d)) s1 X1 hX1 (Ring.bk 32 (4 * k.val + 0))⟩])
      irw [flightP_afterG]
      isplitl [HF0]; · iexact HF0
      iexact Hc0
    isplitl [HF1 Hc1]
    · iexists (s3.view.writes (Elt F) s3.view.junk [⟨Rect.whole S200x128, gathered d L bV (m (bLoc d)) s1 X1 hX1 (Ring.bk 32 (4 * k.val + 1))⟩])
      irw [flightP_afterG]
      isplitl [HF1]; · iexact HF1
      iexact Hc1
    isplitl [HF2 Hc2]
    · iexists (s4.view.writes (Elt F) s4.view.junk [⟨Rect.whole S200x128, gathered d L bV (m (bLoc d)) s1 X1 hX1 (Ring.bk 32 (4 * k.val + 2))⟩])
      irw [flightP_afterG]
      isplitl [HF2]; · iexact HF2
      iexact Hc2
    · iexists (s5.view.writes (Elt F) s5.view.junk [⟨Rect.whole S200x128, gathered d L bV (m (bLoc d)) s1 X1 hX1 (Ring.bk 32 (4 * k.val + 3))⟩])
      irw [flightP_afterG]
      isplitl [HF3]; · iexact HF3
      iexact Hc3
  -- buffer 1: the four blocks just back, the rest
  isplitl [HF0_dst_and HF1_dst_and HF2_dst_and HF3_dst_and Hhome]
  · isplitl [HF0_dst_and]; · iexact HF0_dst_and
    isplitl [HF1_dst_and]; · iexact HF1_dst_and
    isplitl [HF2_dst_and]; · iexact HF2_dst_and
    isplitl [HF3_dst_and]; · iexact HF3_dst_and
    iexact Hhome
  -- the second table's tokens, whole again
  isplitl [Hb0]; · iexact Hb0
  isplitl [Hb1]; · iexact Hb1
  isplitl [Hb2]; · iexact Hb2
  isplitl [Hb3]; · iexact Hb3
  isplitl [H6]; · iexists _; iexact H6
  isplitl [Hr4]; · iexact Hr4
  -- the chunk just copied out holds the pooled rows
  isplitl [Ho Hpl]
  · isplitl [Ho]
    · have hG : ∀ p ∈ trip_7.sl.H6_128 m d L X1 hX1 k, ∀ x : p.1.shape.Idx,
          p.2 x = chunkG m d L (m (aLoc d)) (m (bLoc d)) (m (cLoc d)) 1 (Ring.bk 8 k.val) (p.1.emb x) := by
        sl_unfold_run_names
        have hk8 : k.val = (Ring.bk 8 k.val).val := (bk8_val (trips18 k)).symm
        refine List.forall_mem_cons.2 ⟨fun x => piece_ok_s5 m d L bV (m (bLoc d)) s1 X1 hX1 (m (aLoc d)) (m (bLoc d)) (m (cLoc d)) 1 rfl hR1 _ (Ring.bk 8 k.val) 3 3 7 k.val 3 hk8 rfl _ k0_t34_trips _ rfl ![15, 112] rfl rfl inb_S16x128_S1x16_15_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 6 k.val 3 hk8 rfl _ k0_t34_trips _ rfl ![15, 96] rfl rfl inb_S16x128_S1x16_15_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 5 k.val 3 hk8 rfl _ k0_t34_trips _ rfl ![15, 80] rfl rfl inb_S16x128_S1x16_15_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 4 k.val 3 hk8 rfl _ k0_t34_trips _ rfl ![15, 64] rfl rfl inb_S16x128_S1x16_15_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 3 k.val 3 hk8 rfl _ k0_t34_trips _ rfl ![15, 48] rfl rfl inb_S16x128_S1x16_15_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 2 k.val 3 hk8 rfl _ k0_t34_trips _ rfl ![15, 32] rfl rfl inb_S16x128_S1x16_15_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 1 k.val 3 hk8 rfl _ k0_t34_trips _ rfl ![15, 16] rfl rfl inb_S16x128_S1x16_15_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 3 0 k.val 3 hk8 rfl _ k0_t34_trips _ rfl ![15, 0] rfl rfl inb_S16x128_S1x16_15_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 7 k.val 3 hk8 rfl _ k0_t33_trips _ rfl ![14, 112] rfl rfl inb_S16x128_S1x16_14_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 6 k.val 3 hk8 rfl _ k0_t33_trips _ rfl ![14, 96] rfl rfl inb_S16x128_S1x16_14_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 5 k.val 3 hk8 rfl _ k0_t33_trips _ rfl ![14, 80] rfl rfl inb_S16x128_S1x16_14_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 4 k.val 3 hk8 rfl _ k0_t33_trips _ rfl ![14, 64] rfl rfl inb_S16x128_S1x16_14_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 3 k.val 3 hk8 rfl _ k0_t33_trips _ rfl ![14, 48] rfl rfl inb_S16x128_S1x16_14_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 2 k.val 3 hk8 rfl _ k0_t33_trips _ rfl ![14, 32] rfl rfl inb_S16x128_S1x16_14_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 1 k.val 3 hk8 rfl _ k0_t33_trips _ rfl ![14, 16] rfl rfl inb_S16x128_S1x16_14_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 2 0 k.val 3 hk8 rfl _ k0_t33_trips _ rfl ![14, 0] rfl rfl inb_S16x128_S1x16_14_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 7 k.val 3 hk8 rfl _ k0_t32_trips _ rfl ![13, 112] rfl rfl inb_S16x128_S1x16_13_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 6 k.val 3 hk8 rfl _ k0_t32_trips _ rfl ![13, 96] rfl rfl inb_S16x128_S1x16_13_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 5 k.val 3 hk8 rfl _ k0_t32_trips _ rfl ![13, 80] rfl rfl inb_S16x128_S1x16_13_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 4 k.val 3 hk8 rfl _ k0_t32_trips _ rfl ![13, 64] rfl rfl inb_S16x128_S1x16_13_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 3 k.val 3 hk8 rfl _ k0_t32_trips _ rfl ![13, 48] rfl rfl inb_S16x128_S1x16_13_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 2 k.val 3 hk8 rfl _ k0_t32_trips _ rfl ![13, 32] rfl rfl inb_S16x128_S1x16_13_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 1 k.val 3 hk8 rfl _ k0_t32_trips _ rfl ![13, 16] rfl rfl inb_S16x128_S1x16_13_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 1 0 k.val 3 hk8 rfl _ k0_t32_trips _ rfl ![13, 0] rfl rfl inb_S16x128_S1x16_13_0 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 7 k.val 3 hk8 rfl _ k0_t31_trips _ rfl ![12, 112] rfl rfl inb_S16x128_S1x16_12_112 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 6 k.val 3 hk8 rfl _ k0_t31_trips _ rfl ![12, 96] rfl rfl inb_S16x128_S1x16_12_96 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 5 k.val 3 hk8 rfl _ k0_t31_trips _ rfl ![12, 80] rfl rfl inb_S16x128_S1x16_12_80 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 4 k.val 3 hk8 rfl _ k0_t31_trips _ rfl ![12, 64] rfl rfl inb_S16x128_S1x16_12_64 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 3 k.val 3 hk8 rfl _ k0_t31_trips _ rfl ![12, 48] rfl rfl inb_S16x128_S1x16_12_48 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 2 k.val 3 hk8 rfl _ k0_t31_trips _ rfl ![12, 32] rfl rfl inb_S16x128_S1x16_12_32 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 1 k.val 3 hk8 rfl _ k0_t31_trips _ rfl ![12, 16] rfl rfl inb_S16x128_S1x16_12_16 x, ?_⟩
        refine List.forall_mem_cons.2 ⟨fun x => piece_ok_s5 m d L bV (m (bLoc d)) s1 X1 hX1 (m (aLoc d)) (m (bLoc d)) (m (cLoc d)) 1 rfl hR1 _ (Ring.bk 8 k.val) 3 0 0 k.val 3 hk8 rfl _ k0_t31_trips _ rfl ![12, 0] rfl rfl inb_S16x128_S1x16_12_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 7 k.val 2 hk8 rfl _ k0_t30_trips _ rfl ![11, 112] rfl rfl inb_S16x128_S1x16_11_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 6 k.val 2 hk8 rfl _ k0_t30_trips _ rfl ![11, 96] rfl rfl inb_S16x128_S1x16_11_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 5 k.val 2 hk8 rfl _ k0_t30_trips _ rfl ![11, 80] rfl rfl inb_S16x128_S1x16_11_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 4 k.val 2 hk8 rfl _ k0_t30_trips _ rfl ![11, 64] rfl rfl inb_S16x128_S1x16_11_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 3 k.val 2 hk8 rfl _ k0_t30_trips _ rfl ![11, 48] rfl rfl inb_S16x128_S1x16_11_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 2 k.val 2 hk8 rfl _ k0_t30_trips _ rfl ![11, 32] rfl rfl inb_S16x128_S1x16_11_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 1 k.val 2 hk8 rfl _ k0_t30_trips _ rfl ![11, 16] rfl rfl inb_S16x128_S1x16_11_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 3 0 k.val 2 hk8 rfl _ k0_t30_trips _ rfl ![11, 0] rfl rfl inb_S16x128_S1x16_11_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 7 k.val 2 hk8 rfl _ k0_t29_trips _ rfl ![10, 112] rfl rfl inb_S16x128_S1x16_10_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 6 k.val 2 hk8 rfl _ k0_t29_trips _ rfl ![10, 96] rfl rfl inb_S16x128_S1x16_10_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 5 k.val 2 hk8 rfl _ k0_t29_trips _ rfl ![10, 80] rfl rfl inb_S16x128_S1x16_10_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 4 k.val 2 hk8 rfl _ k0_t29_trips _ rfl ![10, 64] rfl rfl inb_S16x128_S1x16_10_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 3 k.val 2 hk8 rfl _ k0_t29_trips _ rfl ![10, 48] rfl rfl inb_S16x128_S1x16_10_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 2 k.val 2 hk8 rfl _ k0_t29_trips _ rfl ![10, 32] rfl rfl inb_S16x128_S1x16_10_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 1 k.val 2 hk8 rfl _ k0_t29_trips _ rfl ![10, 16] rfl rfl inb_S16x128_S1x16_10_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 2 0 k.val 2 hk8 rfl _ k0_t29_trips _ rfl ![10, 0] rfl rfl inb_S16x128_S1x16_10_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 7 k.val 2 hk8 rfl _ k0_t28_trips _ rfl ![9, 112] rfl rfl inb_S16x128_S1x16_9_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 6 k.val 2 hk8 rfl _ k0_t28_trips _ rfl ![9, 96] rfl rfl inb_S16x128_S1x16_9_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 5 k.val 2 hk8 rfl _ k0_t28_trips _ rfl ![9, 80] rfl rfl inb_S16x128_S1x16_9_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 4 k.val 2 hk8 rfl _ k0_t28_trips _ rfl ![9, 64] rfl rfl inb_S16x128_S1x16_9_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 3 k.val 2 hk8 rfl _ k0_t28_trips _ rfl ![9, 48] rfl rfl inb_S16x128_S1x16_9_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 2 k.val 2 hk8 rfl _ k0_t28_trips _ rfl ![9, 32] rfl rfl inb_S16x128_S1x16_9_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 1 k.val 2 hk8 rfl _ k0_t28_trips _ rfl ![9, 16] rfl rfl inb_S16x128_S1x16_9_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 1 0 k.val 2 hk8 rfl _ k0_t28_trips _ rfl ![9, 0] rfl rfl inb_S16x128_S1x16_9_0 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 7 k.val 2 hk8 rfl _ k0_t27_trips _ rfl ![8, 112] rfl rfl inb_S16x128_S1x16_8_112 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 6 k.val 2 hk8 rfl _ k0_t27_trips _ rfl ![8, 96] rfl rfl inb_S16x128_S1x16_8_96 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 5 k.val 2 hk8 rfl _ k0_t27_trips _ rfl ![8, 80] rfl rfl inb_S16x128_S1x16_8_80 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 4 k.val 2 hk8 rfl _ k0_t27_trips _ rfl ![8, 64] rfl rfl inb_S16x128_S1x16_8_64 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 3 k.val 2 hk8 rfl _ k0_t27_trips _ rfl ![8, 48] rfl rfl inb_S16x128_S1x16_8_48 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 2 k.val 2 hk8 rfl _ k0_t27_trips _ rfl ![8, 32] rfl rfl inb_S16x128_S1x16_8_32 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 1 k.val 2 hk8 rfl _ k0_t27_trips _ rfl ![8, 16] rfl rfl inb_S16x128_S1x16_8_16 x, ?_⟩
        refine List.forall_mem_cons.2 ⟨fun x => piece_ok_s4 m d L bV (m (bLoc d)) s1 X1 hX1 (m (aLoc d)) (m (bLoc d)) (m (cLoc d)) 1 rfl hR1 _ (Ring.bk 8 k.val) 2 0 0 k.val 2 hk8 rfl _ k0_t27_trips _ rfl ![8, 0] rfl rfl inb_S16x128_S1x16_8_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 7 k.val 1 hk8 rfl _ k0_t26_trips _ rfl ![7, 112] rfl rfl inb_S16x128_S1x16_7_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 6 k.val 1 hk8 rfl _ k0_t26_trips _ rfl ![7, 96] rfl rfl inb_S16x128_S1x16_7_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 5 k.val 1 hk8 rfl _ k0_t26_trips _ rfl ![7, 80] rfl rfl inb_S16x128_S1x16_7_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 4 k.val 1 hk8 rfl _ k0_t26_trips _ rfl ![7, 64] rfl rfl inb_S16x128_S1x16_7_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 3 k.val 1 hk8 rfl _ k0_t26_trips _ rfl ![7, 48] rfl rfl inb_S16x128_S1x16_7_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 2 k.val 1 hk8 rfl _ k0_t26_trips _ rfl ![7, 32] rfl rfl inb_S16x128_S1x16_7_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 1 k.val 1 hk8 rfl _ k0_t26_trips _ rfl ![7, 16] rfl rfl inb_S16x128_S1x16_7_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 3 0 k.val 1 hk8 rfl _ k0_t26_trips _ rfl ![7, 0] rfl rfl inb_S16x128_S1x16_7_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 7 k.val 1 hk8 rfl _ k0_t25_trips _ rfl ![6, 112] rfl rfl inb_S16x128_S1x16_6_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 6 k.val 1 hk8 rfl _ k0_t25_trips _ rfl ![6, 96] rfl rfl inb_S16x128_S1x16_6_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 5 k.val 1 hk8 rfl _ k0_t25_trips _ rfl ![6, 80] rfl rfl inb_S16x128_S1x16_6_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 4 k.val 1 hk8 rfl _ k0_t25_trips _ rfl ![6, 64] rfl rfl inb_S16x128_S1x16_6_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 3 k.val 1 hk8 rfl _ k0_t25_trips _ rfl ![6, 48] rfl rfl inb_S16x128_S1x16_6_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 2 k.val 1 hk8 rfl _ k0_t25_trips _ rfl ![6, 32] rfl rfl inb_S16x128_S1x16_6_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 1 k.val 1 hk8 rfl _ k0_t25_trips _ rfl ![6, 16] rfl rfl inb_S16x128_S1x16_6_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 2 0 k.val 1 hk8 rfl _ k0_t25_trips _ rfl ![6, 0] rfl rfl inb_S16x128_S1x16_6_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 7 k.val 1 hk8 rfl _ k0_t24_trips _ rfl ![5, 112] rfl rfl inb_S16x128_S1x16_5_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 6 k.val 1 hk8 rfl _ k0_t24_trips _ rfl ![5, 96] rfl rfl inb_S16x128_S1x16_5_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 5 k.val 1 hk8 rfl _ k0_t24_trips _ rfl ![5, 80] rfl rfl inb_S16x128_S1x16_5_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 4 k.val 1 hk8 rfl _ k0_t24_trips _ rfl ![5, 64] rfl rfl inb_S16x128_S1x16_5_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 3 k.val 1 hk8 rfl _ k0_t24_trips _ rfl ![5, 48] rfl rfl inb_S16x128_S1x16_5_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 2 k.val 1 hk8 rfl _ k0_t24_trips _ rfl ![5, 32] rfl rfl inb_S16x128_S1x16_5_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 1 k.val 1 hk8 rfl _ k0_t24_trips _ rfl ![5, 16] rfl rfl inb_S16x128_S1x16_5_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 1 0 k.val 1 hk8 rfl _ k0_t24_trips _ rfl ![5, 0] rfl rfl inb_S16x128_S1x16_5_0 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 7 k.val 1 hk8 rfl _ k0_t23_trips _ rfl ![4, 112] rfl rfl inb_S16x128_S1x16_4_112 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 6 k.val 1 hk8 rfl _ k0_t23_trips _ rfl ![4, 96] rfl rfl inb_S16x128_S1x16_4_96 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 5 k.val 1 hk8 rfl _ k0_t23_trips _ rfl ![4, 80] rfl rfl inb_S16x128_S1x16_4_80 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 4 k.val 1 hk8 rfl _ k0_t23_trips _ rfl ![4, 64] rfl rfl inb_S16x128_S1x16_4_64 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 3 k.val 1 hk8 rfl _ k0_t23_trips _ rfl ![4, 48] rfl rfl inb_S16x128_S1x16_4_48 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 2 k.val 1 hk8 rfl _ k0_t23_trips _ rfl ![4, 32] rfl rfl inb_S16x128_S1x16_4_32 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 1 k.val 1 hk8 rfl _ k0_t23_trips _ rfl ![4, 16] rfl rfl inb_S16x128_S1x16_4_16 x, ?_⟩
        refine List.forall_mem_cons.2 ⟨fun x => piece_ok_s3 m d L bV (m (bLoc d)) s1 X1 hX1 (m (aLoc d)) (m (bLoc d)) (m (cLoc d)) 1 rfl hR1 _ (Ring.bk 8 k.val) 1 0 0 k.val 1 hk8 rfl _ k0_t23_trips _ rfl ![4, 0] rfl rfl inb_S16x128_S1x16_4_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 7 k.val 0 hk8 rfl _ k0_t22_trips _ rfl ![3, 112] rfl rfl inb_S16x128_S1x16_3_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 6 k.val 0 hk8 rfl _ k0_t22_trips _ rfl ![3, 96] rfl rfl inb_S16x128_S1x16_3_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 5 k.val 0 hk8 rfl _ k0_t22_trips _ rfl ![3, 80] rfl rfl inb_S16x128_S1x16_3_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 4 k.val 0 hk8 rfl _ k0_t22_trips _ rfl ![3, 64] rfl rfl inb_S16x128_S1x16_3_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 3 k.val 0 hk8 rfl _ k0_t22_trips _ rfl ![3, 48] rfl rfl inb_S16x128_S1x16_3_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 2 k.val 0 hk8 rfl _ k0_t22_trips _ rfl ![3, 32] rfl rfl inb_S16x128_S1x16_3_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 1 k.val 0 hk8 rfl _ k0_t22_trips _ rfl ![3, 16] rfl rfl inb_S16x128_S1x16_3_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 3 0 k.val 0 hk8 rfl _ k0_t22_trips _ rfl ![3, 0] rfl rfl inb_S16x128_S1x16_3_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 7 k.val 0 hk8 rfl _ k0_t21_trips _ rfl ![2, 112] rfl rfl inb_S16x128_S1x16_2_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 6 k.val 0 hk8 rfl _ k0_t21_trips _ rfl ![2, 96] rfl rfl inb_S16x128_S1x16_2_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 5 k.val 0 hk8 rfl _ k0_t21_trips _ rfl ![2, 80] rfl rfl inb_S16x128_S1x16_2_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 4 k.val 0 hk8 rfl _ k0_t21_trips _ rfl ![2, 64] rfl rfl inb_S16x128_S1x16_2_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 3 k.val 0 hk8 rfl _ k0_t21_trips _ rfl ![2, 48] rfl rfl inb_S16x128_S1x16_2_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 2 k.val 0 hk8 rfl _ k0_t21_trips _ rfl ![2, 32] rfl rfl inb_S16x128_S1x16_2_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 1 k.val 0 hk8 rfl _ k0_t21_trips _ rfl ![2, 16] rfl rfl inb_S16x128_S1x16_2_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 2 0 k.val 0 hk8 rfl _ k0_t21_trips _ rfl ![2, 0] rfl rfl inb_S16x128_S1x16_2_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 7 k.val 0 hk8 rfl _ k0_t20_trips _ rfl ![1, 112] rfl rfl inb_S16x128_S1x16_1_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 6 k.val 0 hk8 rfl _ k0_t20_trips _ rfl ![1, 96] rfl rfl inb_S16x128_S1x16_1_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 5 k.val 0 hk8 rfl _ k0_t20_trips _ rfl ![1, 80] rfl rfl inb_S16x128_S1x16_1_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 4 k.val 0 hk8 rfl _ k0_t20_trips _ rfl ![1, 64] rfl rfl inb_S16x128_S1x16_1_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 3 k.val 0 hk8 rfl _ k0_t20_trips _ rfl ![1, 48] rfl rfl inb_S16x128_S1x16_1_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 2 k.val 0 hk8 rfl _ k0_t20_trips _ rfl ![1, 32] rfl rfl inb_S16x128_S1x16_1_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 1 k.val 0 hk8 rfl _ k0_t20_trips _ rfl ![1, 16] rfl rfl inb_S16x128_S1x16_1_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 1 0 k.val 0 hk8 rfl _ k0_t20_trips _ rfl ![1, 0] rfl rfl inb_S16x128_S1x16_1_0 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 7 k.val 0 hk8 rfl _ k0_t19_trips _ rfl ![0, 112] rfl rfl inb_S16x128_S1x16_0_112 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 6 k.val 0 hk8 rfl _ k0_t19_trips _ rfl ![0, 96] rfl rfl inb_S16x128_S1x16_0_96 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 5 k.val 0 hk8 rfl _ k0_t19_trips _ rfl ![0, 80] rfl rfl inb_S16x128_S1x16_0_80 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 4 k.val 0 hk8 rfl _ k0_t19_trips _ rfl ![0, 64] rfl rfl inb_S16x128_S1x16_0_64 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 3 k.val 0 hk8 rfl _ k0_t19_trips _ rfl ![0, 48] rfl rfl inb_S16x128_S1x16_0_48 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 2 k.val 0 hk8 rfl _ k0_t19_trips _ rfl ![0, 32] rfl rfl inb_S16x128_S1x16_0_32 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 1 k.val 0 hk8 rfl _ k0_t19_trips _ rfl ![0, 16] rfl rfl inb_S16x128_S1x16_0_16 x, ?_⟩
        refine List.forall_mem_cons.2 ⟨fun x => piece_ok_s2 m d L bV (m (bLoc d)) s1 X1 hX1 (m (aLoc d)) (m (bLoc d)) (m (cLoc d)) 1 rfl hR1 _ (Ring.bk 8 k.val) 0 0 0 k.val 0 hk8 rfl _ k0_t19_trips _ rfl ![0, 0] rfl rfl inb_S16x128_S1x16_0_0 x, ?_⟩
        exact List.forall_mem_nil _
      have hcov : ∀ y : S16x128.Idx, ∃ p ∈ trip_7.sl.H6_128 m d L X1 hX1 k, y ∈ p.1.set := by
        sl_unfold_run_names
        exact View.cover_of_tiled _ S1x16.size rfl
      iapply (Entails.of_eq (trip_close m d L 1 (Ring.bk 8 k.val) s6 f6 _ fo hG hcov (trip_7.sl.dma16 m d L X1 hX1 k f6) rfl))
      iexact Ho
    iexact Hpl
  isplitl [Hmw]; · iexact Hmw
  iexists _; isplitr
  rotate_left
  · iexact HO
  · ipureintro
    intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact hW' p hp

end Trips

end Cert.Kernel.Sc

end
-- ==== Proof.B_ScPhase1.lean ====
/-
  The second table's chunk loop by its invariant: before trip k the subcore holds inv1 … k; a trip below the last
  re-fires from index buffer 1, the last fires the third table's first four blocks from index buffer 0.
-/
import proofs.«207262_g39728447488703_cont_8to1_b_1934_40_alg».proof.Proof.B_ScPhase1Lt
import proofs.«207262_g39728447488703_cont_8to1_b_1934_40_alg».proof.Proof.B_ScPhase1Last
import Idealize.ShloMosaic.Lib.Ring
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Loop

variable (m : (ℓ : Loc nD τ sig) → Buf (Elt F) ℓ) (d : Dev nD) (L : grid0.Coords) (q : PosShare TreeShare)
  (X0 : Buf (Elt F) ((s0).view.loc (thrOf d L))) (X1 : Buf (Elt F) ((s1).view.loc (thrOf d L)))
  (hX0 : IdxOK d L s0 X0) (hX1 : IdxOK d L s1 X1) (hR1 : (s1).view.read (Elt F) X1 = idxBuf m d L 1)
  (O : CellTallies nD τ sig (HIx 1)) (W : Waits sig (HIx 1)) (v2 : BitVec 32)

set_option warn.classDefReducibility false in
/-- The loop's invariant, instanced: index buffer 1 reads as the second stretch (so that the chunks' values are the
    pooled array's); the contents of both index buffers, the share and the waits are found against the context. -/
@[sl_loop] def loopInv_k0_t18 :
    Idealize.ShloMosaic.LoopInv (M := 𝕄) Idealize.ShloMosaic.frame (wpE (defs₀ (F := F)) 𝒱₀ (thrOf d L) none) Set.univ
      k0_t18_loop.lb k0_t18_loop.ub k0_t18_loop.st k0_t18_ok ()
      (k0_t18_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        cc0_scratch7 cc0_scratch8 cc0_scratch9 cc0_scratch10 cc0_scoped0 cc0_scoped1 cc0_scoped2 cc0_scoped3 cc0_scoped4 cc0_scoped5 v2) where
  inv k _ := inv1 m d L q X0 X1 hX0 hX1 O W k
  step k acc := by
    cases acc
    by_cases hk : k.val < 7
    · exact trip1_lt m d L q X0 X1 hX0 hX1 O W v2 k hk hR1
    · exact trip_7 m d L q X0 X1 hX0 hX1 O W v2 k (by have := trips18 k; omega) hR1

end Loop

end Cert.Kernel.Sc

end
-- ==== Proof.B_ScRed36.lean ====
/-
  The reduce loop of ring slot 0, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t36_trips : k0_t36_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t36 (d : Dev nD) (L : grid0.Coords)
    (a14 a15 a16 a17 r0 r1 r2 r3 r4 r5 : DmaSems sig S_)
    (c0_i32_20 : BitVec 32) (c1_i32_22 : BitVec 32) (k0_t35 : Fin k0_t35_loop.trips)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t36_loop.lb k0_t36_loop.ub k0_t36_loop.st k0_t36_ok init
      (k0_t36_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        c0_i32_20 c1_i32_22 k0_t35) where
  inv l acc := iprop(((s2).view.loc (thrOf d L) ↦{fullShare} fb) ∗ ⌜acc = accsAt fb 0 l⌝)
  step l acc := by
    iintro ⟨HB, %hacc⟩
    subst hacc
    unfold Gen.k0_t36_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed37.lean ====
/-
  The reduce loop of ring slot 0, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t37_trips : k0_t37_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t37 (d : Dev nD) (L : grid0.Coords)
    (a14 a15 a16 a17 r0 r1 r2 r3 r4 r5 : DmaSems sig S_)
    (v84 : FVec F S16 .f32) (v85 : FVec F S16 .f32) (v86 : FVec F S16 .f32) (v87 : FVec F S16 .f32) (v88 : FVec F S16 .f32) (cst_58 : F .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t37_loop.lb k0_t37_loop.ub k0_t37_loop.st k0_t37_ok init
      (k0_t37_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v84 v85 v86 v87 v88 cst_58) where
  inv l acc := iprop(((s2).view.loc (thrOf d L) ↦{fullShare} fb) ∗ ⌜acc = accsAt fb 1 l⌝)
  step l acc := by
    iintro ⟨HB, %hacc⟩
    subst hacc
    unfold Gen.k0_t37_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed38.lean ====
/-
  The reduce loop of ring slot 0, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t38_trips : k0_t38_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t38 (d : Dev nD) (L : grid0.Coords)
    (a14 a15 a16 a17 r0 r1 r2 r3 r4 r5 : DmaSems sig S_)
    (v93_5 : FVec F S16 .f32) (v93_6 : FVec F S16 .f32) (v93_7 : FVec F S16 .f32) (v123 : FVec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t38_loop.lb k0_t38_loop.ub k0_t38_loop.st k0_t38_ok init
      (k0_t38_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v93_5 v93_6 v93_7 v123) where
  inv l acc := iprop(((s2).view.loc (thrOf d L) ↦{fullShare} fb) ∗ ⌜acc = accsAt fb 2 l⌝)
  step l acc := by
    iintro ⟨HB, %hacc⟩
    subst hacc
    unfold Gen.k0_t38_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed39.lean ====
/-
  The reduce loop of ring slot 0, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t39_trips : k0_t39_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t39 (d : Dev nD) (L : grid0.Coords)
    (a14 a15 a16 a17 r0 r1 r2 r3 r4 r5 : DmaSems sig S_)
    (v151_7 : FVec F S16 .f32) (v189 : FVec F S16 .f32) (v191 : Vec F S1x16 .f32)
    (fb : Buf (Elt F) ((thrOf d L).loc cc0_scratch2))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t39_loop.lb k0_t39_loop.ub k0_t39_loop.st k0_t39_ok init
      (k0_t39_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v151_7 v189 v191) where
  inv l acc := iprop(((s2).view.loc (thrOf d L) ↦{fullShare} fb) ∗ ⌜acc = accsAt fb 3 l⌝)
  step l acc := by
    iintro ⟨HB, %hacc⟩
    subst hacc
    unfold Gen.k0_t39_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s2 d L fb _ _ lane).trans (rowAt_closed fb _ _ _ lane (by closed_off) (by closed_off)))
        (fun lane => (load_lane_s2 d L fb _ _ lane).trans (rowAt_closed fb _ _ _ lane (by closed_off) (by closed_off)))

end Cert.Kernel.Sc

end
-- ==== Proof.B_ScRed40.lean ====
/-
  The reduce loop of ring slot 1, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t40_trips : k0_t40_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t40 (d : Dev nD) (L : grid0.Coords)
    (a14 a15 a16 a17 r0 r1 r2 r3 r4 r5 : DmaSems sig S_)
    (k0_t35 : Fin k0_t35_loop.trips) (arg18 : BitVec 32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t40_loop.lb k0_t40_loop.ub k0_t40_loop.st k0_t40_ok init
      (k0_t40_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t35 arg18) where
  inv l acc := iprop(((s3).view.loc (thrOf d L) ↦{fullShare} fb) ∗ ⌜acc = accsAt fb 0 l⌝)
  step l acc := by
    iintro ⟨HB, %hacc⟩
    subst hacc
    unfold Gen.k0_t40_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed41.lean ====
/-
  The reduce loop of ring slot 1, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t41_trips : k0_t41_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t41 (d : Dev nD) (L : grid0.Coords)
    (a14 a15 a16 a17 r0 r1 r2 r3 r4 r5 : DmaSems sig S_)
    (v321 : FVec F S16 .f32) (v322 : FVec F S16 .f32) (v323 : FVec F S16 .f32) (v324 : FVec F S16 .f32) (v325 : FVec F S16 .f32) (cst_204 : F .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t41_loop.lb k0_t41_loop.ub k0_t41_loop.st k0_t41_ok init
      (k0_t41_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v321 v322 v323 v324 v325 cst_204) where
  inv l acc := iprop(((s3).view.loc (thrOf d L) ↦{fullShare} fb) ∗ ⌜acc = accsAt fb 1 l⌝)
  step l acc := by
    iintro ⟨HB, %hacc⟩
    subst hacc
    unfold Gen.k0_t41_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed42.lean ====
/-
  The reduce loop of ring slot 1, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t42_trips : k0_t42_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t42 (d : Dev nD) (L : grid0.Coords)
    (a14 a15 a16 a17 r0 r1 r2 r3 r4 r5 : DmaSems sig S_)
    (v330_5 : FVec F S16 .f32) (v330_6 : FVec F S16 .f32) (v330_7 : FVec F S16 .f32) (v360 : FVec F S1x16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t42_loop.lb k0_t42_loop.ub k0_t42_loop.st k0_t42_ok init
      (k0_t42_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v330_5 v330_6 v330_7 v360) where
  inv l acc := iprop(((s3).view.loc (thrOf d L) ↦{fullShare} fb) ∗ ⌜acc = accsAt fb 2 l⌝)
  step l acc := by
    iintro ⟨HB, %hacc⟩
    subst hacc
    unfold Gen.k0_t42_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed43.lean ====
/-
  The reduce loop of ring slot 1, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t43_trips : k0_t43_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t43 (d : Dev nD) (L : grid0.Coords)
    (a14 a15 a16 a17 r0 r1 r2 r3 r4 r5 : DmaSems sig S_)
    (v388_7 : FVec F S16 .f32) (v426 : FVec F S16 .f32) (v428 : Vec F S1x16 .f32)
    (fb : Buf (Elt F) ((thrOf d L).loc cc0_scratch3))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t43_loop.lb k0_t43_loop.ub k0_t43_loop.st k0_t43_ok init
      (k0_t43_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v388_7 v426 v428) where
  inv l acc := iprop(((s3).view.loc (thrOf d L) ↦{fullShare} fb) ∗ ⌜acc = accsAt fb 3 l⌝)
  step l acc := by
    iintro ⟨HB, %hacc⟩
    subst hacc
    unfold Gen.k0_t43_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s3 d L fb _ _ lane).trans (rowAt_closed fb _ _ _ lane (by closed_off) (by closed_off)))
        (fun lane => (load_lane_s3 d L fb _ _ lane).trans (rowAt_closed fb _ _ _ lane (by closed_off) (by closed_off)))

end Cert.Kernel.Sc

end
-- ==== Proof.B_ScRed44.lean ====
/-
  The reduce loop of ring slot 2, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t44_trips : k0_t44_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t44 (d : Dev nD) (L : grid0.Coords)
    (a14 a15 a16 a17 r0 r1 r2 r3 r4 r5 : DmaSems sig S_)
    (k0_t35 : Fin k0_t35_loop.trips) (arg18 : BitVec 32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t44_loop.lb k0_t44_loop.ub k0_t44_loop.st k0_t44_ok init
      (k0_t44_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t35 arg18) where
  inv l acc := iprop(((s4).view.loc (thrOf d L) ↦{fullShare} fb) ∗ ⌜acc = accsAt fb 0 l⌝)
  step l acc := by
    iintro ⟨HB, %hacc⟩
    subst hacc
    unfold Gen.k0_t44_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed45.lean ====
/-
  The reduce loop of ring slot 2, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t45_trips : k0_t45_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t45 (d : Dev nD) (L : grid0.Coords)
    (a14 a15 a16 a17 r0 r1 r2 r3 r4 r5 : DmaSems sig S_)
    (v558 : FVec F S16 .f32) (v559 : FVec F S16 .f32) (v560 : FVec F S16 .f32) (v561 : FVec F S16 .f32) (v562 : FVec F S16 .f32) (cst_351 : F .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t45_loop.lb k0_t45_loop.ub k0_t45_loop.st k0_t45_ok init
      (k0_t45_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v558 v559 v560 v561 v562 cst_351) where
  inv l acc := iprop(((s4).view.loc (thrOf d L) ↦{fullShare} fb) ∗ ⌜acc = accsAt fb 1 l⌝)
  step l acc := by
    iintro ⟨HB, %hacc⟩
    subst hacc
    unfold Gen.k0_t45_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed46.lean ====
/-
  The reduce loop of ring slot 2, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t46_trips : k0_t46_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t46 (d : Dev nD) (L : grid0.Coords)
    (a14 a15 a16 a17 r0 r1 r2 r3 r4 r5 : DmaSems sig S_)
    (v567_5 : FVec F S16 .f32) (v567_6 : FVec F S16 .f32) (v567_7 : FVec F S16 .f32) (v597 : FVec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t46_loop.lb k0_t46_loop.ub k0_t46_loop.st k0_t46_ok init
      (k0_t46_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v567_5 v567_6 v567_7 v597) where
  inv l acc := iprop(((s4).view.loc (thrOf d L) ↦{fullShare} fb) ∗ ⌜acc = accsAt fb 2 l⌝)
  step l acc := by
    iintro ⟨HB, %hacc⟩
    subst hacc
    unfold Gen.k0_t46_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed47.lean ====
/-
  The reduce loop of ring slot 2, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t47_trips : k0_t47_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t47 (d : Dev nD) (L : grid0.Coords)
    (a14 a15 a16 a17 r0 r1 r2 r3 r4 r5 : DmaSems sig S_)
    (v625_7 : FVec F S16 .f32) (v663 : FVec F S16 .f32) (v665 : Vec F S1x16 .f32)
    (fb : Buf (Elt F) ((thrOf d L).loc cc0_scratch4))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t47_loop.lb k0_t47_loop.ub k0_t47_loop.st k0_t47_ok init
      (k0_t47_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v625_7 v663 v665) where
  inv l acc := iprop(((s4).view.loc (thrOf d L) ↦{fullShare} fb) ∗ ⌜acc = accsAt fb 3 l⌝)
  step l acc := by
    iintro ⟨HB, %hacc⟩
    subst hacc
    unfold Gen.k0_t47_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s4 d L fb _ _ lane).trans (rowAt_closed fb _ _ _ lane (by closed_off) (by closed_off)))
        (fun lane => (load_lane_s4 d L fb _ _ lane).trans (rowAt_closed fb _ _ _ lane (by closed_off) (by closed_off)))

end Cert.Kernel.Sc

end
-- ==== Proof.B_ScRed48.lean ====
/-
  The reduce loop of ring slot 3, segment 0, by its invariant: before step `l` the loop carries the eight column blocks of
  the running sum of rows 0 … 2 l - 1 of the slot's row buffer (`accsAt`, two rows a step from the zero word), and the
  buffer is read, never written. One step loads the sixteen 1 × 16 pieces of rows 2 l and 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t48_trips : k0_t48_loop.trips = 25 := by decide

set_option warn.classDefReducibility false in
set_option maxHeartbeats 4000000 in
/-- Before step `l` the loop carries the eight column blocks of segment 0's running sum after `l` steps over the row
    buffer's contents `fb`, whatever they are; the buffer is held whole and comes back as it went in. -/
@[sl_loop] def loopInv_k0_t48 (d : Dev nD) (L : grid0.Coords)
    (a14 a15 a16 a17 r0 r1 r2 r3 r4 r5 : DmaSems sig S_)
    (k0_t35 : Fin k0_t35_loop.trips) (arg18 : BitVec 32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t48_loop.lb k0_t48_loop.ub k0_t48_loop.st k0_t48_ok init
      (k0_t48_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        k0_t35 arg18) where
  inv l acc := iprop(((s5).view.loc (thrOf d L) ↦{fullShare} fb) ∗ ⌜acc = accsAt fb 0 l⌝)
  step l acc := by
    iintro ⟨HB, %hacc⟩
    subst hacc
    unfold Gen.k0_t48_body
    sl_exec
    sl_step
    isplitl [HB]
    · iexact HB
    ipureintro
    sl_unfold_run_names
    refine accsAt_succ fb 0 l.val _ _ _ _ _ _ _ _ ?_ ?_ ?_ ?_ ?_ ?_ ?_ ?_ <;>
      exact accBlk_succ fb 0 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed49.lean ====
/-
  The reduce loop of ring slot 3, segment 1, by its invariant: before step `l` the loop carries the eight column blocks of
  the running sum of rows 50 … 50 + 2 l - 1 of the slot's row buffer (`accsAt`, two rows a step from the zero word), and the
  buffer is read, never written. One step loads the sixteen 1 × 16 pieces of rows 50 + 2 l and 50 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t49_trips : k0_t49_loop.trips = 25 := by decide

set_option warn.classDefReducibility false in
set_option maxHeartbeats 4000000 in
/-- Before step `l` the loop carries the eight column blocks of segment 1's running sum after `l` steps over the row
    buffer's contents `fb`, whatever they are; the buffer is held whole and comes back as it went in. -/
@[sl_loop] def loopInv_k0_t49 (d : Dev nD) (L : grid0.Coords)
    (a14 a15 a16 a17 r0 r1 r2 r3 r4 r5 : DmaSems sig S_)
    (v795 : FVec F S16 .f32) (v796 : FVec F S16 .f32) (v797 : FVec F S16 .f32) (v798 : FVec F S16 .f32) (v799 : FVec F S16 .f32) (cst_496 : F .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t49_loop.lb k0_t49_loop.ub k0_t49_loop.st k0_t49_ok init
      (k0_t49_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v795 v796 v797 v798 v799 cst_496) where
  inv l acc := iprop(((s5).view.loc (thrOf d L) ↦{fullShare} fb) ∗ ⌜acc = accsAt fb 1 l⌝)
  step l acc := by
    iintro ⟨HB, %hacc⟩
    subst hacc
    unfold Gen.k0_t49_body
    sl_exec
    sl_step
    isplitl [HB]
    · iexact HB
    ipureintro
    sl_unfold_run_names
    refine accsAt_succ fb 1 l.val _ _ _ _ _ _ _ _ ?_ ?_ ?_ ?_ ?_ ?_ ?_ ?_ <;>
      exact accBlk_succ fb 1 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed50.lean ====
/-
  The reduce loop of ring slot 3, segment 2, by its invariant: before step `l` the loop carries the eight column blocks of
  the running sum of rows 100 … 100 + 2 l - 1 of the slot's row buffer (`accsAt`, two rows a step from the zero word), and the
  buffer is read, never written. One step loads the sixteen 1 × 16 pieces of rows 100 + 2 l and 100 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t50_trips : k0_t50_loop.trips = 25 := by decide

set_option warn.classDefReducibility false in
set_option maxHeartbeats 4000000 in
/-- Before step `l` the loop carries the eight column blocks of segment 2's running sum after `l` steps over the row
    buffer's contents `fb`, whatever they are; the buffer is held whole and comes back as it went in. -/
@[sl_loop] def loopInv_k0_t50 (d : Dev nD) (L : grid0.Coords)
    (a14 a15 a16 a17 r0 r1 r2 r3 r4 r5 : DmaSems sig S_)
    (v804_5 : FVec F S16 .f32) (v804_6 : FVec F S16 .f32) (v804_7 : FVec F S16 .f32) (v834 : FVec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t50_loop.lb k0_t50_loop.ub k0_t50_loop.st k0_t50_ok init
      (k0_t50_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v804_5 v804_6 v804_7 v834) where
  inv l acc := iprop(((s5).view.loc (thrOf d L) ↦{fullShare} fb) ∗ ⌜acc = accsAt fb 2 l⌝)
  step l acc := by
    iintro ⟨HB, %hacc⟩
    subst hacc
    unfold Gen.k0_t50_body
    sl_exec
    sl_step
    isplitl [HB]
    · iexact HB
    ipureintro
    sl_unfold_run_names
    refine accsAt_succ fb 2 l.val _ _ _ _ _ _ _ _ ?_ ?_ ?_ ?_ ?_ ?_ ?_ ?_ <;>
      exact accBlk_succ fb 2 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScRed51.lean ====
/-
  The reduce loop of ring slot 3, segment 3, by its invariant: before step `l` the loop carries the eight column blocks of
  the running sum of rows 150 … 150 + 2 l - 1 of the slot's row buffer (`accsAt`, two rows a step from the zero word), and the
  buffer is read, never written. One step loads the sixteen 1 × 16 pieces of rows 150 + 2 l and 150 + 2 l + 1 and adds them to the
  blocks in turn.
-/
import proofs.«207262_g39728447488703_cont_8to1_b_1934_40_alg».proof.Proof.B_ScRedLib
import proofs.«207262_g39728447488703_cont_8to1_b_1934_40_alg».proof.Proof.Gen.Kernel.Skeleton

noncomputable section

namespace Cert.Kernel.Sc

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The loop makes twenty-five steps. -/
theorem k0_t51_trips : k0_t51_loop.trips = 25 := by decide

set_option warn.classDefReducibility false in
set_option maxHeartbeats 4000000 in
/-- Before step `l` the loop carries the eight column blocks of segment 3's running sum after `l` steps over the row
    buffer's contents `fb`, whatever they are; the buffer is held whole and comes back as it went in. -/
@[sl_loop] def loopInv_k0_t51 (d : Dev nD) (L : grid0.Coords)
    (a14 a15 a16 a17 r0 r1 r2 r3 r4 r5 : DmaSems sig S_)
    (v862_7 : FVec F S16 .f32) (v900 : FVec F S16 .f32) (v902 : Vec F S1x16 .f32)
    (fb : Buf (Elt F) ((thrOf d L).loc cc0_scratch5))
    (init : FVec F S16 .f32 × FVec F S16 .f32 × FVec F S16 .f32 × FVec F S16 .f32 × FVec F S16 .f32 × FVec F S16 .f32 × FVec F S16 .f32 × FVec F S16 .f32) :
    Idealize.ShloMosaic.LoopInv (M := 𝕄) Idealize.ShloMosaic.frame (wpE (defs₀ (F := F)) 𝒱₀ (thrOf d L) none) Set.univ
      k0_t51_loop.lb k0_t51_loop.ub k0_t51_loop.st k0_t51_ok init
      (k0_t51_body (F := F) L aV (Memref.isWhole_whole _) bV (Memref.isWhole_whole _) cV (Memref.isWhole_whole _) iV (Memref.isWhole_whole _) oV (Memref.isWhole_whole _)
        s0 (Memref.isWhole_whole _) s1 (Memref.isWhole_whole _) s2 (Memref.isWhole_whole _) s3 (Memref.isWhole_whole _) s4 (Memref.isWhole_whole _) s5 (Memref.isWhole_whole _) s6 (Memref.isWhole_whole _)
        a14 a15 a16 a17 r0 r1 r2 r3 r4 r5
        v862_7 v900 v902) where
  inv l acc := iprop(((s5).view.loc (thrOf d L) ↦{fullShare} fb) ∗ ⌜acc = accsAt fb 3 l⌝)
  step l acc := by
    iintro ⟨HB, %hacc⟩
    subst hacc
    unfold Gen.k0_t51_body
    sl_exec
    sl_step
    isplitl [HB]
    · iexact HB
    ipureintro
    sl_unfold_run_names
    refine accsAt_succ fb 3 l.val _ _ _ _ _ _ _ _ ?_ ?_ ?_ ?_ ?_ ?_ ?_ ?_ <;>
      exact accBlk_succ fb 3 _ l.val _ _ _ rfl
        (fun lane => (load_lane_s5 d L fb _ _ lane).trans (rowAt_closed fb _ _ _ lane (by closed_off) (by closed_off)))
        (fun lane => (load_lane_s5 d L fb _ _ lane).trans (rowAt_closed fb _ _ _ lane (by closed_off) (by closed_off)))

end Cert.Kernel.Sc

end
-- ==== Proof.B_ScPhase2Lt.lean ====
/-
  The third chunk loop of a vector subcore (the third table's plane): one trip, and the loop by its invariant.

  Before trip `k` the four ring slots are in flight with blocks `4 k … 4 k + 3` of the first index buffer (the third
  table's rows), every other block is home, the chunks before `k` of the plane hold the pooled value. A trip lands the
  four blocks in turn, sums each row buffer's four segments and stores their means into the sixteen-row scratch, re-fires
  each slot with the block four ahead (none at the last trip), and copies the scratch out to chunk `k`.
-/
import proofs.«207262_g39728447488703_cont_8to1_b_1934_40_alg».proof.Proof.B_ScRing
import proofs.«207262_g39728447488703_cont_8to1_b_1934_40_alg».proof.Proof.B_ScCanonSets
import proofs.«207262_g39728447488703_cont_8to1_b_1934_40_alg».proof.Proof.B_ScTripClose
import proofs.«207262_g39728447488703_cont_8to1_b_1934_40_alg».proof.Proof.B_ScRed36
import proofs.«207262_g39728447488703_cont_8to1_b_1934_40_alg».proof.Proof.B_ScRed37
import proofs.«207262_g39728447488703_cont_8to1_b_1934_40_alg».proof.Proof.B_ScRed38
import proofs.«207262_g39728447488703_cont_8to1_b_1934_40_alg».proof.Proof.B_ScRed39
import proofs.«207262_g39728447488703_cont_8to1_b_1934_40_alg».proof.Proof.B_ScRed40
import proofs.«207262_g39728447488703_cont_8to1_b_1934_40_alg».proof.Proof.B_ScRed41
import proofs.«207262_g39728447488703_cont_8to1_b_1934_40_alg».proof.Proof.B_ScRed42
import proofs.«207262_g39728447488703_cont_8to1_b_1934_40_alg».proof.Proof.B_ScRed43
import proofs.«207262_g39728447488703_cont_8to1_b_1934_40_alg».proof.Proof.B_ScRed44
import proofs.«207262_g39728447488703_cont_8to1_b_1934_40_alg».proof.Proof.B_ScRed45
import proofs.«207262_g39728447488703_cont_8to1_b_1934_40_alg».proof.Proof.B_ScRed46
import proofs.«207262_g39728447488703_cont_8to1_b_1934_40_alg».proof.Proof.B_ScRed47
import proofs.«207262_g39728447488703_cont_8to1_b_1934_40_alg».proof.Proof.B_ScRed48
import proofs.«207262_g39728447488703_cont_8to1_b_1934_40_alg».proof.Proof.B_ScRed49
import proofs.«207262_g39728447488703_cont_8to1_b_1934_40_alg».proof.Proof.B_ScRed50
import proofs.«207262_g39728447488703_cont_8to1_b_1934_40_alg».proof.Proof.B_ScRed51
import proofs.«207262_g39728447488703_cont_8to1_b_1934_40_alg».proof.Proof.Gen.Kernel.Skeleton
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)
  (X : Buf (Elt F) ((s0).view.loc (thrOf d L))) (q : PosShare TreeShare) (hX : IdxOK d L s0 X)
  (hXr : (s0).view.read (Elt F) X = idxBuf m d L 2)
  (O : CellTallies nD τ sig (HIx 1)) (W : Waits sig (HIx 1))
include hXr

set_option maxHeartbeats 4000000 in
/-- ONE TRIP at a symbolic `k < 7`: each slot in turn lands its block (the flight consumed: row buffer, block and token
    back), the four segments are summed and their means stored, the slot re-fires the block four ahead (a new flight);
    then the sixteen means are copied out to the chunk, which thereby holds the pooled value. -/
theorem tripLt35 (k : Fin k0_t35_loop.trips) (hk : k.val < 7) :
    resAt m d L cV (m (cLoc d)) s0 X q hX cc0_scoped5 2 O W k.val
      ⊢ wp frame (wpE (defs₀ (F := F)) 𝒱₀ (thrOf d L) none) Set.univ
          (k0_t35_body L aV (Memref.isWhole_whole _) bV (Memref.isWhole_whole _) cV (Memref.isWhole_whole _) iV (Memref.isWhole_whole _) oV (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) cc0_scratch7 cc0_scratch8 cc0_scratch9 cc0_scratch10 cc0_scoped0 cc0_scoped1 cc0_scoped2 cc0_scoped3 cc0_scoped4 cc0_scoped5 k ())
          (fun _ => resAt m d L cV (m (cLoc d)) s0 X q hX cc0_scoped5 2 O W (k.val + 1)) := by
  have hk8 : k.val < 8 := by omega
  have l0 : 4 * k.val + 0 < 32 := by omega
  have l1 : 4 * k.val + 1 < 32 := by omega
  have l2 : 4 * k.val + 2 < 32 := by omega
  have l3 : 4 * k.val + 3 < 32 := by omega
  have n0 : 4 * (k.val + 1) + 0 < 32 := by omega
  have n1 : 4 * (k.val + 1) + 1 < 32 := by omega
  have n2 : 4 * (k.val + 1) + 2 < 32 := by omega
  have n3 : 4 * (k.val + 1) + 3 < 32 := by omega
  unfold resAt ringAt
  rw [chunk_homes_here _ k.val hk, chunk_homes_next _ k.val hk, plane_here m d L 2 k.val hk8, plane_next m d L 2 k.val hk8]
  simp only [slotAt, l0, l1, l2, l3, n0, n1, n2, n3, ↓reduceIte, bk32_next]
  iintro ⟨⟨⟨Hh0, Hh1, Hh2, Hh3, Hrest⟩, ⟨%f0, HF0, HT0⟩, ⟨%f1, HF1, HT1⟩, ⟨%f2, HF2, HT2⟩, ⟨%f3, HF3, HT3⟩⟩, ⟨%f6, H6⟩, Hc5, ⟨⟨%fo, Ho⟩, Hpl⟩, Hmw, ⟨%W', %hW', HO⟩⟩
  have hc17 := (cond17_iff k).2 hk
  have hc18 := (cond18_iff k).2 hk
  have hc19 := (cond19_iff k).2 hk
  have hc20 := (cond20_iff k).2 hk
  have hin0 : ∀ x, ((blk s0 (Ring.bk 32 (4 * k.val + 0 + 4))).view.read (Elt F) X x).toNat < S100000x128.size gathers_S100000x128_S200x128.axis := hX _
  have hin1 : ∀ x, ((blk s0 (Ring.bk 32 (4 * k.val + 1 + 4))).view.read (Elt F) X x).toNat < S100000x128.size gathers_S100000x128_S200x128.axis := hX _
  have hin2 : ∀ x, ((blk s0 (Ring.bk 32 (4 * k.val + 2 + 4))).view.read (Elt F) X x).toNat < S100000x128.size gathers_S100000x128_S200x128.axis := hX _
  have hin3 : ∀ x, ((blk s0 (Ring.bk 32 (4 * k.val + 3 + 4))).view.read (Elt F) X x).toNat < S100000x128.size gathers_S100000x128_S200x128.axis := hX _
  have hW5 : ∀ p ∈ (insert ((SemLoc.dma cc0_scoped5.sem : SemLoc sig), (default : HIx 1)) (insert ((SemLoc.dma cc0_scratch10.sem : SemLoc sig), (default : HIx 1))
      (insert ((SemLoc.dma cc0_scratch9.sem : SemLoc sig), (default : HIx 1)) (insert ((SemLoc.dma cc0_scratch8.sem : SemLoc sig), (default : HIx 1))
        (insert ((SemLoc.dma cc0_scratch7.sem : SemLoc sig), (default : HIx 1)) W'))))), p ∈ W ∨ p.2 = none := by
    intro p hp
    simp only [Finset.mem_insert] at hp
    rcases hp with rfl | rfl | rfl | rfl | rfl | hp
    · exact Or.inr rfl
    · exact Or.inr rfl
    · exact Or.inr rfl
    · exact Or.inr rfl
    · exact Or.inr rfl
    · exact hW' p hp
  clear hk8 l0 l1 l2 l3 n0 n1 n2 n3
  unfold Gen.k0_t35_body
  sl_exec
  sl_step
  -- the chunk, written with the scratch's sixteen means, holds the pooled value: each of the 128 lane stores is a piece
  -- of the chunk's pooled rows, and the 128 rectangles tile the scratch
  have hG : ∀ p ∈ tripLt35.sl.H6_128 m d L X hX k, ∀ x : p.1.shape.Idx,
      p.2 x = chunkG m d L (m (aLoc d)) (m (bLoc d)) (m (cLoc d)) 2 (Ring.bk 8 k.val) (p.1.emb x) := by
    sl_unfold_run_names
    have hk8 : k.val = (Ring.bk 8 k.val).val := (bk8_val (trips35 k)).symm
    refine List.forall_mem_cons.2 ⟨fun x => piece_ok_s5 m d L cV (m (cLoc d)) s0 X hX (m (aLoc d)) (m (bLoc d)) (m (cLoc d)) 2 rfl hXr (s5).view.junk (Ring.bk 8 k.val) 3 3 7 k.val 3 hk8 rfl _ k0_t51_trips _ rfl ![15, 112] rfl rfl inb_S16x128_S1x16_15_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 6 k.val 3 hk8 rfl _ k0_t51_trips _ rfl ![15, 96] rfl rfl inb_S16x128_S1x16_15_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 5 k.val 3 hk8 rfl _ k0_t51_trips _ rfl ![15, 80] rfl rfl inb_S16x128_S1x16_15_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 4 k.val 3 hk8 rfl _ k0_t51_trips _ rfl ![15, 64] rfl rfl inb_S16x128_S1x16_15_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 3 k.val 3 hk8 rfl _ k0_t51_trips _ rfl ![15, 48] rfl rfl inb_S16x128_S1x16_15_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 2 k.val 3 hk8 rfl _ k0_t51_trips _ rfl ![15, 32] rfl rfl inb_S16x128_S1x16_15_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 1 k.val 3 hk8 rfl _ k0_t51_trips _ rfl ![15, 16] rfl rfl inb_S16x128_S1x16_15_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 0 k.val 3 hk8 rfl _ k0_t51_trips _ rfl ![15, 0] rfl rfl inb_S16x128_S1x16_15_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 7 k.val 3 hk8 rfl _ k0_t50_trips _ rfl ![14, 112] rfl rfl inb_S16x128_S1x16_14_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 6 k.val 3 hk8 rfl _ k0_t50_trips _ rfl ![14, 96] rfl rfl inb_S16x128_S1x16_14_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 5 k.val 3 hk8 rfl _ k0_t50_trips _ rfl ![14, 80] rfl rfl inb_S16x128_S1x16_14_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 4 k.val 3 hk8 rfl _ k0_t50_trips _ rfl ![14, 64] rfl rfl inb_S16x128_S1x16_14_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 3 k.val 3 hk8 rfl _ k0_t50_trips _ rfl ![14, 48] rfl rfl inb_S16x128_S1x16_14_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 2 k.val 3 hk8 rfl _ k0_t50_trips _ rfl ![14, 32] rfl rfl inb_S16x128_S1x16_14_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 1 k.val 3 hk8 rfl _ k0_t50_trips _ rfl ![14, 16] rfl rfl inb_S16x128_S1x16_14_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 0 k.val 3 hk8 rfl _ k0_t50_trips _ rfl ![14, 0] rfl rfl inb_S16x128_S1x16_14_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 7 k.val 3 hk8 rfl _ k0_t49_trips _ rfl ![13, 112] rfl rfl inb_S16x128_S1x16_13_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 6 k.val 3 hk8 rfl _ k0_t49_trips _ rfl ![13, 96] rfl rfl inb_S16x128_S1x16_13_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 5 k.val 3 hk8 rfl _ k0_t49_trips _ rfl ![13, 80] rfl rfl inb_S16x128_S1x16_13_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 4 k.val 3 hk8 rfl _ k0_t49_trips _ rfl ![13, 64] rfl rfl inb_S16x128_S1x16_13_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 3 k.val 3 hk8 rfl _ k0_t49_trips _ rfl ![13, 48] rfl rfl inb_S16x128_S1x16_13_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 2 k.val 3 hk8 rfl _ k0_t49_trips _ rfl ![13, 32] rfl rfl inb_S16x128_S1x16_13_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 1 k.val 3 hk8 rfl _ k0_t49_trips _ rfl ![13, 16] rfl rfl inb_S16x128_S1x16_13_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 0 k.val 3 hk8 rfl _ k0_t49_trips _ rfl ![13, 0] rfl rfl inb_S16x128_S1x16_13_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 7 k.val 3 hk8 rfl _ k0_t48_trips _ rfl ![12, 112] rfl rfl inb_S16x128_S1x16_12_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 6 k.val 3 hk8 rfl _ k0_t48_trips _ rfl ![12, 96] rfl rfl inb_S16x128_S1x16_12_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 5 k.val 3 hk8 rfl _ k0_t48_trips _ rfl ![12, 80] rfl rfl inb_S16x128_S1x16_12_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 4 k.val 3 hk8 rfl _ k0_t48_trips _ rfl ![12, 64] rfl rfl inb_S16x128_S1x16_12_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 3 k.val 3 hk8 rfl _ k0_t48_trips _ rfl ![12, 48] rfl rfl inb_S16x128_S1x16_12_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 2 k.val 3 hk8 rfl _ k0_t48_trips _ rfl ![12, 32] rfl rfl inb_S16x128_S1x16_12_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 1 k.val 3 hk8 rfl _ k0_t48_trips _ rfl ![12, 16] rfl rfl inb_S16x128_S1x16_12_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 0 k.val 3 hk8 rfl _ k0_t48_trips _ rfl ![12, 0] rfl rfl inb_S16x128_S1x16_12_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 7 k.val 2 hk8 rfl _ k0_t47_trips _ rfl ![11, 112] rfl rfl inb_S16x128_S1x16_11_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 6 k.val 2 hk8 rfl _ k0_t47_trips _ rfl ![11, 96] rfl rfl inb_S16x128_S1x16_11_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 5 k.val 2 hk8 rfl _ k0_t47_trips _ rfl ![11, 80] rfl rfl inb_S16x128_S1x16_11_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 4 k.val 2 hk8 rfl _ k0_t47_trips _ rfl ![11, 64] rfl rfl inb_S16x128_S1x16_11_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 3 k.val 2 hk8 rfl _ k0_t47_trips _ rfl ![11, 48] rfl rfl inb_S16x128_S1x16_11_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 2 k.val 2 hk8 rfl _ k0_t47_trips _ rfl ![11, 32] rfl rfl inb_S16x128_S1x16_11_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 1 k.val 2 hk8 rfl _ k0_t47_trips _ rfl ![11, 16] rfl rfl inb_S16x128_S1x16_11_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 0 k.val 2 hk8 rfl _ k0_t47_trips _ rfl ![11, 0] rfl rfl inb_S16x128_S1x16_11_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 7 k.val 2 hk8 rfl _ k0_t46_trips _ rfl ![10, 112] rfl rfl inb_S16x128_S1x16_10_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 6 k.val 2 hk8 rfl _ k0_t46_trips _ rfl ![10, 96] rfl rfl inb_S16x128_S1x16_10_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 5 k.val 2 hk8 rfl _ k0_t46_trips _ rfl ![10, 80] rfl rfl inb_S16x128_S1x16_10_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 4 k.val 2 hk8 rfl _ k0_t46_trips _ rfl ![10, 64] rfl rfl inb_S16x128_S1x16_10_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 3 k.val 2 hk8 rfl _ k0_t46_trips _ rfl ![10, 48] rfl rfl inb_S16x128_S1x16_10_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 2 k.val 2 hk8 rfl _ k0_t46_trips _ rfl ![10, 32] rfl rfl inb_S16x128_S1x16_10_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 1 k.val 2 hk8 rfl _ k0_t46_trips _ rfl ![10, 16] rfl rfl inb_S16x128_S1x16_10_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 0 k.val 2 hk8 rfl _ k0_t46_trips _ rfl ![10, 0] rfl rfl inb_S16x128_S1x16_10_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 7 k.val 2 hk8 rfl _ k0_t45_trips _ rfl ![9, 112] rfl rfl inb_S16x128_S1x16_9_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 6 k.val 2 hk8 rfl _ k0_t45_trips _ rfl ![9, 96] rfl rfl inb_S16x128_S1x16_9_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 5 k.val 2 hk8 rfl _ k0_t45_trips _ rfl ![9, 80] rfl rfl inb_S16x128_S1x16_9_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 4 k.val 2 hk8 rfl _ k0_t45_trips _ rfl ![9, 64] rfl rfl inb_S16x128_S1x16_9_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 3 k.val 2 hk8 rfl _ k0_t45_trips _ rfl ![9, 48] rfl rfl inb_S16x128_S1x16_9_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 2 k.val 2 hk8 rfl _ k0_t45_trips _ rfl ![9, 32] rfl rfl inb_S16x128_S1x16_9_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 1 k.val 2 hk8 rfl _ k0_t45_trips _ rfl ![9, 16] rfl rfl inb_S16x128_S1x16_9_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 0 k.val 2 hk8 rfl _ k0_t45_trips _ rfl ![9, 0] rfl rfl inb_S16x128_S1x16_9_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 7 k.val 2 hk8 rfl _ k0_t44_trips _ rfl ![8, 112] rfl rfl inb_S16x128_S1x16_8_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 6 k.val 2 hk8 rfl _ k0_t44_trips _ rfl ![8, 96] rfl rfl inb_S16x128_S1x16_8_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 5 k.val 2 hk8 rfl _ k0_t44_trips _ rfl ![8, 80] rfl rfl inb_S16x128_S1x16_8_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 4 k.val 2 hk8 rfl _ k0_t44_trips _ rfl ![8, 64] rfl rfl inb_S16x128_S1x16_8_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 3 k.val 2 hk8 rfl _ k0_t44_trips _ rfl ![8, 48] rfl rfl inb_S16x128_S1x16_8_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 2 k.val 2 hk8 rfl _ k0_t44_trips _ rfl ![8, 32] rfl rfl inb_S16x128_S1x16_8_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 1 k.val 2 hk8 rfl _ k0_t44_trips _ rfl ![8, 16] rfl rfl inb_S16x128_S1x16_8_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 0 k.val 2 hk8 rfl _ k0_t44_trips _ rfl ![8, 0] rfl rfl inb_S16x128_S1x16_8_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 7 k.val 1 hk8 rfl _ k0_t43_trips _ rfl ![7, 112] rfl rfl inb_S16x128_S1x16_7_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 6 k.val 1 hk8 rfl _ k0_t43_trips _ rfl ![7, 96] rfl rfl inb_S16x128_S1x16_7_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 5 k.val 1 hk8 rfl _ k0_t43_trips _ rfl ![7, 80] rfl rfl inb_S16x128_S1x16_7_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 4 k.val 1 hk8 rfl _ k0_t43_trips _ rfl ![7, 64] rfl rfl inb_S16x128_S1x16_7_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 3 k.val 1 hk8 rfl _ k0_t43_trips _ rfl ![7, 48] rfl rfl inb_S16x128_S1x16_7_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 2 k.val 1 hk8 rfl _ k0_t43_trips _ rfl ![7, 32] rfl rfl inb_S16x128_S1x16_7_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 1 k.val 1 hk8 rfl _ k0_t43_trips _ rfl ![7, 16] rfl rfl inb_S16x128_S1x16_7_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 0 k.val 1 hk8 rfl _ k0_t43_trips _ rfl ![7, 0] rfl rfl inb_S16x128_S1x16_7_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 7 k.val 1 hk8 rfl _ k0_t42_trips _ rfl ![6, 112] rfl rfl inb_S16x128_S1x16_6_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 6 k.val 1 hk8 rfl _ k0_t42_trips _ rfl ![6, 96] rfl rfl inb_S16x128_S1x16_6_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 5 k.val 1 hk8 rfl _ k0_t42_trips _ rfl ![6, 80] rfl rfl inb_S16x128_S1x16_6_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 4 k.val 1 hk8 rfl _ k0_t42_trips _ rfl ![6, 64] rfl rfl inb_S16x128_S1x16_6_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 3 k.val 1 hk8 rfl _ k0_t42_trips _ rfl ![6, 48] rfl rfl inb_S16x128_S1x16_6_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 2 k.val 1 hk8 rfl _ k0_t42_trips _ rfl ![6, 32] rfl rfl inb_S16x128_S1x16_6_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 1 k.val 1 hk8 rfl _ k0_t42_trips _ rfl ![6, 16] rfl rfl inb_S16x128_S1x16_6_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 0 k.val 1 hk8 rfl _ k0_t42_trips _ rfl ![6, 0] rfl rfl inb_S16x128_S1x16_6_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 7 k.val 1 hk8 rfl _ k0_t41_trips _ rfl ![5, 112] rfl rfl inb_S16x128_S1x16_5_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 6 k.val 1 hk8 rfl _ k0_t41_trips _ rfl ![5, 96] rfl rfl inb_S16x128_S1x16_5_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 5 k.val 1 hk8 rfl _ k0_t41_trips _ rfl ![5, 80] rfl rfl inb_S16x128_S1x16_5_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 4 k.val 1 hk8 rfl _ k0_t41_trips _ rfl ![5, 64] rfl rfl inb_S16x128_S1x16_5_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 3 k.val 1 hk8 rfl _ k0_t41_trips _ rfl ![5, 48] rfl rfl inb_S16x128_S1x16_5_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 2 k.val 1 hk8 rfl _ k0_t41_trips _ rfl ![5, 32] rfl rfl inb_S16x128_S1x16_5_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 1 k.val 1 hk8 rfl _ k0_t41_trips _ rfl ![5, 16] rfl rfl inb_S16x128_S1x16_5_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 0 k.val 1 hk8 rfl _ k0_t41_trips _ rfl ![5, 0] rfl rfl inb_S16x128_S1x16_5_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 7 k.val 1 hk8 rfl _ k0_t40_trips _ rfl ![4, 112] rfl rfl inb_S16x128_S1x16_4_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 6 k.val 1 hk8 rfl _ k0_t40_trips _ rfl ![4, 96] rfl rfl inb_S16x128_S1x16_4_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 5 k.val 1 hk8 rfl _ k0_t40_trips _ rfl ![4, 80] rfl rfl inb_S16x128_S1x16_4_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 4 k.val 1 hk8 rfl _ k0_t40_trips _ rfl ![4, 64] rfl rfl inb_S16x128_S1x16_4_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 3 k.val 1 hk8 rfl _ k0_t40_trips _ rfl ![4, 48] rfl rfl inb_S16x128_S1x16_4_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 2 k.val 1 hk8 rfl _ k0_t40_trips _ rfl ![4, 32] rfl rfl inb_S16x128_S1x16_4_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 1 k.val 1 hk8 rfl _ k0_t40_trips _ rfl ![4, 16] rfl rfl inb_S16x128_S1x16_4_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 0 k.val 1 hk8 rfl _ k0_t40_trips _ rfl ![4, 0] rfl rfl inb_S16x128_S1x16_4_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 7 k.val 0 hk8 rfl _ k0_t39_trips _ rfl ![3, 112] rfl rfl inb_S16x128_S1x16_3_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 6 k.val 0 hk8 rfl _ k0_t39_trips _ rfl ![3, 96] rfl rfl inb_S16x128_S1x16_3_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 5 k.val 0 hk8 rfl _ k0_t39_trips _ rfl ![3, 80] rfl rfl inb_S16x128_S1x16_3_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 4 k.val 0 hk8 rfl _ k0_t39_trips _ rfl ![3, 64] rfl rfl inb_S16x128_S1x16_3_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 3 k.val 0 hk8 rfl _ k0_t39_trips _ rfl ![3, 48] rfl rfl inb_S16x128_S1x16_3_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 2 k.val 0 hk8 rfl _ k0_t39_trips _ rfl ![3, 32] rfl rfl inb_S16x128_S1x16_3_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 1 k.val 0 hk8 rfl _ k0_t39_trips _ rfl ![3, 16] rfl rfl inb_S16x128_S1x16_3_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 0 k.val 0 hk8 rfl _ k0_t39_trips _ rfl ![3, 0] rfl rfl inb_S16x128_S1x16_3_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 7 k.val 0 hk8 rfl _ k0_t38_trips _ rfl ![2, 112] rfl rfl inb_S16x128_S1x16_2_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 6 k.val 0 hk8 rfl _ k0_t38_trips _ rfl ![2, 96] rfl rfl inb_S16x128_S1x16_2_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 5 k.val 0 hk8 rfl _ k0_t38_trips _ rfl ![2, 80] rfl rfl inb_S16x128_S1x16_2_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 4 k.val 0 hk8 rfl _ k0_t38_trips _ rfl ![2, 64] rfl rfl inb_S16x128_S1x16_2_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 3 k.val 0 hk8 rfl _ k0_t38_trips _ rfl ![2, 48] rfl rfl inb_S16x128_S1x16_2_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 2 k.val 0 hk8 rfl _ k0_t38_trips _ rfl ![2, 32] rfl rfl inb_S16x128_S1x16_2_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 1 k.val 0 hk8 rfl _ k0_t38_trips _ rfl ![2, 16] rfl rfl inb_S16x128_S1x16_2_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 0 k.val 0 hk8 rfl _ k0_t38_trips _ rfl ![2, 0] rfl rfl inb_S16x128_S1x16_2_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 7 k.val 0 hk8 rfl _ k0_t37_trips _ rfl ![1, 112] rfl rfl inb_S16x128_S1x16_1_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 6 k.val 0 hk8 rfl _ k0_t37_trips _ rfl ![1, 96] rfl rfl inb_S16x128_S1x16_1_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 5 k.val 0 hk8 rfl _ k0_t37_trips _ rfl ![1, 80] rfl rfl inb_S16x128_S1x16_1_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 4 k.val 0 hk8 rfl _ k0_t37_trips _ rfl ![1, 64] rfl rfl inb_S16x128_S1x16_1_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 3 k.val 0 hk8 rfl _ k0_t37_trips _ rfl ![1, 48] rfl rfl inb_S16x128_S1x16_1_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 2 k.val 0 hk8 rfl _ k0_t37_trips _ rfl ![1, 32] rfl rfl inb_S16x128_S1x16_1_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 1 k.val 0 hk8 rfl _ k0_t37_trips _ rfl ![1, 16] rfl rfl inb_S16x128_S1x16_1_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 0 k.val 0 hk8 rfl _ k0_t37_trips _ rfl ![1, 0] rfl rfl inb_S16x128_S1x16_1_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 7 k.val 0 hk8 rfl _ k0_t36_trips _ rfl ![0, 112] rfl rfl inb_S16x128_S1x16_0_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 6 k.val 0 hk8 rfl _ k0_t36_trips _ rfl ![0, 96] rfl rfl inb_S16x128_S1x16_0_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 5 k.val 0 hk8 rfl _ k0_t36_trips _ rfl ![0, 80] rfl rfl inb_S16x128_S1x16_0_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 4 k.val 0 hk8 rfl _ k0_t36_trips _ rfl ![0, 64] rfl rfl inb_S16x128_S1x16_0_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 3 k.val 0 hk8 rfl _ k0_t36_trips _ rfl ![0, 48] rfl rfl inb_S16x128_S1x16_0_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 2 k.val 0 hk8 rfl _ k0_t36_trips _ rfl ![0, 32] rfl rfl inb_S16x128_S1x16_0_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 1 k.val 0 hk8 rfl _ k0_t36_trips _ rfl ![0, 16] rfl rfl inb_S16x128_S1x16_0_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 0 k.val 0 hk8 rfl _ k0_t36_trips _ rfl ![0, 0] rfl rfl inb_S16x128_S1x16_0_0 x, ?_⟩
    exact List.forall_mem_nil _
  have hcov : ∀ y : S16x128.Idx, ∃ p ∈ tripLt35.sl.H6_128 m d L X hX k, y ∈ p.1.set := by
    sl_unfold_run_names
    exact View.cover_of_tiled _ S1x16.size rfl
  ihave Ho2 := (Entails.of_eq (trip_close m d L 2 (Ring.bk 8 k.val) s6 f6 _ fo hG hcov (tripLt35.sl.dma16 m d L X hX k f6) rfl)) $$ Ho
  clear hG hcov
  -- the blocks the trip landed, the rest
  isplitl [HF0_dst_and HF1_dst_and HF2_dst_and HF3_dst_and Hrest HF0 HT0 HF1 HT1 HF2 HT2 HF3 HT3]
  · isplitl [HF0_dst_and HF1_dst_and HF2_dst_and HF3_dst_and Hrest]
    · isplitl [HF0_dst_and]; · iexact HF0_dst_and
      isplitl [HF1_dst_and]; · iexact HF1_dst_and
      isplitl [HF2_dst_and]; · iexact HF2_dst_and
      isplitl [HF3_dst_and]; · iexact HF3_dst_and
      iexact Hrest
    isplitl [HF0 HT0]
    · iexists (s2.view.writes (Elt F) s2.view.junk [⟨Rect.whole S200x128, gathered d L cV (m (cLoc d)) s0 X hX (Ring.bk 32 (4 * k.val + 0))⟩])
      irw [flightP_after]
      isplitl [HF0]; · iexact HF0
      iexact HT0
    isplitl [HF1 HT1]
    · iexists (s3.view.writes (Elt F) s3.view.junk [⟨Rect.whole S200x128, gathered d L cV (m (cLoc d)) s0 X hX (Ring.bk 32 (4 * k.val + 1))⟩])
      irw [flightP_after]
      isplitl [HF1]; · iexact HF1
      iexact HT1
    isplitl [HF2 HT2]
    · iexists (s4.view.writes (Elt F) s4.view.junk [⟨Rect.whole S200x128, gathered d L cV (m (cLoc d)) s0 X hX (Ring.bk 32 (4 * k.val + 2))⟩])
      irw [flightP_after]
      isplitl [HF2]; · iexact HF2
      iexact HT2
    iexists (s5.view.writes (Elt F) s5.view.junk [⟨Rect.whole S200x128, gathered d L cV (m (cLoc d)) s0 X hX (Ring.bk 32 (4 * k.val + 3))⟩])
    irw [flightP_after]
    isplitl [HF3]; · iexact HF3
    iexact HT3
  isplitl [H6]; · iexists _; iexact H6
  isplitl [Hc5]; · iexact Hc5
  isplitl [Ho2 Hpl]
  · isplitl [Ho2]; · iexact Ho2
    iexact Hpl
  isplitl [Hmw]; · iexact Hmw
  iexists _
  isplitr
  · ipureintro; exact hW5
  · iexact HO

end Cert.Kernel.Sc

end
-- ==== Proof.B_ScPhase2Last.lean ====
/-
  The last trip of the third chunk loop of a vector subcore (the third table's plane, chunk 7).

  Before it the four ring slots are in flight with the last four blocks of the first index buffer, every other block is
  home, and chunks 0 … 6 of the plane hold the pooled value. The trip lands the four blocks in turn, sums each row
  buffer's four segments and stores their means into the sixteen-row scratch; no block is left to fire, so each slot is
  idle from then on (its cell at zero, its row buffer and its read token of the table back whole); the sixteen means
  are copied out to chunk 7, which thereby holds the pooled value; every block of the index buffer is home again.
-/
import proofs.«207262_g39728447488703_cont_8to1_b_1934_40_alg».proof.Proof.B_ScRing
import proofs.«207262_g39728447488703_cont_8to1_b_1934_40_alg».proof.Proof.B_ScCanonSets
import proofs.«207262_g39728447488703_cont_8to1_b_1934_40_alg».proof.Proof.B_ScTripClose
import proofs.«207262_g39728447488703_cont_8to1_b_1934_40_alg».proof.Proof.B_ScRed36
import proofs.«207262_g39728447488703_cont_8to1_b_1934_40_alg».proof.Proof.B_ScRed37
import proofs.«207262_g39728447488703_cont_8to1_b_1934_40_alg».proof.Proof.B_ScRed38
import proofs.«207262_g39728447488703_cont_8to1_b_1934_40_alg».proof.Proof.B_ScRed39
import proofs.«207262_g39728447488703_cont_8to1_b_1934_40_alg».proof.Proof.B_ScRed40
import proofs.«207262_g39728447488703_cont_8to1_b_1934_40_alg».proof.Proof.B_ScRed41
import proofs.«207262_g39728447488703_cont_8to1_b_1934_40_alg».proof.Proof.B_ScRed42
import proofs.«207262_g39728447488703_cont_8to1_b_1934_40_alg».proof.Proof.B_ScRed43
import proofs.«207262_g39728447488703_cont_8to1_b_1934_40_alg».proof.Proof.B_ScRed44
import proofs.«207262_g39728447488703_cont_8to1_b_1934_40_alg».proof.Proof.B_ScRed45
import proofs.«207262_g39728447488703_cont_8to1_b_1934_40_alg».proof.Proof.B_ScRed46
import proofs.«207262_g39728447488703_cont_8to1_b_1934_40_alg».proof.Proof.B_ScRed47
import proofs.«207262_g39728447488703_cont_8to1_b_1934_40_alg».proof.Proof.B_ScRed48
import proofs.«207262_g39728447488703_cont_8to1_b_1934_40_alg».proof.Proof.B_ScRed49
import proofs.«207262_g39728447488703_cont_8to1_b_1934_40_alg».proof.Proof.B_ScRed50
import proofs.«207262_g39728447488703_cont_8to1_b_1934_40_alg».proof.Proof.B_ScRed51
import proofs.«207262_g39728447488703_cont_8to1_b_1934_40_alg».proof.Proof.Gen.Kernel.Skeleton
import Idealize.ShloMosaic.Lib.Tactic

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)
  (X : Buf (Elt F) ((s0).view.loc (thrOf d L))) (q : PosShare TreeShare) (hX : IdxOK d L s0 X)
  (hXr : (s0).view.read (Elt F) X = idxBuf m d L 2)
  (O : CellTallies nD τ sig (HIx 1)) (W : Waits sig (HIx 1))
include hXr

set_option maxHeartbeats 4000000 in
/-- THE LAST TRIP (`k = 7`): each slot lands its block and is idle from then on (no block is left to fire); the sixteen
    means are copied out to the last chunk; every block is home again. -/
theorem tripLast35 (k : Fin k0_t35_loop.trips) (hk : ¬ k.val < 7) :
    resAt m d L cV (m (cLoc d)) s0 X q hX cc0_scoped5 2 O W k.val
      ⊢ wp frame (wpE (defs₀ (F := F)) 𝒱₀ (thrOf d L) none) Set.univ
          (k0_t35_body L aV (Memref.isWhole_whole _) bV (Memref.isWhole_whole _) cV (Memref.isWhole_whole _) iV (Memref.isWhole_whole _) oV (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) cc0_scratch7 cc0_scratch8 cc0_scratch9 cc0_scratch10 cc0_scoped0 cc0_scoped1 cc0_scoped2 cc0_scoped3 cc0_scoped4 cc0_scoped5 k ())
          (fun _ => resAt m d L cV (m (cLoc d)) s0 X q hX cc0_scoped5 2 O W (k.val + 1)) := by
  have hk8 : k.val < 8 := trips35 k
  have hk7 : k.val = 7 := by omega
  have l0 : 4 * k.val + 0 < 32 := by omega
  have l1 : 4 * k.val + 1 < 32 := by omega
  have l2 : 4 * k.val + 2 < 32 := by omega
  have l3 : 4 * k.val + 3 < 32 := by omega
  have g0 : ¬ 4 * (k.val + 1) + 0 < 32 := by omega
  have g1 : ¬ 4 * (k.val + 1) + 1 < 32 := by omega
  have g2 : ¬ 4 * (k.val + 1) + 2 < 32 := by omega
  have g3 : ¬ 4 * (k.val + 1) + 3 < 32 := by omega
  unfold resAt ringAt
  rw [chunk_homes_last' _ k.val hk7, plane_here m d L 2 k.val hk8, plane_next m d L 2 k.val hk8]
  simp only [slotAt, l0, l1, l2, l3, g0, g1, g2, g3, ↓reduceIte]
  iintro ⟨⟨Hhome, ⟨%f0, HF0, HT0⟩, ⟨%f1, HF1, HT1⟩, ⟨%f2, HF2, HT2⟩, ⟨%f3, HF3, HT3⟩⟩, ⟨%f6, H6⟩, Hc5, ⟨⟨%fo, Ho⟩, Hpl⟩, Hmw, ⟨%W', %hW', HO⟩⟩
  have hc17 : ¬ k0_cond17 k = 1#1 := fun h => hk ((cond17_iff k).1 h)
  have hc18 : ¬ k0_cond18 k = 1#1 := fun h => hk ((cond18_iff k).1 h)
  have hc19 : ¬ k0_cond19 k = 1#1 := fun h => hk ((cond19_iff k).1 h)
  have hc20 : ¬ k0_cond20 k = 1#1 := fun h => hk ((cond20_iff k).1 h)
  have hW5 : ∀ p ∈ (insert ((SemLoc.dma cc0_scoped5.sem : SemLoc sig), (default : HIx 1)) (insert ((SemLoc.dma cc0_scratch10.sem : SemLoc sig), (default : HIx 1))
      (insert ((SemLoc.dma cc0_scratch9.sem : SemLoc sig), (default : HIx 1)) (insert ((SemLoc.dma cc0_scratch8.sem : SemLoc sig), (default : HIx 1))
        (insert ((SemLoc.dma cc0_scratch7.sem : SemLoc sig), (default : HIx 1)) W'))))), p ∈ W ∨ p.2 = none := by
    intro p hp
    simp only [Finset.mem_insert] at hp
    rcases hp with rfl | rfl | rfl | rfl | rfl | hp
    · exact Or.inr rfl
    · exact Or.inr rfl
    · exact Or.inr rfl
    · exact Or.inr rfl
    · exact Or.inr rfl
    · exact hW' p hp
  clear hk8 l0 l1 l2 l3 g0 g1 g2 g3
  unfold Gen.k0_t35_body
  sl_exec
  sl_step
  -- the chunk, written with the scratch's sixteen means, holds the pooled value: the 128 lane stores, newest first, each
  -- the piece of the chunk's pooled rows at its own row (slot, segment) and column block
  have hG : ∀ p ∈ tripLast35.sl.H6_128 m d L X hX k, ∀ x : p.1.shape.Idx,
      p.2 x = chunkG m d L (m (aLoc d)) (m (bLoc d)) (m (cLoc d)) 2 (Ring.bk 8 k.val) (p.1.emb x) := by
    sl_unfold_run_names
    have hk8 : k.val = (Ring.bk 8 k.val).val := (bk8_val (trips35 k)).symm
    refine List.forall_mem_cons.2 ⟨fun x => piece_ok_s5 m d L cV (m (cLoc d)) s0 X hX (m (aLoc d)) (m (bLoc d)) (m (cLoc d)) 2 rfl hXr (s5).view.junk (Ring.bk 8 k.val) 3 3 7 k.val 3 hk8 rfl _ k0_t51_trips _ rfl ![15, 112] rfl rfl inb_S16x128_S1x16_15_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 6 k.val 3 hk8 rfl _ k0_t51_trips _ rfl ![15, 96] rfl rfl inb_S16x128_S1x16_15_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 5 k.val 3 hk8 rfl _ k0_t51_trips _ rfl ![15, 80] rfl rfl inb_S16x128_S1x16_15_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 4 k.val 3 hk8 rfl _ k0_t51_trips _ rfl ![15, 64] rfl rfl inb_S16x128_S1x16_15_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 3 k.val 3 hk8 rfl _ k0_t51_trips _ rfl ![15, 48] rfl rfl inb_S16x128_S1x16_15_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 2 k.val 3 hk8 rfl _ k0_t51_trips _ rfl ![15, 32] rfl rfl inb_S16x128_S1x16_15_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 1 k.val 3 hk8 rfl _ k0_t51_trips _ rfl ![15, 16] rfl rfl inb_S16x128_S1x16_15_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 3 0 k.val 3 hk8 rfl _ k0_t51_trips _ rfl ![15, 0] rfl rfl inb_S16x128_S1x16_15_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 7 k.val 3 hk8 rfl _ k0_t50_trips _ rfl ![14, 112] rfl rfl inb_S16x128_S1x16_14_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 6 k.val 3 hk8 rfl _ k0_t50_trips _ rfl ![14, 96] rfl rfl inb_S16x128_S1x16_14_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 5 k.val 3 hk8 rfl _ k0_t50_trips _ rfl ![14, 80] rfl rfl inb_S16x128_S1x16_14_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 4 k.val 3 hk8 rfl _ k0_t50_trips _ rfl ![14, 64] rfl rfl inb_S16x128_S1x16_14_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 3 k.val 3 hk8 rfl _ k0_t50_trips _ rfl ![14, 48] rfl rfl inb_S16x128_S1x16_14_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 2 k.val 3 hk8 rfl _ k0_t50_trips _ rfl ![14, 32] rfl rfl inb_S16x128_S1x16_14_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 1 k.val 3 hk8 rfl _ k0_t50_trips _ rfl ![14, 16] rfl rfl inb_S16x128_S1x16_14_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 2 0 k.val 3 hk8 rfl _ k0_t50_trips _ rfl ![14, 0] rfl rfl inb_S16x128_S1x16_14_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 7 k.val 3 hk8 rfl _ k0_t49_trips _ rfl ![13, 112] rfl rfl inb_S16x128_S1x16_13_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 6 k.val 3 hk8 rfl _ k0_t49_trips _ rfl ![13, 96] rfl rfl inb_S16x128_S1x16_13_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 5 k.val 3 hk8 rfl _ k0_t49_trips _ rfl ![13, 80] rfl rfl inb_S16x128_S1x16_13_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 4 k.val 3 hk8 rfl _ k0_t49_trips _ rfl ![13, 64] rfl rfl inb_S16x128_S1x16_13_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 3 k.val 3 hk8 rfl _ k0_t49_trips _ rfl ![13, 48] rfl rfl inb_S16x128_S1x16_13_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 2 k.val 3 hk8 rfl _ k0_t49_trips _ rfl ![13, 32] rfl rfl inb_S16x128_S1x16_13_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 1 k.val 3 hk8 rfl _ k0_t49_trips _ rfl ![13, 16] rfl rfl inb_S16x128_S1x16_13_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 1 0 k.val 3 hk8 rfl _ k0_t49_trips _ rfl ![13, 0] rfl rfl inb_S16x128_S1x16_13_0 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 7 k.val 3 hk8 rfl _ k0_t48_trips _ rfl ![12, 112] rfl rfl inb_S16x128_S1x16_12_112 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 6 k.val 3 hk8 rfl _ k0_t48_trips _ rfl ![12, 96] rfl rfl inb_S16x128_S1x16_12_96 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 5 k.val 3 hk8 rfl _ k0_t48_trips _ rfl ![12, 80] rfl rfl inb_S16x128_S1x16_12_80 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 4 k.val 3 hk8 rfl _ k0_t48_trips _ rfl ![12, 64] rfl rfl inb_S16x128_S1x16_12_64 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 3 k.val 3 hk8 rfl _ k0_t48_trips _ rfl ![12, 48] rfl rfl inb_S16x128_S1x16_12_48 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 2 k.val 3 hk8 rfl _ k0_t48_trips _ rfl ![12, 32] rfl rfl inb_S16x128_S1x16_12_32 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 1 k.val 3 hk8 rfl _ k0_t48_trips _ rfl ![12, 16] rfl rfl inb_S16x128_S1x16_12_16 x, ?_⟩
    refine List.forall_mem_cons.2 ⟨fun x => piece_ok_s5 m d L cV (m (cLoc d)) s0 X hX (m (aLoc d)) (m (bLoc d)) (m (cLoc d)) 2 rfl hXr (s5).view.junk (Ring.bk 8 k.val) 3 0 0 k.val 3 hk8 rfl _ k0_t48_trips _ rfl ![12, 0] rfl rfl inb_S16x128_S1x16_12_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 7 k.val 2 hk8 rfl _ k0_t47_trips _ rfl ![11, 112] rfl rfl inb_S16x128_S1x16_11_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 6 k.val 2 hk8 rfl _ k0_t47_trips _ rfl ![11, 96] rfl rfl inb_S16x128_S1x16_11_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 5 k.val 2 hk8 rfl _ k0_t47_trips _ rfl ![11, 80] rfl rfl inb_S16x128_S1x16_11_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 4 k.val 2 hk8 rfl _ k0_t47_trips _ rfl ![11, 64] rfl rfl inb_S16x128_S1x16_11_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 3 k.val 2 hk8 rfl _ k0_t47_trips _ rfl ![11, 48] rfl rfl inb_S16x128_S1x16_11_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 2 k.val 2 hk8 rfl _ k0_t47_trips _ rfl ![11, 32] rfl rfl inb_S16x128_S1x16_11_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 1 k.val 2 hk8 rfl _ k0_t47_trips _ rfl ![11, 16] rfl rfl inb_S16x128_S1x16_11_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 3 0 k.val 2 hk8 rfl _ k0_t47_trips _ rfl ![11, 0] rfl rfl inb_S16x128_S1x16_11_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 7 k.val 2 hk8 rfl _ k0_t46_trips _ rfl ![10, 112] rfl rfl inb_S16x128_S1x16_10_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 6 k.val 2 hk8 rfl _ k0_t46_trips _ rfl ![10, 96] rfl rfl inb_S16x128_S1x16_10_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 5 k.val 2 hk8 rfl _ k0_t46_trips _ rfl ![10, 80] rfl rfl inb_S16x128_S1x16_10_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 4 k.val 2 hk8 rfl _ k0_t46_trips _ rfl ![10, 64] rfl rfl inb_S16x128_S1x16_10_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 3 k.val 2 hk8 rfl _ k0_t46_trips _ rfl ![10, 48] rfl rfl inb_S16x128_S1x16_10_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 2 k.val 2 hk8 rfl _ k0_t46_trips _ rfl ![10, 32] rfl rfl inb_S16x128_S1x16_10_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 1 k.val 2 hk8 rfl _ k0_t46_trips _ rfl ![10, 16] rfl rfl inb_S16x128_S1x16_10_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 2 0 k.val 2 hk8 rfl _ k0_t46_trips _ rfl ![10, 0] rfl rfl inb_S16x128_S1x16_10_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 7 k.val 2 hk8 rfl _ k0_t45_trips _ rfl ![9, 112] rfl rfl inb_S16x128_S1x16_9_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 6 k.val 2 hk8 rfl _ k0_t45_trips _ rfl ![9, 96] rfl rfl inb_S16x128_S1x16_9_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 5 k.val 2 hk8 rfl _ k0_t45_trips _ rfl ![9, 80] rfl rfl inb_S16x128_S1x16_9_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 4 k.val 2 hk8 rfl _ k0_t45_trips _ rfl ![9, 64] rfl rfl inb_S16x128_S1x16_9_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 3 k.val 2 hk8 rfl _ k0_t45_trips _ rfl ![9, 48] rfl rfl inb_S16x128_S1x16_9_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 2 k.val 2 hk8 rfl _ k0_t45_trips _ rfl ![9, 32] rfl rfl inb_S16x128_S1x16_9_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 1 k.val 2 hk8 rfl _ k0_t45_trips _ rfl ![9, 16] rfl rfl inb_S16x128_S1x16_9_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 1 0 k.val 2 hk8 rfl _ k0_t45_trips _ rfl ![9, 0] rfl rfl inb_S16x128_S1x16_9_0 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 7 k.val 2 hk8 rfl _ k0_t44_trips _ rfl ![8, 112] rfl rfl inb_S16x128_S1x16_8_112 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 6 k.val 2 hk8 rfl _ k0_t44_trips _ rfl ![8, 96] rfl rfl inb_S16x128_S1x16_8_96 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 5 k.val 2 hk8 rfl _ k0_t44_trips _ rfl ![8, 80] rfl rfl inb_S16x128_S1x16_8_80 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 4 k.val 2 hk8 rfl _ k0_t44_trips _ rfl ![8, 64] rfl rfl inb_S16x128_S1x16_8_64 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 3 k.val 2 hk8 rfl _ k0_t44_trips _ rfl ![8, 48] rfl rfl inb_S16x128_S1x16_8_48 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 2 k.val 2 hk8 rfl _ k0_t44_trips _ rfl ![8, 32] rfl rfl inb_S16x128_S1x16_8_32 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 1 k.val 2 hk8 rfl _ k0_t44_trips _ rfl ![8, 16] rfl rfl inb_S16x128_S1x16_8_16 x, ?_⟩
    refine List.forall_mem_cons.2 ⟨fun x => piece_ok_s4 m d L cV (m (cLoc d)) s0 X hX (m (aLoc d)) (m (bLoc d)) (m (cLoc d)) 2 rfl hXr (s4).view.junk (Ring.bk 8 k.val) 2 0 0 k.val 2 hk8 rfl _ k0_t44_trips _ rfl ![8, 0] rfl rfl inb_S16x128_S1x16_8_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 7 k.val 1 hk8 rfl _ k0_t43_trips _ rfl ![7, 112] rfl rfl inb_S16x128_S1x16_7_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 6 k.val 1 hk8 rfl _ k0_t43_trips _ rfl ![7, 96] rfl rfl inb_S16x128_S1x16_7_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 5 k.val 1 hk8 rfl _ k0_t43_trips _ rfl ![7, 80] rfl rfl inb_S16x128_S1x16_7_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 4 k.val 1 hk8 rfl _ k0_t43_trips _ rfl ![7, 64] rfl rfl inb_S16x128_S1x16_7_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 3 k.val 1 hk8 rfl _ k0_t43_trips _ rfl ![7, 48] rfl rfl inb_S16x128_S1x16_7_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 2 k.val 1 hk8 rfl _ k0_t43_trips _ rfl ![7, 32] rfl rfl inb_S16x128_S1x16_7_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 1 k.val 1 hk8 rfl _ k0_t43_trips _ rfl ![7, 16] rfl rfl inb_S16x128_S1x16_7_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 3 0 k.val 1 hk8 rfl _ k0_t43_trips _ rfl ![7, 0] rfl rfl inb_S16x128_S1x16_7_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 7 k.val 1 hk8 rfl _ k0_t42_trips _ rfl ![6, 112] rfl rfl inb_S16x128_S1x16_6_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 6 k.val 1 hk8 rfl _ k0_t42_trips _ rfl ![6, 96] rfl rfl inb_S16x128_S1x16_6_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 5 k.val 1 hk8 rfl _ k0_t42_trips _ rfl ![6, 80] rfl rfl inb_S16x128_S1x16_6_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 4 k.val 1 hk8 rfl _ k0_t42_trips _ rfl ![6, 64] rfl rfl inb_S16x128_S1x16_6_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 3 k.val 1 hk8 rfl _ k0_t42_trips _ rfl ![6, 48] rfl rfl inb_S16x128_S1x16_6_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 2 k.val 1 hk8 rfl _ k0_t42_trips _ rfl ![6, 32] rfl rfl inb_S16x128_S1x16_6_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 1 k.val 1 hk8 rfl _ k0_t42_trips _ rfl ![6, 16] rfl rfl inb_S16x128_S1x16_6_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 2 0 k.val 1 hk8 rfl _ k0_t42_trips _ rfl ![6, 0] rfl rfl inb_S16x128_S1x16_6_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 7 k.val 1 hk8 rfl _ k0_t41_trips _ rfl ![5, 112] rfl rfl inb_S16x128_S1x16_5_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 6 k.val 1 hk8 rfl _ k0_t41_trips _ rfl ![5, 96] rfl rfl inb_S16x128_S1x16_5_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 5 k.val 1 hk8 rfl _ k0_t41_trips _ rfl ![5, 80] rfl rfl inb_S16x128_S1x16_5_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 4 k.val 1 hk8 rfl _ k0_t41_trips _ rfl ![5, 64] rfl rfl inb_S16x128_S1x16_5_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 3 k.val 1 hk8 rfl _ k0_t41_trips _ rfl ![5, 48] rfl rfl inb_S16x128_S1x16_5_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 2 k.val 1 hk8 rfl _ k0_t41_trips _ rfl ![5, 32] rfl rfl inb_S16x128_S1x16_5_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 1 k.val 1 hk8 rfl _ k0_t41_trips _ rfl ![5, 16] rfl rfl inb_S16x128_S1x16_5_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 1 0 k.val 1 hk8 rfl _ k0_t41_trips _ rfl ![5, 0] rfl rfl inb_S16x128_S1x16_5_0 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 7 k.val 1 hk8 rfl _ k0_t40_trips _ rfl ![4, 112] rfl rfl inb_S16x128_S1x16_4_112 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 6 k.val 1 hk8 rfl _ k0_t40_trips _ rfl ![4, 96] rfl rfl inb_S16x128_S1x16_4_96 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 5 k.val 1 hk8 rfl _ k0_t40_trips _ rfl ![4, 80] rfl rfl inb_S16x128_S1x16_4_80 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 4 k.val 1 hk8 rfl _ k0_t40_trips _ rfl ![4, 64] rfl rfl inb_S16x128_S1x16_4_64 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 3 k.val 1 hk8 rfl _ k0_t40_trips _ rfl ![4, 48] rfl rfl inb_S16x128_S1x16_4_48 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 2 k.val 1 hk8 rfl _ k0_t40_trips _ rfl ![4, 32] rfl rfl inb_S16x128_S1x16_4_32 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 1 k.val 1 hk8 rfl _ k0_t40_trips _ rfl ![4, 16] rfl rfl inb_S16x128_S1x16_4_16 x, ?_⟩
    refine List.forall_mem_cons.2 ⟨fun x => piece_ok_s3 m d L cV (m (cLoc d)) s0 X hX (m (aLoc d)) (m (bLoc d)) (m (cLoc d)) 2 rfl hXr (s3).view.junk (Ring.bk 8 k.val) 1 0 0 k.val 1 hk8 rfl _ k0_t40_trips _ rfl ![4, 0] rfl rfl inb_S16x128_S1x16_4_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 7 k.val 0 hk8 rfl _ k0_t39_trips _ rfl ![3, 112] rfl rfl inb_S16x128_S1x16_3_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 6 k.val 0 hk8 rfl _ k0_t39_trips _ rfl ![3, 96] rfl rfl inb_S16x128_S1x16_3_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 5 k.val 0 hk8 rfl _ k0_t39_trips _ rfl ![3, 80] rfl rfl inb_S16x128_S1x16_3_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 4 k.val 0 hk8 rfl _ k0_t39_trips _ rfl ![3, 64] rfl rfl inb_S16x128_S1x16_3_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 3 k.val 0 hk8 rfl _ k0_t39_trips _ rfl ![3, 48] rfl rfl inb_S16x128_S1x16_3_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 2 k.val 0 hk8 rfl _ k0_t39_trips _ rfl ![3, 32] rfl rfl inb_S16x128_S1x16_3_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 1 k.val 0 hk8 rfl _ k0_t39_trips _ rfl ![3, 16] rfl rfl inb_S16x128_S1x16_3_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 3 0 k.val 0 hk8 rfl _ k0_t39_trips _ rfl ![3, 0] rfl rfl inb_S16x128_S1x16_3_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 7 k.val 0 hk8 rfl _ k0_t38_trips _ rfl ![2, 112] rfl rfl inb_S16x128_S1x16_2_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 6 k.val 0 hk8 rfl _ k0_t38_trips _ rfl ![2, 96] rfl rfl inb_S16x128_S1x16_2_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 5 k.val 0 hk8 rfl _ k0_t38_trips _ rfl ![2, 80] rfl rfl inb_S16x128_S1x16_2_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 4 k.val 0 hk8 rfl _ k0_t38_trips _ rfl ![2, 64] rfl rfl inb_S16x128_S1x16_2_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 3 k.val 0 hk8 rfl _ k0_t38_trips _ rfl ![2, 48] rfl rfl inb_S16x128_S1x16_2_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 2 k.val 0 hk8 rfl _ k0_t38_trips _ rfl ![2, 32] rfl rfl inb_S16x128_S1x16_2_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 1 k.val 0 hk8 rfl _ k0_t38_trips _ rfl ![2, 16] rfl rfl inb_S16x128_S1x16_2_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 2 0 k.val 0 hk8 rfl _ k0_t38_trips _ rfl ![2, 0] rfl rfl inb_S16x128_S1x16_2_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 7 k.val 0 hk8 rfl _ k0_t37_trips _ rfl ![1, 112] rfl rfl inb_S16x128_S1x16_1_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 6 k.val 0 hk8 rfl _ k0_t37_trips _ rfl ![1, 96] rfl rfl inb_S16x128_S1x16_1_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 5 k.val 0 hk8 rfl _ k0_t37_trips _ rfl ![1, 80] rfl rfl inb_S16x128_S1x16_1_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 4 k.val 0 hk8 rfl _ k0_t37_trips _ rfl ![1, 64] rfl rfl inb_S16x128_S1x16_1_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 3 k.val 0 hk8 rfl _ k0_t37_trips _ rfl ![1, 48] rfl rfl inb_S16x128_S1x16_1_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 2 k.val 0 hk8 rfl _ k0_t37_trips _ rfl ![1, 32] rfl rfl inb_S16x128_S1x16_1_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 1 k.val 0 hk8 rfl _ k0_t37_trips _ rfl ![1, 16] rfl rfl inb_S16x128_S1x16_1_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 1 0 k.val 0 hk8 rfl _ k0_t37_trips _ rfl ![1, 0] rfl rfl inb_S16x128_S1x16_1_0 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 7 k.val 0 hk8 rfl _ k0_t36_trips _ rfl ![0, 112] rfl rfl inb_S16x128_S1x16_0_112 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 6 k.val 0 hk8 rfl _ k0_t36_trips _ rfl ![0, 96] rfl rfl inb_S16x128_S1x16_0_96 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 5 k.val 0 hk8 rfl _ k0_t36_trips _ rfl ![0, 80] rfl rfl inb_S16x128_S1x16_0_80 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 4 k.val 0 hk8 rfl _ k0_t36_trips _ rfl ![0, 64] rfl rfl inb_S16x128_S1x16_0_64 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 3 k.val 0 hk8 rfl _ k0_t36_trips _ rfl ![0, 48] rfl rfl inb_S16x128_S1x16_0_48 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 2 k.val 0 hk8 rfl _ k0_t36_trips _ rfl ![0, 32] rfl rfl inb_S16x128_S1x16_0_32 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 1 k.val 0 hk8 rfl _ k0_t36_trips _ rfl ![0, 16] rfl rfl inb_S16x128_S1x16_0_16 x, ?_⟩
    refine List.forall_mem_cons.2 ⟨fun x => piece_ok_s2 m d L cV (m (cLoc d)) s0 X hX (m (aLoc d)) (m (bLoc d)) (m (cLoc d)) 2 rfl hXr (s2).view.junk (Ring.bk 8 k.val) 0 0 0 k.val 0 hk8 rfl _ k0_t36_trips _ rfl ![0, 0] rfl rfl inb_S16x128_S1x16_0_0 x, ?_⟩
    exact List.forall_mem_nil _
  have hcov : ∀ y : S16x128.Idx, ∃ p ∈ tripLast35.sl.H6_128 m d L X hX k, y ∈ p.1.set := by
    sl_unfold_run_names
    exact View.cover_of_tiled _ S1x16.size rfl
  ihave Ho2 := (Entails.of_eq (trip_close m d L 2 (Ring.bk 8 k.val) s6 f6 _ fo hG hcov (tripLast35.sl.dma16 m d L X hX k f6) rfl)) $$ Ho
  clear hG hcov
  -- every block home; the four slots idle; the rest as it came
  isplitl [HF0_dst_and HF1_dst_and HF2_dst_and HF3_dst_and Hhome HF0 HF0_dst HT0 HF1 HF1_dst HT1 HF2 HF2_dst HT2 HF3 HF3_dst HT3]
  · isplitl [HF0_dst_and HF1_dst_and HF2_dst_and HF3_dst_and Hhome]
    · isplitl [HF0_dst_and]; · iexact HF0_dst_and
      isplitl [HF1_dst_and]; · iexact HF1_dst_and
      isplitl [HF2_dst_and]; · iexact HF2_dst_and
      isplitl [HF3_dst_and]; · iexact HF3_dst_and
      iexact Hhome
    isplitl [HF0 HF0_dst HT0]
    · isplitl [HF0]; · iexact HF0
      isplitl [HF0_dst]; · iexists _; iexact HF0_dst
      iexact HT0
    isplitl [HF1 HF1_dst HT1]
    · isplitl [HF1]; · iexact HF1
      isplitl [HF1_dst]; · iexists _; iexact HF1_dst
      iexact HT1
    isplitl [HF2 HF2_dst HT2]
    · isplitl [HF2]; · iexact HF2
      isplitl [HF2_dst]; · iexists _; iexact HF2_dst
      iexact HT2
    isplitl [HF3]; · iexact HF3
    isplitl [HF3_dst]; · iexists _; iexact HF3_dst
    iexact HT3
  isplitl [H6]; · iexists _; iexact H6
  isplitl [Hc5]; · iexact Hc5
  isplitl [Ho2 Hpl]
  · isplitl [Ho2]; · iexact Ho2
    iexact Hpl
  isplitl [Hmw]; · iexact Hmw
  iexists _
  isplitr
  · ipureintro; exact hW5
  · iexact HO

end Cert.Kernel.Sc

end
-- ==== Proof.B_ScPhase2.lean ====
/-
  The third chunk loop of a vector subcore by its invariant: the ring at point `4 k` over the first index buffer and the
  third table, the plane's chunks before `k` at the pooled value; a trip below 7 re-fires each slot, the last does not.
-/
import proofs.«207262_g39728447488703_cont_8to1_b_1934_40_alg».proof.Proof.B_ScPhase2Lt
import proofs.«207262_g39728447488703_cont_8to1_b_1934_40_alg».proof.Proof.B_ScPhase2Last

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

set_option warn.classDefReducibility false in
/-- THE THIRD CHUNK LOOP'S INVARIANT, instanced: before trip `k` the resources of `resAt` at `k` (the index buffer's
    contents `X`, the worker's read share `q`, the launch's waits found by matching trip 0 against the context); a trip
    below 7 re-fires, the last does not. -/
@[sl_loop] def loopInv35 (m : (ℓ : Loc nD τ sig) → Buf (Elt F) ℓ) (d : Dev nD) (L : grid0.Coords)
    (X : Buf (Elt F) ((s0).view.loc (thrOf d L))) (q : PosShare TreeShare) (hX : IdxOK d L s0 X)
    (hXr : (s0).view.read (Elt F) X = idxBuf m d L 2)
    (O : CellTallies nD τ sig (HIx 1)) (W : Waits sig (HIx 1)) :
    Idealize.ShloMosaic.LoopInv (M := 𝕄) Idealize.ShloMosaic.frame (wpE (defs₀ (F := F)) 𝒱₀ (thrOf d L) none) Set.univ
      k0_t35_loop.lb k0_t35_loop.ub k0_t35_loop.st k0_t35_ok ()
      (k0_t35_body (F := F) L aV (Memref.isWhole_whole _) bV (Memref.isWhole_whole _) cV (Memref.isWhole_whole _) iV (Memref.isWhole_whole _) oV (Memref.isWhole_whole _) s0 (Memref.isWhole_whole _) s1 (Memref.isWhole_whole _) s2 (Memref.isWhole_whole _) s3 (Memref.isWhole_whole _) s4 (Memref.isWhole_whole _) s5 (Memref.isWhole_whole _) s6 (Memref.isWhole_whole _) cc0_scratch7 cc0_scratch8 cc0_scratch9 cc0_scratch10 cc0_scoped0 cc0_scoped1 cc0_scoped2 cc0_scoped3 cc0_scoped4 cc0_scoped5) where
  inv k _ := resAt m d L cV (m (cLoc d)) s0 X q hX cc0_scoped5 2 O W k
  step k _ := by
    by_cases hk : k.val < 7
    · exact tripLt35 m d L X q hX hXr O W k hk
    · exact tripLast35 m d L X q hX hXr O W k hk

/-- The invariant before the first trip and after the last, in the ring's vocabulary. -/
theorem inv35_zero (m : (ℓ : Loc nD τ sig) → Buf (Elt F) ℓ) (d : Dev nD) (L : grid0.Coords)
    (X : Buf (Elt F) ((s0).view.loc (thrOf d L))) (q : PosShare TreeShare) (hX : IdxOK d L s0 X)
    (hXr : (s0).view.read (Elt F) X = idxBuf m d L 2)
    (O : CellTallies nD τ sig (HIx 1)) (W : Waits sig (HIx 1)) (acc : Unit) :
    (loopInv35 m d L X q hX hXr O W).inv 0 acc = resAt m d L cV (m (cLoc d)) s0 X q hX cc0_scoped5 2 O W 0 := rfl
theorem inv35_eight (m : (ℓ : Loc nD τ sig) → Buf (Elt F) ℓ) (d : Dev nD) (L : grid0.Coords)
    (X : Buf (Elt F) ((s0).view.loc (thrOf d L))) (q : PosShare TreeShare) (hX : IdxOK d L s0 X)
    (hXr : (s0).view.read (Elt F) X = idxBuf m d L 2)
    (O : CellTallies nD τ sig (HIx 1)) (W : Waits sig (HIx 1)) (acc : Unit) :
    (loopInv35 m d L X q hX hXr O W).inv 8 acc = resAt m d L cV (m (cLoc d)) s0 X q hX cc0_scoped5 2 O W 8 := rfl

end Cert.Kernel.Sc

end
-- ==== Proof.B_ScTileTop.lean ====
/-
  The vector subcore's task: the three chunk loops' steps are their invariants' own.
-/
import proofs.«207262_g39728447488703_cont_8to1_b_1934_40_alg».proof.Proof.B_ScTileBody
import proofs.«207262_g39728447488703_cont_8to1_b_1934_40_alg».proof.Proof.B_ScPhase0
import proofs.«207262_g39728447488703_cont_8to1_b_1934_40_alg».proof.Proof.B_ScPhase1
import proofs.«207262_g39728447488703_cont_8to1_b_1934_40_alg».proof.Proof.B_ScPhase2

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

theorem tile_body (hF : (K (F := F)).Facts) (hpre : PreOK m) (d : Dev nD) (L : grid0.Coords) (O : CellTallies nD τ sig (HIx 1)) (W : Waits sig (HIx 1)) (hO : ∀ g, O g none = 0) :
    iprop(levAts (K (F := F)).L (K (F := F)).lev ∗ emp
        ∗ (reads m d (tileSh (cL L) (sL L)) ∗ ∃ f, oOn d (oSet (wOf (cL L) (sL L))) f)
        ∗ scopedBufs (thrOf d L) ∗ scopedSems0 (thrOf d L) ∗ owes (thrOf d L) O W)
      ⊢ wp frame (wpE (defs₀ (F := F)) 𝒱₀ (thrOf d L) none) Set.univ
          (cc0_pool_kernel L aV (Memref.isWhole_whole _) bV (Memref.isWhole_whole _) cV (Memref.isWhole_whole _) iV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _) s6 (Memref.isWhole_whole _)
            cc0_scratch7 cc0_scratch8 cc0_scratch9 cc0_scratch10 cc0_scoped0 cc0_scoped1 cc0_scoped2 cc0_scoped3 cc0_scoped4 cc0_scoped5)
          fun _ => iprop((reads m d (tileSh (cL L) (sL L)) ∗ oOn d (oSet (wOf (cL L) (sL L))) (pooledArr m d))
            ∗ scopedBufs (thrOf d L) ∗ scopedSems0 (thrOf d L)
            ∗ ∃ W', ⌜∀ p ∈ W', p ∈ W ∨ p.2 = none⌝ ∗ owes (thrOf d L) O W') :=
  tile_body_of m hF hpre d L O W hO
    (fun X0 hX0 X1 hX1 hR0 v2 k acc => (loopInv_k0_t1 m d L (tileSh (cL L) (sL L)) X0 hX0 X1 hX1 O W hR0 v2).step k acc)
    (fun X0 X1 hX0 hX1 hR1 v2 k acc => (loopInv_k0_t18 m d L (tileSh (cL L) (sL L)) X0 X1 hX0 hX1 hR1 O W v2).step k acc)
    (fun X hX hXr k acc => (loopInv35 m d L X (tileSh (cL L) (sL L)) hX hXr O W).step k acc)

end Cert.Kernel.Sc

end
-- ==== Proof.B_ScSplit.lean ====
/-
  How what the call hands a SparseCore splits among its sixteen vector subcores, and how the two SparseCores' shares make
  up the whole.

  Reading: an array every worker reads whole is held at a read share; a share splits into sixteen tokens and a remainder,
  and the remainder stays behind while the tokens are out, to be joined with them when they return.

  Writing: the pooled array's rows are cut into 32 parts along the row axis; worker w = 2 i + c owns part w. The sixteen parts
  (2 i + c) for i < 16 are pairwise disjoint and make up what SparseCore c owns; the two SparseCores' rows are disjoint and
  make up the array.
-/
import proofs.«207262_g39728447488703_cont_8to1_b_1934_40_alg».proof.Proof.B_ScSetup

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The rows: 32 parts, worker 2 i + c owning part 2 i + c -/

theorem oSet_eq (w : Fin 32) : oSet w = (oPart w).set := by
  show ((View.whole (main_v1_scv : Ref sig .scVector)).slice (oPart w)).set = _
  rw [View.set_slice]; exact Finset.map_refl

theorem oSet_disjoint {w w' : Fin 32} (h : w ≠ w') : Disjoint (oSet w) (oSet w') := by
  rw [oSet_eq, oSet_eq]; exact Rect.part_disjoint odiv h

theorem wOf_ne {c c' : Fin 2} {i j : Fin 16} (h : c ≠ c' ∨ i ≠ j) : wOf c i ≠ wOf c' j := by
  intro e
  have e' : 2 * i.val + c.val = 2 * j.val + c'.val := congrArg Fin.val e
  have hc := c.isLt; have hc' := c'.isLt
  rcases h with h | h
  · exact h (Fin.ext (by omega))
  · exact h (Fin.ext (by omega))

/-- The sixteen workers of one SparseCore own disjoint rows. -/
theorem oSets_disjoint (c : Fin 2) :
    ∀ i ∈ (Finset.univ : Finset (Fin 16)), ∀ j ∈ (Finset.univ : Finset (Fin 16)), i ≠ j → Disjoint (oSet (wOf c i)) (oSet (wOf c j)) :=
  fun _ _ _ _ h => oSet_disjoint (wOf_ne (.inr h))

/-- The two SparseCores own disjoint rows. -/
theorem oCore_disjoint : Disjoint (oCore 0) (oCore 1) := by
  unfold oCore
  rw [Finset.disjoint_biUnion_left]; intro i _
  rw [Finset.disjoint_biUnion_right]; intro j _
  exact oSet_disjoint (wOf_ne (.inl (by decide)))

/-- Between them they own every row. -/
theorem oCore_cover : oCore 0 ∪ oCore 1 = Finset.univ := by
  ext x
  simp only [Finset.mem_union, Finset.mem_univ, iff_true]
  obtain ⟨w, hw⟩ := Rect.exists_mem_part odiv x
  rw [← oSet_eq] at hw
  have hwlt := w.isLt
  rcases Nat.mod_two_eq_zero_or_one w.val with h0 | h1
  · refine .inl (Finset.mem_biUnion.mpr ⟨⟨w.val / 2, by omega⟩, Finset.mem_univ _, ?_⟩)
    rwa [show wOf 0 ⟨w.val / 2, by omega⟩ = w from Fin.ext (by show 2 * (w.val / 2) + 0 = w.val; omega)]
  · refine .inr (Finset.mem_biUnion.mpr ⟨⟨w.val / 2, by omega⟩, Finset.mem_univ _, ?_⟩)
    rwa [show wOf 1 ⟨w.val / 2, by omega⟩ = w from Fin.ext (by show 2 * (w.val / 2) + 1 = w.val; omega)]

/-- A SparseCore's rows at one valuation are its workers' rows at it. -/
theorem oOn_core (d : Dev nD) (c : Fin 2) (f : Buf (Elt F) (oLoc d)) :
    (oOn d (oCore c) f : sProp 𝕄) = bigSep Finset.univ fun i : Fin 16 => oOn d (oSet (wOf c i)) f :=
  pointsTo_biUnion Finset.univ (ℓ := oLoc d) (fun i : Fin 16 => oSet (wOf c i)) (oSets_disjoint c)

theorem oOn_parts_ex (d : Dev nD) (c : Fin 2) (f : Buf (Elt F) (oLoc d)) :
    (bigSep Finset.univ fun i : Fin 16 => (oOn d (oSet (wOf c i)) f : sProp 𝕄))
      ⊢ bigSep Finset.univ fun i : Fin 16 => iprop(∃ f, oOn d (oSet (wOf c i)) f) :=
  bigSep_mono fun i _ => by
    show (oOn d (oSet (wOf c i)) f : sProp 𝕄) ⊢ iprop(∃ f, oOn d (oSet (wOf c i)) f)
    iintro H; iexists f; iexact H

/-- Held at some valuation, a SparseCore's rows give each worker its rows at some valuation (the same one). -/
theorem oOn_core_ex (d : Dev nD) (c : Fin 2) :
    (iprop(∃ f, oOn d (oCore c) f) : sProp 𝕄) ⊢ bigSep Finset.univ fun i : Fin 16 => iprop(∃ f, oOn d (oSet (wOf c i)) f) := by
  iintro ⟨%f, H⟩
  iapply (oOn_parts_ex d c f)
  iapply (Entails.of_eq (oOn_core d c f)); iexact H

/-- The whole array is the two SparseCores' rows. -/
theorem o_split (d : Dev nD) (f : Buf (Elt F) (oLoc d)) :
    (oLoc d ↦{fullShare} f : sProp 𝕄) ⊣⊢ iprop(oOn d (oCore 0) f ∗ oOn d (oCore 1) f) := by
  rw [← oCore_cover]; exact pointsTo_union oCore_disjoint

/-! ## The read shares -/

theorem bigSep_reads (d : Dev nD) (n : ℕ) (q : Fin n → PosShare TreeShare) :
    (bigSep Finset.univ fun i : Fin n => (reads m d (q i) : sProp 𝕄))
      = iprop((bigSep Finset.univ fun i : Fin n => iSh m d (q i)) ∗ (bigSep Finset.univ fun i : Fin n => aSh m d (q i))
          ∗ (bigSep Finset.univ fun i : Fin n => bSh m d (q i)) ∗ (bigSep Finset.univ fun i : Fin n => cSh m d (q i))) := by
  rw [← bigSep_sep', ← bigSep_sep', ← bigSep_sep']

/-- The four read-shared arrays at a share are the four at the remainder beside the four at each of n tokens. -/
theorem reads_toks (d : Dev nD) (q : PosShare TreeShare) (n : ℕ) :
    (reads m d q : sProp 𝕄) ⊣⊢ iprop(reads m d (Transfers.shareDrop q n) ∗ bigSep Finset.univ fun i : Fin n => reads m d (Transfers.shareTok q n i)) := by
  rw [bigSep_reads]
  constructor
  · iintro ⟨Hi, Ha, Hb, Hc⟩
    ihave Hi' := (Transfers.pointsTo_toks_split q n) $$ Hi
    ihave Ha' := (Transfers.pointsTo_toks_split q n) $$ Ha
    ihave Hb' := (Transfers.pointsTo_toks_split q n) $$ Hb
    ihave Hc' := (Transfers.pointsTo_toks_split q n) $$ Hc
    icases Hi' with ⟨Hi0, Hi1⟩; icases Ha' with ⟨Ha0, Ha1⟩; icases Hb' with ⟨Hb0, Hb1⟩; icases Hc' with ⟨Hc0, Hc1⟩
    isplitl [Hi0 Ha0 Hb0 Hc0]
    · isplitl [Hi0]; · iexact Hi0
      isplitl [Ha0]; · iexact Ha0
      isplitl [Hb0]; · iexact Hb0
      iexact Hc0
    · isplitl [Hi1]; · iexact Hi1
      isplitl [Ha1]; · iexact Ha1
      isplitl [Hb1]; · iexact Hb1
      iexact Hc1
  · iintro ⟨⟨Hi0, Ha0, Hb0, Hc0⟩, Hi1, Ha1, Hb1, Hc1⟩
    isplitl [Hi0 Hi1]; · iapply (Transfers.pointsTo_toks_join q n); isplitl [Hi0]; · iexact Hi0
                         iexact Hi1
    isplitl [Ha0 Ha1]; · iapply (Transfers.pointsTo_toks_join q n); isplitl [Ha0]; · iexact Ha0
                         iexact Ha1
    isplitl [Hb0 Hb1]; · iapply (Transfers.pointsTo_toks_join q n); isplitl [Hb0]; · iexact Hb0
                         iexact Hb1
    iapply (Transfers.pointsTo_toks_join q n); isplitl [Hc0]; · iexact Hc0
    iexact Hc1

/-- The four at the full share: a remainder and the two SparseCores' shares. -/
theorem reads_split (d : Dev nD) :
    (reads m d fullShare : sProp 𝕄) ⊣⊢ iprop(reads m d (Transfers.shareDrop fullShare 2) ∗ reads m d (coreSh 0) ∗ reads m d (coreSh 1)) := by
  have h := reads_toks (F := F) m d fullShare 2
  rw [bigSep_univ_two] at h
  exact h

/-! ## One SparseCore's split -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem split_core (d : Dev nD) (c : Fin 2) :
    (iprop(reads m d (coreSh c) ∗ ∃ f, oOn d (oCore c) f) : sProp 𝕄) ⊢ |={Set.univ}=> iprop(
      (bigSep Finset.univ fun i : Fin 16 => iprop(reads m d (tileSh c i) ∗ ∃ f, oOn d (oSet (wOf c i)) f))
      ∗ ((bigSep Finset.univ fun i : Fin 16 => iprop(reads m d (tileSh c i) ∗ oOn d (oSet (wOf c i)) (pooledArr m d)))
          -∗ iprop(reads m d (coreSh c) ∗ oOn d (oCore c) (pooledArr m d)))) := by
  rw [bigSep_sep' Finset.univ (fun i : Fin 16 => (reads m d (tileSh c i) : sProp 𝕄)) (fun i => iprop(∃ f, oOn d (oSet (wOf c i)) f)),
    bigSep_sep' Finset.univ (fun i : Fin 16 => (reads m d (tileSh c i) : sProp 𝕄)) (fun i => oOn d (oSet (wOf c i)) (pooledArr m d))]
  iintro ⟨Hr, Ho⟩
  ihave Hr' := (reads_toks m d (coreSh c) 16).1 $$ Hr
  icases Hr' with ⟨Hrest, Htoks⟩
  imodintro
  isplitl [Htoks Ho]
  · isplitl [Htoks]; · iexact Htoks
    iapply (oOn_core_ex d c); iexact Ho
  iintro ⟨Htk, Hov⟩
  isplitl [Hrest Htk]
  · iapply (reads_toks m d (coreSh c) 16).2
    isplitl [Hrest]; · iexact Hrest
    iexact Htk
  · iapply (Entails.of_eq (oOn_core d c (pooledArr m d)).symm); iexact Hov

theorem vecSplit : (K (F := F)).VecSplit' (P m) 0 := by
  intro d c
  show (iprop(reads m d (coreSh (Fin.cast nCore_zero c)) ∗ ∃ f, oOn d (oCore (Fin.cast nCore_zero c)) f) : sProp 𝕄) ⊢ |={Set.univ}=> iprop(
      (bigSep Finset.univ fun i : Fin ((K (F := F)).nSub 0) =>
        iprop(reads m d (tileSh (Fin.cast nCore_zero c) (Fin.cast nSub_zero i)) ∗ ∃ f, oOn d (oSet (wOf (Fin.cast nCore_zero c) (Fin.cast nSub_zero i))) f))
      ∗ ((bigSep Finset.univ fun i : Fin ((K (F := F)).nSub 0) =>
          iprop(reads m d (tileSh (Fin.cast nCore_zero c) (Fin.cast nSub_zero i)) ∗ oOn d (oSet (wOf (Fin.cast nCore_zero c) (Fin.cast nSub_zero i))) (pooledArr m d)))
          -∗ iprop(reads m d (coreSh (Fin.cast nCore_zero c)) ∗ oOn d (oCore (Fin.cast nCore_zero c)) (pooledArr m d))))
  rw [bigSep_tasks (F := F) (fun i => iprop(reads m d (tileSh (Fin.cast nCore_zero c) i) ∗ ∃ f, oOn d (oSet (wOf (Fin.cast nCore_zero c) i)) f)),
    bigSep_tasks (F := F) (fun i => iprop(reads m d (tileSh (Fin.cast nCore_zero c) i) ∗ oOn d (oSet (wOf (Fin.cast nCore_zero c) i)) (pooledArr m d)))]
  exact split_core m d (Fin.cast nCore_zero c)

/-! ## The two SparseCores' resources together -/

/-- What the call takes for the two SparseCores, -/
theorem st_all (d : Dev nD) :
    (bigSep Finset.univ fun c : Fin ((K (F := F)).nCore 0) => (P m).st 0 d c)
      = iprop((reads m d (coreSh 0) ∗ ∃ f, oOn d (oCore 0) f) ∗ (reads m d (coreSh 1) ∗ ∃ f, oOn d (oCore 1) f)) := by
  show (bigSep (Finset.univ : Finset (Fin 2)) fun c => iprop(reads m d (coreSh c) ∗ ∃ f, oOn d (oCore c) f)) = _
  rw [bigSep_univ_two]

/-- and what it hands back. -/
theorem dn_all (d : Dev nD) :
    (bigSep Finset.univ fun c : Fin ((K (F := F)).nCore 0) => (P m).dn 0 d c)
      = iprop((reads m d (coreSh 0) ∗ oOn d (oCore 0) (pooledArr m d)) ∗ (reads m d (coreSh 1) ∗ oOn d (oCore 1) (pooledArr m d))) := by
  show (bigSep (Finset.univ : Finset (Fin 2)) fun c => iprop(reads m d (coreSh c) ∗ oOn d (oCore c) (pooledArr m d))) = _
  rw [bigSep_univ_two]

end Cert.Kernel.Sc

end
-- ==== Proof.B_ScMain.lean ====
/-
  The kernel program's run: the launch element of the ghost state, @main on the TensorCore, and the launch theorem
  applied.

  @main is a reshape of the index tensor to the flat index array, the SparseCore call, five small host operations on
  the weights (two reshapes, two paddings to 128 columns, each a conversion of the padding constant then the pad, and a
  reshape of the padded bias), the TensorCore call, and a slice of its first ten columns. The SparseCore call therefore
  runs on the launch memory AFTER the first reshape: that memory is what the kernel's assertions are stated over.
  Every host operation is a function of the valuation of the TensorCore's unscoped buffers, so the run is a chain of
  valuations: the launch contents, after the reshape, the pooled array replaced by the kernel's value, after the nine
  host operations, the TensorCore call's result replaced, after the slice. The result read off the last one is the
  claim's value.
-/
import proofs.«207262_g39728447488703_cont_8to1_b_1934_40_alg».proof.Proof.B_ScSetup
import proofs.«207262_g39728447488703_cont_8to1_b_1934_40_alg».proof.Proof.B_ScSplit
import proofs.«207262_g39728447488703_cont_8to1_b_1934_40_alg».proof.Proof.Gen.Kernel.Launch
import Idealize.ShloMosaic.Lib.Pipeline.Frame
import Idealize.ShloMosaic.Lib.Pipeline.Sound

noncomputable section

namespace Cert.Kernel.Sc

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations of @main, as printed -/

abbrev opIdx : HloOp τ sig (Elt F) := StableHlo.reshape main_arg0 main_v0 rfl shapeCasts_S4x4096x50_S819200
abbrev opW1 : HloOp τ sig (Elt F) := StableHlo.reshape main_arg4 main_v2 rfl shapeCasts_S384x256_S3x128x256
abbrev opB1 : HloOp τ sig (Elt F) := StableHlo.reshape main_arg5 main_v3 rfl shapeCasts_S256_S1x256
abbrev opC : HloOp τ sig (Elt F) := StableHlo.nullary main_c (constantI S_ 32 0#32)
abbrev opCf : HloOp τ sig (Elt F) := StableHlo.TRef.unary (.of main_c : StableHlo.TRef sig ⟨S_, .i32⟩) main_call0.v0 (sitofp .f32)
abbrev opW2 : HloOp τ sig (Elt F) :=
  StableHlo.TRef.binary (.of main_arg6 : StableHlo.TRef sig ⟨S256x10, .f32⟩) main_call0.v0 main_call0.v1 (fun x v => pad S256x128 ![0, 0] ![0, 118] ![0, 0] x v pads_S256x10_S256x128_000_01180 h_S_)
abbrev opC' : HloOp τ sig (Elt F) := StableHlo.nullary main_c_0 (constantI S_ 32 0#32)
abbrev opCf' : HloOp τ sig (Elt F) := StableHlo.TRef.unary (.of main_c_0 : StableHlo.TRef sig ⟨S_, .i32⟩) main_call1.v0 (sitofp .f32)
abbrev opB2 : HloOp τ sig (Elt F) :=
  StableHlo.TRef.binary (.of main_arg7 : StableHlo.TRef sig ⟨S10, .f32⟩) main_call1.v0 main_call1.v1 (fun x v => pad S128 ![0] ![118] ![0] x v pads_S10_S128_01180 h_S_)
abbrev opB2r : HloOp τ sig (Elt F) := StableHlo.reshape main_v5 main_v6 rfl shapeCasts_S128_S1x128
abbrev opOut : HloOp τ sig (Elt F) :=
  StableHlo.unary main_v7 main_v8 ((extractStridedSlice S4096x10 ![0, 0] · slices_S4096x128_S4096x10_0_0) : (⟨S4096x128, .f32⟩ : BufTy).Contents (Elt F) → (⟨S4096x10, .f32⟩ : BufTy).Contents (Elt F))

/-- The nine host operations between the SparseCore call and the TensorCore call, in order. -/
abbrev midOps : List (HloOp τ sig (Elt F)) := [opW1, opB1, opC, opCf, opW2, opC', opCf', opB2, opB2r]

/-! ## The TensorCore's references -/

abbrev r_v0 : DevRef τ sig := Proc.devRef .tc (main_v0 : Ref sig .tc)
abbrev r_v1 : DevRef τ sig := Proc.devRef .tc (main_v1 : Ref sig .tc)
abbrev r_v2 : DevRef τ sig := Proc.devRef .tc (main_v2 : Ref sig .tc)
abbrev r_v3 : DevRef τ sig := Proc.devRef .tc (main_v3 : Ref sig .tc)
abbrev r_v4 : DevRef τ sig := Proc.devRef .tc (main_v4 : Ref sig .tc)
abbrev r_v6 : DevRef τ sig := Proc.devRef .tc (main_v6 : Ref sig .tc)
abbrev r_v7 : DevRef τ sig := Proc.devRef .tc (main_v7 : Ref sig .tc)
abbrev r_v8 : DevRef τ sig := Proc.devRef .tc (main_v8 : Ref sig .tc)
abbrev r_a0 : DevRef τ sig := Proc.devRef .tc (main_arg0 : Ref sig .tc)
abbrev r_a1 : DevRef τ sig := Proc.devRef .tc (main_arg1 : Ref sig .tc)
abbrev r_a2 : DevRef τ sig := Proc.devRef .tc (main_arg2 : Ref sig .tc)
abbrev r_a3 : DevRef τ sig := Proc.devRef .tc (main_arg3 : Ref sig .tc)
abbrev r_a4 : DevRef τ sig := Proc.devRef .tc (main_arg4 : Ref sig .tc)
abbrev r_a5 : DevRef τ sig := Proc.devRef .tc (main_arg5 : Ref sig .tc)
abbrev r_a6 : DevRef τ sig := Proc.devRef .tc (main_arg6 : Ref sig .tc)
abbrev r_a7 : DevRef τ sig := Proc.devRef .tc (main_arg7 : Ref sig .tc)

/-- The result array, as the TensorCore names it. -/
abbrev rLoc (d : Dev nD) : Loc nD τ sig := (SparseCore.T d).loc main_v8

/-- Every unscoped buffer of the TensorCore. -/
abbrev UC : Finset (DevRef τ sig) := Pipeline.ucRefs τ sig

/-- Each host operation touches unscoped buffers of the TensorCore only. -/
theorem hIdx : (opIdx (F := F)).bufs ⊆ UC := Pipeline.sub_ucRefs _ (StableHlo.reshape_bufs_sub ..)
theorem hW1 : (opW1 (F := F)).bufs ⊆ UC := Pipeline.sub_ucRefs _ (StableHlo.reshape_bufs_sub ..)
theorem hB1 : (opB1 (F := F)).bufs ⊆ UC := Pipeline.sub_ucRefs _ (StableHlo.reshape_bufs_sub ..)
theorem hC : (opC (F := F)).bufs ⊆ UC := Pipeline.sub_ucRefs _ (StableHlo.nullary_bufs_sub ..)
theorem hCf : (opCf (F := F)).bufs ⊆ UC := Pipeline.sub_ucRefs _ (StableHlo.unary_bufs_sub ..)
theorem hW2 : (opW2 (F := F)).bufs ⊆ UC := Pipeline.sub_ucRefs _ (StableHlo.binary_bufs_sub ..)
theorem hC' : (opC' (F := F)).bufs ⊆ UC := Pipeline.sub_ucRefs _ (StableHlo.nullary_bufs_sub ..)
theorem hCf' : (opCf' (F := F)).bufs ⊆ UC := Pipeline.sub_ucRefs _ (StableHlo.unary_bufs_sub ..)
theorem hB2 : (opB2 (F := F)).bufs ⊆ UC := Pipeline.sub_ucRefs _ (StableHlo.binary_bufs_sub ..)
theorem hB2r : (opB2r (F := F)).bufs ⊆ UC := Pipeline.sub_ucRefs _ (StableHlo.reshape_bufs_sub ..)
theorem hOut : (opOut (F := F)).bufs ⊆ UC := Pipeline.sub_ucRefs _ (StableHlo.unary_bufs_sub ..)

/-! ## The chain of valuations -/

/-- The launch contents of device `d`. -/
def W0 (d : Dev nD) : Valuation τ sig (Elt F) := fun b => m (d, b)
/-- After the reshape of the index tensor. -/
def W1 (d : Dev nD) : Valuation τ sig (Elt F) := (opIdx (F := F)).result (W0 m d)

theorem W1_def (d : Dev nD) : (opIdx (F := F)).result (W0 m d) = W1 m d := rfl

/-- The memory the SparseCore call runs on: the launch memory after @main's first operation. -/
def mK : (ℓ : Loc nD τ sig) → Buf (Elt F) ℓ := fun ℓ => W1 m ℓ.1 ℓ.2

/-- After the SparseCore call: the pooled array at the kernel's value. -/
def W2 (d : Dev nD) : Valuation τ sig (Elt F) := Function.update (W1 m d) r_v1 (pooledArr (mK m) d)
/-- After each of the nine host operations in turn. -/
abbrev M1 (d : Dev nD) : Valuation τ sig (Elt F) := (opW1 (F := F)).result (W2 m d)
abbrev M2 (d : Dev nD) : Valuation τ sig (Elt F) := (opB1 (F := F)).result (M1 m d)
abbrev M3 (d : Dev nD) : Valuation τ sig (Elt F) := (opC (F := F)).result (M2 m d)
abbrev M4 (d : Dev nD) : Valuation τ sig (Elt F) := (opCf (F := F)).result (M3 m d)
abbrev M5 (d : Dev nD) : Valuation τ sig (Elt F) := (opW2 (F := F)).result (M4 m d)
abbrev M6 (d : Dev nD) : Valuation τ sig (Elt F) := (opC' (F := F)).result (M5 m d)
abbrev M7 (d : Dev nD) : Valuation τ sig (Elt F) := (opCf' (F := F)).result (M6 m d)
abbrev M8 (d : Dev nD) : Valuation τ sig (Elt F) := (opB2 (F := F)).result (M7 m d)
abbrev M9 (d : Dev nD) : Valuation τ sig (Elt F) := (opB2r (F := F)).result (M8 m d)
/-- After the nine host operations. -/
def W3 (d : Dev nD) : Valuation τ sig (Elt F) := StableHlo.after (midOps (F := F)) (W2 m d)
theorem W3_def (d : Dev nD) : M9 m d = W3 m d := rfl

/-! ## The TensorCore call's value, and the result -/

/-- The contents types of the TensorCore call's operands and result. -/
abbrev C1 : Type := (⟨S3x4096x128, .f32⟩ : BufTy).Contents (Elt F)
abbrev C2 : Type := (⟨S3x128x256, .f32⟩ : BufTy).Contents (Elt F)
abbrev C3 : Type := (⟨S1x256, .f32⟩ : BufTy).Contents (Elt F)
abbrev C4 : Type := (⟨S256x128, .f32⟩ : BufTy).Contents (Elt F)
abbrev C6 : Type := (⟨S1x128, .f32⟩ : BufTy).Contents (Elt F)
abbrev C7 : Type := (⟨S4096x128, .f32⟩ : BufTy).Contents (Elt F)

variable (tcOut : C1 (F := F) → C2 (F := F) → C3 (F := F) → C4 (F := F) → C6 (F := F) → C7 (F := F))

/-- After the TensorCore call: its result array at the call's value of the five operands. -/
def W4 (d : Dev nD) : Valuation τ sig (Elt F) :=
  Function.update (W3 m d) r_v7 (tcOut (W3 m d r_v1) (W3 m d r_v2) (W3 m d r_v3) (W3 m d r_v4) (W3 m d r_v6))
/-- After the slice. -/
def W5 (d : Dev nD) : Valuation τ sig (Elt F) := (opOut (F := F)).result (W4 m tcOut d)
theorem W5_def (d : Dev nD) : (opOut (F := F)).result (W4 m tcOut d) = W5 m tcOut d := rfl

/-- The kernel's result on device `d`, a function of the launch contents. -/
def outOf (d : Dev nD) : Buf (Elt F) (rLoc d) := W5 m tcOut d r_v8

/-! ## Taking arrays out of the TensorCore's unscoped buffers and putting them back -/

/-- The SparseCore call's five arrays. -/
abbrev T5 : Finset (DevRef τ sig) := {r_v0, r_a1, r_a2, r_a3, r_v1}
/-- The TensorCore call's six arrays. -/
abbrev T6 : Finset (DevRef τ sig) := {r_v1, r_v2, r_v3, r_v4, r_v6, r_v7}
/-- The claim's nine arrays. -/
abbrev T9 : Finset (DevRef τ sig) := {r_a0, r_a1, r_a2, r_a3, r_a4, r_a5, r_a6, r_a7, r_v8}

theorem T5_sub : T5 ⊆ UC := by decide
theorem T6_sub : T6 ⊆ UC := by decide
theorem T9_sub : T9 ⊆ UC := by decide

theorem held_T5 (d : Dev nD) (W : Valuation τ sig (Elt F)) :
    (held (SparseCore.T d) T5 W : sProp 𝕄) = iprop((iLoc d ↦{fullShare} W r_v0) ∗ (aLoc d ↦{fullShare} W r_a1) ∗ (bLoc d ↦{fullShare} W r_a2)
      ∗ (cLoc d ↦{fullShare} W r_a3) ∗ (oLoc d ↦{fullShare} W r_v1)) := by
  unfold held T5
  rw [SparseCore.bigSep_insert' (by decide), SparseCore.bigSep_insert' (by decide), SparseCore.bigSep_insert' (by decide),
    SparseCore.bigSep_insert' (by decide), bigSep_singleton]

theorem held_T6 (d : Dev nD) (W : Valuation τ sig (Elt F)) :
    (held (SparseCore.T d) T6 W : sProp 𝕄) = iprop(((SparseCore.T d).loc main_v1 ↦{fullShare} W r_v1) ∗ ((SparseCore.T d).loc main_v2 ↦{fullShare} W r_v2)
      ∗ ((SparseCore.T d).loc main_v3 ↦{fullShare} W r_v3) ∗ ((SparseCore.T d).loc main_v4 ↦{fullShare} W r_v4)
      ∗ ((SparseCore.T d).loc main_v6 ↦{fullShare} W r_v6) ∗ ((SparseCore.T d).loc main_v7 ↦{fullShare} W r_v7)) := by
  unfold held T6
  rw [SparseCore.bigSep_insert' (by decide), SparseCore.bigSep_insert' (by decide), SparseCore.bigSep_insert' (by decide),
    SparseCore.bigSep_insert' (by decide), SparseCore.bigSep_insert' (by decide), bigSep_singleton]

theorem held_T9 (d : Dev nD) (W : Valuation τ sig (Elt F)) :
    (held (SparseCore.T d) T9 W : sProp 𝕄) = iprop(((SparseCore.T d).loc main_arg0 ↦{fullShare} W r_a0) ∗ ((SparseCore.T d).loc main_arg1 ↦{fullShare} W r_a1)
      ∗ ((SparseCore.T d).loc main_arg2 ↦{fullShare} W r_a2) ∗ ((SparseCore.T d).loc main_arg3 ↦{fullShare} W r_a3)
      ∗ ((SparseCore.T d).loc main_arg4 ↦{fullShare} W r_a4) ∗ ((SparseCore.T d).loc main_arg5 ↦{fullShare} W r_a5)
      ∗ ((SparseCore.T d).loc main_arg6 ↦{fullShare} W r_a6) ∗ ((SparseCore.T d).loc main_arg7 ↦{fullShare} W r_a7)
      ∗ ((SparseCore.T d).loc main_v8 ↦{fullShare} W r_v8)) := by
  unfold held T9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch's unscoped buffers are the set held at the launch valuation. -/
theorem unscoped_held (d : Dev nD) :
    (unscopedBufs d (fun b => m ((SparseCore.T d).loc b)) : sProp 𝕄) = held (SparseCore.T d) UC (W0 m d) :=
  Pipeline.unscopedBufs_held d (W0 m d)

/-- The held set at a valuation respelt. -/
theorem held_cast {V V' : Valuation τ sig (Elt F)} (h : V = V') (d : Dev nD) :
    (held (SparseCore.T d) UC V : sProp 𝕄) ⊢ held (SparseCore.T d) UC V' := by subst h; exact .rfl

/-! ### Around the SparseCore call -/

theorem W2_v0 (d : Dev nD) : W2 m d r_v0 = W1 m d r_v0 := Function.update_of_ne (show r_v0 ≠ r_v1 by decide) _ _
theorem W2_a1 (d : Dev nD) : W2 m d r_a1 = W1 m d r_a1 := Function.update_of_ne (show r_a1 ≠ r_v1 by decide) _ _
theorem W2_a2 (d : Dev nD) : W2 m d r_a2 = W1 m d r_a2 := Function.update_of_ne (show r_a2 ≠ r_v1 by decide) _ _
theorem W2_a3 (d : Dev nD) : W2 m d r_a3 = W1 m d r_a3 := Function.update_of_ne (show r_a3 ≠ r_v1 by decide) _ _
theorem W2_v1 (d : Dev nD) : W2 m d r_v1 = pooledArr (mK m) d := Function.update_self _ _ _

theorem held_rest_W2 (d : Dev nD) : (held (SparseCore.T d) (UC \ T5) (W2 m d) : sProp 𝕄) = held (SparseCore.T d) (UC \ T5) (W1 m d) :=
  StableHlo.held_congr (SparseCore.T d) fun b hb =>
    Function.update_of_ne (fun h => (Finset.mem_sdiff.mp hb).2 (by rw [h]; decide)) _ _

/-- Before the call: the four arrays the kernel reads and the pooled array, out of the unscoped buffers. -/
theorem scPre (d : Dev nD) :
    (held (SparseCore.T d) UC (W1 m d) : sProp 𝕄)
      ⊢ iprop((reads (mK m) d fullShare ∗ ∃ f, oLoc d ↦{fullShare} f) ∗ held (SparseCore.T d) (UC \ T5) (W1 m d)) := by
  rw [StableHlo.held_sub_split (SparseCore.T d) T5_sub (W1 m d), held_T5]
  iintro ⟨⟨Hi, Ha, Hb, Hc, Ho⟩, Hr⟩
  isplitr [Hr]
  · isplitr [Ho]
    · isplitl [Hi]; · iexact Hi
      isplitl [Ha]; · iexact Ha
      isplitl [Hb]; · iexact Hb
      iexact Hc
    · iexists _; iexact Ho
  · iexact Hr

/-- After the call: back in, the pooled array at the kernel's value. -/
theorem scPost (d : Dev nD) :
    iprop((reads (mK m) d fullShare ∗ oLoc d ↦{fullShare} pooledArr (mK m) d) ∗ held (SparseCore.T d) (UC \ T5) (W1 m d))
      ⊢ (held (SparseCore.T d) UC (W2 m d) : sProp 𝕄) := by
  rw [StableHlo.held_sub_split (SparseCore.T d) T5_sub (W2 m d), held_T5, held_rest_W2, W2_v0, W2_a1, W2_a2, W2_a3, W2_v1]
  iintro ⟨⟨⟨Hi, Ha, Hb, Hc⟩, Ho⟩, Hr⟩
  isplitr [Hr]
  · isplitl [Hi]; · iexact Hi
    isplitl [Ha]; · iexact Ha
    isplitl [Hb]; · iexact Hb
    isplitl [Hc]; · iexact Hc
    iexact Ho
  · iexact Hr

/-- How the call's operands split between the two SparseCores and gather again (proved beside this module). -/
structure SplitFacts : Prop where
  o_split : ∀ (d : Dev nD) (f : Buf (Elt F) (oLoc d)), (oLoc d ↦{fullShare} f : sProp 𝕄) ⊢ iprop(oOn d (oCore 0) f ∗ oOn d (oCore 1) f)
  o_join : ∀ (d : Dev nD) (f : Buf (Elt F) (oLoc d)), iprop(oOn d (oCore 0) f ∗ oOn d (oCore 1) f) ⊢ (oLoc d ↦{fullShare} f : sProp 𝕄)
  r_split : ∀ (m : (ℓ : Loc nD τ sig) → Buf (Elt F) ℓ) (d : Dev nD), (reads m d fullShare : sProp 𝕄)
      ⊢ iprop(reads m d (Transfers.shareDrop fullShare 2) ∗ reads m d (coreSh 0) ∗ reads m d (coreSh 1))
  r_join : ∀ (m : (ℓ : Loc nD τ sig) → Buf (Elt F) ℓ) (d : Dev nD),
      iprop(reads m d (Transfers.shareDrop fullShare 2) ∗ reads m d (coreSh 0) ∗ reads m d (coreSh 1)) ⊢ (reads m d fullShare : sProp 𝕄)
  st_all : ∀ (m : (ℓ : Loc nD τ sig) → Buf (Elt F) ℓ) (d : Dev nD), (bigSep Finset.univ fun c : Fin ((K (F := F)).nCore 0) => (P m).st 0 d c)
      = iprop((reads m d (coreSh 0) ∗ ∃ f, oOn d (oCore 0) f) ∗ (reads m d (coreSh 1) ∗ ∃ f, oOn d (oCore 1) f))
  dn_all : ∀ (m : (ℓ : Loc nD τ sig) → Buf (Elt F) ℓ) (d : Dev nD), (bigSep Finset.univ fun c : Fin ((K (F := F)).nCore 0) => (P m).dn 0 d c)
      = iprop((reads m d (coreSh 0) ∗ oOn d (oCore 0) (pooledArr m d)) ∗ (reads m d (coreSh 1) ∗ oOn d (oCore 1) (pooledArr m d)))

/-- The hand-over: a read share of the four arrays and its rows of the pooled array to each SparseCore; a share is kept. -/
theorem handOver (hs : SplitFacts (F := F)) (d : Dev nD) :
    iprop(reads m d fullShare ∗ ∃ f, oLoc d ↦{fullShare} f)
      ⊢ iprop(reads m d (Transfers.shareDrop fullShare 2) ∗ bigSep Finset.univ fun c : Fin ((K (F := F)).nCore 0) => (P m).st 0 d c) := by
  rw [hs.st_all m d]
  iintro ⟨Hr, %f, Ho⟩
  ihave Hr' := (hs.r_split m d) $$ Hr
  icases Hr' with ⟨Hd, H0, H1⟩
  ihave Ho' := (hs.o_split d f) $$ Ho
  icases Ho' with ⟨Ho0, Ho1⟩
  isplitl [Hd]; · iexact Hd
  isplitl [H0 Ho0]
  · isplitl [H0]; · iexact H0
    iexists f; iexact Ho0
  · isplitl [H1]; · iexact H1
    iexists f; iexact Ho1

/-- And back: the shares rejoin, the two SparseCores' rows are the pooled array whole, at the kernel's value. -/
theorem handBack (hs : SplitFacts (F := F)) (d : Dev nD) :
    iprop(reads m d (Transfers.shareDrop fullShare 2) ∗ bigSep Finset.univ fun c : Fin ((K (F := F)).nCore 0) => (P m).dn 0 d c)
      ⊢ iprop(reads m d fullShare ∗ oLoc d ↦{fullShare} pooledArr m d) := by
  rw [hs.dn_all m d]
  iintro ⟨Hd, ⟨H0, Ho0⟩, ⟨H1, Ho1⟩⟩
  isplitl [Hd H0 H1]
  · iapply (hs.r_join m d)
    isplitl [Hd]; · iexact Hd
    isplitl [H0]; · iexact H0
    iexact H1
  · iapply (hs.o_join d _)
    isplitl [Ho0]; · iexact Ho0
    iexact Ho1

/-- The six facts, as proved beside this module. -/
theorem splitFacts : SplitFacts (F := F) where
  o_split d f := (o_split d f).1
  o_join d f := (o_split d f).2
  r_split m d := (reads_split m d).1
  r_join m d := (reads_split m d).2
  st_all m d := st_all m d
  dn_all m d := dn_all m d

/-! ### Around the TensorCore call -/

theorem held_rest_W4 (d : Dev nD) :
    (held (SparseCore.T d) (UC \ T6) (W4 m tcOut d) : sProp 𝕄) = held (SparseCore.T d) (UC \ T6) (W3 m d) :=
  StableHlo.held_congr (SparseCore.T d) fun b hb =>
    Function.update_of_ne (fun h => (Finset.mem_sdiff.mp hb).2 (by rw [h]; decide)) _ _

theorem W4_v1 (d : Dev nD) : W4 m tcOut d r_v1 = W3 m d r_v1 := Function.update_of_ne (show r_v1 ≠ r_v7 by decide) _ _
theorem W4_v2 (d : Dev nD) : W4 m tcOut d r_v2 = W3 m d r_v2 := Function.update_of_ne (show r_v2 ≠ r_v7 by decide) _ _
theorem W4_v3 (d : Dev nD) : W4 m tcOut d r_v3 = W3 m d r_v3 := Function.update_of_ne (show r_v3 ≠ r_v7 by decide) _ _
theorem W4_v4 (d : Dev nD) : W4 m tcOut d r_v4 = W3 m d r_v4 := Function.update_of_ne (show r_v4 ≠ r_v7 by decide) _ _
theorem W4_v6 (d : Dev nD) : W4 m tcOut d r_v6 = W3 m d r_v6 := Function.update_of_ne (show r_v6 ≠ r_v7 by decide) _ _
theorem W4_v7 (d : Dev nD) :
    W4 m tcOut d r_v7 = tcOut (W3 m d r_v1) (W3 m d r_v2) (W3 m d r_v3) (W3 m d r_v4) (W3 m d r_v6) := Function.update_self _ _ _

/-- Before the call: its six arrays out of the unscoped buffers. -/
theorem tcPre (d : Dev nD) :
    (held (SparseCore.T d) UC (W3 m d) : sProp 𝕄)
      ⊢ iprop((((SparseCore.T d).loc main_v1 ↦{fullShare} W3 m d r_v1) ∗ ((SparseCore.T d).loc main_v2 ↦{fullShare} W3 m d r_v2)
          ∗ ((SparseCore.T d).loc main_v3 ↦{fullShare} W3 m d r_v3) ∗ ((SparseCore.T d).loc main_v4 ↦{fullShare} W3 m d r_v4)
          ∗ ((SparseCore.T d).loc main_v6 ↦{fullShare} W3 m d r_v6) ∗ ((SparseCore.T d).loc main_v7 ↦{fullShare} W3 m d r_v7))
        ∗ held (SparseCore.T d) (UC \ T6) (W3 m d)) := by
  rw [StableHlo.held_sub_split (SparseCore.T d) T6_sub (W3 m d), held_T6]

/-- After the call: back in, the result array at the call's value. -/
theorem tcPost (d : Dev nD) :
    iprop((((SparseCore.T d).loc main_v1 ↦{fullShare} W3 m d r_v1) ∗ ((SparseCore.T d).loc main_v2 ↦{fullShare} W3 m d r_v2)
          ∗ ((SparseCore.T d).loc main_v3 ↦{fullShare} W3 m d r_v3) ∗ ((SparseCore.T d).loc main_v4 ↦{fullShare} W3 m d r_v4)
          ∗ ((SparseCore.T d).loc main_v6 ↦{fullShare} W3 m d r_v6)
          ∗ ((SparseCore.T d).loc main_v7 ↦{fullShare} tcOut (W3 m d r_v1) (W3 m d r_v2) (W3 m d r_v3) (W3 m d r_v4) (W3 m d r_v6)))
        ∗ held (SparseCore.T d) (UC \ T6) (W3 m d))
      ⊢ (held (SparseCore.T d) UC (W4 m tcOut d) : sProp 𝕄) := by
  rw [StableHlo.held_sub_split (SparseCore.T d) T6_sub (W4 m tcOut d), held_T6, held_rest_W4, W4_v1, W4_v2, W4_v3, W4_v4, W4_v6, W4_v7]

/-! ### What @main leaves the claim -/

/-- The buffers the nine host operations write. -/
abbrev midW : Finset (DevRef τ sig) :=
  {r_v2, r_v3, Proc.devRef .tc (main_c : Ref sig .tc), Proc.devRef .tc (main_call0_v0 : Ref sig .tc), r_v4,
    Proc.devRef .tc (main_c_0 : Ref sig .tc), Proc.devRef .tc (main_call1_v0 : Ref sig .tc), Proc.devRef .tc (main_v5 : Ref sig .tc), r_v6}

theorem midOps_writes : ∀ op ∈ midOps (F := F), op.writes ⊆ midW := by
  intro op hop
  have hop' : op ∈ [opW1 (F := F), opB1, opC, opCf, opW2, opC', opCf', opB2, opB2r] := hop
  simp only [List.mem_cons, List.mem_nil_iff, or_false] at hop'
  rcases hop' with rfl | rfl | rfl | rfl | rfl | rfl | rfl | rfl | rfl <;> exact Finset.singleton_subset_iff.mpr (by decide)

/-- A buffer that no step of @main writes holds its launch contents at the end. -/
theorem W5_keep (d : Dev nD) (b : DevRef τ sig) (h8 : b ≠ r_v8) (h7 : b ≠ r_v7) (hmid : b ∉ midW) (h1 : b ≠ r_v1) (h0 : b ≠ r_v0) :
    W5 m tcOut d b = m (d, b) := by
  unfold W5 W4 W3 W2 W1 W0
  rw [(opOut (F := F)).result_of_not_mem _ (fun h => h8 (Finset.mem_singleton.mp h)), Function.update_of_ne h7,
    StableHlo.after_of_forall_not_mem _ _ (fun op hop hb => hmid (midOps_writes op hop hb)),
    Function.update_of_ne h1, (opIdx (F := F)).result_of_not_mem _ (fun h => h0 (Finset.mem_singleton.mp h))]

/-- @main's eight arguments at their launch contents, its result at the kernel's value. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_arg4 ↦{fullShare} m ((SparseCore.T d).loc main_arg4)) ∗ ((SparseCore.T d).loc main_arg5 ↦{fullShare} m ((SparseCore.T d).loc main_arg5))
    ∗ ((SparseCore.T d).loc main_arg6 ↦{fullShare} m ((SparseCore.T d).loc main_arg6)) ∗ ((SparseCore.T d).loc main_arg7 ↦{fullShare} m ((SparseCore.T d).loc main_arg7))
    ∗ (rLoc d ↦{fullShare} outOf m tcOut d))

theorem finPost (d : Dev nD) : (held (SparseCore.T d) UC (W5 m tcOut d) : sProp 𝕄) ⊢ FIN m tcOut d := by
  rw [StableHlo.held_sub_split (SparseCore.T d) T9_sub (W5 m tcOut d), held_T9,
    W5_keep m tcOut d r_a0 (by decide) (by decide) (by decide) (by decide) (by decide),
    W5_keep m tcOut d r_a1 (by decide) (by decide) (by decide) (by decide) (by decide),
    W5_keep m tcOut d r_a2 (by decide) (by decide) (by decide) (by decide) (by decide),
    W5_keep m tcOut d r_a3 (by decide) (by decide) (by decide) (by decide) (by decide),
    W5_keep m tcOut d r_a4 (by decide) (by decide) (by decide) (by decide) (by decide),
    W5_keep m tcOut d r_a5 (by decide) (by decide) (by decide) (by decide) (by decide),
    W5_keep m tcOut d r_a6 (by decide) (by decide) (by decide) (by decide) (by decide),
    W5_keep m tcOut d r_a7 (by decide) (by decide) (by decide) (by decide) (by decide)]
  unfold FIN outOf
  exact sep_elim_left

/-! ## The launch element: the handshakes' rounds, the TensorCore call's staging cells; nothing of the kernel's own -/

/-- The pipeline has no prefetched table: the one admissible choice. -/
abbrev adm : (p : Fin 1) → (pcfgs (F := F) p).Adm := fun p => (cfgs p).toPCfg_adm

/-- The TensorCore call's funded staging cells on device `d`: their ghost state and duty tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (nD := nD) (τ := τ) cfgs Gen.cellOf_inj) (Pipeline.launchToks (nD := nD) (τ := τ) cfgs Gen.cellOf_inj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  have hG : (bigSep Finset.univ (fun d : Dev nD => G (F := F) d) : sProp 𝕄)
      = iprop((bigSep Finset.univ fun c : Dev nD => bigSep Finset.univ fun p : Fin 1 => Pipeline.cellsGhost cfgs EP p c)
          ∗ (bigSep Finset.univ fun c : Dev nD => bigSep Finset.univ fun p : Fin 1 => (Pipeline.toksInit cfgs EP p c : sProp 𝕄))) := by
    rw [← bigSep_sep']
    refine bigSep_congr fun c _ => ?_
    rw [show (Finset.univ : Finset (Fin 1)) = {0} from rfl, bigSep_singleton, bigSep_singleton]
  unfold u₀
  iintro Hu
  ihave H := (ownU_pair _ _) $$ Hu
  icases H with ⟨HH, HR⟩
  ihave H2 := (own_pair_emb embR _ _) $$ HR
  icases H2 with ⟨HP, -⟩
  rw [show ((Emb.inl : Emb UP (UP × Counters)).trans (embR : Emb (UP × Counters) 𝕄)) = EP from rfl]
  imod (Pipeline.fund_ghost cfgs EP Gen.cellOf_inj) $$ HP with ⟨Hg, Ht⟩
  imodintro
  isplitl [HH]; · iexact HH
  isplitl [Hg Ht]
  · rw [hG]
    isplitl [Hg]; · iexact Hg
    iexact Ht
  · unfold P; dsimp only
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

/-! ## The TensorCore call's contract -/

/-- The recorded waits the TensorCore may hold after the SparseCore call: those at level at most eight. -/
abbrev BB (d : Dev nD) : Set (SemLoc sig × HIx 1) := {p | (K (F := F)).lev (SparseCore.T d, p.1) p.2 ≤ 8 * 1}

/-- The TensorCore call's own waits are among them: they sit at no call's index, level zero. -/
theorem hBB (d : Dev nD) : cfg1.waitPairs (none : HIx 1) ⊆ BB (F := F) d := by
  rintro p ⟨w, s, rfl⟩
  show (K (F := F)).lev _ none ≤ 8 * 1
  rw [SparseCore.Cfg.lev_none]; exact Nat.zero_le _

/-- After its one SparseCore call the TensorCore owes nothing. -/
theorem hOtc (d : Dev nD) (g : GSem nD τ sig) : (K (F := F)).Otc d 1 g none = 0 := by
  rw [(K (F := F)).Otc_end d (le_refl 1)]; rfl

/-- What the TensorCore call does (proved beside this module), at any contents `Vl` of the TensorCore's buffers: from the
    region boundary, its five operands and its result array whole, what the TensorCore owes with its recorded waits
    among those above, the level facts and the funded staging cells, it leaves the operands as they were and the result
    array at the call's value of them. -/
def RegionSpec : Prop :=
  ∀ (Vl : Dev nD → Valuation τ sig (Elt F)) (d : Dev nD),
    (iprop(boundary (SparseCore.T d)
        ∗ (((SparseCore.T d).loc main_v1 ↦{fullShare} Vl d r_v1) ∗ ((SparseCore.T d).loc main_v2 ↦{fullShare} Vl d r_v2)
          ∗ ((SparseCore.T d).loc main_v3 ↦{fullShare} Vl d r_v3) ∗ ((SparseCore.T d).loc main_v4 ↦{fullShare} Vl d r_v4)
          ∗ ((SparseCore.T d).loc main_v6 ↦{fullShare} Vl d r_v6) ∗ ((SparseCore.T d).loc main_v7 ↦{fullShare} Vl d r_v7))
        ∗ (∃ W : Waits sig (HIx 1), ⌜(↑W : Set (SemLoc sig × HIx 1)) ⊆ BB (F := F) d⌝ ∗ owes (SparseCore.T d) ((K (F := F)).Otc d 1) W)
        ∗ levAts (K (F := F)).L (K (F := F)).lev
        ∗ Pipeline.cellsGhost (Pipeline.pin (pcfgs (F := F)) adm) EP 0 d ∗ Pipeline.toksInit (Pipeline.pin (pcfgs (F := F)) adm) EP 0 d) : sProp 𝕄)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => iprop(boundary (SparseCore.T d)
            ∗ (((SparseCore.T d).loc main_v1 ↦{fullShare} Vl d r_v1) ∗ ((SparseCore.T d).loc main_v2 ↦{fullShare} Vl d r_v2)
              ∗ ((SparseCore.T d).loc main_v3 ↦{fullShare} Vl d r_v3) ∗ ((SparseCore.T d).loc main_v4 ↦{fullShare} Vl d r_v4)
              ∗ ((SparseCore.T d).loc main_v6 ↦{fullShare} Vl d r_v6)
              ∗ ((SparseCore.T d).loc main_v7 ↦{fullShare} tcOut (Vl d r_v1) (Vl d r_v2) (Vl d r_v3) (Vl d r_v4) (Vl d r_v6)))
            ∗ (∃ W : Waits sig (HIx 1), ⌜(↑W : Set (SemLoc sig × HIx 1)) ⊆ BB (F := F) d⌝ ∗ owes (SparseCore.T d) ((K (F := F)).Otc d 1) W))

/-! ## @main on the TensorCore -/

/-- @main on device `d`'s TensorCore: the reshape; the SparseCore call, from the four arrays it reads and the pooled
    array; nine host operations; the TensorCore call, from its six arrays; the slice. -/
theorem hmain (hs : SplitFacts (F := F)) (hregion : RegionSpec (F := F) tcOut) (κ : GSem nD τ sig → ℕ) (d : Dev nD) :
    iprop((K (F := F)).ctx EH (P (mK m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m tcOut d) := by
  unfold SparseCore.Cfg.tcRes
  rw [unscoped_held]
  simp only [main, fn_pad.body, fn_pad_0.body, wp_bind, wp_pure]
  iintro ⟨#Hctx, Hst, ⟨Hb, Hheld, -, -⟩, Hcg, Htk⟩
  -- the reshape of the index tensor
  iapply (StableHlo.wp_hlo_within 𝒱 (SparseCore.T d) none Set.univ (op := opIdx) (S := UC) hIdx (V := W0 m d)) $$ [Hb Hheld]
  · isplitl [Hb]; · iexact Hb
    iexact Hheld
  iintro ⟨Hb, Hheld⟩
  rw [wp_ret]; imodintro
  ihave Hheld := (held_cast (W1_def m d) d) $$ Hheld
  -- the SparseCore call: a share of the four arrays it reads and the pooled array to each SparseCore, and back
  ihave Hh := (scPre m d) $$ Hheld
  icases Hh with ⟨Hops, Hrest⟩
  ihave Hh := (handOver (mK m) hs d) $$ Hops
  icases Hh with ⟨Hkeep, Hsts⟩
  iapply ((K (F := F)).wp_run (D (F := F)) 𝒱 (EH := EH) (P := P (mK m)) κ d 0) $$ [Hst Hsts Hb Hrest Hkeep Hcg Htk]
  isplitr; · iexact Hctx
  isplitl [Hst]; · iexact Hst
  isplitl [Hsts]; · iexact Hsts
  iintro ⟨Hst, Hdn⟩
  ihave Hh := (handBack (mK m) hs d) $$ [Hkeep Hdn]
  · isplitl [Hkeep]; · iexact Hkeep
    iexact Hdn
  ihave Hheld := (scPost m d) $$ [Hh Hrest]
  · isplitl [Hh]; · iexact Hh
    iexact Hrest
  -- the weights: reshapes, the padding constants' conversions, the pads
  iapply (StableHlo.wp_hlo_within 𝒱 (SparseCore.T d) none Set.univ (op := opW1) (S := UC) hW1 (V := W2 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opB1) (S := UC) hB1 (V := M1 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opC) (S := UC) hC (V := M2 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opCf) (S := UC) hCf (V := M3 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opW2) (S := UC) hW2 (V := M4 m d)) $$ [Hb Hheld]
  · isplitl [Hb]; · iexact Hb
    iexact Hheld
  iintro ⟨Hb, Hheld⟩
  rw [wp_ret]; imodintro; imodintro
  iapply (StableHlo.wp_hlo_within 𝒱 (SparseCore.T d) none Set.univ (op := opC') (S := UC) hC' (V := M5 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opCf') (S := UC) hCf' (V := M6 m d)) $$ [Hb Hheld]
  · isplitl [Hb]; · iexact Hb
    iexact Hheld
  iintro ⟨Hb, Hheld⟩
  rw [wp_ret]; imodintro
  iapply (StableHlo.wp_hlo_within 𝒱 (SparseCore.T d) none Set.univ (op := opB2) (S := UC) hB2 (V := M7 m d)) $$ [Hb Hheld]
  · isplitl [Hb]; · iexact Hb
    iexact Hheld
  iintro ⟨Hb, Hheld⟩
  rw [wp_ret]; imodintro; imodintro
  iapply (StableHlo.wp_hlo_within 𝒱 (SparseCore.T d) none Set.univ (op := opB2r) (S := UC) hB2r (V := M8 m d)) $$ [Hb Hheld]
  · isplitl [Hb]; · iexact Hb
    iexact Hheld
  iintro ⟨Hb, Hheld⟩
  rw [wp_ret]; imodintro
  -- the TensorCore call, from its six arrays, what the TensorCore owes, the level facts and the staging cells
  ihave Hheld := (held_cast (W3_def m d) d) $$ Hheld
  ihave Hh := (tcPre m d) $$ Hheld
  icases Hh with ⟨Hsix, Hrest⟩
  unfold SparseCore.Cfg.tcSt
  icases Hst with ⟨⟨%W, %hW, HO⟩, Hst'⟩
  ihave Hlev := (SparseCore.Cfg.ctx_levAts κ) $$ Hctx
  iapply (wp_wand_r frame _ Set.univ) $$ [Hb Hsix HO Hlev Hcg Htk Hrest Hst']
  isplitl [Hb Hsix HO Hlev Hcg Htk]
  · iapply (hregion (fun c => W3 m c) d)
    isplitl [Hb]; · iexact Hb
    isplitl [Hsix]; · iexact Hsix
    isplitl [HO]
    · iexists W
      isplitr; · ipureintro; exact fun p hp => hW p (Finset.mem_coe.mp hp)
      iexact HO
    isplitl [Hlev]; · iexact Hlev
    isplitl [Hcg]; · iexact Hcg
    iexact Htk
  iintro %_ ⟨Hb, Hsix, %W', %hW', HO⟩
  ihave Hheld := (tcPost m tcOut d) $$ [Hsix Hrest]
  · isplitl [Hsix]; · iexact Hsix
    iexact Hrest
  -- the slice
  iapply (StableHlo.wp_hlo_within 𝒱 (SparseCore.T d) none Set.univ (op := opOut) (S := UC) hOut (V := W4 m tcOut d)) $$ [Hb Hheld]
  · isplitl [Hb]; · iexact Hb
    iexact Hheld
  iintro ⟨Hb, Hheld⟩
  rw [wp_ret]; imodintro; imodintro
  isplitl [HO Hst']
  · isplitl [HO]
    · iexists W'
      isplitr; · ipureintro; exact fun p hp => hW' (Finset.mem_coe.mpr hp)
      iexact HO
    · iexact Hst'
  · iapply (finPost m tcOut d)
    iapply (held_cast (W5_def m tcOut d) d)
    iexact Hheld

/-! ## The final memory reads the claim -/

def fq (d : Dev nD) (s' : Phys nD τ sig (Elt F)) : Prop :=
  s'.mem.mem ((SparseCore.T d).loc main_v8) = outOf m tcOut d
    ∧ s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_arg4) = m ((SparseCore.T d).loc main_arg4) ∧ s'.mem.mem ((SparseCore.T d).loc main_arg5) = m ((SparseCore.T d).loc main_arg5)
    ∧ s'.mem.mem ((SparseCore.T d).loc main_arg6) = m ((SparseCore.T d).loc main_arg6) ∧ s'.mem.mem ((SparseCore.T d).loc main_arg7) = m ((SparseCore.T d).loc main_arg7)

theorem hfin (d : Dev nD) (s' : Phys nD τ sig (Elt F)) : iprop(FIN m tcOut d ∗ SI s') ⊢ (⌜fq m tcOut d s'⌝ : sProp 𝕄) := by
  unfold FIN
  iintro ⟨⟨H0, H1, H2, H3, H4, H5, H6, H7, H8⟩, HSI⟩
  icombine HSI H0 gives %h0
  icombine HSI H1 gives %h1
  icombine HSI H2 gives %h2
  icombine HSI H3 gives %h3
  icombine HSI H4 gives %h4
  icombine HSI H5 gives %h5
  icombine HSI H6 gives %h6
  icombine HSI H7 gives %h7
  icombine HSI H8 gives %h8
  ipureintro
  exact ⟨funext fun i => h8 i (Finset.mem_univ i), funext fun i => h0 i (Finset.mem_univ i), funext fun i => h1 i (Finset.mem_univ i),
    funext fun i => h2 i (Finset.mem_univ i), funext fun i => h3 i (Finset.mem_univ i), funext fun i => h4 i (Finset.mem_univ i),
    funext fun i => h5 i (Finset.mem_univ i), funext fun i => h6 i (Finset.mem_univ i), funext fun i => h7 i (Finset.mem_univ i)⟩

/-! ## The program's run -/

/-- The claim's post: on every device the result at the kernel's value, the eight arguments unchanged. -/
def QC : PUnit × MemSt nD τ sig (Elt F) → Prop := fun r => ∀ c : Dev nD,
  r.2.mem ((SparseCore.T c).loc main_v8) = outOf m tcOut c
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_arg4) = m ((SparseCore.T c).loc main_arg4) ∧ r.2.mem ((SparseCore.T c).loc main_arg5) = m ((SparseCore.T c).loc main_arg5)
    ∧ r.2.mem ((SparseCore.T c).loc main_arg6) = m ((SparseCore.T c).loc main_arg6) ∧ r.2.mem ((SparseCore.T c).loc main_arg7) = m ((SparseCore.T c).loc main_arg7)

/-- The kernel program's run, by the launch theorem: from the vector subcores' task (the body obligation), how a
    SparseCore's operands split among its sixteen subcores, @main on the TensorCore, and the launch element. -/
theorem run_main [∀ e, Nonempty (Elt F e)] (hregion : RegionSpec (F := F) tcOut)
    (htile : (K (F := F)).TileObl (D (F := F)) 𝒱 (P (mK m)) v₀ 0) :
    θ_run (Cert.Kernel.defs (F := F)) (Cert.Kernel.threads (F := F)) ⟨m, fun _ => 0, ρ⟩ (QC m tcOut) :=
  SparseCore.Cfg.θ_run_sc (K := K (F := F)) (D := D (F := F)) (𝒱 := 𝒱) (EH := EH) (P := P (mK m)) facts v₀
    (fun q hq => match q with | 0 => absurd hq (show ¬ scKind 0 = .scScalar by decide))
    (fun q _ => match q with | 0 => htile)
    (fun q _ => match q with | 0 => SparseCore.Cfg.VecSplit.of_plain (vecSplit (mK m)))
    m ρ main (fun d => G (F := F) d) (FIN m tcOut) (u₀ (F := F)) (sep_elim_left.trans (hu₀ (mK m))) (hmain m ρ tcOut splitFacts hregion) (fq m tcOut) (hfin m tcOut)
    (QC m tcOut) (fun _ h => h)

end Cert.Kernel.Sc

end
-- ==== Proof.B_TcPay.lean ====
/-
  The arithmetic of the TensorCore call of this program, as pure terms generic in the float values: what one grid
  point computes from its block of the pooled array and the four small arrays (`tcPay`), block `t` of the pooled
  array (`pooledBlock`), and the whole result array as a function of the whole inputs (`tcOut`): row `r` of the
  result lies in block `r / 512`, at row `r % 512` of that block's `tcPay`.
-/
import proofs.«207262_g39728447488703_cont_8to1_b_1934_40_alg».proof.Kernel
import Idealize.ShloMosaic.Lib.ValueIdx

noncomputable section

namespace Cert.Kernel.TcRegion

open Cert.Kernel
open Cert.Kernel.Shapes1.Facts₀
open Idealize.ShloMosaic
open Idealize.ShloMosaic.ValueIdx (ix2 ix3)

variable {F : FTy → Type} [FloatOps F]
variable [Facts]

/-! ## One grid point -/

/-- Plane `k` of a block of the pooled array, as a matrix of 512 rows and 128 columns. -/
abbrev plane0 (p : FVec F S3x512x128 .f32) : FVec F S512x128 .f32 :=
  shapeCast S512x128 (extractStridedSlice S1x512x128 ![0, 0, 0] (shapeCast S3x512x128 p shapeCasts_S3x512x128_S3x512x128) slices_S3x512x128_o0_0_0_S1x512x128) shapeCasts_S1x512x128_S512x128
abbrev plane1 (p : FVec F S3x512x128 .f32) : FVec F S512x128 .f32 :=
  shapeCast S512x128 (extractStridedSlice S1x512x128 ![1, 0, 0] (shapeCast S3x512x128 p shapeCasts_S3x512x128_S3x512x128) slices_S3x512x128_o1_0_0_S1x512x128) shapeCasts_S1x512x128_S512x128
abbrev plane2 (p : FVec F S3x512x128 .f32) : FVec F S512x128 .f32 :=
  shapeCast S512x128 (extractStridedSlice S1x512x128 ![2, 0, 0] (shapeCast S3x512x128 p shapeCasts_S3x512x128_S3x512x128) slices_S3x512x128_o2_0_0_S1x512x128) shapeCasts_S1x512x128_S512x128
/-- Slab `k` of the first weight, 128 rows and 256 columns. -/
abbrev slab0 (w1 : FVec F S3x128x256 .f32) : FVec F S128x256 .f32 :=
  shapeCast S128x256 (extractStridedSlice S1x128x256 ![0, 0, 0] (shapeCast S3x128x256 w1 shapeCasts_S3x128x256_S3x128x256) slices_S3x128x256_o0_0_0_S1x128x256) shapeCasts_S1x128x256_S128x256
abbrev slab1 (w1 : FVec F S3x128x256 .f32) : FVec F S128x256 .f32 :=
  shapeCast S128x256 (extractStridedSlice S1x128x256 ![1, 0, 0] (shapeCast S3x128x256 w1 shapeCasts_S3x128x256_S3x128x256) slices_S3x128x256_o1_0_0_S1x128x256) shapeCasts_S1x128x256_S128x256
abbrev slab2 (w1 : FVec F S3x128x256 .f32) : FVec F S128x256 .f32 :=
  shapeCast S128x256 (extractStridedSlice S1x128x256 ![2, 0, 0] (shapeCast S3x128x256 w1 shapeCasts_S3x128x256_S3x128x256) slices_S3x128x256_o2_0_0_S1x128x256) shapeCasts_S1x128x256_S128x256

/-- The hidden layer of one block of 512 examples: the three planes times the three slabs, each product into a zero
    accumulator, summed, plus the first bias on every row, clamped below at zero. -/
noncomputable def tcHidden (p : FVec F S3x512x128 .f32) (w1 : FVec F S3x128x256 .f32) (b1 : FVec F S1x256 .f32) : FVec F S512x256 .f32 :=
  maximumf
    (addf
      (addf
        (addf (matmul dot_S512x128_S128x256_S512x256_1_0_0_1_n_n none (plane0 p) (slab0 w1) (constant S512x256 .f32 0x00000000#32))
          (matmul dot_S512x128_S128x256_S512x256_1_0_0_1_n_n none (plane1 p) (slab1 w1) (constant S512x256 .f32 0x00000000#32)))
        (matmul dot_S512x128_S128x256_S512x256_1_0_0_1_n_n none (plane2 p) (slab2 w1) (constant S512x256 .f32 0x00000000#32)))
      (broadcastTo S512x256 (shapeCast S1x256 b1 shapeCasts_S1x256_S1x256) broadcasts_S1x256_S512x256))
    (broadcast S512x256 (Scalar.ofBits .f32 0x00000000#32))

/-- What one grid point stores: the hidden layer times the second weight, into a zero accumulator, plus the second
    bias on every row. -/
noncomputable def tcPay (p : FVec F S3x512x128 .f32) (w1 : FVec F S3x128x256 .f32) (b1 : FVec F S1x256 .f32)
    (w2 : FVec F S256x128 .f32) (b2 : FVec F S1x128 .f32) : FVec F S512x128 .f32 :=
  addf
    (matmul dot_S512x256_S256x128_S512x128_1_0_0_1_n_n none (tcHidden p w1 b1) (shapeCast S256x128 w2 shapeCasts_S256x128_S256x128) (constant S512x128 .f32 0x00000000#32))
    (broadcastTo S512x128 (shapeCast S1x128 b2 shapeCasts_S1x128_S1x128) broadcasts_S1x128_S512x128)

/-! ## The whole arrays -/

/-- Block `t` of the pooled array: rows `512 t … 512 t + 511` of each of the three planes. -/
def pooledBlock (p : Vec F S3x4096x128 .f32) (t : Fin 8) : Vec F S3x512x128 .f32 :=
  fun y => p (ix3 (n0 := 3) (n1 := 4096) (n2 := 128) (y 0)
    ⟨512 * t.val + (y 1).val, by have h1 : (y 1).val < 512 := (y 1).isLt; have h2 := t.isLt; omega⟩ (y 2))

/-- The whole result array: row `r` lies in block `r / 512`, at row `r % 512` of `tcPay` of that block of the
    pooled array and the four whole small arrays. -/
def tcOut (p : Vec F S3x4096x128 .f32) (w1 : Vec F S3x128x256 .f32) (b1 : Vec F S1x256 .f32)
    (w2 : Vec F S256x128 .f32) (b2 : Vec F S1x128 .f32) : Vec F S4096x128 .f32 :=
  fun i => tcPay (pooledBlock p ⟨(i 0).val / 512, by have h : (i 0).val < 4096 := (i 0).isLt; omega⟩) w1 b1 w2 b2
    (ix2 (n0 := 512) (n1 := 128) ⟨(i 0).val % 512, Nat.mod_lt _ (by decide)⟩ (i 1))

/-- The result array at an index of block `t`. -/
theorem tcOut_at (p : Vec F S3x4096x128 .f32) (w1 : Vec F S3x128x256 .f32) (b1 : Vec F S1x256 .f32)
    (w2 : Vec F S256x128 .f32) (b2 : Vec F S1x128 .f32) (t : Fin 8) (i : S4096x128.Idx) (j : S512x128.Idx)
    (h0 : (i 0).val = 512 * t.val + (j 0).val) (h1 : (i 1).val = (j 1).val) :
    tcOut p w1 b1 w2 b2 i = tcPay (pooledBlock p t) w1 b1 w2 b2 j := by
  have hj : (j 0).val < 512 := (j 0).isLt
  have ht : (⟨(i 0).val / 512, by have h : (i 0).val < 4096 := (i 0).isLt; omega⟩ : Fin 8) = t :=
    Fin.ext (by show (i 0).val / 512 = t.val; omega)
  have hx : ix2 (n0 := 512) (n1 := 128) ⟨(i 0).val % 512, Nat.mod_lt _ (by decide)⟩ (i 1) = j := by
    funext a
    match a with
    | ⟨0, _⟩ => exact Fin.ext (by show (i 0).val % 512 = (j 0).val; omega)
    | ⟨1, _⟩ => exact Fin.ext h1
  unfold tcOut
  rw [ht, hx]

end Cert.Kernel.TcRegion

end
-- ==== Proof.B_TcRegion.lean ====
/-
  The TensorCore call inside this program: its body run once at a symbolic grid point (`sound_kernel`), the
  pipeline's proof data and body obligation, the region as the pipeline library's record (`reg`), the result array
  after the region as one function of the five input arrays (`finalOut_eq`: the blocks the eight points write back
  tile it), and the region's rule in the program's own signature (`region_wp`).
-/
import proofs.«207262_g39728447488703_cont_8to1_b_1934_40_alg».proof.Proof.Gen.Kernel.Launch
import proofs.«207262_g39728447488703_cont_8to1_b_1934_40_alg».proof.Proof.B_TcPay
import proofs.«207262_g39728447488703_cont_8to1_b_1934_40_alg».proof.Proof.Gen.Kernel.Points
import proofs.«207262_g39728447488703_cont_8to1_b_1934_40_alg».proof.Proof.Gen.Kernel.Skeleton
import Idealize.ShloMosaic.Lib.Tactic
import Idealize.ShloMosaic.Lib.Pipeline.Kit
import Idealize.ShloMosaic.Lib.Pipeline.Regions
import Idealize.ShloMosaic.Lib.Pipeline.FrameBody
import Idealize.ShloMosaic.Lib.Pipeline.Value
import Idealize.ShloMosaic.Lib.SparseCore.Launch
import Idealize.ShloMosaic.Lib.ValueIdx

noncomputable section

namespace Cert.Kernel.TcRegion

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Name : Type} [DecidableEq Name] {U : Type} [URA U]

local notation "𝕄" => MT nD τ sig (HIx 1) (Elt F) Name U ℕ

/-! ## The body's arithmetic -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed body's stored value is `tcPay` of the values it loads. -/
theorem pay_eq (v0 : Vec F S3x512x128 .f32) (v2 : Vec F S3x128x256 .f32) (v21 : Vec F S1x256 .f32) (v27 : Vec F S256x128 .f32) (v30 : Vec F S1x128 .f32) :
    k1_pay1 v0 v2 v21 v27 v30 = tcPay v0 v2 v21 v27 v30 := rfl

/-! ## The body's triple -/

set_option maxHeartbeats 1000000 in
/-- The body on whole staging memrefs — the five inputs' at read contents, the output's at anything — runs to the
    continuation holding the inputs' as they were and the output's at `tcPay` of the inputs'. -/
theorem sound_kernel (c : Dev nD) (E : Set Name) (i : grid1.Coords)
    (arg1 : Memref sig .tc .vmem S3x512x128 .f32) (harg1 : arg1.IsWhole) (arg2 : Memref sig .tc .vmem S3x128x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S512x128 .f32) (harg6 : arg6.IsWhole)
    (x0 : Vec F S3x512x128 .f32) (x1 : Vec F S3x128x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (tcPay x0 x1 x2 x3 x4)) -∗ K ⟨⟩))
      ⊢ wp frame (wpE (defs₀ (F := F)) Variants.none c none) E (cc1_body i arg1 harg1 arg2 harg2 arg3 harg3 arg4 harg4 arg5 harg5 arg6 harg6) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ (fun y => ⟨_, List.mem_singleton_self _, View.mem_set_unit_zero hz2 inb_S512x128_S512x128_0_0 y⟩)).trans ?_
  rw [View.canon_unit_zero hz2]
  simp only [View.readAt_eq_ld, View.ld_unit_zero (S := S3x512x128) hz3, View.ld_unit_zero (S := S3x128x256) hz3,
    View.ld_unit_zero (S := S1x256) hz2, View.ld_unit_zero (S := S256x128) hz2, View.ld_unit_zero (S := S1x128) hz2]
  exact pay_eq _ _ _ _ _

/-! ## The pipeline's proof data -/

variable (Vl : (c : Dev nD) → (b : Ref sig .tc) → Buf (Elt F) ((c : Thread nD τ).loc b))
variable (O : Dev nD → CellTallies nD τ sig (HIx 1)) (B : Dev nD → Set (SemLoc sig × HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (Vl c (Pipeline.arrRef spec1 w))

/-- The proof data on core `c`: the arrays as the region finds them; after the body at point `t` each input's buffer
    at its block and the output's at `tcPay` of the input blocks; the invariant the scoped buffers no window stages;
    the core owing `O c` throughout, its recorded pairs within `B c`; full shares. -/
def dats (_ : Fin 1) (c : Dev nD) : Dat τ (Elt F) (HIx 1) Name U ℕ cfg1 c where
  A w := Vl c (Pipeline.arrRef spec1 w)
  after w t := match w with
    | ⟨0, _⟩ => iblk Vl c 0 t
    | ⟨1, _⟩ => iblk Vl c 1 t
    | ⟨2, _⟩ => iblk Vl c 2 t
    | ⟨3, _⟩ => iblk Vl c 3 t
    | ⟨4, _⟩ => iblk Vl c 4 t
    | ⟨5, _⟩ => tcPay (iblk Vl c 0 t) (iblk Vl c 1 t) (iblk Vl c 2 t) (iblk Vl c 3 t) (iblk Vl c 4 t)
  Φ _ := Pipeline.scopedRest (Ix := HIx 1) (Name := Name) (U := U) (Lvl := ℕ) (Val := Elt F) spec1 c
  q _ := fullShare
  owed _ := O c
  recorded _ := B c

local notation "𝔡" => dats (Name := Name) (U := U) Vl O B 0

theorem A_eq (c : Dev nD) (w : Fin cfg1.W) : (𝔡 c).A w = Vl c (Pipeline.arrRef spec1 w) := by
  dsimp only [dats]

theorem after1_0 (c : Dev nD) (t : Fin cfg1.N) : (𝔡 c).after 0 t = iblk Vl c 0 t := by dsimp only [dats]
theorem after1_1 (c : Dev nD) (t : Fin cfg1.N) : (𝔡 c).after 1 t = iblk Vl c 1 t := by dsimp only [dats]
theorem after1_2 (c : Dev nD) (t : Fin cfg1.N) : (𝔡 c).after 2 t = iblk Vl c 2 t := by dsimp only [dats]
theorem after1_3 (c : Dev nD) (t : Fin cfg1.N) : (𝔡 c).after 3 t = iblk Vl c 3 t := by dsimp only [dats]
theorem after1_4 (c : Dev nD) (t : Fin cfg1.N) : (𝔡 c).after 4 t = iblk Vl c 4 t := by dsimp only [dats]
theorem after1_5 (c : Dev nD) (t : Fin cfg1.N) :
    (𝔡 c).after 5 t = tcPay (iblk Vl c 0 t) (iblk Vl c 1 t) (iblk Vl c 2 t) (iblk Vl c 3 t) (iblk Vl c 4 t) := by dsimp only [dats]

/-- Each input's current staging buffer holds its block at every point, fetched there or not: unfetched, the block
    index has not moved. -/
theorem before1_0 (c : Dev nD) (t : Fin cfg1.N) (d) : (𝔡 c).before 0 t d = iblk Vl c 0 t :=
  ((𝔡 c).before_in_eq_fetched 0 rfl (fun _ => rfl) (fun _ _ _ => rfl)
    (fun t => by rw [after1_0]; unfold Dat.blockOf iblk; rw [A_eq]; try rfl) t d).trans
    (by unfold Dat.fetched Dat.blockOf iblk; rw [A_eq]; try rfl)
theorem before1_1 (c : Dev nD) (t : Fin cfg1.N) (d) : (𝔡 c).before 1 t d = iblk Vl c 1 t :=
  ((𝔡 c).before_in_eq_fetched 1 rfl (fun _ => rfl) (fun _ _ _ => rfl)
    (fun t => by rw [after1_1]; unfold Dat.blockOf iblk; rw [A_eq]; try rfl) t d).trans
    (by unfold Dat.fetched Dat.blockOf iblk; rw [A_eq]; try rfl)
theorem before1_2 (c : Dev nD) (t : Fin cfg1.N) (d) : (𝔡 c).before 2 t d = iblk Vl c 2 t :=
  ((𝔡 c).before_in_eq_fetched 2 rfl (fun _ => rfl) (fun _ _ _ => rfl)
    (fun t => by rw [after1_2]; unfold Dat.blockOf iblk; rw [A_eq]; try rfl) t d).trans
    (by unfold Dat.fetched Dat.blockOf iblk; rw [A_eq]; try rfl)
theorem before1_3 (c : Dev nD) (t : Fin cfg1.N) (d) : (𝔡 c).before 3 t d = iblk Vl c 3 t :=
  ((𝔡 c).before_in_eq_fetched 3 rfl (fun _ => rfl) (fun _ _ _ => rfl)
    (fun t => by rw [after1_3]; unfold Dat.blockOf iblk; rw [A_eq]; try rfl) t d).trans
    (by unfold Dat.fetched Dat.blockOf iblk; rw [A_eq]; try rfl)
theorem before1_4 (c : Dev nD) (t : Fin cfg1.N) (d) : (𝔡 c).before 4 t d = iblk Vl c 4 t :=
  ((𝔡 c).before_in_eq_fetched 4 rfl (fun _ => rfl) (fun _ _ _ => rfl)
    (fun t => by rw [after1_4]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg1.N) : sProp 𝕄 :=
  iprop((𝔡 c).Φ t.castSucc ∗ (𝔡 c).owesAt none t.castSucc
    ∗ (∃ d, owns (c : Thread nD τ) (st1_0 t) fullShare ((𝔡 c).before 0 t d))
    ∗ (∃ d, owns (c : Thread nD τ) (st1_1 t) fullShare ((𝔡 c).before 1 t d))
    ∗ (∃ d, owns (c : Thread nD τ) (st1_2 t) fullShare ((𝔡 c).before 2 t d))
    ∗ (∃ d, owns (c : Thread nD τ) (st1_3 t) fullShare ((𝔡 c).before 3 t d))
    ∗ (∃ d, owns (c : Thread nD τ) (st1_4 t) fullShare ((𝔡 c).before 4 t d))
    ∗ (∃ d, owns (c : Thread nD τ) (st1_5 t) fullShare ((𝔡 c).before 5 t d)))

/-- and what it returns. -/
def bodyPost (c : Dev nD) (t : Fin cfg1.N) : sProp 𝕄 :=
  iprop((𝔡 c).Φ t.succ ∗ (𝔡 c).owesAt none t.succ
    ∗ owns (c : Thread nD τ) (st1_0 t) fullShare ((𝔡 c).after 0 t)
    ∗ owns (c : Thread nD τ) (st1_1 t) fullShare ((𝔡 c).after 1 t)
    ∗ owns (c : Thread nD τ) (st1_2 t) fullShare ((𝔡 c).after 2 t)
    ∗ owns (c : Thread nD τ) (st1_3 t) fullShare ((𝔡 c).after 3 t)
    ∗ owns (c : Thread nD τ) (st1_4 t) fullShare ((𝔡 c).after 4 t)
    ∗ owns (c : Thread nD τ) (st1_5 t) fullShare ((𝔡 c).after 5 t))

/-- The body at any point: the inputs' memrefs hold their blocks, so `sound_kernel` applies; the invariant and the
    core's `owes` pass through unread. -/
theorem sound_body (c : Dev nD) (t : Fin cfg1.N) :
    bodyPre (Name := Name) (U := U) Vl O B c t ⊢ wp frame (wpE (defs₀ (F := F)) Variants.none c none) Set.univ (bodyAt1 t) (fun _ => bodyPost (Name := Name) (U := U) Vl O B c t) := by
  unfold bodyPre bodyPost bodyAt1
  simp only [before1_0, before1_1, before1_2, before1_3, before1_4]
  rw [show (𝔡 c).Φ t.succ = (𝔡 c).Φ t.castSucc from rfl,
    show (𝔡 c).owesAt none t.succ = (𝔡 c).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid1.coords t) _ _ _ _ _ _ _ _ _ _ _ _ (iblk Vl c 0 t) (iblk Vl c 1 t) (iblk Vl c 2 t) (iblk Vl c 3 t) (iblk Vl c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (𝔡 c) (defs₀ (F := F)) Variants.none none Set.univ := fun t => by
  rw [bigSep_W1, bigSep_W1]
  exact sound_body Vl O B c t

/-! ## The region -/

/-- The prefetched tables' admissible contents: no table. -/
abbrev adm : (p : Fin 1) → (pcfgs (F := F) p).Adm := fun p => (cfgs p).toPCfg_adm
abbrev 𝒱₀ : Variants := Variants.none

variable (EP : Emb (URounds (GSem nD τ sig) Unit) (MT nD τ sig (HIx 1) (Elt F) Name U ℕ))
variable (lv : GSem nD τ sig → HIx 1 → ℕ)

/-- The six arrays of the call on core `c`, each whole: the five inputs at the contents the region finds, the
    result at `o`. -/
def arrs (c : Dev nD) (o : Buf (Elt F) ((c : Thread nD τ).loc main_v7)) : sProp 𝕄 :=
  iprop((((c : Thread nD τ).loc main_v1) ↦{fullShare} Vl c main_v1) ∗ (((c : Thread nD τ).loc main_v2) ↦{fullShare} Vl c main_v2)
    ∗ (((c : Thread nD τ).loc main_v3) ↦{fullShare} Vl c main_v3) ∗ (((c : Thread nD τ).loc main_v4) ↦{fullShare} Vl c main_v4)
    ∗ (((c : Thread nD τ).loc main_v6) ↦{fullShare} Vl c main_v6) ∗ (((c : Thread nD τ).loc main_v7) ↦{fullShare} o))

/-- What the core owes, its recorded pairs within `B c`. -/
def owesB (c : Dev nD) : sProp 𝕄 := iprop(∃ W : Waits sig (HIx 1), ⌜(↑W : Set (SemLoc sig × HIx 1)) ⊆ B c⌝ ∗ owes (c : Thread nD τ) (O c) W)

/-- The result array after the region, as the pipeline library computes it from the proof data. -/
def finalOut (c : Dev nD) : Buf (Elt F) ((c : Thread nD τ).loc main_v7) := (𝔡 c).arrAt 5 cfg1.N

theorem share_full (c : Dev nD) (w : Fin cfg1.W) : (𝔡 c).share w = fullShare := (𝔡 c).share_full (fun _ => rfl) w

/-- An input array is never written: at every point it holds what the region found. -/
theorem arrAt_in0 (c : Dev nD) (n : Nat) : (𝔡 c).arrAt 0 n = Vl c main_v1 := ((𝔡 c).arrAt_in 0 rfl n).trans (A_eq Vl O B c 0)
theorem arrAt_in1 (c : Dev nD) (n : Nat) : (𝔡 c).arrAt 1 n = Vl c main_v2 := ((𝔡 c).arrAt_in 1 rfl n).trans (A_eq Vl O B c 1)
theorem arrAt_in2 (c : Dev nD) (n : Nat) : (𝔡 c).arrAt 2 n = Vl c main_v3 := ((𝔡 c).arrAt_in 2 rfl n).trans (A_eq Vl O B c 2)
theorem arrAt_in3 (c : Dev nD) (n : Nat) : (𝔡 c).arrAt 3 n = Vl c main_v4 := ((𝔡 c).arrAt_in 3 rfl n).trans (A_eq Vl O B c 3)
theorem arrAt_in4 (c : Dev nD) (n : Nat) : (𝔡 c).arrAt 4 n = Vl c main_v6 := ((𝔡 c).arrAt_in 4 rfl n).trans (A_eq Vl O B c 4)

set_option backward.isDefEq.respectTransparency.types false in
/-- THE REGION as the pipeline library's record: the windows' layout facts, no semaphore of the kernel's own, the body
    obligation, the wait evidence from the level facts (the staging cells wait at index `none`, below everything the
    core owes); entered from the six arrays and the core's `owes`, left with the result array at `finalOut`. -/
def reg (hO : ∀ c g, O c g none = 0) (hB : ∀ c, cfg1.waitPairs none ⊆ B c) (hlv : (sc (F := F)).Refines lv) :
    Pipeline.RegionSeg (pcfgs (F := F)) adm (dats (Name := Name) (U := U) Vl O B) none defs₀ 𝒱₀ (sc (F := F)).L lv 0 where
  win := launch1.win.to₀
  block_pos := launch1.block_pos
  stage_whole := launch1.stage_whole
  K := PEmpty
  osem := fun k => k.elim
  ho := Pipeline.OwnSemFacts.none _
  hbody c := (body_obligation Vl O B c).loose
  hwaits c := Pipeline.cellsWaits_intro (Pipeline.pin pcfgs adm) (dats (Name := Name) (U := U) Vl O B) none 0 c
    (R := levAts (sc (F := F)).L lv) fun w s t => (sc (F := F)).mayWait_none _ (hO c) lv hlv
  pre c := iprop(arrs (Name := Name) (U := U) Vl c (Vl c main_v7) ∗ owesB (Name := Name) (U := U) O B c)
  post c := iprop(arrs (Name := Name) (U := U) Vl c (finalOut (Name := Name) (U := U) Vl O B c) ∗ owesB (Name := Name) (U := U) O B c)
  X _ := iprop(emp)
  Y _ := iprop(emp)
  Z _ := iprop(emp)
  hentry c := by
    rw [Pipeline.arrays_eq (Pipeline.pin pcfgs adm) (dats (Name := Name) (U := U) Vl O B) 0 c launch1.arr_whole (share_full Vl O B c), bigSep_W1]
    unfold arrs owesB Pipeline.Dat.owesAt Pipeline.owesWithin
    iintro ⟨⟨⟨H1, H2, H3, H4, H6, H7⟩, ⟨%W, %hW, HO⟩⟩, -, -⟩
    imodintro
    isplitl [H1 H2 H3 H4 H6 H7]
    · isplitl [H1]; · iexact H1
      isplitl [H2]; · iexact H2
      isplitl [H3]; · iexact H3
      isplitl [H4]; · iexact H4
      isplitl [H6]; · iexact H6
      iexact H7
    isplitr; · unfold Pipeline.prefHeld; rw [show (Finset.univ : Finset (Fin 0)) = ∅ from rfl, BI.bigSep_empty]; iempintro
    isplitl [HO]
    · iexists W; isplitr; · ipureintro; exact fun p hp => Or.inl (hW hp)
      iexact HO
    isplitl <;> iempintro
  hin c := by
    rw [show (𝔡 c).Φ 0 = Pipeline.scopedRest (Ix := HIx 1) (Name := Name) (U := U) (Lvl := ℕ) (Val := Elt F) spec1 c from rfl]
    iintro ⟨-, -, Hr⟩; iexact Hr
  hout c := by
    rw [show (𝔡 c).Φ (Fin.last cfg1.N) = Pipeline.scopedRest (Ix := HIx 1) (Name := Name) (U := U) (Lvl := ℕ) (Val := Elt F) spec1 c from rfl]
    iintro Hr
    isplitr; · iempintro
    isplitr
    · unfold Pipeline.ownSems0; rw [show (Finset.univ : Finset PEmpty) = ∅ from rfl, BI.bigSep_empty]; iempintro
    iexact Hr
  hexit c := by
    rw [Pipeline.arrays_eq (Pipeline.pin pcfgs adm) (dats (Name := Name) (U := U) Vl O B) 0 c launch1.arr_whole (share_full Vl O B c), bigSep_W1]
    rw [arrAt_in0, arrAt_in1, arrAt_in2, arrAt_in3, arrAt_in4]
    unfold arrs owesB Pipeline.Dat.owesAt Pipeline.owesWithin finalOut
    iintro ⟨⟨H1, H2, H3, H4, H6, H7⟩, ⟨%W, %hW, HO⟩, -, -⟩
    imodintro
    isplitl [H1 H2 H3 H4 H6 H7]
    · isplitl [H1]; · iexact H1
      isplitl [H2]; · iexact H2
      isplitl [H3]; · iexact H3
      isplitl [H4]; · iexact H4
      isplitl [H6]; · iexact H6
      iexact H7
    iexists W; isplitr
    · ipureintro; exact fun p hp => (hW hp).elim id (fun h => hB c h)
    iexact HO

/-! ## From blocks to the array -/

open Idealize.ShloMosaic.ValueIdx (ix2 ix3)

/-- The printed index maps, decided over the grid: the pooled window and the result window move with the point along
    the rows, the four small windows stay. -/
theorem idx_facts : ∀ t : Fin cfg1.N, win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt_N (t : Fin cfg1.N) : t.val < 8 := lt_of_lt_of_eq t.isLt N_1

/-- The pooled window's block at point `t` is block `t` of the pooled array. -/
theorem blk0_eq (c : Dev nD) (t : Fin cfg1.N) :
    (iblk Vl c 0 t : Vec F S3x512x128 .f32) = pooledBlock (Vl c main_v1) ⟨t.val, lt_N t⟩ := by
  obtain ⟨e0, e1, e2, -⟩ := idx_facts t
  funext y
  show Vl c main_v1 (((cfg1.win 0).blk t).view.emb y) = Vl c main_v1 _
  congr 1
  funext a; apply Fin.ext
  match a with
  | ⟨0, _⟩ => show win1_0.index t (0 : Fin 3) * 3 + 1 * (y 0).val = (y 0).val; omega
  | ⟨1, _⟩ => show win1_0.index t (1 : Fin 3) * 512 + 1 * (y 1).val = 512 * t.val + (y 1).val; omega
  | ⟨2, _⟩ => show win1_0.index t (2 : Fin 3) * 128 + 1 * (y 2).val = (y 2).val; omega

/-- Each small window's block is its whole array, at every point. -/
theorem blk1_eq (c : Dev nD) (t : Fin cfg1.N) : (iblk Vl c 1 t : Vec F S3x128x256 .f32) = (Vl c main_v2 : Vec F S3x128x256 .f32) := by
  obtain ⟨-, -, -, e0, e1, e2, -⟩ := idx_facts t
  funext y
  show Vl c main_v2 (((cfg1.win 1).blk t).view.emb y) = Vl c main_v2 y
  congr 1
  funext a; apply Fin.ext
  match a with
  | ⟨0, _⟩ => show win1_1.index t (0 : Fin 3) * 3 + 1 * (y 0).val = (y 0).val; omega
  | ⟨1, _⟩ => show win1_1.index t (1 : Fin 3) * 128 + 1 * (y 1).val = (y 1).val; omega
  | ⟨2, _⟩ => show win1_1.index t (2 : Fin 3) * 256 + 1 * (y 2).val = (y 2).val; omega
theorem blk2_eq (c : Dev nD) (t : Fin cfg1.N) : (iblk Vl c 2 t : Vec F S1x256 .f32) = (Vl c main_v3 : Vec F S1x256 .f32) := by
  obtain ⟨-, -, -, -, -, -, e0, e1, -⟩ := idx_facts t
  funext y
  show Vl c main_v3 (((cfg1.win 2).blk t).view.emb y) = Vl c main_v3 y
  congr 1
  funext a; apply Fin.ext
  match a with
  | ⟨0, _⟩ => show win1_2.index t (0 : Fin 2) * 1 + 1 * (y 0).val = (y 0).val; omega
  | ⟨1, _⟩ => show win1_2.index t (1 : Fin 2) * 256 + 1 * (y 1).val = (y 1).val; omega
theorem blk3_eq (c : Dev nD) (t : Fin cfg1.N) : (iblk Vl c 3 t : Vec F S256x128 .f32) = (Vl c main_v4 : Vec F S256x128 .f32) := by
  obtain ⟨-, -, -, -, -, -, -, -, e0, e1, -⟩ := idx_facts t
  funext y
  show Vl c main_v4 (((cfg1.win 3).blk t).view.emb y) = Vl c main_v4 y
  congr 1
  funext a; apply Fin.ext
  match a with
  | ⟨0, _⟩ => show win1_3.index t (0 : Fin 2) * 256 + 1 * (y 0).val = (y 0).val; omega
  | ⟨1, _⟩ => show win1_3.index t (1 : Fin 2) * 128 + 1 * (y 1).val = (y 1).val; omega
theorem blk4_eq (c : Dev nD) (t : Fin cfg1.N) : (iblk Vl c 4 t : Vec F S1x128 .f32) = (Vl c main_v6 : Vec F S1x128 .f32) := by
  obtain ⟨-, -, -, -, -, -, -, -, -, -, e0, e1, -⟩ := idx_facts t
  funext y
  show Vl c main_v6 (((cfg1.win 4).blk t).view.emb y) = Vl c main_v6 y
  congr 1
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The whole result, as a function of what the region finds in the five input arrays. -/
abbrev outOf (c : Dev nD) : Vec F S4096x128 .f32 :=
  tcOut (Vl c main_v1) (Vl c main_v2) (Vl c main_v3) (Vl c main_v4) (Vl c main_v6)

/-- WHAT POINT `t` WRITES BACK is block `t` of the whole result. -/
theorem flushed_eq (c : Dev nD) (t : Fin cfg1.N) :
    (𝔡 c).flushed 5 t = ((cfg1.win 5).blk t).view.read (Elt F) (outOf Vl c) := by
  show (cfg1.win 5).cut (grid1.coords t) ((𝔡 c).after 5 t) = _
  rw [after1_5]
  obtain ⟨-, -, -, -, -, -, -, -, -, -, -, -, e0, e1⟩ := idx_facts t
  funext j
  show tcPay (iblk Vl c 0 t) (iblk Vl c 1 t) (iblk Vl c 2 t) (iblk Vl c 3 t) (iblk Vl c 4 t) j
    = tcOut (Vl c main_v1) (Vl c main_v2) (Vl c main_v3) (Vl c main_v4) (Vl c main_v6) (((cfg1.win 5).blk t).view.emb j)
  rw [blk0_eq Vl c t, blk1_eq Vl c t, blk2_eq Vl c t, blk3_eq Vl c t, blk4_eq Vl c t]
  refine (tcOut_at _ _ _ _ _ ⟨t.val, lt_N t⟩ _ j ?_ ?_).symm
  · show win1_5.index t (0 : Fin 2) * 512 + 1 * (j 0).val = 512 * t.val + (j 0).val; omega
  · show win1_5.index t (1 : Fin 2) * 128 + 1 * (j 1).val = (j 1).val; omega

/-- An index of the result array is in point `t`'s block iff each coordinate is in the block's range on its axis. -/
theorem mem_blk (t : Fin cfg1.N) (i : S4096x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v7).slice (win1_5.rect t)).set ↔ _
  rw [View.set_slice_whole, Rect.mem_set_unit]
  exact Iff.rfl

/-- Every row is in the block of the point `r / 512`. -/
theorem cover (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  let t : Fin cfg1.N := ⟨(i 0).val / 512, lt_of_lt_of_eq (by omega : (i 0).val / 512 < 8) N_1.symm⟩
  obtain ⟨-, -, -, -, -, -, -, -, -, -, -, -, e0, e1⟩ := idx_facts t
  have ht : t.val = (i 0).val / 512 := rfl
  refine ⟨t, flush1_5 t, ?_⟩
  rw [mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 128 ≤ (i 1).val ∧ (i 1).val < win1_5.index t (1 : Fin 2) * 128 + 128; omega

/-- THE RESULT ARRAY after the region is the whole result. -/
theorem finalOut_eq (c : Dev nD) : finalOut (Name := Name) (U := U) Vl O B c = outOf Vl c :=
  (𝔡 c).arrAt_eq_of_cover 5 (outOf Vl c) (fun t _ => flushed_eq Vl O B c t) cover

/-! ## The region's rule -/

set_option backward.isDefEq.respectTransparency.types false in
/-- THE REGION, in the pipelines' own signature: from the region boundary, the six arrays whole (the result's at what
    it holds), the core's `owes`, the level facts and the pipeline's staging cells' ghost state and duty tokens, the
    region runs to the boundary, the five inputs unchanged, the result array at the whole result, the `owes` as
    they were. -/
theorem region_inner [Infinite Name] [EP.LandsIn (upEmb : UEmb _ 𝕄)]
    (hO : ∀ c g, O c g none = 0) (hB : ∀ c, cfg1.waitPairs none ⊆ B c) (hlv : (sc (F := F)).Refines lv) (d : Dev nD) :
    iprop(boundary (d : Thread nD τ) ∗ arrs (Name := Name) (U := U) Vl d (Vl d main_v7) ∗ owesB (Name := Name) (U := U) O B d
        ∗ levAts (sc (F := F)).L lv
        ∗ Pipeline.cellsGhost (Pipeline.pin (pcfgs (F := F)) adm) EP 0 d ∗ Pipeline.toksInit (Pipeline.pin (pcfgs (F := F)) adm) EP 0 d)
      ⊢ wp frame (wpE (Pipeline.defs (pcfgs (F := F)) defs₀) 𝒱₀.lift (d : Thread nD τ) none) Set.univ
          (Prog.lift (.customCall (Pipeline.entry 0) ()))
          fun _ => iprop(boundary (d : Thread nD τ) ∗ arrs (Name := Name) (U := U) Vl d (outOf Vl d) ∗ owesB (Name := Name) (U := U) O B d) := by
  have hpost : (reg (Name := Name) (U := U) Vl O B lv hO hB hlv).post d
      ⊢ iprop(arrs (Name := Name) (U := U) Vl d (outOf Vl d) ∗ owesB (Name := Name) (U := U) O B d) := by
    show iprop(arrs (Name := Name) (U := U) Vl d (finalOut (Name := Name) (U := U) Vl O B d) ∗ owesB (Name := Name) (U := U) O B d) ⊢ _
    rw [finalOut_eq]
  have hpre : iprop(arrs (Name := Name) (U := U) Vl d (Vl d main_v7) ∗ owesB (Name := Name) (U := U) O B d)
      ⊢ (reg (Name := Name) (U := U) Vl O B lv hO hB hlv).pre d := by
    show _ ⊢ iprop(arrs (Name := Name) (U := U) Vl d (Vl d main_v7) ∗ owesB (Name := Name) (U := U) O B d)
    exact .rfl
  iintro ⟨Hb, Ha, Ho, Hl, Hg, Ht⟩
  iapply (Pipeline.RegionSeg.wp (pcfgs (F := F)) adm (dats (Name := Name) (U := U) Vl O B) none cellOf_inj EP defs₀ 𝒱₀ (sc (F := F)).L lv
    (reg Vl O B lv hO hB hlv) d none (fun u h => nomatch h) Prog.ret _)
  isplitr [Hb Ha Ho Hl Hg Ht]
  · iintro ⟨Hb, Hp⟩
    ihave Hp' := hpost $$ Hp
    sl_step
    isplitl [Hb]; · iexact Hb
    iexact Hp'
  isplitl [Hb]; · iexact Hb
  isplitl [Ha Ho]
  · iapply hpre
    isplitl [Ha] <;> iassumption
  isplitl [Hl]; · iexact Hl
  isplitl [Hg] <;> iassumption

/-- THE REGION as @main runs it, under the program's body table: `region_inner` lifted to the signature that adds
    the SparseCore calls. -/
theorem region_wp [Infinite Name] [EP.LandsIn (upEmb : UEmb _ 𝕄)]
    (hO : ∀ c g, O c g none = 0) (hB : ∀ c, cfg1.waitPairs none ⊆ B c) (hlv : (sc (F := F)).Refines lv) (d : Dev nD) :
    iprop(boundary (d : Thread nD τ) ∗ arrs (Name := Name) (U := U) Vl d (Vl d main_v7) ∗ owesB (Name := Name) (U := U) O B d
        ∗ levAts (sc (F := F)).L lv
        ∗ Pipeline.cellsGhost (Pipeline.pin (pcfgs (F := F)) adm) EP 0 d ∗ Pipeline.toksInit (Pipeline.pin (pcfgs (F := F)) adm) EP 0 d)
      ⊢ wp frame (wpE (defs (F := F)) 𝒱₀.lift (d : Thread nD τ) none) Set.univ
          (Prog.lift (.customCall (SparseCore.inner (Pipeline.entry 0)) ()))
          fun _ => iprop(boundary (d : Thread nD τ) ∗ arrs (Name := Name) (U := U) Vl d (outOf Vl d) ∗ owesB (Name := Name) (U := U) O B d) :=
  (region_inner Vl O B EP lv hO hB hlv d).trans
    ((sc (F := F)).wp_liftProg (Pipeline.defs (pcfgs (F := F)) defs₀) 𝒱₀.lift (d : Thread nD τ) Set.univ none _ _)

end Cert.Kernel.TcRegion

end
-- ==== Proof.B_ScRun.lean ====
/-
  The kernel program's run, closed but for the vector subcores' task: the TensorCore call's contract is the theorem
  proved for the region, read at the contents the nine host operations leave, at what the TensorCore owes after its one
  SparseCore call (nothing) and at the recorded waits of level at most eight.
-/
import proofs.«207262_g39728447488703_cont_8to1_b_1934_40_alg».proof.Proof.B_ScMain
import proofs.«207262_g39728447488703_cont_8to1_b_1934_40_alg».proof.Proof.B_TcRegion

noncomputable section

namespace Cert.Kernel.Sc

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The TensorCore call's contract, from the region's theorem. -/
theorem regionSpec : RegionSpec (F := F) TcRegion.tcOut := fun Vl d =>
  TcRegion.region_wp (Name := ℕ) (U := UU) (fun c b => Vl c (Proc.devRef .tc b)) (fun c => (K (F := F)).Otc c 1) (fun c => BB (F := F) c)
    EP (K (F := F)).lev (fun c g => hOtc c g) (fun c => hBB c) (by sl_refines_lev) d

/-- The kernel program's run, from the vector subcores' task alone. -/
theorem run_main' [∀ e, Nonempty (Elt F e)] (hpre : PreOK (mK m)) (htile : (K (F := F)).TileObl (D (F := F)) 𝒱 (P (mK m)) v₀ 0) :
    θ_run (Cert.Kernel.defs (F := F)) (Cert.Kernel.threads (F := F)) ⟨m, fun _ => 0, ρ⟩ (QC m TcRegion.tcOut) :=
  run_main m ρ TcRegion.tcOut regionSpec htile

end Cert.Kernel.Sc

end
-- ==== Proof.B_PreOK.lean ====
/-
  From the input-domain predicate to the first call's requirement on its memory.

  The first call of the program runs on the launch memory after the index array [4, 4096, 50] has been reshaped to a
  flat array of 819200 words.  A reshape only moves entries, so if the input-domain predicate holds of the launch
  memory (every index word in [0, 99999], signed), every word of the flat array is below 100000: each names a row of
  the tables.  Nothing here looks at a float, so it holds for any float values.
-/
import proofs.«207262_g39728447488703_cont_8to1_b_1934_40_alg».proof.Proof.B_ScMain
import proofs.«207262_g39728447488703_cont_8to1_b_1934_40_alg».proof.Proof.PreDecode
import Idealize.ShloMosaic.Lib.StableHlo.Run

noncomputable section

namespace Cert.Kernel.PreOK

open Cert.Kernel Cert.Kernel.Gen
open Idealize.ShloMosaic Idealize.ShloMosaic.ValueIdx Idealize.ShloMosaic.StableHlo

variable {F : FTy → Type} [FloatOps F]

/-! ## The memory the first call runs on -/

/-- The flat index array the first call reads is the index array reshaped. -/
theorem mK_iLoc (m : (ℓ : Loc nD τ sig) → Buf (Elt F) ℓ) (d : Dev nD) :
    Sc.mK m (Sc.iLoc d) = shapeCast S819200 (m ((d.tc : Thread nD τ).loc main_arg0)) shapeCasts_S4x4096x50_S819200 := by
  show (Sc.opIdx (F := F)).result (Sc.W0 m d) Sc.r_v0 = _
  rw [StableHlo.reshape_result]
  rfl

/-- From the input-domain predicate: every word of the flat index array names a row of the tables (a reshape only
    moves the entries). -/
theorem preOK_of_pre [Cert.Pre_input_domain.Facts] (m : (ℓ : Loc nD τ sig) → Buf (Elt F) ℓ)
    (hpre : ∀ c : Dev nD,
      (Cert.Pre_input_domain.fn (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
        = (fun _ => 1#1)) :
    Sc.PreOK (Sc.mK m) := by
  intro d j
  rw [mK_iLoc]
  unfold shapeCast
  exact Cert.PreDecode.x_lt (F := F) _ _ _ _ _ _ _ _ (hpre d) _

end Cert.Kernel.PreOK

end
-- ==== Proof.Spec.lean ====
/-
  The value both programs compute, index by index, at the ideal floats (a float an extended real, every
  operation exact), over the literal shapes of the arguments.

  Arguments: an index array x : i32[4, 4096, 50]; three tables [100000, 128]; W1 [384, 256], b1 [256],
  W2 [256, 10], b2 [10].  Table t (t = 0, 1, 2) is read through index plane 0, 2, 3 of x.  For example r
  the 50 rows  table_t[x[plane t, r, l], :]  (l < 50) are averaged,

      pooled t r e = (∑ l < 50, table_t[x[plane t, r, l], e]) * (1/50),

  the three averages are laid side by side (column 128 t + e of a 384-wide row), passed through the first
  affine layer and a rectifier,

      hidden r h = max ((∑ t < 3, ∑ e < 128, pooled t r e * W1[128 t + e, h]) + b1[h]) 0,

  and through the second affine layer,

      out r c = (∑ h < 256, hidden r h * W2[h, c]) + b2[c].

  A word of x is read as a row number by clamping its signed value into [0, 99999] (what a gather does to a
  start index); for a word already in that range this is the word's own value, signed or unsigned
  (rowOf_val_of_range, rowOf_val_toInt).

  Then the pure algebra the two sides need, all of it valid on every extended real (no finiteness):
  a sum over 384 columns is the double sum over 3 blocks of 128 (sum_384); a sum over three blocks is
  (g 0 + g 1) + g 2 (sum_three); dividing by fifty is multiplying by the real 1/50 (div_fifty); the f32
  words of 50.0 and 0.0 denote 50 and 0.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Spec

open Idealize.ShloMosaic Idealize.ShloMosaic.ValueIdx

/-! ## Shapes of the arguments and of the result -/

abbrev S4x4096x50 : Shape := ⟨3, ![4, 4096, 50]⟩
abbrev S100000x128 : Shape := ⟨2, ![100000, 128]⟩
abbrev S384x256 : Shape := ⟨2, ![384, 256]⟩
abbrev S256 : Shape := ⟨1, ![256]⟩
abbrev S256x10 : Shape := ⟨2, ![256, 10]⟩
abbrev S10 : Shape := ⟨1, ![10]⟩
abbrev S4096x10 : Shape := ⟨2, ![4096, 10]⟩

/-! ## Which plane, which table, which row, which column -/

/-- Table t is read through this plane of the index array: 0, 2, 3. -/
def plane (t : Fin 3) : Fin 4 := match t with | ⟨0, _⟩ => 0 | ⟨1, _⟩ => 2 | ⟨2, _⟩ => 3

@[simp] theorem plane_zero : plane 0 = 0 := rfl
@[simp] theorem plane_one : plane 1 = 2 := rfl
@[simp] theorem plane_two : plane 2 = 3 := rfl

/-- The t-th of three tables. -/
def tbl (t0 t1 t2 : S100000x128.Idx → EReal) (t : Fin 3) : S100000x128.Idx → EReal :=
  match t with | ⟨0, _⟩ => t0 | ⟨1, _⟩ => t1 | ⟨2, _⟩ => t2

@[simp] theorem tbl_zero (t0 t1 t2 : S100000x128.Idx → EReal) : tbl t0 t1 t2 0 = t0 := rfl
@[simp] theorem tbl_one (t0 t1 t2 : S100000x128.Idx → EReal) : tbl t0 t1 t2 1 = t1 := rfl
@[simp] theorem tbl_two (t0 t1 t2 : S100000x128.Idx → EReal) : tbl t0 t1 t2 2 = t2 := rfl

/-- A 32-bit word read as a row number of a 100000-row table: its signed value clamped into [0, 99999]. -/
def rowOf (w : BitVec 32) : Fin 100000 := ⟨min w.toInt.toNat 99999, by omega⟩

theorem rowOf_val (w : BitVec 32) : (rowOf w).val = min w.toInt.toNat 99999 := rfl

/-- A word whose signed value is in range is its own row number, read signed … -/
theorem rowOf_val_toInt {w : BitVec 32} (h : 0 ≤ w.toInt ∧ w.toInt ≤ 99999) : (rowOf w).val = w.toInt.toNat := by
  rw [rowOf_val]; omega

/-- … and read unsigned. -/
theorem rowOf_val_of_range {w : BitVec 32} (h : 0 ≤ w.toInt ∧ w.toInt ≤ 99999) : (rowOf w).val = w.toNat := by
  rw [rowOf_val_toInt h]
  have h2 := w.isLt
  rw [BitVec.toInt_eq_toNat_cond] at h ⊢
  split at h <;> omega

/-- Column 128 t + e of a 384-wide row: column e of its t-th block of 128. -/
def k384 (t : Fin 3) (e : Fin 128) : Fin 384 := ⟨128 * t.val + e.val, by omega⟩

@[simp] theorem k384_val (t : Fin 3) (e : Fin 128) : (k384 t e).val = 128 * t.val + e.val := rfl

/-! ## The value -/

/-- The average over the 50 gathered rows of table t, for example r, at column e. -/
def pooledAt (x : S4x4096x50.Idx → BitVec 32) (t0 t1 t2 : S100000x128.Idx → EReal)
    (t : Fin 3) (r : Fin 4096) (e : Fin 128) : EReal :=
  (∑ l : Fin 50, tbl t0 t1 t2 t (ix2 (rowOf (x (ix3 (plane t) r l))) e)) * ((1 / 50 : ℝ) : EReal)

/-- The first layer, rectified: the three averages against the three 128-row blocks of W1, plus b1, clipped below at 0. -/
def hiddenAt (x : S4x4096x50.Idx → BitVec 32) (t0 t1 t2 : S100000x128.Idx → EReal)
    (W1 : S384x256.Idx → EReal) (b1 : S256.Idx → EReal) (r : Fin 4096) (h : Fin 256) : EReal :=
  max ((∑ t : Fin 3, ∑ e : Fin 128, pooledAt x t0 t1 t2 t r e * W1 (ix2 (k384 t e) h)) + b1 (ix1 h)) 0

/-- The second layer at example r and output column c. -/
def outAt (x : S4x4096x50.Idx → BitVec 32) (t0 t1 t2 : S100000x128.Idx → EReal)
    (W1 : S384x256.Idx → EReal) (b1 : S256.Idx → EReal) (W2 : S256x10.Idx → EReal) (b2 : S10.Idx → EReal)
    (r : Fin 4096) (c : Fin 10) : EReal :=
  (∑ h : Fin 256, hiddenAt x t0 t1 t2 W1 b1 r h * W2 (ix2 h c)) + b2 (ix1 c)

/-- The result array, as one function of the arguments. -/
def G (x : S4x4096x50.Idx → BitVec 32) (t0 t1 t2 : S100000x128.Idx → EReal)
    (W1 : S384x256.Idx → EReal) (b1 : S256.Idx → EReal) (W2 : S256x10.Idx → EReal) (b2 : S10.Idx → EReal) :
    S4096x10.Idx → EReal :=
  fun j => outAt x t0 t1 t2 W1 b1 W2 b2 (j 0) (j 1)

theorem G_ix2 (x : S4x4096x50.Idx → BitVec 32) (t0 t1 t2 : S100000x128.Idx → EReal)
    (W1 : S384x256.Idx → EReal) (b1 : S256.Idx → EReal) (W2 : S256x10.Idx → EReal) (b2 : S10.Idx → EReal)
    (r : Fin 4096) (c : Fin 10) :
    G x t0 t1 t2 W1 b1 W2 b2 (ix2 r c) = outAt x t0 t1 t2 W1 b1 W2 b2 r c := rfl

/-! ## The algebra -/

/-- The 384 columns are the 3 blocks of 128. -/
def split384 : Fin 3 × Fin 128 ≃ Fin 384 where
  toFun p := k384 p.1 p.2
  invFun k := (⟨k.val / 128, by omega⟩, ⟨k.val % 128, by omega⟩)
  left_inv := by
    rintro ⟨t, e⟩
    refine Prod.ext (Fin.ext ?_) (Fin.ext ?_)
    · show (128 * t.val + e.val) / 128 = t.val
      omega
    · show (128 * t.val + e.val) % 128 = e.val
      omega
  right_inv := by
    intro k
    refine Fin.ext ?_
    show 128 * (k.val / 128) + k.val % 128 = k.val
    omega

/-- A sum over the 384 columns is the double sum over blocks and columns of a block. -/
theorem sum_384 {M : Type*} [AddCommMonoid M] (f : Fin 384 → M) :
    ∑ k : Fin 384, f k = ∑ t : Fin 3, ∑ e : Fin 128, f (k384 t e) := by
  rw [← Equiv.sum_comp split384 f, Fintype.sum_prod_type]
  rfl

/-- A sum over the three blocks, in the order a left-to-right accumulation takes them. -/
theorem sum_three {M : Type*} [AddCommMonoid M] (g : Fin 3 → M) : ∑ t : Fin 3, g t = g 0 + g 1 + g 2 :=
  Fin.sum_univ_three g

/-- Dividing by fifty is multiplying by the real 1/50, at the infinities too. -/
theorem div_fifty (s : EReal) : Ideal.div s ((50 : ℝ) : EReal) = s * ((1 / 50 : ℝ) : EReal) :=
  Ideal.div_coe (by norm_num) s

/-- The f32 word of 50.0 denotes fifty. -/
theorem ofBits_fifty : Ideal.ofBits .f32 0x42480000#32 = ((50 : ℝ) : EReal) := by
  simp [Ideal.ofBits, Ideal.ieee]
  rw [← EReal.coe_mul]
  exact congrArg _ (by norm_num)

end Cert.Spec

end
-- ==== Proof.Preserves.lean ====
/-
  The ledger of the idealization. The kernel multiplies each pooled sum by a constant it NAMES "inv_50"; at the
  extended reals the certificate's table gives that name the rational 1/50 (the printed 32-bit pattern denotes a
  nearby dyadic; the distance between the two is the idealization's to defend, not this file's). The ledger lists
  the same entry once for every place the constant is printed: 384 copies of one statement, proved once.
-/
import proofs.«207262_g39728447488703_cont_8to1_b_1934_40_alg».proof.Defs
import Idealize.ShloMosaic.PureOps.IdealRules

set_option maxRecDepth 65536

noncomputable section

namespace Cert.Proof.Preserves

open Idealize.ShloMosaic

/-- The one entry: the table gives "inv_50" the value 1/50, and at the extended reals the named constant is that value,
    as a splat of any shape and as a scalar. -/
theorem one :
    IdealRules.named_const.Statement Cert.KernelIdeal.κ "inv_50" .f32 0x3CA3D70A#32 ((1 / 50 : ℝ) : EReal) :=
  IdealRules.named_const.statement Cert.KernelIdeal.κ "inv_50" .f32 0x3CA3D70A#32 ((1 / 50 : ℝ) : EReal) rfl

/-- The named reciprocal denotes the rational 1/50 at the extended reals. -/
theorem inv_50_ideal :
    Named.named (F := Ideal) Cert.KernelIdeal.κ "inv_50" (φ := .f32) 0x3CA3D70A#32 = ((1 / 50 : ℝ) : EReal) :=
  IdealRules.named_const.ideal_named_scalar _ _ _ _ rfl

/-- The whole ledger: every entry is the one entry. -/
theorem preserves : Cert.preserves_Kernel_KernelIdeal := by
  unfold Cert.preserves_Kernel_KernelIdeal
  repeat (refine And.intro one ?_)
  exact one

end Cert.Proof.Preserves

end
-- ==== Proof.PoolValue.lean ====
/-
  The pooled array at the extended reals, entry by entry.

  The kernel's running sum of a segment, two rows a step from the zero word, is the plain sum of the rows taken so
  far (the zero word denotes 0 and addition is exact); the segment's mean, the running sum after 25 steps times the
  named reciprocal, is the sum of the fifty rows times the rational 1/50. The flat index array is the [4, 4096, 50]
  index array read in row-major order, so its word at position 204800 p + 50 r + l is x[p, r, l]; table t is read
  through plane p = 0, 2, 3 of x, whose words start at 0, 409600, 614400. A word in [0, 99999] signed is its own row
  number. Hence entry (t, r, e) of the pooled array is (sum over l < 50 of table_t[x[plane t, r, l], e]) * (1/50).
-/
import proofs.«207262_g39728447488703_cont_8to1_b_1934_40_alg».proof.Proof.ScSetup
import proofs.«207262_g39728447488703_cont_8to1_b_1934_40_alg».proof.Proof.Spec
import proofs.«207262_g39728447488703_cont_8to1_b_1934_40_alg».proof.Proof.Preserves
import Idealize.ShloMosaic.Lib.Pipeline.Value
import Idealize.ShloMosaic.PureOps.Ideal.Laws
import Mathlib.Algebra.BigOperators.Fin

noncomputable section

open scoped BigOperators

namespace Cert.KernelIdeal.PoolValue

open Idealize.ShloMosaic Idealize.ShloMosaic.ValueIdx
open Cert.KernelIdeal Cert.KernelIdeal.Gen

/-- The running sum after k steps is the sum of the first 2k rows. -/
theorem accN_ideal (row : ℕ → EReal) (k : ℕ) : Sc.accN (F := Ideal) row k = ∑ l ∈ Finset.range (2 * k), row l := by
  induction k with
  | zero =>
    show Ideal.ofBits .f32 0x00000000#32 = _
    rw [Ideal.ofBits_zero_f32]
    rfl
  | succ k ih =>
    show (Sc.accN (F := Ideal) row k + row (2 * k)) + row (2 * k + 1) = _
    rw [ih, show 2 * (k + 1) = 2 * k + 1 + 1 from by ring, Finset.sum_range_succ, Finset.sum_range_succ]

/-- A segment's mean is the sum of its fifty rows times the rational 1/50. -/
theorem meanOf_ideal (row : ℕ → EReal) :
    Sc.meanOf (F := Ideal) row = (∑ l : Fin 50, row l.val) * ((1 / 50 : ℝ) : EReal) := by
  show Sc.accN (F := Ideal) row 25 * Named.named (F := Ideal) Cert.KernelIdeal.κ "inv_50" (φ := .f32) 0x3CA3D70A#32 = _
  rw [accN_ideal, Cert.Proof.Preserves.inv_50_ideal, Fin.sum_univ_eq_sum_range (fun l => row l) 50]

/-- Plane by plane: where plane t's words start, and which plane of x they are. -/
theorem plane_cases (t : Fin 3) :
    (Sc.offOf t.val = 0 ∧ (Spec.plane t).val = 0) ∨ (Sc.offOf t.val = 409600 ∧ (Spec.plane t).val = 2)
      ∨ (Sc.offOf t.val = 614400 ∧ (Spec.plane t).val = 3) :=
  match t with
  | ⟨0, _⟩ => Or.inl ⟨rfl, rfl⟩
  | ⟨1, _⟩ => Or.inr (Or.inl ⟨rfl, rfl⟩)
  | ⟨2, _⟩ => Or.inr (Or.inr ⟨rfl, rfl⟩)

/-- Plane t's words start at 204800 times the plane number. -/
theorem offOf_plane (t : Fin 3) : Sc.offOf t.val = (Spec.plane t).val * 204800 := by
  rcases plane_cases t with ⟨h1, h2⟩ | ⟨h1, h2⟩ | ⟨h1, h2⟩ <;> omega

/-- The table chosen by the plane number is the t-th of the three. -/
theorem tbl_sel (ta tb tc : Spec.S100000x128.Idx → EReal) (t : Fin 3) :
    (if t.val = 0 then ta else if t.val = 1 then tb else tc) = Spec.tbl ta tb tc t :=
  match t with | ⟨0, _⟩ => rfl | ⟨1, _⟩ => rfl | ⟨2, _⟩ => rfl

/-- The flat index array at position off t + 50 r + l is x[plane t, r, l]. -/
theorem idxAt_reshape (x : Spec.S4x4096x50.Idx → BitVec 32) (t : Fin 3) (r : Fin 4096) (l : Fin 50) :
    Sc.idxAt (shapeCast S819200 x shapeCasts_S4x4096x50_S819200) (Sc.offOf t.val + 50 * r.val + l.val)
      = x (ix3 (Spec.plane t) r l) := by
  have hp : Sc.offOf t.val + 50 * r.val + l.val = ((Spec.plane t).val * 4096 + r.val) * 50 + l.val := by
    rw [offOf_plane]; omega
  have hlt : Sc.offOf t.val + 50 * r.val + l.val < 819200 := by
    rw [hp]; have := (Spec.plane t).isLt; have := r.isLt; have := l.isLt; omega
  unfold Sc.idxAt
  rw [dif_pos hlt]
  refine shapeCast_apply x _ _ _ ?_
  rw [Shape.rowMajor_val_three, Shape.rowMajor_val_one]
  show ((Spec.plane t).val * 4096 + r.val) * 50 + l.val = Sc.offOf t.val + 50 * r.val + l.val
  exact hp.symm

/-- A table entry at a row number in range. -/
theorem tblAt_of_lt (tb : Spec.S100000x128.Idx → EReal) (row : ℕ) (h : row < 100000) (e : Fin 128) :
    Sc.tblAt (F := Ideal) tb row e = tb (ix2 (⟨row, h⟩ : Fin 100000) e) := by
  unfold Sc.tblAt
  rw [dif_pos h]

/-- One gathered entry: row l of segment (t, r), column e. -/
theorem entry (x : Spec.S4x4096x50.Idx → BitVec 32) (ta tb tc : Spec.S100000x128.Idx → EReal)
    (hx : ∀ j, 0 ≤ (x j).toInt ∧ (x j).toInt ≤ 99999) (t : Fin 3) (r : Fin 4096) (e : Fin 128) (l : Fin 50) :
    Sc.tblAt (F := Ideal) (if t.val = 0 then ta else if t.val = 1 then tb else tc)
        (Sc.idxAt (shapeCast S819200 x shapeCasts_S4x4096x50_S819200) (Sc.offOf t.val + 50 * r.val + l.val)).toNat
        ⟨e.val, e.isLt⟩
      = Spec.tbl ta tb tc t (ix2 (Spec.rowOf (x (ix3 (Spec.plane t) r l))) e) := by
  have hr := Spec.rowOf_val_of_range (hx (ix3 (Spec.plane t) r l))
  have hlt : (x (ix3 (Spec.plane t) r l)).toNat < 100000 := hr ▸ (Spec.rowOf (x (ix3 (Spec.plane t) r l))).isLt
  rw [idxAt_reshape, tbl_sel, tblAt_of_lt _ _ hlt]
  exact congrArg (fun q => Spec.tbl ta tb tc t (ix2 q e)) (Fin.ext hr.symm)

/-- THE POOLED ARRAY: over the reshaped index array and in-range indices it is the specification's pooled value. -/
theorem pooledOf_ideal (x : Spec.S4x4096x50.Idx → BitVec 32) (ta tb tc : Spec.S100000x128.Idx → EReal)
    (hx : ∀ j, 0 ≤ (x j).toInt ∧ (x j).toInt ≤ 99999) (t : Fin 3) (r : Fin 4096) (e : Fin 128) :
    Sc.pooledOf (F := Ideal) (shapeCast S819200 x shapeCasts_S4x4096x50_S819200) ta tb tc (ix3 t r e)
      = Spec.pooledAt x ta tb tc t r e := by
  unfold Spec.pooledAt
  refine (meanOf_ideal _).trans ?_
  exact congrArg (· * ((1 / 50 : ℝ) : EReal)) (Finset.sum_congr rfl fun l _ => entry x ta tb tc hx t r e l)

end Cert.KernelIdeal.PoolValue

end
-- ==== Proof.TcValue.lean ====
/-
  The dense layers of the kernel, read index by index at the ideal floats.

  One grid point's block, at row r and column j: each of the three 128-column planes of its block of the pooled
  array against the matching 128-row slab of the first weight (a product into a zero accumulator is the sum over
  the contracted axis of the products), the three products added left to right, plus the first bias (one row
  broadcast over the rows), clipped below at 0 (the scalar zero word denotes 0); that hidden row against column j
  of the second weight, plus the second bias.  The whole result array at row r is block r / 512 at row r % 512,
  and row r % 512 of block r / 512 of the pooled array is its row r.

  The host prepares the small arrays: the first weight [384, 256] as three slabs (slab t, row e is row 128 t + e),
  the first bias as one row, the second weight and bias padded on the right from 10 to 128 columns (a column
  below 10 is the array's own, whatever the padding value), and it keeps the first ten columns of the result.

  With the pooled array equal to the specification's averages, those ten columns are the specification: adding
  the three blocks' products left to right and then the bias is the specification's sum over the three blocks
  plus the bias.  Nothing here needs a finite entry.
-/
import proofs.«207262_g39728447488703_cont_8to1_b_1934_40_alg».proof.Proof.Spec
import proofs.«207262_g39728447488703_cont_8to1_b_1934_40_alg».proof.Proof.TcPay
import Idealize.ShloMosaic.PureOps.Ideal.Laws
import Idealize.ShloMosaic.Lib.ValueIdx
import Idealize.ShloMosaic.Lib.ValueLayout
import Idealize.ShloMosaic.Lib.KernelVsHost
import Idealize.ShloMosaic.Lib.StackMember

noncomputable section

open scoped BigOperators

namespace Cert.KernelIdeal.TcValue

open Cert.KernelIdeal Idealize.ShloMosaic Idealize.SL.Sem Idealize.ShloMosaic.ValueIdx
open Facts Shapes1.Facts₀

variable [Facts]

/-! ## The layout operations and the two products of the body, read at an index -/

theorem pplane0_apply (v : FVec Ideal S3x512x128 .f32) (hs : S3x512x128.Slices ![0, 0, 0] S1x512x128)
    (hc : S1x512x128.ShapeCasts S512x128) (r : Fin 512) (e : Fin 128) :
    shapeCast S512x128 (extractStridedSlice S1x512x128 ![0, 0, 0] v hs) hc (ix2 r e) = v (ix3 (0 : Fin 3) r e) := by
  refine (shapeCast_1ab_ab_apply _ _ r e).trans ?_
  refine extractStridedSlice_apply _ v _ _ _ fun a => ?_
  match a with
  | ⟨0, _⟩ => rfl
  | ⟨1, _⟩ => exact (Nat.zero_add _).symm
  | ⟨2, _⟩ => exact (Nat.zero_add _).symm

theorem wplane0_apply (v : FVec Ideal S3x128x256 .f32) (hs : S3x128x256.Slices ![0, 0, 0] S1x128x256)
    (hc : S1x128x256.ShapeCasts S128x256) (e : Fin 128) (h : Fin 256) :
    shapeCast S128x256 (extractStridedSlice S1x128x256 ![0, 0, 0] v hs) hc (ix2 e h) = v (ix3 (0 : Fin 3) e h) := by
  refine (shapeCast_1ab_ab_apply _ _ e h).trans ?_
  refine extractStridedSlice_apply _ v _ _ _ fun a => ?_
  match a with
  | ⟨0, _⟩ => rfl
  | ⟨1, _⟩ => exact (Nat.zero_add _).symm
  | ⟨2, _⟩ => exact (Nat.zero_add _).symm

theorem pplane1_apply (v : FVec Ideal S3x512x128 .f32) (hs : S3x512x128.Slices ![1, 0, 0] S1x512x128)
    (hc : S1x512x128.ShapeCasts S512x128) (r : Fin 512) (e : Fin 128) :
    shapeCast S512x128 (extractStridedSlice S1x512x128 ![1, 0, 0] v hs) hc (ix2 r e) = v (ix3 (1 : Fin 3) r e) := by
  refine (shapeCast_1ab_ab_apply _ _ r e).trans ?_
  refine extractStridedSlice_apply _ v _ _ _ fun a => ?_
  match a with
  | ⟨0, _⟩ => rfl
  | ⟨1, _⟩ => exact (Nat.zero_add _).symm
  | ⟨2, _⟩ => exact (Nat.zero_add _).symm

theorem wplane1_apply (v : FVec Ideal S3x128x256 .f32) (hs : S3x128x256.Slices ![1, 0, 0] S1x128x256)
    (hc : S1x128x256.ShapeCasts S128x256) (e : Fin 128) (h : Fin 256) :
    shapeCast S128x256 (extractStridedSlice S1x128x256 ![1, 0, 0] v hs) hc (ix2 e h) = v (ix3 (1 : Fin 3) e h) := by
  refine (shapeCast_1ab_ab_apply _ _ e h).trans ?_
  refine extractStridedSlice_apply _ v _ _ _ fun a => ?_
  match a with
  | ⟨0, _⟩ => rfl
  | ⟨1, _⟩ => exact (Nat.zero_add _).symm
  | ⟨2, _⟩ => exact (Nat.zero_add _).symm

theorem pplane2_apply (v : FVec Ideal S3x512x128 .f32) (hs : S3x512x128.Slices ![2, 0, 0] S1x512x128)
    (hc : S1x512x128.ShapeCasts S512x128) (r : Fin 512) (e : Fin 128) :
    shapeCast S512x128 (extractStridedSlice S1x512x128 ![2, 0, 0] v hs) hc (ix2 r e) = v (ix3 (2 : Fin 3) r e) := by
  refine (shapeCast_1ab_ab_apply _ _ r e).trans ?_
  refine extractStridedSlice_apply _ v _ _ _ fun a => ?_
  match a with
  | ⟨0, _⟩ => rfl
  | ⟨1, _⟩ => exact (Nat.zero_add _).symm
  | ⟨2, _⟩ => exact (Nat.zero_add _).symm

theorem wplane2_apply (v : FVec Ideal S3x128x256 .f32) (hs : S3x128x256.Slices ![2, 0, 0] S1x128x256)
    (hc : S1x128x256.ShapeCasts S128x256) (e : Fin 128) (h : Fin 256) :
    shapeCast S128x256 (extractStridedSlice S1x128x256 ![2, 0, 0] v hs) hc (ix2 e h) = v (ix3 (2 : Fin 3) e h) := by
  refine (shapeCast_1ab_ab_apply _ _ e h).trans ?_
  refine extractStridedSlice_apply _ v _ _ _ fun a => ?_
  match a with
  | ⟨0, _⟩ => rfl
  | ⟨1, _⟩ => exact (Nat.zero_add _).symm
  | ⟨2, _⟩ => exact (Nat.zero_add _).symm

/-- The first product (512 × 128 by 128 × 256) into the zero splat, at (r, h): the sum over the 128 contracted columns. -/
theorem matmul1_apply (A : FVec Ideal S512x128 .f32) (B : FVec Ideal S128x256 .f32) (r : Fin 512) (h : Fin 256) :
    matmul dot_S512x128_S128x256_S512x256_1_0_0_1_n_n none A B (constant S512x256 .f32 0x00000000#32) (ix2 r h)
      = ∑ e : Fin 128, A (ix2 r e) * B (ix2 e h) := by
  rw [matmul_zero_eq_dotGeneral]
  exact StackMember.dotGeneral_plain_apply (m := 512) (n := 256) (k := 128) none A B r h

/-- The second product (512 × 256 by 256 × 128) into the zero splat, at (r, j): the sum over the 256 contracted columns. -/
theorem matmul2_apply (A : FVec Ideal S512x256 .f32) (B : FVec Ideal S256x128 .f32) (r : Fin 512) (j : Fin 128) :
    matmul dot_S512x256_S256x128_S512x128_1_0_0_1_n_n none A B (constant S512x128 .f32 0x00000000#32) (ix2 r j)
      = ∑ h : Fin 256, A (ix2 r h) * B (ix2 h j) := by
  rw [matmul_zero_eq_dotGeneral]
  exact StackMember.dotGeneral_plain_apply (m := 512) (n := 128) (k := 256) none A B r j

/-- The scalar zero word denotes 0. -/
theorem scalar_zero : (Scalar.ofBits .f32 0x00000000#32 : Ideal .f32) = 0 := Ideal.ofBits_zero_f32

/-! ## One grid point's block -/

/-- The block one grid point writes, at row r and column j. -/
theorem tcPay_apply (p : FVec Ideal S3x512x128 .f32) (w1 : FVec Ideal S3x128x256 .f32) (b1 : FVec Ideal S1x256 .f32)
    (w2 : FVec Ideal S256x128 .f32) (b2 : FVec Ideal S1x128 .f32) (r : Fin 512) (j : Fin 128) :
    TcRegion.tcPay (F := Ideal) p w1 b1 w2 b2 (ix2 r j)
      = (∑ h : Fin 256,
          max ((∑ e : Fin 128, p (ix3 (0 : Fin 3) r e) * w1 (ix3 (0 : Fin 3) e h))
              + (∑ e : Fin 128, p (ix3 (1 : Fin 3) r e) * w1 (ix3 (1 : Fin 3) e h))
              + (∑ e : Fin 128, p (ix3 (2 : Fin 3) r e) * w1 (ix3 (2 : Fin 3) e h))
              + b1 (ix2 (0 : Fin 1) h)) 0 * w2 (ix2 h j))
        + b2 (ix2 (0 : Fin 1) j) := by
  unfold TcRegion.tcPay TcRegion.tcHidden TcRegion.plane0 TcRegion.plane1 TcRegion.plane2 TcRegion.slab0 TcRegion.slab1 TcRegion.slab2
  simp only [shapeCast_self]
  rw [addf_apply, matmul2_apply, broadcastTo_1b_ab_apply]
  simp only [maximumf_apply, addf_apply, broadcast_apply, broadcastTo_1b_ab_apply, matmul1_apply, pplane0_apply, pplane1_apply,
    pplane2_apply, wplane0_apply, wplane1_apply, wplane2_apply, scalar_zero]

/-! ## The whole result array -/

/-- Row r % 512 of block r / 512 of the pooled array is its row r. -/
theorem pooledBlock_row (P : Vec Ideal S3x4096x128 .f32) (r : Fin 4096) (k : Fin 3) (e : Fin 128)
    (h1 : r.val / 512 < 8) (h2 : r.val % 512 < 512) :
    TcRegion.pooledBlock (F := Ideal) P ⟨r.val / 512, h1⟩ (ix3 k ⟨r.val % 512, h2⟩ e) = P (ix3 k r e) := by
  unfold TcRegion.pooledBlock
  refine congrArg P (funext fun a => Fin.ext ?_)
  match a with
  | ⟨0, _⟩ => rfl
  | ⟨1, _⟩ =>
    show 512 * (r.val / 512) + r.val % 512 = r.val
    omega
  | ⟨2, _⟩ => rfl

/-- The whole result array at row r and column j, in the body's own grouping of the three products. -/
theorem tcOut_apply (P : Vec Ideal S3x4096x128 .f32) (w1 : Vec Ideal S3x128x256 .f32) (b1 : Vec Ideal S1x256 .f32)
    (w2 : Vec Ideal S256x128 .f32) (b2 : Vec Ideal S1x128 .f32) (r : Fin 4096) (j : Fin 128) :
    TcRegion.tcOut (F := Ideal) P w1 b1 w2 b2 (ix2 r j)
      = (∑ h : Fin 256,
          max ((∑ e : Fin 128, P (ix3 (0 : Fin 3) r e) * w1 (ix3 (0 : Fin 3) e h))
              + (∑ e : Fin 128, P (ix3 (1 : Fin 3) r e) * w1 (ix3 (1 : Fin 3) e h))
              + (∑ e : Fin 128, P (ix3 (2 : Fin 3) r e) * w1 (ix3 (2 : Fin 3) e h))
              + b1 (ix2 (0 : Fin 1) h)) 0 * w2 (ix2 h j))
        + b2 (ix2 (0 : Fin 1) j) := by
  have hr : r.val < 4096 := r.isLt
  refine (TcRegion.tcOut_at (F := Ideal) P w1 b1 w2 b2 ⟨r.val / 512, by omega⟩ (ix2 r j)
    (ix2 (⟨r.val % 512, by omega⟩ : Fin 512) j) ?_ rfl).trans ?_
  · show r.val = 512 * (r.val / 512) + r.val % 512
    omega
  · rw [tcPay_apply]
    simp only [pooledBlock_row]

/-! ## The host's preparation of the four small arrays, and its final slice, read at an index -/

/-- The first weight as three slabs of 128 rows: slab t, row e is row 128 t + e. -/
theorem w1r_apply (W1 : Vec Ideal S384x256 .f32) (hc : S384x256.ShapeCasts S3x128x256) (t : Fin 3) (e : Fin 128) (h : Fin 256) :
    shapeCast S3x128x256 W1 hc (ix3 t e h) = W1 (ix2 (Spec.k384 t e) h) :=
  shapeCast_apply W1 hc _ _ (by
    rw [Shape.rowMajor_val_two, Shape.rowMajor_val_three]
    show (128 * t.val + e.val) * 256 + h.val = (t.val * 128 + e.val) * 256 + h.val
    omega)

/-- The first bias as one row. -/
theorem b1r_apply (b1 : Vec Ideal S256 .f32) (hc : S256.ShapeCasts S1x256) (h : Fin 256) :
    shapeCast S1x256 b1 hc (ix2 (0 : Fin 1) h) = b1 (ix1 h) :=
  shapeCast_a_1a_apply b1 hc 0 h

/-- The second weight padded on the right to 128 columns: a column below 10 is the weight's own. -/
theorem w2p_apply (W2 : Vec Ideal S256x10 .f32) (z : Vec Ideal S_ .f32) (hp : S256x10.Pads (![0, 0] : Fin 2 → Nat) ![0, 118] ![0, 0] S256x128)
    (hu : 0 < S_.numel) (h : Fin 256) (c : Fin 10) (hc : c.val < 128) :
    pad S256x128 ![0, 0] ![0, 118] ![0, 0] W2 z hp hu (ix2 h (⟨c.val, hc⟩ : Fin 128)) = W2 (ix2 h c) := by
  refine pad_apply_of_inside _ _ _ W2 z hp hu _ (ix2 h c) fun a => ?_
  match a with
  | ⟨0, _⟩ =>
    show h.val = 0 + h.val * (0 + 1)
    omega
  | ⟨1, _⟩ =>
    show c.val = 0 + c.val * (0 + 1)
    omega

/-- The second bias padded to 128 entries, as one row: an entry below 10 is the bias's own. -/
theorem b2p_apply (b2 : Vec Ideal S10 .f32) (z : Vec Ideal S_ .f32) (hp : S10.Pads (![0] : Fin 1 → Nat) ![118] ![0] S128)
    (hu : 0 < S_.numel) (hs : S128.ShapeCasts S1x128) (c : Fin 10) (hc : c.val < 128) :
    shapeCast S1x128 (pad S128 ![0] ![118] ![0] b2 z hp hu) hs (ix2 (0 : Fin 1) (⟨c.val, hc⟩ : Fin 128)) = b2 (ix1 c) := by
  refine (shapeCast_a_1a_apply _ hs 0 _).trans ?_
  refine pad_apply_of_inside _ _ _ b2 z hp hu _ (ix1 c) fun a => ?_
  match a with
  | ⟨0, _⟩ =>
    show c.val = 0 + c.val * (0 + 1)
    omega

/-- The first ten columns of the result array. -/
theorem out_slice_apply (Y : Vec Ideal S4096x128 .f32) (hs : S4096x128.Slices ![0, 0] S4096x10) (r : Fin 4096) (c : Fin 10)
    (hc : c.val < 128) :
    extractStridedSlice S4096x10 ![0, 0] Y hs (ix2 r c) = Y (ix2 r (⟨c.val, hc⟩ : Fin 128)) := by
  refine extractStridedSlice_apply _ Y hs _ _ fun a => ?_
  match a with
  | ⟨0, _⟩ => exact (Nat.zero_add _).symm
  | ⟨1, _⟩ => exact (Nat.zero_add _).symm

/-! ## The kernel's result is the specification -/

/-- With the pooled array the specification's averages, the weights and biases prepared as the host prepares them
    (whatever the padding value), the first ten columns of the result array are the specification, index by index:
    the body adds the three blocks' products left to right and then the bias, which is the specification's sum over
    the three blocks plus the bias. -/
theorem out_eq_spec (x : Spec.S4x4096x50.Idx → BitVec 32) (ta tb tc : Spec.S100000x128.Idx → EReal)
    (W1 : Vec Ideal S384x256 .f32) (b1 : Vec Ideal S256 .f32) (W2 : Vec Ideal S256x10 .f32) (b2 : Vec Ideal S10 .f32)
    (P : Vec Ideal S3x4096x128 .f32) (z z' : Vec Ideal S_ .f32)
    (hP : ∀ (t : Fin 3) (r : Fin 4096) (e : Fin 128), P (ix3 t r e) = Spec.pooledAt x ta tb tc t r e) :
    extractStridedSlice S4096x10 ![0, 0]
        (TcRegion.tcOut (F := Ideal) P (shapeCast S3x128x256 W1 shapeCasts_S384x256_S3x128x256)
          (shapeCast S1x256 b1 shapeCasts_S256_S1x256)
          (pad S256x128 ![0, 0] ![0, 118] ![0, 0] W2 z pads_S256x10_S256x128_000_01180 h_S_)
          (shapeCast S1x128 (pad S128 ![0] ![118] ![0] b2 z' pads_S10_S128_01180 h_S_) shapeCasts_S128_S1x128))
        slices_S4096x128_S4096x10_0_0
      = fun i => Spec.G x ta tb tc W1 b1 W2 b2 i := by
  funext i
  obtain ⟨r, c, rfl⟩ : ∃ (r : Fin 4096) (c : Fin 10), i = ix2 r c := ⟨i 0, i 1, eq_ix2 i⟩
  have hc : c.val < 128 := by have := c.isLt; omega
  rw [out_slice_apply _ _ r c hc, tcOut_apply, Spec.G_ix2]
  unfold Spec.outAt Spec.hiddenAt
  simp only [hP, Spec.sum_three]
  rw [b2p_apply b2 z' pads_S10_S128_01180 h_S_ shapeCasts_S128_S1x128 c hc]
  refine congrArg (· + b2 (ix1 c)) (Finset.sum_congr rfl fun h _ => ?_)
  rw [w2p_apply W2 z pads_S256x10_S256x128_000_01180 h_S_ h c hc, b1r_apply b1 shapeCasts_S256_S1x256 h]
  refine congrArg (fun s => max (s + b1 (ix1 h)) 0 * W2 (ix2 h c)) ?_
  refine congrArg₂ (· + ·) (congrArg₂ (· + ·) ?_ ?_) ?_
  · exact Finset.sum_congr rfl fun e _ => by rw [w1r_apply W1 shapeCasts_S384x256_S3x128x256 0 e h]
  · exact Finset.sum_congr rfl fun e _ => by rw [w1r_apply W1 shapeCasts_S384x256_S3x128x256 1 e h]
  · exact Finset.sum_congr rfl fun e _ => by rw [w1r_apply W1 shapeCasts_S384x256_S3x128x256 2 e h]

end Cert.KernelIdeal.TcValue

end
-- ==== Proof.Bridge.lean ====
/-
  The two joins between the program's run and the mathematics.

  The first call of the program runs on the launch memory after the index array [4, 4096, 50] has been reshaped to a
  flat array of 819200 words; the three tables are untouched.  A reshape only moves entries, so if the input-domain
  predicate holds of the launch memory (every index word in [0, 99999]), every word of the flat array is below 100000:
  each names a row of the tables.  This needs nothing of the float values and is stated for any float instance.

  The second call reads the pooled array the first call left (its value over the flat index array and the tables),
  the first weight reshaped to three slabs, the first bias as one row, the second weight and bias padded to 128
  columns with the converted zero word; the program's result is the first ten columns of the second call's array.
  At the ideal floats, over a launch memory whose index words are row numbers, the pooled array is the
  specification's averages, and so the result is the specification's function of the eight arguments.
-/
import proofs.«207262_g39728447488703_cont_8to1_b_1934_40_alg».proof.Proof.ScMain
import proofs.«207262_g39728447488703_cont_8to1_b_1934_40_alg».proof.Proof.PoolValue
import proofs.«207262_g39728447488703_cont_8to1_b_1934_40_alg».proof.Proof.PreDecode
import proofs.«207262_g39728447488703_cont_8to1_b_1934_40_alg».proof.Proof.TcValue
import Idealize.ShloMosaic.Lib.StableHlo.Run

noncomputable section

namespace Cert.KernelIdeal.Bridge

open Cert.KernelIdeal Cert.KernelIdeal.Gen
open Idealize.ShloMosaic Idealize.ShloMosaic.ValueIdx Idealize.ShloMosaic.StableHlo

variable {F : FTy → Type} [FloatOps F] [Named F]

/-! ## The memory the first call runs on -/

/-- The flat index array the first call reads is the index array reshaped. -/
theorem mK_iLoc (m : (ℓ : Loc nD τ sig) → Buf (Elt F) ℓ) (d : Dev nD) :
    Sc.mK m (Sc.iLoc d) = shapeCast S819200 (m ((d.tc : Thread nD τ).loc main_arg0)) shapeCasts_S4x4096x50_S819200 := by
  show (Sc.opIdx (F := F)).result (Sc.W0 m d) Sc.r_v0 = _
  rw [StableHlo.reshape_result]
  rfl

/-- The tables are the launch's. -/
theorem mK_aLoc (m : (ℓ : Loc nD τ sig) → Buf (Elt F) ℓ) (d : Dev nD) :
    Sc.mK m (Sc.aLoc d) = m ((d.tc : Thread nD τ).loc main_arg1) := by
  show (Sc.opIdx (F := F)).result (Sc.W0 m d) Sc.r_a1 = _
  rw [StableHlo.reshape_result_ne]
  · rfl
  · decide
theorem mK_bLoc (m : (ℓ : Loc nD τ sig) → Buf (Elt F) ℓ) (d : Dev nD) :
    Sc.mK m (Sc.bLoc d) = m ((d.tc : Thread nD τ).loc main_arg2) := by
  show (Sc.opIdx (F := F)).result (Sc.W0 m d) Sc.r_a2 = _
  rw [StableHlo.reshape_result_ne]
  · rfl
  · decide
theorem mK_cLoc (m : (ℓ : Loc nD τ sig) → Buf (Elt F) ℓ) (d : Dev nD) :
    Sc.mK m (Sc.cLoc d) = m ((d.tc : Thread nD τ).loc main_arg3) := by
  show (Sc.opIdx (F := F)).result (Sc.W0 m d) Sc.r_a3 = _
  rw [StableHlo.reshape_result_ne]
  · rfl
  · decide

/-- From the input-domain predicate: every word of the flat index array names a row of the tables (a reshape only
    moves the entries). -/
theorem preOK_of_pre [Cert.Pre_input_domain.Facts] (m : (ℓ : Loc nD τ sig) → Buf (Elt F) ℓ)
    (hpre : ∀ c : Dev nD,
      (Cert.Pre_input_domain.fn (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)))
        = (fun _ => 1#1)) :
    Sc.PreOK (Sc.mK m) := by
  intro d j
  rw [mK_iLoc]
  unfold shapeCast
  exact Cert.PreDecode.x_lt (F := F) _ _ _ _ _ _ _ _ (hpre d) _

/-! ## The operands of the second call, and the result -/

/-- Off the pooled array, the valuation after the first call is the launch's but for the flat index array. -/
theorem W2_arg (m : (ℓ : Loc nD τ sig) → Buf (Elt F) ℓ) (d : Dev nD) (r : Ref sig .tc) (h1 : Proc.devRef (τ := τ) .tc r ≠ Sc.r_v1)
    (h0 : r ≠ main_v0) : Sc.W2 m d (Proc.devRef .tc r) = m (d, Proc.devRef .tc r) := by
  unfold Sc.W2 Sc.W1
  rw [Function.update_of_ne h1, StableHlo.reshape_result_ne]
  · rfl
  · exact h0

/-- The pooled array the second call reads: the first call's value over the reshaped index array and the three tables. -/
theorem W3_v1 (m : (ℓ : Loc nD τ sig) → Buf (Elt F) ℓ) (d : Dev nD) :
    Sc.W3 m d Sc.r_v1
      = Sc.pooledOf (F := F) (shapeCast S819200 (m ((d.tc : Thread nD τ).loc main_arg0)) shapeCasts_S4x4096x50_S819200)
          (m ((d.tc : Thread nD τ).loc main_arg1)) (m ((d.tc : Thread nD τ).loc main_arg2)) (m ((d.tc : Thread nD τ).loc main_arg3)) := by
  unfold Sc.W3
  after_results
  show Function.update (Sc.W1 m d) Sc.r_v1 (Sc.pooledArr (Sc.mK m) d) Sc.r_v1 = _
  rw [Function.update_self]
  show Sc.pooledOf (F := F) (Sc.mK m (Sc.iLoc d)) (Sc.mK m (Sc.aLoc d)) (Sc.mK m (Sc.bLoc d)) (Sc.mK m (Sc.cLoc d)) = _
  rw [mK_iLoc, mK_aLoc, mK_bLoc, mK_cLoc]

/-- The first weight as the second call reads it: three slabs. -/
theorem W3_v2 (m : (ℓ : Loc nD τ sig) → Buf (Elt F) ℓ) (d : Dev nD) :
    Sc.W3 m d Sc.r_v2 = shapeCast S3x128x256 (m ((d.tc : Thread nD τ).loc main_arg4)) shapeCasts_S384x256_S3x128x256 := by
  unfold Sc.W3
  after_results
  rw [W2_arg m d main_arg4 (by decide) (by decide)]
  rfl

/-- The first bias as one row. -/
theorem W3_v3 (m : (ℓ : Loc nD τ sig) → Buf (Elt F) ℓ) (d : Dev nD) :
    Sc.W3 m d Sc.r_v3 = shapeCast S1x256 (m ((d.tc : Thread nD τ).loc main_arg5)) shapeCasts_S256_S1x256 := by
  unfold Sc.W3
  after_results
  rw [W2_arg m d main_arg5 (by decide) (by decide)]
  rfl

/-- The second weight padded to 128 columns. -/
theorem W3_v4 (m : (ℓ : Loc nD τ sig) → Buf (Elt F) ℓ) (d : Dev nD) :
    Sc.W3 m d Sc.r_v4 = pad S256x128 ![0, 0] ![0, 118] ![0, 0] (m ((d.tc : Thread nD τ).loc main_arg6))
      (sitofp .f32 (constantI S_ 32 0#32) : FVec F S_ .f32) pads_S256x10_S256x128_000_01180 h_S_ := by
  unfold Sc.W3
  after_results
  rw [W2_arg m d main_arg6 (by decide) (by decide)]
  rfl

/-- The second bias padded to 128 entries, as one row. -/
theorem W3_v6 (m : (ℓ : Loc nD τ sig) → Buf (Elt F) ℓ) (d : Dev nD) :
    Sc.W3 m d Sc.r_v6 = shapeCast S1x128 (pad S128 ![0] ![118] ![0] (m ((d.tc : Thread nD τ).loc main_arg7))
      (sitofp .f32 (constantI S_ 32 0#32) : FVec F S_ .f32) pads_S10_S128_01180 h_S_) shapeCasts_S128_S1x128 := by
  unfold Sc.W3
  after_results
  rw [W2_arg m d main_arg7 (by decide) (by decide)]
  rfl

/-- The program's result: the first ten columns of the second call's array at those operands. -/
theorem outOf_eq (m : (ℓ : Loc nD τ sig) → Buf (Elt F) ℓ)
    (tcOut : Sc.C1 (F := F) → Sc.C2 (F := F) → Sc.C3 (F := F) → Sc.C4 (F := F) → Sc.C6 (F := F) → Sc.C7 (F := F)) (d : Dev nD) :
    Sc.outOf m tcOut d = extractStridedSlice S4096x10 ![0, 0]
      (tcOut (Sc.W3 m d Sc.r_v1) (Sc.W3 m d Sc.r_v2) (Sc.W3 m d Sc.r_v3) (Sc.W3 m d Sc.r_v4) (Sc.W3 m d Sc.r_v6))
      slices_S4096x128_S4096x10_0_0 := by
  unfold Sc.outOf Sc.W5
  rw [StableHlo.unary_result]
  unfold Sc.W4
  rw [Function.update_self]

/-- THE KERNEL'S RESULT IS THE SPECIFICATION, over a launch memory whose index words are row numbers. -/
theorem out_eq_spec' (m : (ℓ : Loc nD τ sig) → Buf (Elt Ideal) ℓ) (c : Dev nD)
    (hx : ∀ j, 0 ≤ (m ((c.tc : Thread nD τ).loc main_arg0) j).toInt ∧ (m ((c.tc : Thread nD τ).loc main_arg0) j).toInt ≤ 99999) :
    Sc.outOf (F := Ideal) m (TcRegion.tcOut (F := Ideal)) c
      = fun i => Spec.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) i := by
  rw [outOf_eq, W3_v1, W3_v2, W3_v3, W3_v4, W3_v6]
  exact TcValue.out_eq_spec _ _ _ _ _ _ _ _ _ _ _
    (PoolValue.pooledOf_ideal (m ((c.tc : Thread nD τ).loc main_arg0)) (m ((c.tc : Thread nD τ).loc main_arg1))
      (m ((c.tc : Thread nD τ).loc main_arg2)) (m ((c.tc : Thread nD τ).loc main_arg3)) hx)

end Cert.KernelIdeal.Bridge

end
-- ==== Proof.RefTerm.lean ====
/-
  The reference function's result as ONE composed pure term of the eight argument contents, in small named
  stages: the index plane cut from the index array, the gathered rows of one table (the clamp-free wrap of
  negative indices, the bounds mask, the gather, the masked select), the pooled mean over the fifty positions
  of the three concatenated gathers, and the two dense layers. Each stage is, operation by operation, the
  function the printed program applies at that value, so that the program's run closes against `result` by
  computation.
-/
import proofs.«207262_g39728447488703_cont_8to1_b_1934_40_alg».proof.ReferenceIdeal

noncomputable section

namespace Cert.ReferenceIdeal.RefTerm

open Cert.ReferenceIdeal Idealize.ShloMosaic Idealize.SL.Sem
open Facts₀ Facts

variable {F : FTy → Type} [FloatOps F] [Facts]

/-! ## One gather: `take(table, indices)` -/

/-- The index with a negative value wrapped once: `ix < 0 ? ix + 100000 : ix`. -/
def wrapped (ix : (⟨S4096x50, .i32⟩ : BufTy).Contents (Elt F)) : (⟨S4096x50, .i32⟩ : BufTy).Contents (Elt F) :=
  select
    (cmpi .slt ix (broadcastInDim S4096x50 ![] bcast_S_S4096x50 (constantI S_ 32 0#32)))
    (addi ix (broadcastInDim S4096x50 ![] bcast_S_S4096x50 (constantI S_ 32 100000#32)))
    ix

/-- The wrapped index as a column of one-element index vectors. -/
def idx3 (ix : (⟨S4096x50, .i32⟩ : BufTy).Contents (Elt F)) : (⟨S4096x50x1, .i32⟩ : BufTy).Contents (Elt F) :=
  broadcastInDim S4096x50x1 ![0, 1] bcast_S4096x50_S4096x50x1_0_1 (wrapped (F := F) ix)

/-- Whether the wrapped index lies in `[0, 99999]`, per position. -/
def inBounds (ix : (⟨S4096x50, .i32⟩ : BufTy).Contents (Elt F)) : (⟨S4096x50, .i1⟩ : BufTy).Contents (Elt F) :=
  Host.reduce IntOp.andi
    (andi
      (cmpi .sge (idx3 (F := F) ix) (broadcastInDim S4096x50x1 ![] bcast_S_S4096x50x1 (constantI S_ 32 0#32)))
      (cmpi .sle (idx3 (F := F) ix)
        (broadcastInDim S4096x50x1 ![0, 1, 2] bcast_S1x1x1_S4096x50x1_0_1_2
          (broadcastInDim S1x1x1 ![2] bcast_S1_S1x1x1_2 (constantI S1 32 99999#32)))))
    (constantI S_ 1 1#1) reducesTo_S4096x50x1_S4096x50_d2 h_S_

/-- The table's rows at the wrapped indices. -/
def gathered (tbl : (⟨S100000x128, .f32⟩ : BufTy).Contents (Elt F)) (ix : (⟨S4096x50, .i32⟩ : BufTy).Contents (Elt F)) :
    (⟨S4096x50x128, .f32⟩ : BufTy).Contents (Elt F) :=
  Host.gather gather_S100000x128_S4096x50x1_S4096x50x128_2_0_n_n_0_2_1128 tbl (idx3 (F := F) ix)

/-- `take(table, indices)`: the gathered rows where the index is in bounds, the fill value elsewhere. -/
def taken (tbl : (⟨S100000x128, .f32⟩ : BufTy).Contents (Elt F)) (ix : (⟨S4096x50, .i32⟩ : BufTy).Contents (Elt F)) :
    (⟨S4096x50x128, .f32⟩ : BufTy).Contents (Elt F) :=
  select
    (broadcastInDim S4096x50x128 ![0, 1] bcast_S4096x50_S4096x50x128_0_1 (inBounds (F := F) ix))
    (gathered tbl ix)
    (broadcastInDim S4096x50x128 ![] bcast_S_S4096x50x128 (constant S_ .f32 0x7FC00000#32))

/-! ## The index planes -/

/-- Index plane 0 of the index array. -/
def plane0 (x : (⟨S4x4096x50, .i32⟩ : BufTy).Contents (Elt F)) : (⟨S4096x50, .i32⟩ : BufTy).Contents (Elt F) :=
  fun i => (rfl : (⟨S1x4096x50, .i32⟩ : BufTy).elt = (⟨S4096x50, .i32⟩ : BufTy).elt) ▸
    shapeCast S4096x50 (extractStridedSlice S1x4096x50 ![0, 0, 0] x slices_S4x4096x50_S1x4096x50_0_0_0) shapeCasts_S1x4096x50_S4096x50 i

/-- Index plane 2 of the index array. -/
def plane2 (x : (⟨S4x4096x50, .i32⟩ : BufTy).Contents (Elt F)) : (⟨S4096x50, .i32⟩ : BufTy).Contents (Elt F) :=
  fun i => (rfl : (⟨S1x4096x50, .i32⟩ : BufTy).elt = (⟨S4096x50, .i32⟩ : BufTy).elt) ▸
    shapeCast S4096x50 (extractStridedSlice S1x4096x50 ![2, 0, 0] x slices_S4x4096x50_S1x4096x50_2_0_0) shapeCasts_S1x4096x50_S4096x50 i

/-- Index plane 3 of the index array. -/
def plane3 (x : (⟨S4x4096x50, .i32⟩ : BufTy).Contents (Elt F)) : (⟨S4096x50, .i32⟩ : BufTy).Contents (Elt F) :=
  fun i => (rfl : (⟨S1x4096x50, .i32⟩ : BufTy).elt = (⟨S4096x50, .i32⟩ : BufTy).elt) ▸
    shapeCast S4096x50 (extractStridedSlice S1x4096x50 ![3, 0, 0] x slices_S4x4096x50_S1x4096x50_3_0_0) shapeCasts_S1x4096x50_S4096x50 i

/-! ## The pooled mean -/

/-- The three gathers side by side on the last axis. -/
def catted (x : (⟨S4x4096x50, .i32⟩ : BufTy).Contents (Elt F))
    (t1 t2 t3 : (⟨S100000x128, .f32⟩ : BufTy).Contents (Elt F)) : (⟨S4096x50x384, .f32⟩ : BufTy).Contents (Elt F) :=
  concatenate S4096x50x384 2
    [⟨S4096x50x128, taken t1 (plane0 x)⟩, ⟨S4096x50x128, taken t2 (plane2 x)⟩, ⟨S4096x50x128, taken t3 (plane3 x)⟩]
    concatenates_S4096x50x128_S4096x50x128_S4096x50x128_S4096x50x384_d2

/-- The sum over the fifty positions, from zero. -/
def summed (x : (⟨S4x4096x50, .i32⟩ : BufTy).Contents (Elt F))
    (t1 t2 t3 : (⟨S100000x128, .f32⟩ : BufTy).Contents (Elt F)) : (⟨S4096x384, .f32⟩ : BufTy).Contents (Elt F) :=
  Host.reduceAdd (catted x t1 t2 t3) (constant S_ .f32 0x00000000#32) reducesTo_S4096x50x384_S4096x384_d1 h_S_

/-- The mean: the sum divided by the constant fifty. -/
def pooled (x : (⟨S4x4096x50, .i32⟩ : BufTy).Contents (Elt F))
    (t1 t2 t3 : (⟨S100000x128, .f32⟩ : BufTy).Contents (Elt F)) : (⟨S4096x384, .f32⟩ : BufTy).Contents (Elt F) :=
  Host.divf (summed x t1 t2 t3) (broadcastInDim S4096x384 ![] bcast_S_S4096x384 (constant S_ .f32 0x42480000#32))

/-! ## The two dense layers -/

/-- The hidden layer before the rectifier: `pooled · W1 + b1`. -/
def hiddenPre (x : (⟨S4x4096x50, .i32⟩ : BufTy).Contents (Elt F))
    (t1 t2 t3 : (⟨S100000x128, .f32⟩ : BufTy).Contents (Elt F))
    (W1 : (⟨S384x256, .f32⟩ : BufTy).Contents (Elt F)) (b1 : (⟨S256, .f32⟩ : BufTy).Contents (Elt F)) :
    (⟨S4096x256, .f32⟩ : BufTy).Contents (Elt F) :=
  addf (Host.dotGeneral dot_S4096x384_S384x256_S4096x256_1_0_0_1_n_n none (pooled x t1 t2 t3) W1)
    (broadcastInDim S4096x256 ![0, 1] bcast_S1x256_S4096x256_0_1 (broadcastInDim S1x256 ![1] bcast_S256_S1x256_1 b1))

/-- The hidden layer: the maximum with zero. -/
def hidden (x : (⟨S4x4096x50, .i32⟩ : BufTy).Contents (Elt F))
    (t1 t2 t3 : (⟨S100000x128, .f32⟩ : BufTy).Contents (Elt F))
    (W1 : (⟨S384x256, .f32⟩ : BufTy).Contents (Elt F)) (b1 : (⟨S256, .f32⟩ : BufTy).Contents (Elt F)) :
    (⟨S4096x256, .f32⟩ : BufTy).Contents (Elt F) :=
  maximumf (hiddenPre x t1 t2 t3 W1 b1) (broadcastInDim S4096x256 ![] bcast_S_S4096x256 (constant S_ .f32 0x00000000#32))

/-- The reference's result: `hidden · W2 + b2`. -/
def result (x : (⟨S4x4096x50, .i32⟩ : BufTy).Contents (Elt F))
    (t1 t2 t3 : (⟨S100000x128, .f32⟩ : BufTy).Contents (Elt F))
    (W1 : (⟨S384x256, .f32⟩ : BufTy).Contents (Elt F)) (b1 : (⟨S256, .f32⟩ : BufTy).Contents (Elt F))
    (W2 : (⟨S256x10, .f32⟩ : BufTy).Contents (Elt F)) (b2 : (⟨S10, .f32⟩ : BufTy).Contents (Elt F)) :
    (⟨S4096x10, .f32⟩ : BufTy).Contents (Elt F) :=
  addf (Host.dotGeneral dot_S4096x256_S256x10_S4096x10_1_0_0_1_n_n none (hidden x t1 t2 t3 W1 b1) W2)
    (broadcastInDim S4096x10 ![0, 1] bcast_S1x10_S4096x10_0_1 (broadcastInDim S1x10 ![1] bcast_S10_S1x10_1 b2))

end Cert.ReferenceIdeal.RefTerm

end
-- ==== Proof.RefRun.lean ====
/-
  The reference program's run, read back: its @main as ONE straight line of its ninety-two host operations — the
  three calls of the gather function written out at their call sites over each call's own buffers, the select of
  the index wrap inside them likewise — and, from any memory, every weakly fair execution terminating with the
  result buffer at the composed pure term `RefTerm.result` of the eight argument contents and the arguments
  unchanged.
-/
import proofs.«207262_g39728447488703_cont_8to1_b_1934_40_alg».proof.Proof.RefTerm
import proofs.«207262_g39728447488703_cont_8to1_b_1934_40_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- @main's operations in order, the callees' written out where they are called. -/
abbrev ops : List (HloOp τ sig (Elt F)) :=
  [
    unary main_arg0 main_v0 ((extractStridedSlice S1x4096x50 ![0, 0, 0] · slices_S4x4096x50_S1x4096x50_0_0_0) : (⟨S4x4096x50, .i32⟩ : BufTy).Contents (Elt F) → (⟨S1x4096x50, .i32⟩ : BufTy).Contents (Elt F)),
    reshape main_v0 main_v1 rfl shapeCasts_S1x4096x50_S4096x50,
    TRef.nullary main_call0.c (constantI S_ 32 0#32),
    TRef.unary main_call0.c main_call0.v0 (broadcastInDim S4096x50 ![] bcast_S_S4096x50),
    TRef.binary (.of main_v1 : TRef sig ⟨S4096x50, .i32⟩) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_v1 : TRef sig ⟨S4096x50, .i32⟩) main_call0.v2 main_call0.v3 addi,
    TRef.ternary main_call0.v1 main_call0.v3 (.of main_v1 : TRef sig ⟨S4096x50, .i32⟩) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1 : TRef sig ⟨S100000x128, .f32⟩) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    unary main_arg0 main_v3 ((extractStridedSlice S1x4096x50 ![2, 0, 0] · slices_S4x4096x50_S1x4096x50_2_0_0) : (⟨S4x4096x50, .i32⟩ : BufTy).Contents (Elt F) → (⟨S1x4096x50, .i32⟩ : BufTy).Contents (Elt F)),
    reshape main_v3 main_v4 rfl shapeCasts_S1x4096x50_S4096x50,
    TRef.nullary main_call1.c (constantI S_ 32 0#32),
    TRef.unary main_call1.c main_call1.v0 (broadcastInDim S4096x50 ![] bcast_S_S4096x50),
    TRef.binary (.of main_v4 : TRef sig ⟨S4096x50, .i32⟩) main_call1.v0 main_call1.v1 (cmpi .slt),
    TRef.nullary main_call1.c_0 (constantI S_ 32 100000#32),
    TRef.unary main_call1.c_0 main_call1.v2 (broadcastInDim S4096x50 ![] bcast_S_S4096x50),
    TRef.binary (.of main_v4 : TRef sig ⟨S4096x50, .i32⟩) main_call1.v2 main_call1.v3 addi,
    TRef.ternary main_call1.v1 main_call1.v3 (.of main_v4 : TRef sig ⟨S4096x50, .i32⟩) main_call1.call0.v0 select,
    TRef.unary main_call1.call0.v0 main_call1.v5 (broadcastInDim S4096x50x1 ![0, 1] bcast_S4096x50_S4096x50x1_0_1),
    TRef.nullary main_call1.c_1 (constantI S1 32 99999#32),
    TRef.nullary main_call1.c_2 (constantI S_ 32 0#32),
    TRef.unary main_call1.c_2 main_call1.v6 (broadcastInDim S4096x50x1 ![] bcast_S_S4096x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x50x1 ![0, 1, 2] bcast_S1x1x1_S4096x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x50x1_S4096x50_d2 h_S_),
    TRef.binary (.of main_arg2 : TRef sig ⟨S100000x128, .f32⟩) main_call1.v5 main_call1.v13 (fun x i => Host.gather gather_S100000x128_S4096x50x1_S4096x50x128_2_0_n_n_0_2_1128 x i),
    TRef.unary main_call1.v12 main_call1.v14 (broadcastInDim S4096x50x128 ![0, 1] bcast_S4096x50_S4096x50x128_0_1),
    TRef.nullary main_call1.cst (constant S_ .f32 0x7FC00000#32),
    TRef.unary main_call1.cst main_call1.v15 (broadcastInDim S4096x50x128 ![] bcast_S_S4096x50x128),
    TRef.ternary main_call1.v14 main_call1.v13 main_call1.v15 main_call1.v16 select,
    unary main_arg0 main_v6 ((extractStridedSlice S1x4096x50 ![3, 0, 0] · slices_S4x4096x50_S1x4096x50_3_0_0) : (⟨S4x4096x50, .i32⟩ : BufTy).Contents (Elt F) → (⟨S1x4096x50, .i32⟩ : BufTy).Contents (Elt F)),
    reshape main_v6 main_v7 rfl shapeCasts_S1x4096x50_S4096x50,
    TRef.nullary main_call2.c (constantI S_ 32 0#32),
    TRef.unary main_call2.c main_call2.v0 (broadcastInDim S4096x50 ![] bcast_S_S4096x50),
    TRef.binary (.of main_v7 : TRef sig ⟨S4096x50, .i32⟩) main_call2.v0 main_call2.v1 (cmpi .slt),
    TRef.nullary main_call2.c_0 (constantI S_ 32 100000#32),
    TRef.unary main_call2.c_0 main_call2.v2 (broadcastInDim S4096x50 ![] bcast_S_S4096x50),
    TRef.binary (.of main_v7 : TRef sig ⟨S4096x50, .i32⟩) main_call2.v2 main_call2.v3 addi,
    TRef.ternary main_call2.v1 main_call2.v3 (.of main_v7 : TRef sig ⟨S4096x50, .i32⟩) main_call2.call0.v0 select,
    TRef.unary main_call2.call0.v0 main_call2.v5 (broadcastInDim S4096x50x1 ![0, 1] bcast_S4096x50_S4096x50x1_0_1),
    TRef.nullary main_call2.c_1 (constantI S1 32 99999#32),
    TRef.nullary main_call2.c_2 (constantI S_ 32 0#32),
    TRef.unary main_call2.c_2 main_call2.v6 (broadcastInDim S4096x50x1 ![] bcast_S_S4096x50x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4096x50x1 ![0, 1, 2] bcast_S1x1x1_S4096x50x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x50x1_S4096x50_d2 h_S_),
    TRef.binary (.of main_arg3 : TRef sig ⟨S100000x128, .f32⟩) main_call2.v5 main_call2.v13 (fun x i => Host.gather gather_S100000x128_S4096x50x1_S4096x50x128_2_0_n_n_0_2_1128 x i),
    TRef.unary main_call2.v12 main_call2.v14 (broadcastInDim S4096x50x128 ![0, 1] bcast_S4096x50_S4096x50x128_0_1),
    TRef.nullary main_call2.cst (constant S_ .f32 0x7FC00000#32),
    TRef.unary main_call2.cst main_call2.v15 (broadcastInDim S4096x50x128 ![] bcast_S_S4096x50x128),
    TRef.ternary main_call2.v14 main_call2.v13 main_call2.v15 main_call2.v16 select,
    nary ![main_v2, main_v5, main_v8] main_v9 (fun u => concatenate S4096x50x384 2 [⟨S4096x50x128, u 0⟩, ⟨S4096x50x128, u 1⟩, ⟨S4096x50x128, u 2⟩] concatenates_S4096x50x128_S4096x50x128_S4096x50x128_S4096x50x384_d2),
    nullary main_cst (constant S_ .f32 0x00000000#32),
    binary main_v9 main_cst main_v10 ((fun x v => Host.reduceAdd x v reducesTo_S4096x50x384_S4096x384_d1 h_S_) : (⟨S4096x50x384, .f32⟩ : BufTy).Contents (Elt F) → (⟨S_, .f32⟩ : BufTy).Contents (Elt F) → (⟨S4096x384, .f32⟩ : BufTy).Contents (Elt F)),
    nullary main_cst_0 (constant S_ .f32 0x42480000#32),
    unary main_cst_0 main_v11 (broadcastInDim S4096x384 ![] bcast_S_S4096x384 : (⟨S_, .f32⟩ : BufTy).Contents (Elt F) → (⟨S4096x384, .f32⟩ : BufTy).Contents (Elt F)),
    binary main_v10 main_v11 main_v12 (Host.divf : (⟨S4096x384, .f32⟩ : BufTy).Contents (Elt F) → (⟨S4096x384, .f32⟩ : BufTy).Contents (Elt F) → (⟨S4096x384, .f32⟩ : BufTy).Contents (Elt F)),
    binary main_v12 main_arg4 main_v13 ((fun l r => Host.dotGeneral dot_S4096x384_S384x256_S4096x256_1_0_0_1_n_n none l r) : (⟨S4096x384, .f32⟩ : BufTy).Contents (Elt F) → (⟨S384x256, .f32⟩ : BufTy).Contents (Elt F) → (⟨S4096x256, .f32⟩ : BufTy).Contents (Elt F)),
    unary main_arg5 main_v14 (broadcastInDim S1x256 ![1] bcast_S256_S1x256_1 : (⟨S256, .f32⟩ : BufTy).Contents (Elt F) → (⟨S1x256, .f32⟩ : BufTy).Contents (Elt F)),
    unary main_v14 main_v15 (broadcastInDim S4096x256 ![0, 1] bcast_S1x256_S4096x256_0_1 : (⟨S1x256, .f32⟩ : BufTy).Contents (Elt F) → (⟨S4096x256, .f32⟩ : BufTy).Contents (Elt F)),
    binary main_v13 main_v15 main_v16 (addf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    unary main_cst_1 main_v17 (broadcastInDim S4096x256 ![] bcast_S_S4096x256 : (⟨S_, .f32⟩ : BufTy).Contents (Elt F) → (⟨S4096x256, .f32⟩ : BufTy).Contents (Elt F)),
    binary main_v16 main_v17 main_v18 (maximumf : (⟨S4096x256, .f32⟩ : BufTy).Contents (Elt F) → (⟨S4096x256, .f32⟩ : BufTy).Contents (Elt F) → (⟨S4096x256, .f32⟩ : BufTy).Contents (Elt F)),
    binary main_v18 main_arg6 main_v19 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg7 main_v20 (broadcastInDim S1x10 ![1] bcast_S10_S1x10_1 : (⟨S10, .f32⟩ : BufTy).Contents (Elt F) → (⟨S1x10, .f32⟩ : BufTy).Contents (Elt F)),
    unary main_v20 main_v21 (broadcastInDim S4096x10 ![0, 1] bcast_S1x10_S4096x10_0_1 : (⟨S1x10, .f32⟩ : BufTy).Contents (Elt F) → (⟨S4096x10, .f32⟩ : BufTy).Contents (Elt F)),
    binary main_v19 main_v21 main_v22 (addf : (⟨S4096x10, .f32⟩ : BufTy).Contents (Elt F) → (⟨S4096x10, .f32⟩ : BufTy).Contents (Elt F) → (⟨S4096x10, .f32⟩ : BufTy).Contents (Elt F)) ]

set_option maxRecDepth 16384 in
set_option maxHeartbeats 2000000 in
/-- @main is that straight line: sequencing in the free monad grafts by computation, the callees' bodies unfold at
    their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨
    unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nary_bufs_sub .., nullary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub ..⟩

/-- The first seventy-five operations: the three index planes and the three gathers. -/
abbrev preOps : List (HloOp τ sig (Elt F)) :=
  [
    unary main_arg0 main_v0 ((extractStridedSlice S1x4096x50 ![0, 0, 0] · slices_S4x4096x50_S1x4096x50_0_0_0) : (⟨S4x4096x50, .i32⟩ : BufTy).Contents (Elt F) → (⟨S1x4096x50, .i32⟩ : BufTy).Contents (Elt F)),
    reshape main_v0 main_v1 rfl shapeCasts_S1x4096x50_S4096x50,
    TRef.nullary main_call0.c (constantI S_ 32 0#32),
    TRef.unary main_call0.c main_call0.v0 (broadcastInDim S4096x50 ![] bcast_S_S4096x50),
    TRef.binary (.of main_v1 : TRef sig ⟨S4096x50, .i32⟩) main_call0.v0 main_call0.v1 (cmpi .slt),
    TRef.nullary main_call0.c_0 (constantI S_ 32 100000#32),
    TRef.unary main_call0.c_0 main_call0.v2 (broadcastInDim S4096x50 ![] bcast_S_S4096x50),
    TRef.binary (.of main_v1 : TRef sig ⟨S4096x50, .i32⟩) main_call0.v2 main_call0.v3 addi,
    TRef.ternary main_call0.v1 main_call0.v3 (.of main_v1 : TRef sig ⟨S4096x50, .i32⟩) main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary (.of main_arg1 : TRef sig ⟨S100000x128, .f32⟩) main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    unary main_arg0 main_v3 ((extractStridedSlice S1x4096x50 ![2, 0, 0] · slices_S4x4096x50_S1x4096x50_2_0_0) : (⟨S4x4096x50, .i32⟩ : BufTy).Contents (Elt F) → (⟨S1x4096x50, .i32⟩ : BufTy).Contents (Elt F)),
    reshape main_v3 main_v4 rfl shapeCasts_S1x4096x50_S4096x50,
    TRef.nullary main_call1.c (constantI S_ 32 0#32),
    TRef.unary main_call1.c main_call1.v0 (broadcastInDim S4096x50 ![] bcast_S_S4096x50),
    TRef.binary (.of main_v4 : TRef sig ⟨S4096x50, .i32⟩) main_call1.v0 main_call1.v1 (cmpi .slt),
    TRef.nullary main_call1.c_0 (constantI S_ 32 100000#32),
    TRef.unary main_call1.c_0 main_call1.v2 (broadcastInDim S4096x50 ![] bcast_S_S4096x50),
    TRef.binary (.of main_v4 : TRef sig ⟨S4096x50, .i32⟩) main_call1.v2 main_call1.v3 addi,
    TRef.ternary main_call1.v1 main_call1.v3 (.of main_v4 : TRef sig ⟨S4096x50, .i32⟩) main_call1.call0.v0 select,
    TRef.unary main_call1.call0.v0 main_call1.v5 (broadcastInDim S4096x50x1 ![0, 1] bcast_S4096x50_S4096x50x1_0_1),
    TRef.nullary main_call1.c_1 (constantI S1 32 99999#32),
    TRef.nullary main_call1.c_2 (constantI S_ 32 0#32),
    TRef.unary main_call1.c_2 main_call1.v6 (broadcastInDim S4096x50x1 ![] bcast_S_S4096x50x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S4096x50x1 ![0, 1, 2] bcast_S1x1x1_S4096x50x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x50x1_S4096x50_d2 h_S_),
    TRef.binary (.of main_arg2 : TRef sig ⟨S100000x128, .f32⟩) main_call1.v5 main_call1.v13 (fun x i => Host.gather gather_S100000x128_S4096x50x1_S4096x50x128_2_0_n_n_0_2_1128 x i),
    TRef.unary main_call1.v12 main_call1.v14 (broadcastInDim S4096x50x128 ![0, 1] bcast_S4096x50_S4096x50x128_0_1),
    TRef.nullary main_call1.cst (constant S_ .f32 0x7FC00000#32),
    TRef.unary main_call1.cst main_call1.v15 (broadcastInDim S4096x50x128 ![] bcast_S_S4096x50x128),
    TRef.ternary main_call1.v14 main_call1.v13 main_call1.v15 main_call1.v16 select,
    unary main_arg0 main_v6 ((extractStridedSlice S1x4096x50 ![3, 0, 0] · slices_S4x4096x50_S1x4096x50_3_0_0) : (⟨S4x4096x50, .i32⟩ : BufTy).Contents (Elt F) → (⟨S1x4096x50, .i32⟩ : BufTy).Contents (Elt F)),
    reshape main_v6 main_v7 rfl shapeCasts_S1x4096x50_S4096x50,
    TRef.nullary main_call2.c (constantI S_ 32 0#32),
    TRef.unary main_call2.c main_call2.v0 (broadcastInDim S4096x50 ![] bcast_S_S4096x50),
    TRef.binary (.of main_v7 : TRef sig ⟨S4096x50, .i32⟩) main_call2.v0 main_call2.v1 (cmpi .slt),
    TRef.nullary main_call2.c_0 (constantI S_ 32 100000#32),
    TRef.unary main_call2.c_0 main_call2.v2 (broadcastInDim S4096x50 ![] bcast_S_S4096x50),
    TRef.binary (.of main_v7 : TRef sig ⟨S4096x50, .i32⟩) main_call2.v2 main_call2.v3 addi,
    TRef.ternary main_call2.v1 main_call2.v3 (.of main_v7 : TRef sig ⟨S4096x50, .i32⟩) main_call2.call0.v0 select,
    TRef.unary main_call2.call0.v0 main_call2.v5 (broadcastInDim S4096x50x1 ![0, 1] bcast_S4096x50_S4096x50x1_0_1),
    TRef.nullary main_call2.c_1 (constantI S1 32 99999#32),
    TRef.nullary main_call2.c_2 (constantI S_ 32 0#32),
    TRef.unary main_call2.c_2 main_call2.v6 (broadcastInDim S4096x50x1 ![] bcast_S_S4096x50x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S4096x50x1 ![0, 1, 2] bcast_S1x1x1_S4096x50x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x50x1_S4096x50_d2 h_S_),
    TRef.binary (.of main_arg3 : TRef sig ⟨S100000x128, .f32⟩) main_call2.v5 main_call2.v13 (fun x i => Host.gather gather_S100000x128_S4096x50x1_S4096x50x128_2_0_n_n_0_2_1128 x i),
    TRef.unary main_call2.v12 main_call2.v14 (broadcastInDim S4096x50x128 ![0, 1] bcast_S4096x50_S4096x50x128_0_1),
    TRef.nullary main_call2.cst (constant S_ .f32 0x7FC00000#32),
    TRef.unary main_call2.cst main_call2.v15 (broadcastInDim S4096x50x128 ![] bcast_S_S4096x50x128),
    TRef.ternary main_call2.v14 main_call2.v13 main_call2.v15 main_call2.v16 select ]

/-- The last seventeen: the concatenation, the pooled mean and the two dense layers. -/
abbrev tailOps : List (HloOp τ sig (Elt F)) :=
  [
    nary ![main_v2, main_v5, main_v8] main_v9 (fun u => concatenate S4096x50x384 2 [⟨S4096x50x128, u 0⟩, ⟨S4096x50x128, u 1⟩, ⟨S4096x50x128, u 2⟩] concatenates_S4096x50x128_S4096x50x128_S4096x50x128_S4096x50x384_d2),
    nullary main_cst (constant S_ .f32 0x00000000#32),
    binary main_v9 main_cst main_v10 ((fun x v => Host.reduceAdd x v reducesTo_S4096x50x384_S4096x384_d1 h_S_) : (⟨S4096x50x384, .f32⟩ : BufTy).Contents (Elt F) → (⟨S_, .f32⟩ : BufTy).Contents (Elt F) → (⟨S4096x384, .f32⟩ : BufTy).Contents (Elt F)),
    nullary main_cst_0 (constant S_ .f32 0x42480000#32),
    unary main_cst_0 main_v11 (broadcastInDim S4096x384 ![] bcast_S_S4096x384 : (⟨S_, .f32⟩ : BufTy).Contents (Elt F) → (⟨S4096x384, .f32⟩ : BufTy).Contents (Elt F)),
    binary main_v10 main_v11 main_v12 (Host.divf : (⟨S4096x384, .f32⟩ : BufTy).Contents (Elt F) → (⟨S4096x384, .f32⟩ : BufTy).Contents (Elt F) → (⟨S4096x384, .f32⟩ : BufTy).Contents (Elt F)),
    binary main_v12 main_arg4 main_v13 ((fun l r => Host.dotGeneral dot_S4096x384_S384x256_S4096x256_1_0_0_1_n_n none l r) : (⟨S4096x384, .f32⟩ : BufTy).Contents (Elt F) → (⟨S384x256, .f32⟩ : BufTy).Contents (Elt F) → (⟨S4096x256, .f32⟩ : BufTy).Contents (Elt F)),
    unary main_arg5 main_v14 (broadcastInDim S1x256 ![1] bcast_S256_S1x256_1 : (⟨S256, .f32⟩ : BufTy).Contents (Elt F) → (⟨S1x256, .f32⟩ : BufTy).Contents (Elt F)),
    unary main_v14 main_v15 (broadcastInDim S4096x256 ![0, 1] bcast_S1x256_S4096x256_0_1 : (⟨S1x256, .f32⟩ : BufTy).Contents (Elt F) → (⟨S4096x256, .f32⟩ : BufTy).Contents (Elt F)),
    binary main_v13 main_v15 main_v16 (addf : (⟨S4096x256, .f32⟩ : BufTy).Contents (Elt F) → (⟨S4096x256, .f32⟩ : BufTy).Contents (Elt F) → (⟨S4096x256, .f32⟩ : BufTy).Contents (Elt F)),
    nullary main_cst_1 (constant S_ .f32 0x00000000#32),
    unary main_cst_1 main_v17 (broadcastInDim S4096x256 ![] bcast_S_S4096x256 : (⟨S_, .f32⟩ : BufTy).Contents (Elt F) → (⟨S4096x256, .f32⟩ : BufTy).Contents (Elt F)),
    binary main_v16 main_v17 main_v18 (maximumf : (⟨S4096x256, .f32⟩ : BufTy).Contents (Elt F) → (⟨S4096x256, .f32⟩ : BufTy).Contents (Elt F) → (⟨S4096x256, .f32⟩ : BufTy).Contents (Elt F)),
    binary main_v18 main_arg6 main_v19 ((fun l r => Host.dotGeneral dot_S4096x256_S256x10_S4096x10_1_0_0_1_n_n none l r) : (⟨S4096x256, .f32⟩ : BufTy).Contents (Elt F) → (⟨S256x10, .f32⟩ : BufTy).Contents (Elt F) → (⟨S4096x10, .f32⟩ : BufTy).Contents (Elt F)),
    unary main_arg7 main_v20 (broadcastInDim S1x10 ![1] bcast_S10_S1x10_1 : (⟨S10, .f32⟩ : BufTy).Contents (Elt F) → (⟨S1x10, .f32⟩ : BufTy).Contents (Elt F)),
    unary main_v20 main_v21 (broadcastInDim S4096x10 ![0, 1] bcast_S1x10_S4096x10_0_1 : (⟨S1x10, .f32⟩ : BufTy).Contents (Elt F) → (⟨S4096x10, .f32⟩ : BufTy).Contents (Elt F)),
    binary main_v19 main_v21 main_v22 (addf : (⟨S4096x10, .f32⟩ : BufTy).Contents (Elt F) → (⟨S4096x10, .f32⟩ : BufTy).Contents (Elt F) → (⟨S4096x10, .f32⟩ : BufTy).Contents (Elt F)) ]

set_option maxRecDepth 16384 in
/-- The fold over the whole line is the fold over the last seventeen after the fold over the first seventy-five. -/
theorem ops_split (V : Valuation τ sig (Elt F)) : after ops V = after tailOps (after preOps V) := rfl
/-- A three-operand operation's result with each operand's contents AT ITS OWN REFERENCE. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

attribute [local irreducible] Host.reduce Host.gather Host.reduceAdd concatenate in
set_option maxRecDepth 16384 in
set_option maxHeartbeats 2000000 in
/-- Gather 0's result buffer after the first seventy-five operations: the operations' results rewritten in one pass
    (each at its own buffer its function's value, elsewhere what was there), the typed references' transports dropped. -/
theorem pre_main_v2 (V : Valuation τ sig (Elt F)) :
    after preOps V (main_v2 : DevRef τ sig)
      = RefTerm.taken (V (main_arg1 : DevRef τ sig)) (RefTerm.plane0 (V (main_arg0 : DevRef τ sig))) := by
  simp (disch := decide) only [after_cons, after_nil,
    nullary_result', unary_result', binary_result', ternary_result', reshape_result',
    nullary_result_ne', unary_result_ne', binary_result_ne', ternary_result_ne', reshape_result_ne', cast_eq, RefTerm.taken, RefTerm.gathered, RefTerm.inBounds, RefTerm.idx3, RefTerm.wrapped, RefTerm.plane0, RefTerm.plane2, RefTerm.plane3]
  rfl

attribute [local irreducible] Host.reduce Host.gather Host.reduceAdd concatenate in
set_option maxRecDepth 16384 in
set_option maxHeartbeats 2000000 in
/-- Gather 1's result buffer after the first seventy-five operations: the operations' results rewritten in one pass
    (each at its own buffer its function's value, elsewhere what was there), the typed references' transports dropped. -/
theorem pre_main_v5 (V : Valuation τ sig (Elt F)) :
    after preOps V (main_v5 : DevRef τ sig)
      = RefTerm.taken (V (main_arg2 : DevRef τ sig)) (RefTerm.plane2 (V (main_arg0 : DevRef τ sig))) := by
  simp (disch := decide) only [after_cons, after_nil,
    nullary_result', unary_result', binary_result', ternary_result', reshape_result',
    nullary_result_ne', unary_result_ne', binary_result_ne', ternary_result_ne', reshape_result_ne', cast_eq, RefTerm.taken, RefTerm.gathered, RefTerm.inBounds, RefTerm.idx3, RefTerm.wrapped, RefTerm.plane0, RefTerm.plane2, RefTerm.plane3]
  rfl

attribute [local irreducible] Host.reduce Host.gather Host.reduceAdd concatenate in
set_option maxRecDepth 16384 in
set_option maxHeartbeats 2000000 in
/-- Gather 2's result buffer after the first seventy-five operations: the operations' results rewritten in one pass
    (each at its own buffer its function's value, elsewhere what was there), the typed references' transports dropped. -/
theorem pre_main_v8 (V : Valuation τ sig (Elt F)) :
    after preOps V (main_v8 : DevRef τ sig)
      = RefTerm.taken (V (main_arg3 : DevRef τ sig)) (RefTerm.plane3 (V (main_arg0 : DevRef τ sig))) := by
  simp (disch := decide) only [after_cons, after_nil,
    nullary_result', unary_result', binary_result', ternary_result', reshape_result',
    nullary_result_ne', unary_result_ne', binary_result_ne', ternary_result_ne', reshape_result_ne', cast_eq, RefTerm.taken, RefTerm.gathered, RefTerm.inBounds, RefTerm.idx3, RefTerm.wrapped, RefTerm.plane0, RefTerm.plane2, RefTerm.plane3]
  rfl

set_option maxRecDepth 16384 in
set_option maxHeartbeats 2000000 in
theorem pre_main_arg4 (V : Valuation τ sig (Elt F)) :
    after preOps V (main_arg4 : DevRef τ sig) = (V (main_arg4 : DevRef τ sig)) := by
  simp (disch := decide) only [after_cons, after_nil,
    nullary_result', unary_result', binary_result', ternary_result', reshape_result',
    nullary_result_ne', unary_result_ne', binary_result_ne', ternary_result_ne', reshape_result_ne']

set_option maxRecDepth 16384 in
set_option maxHeartbeats 2000000 in
theorem pre_main_arg5 (V : Valuation τ sig (Elt F)) :
    after preOps V (main_arg5 : DevRef τ sig) = (V (main_arg5 : DevRef τ sig)) := by
  simp (disch := decide) only [after_cons, after_nil,
    nullary_result', unary_result', binary_result', ternary_result', reshape_result',
    nullary_result_ne', unary_result_ne', binary_result_ne', ternary_result_ne', reshape_result_ne']

set_option maxRecDepth 16384 in
set_option maxHeartbeats 2000000 in
theorem pre_main_arg6 (V : Valuation τ sig (Elt F)) :
    after preOps V (main_arg6 : DevRef τ sig) = (V (main_arg6 : DevRef τ sig)) := by
  simp (disch := decide) only [after_cons, after_nil,
    nullary_result', unary_result', binary_result', ternary_result', reshape_result',
    nullary_result_ne', unary_result_ne', binary_result_ne', ternary_result_ne', reshape_result_ne']

set_option maxRecDepth 16384 in
set_option maxHeartbeats 2000000 in
theorem pre_main_arg7 (V : Valuation τ sig (Elt F)) :
    after preOps V (main_arg7 : DevRef τ sig) = (V (main_arg7 : DevRef τ sig)) := by
  simp (disch := decide) only [after_cons, after_nil,
    nullary_result', unary_result', binary_result', ternary_result', reshape_result',
    nullary_result_ne', unary_result_ne', binary_result_ne', ternary_result_ne', reshape_result_ne']

/-- The pooled mean and the two dense layers, as a function of the three gathers' values. -/
def dense (g1 g2 g3 : (⟨S4096x50x128, .f32⟩ : BufTy).Contents (Elt F))
    (W1 : (⟨S384x256, .f32⟩ : BufTy).Contents (Elt F)) (b1 : (⟨S256, .f32⟩ : BufTy).Contents (Elt F)) (W2 : (⟨S256x10, .f32⟩ : BufTy).Contents (Elt F)) (b2 : (⟨S10, .f32⟩ : BufTy).Contents (Elt F)) : (⟨S4096x10, .f32⟩ : BufTy).Contents (Elt F) :=
  addf (Host.dotGeneral dot_S4096x256_S256x10_S4096x10_1_0_0_1_n_n none
      (maximumf
        (addf (Host.dotGeneral dot_S4096x384_S384x256_S4096x256_1_0_0_1_n_n none
            (Host.divf
              (Host.reduceAdd
                (concatenate S4096x50x384 2 [⟨S4096x50x128, g1⟩, ⟨S4096x50x128, g2⟩, ⟨S4096x50x128, g3⟩]
                  concatenates_S4096x50x128_S4096x50x128_S4096x50x128_S4096x50x384_d2)
                (constant S_ .f32 0x00000000#32) reducesTo_S4096x50x384_S4096x384_d1 h_S_)
              (broadcastInDim S4096x384 ![] bcast_S_S4096x384 (constant S_ .f32 0x42480000#32))) W1)
          (broadcastInDim S4096x256 ![0, 1] bcast_S1x256_S4096x256_0_1 (broadcastInDim S1x256 ![1] bcast_S256_S1x256_1 b1)))
        (broadcastInDim S4096x256 ![] bcast_S_S4096x256 (constant S_ .f32 0x00000000#32))) W2)
    (broadcastInDim S4096x10 ![0, 1] bcast_S1x10_S4096x10_0_1 (broadcastInDim S1x10 ![1] bcast_S10_S1x10_1 b2))

/-- The composed term is `dense` of the three gathers. -/
theorem result_dense (x : (⟨S4x4096x50, .i32⟩ : BufTy).Contents (Elt F)) (t1 t2 t3 : (⟨S100000x128, .f32⟩ : BufTy).Contents (Elt F))
    (W1 : (⟨S384x256, .f32⟩ : BufTy).Contents (Elt F)) (b1 : (⟨S256, .f32⟩ : BufTy).Contents (Elt F)) (W2 : (⟨S256x10, .f32⟩ : BufTy).Contents (Elt F)) (b2 : (⟨S10, .f32⟩ : BufTy).Contents (Elt F)) :
    RefTerm.result x t1 t2 t3 W1 b1 W2 b2
      = dense (RefTerm.taken t1 (RefTerm.plane0 x)) (RefTerm.taken t2 (RefTerm.plane2 x)) (RefTerm.taken t3 (RefTerm.plane3 x)) W1 b1 W2 b2 := rfl

attribute [local irreducible] Host.reduce Host.gather Host.reduceAdd concatenate in
set_option maxRecDepth 16384 in
set_option maxHeartbeats 2000000 in
/-- The result buffer after the last seventeen operations, from any contents. -/
theorem tail_main_v22 (W : Valuation τ sig (Elt F)) :
    after tailOps W (main_v22 : DevRef τ sig)
      = dense (W (main_v2 : DevRef τ sig)) (W (main_v5 : DevRef τ sig)) (W (main_v8 : DevRef τ sig))
          (W (main_arg4 : DevRef τ sig)) (W (main_arg5 : DevRef τ sig)) (W (main_arg6 : DevRef τ sig)) (W (main_arg7 : DevRef τ sig)) := by
  simp (disch := decide) only [after_cons, after_nil,
    nullary_result', unary_result', binary_result', nary3_result',
    nullary_result_ne', unary_result_ne', binary_result_ne', nary_result_ne']
  rfl

set_option maxRecDepth 16384 in
set_option maxHeartbeats 2000000 in
/-- The fold at the result buffer is the composed term. -/
theorem result_eq (V : Valuation τ sig (Elt F)) :
    after ops V (main_v22 : DevRef τ sig)
      = RefTerm.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  rw [ops_split, tail_main_v22, pre_main_v2, pre_main_v5, pre_main_v8, pre_main_arg4, pre_main_arg5, pre_main_arg6, pre_main_arg7, result_dense]

set_option maxRecDepth 16384 in
set_option maxHeartbeats 2000000 in
theorem main_arg0_eq (V : Valuation τ sig (Elt F)) :
    after ops V (main_arg0 : DevRef τ sig) = (V (main_arg0 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 2000000 in
theorem main_arg1_eq (V : Valuation τ sig (Elt F)) :
    after ops V (main_arg1 : DevRef τ sig) = (V (main_arg1 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 2000000 in
theorem main_arg2_eq (V : Valuation τ sig (Elt F)) :
    after ops V (main_arg2 : DevRef τ sig) = (V (main_arg2 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 2000000 in
theorem main_arg3_eq (V : Valuation τ sig (Elt F)) :
    after ops V (main_arg3 : DevRef τ sig) = (V (main_arg3 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 2000000 in
theorem main_arg4_eq (V : Valuation τ sig (Elt F)) :
    after ops V (main_arg4 : DevRef τ sig) = (V (main_arg4 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 2000000 in
theorem main_arg5_eq (V : Valuation τ sig (Elt F)) :
    after ops V (main_arg5 : DevRef τ sig) = (V (main_arg5 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 2000000 in
theorem main_arg6_eq (V : Valuation τ sig (Elt F)) :
    after ops V (main_arg6 : DevRef τ sig) = (V (main_arg6 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 2000000 in
theorem main_arg7_eq (V : Valuation τ sig (Elt F)) :
    after ops V (main_arg7 : DevRef τ sig) = (V (main_arg7 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = RefTerm.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v22).trans (result_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _)⟩)
    (run_seq scopedRefs_eq scopedSems_eq defs main (fun _ => ops) main_eq (fun _ => ops_sub) m ρ)

end Cert.ReferenceIdeal.RefRun

end
-- ==== Proof.RefValue.lean ====
/-
  The reference's result, read index by index at the ideal floats, is the specification's function of the
  arguments, under the one hypothesis that every word of the index array is a row number: its signed value
  lies in [0, 99999].

  Stage by stage.  An index plane is a slice of the index array with its unit axis dropped: plane k at (r, l)
  is x[k, r, l].  One take of a table at a plane: a word that is not negative is not wrapped by 100000; the
  bounds mask (0 ≤ w and w ≤ 99999, "and"-reduced over a unit axis from "true") is "true" everywhere, so the
  select keeps the gathered row and never the fill value; the gather at (r, l, e) reads the table at the row
  the start index names, read signed and clamped into [0, 99999], column e.  The three takes laid side by side
  put table t at columns 128 t + e.  The sum over the fifty positions starts from the zero word, which denotes
  0; dividing by the word of 50.0 is multiplying by the real 1/50.  A dot_general with one contracted axis is
  the sum over that axis of the products; a bias vector broadcast along the rows reads the vector at the
  column; the rectifier is the maximum with 0.  The sum over the 384 columns of the first layer splits into
  the three blocks of 128, which is the specification's grouping.
-/
import proofs.«207262_g39728447488703_cont_8to1_b_1934_40_alg».proof.Proof.Spec
import proofs.«207262_g39728447488703_cont_8to1_b_1934_40_alg».proof.Proof.RefTerm
import Idealize.ShloMosaic.PureOps.Ideal.Laws
import Idealize.ShloMosaic.Lib.ValueIdx
import Idealize.ShloMosaic.Lib.ValueLayout
import Idealize.ShloMosaic.Lib.IdealHost
import Idealize.ShloMosaic.Lib.StackMember

noncomputable section

open scoped BigOperators

namespace Cert.ReferenceIdeal.RefValue

open Cert.ReferenceIdeal Idealize.ShloMosaic Idealize.SL.Sem Idealize.ShloMosaic.ValueIdx
open Facts₀ Facts

variable [Facts]

/-! ## Words -/

theorem slt_zero_of_nonneg {w : BitVec 32} (h : 0 ≤ w.toInt) : IntOp.cmpi .slt w 0#32 = 0#1 := by
  have h0 : (0#32 : BitVec 32).toInt = 0 := by decide
  simp only [IntOp.cmpi, BitVec.slt, h0]
  rw [decide_eq_false (by omega)]; rfl

theorem sge_zero_of_nonneg {w : BitVec 32} (h : 0 ≤ w.toInt) : IntOp.cmpi .sge w 0#32 = 1#1 := by
  have h0 : (0#32 : BitVec 32).toInt = 0 := by decide
  simp only [IntOp.cmpi, BitVec.sle, h0]
  rw [decide_eq_true (by omega)]; rfl

theorem sle_max_of_le {w : BitVec 32} (h : w.toInt ≤ 99999) : IntOp.cmpi .sle w 99999#32 = 1#1 := by
  have h0 : (99999#32 : BitVec 32).toInt = 99999 := by decide
  simp only [IntOp.cmpi, BitVec.sle, h0]
  rw [decide_eq_true (by omega)]; rfl

/-! ## The index planes -/

theorem plane0_apply (x : (⟨S4x4096x50, .i32⟩ : BufTy).Contents (Elt Ideal)) (r : Fin 4096) (l : Fin 50) :
    RefTerm.plane0 (F := Ideal) x (ix2 r l) = x (ix3 (0 : Fin 4) r l) := by
  show shapeCast S4096x50 (extractStridedSlice S1x4096x50 ![0, 0, 0] x slices_S4x4096x50_S1x4096x50_0_0_0)
    shapeCasts_S1x4096x50_S4096x50 (ix2 r l) = _
  refine (shapeCast_1ab_ab_apply _ _ r l).trans ?_
  refine extractStridedSlice_apply _ x _ _ _ fun a => ?_
  match a with
  | ⟨0, _⟩ => rfl
  | ⟨1, _⟩ => exact (Nat.zero_add _).symm
  | ⟨2, _⟩ => exact (Nat.zero_add _).symm

theorem plane2_apply (x : (⟨S4x4096x50, .i32⟩ : BufTy).Contents (Elt Ideal)) (r : Fin 4096) (l : Fin 50) :
    RefTerm.plane2 (F := Ideal) x (ix2 r l) = x (ix3 (2 : Fin 4) r l) := by
  show shapeCast S4096x50 (extractStridedSlice S1x4096x50 ![2, 0, 0] x slices_S4x4096x50_S1x4096x50_2_0_0)
    shapeCasts_S1x4096x50_S4096x50 (ix2 r l) = _
  refine (shapeCast_1ab_ab_apply _ _ r l).trans ?_
  refine extractStridedSlice_apply _ x _ _ _ fun a => ?_
  match a with
  | ⟨0, _⟩ => rfl
  | ⟨1, _⟩ => exact (Nat.zero_add _).symm
  | ⟨2, _⟩ => exact (Nat.zero_add _).symm

theorem plane3_apply (x : (⟨S4x4096x50, .i32⟩ : BufTy).Contents (Elt Ideal)) (r : Fin 4096) (l : Fin 50) :
    RefTerm.plane3 (F := Ideal) x (ix2 r l) = x (ix3 (3 : Fin 4) r l) := by
  show shapeCast S4096x50 (extractStridedSlice S1x4096x50 ![3, 0, 0] x slices_S4x4096x50_S1x4096x50_3_0_0)
    shapeCasts_S1x4096x50_S4096x50 (ix2 r l) = _
  refine (shapeCast_1ab_ab_apply _ _ r l).trans ?_
  refine extractStridedSlice_apply _ x _ _ _ fun a => ?_
  match a with
  | ⟨0, _⟩ => rfl
  | ⟨1, _⟩ => exact (Nat.zero_add _).symm
  | ⟨2, _⟩ => exact (Nat.zero_add _).symm

/-! ## One take -/

/-- An index that is not negative is not wrapped. -/
theorem wrapped_apply (ix : (⟨S4096x50, .i32⟩ : BufTy).Contents (Elt Ideal)) (i : S4096x50.Idx) (h : 0 ≤ (ix i).toInt) :
    RefTerm.wrapped (F := Ideal) ix i = ix i := by
  show Scalar.select (IntOp.cmpi .slt (ix i) 0#32) (IntOp.addi (ix i) 100000#32) (ix i) = ix i
  rw [slt_zero_of_nonneg h, select_zero]

/-- The column of index vectors at (r, l, 0) is the wrapped index at (r, l). -/
theorem idx3_apply (ix : (⟨S4096x50, .i32⟩ : BufTy).Contents (Elt Ideal)) (r : Fin 4096) (l : Fin 50) (u : Fin 1) :
    RefTerm.idx3 (F := Ideal) ix (ix3 r l u) = RefTerm.wrapped (F := Ideal) ix (ix2 r l) := by
  unfold RefTerm.idx3
  refine broadcastInDim_apply _ _ _ _ _ fun a => ?_
  match a with
  | ⟨0, _⟩ => rfl
  | ⟨1, _⟩ => rfl

/-- A reduction by "and" from "true" of an array that is "true" everywhere is "true". -/
theorem reduce_andi_one {s t u : Shape} {axes : List (Fin s.rank)} (x : s.Idx → BitVec 1) (init : u.Idx → BitVec 1)
    (h : s.ReducesTo axes t) (hu : 0 < u.numel) (j : t.Idx)
    (hx : ∀ i, x i = 1#1) (hi : init (Shape.Idx.first hu) = 1#1) : Host.reduce IntOp.andi x init h hu j = 1#1 := by
  rw [Host.reduce_eq_foldl, hi]
  generalize (((List.finRange s.numel).map s.rowMajor.symm).filter fun i => h.drop i = j) = L
  induction L with
  | nil => rfl
  | cons a L ih =>
    rw [List.foldl_cons, hx a, show IntOp.andi (1#1 : BitVec 1) 1#1 = 1#1 from by decide]
    exact ih

/-- With every index in range the bounds mask is "true" everywhere. -/
theorem inBounds_apply (ix : (⟨S4096x50, .i32⟩ : BufTy).Contents (Elt Ideal))
    (hix : ∀ i, 0 ≤ (ix i).toInt ∧ (ix i).toInt ≤ 99999) (j : S4096x50.Idx) :
    RefTerm.inBounds (F := Ideal) ix j = 1#1 := by
  unfold RefTerm.inBounds
  refine reduce_andi_one _ _ _ _ _ (fun i => ?_) rfl
  obtain ⟨r, l, u, rfl⟩ : ∃ (r : Fin 4096) (l : Fin 50) (u : Fin 1), i = ix3 r l u := ⟨i 0, i 1, i 2, eq_ix3 i⟩
  show IntOp.andi (IntOp.cmpi .sge (RefTerm.idx3 (F := Ideal) ix (ix3 r l u)) 0#32)
    (IntOp.cmpi .sle (RefTerm.idx3 (F := Ideal) ix (ix3 r l u)) 99999#32) = 1#1
  rw [idx3_apply, wrapped_apply ix _ (hix _).1, sge_zero_of_nonneg (hix _).1, sle_max_of_le (hix _).2]
  rfl

/-- The gather at (r, l, e): the table at the row the start index (r, l, 0) names, read signed and clamped, column e. -/
theorem gathered_apply (tbl : (⟨S100000x128, .f32⟩ : BufTy).Contents (Elt Ideal))
    (ix : (⟨S4096x50, .i32⟩ : BufTy).Contents (Elt Ideal)) (r : Fin 4096) (l : Fin 50) (e : Fin 128) :
    RefTerm.gathered (F := Ideal) tbl ix (ix3 r l e)
      = tbl (ix2 (Spec.rowOf (RefTerm.idx3 (F := Ideal) ix (ix3 r l (0 : Fin 1)))) e) := by
  unfold RefTerm.gathered Host.gather
  refine congrArg tbl (funext fun a => Fin.ext ?_)
  match a with
  | ⟨0, _⟩ =>
    show gather_S100000x128_S4096x50x1_S4096x50x128_2_0_n_n_0_2_1128.start (ix3 r l e) (RefTerm.idx3 (F := Ideal) ix) 0
      + gather_S100000x128_S4096x50x1_S4096x50x128_2_0_n_n_0_2_1128.batchCoord (ix3 r l e) 0
      + gather_S100000x128_S4096x50x1_S4096x50x128_2_0_n_n_0_2_1128.offCoord (ix3 r l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x128_S4096x50x1_S4096x50x128_2_0_n_n_0_2_1128.startIndexMap from
      List.mem_singleton.mpr rfl)]
    have hsi : gather_S100000x128_S4096x50x1_S4096x50x128_2_0_n_n_0_2_1128.siIdx (ix3 r l e)
        ⟨List.idxOf (0 : Fin 2) gather_S100000x128_S4096x50x1_S4096x50x128_2_0_n_n_0_2_1128.startIndexMap,
          List.idxOf_lt_length_iff.2 (List.mem_singleton.mpr rfl)⟩ = ix3 r l (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100000x128_S4096x50x1_S4096x50x128_2_0_n_n_0_2_1128.start (ix3 r l e) (RefTerm.idx3 (F := Ideal) ix) 1
      + gather_S100000x128_S4096x50x1_S4096x50x128_2_0_n_n_0_2_1128.batchCoord (ix3 r l e) 1
      + gather_S100000x128_S4096x50x1_S4096x50x128_2_0_n_n_0_2_1128.offCoord (ix3 r l e) 1 = e.val
    rw [GatherDims.batchCoord_eq_zero _ _ _ List.not_mem_nil]
    unfold GatherDims.start
    rw [dif_neg (show ¬ (1 : Fin 2) ∈ gather_S100000x128_S4096x50x1_S4096x50x128_2_0_n_n_0_2_1128.startIndexMap from
      fun h => absurd (List.mem_singleton.mp h) (by decide))]
    simp only [Nat.add_zero, Nat.zero_add]
    rfl

/-- One take at (r, l, e), every index in range: the table's row the index names, column e. -/
theorem taken_apply (tbl : (⟨S100000x128, .f32⟩ : BufTy).Contents (Elt Ideal))
    (ix : (⟨S4096x50, .i32⟩ : BufTy).Contents (Elt Ideal))
    (hix : ∀ i, 0 ≤ (ix i).toInt ∧ (ix i).toInt ≤ 99999) (r : Fin 4096) (l : Fin 50) (e : Fin 128) :
    RefTerm.taken (F := Ideal) tbl ix (ix3 r l e) = tbl (ix2 (Spec.rowOf (ix (ix2 r l))) e) := by
  have hb : broadcastInDim S4096x50x128 ![0, 1] bcast_S4096x50_S4096x50x128_0_1 (RefTerm.inBounds (F := Ideal) ix) (ix3 r l e)
      = RefTerm.inBounds (F := Ideal) ix (ix2 r l) := by
    refine broadcastInDim_apply _ _ _ _ _ fun a => ?_
    match a with
    | ⟨0, _⟩ => rfl
    | ⟨1, _⟩ => rfl
  unfold RefTerm.taken
  rw [select_apply, hb, inBounds_apply ix hix, select_one, gathered_apply, idx3_apply, wrapped_apply ix _ (hix _).1]

/-! ## The three takes side by side, summed over the fifty positions, divided by fifty -/

theorem catted_apply0 (x : (⟨S4x4096x50, .i32⟩ : BufTy).Contents (Elt Ideal))
    (t1 t2 t3 : (⟨S100000x128, .f32⟩ : BufTy).Contents (Elt Ideal)) (r : Fin 4096) (l : Fin 50) (e : Fin 128) :
    RefTerm.catted (F := Ideal) x t1 t2 t3 (ix3 r l (Spec.k384 0 e))
      = RefTerm.taken (F := Ideal) t1 (RefTerm.plane0 (F := Ideal) x) (ix3 r l e) := by
  unfold RefTerm.catted
  refine concatenate_apply_piece (2 : Fin S4096x50x384.rank) _ _ (ix3 r l (Spec.k384 0 e)) 0 ?_ S4096x50x128 _ rfl rfl 0 rfl
    (ix3 r l e) (fun b hb => ?_) ?_
  · show (0 : ℕ) < 3
    decide
  · match b with
    | ⟨0, _⟩ => rfl
    | ⟨1, _⟩ => rfl
    | ⟨2, _⟩ => exact absurd rfl hb
  · show 0 + e.val = 128 * 0 + e.val
    omega

theorem catted_apply1 (x : (⟨S4x4096x50, .i32⟩ : BufTy).Contents (Elt Ideal))
    (t1 t2 t3 : (⟨S100000x128, .f32⟩ : BufTy).Contents (Elt Ideal)) (r : Fin 4096) (l : Fin 50) (e : Fin 128) :
    RefTerm.catted (F := Ideal) x t1 t2 t3 (ix3 r l (Spec.k384 1 e))
      = RefTerm.taken (F := Ideal) t2 (RefTerm.plane2 (F := Ideal) x) (ix3 r l e) := by
  unfold RefTerm.catted
  refine concatenate_apply_piece (2 : Fin S4096x50x384.rank) _ _ (ix3 r l (Spec.k384 1 e)) 1 ?_ S4096x50x128 _ rfl rfl 128 rfl
    (ix3 r l e) (fun b hb => ?_) ?_
  · show (1 : ℕ) < 3
    decide
  · match b with
    | ⟨0, _⟩ => rfl
    | ⟨1, _⟩ => rfl
    | ⟨2, _⟩ => exact absurd rfl hb
  · show 128 + e.val = 128 * 1 + e.val
    omega

theorem catted_apply2 (x : (⟨S4x4096x50, .i32⟩ : BufTy).Contents (Elt Ideal))
    (t1 t2 t3 : (⟨S100000x128, .f32⟩ : BufTy).Contents (Elt Ideal)) (r : Fin 4096) (l : Fin 50) (e : Fin 128) :
    RefTerm.catted (F := Ideal) x t1 t2 t3 (ix3 r l (Spec.k384 2 e))
      = RefTerm.taken (F := Ideal) t3 (RefTerm.plane3 (F := Ideal) x) (ix3 r l e) := by
  unfold RefTerm.catted
  refine concatenate_apply_piece (2 : Fin S4096x50x384.rank) _ _ (ix3 r l (Spec.k384 2 e)) 2 ?_ S4096x50x128 _ rfl rfl 256 rfl
    (ix3 r l e) (fun b hb => ?_) ?_
  · show (2 : ℕ) < 3
    decide
  · match b with
    | ⟨0, _⟩ => rfl
    | ⟨1, _⟩ => rfl
    | ⟨2, _⟩ => exact absurd rfl hb
  · show 256 + e.val = 128 * 2 + e.val
    omega

/-- Column 128 t + e of the concatenation at (r, l), every index in range: table t at the row that plane t of the index
    array names at (r, l), column e. -/
theorem catted_apply (x : (⟨S4x4096x50, .i32⟩ : BufTy).Contents (Elt Ideal))
    (t1 t2 t3 : (⟨S100000x128, .f32⟩ : BufTy).Contents (Elt Ideal))
    (hx : ∀ j, 0 ≤ (x j).toInt ∧ (x j).toInt ≤ 99999) (t : Fin 3) (r : Fin 4096) (l : Fin 50) (e : Fin 128) :
    RefTerm.catted (F := Ideal) x t1 t2 t3 (ix3 r l (Spec.k384 t e))
      = Spec.tbl t1 t2 t3 t (ix2 (Spec.rowOf (x (ix3 (Spec.plane t) r l))) e) := by
  have h0 : ∀ i, 0 ≤ (RefTerm.plane0 (F := Ideal) x i).toInt ∧ (RefTerm.plane0 (F := Ideal) x i).toInt ≤ 99999 := fun i => by
    obtain ⟨a, b, rfl⟩ : ∃ (a : Fin 4096) (b : Fin 50), i = ix2 a b := ⟨i 0, i 1, eq_ix2 i⟩
    rw [plane0_apply]; exact hx _
  have h2 : ∀ i, 0 ≤ (RefTerm.plane2 (F := Ideal) x i).toInt ∧ (RefTerm.plane2 (F := Ideal) x i).toInt ≤ 99999 := fun i => by
    obtain ⟨a, b, rfl⟩ : ∃ (a : Fin 4096) (b : Fin 50), i = ix2 a b := ⟨i 0, i 1, eq_ix2 i⟩
    rw [plane2_apply]; exact hx _
  have h3 : ∀ i, 0 ≤ (RefTerm.plane3 (F := Ideal) x i).toInt ∧ (RefTerm.plane3 (F := Ideal) x i).toInt ≤ 99999 := fun i => by
    obtain ⟨a, b, rfl⟩ : ∃ (a : Fin 4096) (b : Fin 50), i = ix2 a b := ⟨i 0, i 1, eq_ix2 i⟩
    rw [plane3_apply]; exact hx _
  match t with
  | ⟨0, _⟩ =>
    refine (catted_apply0 x t1 t2 t3 r l e).trans ?_
    rw [taken_apply t1 _ h0, plane0_apply]
    rfl
  | ⟨1, _⟩ =>
    refine (catted_apply1 x t1 t2 t3 r l e).trans ?_
    rw [taken_apply t2 _ h2, plane2_apply]
    rfl
  | ⟨2, _⟩ =>
    refine (catted_apply2 x t1 t2 t3 r l e).trans ?_
    rw [taken_apply t3 _ h3, plane3_apply]
    rfl

/-- The sum over the fifty positions, from the zero word. -/
theorem summed_apply (x : (⟨S4x4096x50, .i32⟩ : BufTy).Contents (Elt Ideal))
    (t1 t2 t3 : (⟨S100000x128, .f32⟩ : BufTy).Contents (Elt Ideal)) (r : Fin 4096) (k : Fin 384) :
    RefTerm.summed (F := Ideal) x t1 t2 t3 (ix2 r k)
      = ∑ l : Fin 50, RefTerm.catted (F := Ideal) x t1 t2 t3 (ix3 r l k) := by
  have hR : S4096x50x384.Reduces [1] S4096x384 := by decide
  unfold RefTerm.summed
  rw [hostReduceAdd_apply]
  refine (Ideal.hostReduceAdd_single reducesTo_S4096x50x384_S4096x384_d1 hR _ _ (ix2 r k)).trans ?_
  rw [constant_apply, Ideal.ofBits_zero_f32, zero_add]
  show ∑ l : Fin 50, RefTerm.catted (F := Ideal) x t1 t2 t3 (hR.lift (ix2 r k) l) = _
  refine Finset.sum_congr rfl fun l _ => congrArg _ (funext fun c => Fin.ext ?_)
  match c with
  | ⟨0, _⟩ => rfl
  | ⟨1, _⟩ => rfl
  | ⟨2, _⟩ => rfl

/-- The mean: that sum times the real 1/50. -/
theorem pooled_apply (x : (⟨S4x4096x50, .i32⟩ : BufTy).Contents (Elt Ideal))
    (t1 t2 t3 : (⟨S100000x128, .f32⟩ : BufTy).Contents (Elt Ideal)) (r : Fin 4096) (k : Fin 384) :
    RefTerm.pooled (F := Ideal) x t1 t2 t3 (ix2 r k)
      = (∑ l : Fin 50, RefTerm.catted (F := Ideal) x t1 t2 t3 (ix3 r l k)) * ((1 / 50 : ℝ) : EReal) := by
  unfold RefTerm.pooled
  rw [hostDivf_apply, summed_apply, broadcastInDim_scalar_apply, constant_apply, Spec.ofBits_fifty, Spec.div_fifty]

/-- Column 128 t + e of the mean is the specification's average. -/
theorem pooled_eq (x : (⟨S4x4096x50, .i32⟩ : BufTy).Contents (Elt Ideal))
    (t1 t2 t3 : (⟨S100000x128, .f32⟩ : BufTy).Contents (Elt Ideal))
    (hx : ∀ j, 0 ≤ (x j).toInt ∧ (x j).toInt ≤ 99999) (t : Fin 3) (r : Fin 4096) (e : Fin 128) :
    RefTerm.pooled (F := Ideal) x t1 t2 t3 (ix2 r (Spec.k384 t e)) = Spec.pooledAt x t1 t2 t3 t r e := by
  rw [pooled_apply]
  unfold Spec.pooledAt
  exact congrArg (· * ((1 / 50 : ℝ) : EReal)) (Finset.sum_congr rfl fun l _ => catted_apply x t1 t2 t3 hx t r l e)

/-! ## The two dense layers -/

/-- A bias vector laid along the rows of a [4096, 256] array reads, at (r, h), the vector at h. -/
theorem bias256_apply (b1 : (⟨S256, .f32⟩ : BufTy).Contents (Elt Ideal)) (r : Fin 4096) (h : Fin 256) :
    broadcastInDim S4096x256 ![0, 1] bcast_S1x256_S4096x256_0_1 (broadcastInDim S1x256 ![1] bcast_S256_S1x256_1 b1) (ix2 r h)
      = b1 (ix1 h) := by
  refine (broadcastInDim_apply _ _ _ _ (ix2 (0 : Fin 1) h) fun a => ?_).trans
    (broadcastInDim_apply _ _ _ _ (ix1 h) fun a => ?_)
  · match a with
    | ⟨0, _⟩ => rfl
    | ⟨1, _⟩ => rfl
  · match a with
    | ⟨0, _⟩ => rfl

/-- A bias vector laid along the rows of a [4096, 10] array reads, at (r, c), the vector at c. -/
theorem bias10_apply (b2 : (⟨S10, .f32⟩ : BufTy).Contents (Elt Ideal)) (r : Fin 4096) (c : Fin 10) :
    broadcastInDim S4096x10 ![0, 1] bcast_S1x10_S4096x10_0_1 (broadcastInDim S1x10 ![1] bcast_S10_S1x10_1 b2) (ix2 r c)
      = b2 (ix1 c) := by
  refine (broadcastInDim_apply _ _ _ _ (ix2 (0 : Fin 1) c) fun a => ?_).trans
    (broadcastInDim_apply _ _ _ _ (ix1 c) fun a => ?_)
  · match a with
    | ⟨0, _⟩ => rfl
    | ⟨1, _⟩ => rfl
  · match a with
    | ⟨0, _⟩ => rfl

/-- The first layer before the rectifier at (r, h): the row of means against column h of W1, plus b1 at h. -/
theorem hiddenPre_apply (x : (⟨S4x4096x50, .i32⟩ : BufTy).Contents (Elt Ideal))
    (t1 t2 t3 : (⟨S100000x128, .f32⟩ : BufTy).Contents (Elt Ideal))
    (W1 : (⟨S384x256, .f32⟩ : BufTy).Contents (Elt Ideal)) (b1 : (⟨S256, .f32⟩ : BufTy).Contents (Elt Ideal))
    (r : Fin 4096) (h : Fin 256) :
    RefTerm.hiddenPre (F := Ideal) x t1 t2 t3 W1 b1 (ix2 r h)
      = (∑ k : Fin 384, RefTerm.pooled (F := Ideal) x t1 t2 t3 (ix2 r k) * W1 (ix2 k h)) + b1 (ix1 h) := by
  unfold RefTerm.hiddenPre
  rw [addf_apply, bias256_apply]
  exact congrArg (· + b1 (ix1 h))
    (StackMember.dotGeneral_plain_apply (m := 4096) (n := 256) (k := 384) none (RefTerm.pooled (F := Ideal) x t1 t2 t3) W1 r h)

/-- The rectifier: the maximum with the zero word's value, 0. -/
theorem hidden_apply (x : (⟨S4x4096x50, .i32⟩ : BufTy).Contents (Elt Ideal))
    (t1 t2 t3 : (⟨S100000x128, .f32⟩ : BufTy).Contents (Elt Ideal))
    (W1 : (⟨S384x256, .f32⟩ : BufTy).Contents (Elt Ideal)) (b1 : (⟨S256, .f32⟩ : BufTy).Contents (Elt Ideal))
    (r : Fin 4096) (h : Fin 256) :
    RefTerm.hidden (F := Ideal) x t1 t2 t3 W1 b1 (ix2 r h)
      = max (RefTerm.hiddenPre (F := Ideal) x t1 t2 t3 W1 b1 (ix2 r h)) 0 := by
  unfold RefTerm.hidden
  rw [maximumf_apply, broadcastInDim_scalar_apply, constant_apply, Ideal.ofBits_zero_f32]

/-- The second layer at (r, c): the hidden row against column c of W2, plus b2 at c. -/
theorem result_apply (x : (⟨S4x4096x50, .i32⟩ : BufTy).Contents (Elt Ideal))
    (t1 t2 t3 : (⟨S100000x128, .f32⟩ : BufTy).Contents (Elt Ideal))
    (W1 : (⟨S384x256, .f32⟩ : BufTy).Contents (Elt Ideal)) (b1 : (⟨S256, .f32⟩ : BufTy).Contents (Elt Ideal))
    (W2 : (⟨S256x10, .f32⟩ : BufTy).Contents (Elt Ideal)) (b2 : (⟨S10, .f32⟩ : BufTy).Contents (Elt Ideal))
    (r : Fin 4096) (c : Fin 10) :
    RefTerm.result (F := Ideal) x t1 t2 t3 W1 b1 W2 b2 (ix2 r c)
      = (∑ h : Fin 256, RefTerm.hidden (F := Ideal) x t1 t2 t3 W1 b1 (ix2 r h) * W2 (ix2 h c)) + b2 (ix1 c) := by
  unfold RefTerm.result
  rw [addf_apply, bias10_apply]
  exact congrArg (· + b2 (ix1 c))
    (StackMember.dotGeneral_plain_apply (m := 4096) (n := 10) (k := 256) none (RefTerm.hidden (F := Ideal) x t1 t2 t3 W1 b1) W2 r c)

/-! ## The reference's value is the specification -/

/-- The hidden layer at (r, h) is the specification's. -/
theorem hidden_eq (x : (⟨S4x4096x50, .i32⟩ : BufTy).Contents (Elt Ideal))
    (t1 t2 t3 : (⟨S100000x128, .f32⟩ : BufTy).Contents (Elt Ideal))
    (W1 : (⟨S384x256, .f32⟩ : BufTy).Contents (Elt Ideal)) (b1 : (⟨S256, .f32⟩ : BufTy).Contents (Elt Ideal))
    (hx : ∀ j, 0 ≤ (x j).toInt ∧ (x j).toInt ≤ 99999) (r : Fin 4096) (h : Fin 256) :
    RefTerm.hidden (F := Ideal) x t1 t2 t3 W1 b1 (ix2 r h) = Spec.hiddenAt x t1 t2 t3 W1 b1 r h := by
  rw [hidden_apply, hiddenPre_apply, Spec.sum_384]
  unfold Spec.hiddenAt
  refine congrArg (fun s => max (s + b1 (ix1 h)) 0) ?_
  exact Finset.sum_congr rfl fun t _ => Finset.sum_congr rfl fun e _ => by rw [pooled_eq x t1 t2 t3 hx t r e]

/-- With every index word in [0, 99999] the reference's result is the specification, index by index. -/
theorem result_eq (x : (⟨S4x4096x50, .i32⟩ : BufTy).Contents (Elt Ideal))
    (t1 t2 t3 : (⟨S100000x128, .f32⟩ : BufTy).Contents (Elt Ideal))
    (W1 : (⟨S384x256, .f32⟩ : BufTy).Contents (Elt Ideal)) (b1 : (⟨S256, .f32⟩ : BufTy).Contents (Elt Ideal))
    (W2 : (⟨S256x10, .f32⟩ : BufTy).Contents (Elt Ideal)) (b2 : (⟨S10, .f32⟩ : BufTy).Contents (Elt Ideal))
    (hx : ∀ j : Spec.S4x4096x50.Idx, 0 ≤ (x j).toInt ∧ (x j).toInt ≤ 99999) :
    RefTerm.result (F := Ideal) x t1 t2 t3 W1 b1 W2 b2 = fun i => Spec.G x t1 t2 t3 W1 b1 W2 b2 i := by
  funext j
  obtain ⟨r, c, rfl⟩ : ∃ (r : Fin 4096) (c : Fin 10), j = ix2 r c := ⟨j 0, j 1, eq_ix2 j⟩
  rw [Spec.G_ix2, result_apply]
  unfold Spec.outAt
  refine congrArg (· + b2 (ix1 c)) ?_
  exact Finset.sum_congr rfl fun h _ => by rw [hidden_eq x t1 t2 t3 W1 b1 hx r h]

end Cert.ReferenceIdeal.RefValue

end
-- ==== Proof.lean ====
/- The proof of `Cert.Claim`.

   The kernel gathers, for each of three tables, the fifty rows that one plane of the index array names for each of the
   4096 examples, sums them and multiplies by a constant it names 1/50; it then passes the three averages through two
   dense layers: the three 128-column blocks against the three 128-row slabs of the first weight, added left to right,
   plus a bias, clipped below at 0, then the second weight and bias (padded to 128 columns, the first ten kept).  The
   reference takes the same rows with a clamped gather (under the index range its bounds mask is true everywhere and
   its clamp is the identity), lays the three takes side by side, sums over the fifty positions from zero, divides by
   fifty, and applies the same two layers to the 384-wide row.

   At the ideal floats (extended reals, every operation exact) both are ONE function of the eight arguments,
   index by index.  Two laws join them, on every extended real: dividing by fifty is multiplying by the real 1/50;
   and a sum over 384 columns is the sum over three blocks of 128, taken left to right.  No finiteness is used.

   The index range, 0 ≤ x ≤ 99999, is read out of the input-domain predicate; it is what lets every gathered row be
   a row of its table on both sides.  The word-level program and its idealization differ in the named constant only
   (the ledger's one entry, repeated).  Each program's run gives the frame; the two values give the algebraic claim. -/
import proofs.«207262_g39728447488703_cont_8to1_b_1934_40_alg».proof.Defs
import proofs.«207262_g39728447488703_cont_8to1_b_1934_40_alg».proof.Proof.Gen.Kernel
import proofs.«207262_g39728447488703_cont_8to1_b_1934_40_alg».proof.Proof.Gen.KernelIdeal
import proofs.«207262_g39728447488703_cont_8to1_b_1934_40_alg».proof.Proof.Gen.ReferenceIdeal
import proofs.«207262_g39728447488703_cont_8to1_b_1934_40_alg».proof.Proof.Gen.Pre_input_domain
import proofs.«207262_g39728447488703_cont_8to1_b_1934_40_alg».proof.Proof.ScTileObl
import proofs.«207262_g39728447488703_cont_8to1_b_1934_40_alg».proof.Proof.ScTileTop
import proofs.«207262_g39728447488703_cont_8to1_b_1934_40_alg».proof.Proof.ScRun
import proofs.«207262_g39728447488703_cont_8to1_b_1934_40_alg».proof.Proof.PreOK
import proofs.«207262_g39728447488703_cont_8to1_b_1934_40_alg».proof.Proof.B_ScTileObl
import proofs.«207262_g39728447488703_cont_8to1_b_1934_40_alg».proof.Proof.B_ScTileTop
import proofs.«207262_g39728447488703_cont_8to1_b_1934_40_alg».proof.Proof.B_ScRun
import proofs.«207262_g39728447488703_cont_8to1_b_1934_40_alg».proof.Proof.B_PreOK
import proofs.«207262_g39728447488703_cont_8to1_b_1934_40_alg».proof.Proof.Bridge
import proofs.«207262_g39728447488703_cont_8to1_b_1934_40_alg».proof.Proof.RefRun
import proofs.«207262_g39728447488703_cont_8to1_b_1934_40_alg».proof.Proof.RefValue
import proofs.«207262_g39728447488703_cont_8to1_b_1934_40_alg».proof.Proof.PreDecode
import proofs.«207262_g39728447488703_cont_8to1_b_1934_40_alg».proof.Proof.Preserves

noncomputable section

namespace Cert.Proof

open Idealize.ShloMosaic Idealize.SL.Sem

/-- The statement of the idealized kernel program's run: from a memory whose flat index words are row numbers, it ends with
    the result at the kernel's value and the arguments unchanged. -/
abbrev RunI : Prop :=
  ∀ (m : (ℓ : Loc Cert.KernelIdeal.nD Cert.KernelIdeal.τ Cert.KernelIdeal.sig) → Buf (Elt Ideal) ℓ) (ρ : Dev Cert.KernelIdeal.nD → PrngReg),
    Cert.KernelIdeal.Sc.PreOK (Cert.KernelIdeal.Sc.mK m) →
    θ_run (Cert.KernelIdeal.defs (F := Ideal)) (Cert.KernelIdeal.threads (F := Ideal)) ⟨m, fun _ => 0, ρ⟩
      (Cert.KernelIdeal.Sc.QC m (Cert.KernelIdeal.TcRegion.tcOut (F := Ideal)))

/-- The statement of the reference's run: it ends with the result at the reference's composed term of the arguments, the
    arguments unchanged. -/
abbrev RunR : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v22)
            = Cert.ReferenceIdeal.RefTerm.result (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
                (m ((c.tc : Thread Cert.ReferenceIdeal.nD Cert.ReferenceIdeal.τ).loc Cert.ReferenceIdeal.main_arg3))
                (m ((c.tc : Thread Cert.ReferenceIdeal.nD Cert.ReferenceIdeal.τ).loc Cert.ReferenceIdeal.main_arg4))
                (m ((c.tc : Thread Cert.ReferenceIdeal.nD Cert.ReferenceIdeal.τ).loc Cert.ReferenceIdeal.main_arg5))
                (m ((c.tc : Thread Cert.ReferenceIdeal.nD Cert.ReferenceIdeal.τ).loc Cert.ReferenceIdeal.main_arg6))
                (m ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

/-- The idealized kernel program runs and leaves its arguments. -/
theorem frame_ki (hI : RunI) : Cert.frame_KernelIdeal := fun m ρ hpre =>
  (θ_run (Cert.KernelIdeal.defs (F := Ideal)) _ _).mono (fun _ h c => (h c).2)
    (hI m ρ (Cert.KernelIdeal.Bridge.preOK_of_pre m hpre))

/-- The reference runs and leaves its arguments. -/
theorem frame_ri (hR : RunR) : Cert.frame_ReferenceIdeal := fun m ρ _ =>
  (θ_run (Cert.ReferenceIdeal.defs (F := Ideal)) _ _).mono (fun _ h c => (h c).2) (hR m ρ)

/-- From memories agreeing on the arguments both programs run and end with one result: the specification's function of the
    arguments, which the index range makes both sides' value. -/
theorem algebraic (hI : RunI) (hR : RunR) : Cert.algebraic_KernelIdeal_ReferenceIdeal := by
  intro m ρ m' ρ' hpre hagree
  refine ⟨fun c => Cert.KernelIdeal.Sc.outOf (F := Ideal) m (Cert.KernelIdeal.TcRegion.tcOut (F := Ideal)) c, ?_, ?_⟩
  · exact (θ_run (Cert.KernelIdeal.defs (F := Ideal)) _ _).mono (fun _ h c => h c)
      (hI m ρ (Cert.KernelIdeal.Bridge.preOK_of_pre m hpre))
  · refine (θ_run (Cert.ReferenceIdeal.defs (F := Ideal)) _ _).mono (fun _ h c => ⟨(h c).1.trans ?_, (h c).2⟩) (hR m' ρ')
    have hx := Cert.PreDecode.x_in_range (F := Ideal) _ _ _ _ _ _ _ _ (hpre c)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.ReferenceIdeal.RefValue.result_eq _ _ _ _ _ _ _ _ hx).trans (Cert.KernelIdeal.Bridge.out_eq_spec' m c hx).symm

/-- The claim, from the three programs' runs. -/
theorem claim_of (hI : RunI) (hB : Cert.frame_Kernel) (hR : RunR) : Cert.Claim :=
  ⟨Cert.Kernel.Gen.facts, Cert.KernelIdeal.Gen.facts, Cert.ReferenceIdeal.Gen.facts, Cert.Pre_input_domain.Gen.facts,
    hB, frame_ki hI, frame_ri hR, Cert.Proof.Preserves.preserves, algebraic hI hR⟩

/-! ## The three runs -/

/-- The idealized kernel program's run. -/
theorem run_ki : RunI := fun m ρ hpre =>
  Cert.KernelIdeal.Sc.run_main' m ρ hpre
    (Cert.KernelIdeal.Sc.tileObl (Cert.KernelIdeal.Sc.mK m) Cert.KernelIdeal.Sc.facts hpre
      (fun d L O W hO => Cert.KernelIdeal.Sc.tile_body (Cert.KernelIdeal.Sc.mK m) Cert.KernelIdeal.Sc.facts hpre d L O W hO))

/-- The word-level kernel program runs and leaves its arguments. -/
theorem frame_k : Cert.frame_Kernel := fun m ρ hpre =>
  (θ_run (Cert.Kernel.defs (F := Bits)) _ _).mono (fun _ h c => (h c).2)
    (Cert.Kernel.Sc.run_main' m ρ (Cert.Kernel.PreOK.preOK_of_pre m hpre)
      (Cert.Kernel.Sc.tileObl (Cert.Kernel.Sc.mK m) Cert.Kernel.Sc.facts (Cert.Kernel.PreOK.preOK_of_pre m hpre)
        (fun d L O W hO => Cert.Kernel.Sc.tile_body (Cert.Kernel.Sc.mK m) Cert.Kernel.Sc.facts (Cert.Kernel.PreOK.preOK_of_pre m hpre) d L O W hO)))

/-- The reference's run. -/
theorem run_ri : RunR := fun m ρ => Cert.ReferenceIdeal.RefRun.run m ρ

theorem claim : Cert.Claim := claim_of run_ki frame_k run_ri

end Cert.Proof

end
